-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v724)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v724) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v833) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S2048x2048x2 : Shape := ⟨3, ![2048, 2048, 2]⟩
abbrev S2048x1 : Shape := ⟨2, ![2048, 1]⟩
abbrev S64x64x3 : Shape := ⟨3, ![64, 64, 3]⟩
abbrev S48x48x3 : Shape := ⟨3, ![48, 48, 3]⟩
abbrev S96x2 : Shape := ⟨2, ![96, 2]⟩
abbrev S32x32x1 : Shape := ⟨3, ![32, 32, 1]⟩
abbrev S32x32x4 : Shape := ⟨3, ![32, 32, 4]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S2048x2048x2 : S_.BroadcastsInDim S2048x2048x2 (![] : Fin 0 → Fin S2048x2048x2.rank)
  reducesTo_S2048x2048x2_S_d0_1_2 : S2048x2048x2.ReducesTo [0, 1, 2] S_
  bcast_S_S2048x1 : S_.BroadcastsInDim S2048x1 (![] : Fin 0 → Fin S2048x1.rank)
  reducesTo_S2048x1_S_d0_1 : S2048x1.ReducesTo [0, 1] S_
  bcast_S_S64x64x3 : S_.BroadcastsInDim S64x64x3 (![] : Fin 0 → Fin S64x64x3.rank)
  reducesTo_S64x64x3_S_d0_1_2 : S64x64x3.ReducesTo [0, 1, 2] S_
  bcast_S_S48x48x3 : S_.BroadcastsInDim S48x48x3 (![] : Fin 0 → Fin S48x48x3.rank)
  reducesTo_S48x48x3_S_d0_1_2 : S48x48x3.ReducesTo [0, 1, 2] S_
  bcast_S_S96x2 : S_.BroadcastsInDim S96x2 (![] : Fin 0 → Fin S96x2.rank)
  reducesTo_S96x2_S_d0_1 : S96x2.ReducesTo [0, 1] S_
  bcast_S_S32x32x1 : S_.BroadcastsInDim S32x32x1 (![] : Fin 0 → Fin S32x32x1.rank)
  reducesTo_S32x32x1_S_d0_1_2 : S32x32x1.ReducesTo [0, 1, 2] S_
  bcast_S_S32x32x4 : S_.BroadcastsInDim S32x32x4 (![] : Fin 0 → Fin S32x32x4.rank)
  reducesTo_S32x32x4_S_d0_1_2 : S32x32x4.ReducesTo [0, 1, 2] S_

variable [Facts]

def fn_part4 {F : FTy → Type} [FloatOps F] (main_arg14 : FVec F S32x32x1 .f32) (main_arg15 : FVec F S32x32x4 .f32) (main_arg16 : FVec F S32x32x4 .f32) (main_v63 : IVec S_ 1) (main_v67 : IVec S_ 1) : IVec S_ 1 :=
  let main_v68 : IVec S_ 1 := andi main_v63 main_v67
  let main_v69 : FVec F S32x32x1 .f32 := Host.absf main_arg14
  let main_cst_26 : FVec F S_ .f32 := constant S_ .f32 0x7F800000#32
  let main_v70 : FVec F S32x32x1 .f32 := broadcastInDim S32x32x1 ![] bcast_S_S32x32x1 main_cst_26
  let main_v71 : IVec S32x32x1 1 := cmpf .olt main_v69 main_v70
  let main_c_27 : IVec S_ 1 := constantI S_ 1 1#1
  let main_v72 : IVec S_ 1 := (fun x v => Host.reduce IntOp.andi x v reducesTo_S32x32x1_S_d0_1_2 h_S_) main_v71 main_c_27
  let main_v73 : IVec S_ 1 := andi main_v68 main_v72
  let main_v74 : FVec F S32x32x4 .f32 := Host.absf main_arg15
  let main_cst_28 : FVec F S_ .f32 := constant S_ .f32 0x7F800000#32
  let main_v75 : FVec F S32x32x4 .f32 := broadcastInDim S32x32x4 ![] bcast_S_S32x32x4 main_cst_28
  let main_v76 : IVec S32x32x4 1 := cmpf .olt main_v74 main_v75
  let main_c_29 : IVec S_ 1 := constantI S_ 1 1#1
  let main_v77 : IVec S_ 1 := (fun x v => Host.reduce IntOp.andi x v reducesTo_S32x32x4_S_d0_1_2 h_S_) main_v76 main_c_29
  let main_v78 : IVec S_ 1 := andi main_v73 main_v77
  let main_v79 : FVec F S32x32x4 .f32 := Host.absf main_arg16
  let main_cst_30 : FVec F S_ .f32 := constant S_ .f32 0x7F800000#32
  let main_v80 : FVec F S32x32x4 .f32 := broadcastInDim S32x32x4 ![] bcast_S_S32x32x4 main_cst_30
  let main_v81 : IVec S32x32x4 1 := cmpf .olt main_v79 main_v80
  let main_c_31 : IVec S_ 1 := constantI S_ 1 1#1
  let main_v82 : IVec S_ 1 := (fun x v => Host.reduce IntOp.andi x v reducesTo_S32x32x4_S_d0_1_2 h_S_) main_v81 main_c_31
  let main_v83 : IVec S_ 1 := andi main_v78 main_v82
  main_v83

def fn_part3 {F : FTy → Type} [FloatOps F] (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) (main_v48 : IVec S_ 1) (main_v49 : FVec F S2048x1 .f32) (main_v50 : FVec F S2048x1 .f32) : IVec S_ 1 :=
  let main_v51 : IVec S2048x1 1 := cmpf .olt main_v49 main_v50
  let main_c_19 : IVec S_ 1 := constantI S_ 1 1#1
  let main_v52 : IVec S_ 1 := (fun x v => Host.reduce IntOp.andi x v reducesTo_S2048x1_S_d0_1 h_S_) main_v51 main_c_19
  let main_v53 : IVec S_ 1 := andi main_v48 main_v52
  let main_v54 : FVec F S64x64x3 .f32 := Host.absf main_arg11
  let main_cst_20 : FVec F S_ .f32 := constant S_ .f32 0x7F800000#32
  let main_v55 : FVec F S64x64x3 .f32 := broadcastInDim S64x64x3 ![] bcast_S_S64x64x3 main_cst_20
  let main_v56 : IVec S64x64x3 1 := cmpf .olt main_v54 main_v55
  let main_c_21 : IVec S_ 1 := constantI S_ 1 1#1
  let main_v57 : IVec S_ 1 := (fun x v => Host.reduce IntOp.andi x v reducesTo_S64x64x3_S_d0_1_2 h_S_) main_v56 main_c_21
  let main_v58 : IVec S_ 1 := andi main_v53 main_v57
  let main_v59 : FVec F S48x48x3 .f32 := Host.absf main_arg12
  let main_cst_22 : FVec F S_ .f32 := constant S_ .f32 0x7F800000#32
  let main_v60 : FVec F S48x48x3 .f32 := broadcastInDim S48x48x3 ![] bcast_S_S48x48x3 main_cst_22
  let main_v61 : IVec S48x48x3 1 := cmpf .olt main_v59 main_v60
  let main_c_23 : IVec S_ 1 := constantI S_ 1 1#1
  let main_v62 : IVec S_ 1 := (fun x v => Host.reduce IntOp.andi x v reducesTo_S48x48x3_S_d0_1_2 h_S_) main_v61 main_c_23
  let main_v63 : IVec S_ 1 := andi main_v58 main_v62
  let main_v64 : FVec F S96x2 .f32 := Host.absf main_arg13
  let main_cst_24 : FVec F S_ .f32 := constant S_ .f32 0x7F800000#32
  let main_v65 : FVec F S96x2 .f32 := broadcastInDim S96x2 ![] bcast_S_S96x2 main_cst_24
  let main_v66 : IVec S96x2 1 := cmpf .olt main_v64 main_v65
  let main_c_25 : IVec S_ 1 := constantI S_ 1 1#1
  let main_v67 : IVec S_ 1 := (fun x v => Host.reduce IntOp.andi x v reducesTo_S96x2_S_d0_1 h_S_) main_v66 main_c_25
  fn_part4 (F := F) main_arg14 main_arg15 main_arg16 main_v63 main_v67

def fn_part2 {F : FTy → Type} [FloatOps F] (main_arg7 : FVec F S2097152x2 .f32) (main_arg8 : FVec F S2097152x2 .f32) (main_arg9 : FVec F S2048x2048x2 .f32) (main_arg10 : FVec F S2048x1 .f32) (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) (main_v33 : IVec S_ 1) : IVec S_ 1 :=
  let main_v34 : FVec F S2097152x2 .f32 := Host.absf main_arg7
  let main_cst_12 : FVec F S_ .f32 := constant S_ .f32 0x7F800000#32
  let main_v35 : FVec F S2097152x2 .f32 := broadcastInDim S2097152x2 ![] bcast_S_S2097152x2 main_cst_12
  let main_v36 : IVec S2097152x2 1 := cmpf .olt main_v34 main_v35
  let main_c_13 : IVec S_ 1 := constantI S_ 1 1#1
  let main_v37 : IVec S_ 1 := (fun x v => Host.reduce IntOp.andi x v reducesTo_S2097152x2_S_d0_1 h_S_) main_v36 main_c_13
  let main_v38 : IVec S_ 1 := andi main_v33 main_v37
  let main_v39 : FVec F S2097152x2 .f32 := Host.absf main_arg8
  let main_cst_14 : FVec F S_ .f32 := constant S_ .f32 0x7F800000#32
  let main_v40 : FVec F S2097152x2 .f32 := broadcastInDim S2097152x2 ![] bcast_S_S2097152x2 main_cst_14
  let main_v41 : IVec S2097152x2 1 := cmpf .olt main_v39 main_v40
  let main_c_15 : IVec S_ 1 := constantI S_ 1 1#1
  let main_v42 : IVec S_ 1 := (fun x v => Host.reduce IntOp.andi x v reducesTo_S2097152x2_S_d0_1 h_S_) main_v41 main_c_15
  let main_v43 : IVec S_ 1 := andi main_v38 main_v42
  let main_v44 : FVec F S2048x2048x2 .f32 := Host.absf main_arg9
  let main_cst_16 : FVec F S_ .f32 := constant S_ .f32 0x7F800000#32
  let main_v45 : FVec F S2048x2048x2 .f32 := broadcastInDim S2048x2048x2 ![] bcast_S_S2048x2048x2 main_cst_16
  let main_v46 : IVec S2048x2048x2 1 := cmpf .olt main_v44 main_v45
  let main_c_17 : IVec S_ 1 := constantI S_ 1 1#1
  let main_v47 : IVec S_ 1 := (fun x v => Host.reduce IntOp.andi x v reducesTo_S2048x2048x2_S_d0_1_2 h_S_) main_v46 main_c_17
  let main_v48 : IVec S_ 1 := andi main_v43 main_v47
  let main_v49 : FVec F S2048x1 .f32 := Host.absf main_arg10
  let main_cst_18 : FVec F S_ .f32 := constant S_ .f32 0x7F800000#32
  let main_v50 : FVec F S2048x1 .f32 := broadcastInDim S2048x1 ![] bcast_S_S2048x1 main_cst_18
  fn_part3 (F := F) main_arg11 main_arg12 main_arg13 main_arg14 main_arg15 main_arg16 main_v48 main_v49 main_v50

def fn_part1 {F : FTy → Type} [FloatOps F] (main_arg4 : FVec F S2097152x2 .f32) (main_arg5 : FVec F S2097152x2 .f32) (main_arg6 : FVec F S2097152x2 .f32) (main_arg7 : FVec F S2097152x2 .f32) (main_arg8 : FVec F S2097152x2 .f32) (main_arg9 : FVec F S2048x2048x2 .f32) (main_arg10 : FVec F S2048x1 .f32) (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) (main_v13 : IVec S_ 1) (main_v16 : IVec S2097152x2 1) : IVec S_ 1 :=
  let main_c_5 : IVec S_ 1 := constantI S_ 1 1#1
  let main_v17 : IVec S_ 1 := (fun x v => Host.reduce IntOp.andi x v reducesTo_S2097152x2_S_d0_1 h_S_) main_v16 main_c_5
  let main_v18 : IVec S_ 1 := andi main_v13 main_v17
  let main_v19 : FVec F S2097152x2 .f32 := Host.absf main_arg4
  let main_cst_6 : FVec F S_ .f32 := constant S_ .f32 0x7F800000#32
  let main_v20 : FVec F S2097152x2 .f32 := broadcastInDim S2097152x2 ![] bcast_S_S2097152x2 main_cst_6
  let main_v21 : IVec S2097152x2 1 := cmpf .olt main_v19 main_v20
  let main_c_7 : IVec S_ 1 := constantI S_ 1 1#1
  let main_v22 : IVec S_ 1 := (fun x v => Host.reduce IntOp.andi x v reducesTo_S2097152x2_S_d0_1 h_S_) main_v21 main_c_7
  let main_v23 : IVec S_ 1 := andi main_v18 main_v22
  let main_v24 : FVec F S2097152x2 .f32 := Host.absf main_arg5
  let main_cst_8 : FVec F S_ .f32 := constant S_ .f32 0x7F800000#32
  let main_v25 : FVec F S2097152x2 .f32 := broadcastInDim S2097152x2 ![] bcast_S_S2097152x2 main_cst_8
  let main_v26 : IVec S2097152x2 1 := cmpf .olt main_v24 main_v25
  let main_c_9 : IVec S_ 1 := constantI S_ 1 1#1
  let main_v27 : IVec S_ 1 := (fun x v => Host.reduce IntOp.andi x v reducesTo_S2097152x2_S_d0_1 h_S_) main_v26 main_c_9
  let main_v28 : IVec S_ 1 := andi main_v23 main_v27
  let main_v29 : FVec F S2097152x2 .f32 := Host.absf main_arg6
  let main_cst_10 : FVec F S_ .f32 := constant S_ .f32 0x7F800000#32
  let main_v30 : FVec F S2097152x2 .f32 := broadcastInDim S2097152x2 ![] bcast_S_S2097152x2 main_cst_10
  let main_v31 : IVec S2097152x2 1 := cmpf .olt main_v29 main_v30
  let main_c_11 : IVec S_ 1 := constantI S_ 1 1#1
  let main_v32 : IVec S_ 1 := (fun x v => Host.reduce IntOp.andi x v reducesTo_S2097152x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S2097152x2 .f32) (main_arg1 : FVec F S2097152x2 .f32) (main_arg2 : FVec F S2097152x2 .f32) (main_arg3 : FVec F S2097152x2 .f32) (main_arg4 : FVec F S2097152x2 .f32) (main_arg5 : FVec F S2097152x2 .f32) (main_arg6 : FVec F S2097152x2 .f32) (main_arg7 : FVec F S2097152x2 .f32) (main_arg8 : FVec F S2097152x2 .f32) (main_arg9 : FVec F S2048x2048x2 .f32) (main_arg10 : FVec F S2048x1 .f32) (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S2097152x2 .f32 := Host.absf main_arg1
  let main_cst_0 : FVec F S_ .f32 := constant S_ .f32 0x7F800000#32
  let main_v5 : FVec F S2097152x2 .f32 := broadcastInDim S2097152x2 ![] bcast_S_S2097152x2 main_cst_0
  let main_v6 : IVec S2097152x2 1 := cmpf .olt main_v4 main_v5
  let main_c_1 : IVec S_ 1 := constantI S_ 1 1#1
  let main_v7 : IVec S_ 1 := (fun x v => Host.reduce IntOp.andi x v reducesTo_S2097152x2_S_d0_1 h_S_) main_v6 main_c_1
  let main_v8 : IVec S_ 1 := andi main_v3 main_v7
  let main_v9 : FVec F S2097152x2 .f32 := Host.absf main_arg2
  let main_cst_2 : FVec F S_ .f32 := constant S_ .f32 0x7F800000#32
  let main_v10 : FVec F S2097152x2 .f32 := broadcastInDim S2097152x2 ![] bcast_S_S2097152x2 main_cst_2
  let main_v11 : IVec S2097152x2 1 := cmpf .olt main_v9 main_v10
  let main_c_3 : IVec S_ 1 := constantI S_ 1 1#1
  let main_v12 : IVec S_ 1 := (fun x v => Host.reduce IntOp.andi x v reducesTo_S2097152x2_S_d0_1 h_S_) main_v11 main_c_3
  let main_v13 : IVec S_ 1 := andi main_v8 main_v12
  let main_v14 : FVec F S2097152x2 .f32 := Host.absf main_arg3
  let main_cst_4 : FVec F S_ .f32 := constant S_ .f32 0x7F800000#32
  let main_v15 : FVec F S2097152x2 .f32 := broadcastInDim S2097152x2 ![] bcast_S_S2097152x2 main_cst_4
  let main_v16 : IVec S2097152x2 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S2097152x2 : Shape := ⟨2, ![2097152, 2]⟩
abbrev S2048x2048x2 : Shape := ⟨3, ![2048, 2048, 2]⟩
abbrev S2048x1 : Shape := ⟨2, ![2048, 1]⟩
abbrev S64x64x3 : Shape := ⟨3, ![64, 64, 3]⟩
abbrev S48x48x3 : Shape := ⟨3, ![48, 48, 3]⟩
abbrev S96x2 : Shape := ⟨2, ![96, 2]⟩
abbrev S32x32x1 : Shape := ⟨3, ![32, 32, 1]⟩
abbrev S32x32x4 : Shape := ⟨3, ![32, 32, 4]⟩
abbrev S2x2048x2048 : Shape := ⟨3, ![2, 2048, 2048]⟩
abbrev S1x2048 : Shape := ⟨2, ![1, 2048]⟩
abbrev S3x64x64 : Shape := ⟨3, ![3, 64, 64]⟩
abbrev S3x48x48 : Shape := ⟨3, ![3, 48, 48]⟩
abbrev S2x96 : Shape := ⟨2, ![2, 96]⟩
abbrev S1x32x32 : Shape := ⟨3, ![1, 32, 32]⟩
abbrev S4x32x32 : Shape := ⟨3, ![4, 32, 32]⟩
abbrev S2097152x1 : Shape := ⟨2, ![2097152, 1]⟩
abbrev S2097152 : Shape := ⟨1, ![2097152]⟩
abbrev S_ : Shape := ⟨0, ![]⟩
abbrev S2x2097152 : Shape := ⟨2, ![2, 2097152]⟩
abbrev S1x2097152 : Shape := ⟨2, ![1, 2097152]⟩
abbrev S3x2097152 : Shape := ⟨2, ![3, 2097152]⟩
abbrev S4x2097152 : Shape := ⟨2, ![4, 2097152]⟩
abbrev S12x2097152 : Shape := ⟨2, ![12, 2097152]⟩
abbrev S29x2097152 : Shape := ⟨2, ![29, 2097152]⟩
abbrev S29x16384 : Shape := ⟨2, ![29, 16384]⟩
abbrev S2x16384 : Shape := ⟨2, ![2, 16384]⟩
abbrev S1x16384 : Shape := ⟨2, ![1, 16384]⟩

abbrev nBuf : Space → Nat
  | .hbm => 1011
  | .vmem => 4
  | .smem => 0
  | _ => 0

abbrev hbmTy0_0 (i : Nat) : BufTy := match i % 128 with
  | 0 => ⟨S2097152x2, .f32⟩
  | 1 => ⟨S2097152x2, .f32⟩
  | 2 => ⟨S2097152x2, .f32⟩
  | 3 => ⟨S2097152x2, .f32⟩
  | 4 => ⟨S2097152x2, .f32⟩
  | 5 => ⟨S2097152x2, .f32⟩
  | 6 => ⟨S2097152x2, .f32⟩
  | 7 => ⟨S2097152x2, .f32⟩
  | 8 => ⟨S2097152x2, .f32⟩
  | 9 => ⟨S2048x2048x2, .f32⟩
  | 10 => ⟨S2048x1, .f32⟩
  | 11 => ⟨S64x64x3, .f32⟩
  | 12 => ⟨S48x48x3, .f32⟩
  | 13 => ⟨S96x2, .f32⟩
  | 14 => ⟨S32x32x1, .f32⟩
  | 15 => ⟨S32x32x4, .f32⟩
  | 16 => ⟨S32x32x4, .f32⟩
  | 17 => ⟨S2x2048x2048, .f32⟩
  | 18 => ⟨S1x2048, .f32⟩
  | 19 => ⟨S3x64x64, .f32⟩
  | 20 => ⟨S3x48x48, .f32⟩
  | 21 => ⟨S2x96, .f32⟩
  | 22 => ⟨S1x32x32, .f32⟩
  | 23 => ⟨S4x32x32, .f32⟩
  | 24 => ⟨S4x32x32, .f32⟩
  | 25 => ⟨S2097152x1, .f32⟩
  | 26 => ⟨S2097152, .f32⟩
  | 27 => ⟨S2097152x1, .f32⟩
  | 28 => ⟨S2097152, .f32⟩
  | 29 => ⟨S2097152x1, .f32⟩
  | 30 => ⟨S2097152, .f32⟩
  | 31 => ⟨S_, .f32⟩
  | 32 => ⟨S2x2048x2048, .f32⟩
  | 33 => ⟨S2x2048x2048, .f32⟩
  | 34 => ⟨S_, .f32⟩
  | 35 => ⟨S2x2048x2048, .f32⟩
  | 36 => ⟨S2x2048x2048, .f32⟩
  | 37 => ⟨S_, .f32⟩
  | 38 => ⟨S2x2048x2048, .f32⟩
  | 39 => ⟨S2x2048x2048, .f32⟩
  | 40 => ⟨S2x2048x2048, .f32⟩
  | 41 => ⟨S2x2048x2048, .f32⟩
  | 42 => ⟨S2x2048x2048, .f32⟩
  | 43 => ⟨S_, .f32⟩
  | 44 => ⟨S2x2048x2048, .f32⟩
  | 45 => ⟨S2x2048x2048, .f32⟩
  | 46 => ⟨S_, .f32⟩
  | 47 => ⟨S_, .f32⟩
  | 48 => ⟨S_, .f32⟩
  | 49 => ⟨S2097152, .f32⟩
  | 50 => ⟨S2097152, .f32⟩
  | 51 => ⟨S_, .f32⟩
  | 52 => ⟨S2097152, .f32⟩
  | 53 => ⟨S2097152, .f32⟩
  | 54 => ⟨S_, .f32⟩
  | 55 => ⟨S2097152, .f32⟩
  | 56 => ⟨S2097152, .f32⟩
  | 57 => ⟨S_, .f32⟩
  | 58 => ⟨S_, .f32⟩
  | 59 => ⟨S_, .f32⟩
  | 60 => ⟨S2097152, .f32⟩
  | 61 => ⟨S2097152, .f32⟩
  | 62 => ⟨S_, .f32⟩
  | 63 => ⟨S2097152, .f32⟩
  | 64 => ⟨S2097152, .f32⟩
  | 65 => ⟨S_, .f32⟩
  | 66 => ⟨S2097152, .f32⟩
  | 67 => ⟨S2097152, .f32⟩
  | 68 => ⟨S2097152, .f32⟩
  | 69 => ⟨S2097152, .i32⟩
  | 70 => ⟨S2097152, .f32⟩
  | 71 => ⟨S2097152, .i32⟩
  | 72 => ⟨S_, .i32⟩
  | 73 => ⟨S2097152, .i32⟩
  | 74 => ⟨S2097152, .i1⟩
  | 75 => ⟨S_, .i32⟩
  | 76 => ⟨S2097152, .i32⟩
  | 77 => ⟨S2097152, .i32⟩
  | 78 => ⟨S2097152, .i32⟩
  | 79 => ⟨S_, .i32⟩
  | 80 => ⟨S2097152, .i32⟩
  | 81 => ⟨S2097152, .i1⟩
  | 82 => ⟨S_, .i32⟩
  | 83 => ⟨S2097152, .i32⟩
  | 84 => ⟨S2097152, .i32⟩
  | 85 => ⟨S2097152, .i32⟩
  | 86 => ⟨S2097152x1, .i32⟩
  | 87 => ⟨S2097152x1, .i32⟩
  | 88 => ⟨S2097152x2, .i32⟩
  | 89 => ⟨S2x2097152, .f32⟩
  | 90 => ⟨S1x2097152, .f32⟩
  | 91 => ⟨S2097152, .f32⟩
  | 92 => ⟨S1x2097152, .f32⟩
  | 93 => ⟨S2097152, .f32⟩
  | 94 => ⟨S2097152x1, .f32⟩
  | 95 => ⟨S2097152, .f32⟩
  | 96 => ⟨S_, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S1x2048, .f32⟩
  | 106 => ⟨S1x2048, .f32⟩
  | 107 => ⟨S1x2048, .f32⟩
  | 108 => ⟨S_, .f32⟩
  | 109 => ⟨S1x2048, .f32⟩
  | 110 => ⟨S1x2048, .f32⟩
  | 111 => ⟨S_, .f32⟩
  | 112 => ⟨S_, .f32⟩
  | 113 => ⟨S_, .f32⟩
  | 114 => ⟨S2097152, .f32⟩
  | 115 => ⟨S2097152, .f32⟩
  | 116 => ⟨S_, .f32⟩
  | 117 => ⟨S2097152, .f32⟩
  | 118 => ⟨S2097152, .f32⟩
  | 119 => ⟨S_, .f32⟩
  | 120 => ⟨S2097152, .f32⟩
  | 121 => ⟨S2097152, .f32⟩
  | 122 => ⟨S2097152, .f32⟩
  | 123 => ⟨S2097152, .i32⟩
  | 124 => ⟨S_, .i32⟩
  | 125 => ⟨S2097152, .i32⟩
  | 126 => ⟨S2097152, .i1⟩
  | 127 => ⟨S_, .i32⟩
  | _ => ⟨S2097152x2, .f32⟩

abbrev hbmTy0_1 (i : Nat) : BufTy := match i % 128 with
  | 0 => ⟨S2097152, .i32⟩
  | 1 => ⟨S2097152, .i32⟩
  | 2 => ⟨S2097152, .i32⟩
  | 3 => ⟨S2097152x1, .i32⟩
  | 4 => ⟨S1x2097152, .f32⟩
  | 5 => ⟨S2097152, .f32⟩
  | 6 => ⟨S2097152x1, .f32⟩
  | 7 => ⟨S2097152, .f32⟩
  | 8 => ⟨S_, .f32⟩
  | 9 => ⟨S3x64x64, .f32⟩
  | 10 => ⟨S3x64x64, .f32⟩
  | 11 => ⟨S_, .f32⟩
  | 12 => ⟨S3x64x64, .f32⟩
  | 13 => ⟨S3x64x64, .f32⟩
  | 14 => ⟨S_, .f32⟩
  | 15 => ⟨S3x64x64, .f32⟩
  | 16 => ⟨S3x64x64, .f32⟩
  | 17 => ⟨S3x64x64, .f32⟩
  | 18 => ⟨S3x64x64, .f32⟩
  | 19 => ⟨S3x64x64, .f32⟩
  | 20 => ⟨S_, .f32⟩
  | 21 => ⟨S3x64x64, .f32⟩
  | 22 => ⟨S3x64x64, .f32⟩
  | 23 => ⟨S_, .f32⟩
  | 24 => ⟨S_, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S_, .f32⟩
  | 36 => ⟨S_, .f32⟩
  | 37 => ⟨S2097152, .f32⟩
  | 38 => ⟨S2097152, .f32⟩
  | 39 => ⟨S_, .f32⟩
  | 40 => ⟨S2097152, .f32⟩
  | 41 => ⟨S2097152, .f32⟩
  | 42 => ⟨S_, .f32⟩
  | 43 => ⟨S2097152, .f32⟩
  | 44 => ⟨S2097152, .f32⟩
  | 45 => ⟨S2097152, .f32⟩
  | 46 => ⟨S2097152, .f32⟩
  | 47 => ⟨S2097152, .f32⟩
  | 48 => ⟨S1x2097152, .f32⟩
  | 49 => ⟨S2097152, .f32⟩
  | 50 => ⟨S1x2097152, .f32⟩
  | 51 => ⟨S2097152, .i32⟩
  | 52 => ⟨S2097152, .i32⟩
  | 53 => ⟨S_, .i32⟩
  | 54 => ⟨S2097152, .i32⟩
  | 55 => ⟨S2097152, .i32⟩
  | 56 => ⟨S_, .i32⟩
  | 57 => ⟨S2097152, .i32⟩
  | 58 => ⟨S2097152, .i32⟩
  | 59 => ⟨S_, .i32⟩
  | 60 => ⟨S2097152, .i32⟩
  | 61 => ⟨S2097152, .i32⟩
  | 62 => ⟨S_, .i32⟩
  | 63 => ⟨S2097152, .i32⟩
  | 64 => ⟨S2097152, .i32⟩
  | 65 => ⟨S_, .i32⟩
  | 66 => ⟨S2097152, .i32⟩
  | 67 => ⟨S2097152, .i1⟩
  | 68 => ⟨S_, .i32⟩
  | 69 => ⟨S2097152, .i32⟩
  | 70 => ⟨S2097152, .i32⟩
  | 71 => ⟨S2097152, .i32⟩
  | 72 => ⟨S_, .i32⟩
  | 73 => ⟨S2097152, .i32⟩
  | 74 => ⟨S2097152, .i1⟩
  | 75 => ⟨S_, .i32⟩
  | 76 => ⟨S2097152, .i32⟩
  | 77 => ⟨S2097152, .i32⟩
  | 78 => ⟨S2097152, .i32⟩
  | 79 => ⟨S2097152x1, .i32⟩
  | 80 => ⟨S2097152x1, .i32⟩
  | 81 => ⟨S2097152x2, .i32⟩
  | 82 => ⟨S3x2097152, .f32⟩
  | 83 => ⟨S_, .f32⟩
  | 84 => ⟨S1x2097152, .f32⟩
  | 85 => ⟨S1x2097152, .f32⟩
  | 86 => ⟨S3x2097152, .f32⟩
  | 87 => ⟨S3x2097152, .f32⟩
  | 88 => ⟨S_, .f32⟩
  | 89 => ⟨S1x2097152, .f32⟩
  | 90 => ⟨S1x2097152, .f32⟩
  | 91 => ⟨S3x2097152, .f32⟩
  | 92 => ⟨S3x2097152, .f32⟩
  | 93 => ⟨S_, .i32⟩
  | 94 => ⟨S2097152, .i32⟩
  | 95 => ⟨S2097152, .i1⟩
  | 96 => ⟨S_, .i32⟩
  | 97 => ⟨S2097152, .i32⟩
  | 98 => ⟨S2097152, .i32⟩
  | 99 => ⟨S2097152, .i32⟩
  | 100 => ⟨S_, .i32⟩
  | 101 => ⟨S2097152, .i32⟩
  | 102 => ⟨S2097152, .i1⟩
  | 103 => ⟨S_, .i32⟩
  | 104 => ⟨S2097152, .i32⟩
  | 105 => ⟨S2097152, .i32⟩
  | 106 => ⟨S2097152, .i32⟩
  | 107 => ⟨S2097152x1, .i32⟩
  | 108 => ⟨S2097152x1, .i32⟩
  | 109 => ⟨S2097152x2, .i32⟩
  | 110 => ⟨S3x2097152, .f32⟩
  | 111 => ⟨S3x2097152, .f32⟩
  | 112 => ⟨S3x2097152, .f32⟩
  | 113 => ⟨S_, .f32⟩
  | 114 => ⟨S1x2097152, .f32⟩
  | 115 => ⟨S1x2097152, .f32⟩
  | 116 => ⟨S3x2097152, .f32⟩
  | 117 => ⟨S3x2097152, .f32⟩
  | 118 => ⟨S3x2097152, .f32⟩
  | 119 => ⟨S_, .i32⟩
  | 120 => ⟨S2097152, .i32⟩
  | 121 => ⟨S2097152, .i1⟩
  | 122 => ⟨S_, .i32⟩
  | 123 => ⟨S2097152, .i32⟩
  | 124 => ⟨S2097152, .i32⟩
  | 125 => ⟨S2097152, .i32⟩
  | 126 => ⟨S_, .i32⟩
  | 127 => ⟨S2097152, .i32⟩
  | _ => ⟨S2097152x2, .f32⟩

abbrev hbmTy0_2 (i : Nat) : BufTy := match i % 128 with
  | 0 => ⟨S2097152, .i1⟩
  | 1 => ⟨S_, .i32⟩
  | 2 => ⟨S2097152, .i32⟩
  | 3 => ⟨S2097152, .i32⟩
  | 4 => ⟨S2097152, .i32⟩
  | 5 => ⟨S2097152x1, .i32⟩
  | 6 => ⟨S2097152x1, .i32⟩
  | 7 => ⟨S2097152x2, .i32⟩
  | 8 => ⟨S3x2097152, .f32⟩
  | 9 => ⟨S_, .f32⟩
  | 10 => ⟨S1x2097152, .f32⟩
  | 11 => ⟨S1x2097152, .f32⟩
  | 12 => ⟨S3x2097152, .f32⟩
  | 13 => ⟨S3x2097152, .f32⟩
  | 14 => ⟨S3x2097152, .f32⟩
  | 15 => ⟨S3x2097152, .f32⟩
  | 16 => ⟨S3x2097152, .f32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S_, .i32⟩
  | 25 => ⟨S2097152, .i32⟩
  | 26 => ⟨S2097152, .i1⟩
  | 27 => ⟨S_, .i32⟩
  | 28 => ⟨S2097152, .i32⟩
  | 29 => ⟨S2097152, .i32⟩
  | 30 => ⟨S2097152, .i32⟩
  | 31 => ⟨S2097152x1, .i32⟩
  | 32 => ⟨S2097152x1, .i32⟩
  | 33 => ⟨S2097152x2, .i32⟩
  | 34 => ⟨S3x2097152, .f32⟩
  | 35 => ⟨S3x2097152, .f32⟩
  | 36 => ⟨S3x2097152, .f32⟩
  | 37 => ⟨S3x2097152, .f32⟩
  | 38 => ⟨S3x2097152, .f32⟩
  | 39 => ⟨S3x2097152, .f32⟩
  | 40 => ⟨S_, .f32⟩
  | 41 => ⟨S_, .f32⟩
  | 42 => ⟨S_, .f32⟩
  | 43 => ⟨S2097152, .f32⟩
  | 44 => ⟨S2097152, .f32⟩
  | 45 => ⟨S_, .f32⟩
  | 46 => ⟨S2097152, .f32⟩
  | 47 => ⟨S2097152, .f32⟩
  | 48 => ⟨S_, .f32⟩
  | 49 => ⟨S2097152, .f32⟩
  | 50 => ⟨S2097152, .f32⟩
  | 51 => ⟨S_, .f32⟩
  | 52 => ⟨S_, .f32⟩
  | 53 => ⟨S_, .f32⟩
  | 54 => ⟨S2097152, .f32⟩
  | 55 => ⟨S2097152, .f32⟩
  | 56 => ⟨S_, .f32⟩
  | 57 => ⟨S2097152, .f32⟩
  | 58 => ⟨S2097152, .f32⟩
  | 59 => ⟨S_, .f32⟩
  | 60 => ⟨S2097152, .f32⟩
  | 61 => ⟨S2097152, .f32⟩
  | 62 => ⟨S2097152, .f32⟩
  | 63 => ⟨S2097152, .f32⟩
  | 64 => ⟨S2097152, .f32⟩
  | 65 => ⟨S1x2097152, .f32⟩
  | 66 => ⟨S2097152, .f32⟩
  | 67 => ⟨S1x2097152, .f32⟩
  | 68 => ⟨S2097152, .i32⟩
  | 69 => ⟨S2097152, .i32⟩
  | 70 => ⟨S_, .i32⟩
  | 71 => ⟨S2097152, .i32⟩
  | 72 => ⟨S2097152, .i32⟩
  | 73 => ⟨S_, .i32⟩
  | 74 => ⟨S2097152, .i32⟩
  | 75 => ⟨S2097152, .i32⟩
  | 76 => ⟨S_, .i32⟩
  | 77 => ⟨S2097152, .i32⟩
  | 78 => ⟨S2097152, .i32⟩
  | 79 => ⟨S_, .i32⟩
  | 80 => ⟨S2097152, .i32⟩
  | 81 => ⟨S2097152, .i32⟩
  | 82 => ⟨S_, .i32⟩
  | 83 => ⟨S2097152, .i32⟩
  | 84 => ⟨S2097152, .i1⟩
  | 85 => ⟨S_, .i32⟩
  | 86 => ⟨S2097152, .i32⟩
  | 87 => ⟨S2097152, .i32⟩
  | 88 => ⟨S2097152, .i32⟩
  | 89 => ⟨S_, .i32⟩
  | 90 => ⟨S2097152, .i32⟩
  | 91 => ⟨S2097152, .i1⟩
  | 92 => ⟨S_, .i32⟩
  | 93 => ⟨S2097152, .i32⟩
  | 94 => ⟨S2097152, .i32⟩
  | 95 => ⟨S2097152, .i32⟩
  | 96 => ⟨S2097152x1, .i32⟩
  | 97 => ⟨S2097152x1, .i32⟩
  | 98 => ⟨S2097152x2, .i32⟩
  | 99 => ⟨S3x2097152, .f32⟩
  | 100 => ⟨S_, .f32⟩
  | 101 => ⟨S1x2097152, .f32⟩
  | 102 => ⟨S1x2097152, .f32⟩
  | 103 => ⟨S3x2097152, .f32⟩
  | 104 => ⟨S3x2097152, .f32⟩
  | 105 => ⟨S_, .f32⟩
  | 106 => ⟨S1x2097152, .f32⟩
  | 107 => ⟨S1x2097152, .f32⟩
  | 108 => ⟨S3x2097152, .f32⟩
  | 109 => ⟨S3x2097152, .f32⟩
  | 110 => ⟨S_, .i32⟩
  | 111 => ⟨S2097152, .i32⟩
  | 112 => ⟨S2097152, .i1⟩
  | 113 => ⟨S_, .i32⟩
  | 114 => ⟨S2097152, .i32⟩
  | 115 => ⟨S2097152, .i32⟩
  | 116 => ⟨S2097152, .i32⟩
  | 117 => ⟨S_, .i32⟩
  | 118 => ⟨S2097152, .i32⟩
  | 119 => ⟨S2097152, .i1⟩
  | 120 => ⟨S_, .i32⟩
  | 121 => ⟨S2097152, .i32⟩
  | 122 => ⟨S2097152, .i32⟩
  | 123 => ⟨S2097152, .i32⟩
  | 124 => ⟨S2097152x1, .i32⟩
  | 125 => ⟨S2097152x1, .i32⟩
  | 126 => ⟨S2097152x2, .i32⟩
  | 127 => ⟨S3x2097152, .f32⟩
  | _ => ⟨S2097152x2, .f32⟩

abbrev hbmTy0_3 (i : Nat) : BufTy := match i % 128 with
  | 0 => ⟨S3x2097152, .f32⟩
  | 1 => ⟨S3x2097152, .f32⟩
  | 2 => ⟨S_, .f32⟩
  | 3 => ⟨S1x2097152, .f32⟩
  | 4 => ⟨S1x2097152, .f32⟩
  | 5 => ⟨S3x2097152, .f32⟩
  | 6 => ⟨S3x2097152, .f32⟩
  | 7 => ⟨S3x2097152, .f32⟩
  | 8 => ⟨S_, .i32⟩
  | 9 => ⟨S2097152, .i32⟩
  | 10 => ⟨S2097152, .i1⟩
  | 11 => ⟨S_, .i32⟩
  | 12 => ⟨S2097152, .i32⟩
  | 13 => ⟨S2097152, .i32⟩
  | 14 => ⟨S2097152, .i32⟩
  | 15 => ⟨S_, .i32⟩
  | 16 => ⟨S2097152, .i32⟩
  | 17 => ⟨S2097152, .i1⟩
  | 18 => ⟨S_, .i32⟩
  | 19 => ⟨S2097152, .i32⟩
  | 20 => ⟨S2097152, .i32⟩
  | 21 => ⟨S2097152, .i32⟩
  | 22 => ⟨S2097152x1, .i32⟩
  | 23 => ⟨S2097152x1, .i32⟩
  | 24 => ⟨S2097152x2, .i32⟩
  | 25 => ⟨S3x2097152, .f32⟩
  | 26 => ⟨S_, .f32⟩
  | 27 => ⟨S1x2097152, .f32⟩
  | 28 => ⟨S1x2097152, .f32⟩
  | 29 => ⟨S3x2097152, .f32⟩
  | 30 => ⟨S3x2097152, .f32⟩
  | 31 => ⟨S3x2097152, .f32⟩
  | 32 => ⟨S3x2097152, .f32⟩
  | 33 => ⟨S3x2097152, .f32⟩
  | 34 => ⟨S_, .i32⟩
  | 35 => ⟨S2097152, .i32⟩
  | 36 => ⟨S2097152, .i1⟩
  | 37 => ⟨S_, .i32⟩
  | 38 => ⟨S2097152, .i32⟩
  | 39 => ⟨S2097152, .i32⟩
  | 40 => ⟨S2097152, .i32⟩
  | 41 => ⟨S_, .i32⟩
  | 42 => ⟨S2097152, .i32⟩
  | 43 => ⟨S2097152, .i1⟩
  | 44 => ⟨S_, .i32⟩
  | 45 => ⟨S2097152, .i32⟩
  | 46 => ⟨S2097152, .i32⟩
  | 47 => ⟨S2097152, .i32⟩
  | 48 => ⟨S2097152x1, .i32⟩
  | 49 => ⟨S2097152x1, .i32⟩
  | 50 => ⟨S2097152x2, .i32⟩
  | 51 => ⟨S3x2097152, .f32⟩
  | 52 => ⟨S3x2097152, .f32⟩
  | 53 => ⟨S3x2097152, .f32⟩
  | 54 => ⟨S3x2097152, .f32⟩
  | 55 => ⟨S3x2097152, .f32⟩
  | 56 => ⟨S3x2097152, .f32⟩
  | 57 => ⟨S_, .f32⟩
  | 58 => ⟨S_, .f32⟩
  | 59 => ⟨S_, .f32⟩
  | 60 => ⟨S2097152, .f32⟩
  | 61 => ⟨S2097152, .f32⟩
  | 62 => ⟨S_, .f32⟩
  | 63 => ⟨S2097152, .f32⟩
  | 64 => ⟨S2097152, .f32⟩
  | 65 => ⟨S_, .f32⟩
  | 66 => ⟨S2097152, .f32⟩
  | 67 => ⟨S2097152, .f32⟩
  | 68 => ⟨S2097152, .f32⟩
  | 69 => ⟨S2097152, .f32⟩
  | 70 => ⟨S1x2097152, .f32⟩
  | 71 => ⟨S2097152, .i32⟩
  | 72 => ⟨S_, .i32⟩
  | 73 => ⟨S2097152, .i32⟩
  | 74 => ⟨S2097152, .i32⟩
  | 75 => ⟨S_, .i32⟩
  | 76 => ⟨S2097152, .i32⟩
  | 77 => ⟨S2097152, .i32⟩
  | 78 => ⟨S_, .i32⟩
  | 79 => ⟨S2097152, .i32⟩
  | 80 => ⟨S2097152, .i1⟩
  | 81 => ⟨S_, .i32⟩
  | 82 => ⟨S2097152, .i32⟩
  | 83 => ⟨S2097152, .i32⟩
  | 84 => ⟨S2097152, .i32⟩
  | 85 => ⟨S2097152x1, .i32⟩
  | 86 => ⟨S2x2097152, .f32⟩
  | 87 => ⟨S_, .f32⟩
  | 88 => ⟨S1x2097152, .f32⟩
  | 89 => ⟨S1x2097152, .f32⟩
  | 90 => ⟨S2x2097152, .f32⟩
  | 91 => ⟨S2x2097152, .f32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S2097152x1, .i32⟩
  | 100 => ⟨S2x2097152, .f32⟩
  | 101 => ⟨S2x2097152, .f32⟩
  | 102 => ⟨S2x2097152, .f32⟩
  | 103 => ⟨S2x2097152, .f32⟩
  | 104 => ⟨S2097152x1, .f32⟩
  | 105 => ⟨S2097152, .f32⟩
  | 106 => ⟨S2097152x1, .f32⟩
  | 107 => ⟨S2097152, .f32⟩
  | 108 => ⟨S2097152, .f32⟩
  | 109 => ⟨S_, .f32⟩
  | 110 => ⟨S1x32x32, .f32⟩
  | 111 => ⟨S1x32x32, .f32⟩
  | 112 => ⟨S_, .f32⟩
  | 113 => ⟨S1x32x32, .f32⟩
  | 114 => ⟨S1x32x32, .f32⟩
  | 115 => ⟨S_, .f32⟩
  | 116 => ⟨S1x32x32, .f32⟩
  | 117 => ⟨S1x32x32, .f32⟩
  | 118 => ⟨S1x32x32, .f32⟩
  | 119 => ⟨S1x32x32, .f32⟩
  | 120 => ⟨S1x32x32, .f32⟩
  | 121 => ⟨S_, .f32⟩
  | 122 => ⟨S1x32x32, .f32⟩
  | 123 => ⟨S1x32x32, .f32⟩
  | 124 => ⟨S_, .f32⟩
  | 125 => ⟨S_, .f32⟩
  | 126 => ⟨S_, .f32⟩
  | 127 => ⟨S2097152, .f32⟩
  | _ => ⟨S2097152x2, .f32⟩

abbrev hbmTy0_4 (i : Nat) : BufTy := match i % 128 with
  | 0 => ⟨S2097152, .f32⟩
  | 1 => ⟨S_, .f32⟩
  | 2 => ⟨S2097152, .f32⟩
  | 3 => ⟨S2097152, .f32⟩
  | 4 => ⟨S_, .f32⟩
  | 5 => ⟨S2097152, .f32⟩
  | 6 => ⟨S2097152, .f32⟩
  | 7 => ⟨S_, .f32⟩
  | 8 => ⟨S_, .f32⟩
  | 9 => ⟨S_, .f32⟩
  | 10 => ⟨S2097152, .f32⟩
  | 11 => ⟨S2097152, .f32⟩
  | 12 => ⟨S_, .f32⟩
  | 13 => ⟨S2097152, .f32⟩
  | 14 => ⟨S2097152, .f32⟩
  | 15 => ⟨S_, .f32⟩
  | 16 => ⟨S2097152, .f32⟩
  | 17 => ⟨S2097152, .f32⟩
  | 18 => ⟨S2097152, .f32⟩
  | 19 => ⟨S2097152, .f32⟩
  | 20 => ⟨S2097152, .f32⟩
  | 21 => ⟨S1x2097152, .f32⟩
  | 22 => ⟨S2097152, .f32⟩
  | 23 => ⟨S1x2097152, .f32⟩
  | 24 => ⟨S2097152, .i32⟩
  | 25 => ⟨S2097152, .i32⟩
  | 26 => ⟨S_, .i32⟩
  | 27 => ⟨S2097152, .i32⟩
  | 28 => ⟨S2097152, .i32⟩
  | 29 => ⟨S_, .i32⟩
  | 30 => ⟨S2097152, .i32⟩
  | 31 => ⟨S2097152, .i32⟩
  | 32 => ⟨S_, .i32⟩
  | 33 => ⟨S2097152, .i32⟩
  | 34 => ⟨S2097152, .i32⟩
  | 35 => ⟨S_, .i32⟩
  | 36 => ⟨S2097152, .i32⟩
  | 37 => ⟨S2097152, .i32⟩
  | 38 => ⟨S_, .i32⟩
  | 39 => ⟨S2097152, .i32⟩
  | 40 => ⟨S2097152, .i1⟩
  | 41 => ⟨S_, .i32⟩
  | 42 => ⟨S2097152, .i32⟩
  | 43 => ⟨S2097152, .i32⟩
  | 44 => ⟨S2097152, .i32⟩
  | 45 => ⟨S_, .i32⟩
  | 46 => ⟨S2097152, .i32⟩
  | 47 => ⟨S2097152, .i1⟩
  | 48 => ⟨S_, .i32⟩
  | 49 => ⟨S2097152, .i32⟩
  | 50 => ⟨S2097152, .i32⟩
  | 51 => ⟨S2097152, .i32⟩
  | 52 => ⟨S2097152x1, .i32⟩
  | 53 => ⟨S2097152x1, .i32⟩
  | 54 => ⟨S2097152x2, .i32⟩
  | 55 => ⟨S1x2097152, .f32⟩
  | 56 => ⟨S_, .f32⟩
  | 57 => ⟨S1x2097152, .f32⟩
  | 58 => ⟨S1x2097152, .f32⟩
  | 59 => ⟨S1x2097152, .f32⟩
  | 60 => ⟨S_, .f32⟩
  | 61 => ⟨S1x2097152, .f32⟩
  | 62 => ⟨S1x2097152, .f32⟩
  | 63 => ⟨S1x2097152, .f32⟩
  | 64 => ⟨S_, .i32⟩
  | 65 => ⟨S2097152, .i32⟩
  | 66 => ⟨S2097152, .i1⟩
  | 67 => ⟨S_, .i32⟩
  | 68 => ⟨S2097152, .i32⟩
  | 69 => ⟨S2097152, .i32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S2097152x1, .i32⟩
  | 79 => ⟨S2097152x1, .i32⟩
  | 80 => ⟨S2097152x2, .i32⟩
  | 81 => ⟨S1x2097152, .f32⟩
  | 82 => ⟨S1x2097152, .f32⟩
  | 83 => ⟨S_, .f32⟩
  | 84 => ⟨S1x2097152, .f32⟩
  | 85 => ⟨S1x2097152, .f32⟩
  | 86 => ⟨S1x2097152, .f32⟩
  | 87 => ⟨S1x2097152, .f32⟩
  | 88 => ⟨S_, .i32⟩
  | 89 => ⟨S2097152, .i32⟩
  | 90 => ⟨S2097152, .i1⟩
  | 91 => ⟨S_, .i32⟩
  | 92 => ⟨S2097152, .i32⟩
  | 93 => ⟨S2097152, .i32⟩
  | 94 => ⟨S2097152, .i32⟩
  | 95 => ⟨S_, .i32⟩
  | 96 => ⟨S2097152, .i32⟩
  | 97 => ⟨S2097152, .i1⟩
  | 98 => ⟨S_, .i32⟩
  | 99 => ⟨S2097152, .i32⟩
  | 100 => ⟨S2097152, .i32⟩
  | 101 => ⟨S2097152, .i32⟩
  | 102 => ⟨S2097152x1, .i32⟩
  | 103 => ⟨S2097152x1, .i32⟩
  | 104 => ⟨S2097152x2, .i32⟩
  | 105 => ⟨S1x2097152, .f32⟩
  | 106 => ⟨S_, .f32⟩
  | 107 => ⟨S1x2097152, .f32⟩
  | 108 => ⟨S1x2097152, .f32⟩
  | 109 => ⟨S1x2097152, .f32⟩
  | 110 => ⟨S1x2097152, .f32⟩
  | 111 => ⟨S1x2097152, .f32⟩
  | 112 => ⟨S_, .i32⟩
  | 113 => ⟨S2097152, .i32⟩
  | 114 => ⟨S2097152, .i1⟩
  | 115 => ⟨S_, .i32⟩
  | 116 => ⟨S2097152, .i32⟩
  | 117 => ⟨S2097152, .i32⟩
  | 118 => ⟨S2097152, .i32⟩
  | 119 => ⟨S_, .i32⟩
  | 120 => ⟨S2097152, .i32⟩
  | 121 => ⟨S2097152, .i1⟩
  | 122 => ⟨S_, .i32⟩
  | 123 => ⟨S2097152, .i32⟩
  | 124 => ⟨S2097152, .i32⟩
  | 125 => ⟨S2097152, .i32⟩
  | 126 => ⟨S2097152x1, .i32⟩
  | 127 => ⟨S2097152x1, .i32⟩
  | _ => ⟨S2097152x2, .f32⟩

abbrev hbmTy0_5 (i : Nat) : BufTy := match i % 128 with
  | 0 => ⟨S2097152x2, .i32⟩
  | 1 => ⟨S1x2097152, .f32⟩
  | 2 => ⟨S1x2097152, .f32⟩
  | 3 => ⟨S1x2097152, .f32⟩
  | 4 => ⟨S1x2097152, .f32⟩
  | 5 => ⟨S2097152x1, .f32⟩
  | 6 => ⟨S2097152, .f32⟩
  | 7 => ⟨S2097152x1, .f32⟩
  | 8 => ⟨S2097152, .f32⟩
  | 9 => ⟨S_, .f32⟩
  | 10 => ⟨S4x32x32, .f32⟩
  | 11 => ⟨S4x32x32, .f32⟩
  | 12 => ⟨S_, .f32⟩
  | 13 => ⟨S4x32x32, .f32⟩
  | 14 => ⟨S4x32x32, .f32⟩
  | 15 => ⟨S_, .f32⟩
  | 16 => ⟨S4x32x32, .f32⟩
  | 17 => ⟨S4x32x32, .f32⟩
  | 18 => ⟨S4x32x32, .f32⟩
  | 19 => ⟨S4x32x32, .f32⟩
  | 20 => ⟨S4x32x32, .f32⟩
  | 21 => ⟨S_, .f32⟩
  | 22 => ⟨S4x32x32, .f32⟩
  | 23 => ⟨S4x32x32, .f32⟩
  | 24 => ⟨S_, .f32⟩
  | 25 => ⟨S_, .f32⟩
  | 26 => ⟨S_, .f32⟩
  | 27 => ⟨S2097152, .f32⟩
  | 28 => ⟨S2097152, .f32⟩
  | 29 => ⟨S_, .f32⟩
  | 30 => ⟨S2097152, .f32⟩
  | 31 => ⟨S2097152, .f32⟩
  | 32 => ⟨S_, .f32⟩
  | 33 => ⟨S2097152, .f32⟩
  | 34 => ⟨S2097152, .f32⟩
  | 35 => ⟨S_, .f32⟩
  | 36 => ⟨S_, .f32⟩
  | 37 => ⟨S_, .f32⟩
  | 38 => ⟨S2097152, .f32⟩
  | 39 => ⟨S2097152, .f32⟩
  | 40 => ⟨S_, .f32⟩
  | 41 => ⟨S2097152, .f32⟩
  | 42 => ⟨S2097152, .f32⟩
  | 43 => ⟨S_, .f32⟩
  | 44 => ⟨S2097152, .f32⟩
  | 45 => ⟨S2097152, .f32⟩
  | 46 => ⟨S2097152, .f32⟩
  | 47 => ⟨S2097152, .f32⟩
  | 48 => ⟨S2097152, .f32⟩
  | 49 => ⟨S1x2097152, .f32⟩
  | 50 => ⟨S2097152, .f32⟩
  | 51 => ⟨S1x2097152, .f32⟩
  | 52 => ⟨S2097152, .i32⟩
  | 53 => ⟨S2097152, .i32⟩
  | 54 => ⟨S_, .i32⟩
  | 55 => ⟨S2097152, .i32⟩
  | 56 => ⟨S2097152, .i32⟩
  | 57 => ⟨S_, .i32⟩
  | 58 => ⟨S2097152, .i32⟩
  | 59 => ⟨S2097152, .i32⟩
  | 60 => ⟨S_, .i32⟩
  | 61 => ⟨S2097152, .i32⟩
  | 62 => ⟨S2097152, .i32⟩
  | 63 => ⟨S_, .i32⟩
  | 64 => ⟨S2097152, .i32⟩
  | 65 => ⟨S2097152, .i32⟩
  | 66 => ⟨S_, .i32⟩
  | 67 => ⟨S2097152, .i32⟩
  | 68 => ⟨S2097152, .i1⟩
  | 69 => ⟨S_, .i32⟩
  | 70 => ⟨S2097152, .i32⟩
  | 71 => ⟨S2097152, .i32⟩
  | 72 => ⟨S2097152, .i32⟩
  | 73 => ⟨S_, .i32⟩
  | 74 => ⟨S2097152, .i32⟩
  | 75 => ⟨S2097152, .i1⟩
  | 76 => ⟨S_, .i32⟩
  | 77 => ⟨S2097152, .i32⟩
  | 78 => ⟨S2097152, .i32⟩
  | 79 => ⟨S2097152, .i32⟩
  | 80 => ⟨S2097152x1, .i32⟩
  | 81 => ⟨S2097152x1, .i32⟩
  | 82 => ⟨S2097152x2, .i32⟩
  | 83 => ⟨S4x2097152, .f32⟩
  | 84 => ⟨S_, .f32⟩
  | 85 => ⟨S1x2097152, .f32⟩
  | 86 => ⟨S1x2097152, .f32⟩
  | 87 => ⟨S4x2097152, .f32⟩
  | 88 => ⟨S4x2097152, .f32⟩
  | 89 => ⟨S_, .f32⟩
  | 90 => ⟨S1x2097152, .f32⟩
  | 91 => ⟨S1x2097152, .f32⟩
  | 92 => ⟨S4x2097152, .f32⟩
  | 93 => ⟨S4x2097152, .f32⟩
  | 94 => ⟨S_, .i32⟩
  | 95 => ⟨S2097152, .i32⟩
  | 96 => ⟨S2097152, .i1⟩
  | 97 => ⟨S_, .i32⟩
  | 98 => ⟨S2097152, .i32⟩
  | 99 => ⟨S2097152, .i32⟩
  | 100 => ⟨S2097152, .i32⟩
  | 101 => ⟨S_, .i32⟩
  | 102 => ⟨S2097152, .i32⟩
  | 103 => ⟨S2097152, .i1⟩
  | 104 => ⟨S_, .i32⟩
  | 105 => ⟨S2097152, .i32⟩
  | 106 => ⟨S2097152, .i32⟩
  | 107 => ⟨S2097152, .i32⟩
  | 108 => ⟨S2097152x1, .i32⟩
  | 109 => ⟨S2097152x1, .i32⟩
  | 110 => ⟨S2097152x2, .i32⟩
  | 111 => ⟨S4x2097152, .f32⟩
  | 112 => ⟨S4x2097152, .f32⟩
  | 113 => ⟨S4x2097152, .f32⟩
  | 114 => ⟨S_, .f32⟩
  | 115 => ⟨S1x2097152, .f32⟩
  | 116 => ⟨S1x2097152, .f32⟩
  | 117 => ⟨S4x2097152, .f32⟩
  | 118 => ⟨S4x2097152, .f32⟩
  | 119 => ⟨S4x2097152, .f32⟩
  | 120 => ⟨S_, .i32⟩
  | 121 => ⟨S2097152, .i32⟩
  | 122 => ⟨S2097152, .i1⟩
  | 123 => ⟨S_, .i32⟩
  | 124 => ⟨S2097152, .i32⟩
  | 125 => ⟨S2097152, .i32⟩
  | 126 => ⟨S2097152, .i32⟩
  | 127 => ⟨S_, .i32⟩
  | _ => ⟨S2097152x2, .f32⟩

abbrev hbmTy0_6 (i : Nat) : BufTy := match i % 128 with
  | 0 => ⟨S2097152, .i32⟩
  | 1 => ⟨S2097152, .i1⟩
  | 2 => ⟨S_, .i32⟩
  | 3 => ⟨S2097152, .i32⟩
  | 4 => ⟨S2097152, .i32⟩
  | 5 => ⟨S2097152, .i32⟩
  | 6 => ⟨S2097152x1, .i32⟩
  | 7 => ⟨S2097152x1, .i32⟩
  | 8 => ⟨S2097152x2, .i32⟩
  | 9 => ⟨S4x2097152, .f32⟩
  | 10 => ⟨S_, .f32⟩
  | 11 => ⟨S1x2097152, .f32⟩
  | 12 => ⟨S1x2097152, .f32⟩
  | 13 => ⟨S4x2097152, .f32⟩
  | 14 => ⟨S4x2097152, .f32⟩
  | 15 => ⟨S4x2097152, .f32⟩
  | 16 => ⟨S4x2097152, .f32⟩
  | 17 => ⟨S4x2097152, .f32⟩
  | 18 => ⟨S_, .i32⟩
  | 19 => ⟨S2097152, .i32⟩
  | 20 => ⟨S2097152, .i1⟩
  | 21 => ⟨S_, .i32⟩
  | 22 => ⟨S2097152, .i32⟩
  | 23 => ⟨S2097152, .i32⟩
  | 24 => ⟨S2097152, .i32⟩
  | 25 => ⟨S_, .i32⟩
  | 26 => ⟨S2097152, .i32⟩
  | 27 => ⟨S2097152, .i1⟩
  | 28 => ⟨S_, .i32⟩
  | 29 => ⟨S2097152, .i32⟩
  | 30 => ⟨S2097152, .i32⟩
  | 31 => ⟨S2097152, .i32⟩
  | 32 => ⟨S2097152x1, .i32⟩
  | 33 => ⟨S2097152x1, .i32⟩
  | 34 => ⟨S2097152x2, .i32⟩
  | 35 => ⟨S4x2097152, .f32⟩
  | 36 => ⟨S4x2097152, .f32⟩
  | 37 => ⟨S4x2097152, .f32⟩
  | 38 => ⟨S4x2097152, .f32⟩
  | 39 => ⟨S4x2097152, .f32⟩
  | 40 => ⟨S4x2097152, .f32⟩
  | 41 => ⟨S2097152x1, .f32⟩
  | 42 => ⟨S2097152, .f32⟩
  | 43 => ⟨S2097152x1, .f32⟩
  | 44 => ⟨S2097152, .f32⟩
  | 45 => ⟨S_, .f32⟩
  | 46 => ⟨S4x32x32, .f32⟩
  | 47 => ⟨S4x32x32, .f32⟩
  | 48 => ⟨S_, .f32⟩
  | 49 => ⟨S4x32x32, .f32⟩
  | 50 => ⟨S4x32x32, .f32⟩
  | 51 => ⟨S_, .f32⟩
  | 52 => ⟨S4x32x32, .f32⟩
  | 53 => ⟨S4x32x32, .f32⟩
  | 54 => ⟨S4x32x32, .f32⟩
  | 55 => ⟨S4x32x32, .f32⟩
  | 56 => ⟨S4x32x32, .f32⟩
  | 57 => ⟨S_, .f32⟩
  | 58 => ⟨S4x32x32, .f32⟩
  | 59 => ⟨S4x32x32, .f32⟩
  | 60 => ⟨S_, .f32⟩
  | 61 => ⟨S_, .f32⟩
  | 62 => ⟨S_, .f32⟩
  | 63 => ⟨S2097152, .f32⟩
  | 64 => ⟨S2097152, .f32⟩
  | 65 => ⟨S_, .f32⟩
  | 66 => ⟨S2097152, .f32⟩
  | 67 => ⟨S2097152, .f32⟩
  | 68 => ⟨S_, .f32⟩
  | 69 => ⟨S2097152, .f32⟩
  | 70 => ⟨S2097152, .f32⟩
  | 71 => ⟨S_, .f32⟩
  | 72 => ⟨S_, .f32⟩
  | 73 => ⟨S_, .f32⟩
  | 74 => ⟨S2097152, .f32⟩
  | 75 => ⟨S2097152, .f32⟩
  | 76 => ⟨S_, .f32⟩
  | 77 => ⟨S2097152, .f32⟩
  | 78 => ⟨S2097152, .f32⟩
  | 79 => ⟨S_, .f32⟩
  | 80 => ⟨S2097152, .f32⟩
  | 81 => ⟨S2097152, .f32⟩
  | 82 => ⟨S2097152, .f32⟩
  | 83 => ⟨S2097152, .f32⟩
  | 84 => ⟨S2097152, .f32⟩
  | 85 => ⟨S1x2097152, .f32⟩
  | 86 => ⟨S2097152, .f32⟩
  | 87 => ⟨S1x2097152, .f32⟩
  | 88 => ⟨S2097152, .i32⟩
  | 89 => ⟨S2097152, .i32⟩
  | 90 => ⟨S_, .i32⟩
  | 91 => ⟨S2097152, .i32⟩
  | 92 => ⟨S2097152, .i32⟩
  | 93 => ⟨S_, .i32⟩
  | 94 => ⟨S2097152, .i32⟩
  | 95 => ⟨S2097152, .i32⟩
  | 96 => ⟨S_, .i32⟩
  | 97 => ⟨S2097152, .i32⟩
  | 98 => ⟨S2097152, .i32⟩
  | 99 => ⟨S_, .i32⟩
  | 100 => ⟨S2097152, .i32⟩
  | 101 => ⟨S2097152, .i32⟩
  | 102 => ⟨S_, .i32⟩
  | 103 => ⟨S2097152, .i32⟩
  | 104 => ⟨S2097152, .i1⟩
  | 105 => ⟨S_, .i32⟩
  | 106 => ⟨S2097152, .i32⟩
  | 107 => ⟨S2097152, .i32⟩
  | 108 => ⟨S2097152, .i32⟩
  | 109 => ⟨S_, .i32⟩
  | 110 => ⟨S2097152, .i32⟩
  | 111 => ⟨S2097152, .i1⟩
  | 112 => ⟨S_, .i32⟩
  | 113 => ⟨S2097152, .i32⟩
  | 114 => ⟨S2097152, .i32⟩
  | 115 => ⟨S2097152, .i32⟩
  | 116 => ⟨S2097152x1, .i32⟩
  | 117 => ⟨S2097152x1, .i32⟩
  | 118 => ⟨S2097152x2, .i32⟩
  | 119 => ⟨S4x2097152, .f32⟩
  | 120 => ⟨S_, .f32⟩
  | 121 => ⟨S1x2097152, .f32⟩
  | 122 => ⟨S1x2097152, .f32⟩
  | 123 => ⟨S4x2097152, .f32⟩
  | 124 => ⟨S4x2097152, .f32⟩
  | 125 => ⟨S_, .f32⟩
  | 126 => ⟨S1x2097152, .f32⟩
  | 127 => ⟨S1x2097152, .f32⟩
  | _ => ⟨S2097152x2, .f32⟩

abbrev hbmTy0_7 (i : Nat) : BufTy := match i % 128 with
  | 0 => ⟨S4x2097152, .f32⟩
  | 1 => ⟨S4x2097152, .f32⟩
  | 2 => ⟨S_, .i32⟩
  | 3 => ⟨S2097152, .i32⟩
  | 4 => ⟨S2097152, .i1⟩
  | 5 => ⟨S_, .i32⟩
  | 6 => ⟨S2097152, .i32⟩
  | 7 => ⟨S2097152, .i32⟩
  | 8 => ⟨S2097152, .i32⟩
  | 9 => ⟨S_, .i32⟩
  | 10 => ⟨S2097152, .i32⟩
  | 11 => ⟨S2097152, .i1⟩
  | 12 => ⟨S_, .i32⟩
  | 13 => ⟨S2097152, .i32⟩
  | 14 => ⟨S2097152, .i32⟩
  | 15 => ⟨S2097152, .i32⟩
  | 16 => ⟨S2097152x1, .i32⟩
  | 17 => ⟨S2097152x1, .i32⟩
  | 18 => ⟨S2097152x2, .i32⟩
  | 19 => ⟨S4x2097152, .f32⟩
  | 20 => ⟨S4x2097152, .f32⟩
  | 21 => ⟨S4x2097152, .f32⟩
  | 22 => ⟨S_, .f32⟩
  | 23 => ⟨S1x2097152, .f32⟩
  | 24 => ⟨S1x2097152, .f32⟩
  | 25 => ⟨S4x2097152, .f32⟩
  | 26 => ⟨S4x2097152, .f32⟩
  | 27 => ⟨S4x2097152, .f32⟩
  | 28 => ⟨S_, .i32⟩
  | 29 => ⟨S2097152, .i32⟩
  | 30 => ⟨S2097152, .i1⟩
  | 31 => ⟨S_, .i32⟩
  | 32 => ⟨S2097152, .i32⟩
  | 33 => ⟨S2097152, .i32⟩
  | 34 => ⟨S2097152, .i32⟩
  | 35 => ⟨S_, .i32⟩
  | 36 => ⟨S2097152, .i32⟩
  | 37 => ⟨S2097152, .i1⟩
  | 38 => ⟨S_, .i32⟩
  | 39 => ⟨S2097152, .i32⟩
  | 40 => ⟨S2097152, .i32⟩
  | 41 => ⟨S2097152, .i32⟩
  | 42 => ⟨S2097152x1, .i32⟩
  | 43 => ⟨S2097152x1, .i32⟩
  | 44 => ⟨S2097152x2, .i32⟩
  | 45 => ⟨S4x2097152, .f32⟩
  | 46 => ⟨S_, .f32⟩
  | 47 => ⟨S1x2097152, .f32⟩
  | 48 => ⟨S1x2097152, .f32⟩
  | 49 => ⟨S4x2097152, .f32⟩
  | 50 => ⟨S4x2097152, .f32⟩
  | 51 => ⟨S4x2097152, .f32⟩
  | 52 => ⟨S4x2097152, .f32⟩
  | 53 => ⟨S4x2097152, .f32⟩
  | 54 => ⟨S_, .i32⟩
  | 55 => ⟨S2097152, .i32⟩
  | 56 => ⟨S2097152, .i1⟩
  | 57 => ⟨S_, .i32⟩
  | 58 => ⟨S2097152, .i32⟩
  | 59 => ⟨S2097152, .i32⟩
  | 60 => ⟨S2097152, .i32⟩
  | 61 => ⟨S_, .i32⟩
  | 62 => ⟨S2097152, .i32⟩
  | 63 => ⟨S2097152, .i1⟩
  | 64 => ⟨S_, .i32⟩
  | 65 => ⟨S2097152, .i32⟩
  | 66 => ⟨S2097152, .i32⟩
  | 67 => ⟨S2097152, .i32⟩
  | 68 => ⟨S2097152x1, .i32⟩
  | 69 => ⟨S2097152x1, .i32⟩
  | 70 => ⟨S2097152x2, .i32⟩
  | 71 => ⟨S4x2097152, .f32⟩
  | 72 => ⟨S4x2097152, .f32⟩
  | 73 => ⟨S4x2097152, .f32⟩
  | 74 => ⟨S4x2097152, .f32⟩
  | 75 => ⟨S4x2097152, .f32⟩
  | 76 => ⟨S4x2097152, .f32⟩
  | 77 => ⟨S2097152x1, .f32⟩
  | 78 => ⟨S2097152, .f32⟩
  | 79 => ⟨S2097152x1, .f32⟩
  | 80 => ⟨S2097152, .f32⟩
  | 81 => ⟨S2097152x1, .f32⟩
  | 82 => ⟨S2097152, .f32⟩
  | 83 => ⟨S2097152x1, .f32⟩
  | 84 => ⟨S2097152, .f32⟩
  | 85 => ⟨S2097152x1, .f32⟩
  | 86 => ⟨S2097152, .f32⟩
  | 87 => ⟨S2097152x1, .f32⟩
  | 88 => ⟨S2097152, .f32⟩
  | 89 => ⟨S2097152x1, .f32⟩
  | 90 => ⟨S2097152, .f32⟩
  | 91 => ⟨S2097152x1, .f32⟩
  | 92 => ⟨S2097152, .f32⟩
  | 93 => ⟨S2097152x1, .f32⟩
  | 94 => ⟨S2097152, .f32⟩
  | 95 => ⟨S2097152x1, .f32⟩
  | 96 => ⟨S2097152, .f32⟩
  | 97 => ⟨S2097152x1, .f32⟩
  | 98 => ⟨S2097152, .f32⟩
  | 99 => ⟨S1x2097152, .f32⟩
  | 100 => ⟨S1x2097152, .f32⟩
  | 101 => ⟨S1x2097152, .f32⟩
  | 102 => ⟨S1x2097152, .f32⟩
  | 103 => ⟨S1x2097152, .f32⟩
  | 104 => ⟨S1x2097152, .f32⟩
  | 105 => ⟨S1x2097152, .f32⟩
  | 106 => ⟨S1x2097152, .f32⟩
  | 107 => ⟨S1x2097152, .f32⟩
  | 108 => ⟨S1x2097152, .f32⟩
  | 109 => ⟨S1x2097152, .f32⟩
  | 110 => ⟨S1x2097152, .f32⟩
  | 111 => ⟨S12x2097152, .f32⟩
  | 112 => ⟨S29x2097152, .f32⟩
  | 113 => ⟨S2x2097152, .f32⟩
  | 114 => ⟨S2097152x2, .f32⟩
  | _ => ⟨S2097152x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2097152x2, .f32⟩

abbrev bufTy : (tb : Table) → Fin (tcTables nBuf tb) → BufTy
  | .hbm, ⟨i, _⟩ => hbmTy i
  | .local _ .vmem, ⟨0, _⟩ => ⟨S29x16384, .f32⟩
  | .local _ .vmem, ⟨1, _⟩ => ⟨S29x16384, .f32⟩
  | .local _ .vmem, ⟨2, _⟩ => ⟨S2x16384, .f32⟩
  | .local _ .vmem, ⟨3, _⟩ => ⟨S2x16384, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_cst_7 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v28 : Ref sig .tc := ⟨.hbm, 64, rfl⟩
abbrev main_cst_8 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c : Ref sig .tc := ⟨.hbm, 72, rfl⟩
abbrev main_v35 : Ref sig .tc := ⟨.hbm, 73, rfl⟩
abbrev main_v36 : Ref sig .tc := ⟨.hbm, 74, rfl⟩
abbrev main_c_9 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_c_10 : Ref sig .tc := ⟨.hbm, 79, rfl⟩
abbrev main_v40 : Ref sig .tc := ⟨.hbm, 80, rfl⟩
abbrev main_v41 : Ref sig .tc := ⟨.hbm, 81, rfl⟩
abbrev main_c_11 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_12 : Ref sig .tc := ⟨.hbm, 96, rfl⟩
abbrev main_v55 : Ref sig .tc := ⟨.hbm, 97, rfl⟩
abbrev main_v56 : Ref sig .tc := ⟨.hbm, 98, rfl⟩
abbrev main_cst_13 : Ref sig .tc := ⟨.hbm, 99, rfl⟩
abbrev main_v57 : Ref sig .tc := ⟨.hbm, 100, rfl⟩
abbrev main_v58 : Ref sig .tc := ⟨.hbm, 101, rfl⟩
abbrev main_cst_14 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_15 : Ref sig .tc := ⟨.hbm, 108, rfl⟩
abbrev main_v64 : Ref sig .tc := ⟨.hbm, 109, rfl⟩
abbrev main_v65 : Ref sig .tc := ⟨.hbm, 110, rfl⟩
abbrev main_cst_16 : Ref sig .tc := ⟨.hbm, 111, rfl⟩
abbrev main_cst_17 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_v66 : Ref sig .tc := ⟨.hbm, 118, rfl⟩
abbrev main_cst_18 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_19 : Ref sig .tc := ⟨.hbm, 124, rfl⟩
abbrev main_v71 : Ref sig .tc := ⟨.hbm, 125, rfl⟩
abbrev main_v72 : Ref sig .tc := ⟨.hbm, 126, rfl⟩
abbrev main_c_20 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_21 : Ref sig .tc := ⟨.hbm, 136, rfl⟩
abbrev main_v81 : Ref sig .tc := ⟨.hbm, 137, rfl⟩
abbrev main_v82 : Ref sig .tc := ⟨.hbm, 138, rfl⟩
abbrev main_cst_22 : Ref sig .tc := ⟨.hbm, 139, rfl⟩
abbrev main_v83 : Ref sig .tc := ⟨.hbm, 140, rfl⟩
abbrev main_v84 : Ref sig .tc := ⟨.hbm, 141, rfl⟩
abbrev main_cst_23 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_24 : Ref sig .tc := ⟨.hbm, 148, rfl⟩
abbrev main_v90 : Ref sig .tc := ⟨.hbm, 149, rfl⟩
abbrev main_v91 : Ref sig .tc := ⟨.hbm, 150, rfl⟩
abbrev main_cst_25 : Ref sig .tc := ⟨.hbm, 151, rfl⟩
abbrev main_cst_26 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_v92 : Ref sig .tc := ⟨.hbm, 158, rfl⟩
abbrev main_cst_27 : Ref sig .tc := ⟨.hbm, 159, rfl⟩
abbrev main_v93 : Ref sig .tc := ⟨.hbm, 160, rfl⟩
abbrev main_v94 : Ref sig .tc := ⟨.hbm, 161, rfl⟩
abbrev main_cst_28 : Ref sig .tc := ⟨.hbm, 162, rfl⟩
abbrev main_cst_29 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_v95 : Ref sig .tc := ⟨.hbm, 169, rfl⟩
abbrev main_cst_30 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_c_31 : Ref sig .tc := ⟨.hbm, 181, rfl⟩
abbrev main_v106 : Ref sig .tc := ⟨.hbm, 182, rfl⟩
abbrev main_v107 : Ref sig .tc := ⟨.hbm, 183, rfl⟩
abbrev main_c_32 : Ref sig .tc := ⟨.hbm, 184, rfl⟩
abbrev main_v108 : Ref sig .tc := ⟨.hbm, 185, rfl⟩
abbrev main_v109 : Ref sig .tc := ⟨.hbm, 186, rfl⟩
abbrev main_c_33 : Ref sig .tc := ⟨.hbm, 187, rfl⟩
abbrev main_v110 : Ref sig .tc := ⟨.hbm, 188, rfl⟩
abbrev main_v111 : Ref sig .tc := ⟨.hbm, 189, rfl⟩
abbrev main_c_34 : Ref sig .tc := ⟨.hbm, 190, rfl⟩
abbrev main_v112 : Ref sig .tc := ⟨.hbm, 191, rfl⟩
abbrev main_v113 : Ref sig .tc := ⟨.hbm, 192, rfl⟩
abbrev main_c_35 : Ref sig .tc := ⟨.hbm, 193, rfl⟩
abbrev main_v114 : Ref sig .tc := ⟨.hbm, 194, rfl⟩
abbrev main_v115 : Ref sig .tc := ⟨.hbm, 195, rfl⟩
abbrev main_c_36 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_c_37 : Ref sig .tc := ⟨.hbm, 200, rfl⟩
abbrev main_v119 : Ref sig .tc := ⟨.hbm, 201, rfl⟩
abbrev main_v120 : Ref sig .tc := ⟨.hbm, 202, rfl⟩
abbrev main_c_38 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_cst_39 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_cst_40 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_c_41 : Ref sig .tc := ⟨.hbm, 221, rfl⟩
abbrev main_v136 : Ref sig .tc := ⟨.hbm, 222, rfl⟩
abbrev main_v137 : Ref sig .tc := ⟨.hbm, 223, rfl⟩
abbrev main_c_42 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_c_43 : Ref sig .tc := ⟨.hbm, 228, rfl⟩
abbrev main_v141 : Ref sig .tc := ⟨.hbm, 229, rfl⟩
abbrev main_v142 : Ref sig .tc := ⟨.hbm, 230, rfl⟩
abbrev main_c_44 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_45 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_c_46 : Ref sig .tc := ⟨.hbm, 247, rfl⟩
abbrev main_v157 : Ref sig .tc := ⟨.hbm, 248, rfl⟩
abbrev main_v158 : Ref sig .tc := ⟨.hbm, 249, rfl⟩
abbrev main_c_47 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_c_48 : Ref sig .tc := ⟨.hbm, 254, rfl⟩
abbrev main_v162 : Ref sig .tc := ⟨.hbm, 255, rfl⟩
abbrev main_v163 : Ref sig .tc := ⟨.hbm, 256, rfl⟩
abbrev main_c_49 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_cst_50 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_c_51 : Ref sig .tc := ⟨.hbm, 273, rfl⟩
abbrev main_v178 : Ref sig .tc := ⟨.hbm, 274, rfl⟩
abbrev main_v179 : Ref sig .tc := ⟨.hbm, 275, rfl⟩
abbrev main_c_52 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_c_53 : Ref sig .tc := ⟨.hbm, 280, rfl⟩
abbrev main_v183 : Ref sig .tc := ⟨.hbm, 281, rfl⟩
abbrev main_v184 : Ref sig .tc := ⟨.hbm, 282, rfl⟩
abbrev main_c_54 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_cst_55 : Ref sig .tc := ⟨.hbm, 296, rfl⟩
abbrev main_cst_56 : Ref sig .tc := ⟨.hbm, 297, rfl⟩
abbrev main_call8_v0 : Ref sig .tc := ⟨.hbm, 298, rfl⟩
abbrev main_call8_v1 : Ref sig .tc := ⟨.hbm, 299, rfl⟩
abbrev main_call8_v2 : Ref sig .tc := ⟨.hbm, 300, rfl⟩
abbrev main_call8_v3 : Ref sig .tc := ⟨.hbm, 301, rfl⟩
abbrev main_call8_v4 : Ref sig .tc := ⟨.hbm, 302, rfl⟩
abbrev main_v197 : Ref sig .tc := ⟨.hbm, 303, rfl⟩
abbrev main_cst_57 : Ref sig .tc := ⟨.hbm, 304, rfl⟩
abbrev main_v198 : Ref sig .tc := ⟨.hbm, 305, rfl⟩
abbrev main_v199 : Ref sig .tc := ⟨.hbm, 306, rfl⟩
abbrev main_cst_58 : Ref sig .tc := ⟨.hbm, 307, rfl⟩
abbrev main_cst_59 : Ref sig .tc := ⟨.hbm, 308, rfl⟩
abbrev main_call9_v0 : Ref sig .tc := ⟨.hbm, 309, rfl⟩
abbrev main_call9_v1 : Ref sig .tc := ⟨.hbm, 310, rfl⟩
abbrev main_call9_v2 : Ref sig .tc := ⟨.hbm, 311, rfl⟩
abbrev main_call9_v3 : Ref sig .tc := ⟨.hbm, 312, rfl⟩
abbrev main_call9_v4 : Ref sig .tc := ⟨.hbm, 313, rfl⟩
abbrev main_v200 : Ref sig .tc := ⟨.hbm, 314, rfl⟩
abbrev main_cst_60 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_c_61 : Ref sig .tc := ⟨.hbm, 326, rfl⟩
abbrev main_v211 : Ref sig .tc := ⟨.hbm, 327, rfl⟩
abbrev main_v212 : Ref sig .tc := ⟨.hbm, 328, rfl⟩
abbrev main_c_62 : Ref sig .tc := ⟨.hbm, 329, rfl⟩
abbrev main_v213 : Ref sig .tc := ⟨.hbm, 330, rfl⟩
abbrev main_v214 : Ref sig .tc := ⟨.hbm, 331, rfl⟩
abbrev main_c_63 : Ref sig .tc := ⟨.hbm, 332, rfl⟩
abbrev main_v215 : Ref sig .tc := ⟨.hbm, 333, rfl⟩
abbrev main_v216 : Ref sig .tc := ⟨.hbm, 334, rfl⟩
abbrev main_c_64 : Ref sig .tc := ⟨.hbm, 335, rfl⟩
abbrev main_v217 : Ref sig .tc := ⟨.hbm, 336, rfl⟩
abbrev main_v218 : Ref sig .tc := ⟨.hbm, 337, rfl⟩
abbrev main_c_65 : Ref sig .tc := ⟨.hbm, 338, rfl⟩
abbrev main_v219 : Ref sig .tc := ⟨.hbm, 339, rfl⟩
abbrev main_v220 : Ref sig .tc := ⟨.hbm, 340, rfl⟩
abbrev main_c_66 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_c_67 : Ref sig .tc := ⟨.hbm, 345, rfl⟩
abbrev main_v224 : Ref sig .tc := ⟨.hbm, 346, rfl⟩
abbrev main_v225 : Ref sig .tc := ⟨.hbm, 347, rfl⟩
abbrev main_c_68 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_cst_69 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_cst_70 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_c_71 : Ref sig .tc := ⟨.hbm, 366, rfl⟩
abbrev main_v241 : Ref sig .tc := ⟨.hbm, 367, rfl⟩
abbrev main_v242 : Ref sig .tc := ⟨.hbm, 368, rfl⟩
abbrev main_c_72 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_c_73 : Ref sig .tc := ⟨.hbm, 373, rfl⟩
abbrev main_v246 : Ref sig .tc := ⟨.hbm, 374, rfl⟩
abbrev main_v247 : Ref sig .tc := ⟨.hbm, 375, rfl⟩
abbrev main_c_74 : Ref sig .tc := ⟨.hbm, 376, rfl⟩
abbrev main_v248 : Ref sig .tc := ⟨.hbm, 377, rfl⟩
abbrev main_v249 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_cst_75 : Ref sig .tc := ⟨.hbm, 386, rfl⟩
abbrev main_v257 : Ref sig .tc := ⟨.hbm, 387, rfl⟩
abbrev main_v258 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_c_76 : Ref sig .tc := ⟨.hbm, 392, rfl⟩
abbrev main_v262 : Ref sig .tc := ⟨.hbm, 393, rfl⟩
abbrev main_v263 : Ref sig .tc := ⟨.hbm, 394, rfl⟩
abbrev main_c_77 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_c_78 : Ref sig .tc := ⟨.hbm, 399, rfl⟩
abbrev main_v267 : Ref sig .tc := ⟨.hbm, 400, rfl⟩
abbrev main_v268 : Ref sig .tc := ⟨.hbm, 401, rfl⟩
abbrev main_c_79 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_cst_80 : Ref sig .tc := ⟨.hbm, 410, rfl⟩
abbrev main_v276 : Ref sig .tc := ⟨.hbm, 411, rfl⟩
abbrev main_v277 : Ref sig .tc := ⟨.hbm, 412, rfl⟩
abbrev main_v278 : Ref sig .tc := ⟨.hbm, 413, rfl⟩
abbrev main_v279 : Ref sig .tc := ⟨.hbm, 414, rfl⟩
abbrev main_v280 : Ref sig .tc := ⟨.hbm, 415, rfl⟩
abbrev main_v281 : Ref sig .tc := ⟨.hbm, 416, rfl⟩
abbrev main_v282 : Ref sig .tc := ⟨.hbm, 417, rfl⟩
abbrev main_c_81 : Ref sig .tc := ⟨.hbm, 418, rfl⟩
abbrev main_v283 : Ref sig .tc := ⟨.hbm, 419, rfl⟩
abbrev main_v284 : Ref sig .tc := ⟨.hbm, 420, rfl⟩
abbrev main_c_82 : Ref sig .tc := ⟨.hbm, 421, rfl⟩
abbrev main_v285 : Ref sig .tc := ⟨.hbm, 422, rfl⟩
abbrev main_v286 : Ref sig .tc := ⟨.hbm, 423, rfl⟩
abbrev main_v287 : Ref sig .tc := ⟨.hbm, 424, rfl⟩
abbrev main_c_83 : Ref sig .tc := ⟨.hbm, 425, rfl⟩
abbrev main_v288 : Ref sig .tc := ⟨.hbm, 426, rfl⟩
abbrev main_v289 : Ref sig .tc := ⟨.hbm, 427, rfl⟩
abbrev main_c_84 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_v294 : Ref sig .tc := ⟨.hbm, 433, rfl⟩
abbrev main_v295 : Ref sig .tc := ⟨.hbm, 434, rfl⟩
abbrev main_v296 : Ref sig .tc := ⟨.hbm, 435, rfl⟩
abbrev main_v297 : Ref sig .tc := ⟨.hbm, 436, rfl⟩
abbrev main_v298 : Ref sig .tc := ⟨.hbm, 437, rfl⟩
abbrev main_v299 : Ref sig .tc := ⟨.hbm, 438, rfl⟩
abbrev main_v300 : Ref sig .tc := ⟨.hbm, 439, rfl⟩
abbrev main_v301 : Ref sig .tc := ⟨.hbm, 440, rfl⟩
abbrev main_cst_85 : Ref sig .tc := ⟨.hbm, 441, rfl⟩
abbrev main_cst_86 : Ref sig .tc := ⟨.hbm, 442, rfl⟩
abbrev main_call10_v0 : Ref sig .tc := ⟨.hbm, 443, rfl⟩
abbrev main_call10_v1 : Ref sig .tc := ⟨.hbm, 444, rfl⟩
abbrev main_call10_v2 : Ref sig .tc := ⟨.hbm, 445, rfl⟩
abbrev main_call10_v3 : Ref sig .tc := ⟨.hbm, 446, rfl⟩
abbrev main_call10_v4 : Ref sig .tc := ⟨.hbm, 447, rfl⟩
abbrev main_v302 : Ref sig .tc := ⟨.hbm, 448, rfl⟩
abbrev main_cst_87 : Ref sig .tc := ⟨.hbm, 449, rfl⟩
abbrev main_v303 : Ref sig .tc := ⟨.hbm, 450, rfl⟩
abbrev main_v304 : Ref sig .tc := ⟨.hbm, 451, rfl⟩
abbrev main_v305 : Ref sig .tc := ⟨.hbm, 452, rfl⟩
abbrev main_v306 : Ref sig .tc := ⟨.hbm, 453, rfl⟩
abbrev main_v307 : Ref sig .tc := ⟨.hbm, 454, rfl⟩
abbrev main_v308 : Ref sig .tc := ⟨.hbm, 455, rfl⟩
abbrev main_c_88 : Ref sig .tc := ⟨.hbm, 456, rfl⟩
abbrev main_v309 : Ref sig .tc := ⟨.hbm, 457, rfl⟩
abbrev main_v310 : Ref sig .tc := ⟨.hbm, 458, rfl⟩
abbrev main_c_89 : Ref sig .tc := ⟨.hbm, 459, rfl⟩
abbrev main_v311 : Ref sig .tc := ⟨.hbm, 460, rfl⟩
abbrev main_v312 : Ref sig .tc := ⟨.hbm, 461, rfl⟩
abbrev main_c_90 : Ref sig .tc := ⟨.hbm, 462, rfl⟩
abbrev main_v313 : Ref sig .tc := ⟨.hbm, 463, rfl⟩
abbrev main_v314 : Ref sig .tc := ⟨.hbm, 464, rfl⟩
abbrev main_c_91 : Ref sig .tc := ⟨.hbm, 465, rfl⟩
abbrev main_v315 : Ref sig .tc := ⟨.hbm, 466, rfl⟩
abbrev main_v316 : Ref sig .tc := ⟨.hbm, 467, rfl⟩
abbrev main_v317 : Ref sig .tc := ⟨.hbm, 468, rfl⟩
abbrev main_v318 : Ref sig .tc := ⟨.hbm, 469, rfl⟩
abbrev main_v319 : Ref sig .tc := ⟨.hbm, 470, rfl⟩
abbrev main_cst_92 : Ref sig .tc := ⟨.hbm, 471, rfl⟩
abbrev main_v320 : Ref sig .tc := ⟨.hbm, 472, rfl⟩
abbrev main_v321 : Ref sig .tc := ⟨.hbm, 473, rfl⟩
abbrev main_v322 : Ref sig .tc := ⟨.hbm, 474, rfl⟩
abbrev main_v323 : Ref sig .tc := ⟨.hbm, 475, rfl⟩
abbrev main_c_93 : Ref sig .tc := ⟨.hbm, 476, rfl⟩
abbrev main_v324 : Ref sig .tc := ⟨.hbm, 477, rfl⟩
abbrev main_v325 : Ref sig .tc := ⟨.hbm, 478, rfl⟩
abbrev main_c_94 : Ref sig .tc := ⟨.hbm, 479, rfl⟩
abbrev main_v326 : Ref sig .tc := ⟨.hbm, 480, rfl⟩
abbrev main_v327 : Ref sig .tc := ⟨.hbm, 481, rfl⟩
abbrev main_v328 : Ref sig .tc := ⟨.hbm, 482, rfl⟩
abbrev main_v329 : Ref sig .tc := ⟨.hbm, 483, rfl⟩
abbrev main_v330 : Ref sig .tc := ⟨.hbm, 484, rfl⟩
abbrev main_v331 : Ref sig .tc := ⟨.hbm, 485, rfl⟩
abbrev main_v332 : Ref sig .tc := ⟨.hbm, 486, rfl⟩
abbrev main_v333 : Ref sig .tc := ⟨.hbm, 487, rfl⟩
abbrev main_v334 : Ref sig .tc := ⟨.hbm, 488, rfl⟩
abbrev main_v335 : Ref sig .tc := ⟨.hbm, 489, rfl⟩
abbrev main_v336 : Ref sig .tc := ⟨.hbm, 490, rfl⟩
abbrev main_v337 : Ref sig .tc := ⟨.hbm, 491, rfl⟩
abbrev main_v338 : Ref sig .tc := ⟨.hbm, 492, rfl⟩
abbrev main_cst_95 : Ref sig .tc := ⟨.hbm, 493, rfl⟩
abbrev main_v339 : Ref sig .tc := ⟨.hbm, 494, rfl⟩
abbrev main_v340 : Ref sig .tc := ⟨.hbm, 495, rfl⟩
abbrev main_cst_96 : Ref sig .tc := ⟨.hbm, 496, rfl⟩
abbrev main_v341 : Ref sig .tc := ⟨.hbm, 497, rfl⟩
abbrev main_v342 : Ref sig .tc := ⟨.hbm, 498, rfl⟩
abbrev main_cst_97 : Ref sig .tc := ⟨.hbm, 499, rfl⟩
abbrev main_v343 : Ref sig .tc := ⟨.hbm, 500, rfl⟩
abbrev main_v344 : Ref sig .tc := ⟨.hbm, 501, rfl⟩
abbrev main_v345 : Ref sig .tc := ⟨.hbm, 502, rfl⟩
abbrev main_v346 : Ref sig .tc := ⟨.hbm, 503, rfl⟩
abbrev main_v347 : Ref sig .tc := ⟨.hbm, 504, rfl⟩
abbrev main_cst_98 : Ref sig .tc := ⟨.hbm, 505, rfl⟩
abbrev main_v348 : Ref sig .tc := ⟨.hbm, 506, rfl⟩
abbrev main_v349 : Ref sig .tc := ⟨.hbm, 507, rfl⟩
abbrev main_cst_99 : Ref sig .tc := ⟨.hbm, 508, rfl⟩
abbrev main_cst_100 : Ref sig .tc := ⟨.hbm, 509, rfl⟩
abbrev main_call11_v0 : Ref sig .tc := ⟨.hbm, 510, rfl⟩
abbrev main_call11_v1 : Ref sig .tc := ⟨.hbm, 511, rfl⟩
abbrev main_call11_v2 : Ref sig .tc := ⟨.hbm, 512, rfl⟩
abbrev main_call11_v3 : Ref sig .tc := ⟨.hbm, 513, rfl⟩
abbrev main_call11_v4 : Ref sig .tc := ⟨.hbm, 514, rfl⟩
abbrev main_v350 : Ref sig .tc := ⟨.hbm, 515, rfl⟩
abbrev main_cst_101 : Ref sig .tc := ⟨.hbm, 516, rfl⟩
abbrev main_v351 : Ref sig .tc := ⟨.hbm, 517, rfl⟩
abbrev main_v352 : Ref sig .tc := ⟨.hbm, 518, rfl⟩
abbrev main_cst_102 : Ref sig .tc := ⟨.hbm, 519, rfl⟩
abbrev main_cst_103 : Ref sig .tc := ⟨.hbm, 520, rfl⟩
abbrev main_call12_v0 : Ref sig .tc := ⟨.hbm, 521, rfl⟩
abbrev main_call12_v1 : Ref sig .tc := ⟨.hbm, 522, rfl⟩
abbrev main_call12_v2 : Ref sig .tc := ⟨.hbm, 523, rfl⟩
abbrev main_call12_v3 : Ref sig .tc := ⟨.hbm, 524, rfl⟩
abbrev main_call12_v4 : Ref sig .tc := ⟨.hbm, 525, rfl⟩
abbrev main_v353 : Ref sig .tc := ⟨.hbm, 526, rfl⟩
abbrev main_cst_104 : Ref sig .tc := ⟨.hbm, 527, rfl⟩
abbrev main_v354 : Ref sig .tc := ⟨.hbm, 528, rfl⟩
abbrev main_v355 : Ref sig .tc := ⟨.hbm, 529, rfl⟩
abbrev main_v356 : Ref sig .tc := ⟨.hbm, 530, rfl⟩
abbrev main_v357 : Ref sig .tc := ⟨.hbm, 531, rfl⟩
abbrev main_v358 : Ref sig .tc := ⟨.hbm, 532, rfl⟩
abbrev main_v359 : Ref sig .tc := ⟨.hbm, 533, rfl⟩
abbrev main_v360 : Ref sig .tc := ⟨.hbm, 534, rfl⟩
abbrev main_v361 : Ref sig .tc := ⟨.hbm, 535, rfl⟩
abbrev main_v362 : Ref sig .tc := ⟨.hbm, 536, rfl⟩
abbrev main_v363 : Ref sig .tc := ⟨.hbm, 537, rfl⟩
abbrev main_c_105 : Ref sig .tc := ⟨.hbm, 538, rfl⟩
abbrev main_v364 : Ref sig .tc := ⟨.hbm, 539, rfl⟩
abbrev main_v365 : Ref sig .tc := ⟨.hbm, 540, rfl⟩
abbrev main_c_106 : Ref sig .tc := ⟨.hbm, 541, rfl⟩
abbrev main_v366 : Ref sig .tc := ⟨.hbm, 542, rfl⟩
abbrev main_v367 : Ref sig .tc := ⟨.hbm, 543, rfl⟩
abbrev main_c_107 : Ref sig .tc := ⟨.hbm, 544, rfl⟩
abbrev main_v368 : Ref sig .tc := ⟨.hbm, 545, rfl⟩
abbrev main_v369 : Ref sig .tc := ⟨.hbm, 546, rfl⟩
abbrev main_c_108 : Ref sig .tc := ⟨.hbm, 547, rfl⟩
abbrev main_v370 : Ref sig .tc := ⟨.hbm, 548, rfl⟩
abbrev main_v371 : Ref sig .tc := ⟨.hbm, 549, rfl⟩
abbrev main_c_109 : Ref sig .tc := ⟨.hbm, 550, rfl⟩
abbrev main_v372 : Ref sig .tc := ⟨.hbm, 551, rfl⟩
abbrev main_v373 : Ref sig .tc := ⟨.hbm, 552, rfl⟩
abbrev main_c_110 : Ref sig .tc := ⟨.hbm, 553, rfl⟩
abbrev main_v374 : Ref sig .tc := ⟨.hbm, 554, rfl⟩
abbrev main_v375 : Ref sig .tc := ⟨.hbm, 555, rfl⟩
abbrev main_v376 : Ref sig .tc := ⟨.hbm, 556, rfl⟩
abbrev main_c_111 : Ref sig .tc := ⟨.hbm, 557, rfl⟩
abbrev main_v377 : Ref sig .tc := ⟨.hbm, 558, rfl⟩
abbrev main_v378 : Ref sig .tc := ⟨.hbm, 559, rfl⟩
abbrev main_c_112 : Ref sig .tc := ⟨.hbm, 560, rfl⟩
abbrev main_v379 : Ref sig .tc := ⟨.hbm, 561, rfl⟩
abbrev main_v380 : Ref sig .tc := ⟨.hbm, 562, rfl⟩
abbrev main_v381 : Ref sig .tc := ⟨.hbm, 563, rfl⟩
abbrev main_v382 : Ref sig .tc := ⟨.hbm, 564, rfl⟩
abbrev main_v383 : Ref sig .tc := ⟨.hbm, 565, rfl⟩
abbrev main_v384 : Ref sig .tc := ⟨.hbm, 566, rfl⟩
abbrev main_v385 : Ref sig .tc := ⟨.hbm, 567, rfl⟩
abbrev main_cst_113 : Ref sig .tc := ⟨.hbm, 568, rfl⟩
abbrev main_v386 : Ref sig .tc := ⟨.hbm, 569, rfl⟩
abbrev main_v387 : Ref sig .tc := ⟨.hbm, 570, rfl⟩
abbrev main_v388 : Ref sig .tc := ⟨.hbm, 571, rfl⟩
abbrev main_cst_114 : Ref sig .tc := ⟨.hbm, 572, rfl⟩
abbrev main_v389 : Ref sig .tc := ⟨.hbm, 573, rfl⟩
abbrev main_v390 : Ref sig .tc := ⟨.hbm, 574, rfl⟩
abbrev main_v391 : Ref sig .tc := ⟨.hbm, 575, rfl⟩
abbrev main_c_115 : Ref sig .tc := ⟨.hbm, 576, rfl⟩
abbrev main_v392 : Ref sig .tc := ⟨.hbm, 577, rfl⟩
abbrev main_v393 : Ref sig .tc := ⟨.hbm, 578, rfl⟩
abbrev main_c_116 : Ref sig .tc := ⟨.hbm, 579, rfl⟩
abbrev main_v394 : Ref sig .tc := ⟨.hbm, 580, rfl⟩
abbrev main_v395 : Ref sig .tc := ⟨.hbm, 581, rfl⟩
abbrev main_v396 : Ref sig .tc := ⟨.hbm, 582, rfl⟩
abbrev main_c_117 : Ref sig .tc := ⟨.hbm, 583, rfl⟩
abbrev main_v397 : Ref sig .tc := ⟨.hbm, 584, rfl⟩
abbrev main_v398 : Ref sig .tc := ⟨.hbm, 585, rfl⟩
abbrev main_c_118 : Ref sig .tc := ⟨.hbm, 586, rfl⟩
abbrev main_v399 : Ref sig .tc := ⟨.hbm, 587, rfl⟩
abbrev main_v400 : Ref sig .tc := ⟨.hbm, 588, rfl⟩
abbrev main_v401 : Ref sig .tc := ⟨.hbm, 589, rfl⟩
abbrev main_v402 : Ref sig .tc := ⟨.hbm, 590, rfl⟩
abbrev main_v403 : Ref sig .tc := ⟨.hbm, 591, rfl⟩
abbrev main_v404 : Ref sig .tc := ⟨.hbm, 592, rfl⟩
abbrev main_v405 : Ref sig .tc := ⟨.hbm, 593, rfl⟩
abbrev main_v406 : Ref sig .tc := ⟨.hbm, 594, rfl⟩
abbrev main_cst_119 : Ref sig .tc := ⟨.hbm, 595, rfl⟩
abbrev main_v407 : Ref sig .tc := ⟨.hbm, 596, rfl⟩
abbrev main_v408 : Ref sig .tc := ⟨.hbm, 597, rfl⟩
abbrev main_v409 : Ref sig .tc := ⟨.hbm, 598, rfl⟩
abbrev main_v410 : Ref sig .tc := ⟨.hbm, 599, rfl⟩
abbrev main_c_120 : Ref sig .tc := ⟨.hbm, 600, rfl⟩
abbrev main_v411 : Ref sig .tc := ⟨.hbm, 601, rfl⟩
abbrev main_v412 : Ref sig .tc := ⟨.hbm, 602, rfl⟩
abbrev main_c_121 : Ref sig .tc := ⟨.hbm, 603, rfl⟩
abbrev main_v413 : Ref sig .tc := ⟨.hbm, 604, rfl⟩
abbrev main_v414 : Ref sig .tc := ⟨.hbm, 605, rfl⟩
abbrev main_v415 : Ref sig .tc := ⟨.hbm, 606, rfl⟩
abbrev main_c_122 : Ref sig .tc := ⟨.hbm, 607, rfl⟩
abbrev main_v416 : Ref sig .tc := ⟨.hbm, 608, rfl⟩
abbrev main_v417 : Ref sig .tc := ⟨.hbm, 609, rfl⟩
abbrev main_c_123 : Ref sig .tc := ⟨.hbm, 610, rfl⟩
abbrev main_v418 : Ref sig .tc := ⟨.hbm, 611, rfl⟩
abbrev main_v419 : Ref sig .tc := ⟨.hbm, 612, rfl⟩
abbrev main_v420 : Ref sig .tc := ⟨.hbm, 613, rfl⟩
abbrev main_v421 : Ref sig .tc := ⟨.hbm, 614, rfl⟩
abbrev main_v422 : Ref sig .tc := ⟨.hbm, 615, rfl⟩
abbrev main_v423 : Ref sig .tc := ⟨.hbm, 616, rfl⟩
abbrev main_v424 : Ref sig .tc := ⟨.hbm, 617, rfl⟩
abbrev main_cst_124 : Ref sig .tc := ⟨.hbm, 618, rfl⟩
abbrev main_v425 : Ref sig .tc := ⟨.hbm, 619, rfl⟩
abbrev main_v426 : Ref sig .tc := ⟨.hbm, 620, rfl⟩
abbrev main_v427 : Ref sig .tc := ⟨.hbm, 621, rfl⟩
abbrev main_v428 : Ref sig .tc := ⟨.hbm, 622, rfl⟩
abbrev main_v429 : Ref sig .tc := ⟨.hbm, 623, rfl⟩
abbrev main_c_125 : Ref sig .tc := ⟨.hbm, 624, rfl⟩
abbrev main_v430 : Ref sig .tc := ⟨.hbm, 625, rfl⟩
abbrev main_v431 : Ref sig .tc := ⟨.hbm, 626, rfl⟩
abbrev main_c_126 : Ref sig .tc := ⟨.hbm, 627, rfl⟩
abbrev main_v432 : Ref sig .tc := ⟨.hbm, 628, rfl⟩
abbrev main_v433 : Ref sig .tc := ⟨.hbm, 629, rfl⟩
abbrev main_v434 : Ref sig .tc := ⟨.hbm, 630, rfl⟩
abbrev main_c_127 : Ref sig .tc := ⟨.hbm, 631, rfl⟩
abbrev main_v435 : Ref sig .tc := ⟨.hbm, 632, rfl⟩
abbrev main_v436 : Ref sig .tc := ⟨.hbm, 633, rfl⟩
abbrev main_c_128 : Ref sig .tc := ⟨.hbm, 634, rfl⟩
abbrev main_v437 : Ref sig .tc := ⟨.hbm, 635, rfl⟩
abbrev main_v438 : Ref sig .tc := ⟨.hbm, 636, rfl⟩
abbrev main_v439 : Ref sig .tc := ⟨.hbm, 637, rfl⟩
abbrev main_v440 : Ref sig .tc := ⟨.hbm, 638, rfl⟩
abbrev main_v441 : Ref sig .tc := ⟨.hbm, 639, rfl⟩
abbrev main_v442 : Ref sig .tc := ⟨.hbm, 640, rfl⟩
abbrev main_v443 : Ref sig .tc := ⟨.hbm, 641, rfl⟩
abbrev main_v444 : Ref sig .tc := ⟨.hbm, 642, rfl⟩
abbrev main_v445 : Ref sig .tc := ⟨.hbm, 643, rfl⟩
abbrev main_v446 : Ref sig .tc := ⟨.hbm, 644, rfl⟩
abbrev main_v447 : Ref sig .tc := ⟨.hbm, 645, rfl⟩
abbrev main_v448 : Ref sig .tc := ⟨.hbm, 646, rfl⟩
abbrev main_v449 : Ref sig .tc := ⟨.hbm, 647, rfl⟩
abbrev main_v450 : Ref sig .tc := ⟨.hbm, 648, rfl⟩
abbrev main_cst_129 : Ref sig .tc := ⟨.hbm, 649, rfl⟩
abbrev main_v451 : Ref sig .tc := ⟨.hbm, 650, rfl⟩
abbrev main_v452 : Ref sig .tc := ⟨.hbm, 651, rfl⟩
abbrev main_cst_130 : Ref sig .tc := ⟨.hbm, 652, rfl⟩
abbrev main_v453 : Ref sig .tc := ⟨.hbm, 653, rfl⟩
abbrev main_v454 : Ref sig .tc := ⟨.hbm, 654, rfl⟩
abbrev main_cst_131 : Ref sig .tc := ⟨.hbm, 655, rfl⟩
abbrev main_v455 : Ref sig .tc := ⟨.hbm, 656, rfl⟩
abbrev main_v456 : Ref sig .tc := ⟨.hbm, 657, rfl⟩
abbrev main_v457 : Ref sig .tc := ⟨.hbm, 658, rfl⟩
abbrev main_v458 : Ref sig .tc := ⟨.hbm, 659, rfl⟩
abbrev main_v459 : Ref sig .tc := ⟨.hbm, 660, rfl⟩
abbrev main_cst_132 : Ref sig .tc := ⟨.hbm, 661, rfl⟩
abbrev main_v460 : Ref sig .tc := ⟨.hbm, 662, rfl⟩
abbrev main_v461 : Ref sig .tc := ⟨.hbm, 663, rfl⟩
abbrev main_cst_133 : Ref sig .tc := ⟨.hbm, 664, rfl⟩
abbrev main_cst_134 : Ref sig .tc := ⟨.hbm, 665, rfl⟩
abbrev main_call13_v0 : Ref sig .tc := ⟨.hbm, 666, rfl⟩
abbrev main_call13_v1 : Ref sig .tc := ⟨.hbm, 667, rfl⟩
abbrev main_call13_v2 : Ref sig .tc := ⟨.hbm, 668, rfl⟩
abbrev main_call13_v3 : Ref sig .tc := ⟨.hbm, 669, rfl⟩
abbrev main_call13_v4 : Ref sig .tc := ⟨.hbm, 670, rfl⟩
abbrev main_v462 : Ref sig .tc := ⟨.hbm, 671, rfl⟩
abbrev main_cst_135 : Ref sig .tc := ⟨.hbm, 672, rfl⟩
abbrev main_v463 : Ref sig .tc := ⟨.hbm, 673, rfl⟩
abbrev main_v464 : Ref sig .tc := ⟨.hbm, 674, rfl⟩
abbrev main_cst_136 : Ref sig .tc := ⟨.hbm, 675, rfl⟩
abbrev main_cst_137 : Ref sig .tc := ⟨.hbm, 676, rfl⟩
abbrev main_call14_v0 : Ref sig .tc := ⟨.hbm, 677, rfl⟩
abbrev main_call14_v1 : Ref sig .tc := ⟨.hbm, 678, rfl⟩
abbrev main_call14_v2 : Ref sig .tc := ⟨.hbm, 679, rfl⟩
abbrev main_call14_v3 : Ref sig .tc := ⟨.hbm, 680, rfl⟩
abbrev main_call14_v4 : Ref sig .tc := ⟨.hbm, 681, rfl⟩
abbrev main_v465 : Ref sig .tc := ⟨.hbm, 682, rfl⟩
abbrev main_cst_138 : Ref sig .tc := ⟨.hbm, 683, rfl⟩
abbrev main_v466 : Ref sig .tc := ⟨.hbm, 684, rfl⟩
abbrev main_v467 : Ref sig .tc := ⟨.hbm, 685, rfl⟩
abbrev main_v468 : Ref sig .tc := ⟨.hbm, 686, rfl⟩
abbrev main_v469 : Ref sig .tc := ⟨.hbm, 687, rfl⟩
abbrev main_v470 : Ref sig .tc := ⟨.hbm, 688, rfl⟩
abbrev main_v471 : Ref sig .tc := ⟨.hbm, 689, rfl⟩
abbrev main_v472 : Ref sig .tc := ⟨.hbm, 690, rfl⟩
abbrev main_v473 : Ref sig .tc := ⟨.hbm, 691, rfl⟩
abbrev main_v474 : Ref sig .tc := ⟨.hbm, 692, rfl⟩
abbrev main_v475 : Ref sig .tc := ⟨.hbm, 693, rfl⟩
abbrev main_c_139 : Ref sig .tc := ⟨.hbm, 694, rfl⟩
abbrev main_v476 : Ref sig .tc := ⟨.hbm, 695, rfl⟩
abbrev main_v477 : Ref sig .tc := ⟨.hbm, 696, rfl⟩
abbrev main_c_140 : Ref sig .tc := ⟨.hbm, 697, rfl⟩
abbrev main_v478 : Ref sig .tc := ⟨.hbm, 698, rfl⟩
abbrev main_v479 : Ref sig .tc := ⟨.hbm, 699, rfl⟩
abbrev main_c_141 : Ref sig .tc := ⟨.hbm, 700, rfl⟩
abbrev main_v480 : Ref sig .tc := ⟨.hbm, 701, rfl⟩
abbrev main_v481 : Ref sig .tc := ⟨.hbm, 702, rfl⟩
abbrev main_c_142 : Ref sig .tc := ⟨.hbm, 703, rfl⟩
abbrev main_v482 : Ref sig .tc := ⟨.hbm, 704, rfl⟩
abbrev main_v483 : Ref sig .tc := ⟨.hbm, 705, rfl⟩
abbrev main_c_143 : Ref sig .tc := ⟨.hbm, 706, rfl⟩
abbrev main_v484 : Ref sig .tc := ⟨.hbm, 707, rfl⟩
abbrev main_v485 : Ref sig .tc := ⟨.hbm, 708, rfl⟩
abbrev main_c_144 : Ref sig .tc := ⟨.hbm, 709, rfl⟩
abbrev main_v486 : Ref sig .tc := ⟨.hbm, 710, rfl⟩
abbrev main_v487 : Ref sig .tc := ⟨.hbm, 711, rfl⟩
abbrev main_v488 : Ref sig .tc := ⟨.hbm, 712, rfl⟩
abbrev main_c_145 : Ref sig .tc := ⟨.hbm, 713, rfl⟩
abbrev main_v489 : Ref sig .tc := ⟨.hbm, 714, rfl⟩
abbrev main_v490 : Ref sig .tc := ⟨.hbm, 715, rfl⟩
abbrev main_c_146 : Ref sig .tc := ⟨.hbm, 716, rfl⟩
abbrev main_v491 : Ref sig .tc := ⟨.hbm, 717, rfl⟩
abbrev main_v492 : Ref sig .tc := ⟨.hbm, 718, rfl⟩
abbrev main_v493 : Ref sig .tc := ⟨.hbm, 719, rfl⟩
abbrev main_v494 : Ref sig .tc := ⟨.hbm, 720, rfl⟩
abbrev main_v495 : Ref sig .tc := ⟨.hbm, 721, rfl⟩
abbrev main_v496 : Ref sig .tc := ⟨.hbm, 722, rfl⟩
abbrev main_v497 : Ref sig .tc := ⟨.hbm, 723, rfl⟩
abbrev main_cst_147 : Ref sig .tc := ⟨.hbm, 724, rfl⟩
abbrev main_v498 : Ref sig .tc := ⟨.hbm, 725, rfl⟩
abbrev main_v499 : Ref sig .tc := ⟨.hbm, 726, rfl⟩
abbrev main_v500 : Ref sig .tc := ⟨.hbm, 727, rfl⟩
abbrev main_v501 : Ref sig .tc := ⟨.hbm, 728, rfl⟩
abbrev main_cst_148 : Ref sig .tc := ⟨.hbm, 729, rfl⟩
abbrev main_v502 : Ref sig .tc := ⟨.hbm, 730, rfl⟩
abbrev main_v503 : Ref sig .tc := ⟨.hbm, 731, rfl⟩
abbrev main_v504 : Ref sig .tc := ⟨.hbm, 732, rfl⟩
abbrev main_v505 : Ref sig .tc := ⟨.hbm, 733, rfl⟩
abbrev main_c_149 : Ref sig .tc := ⟨.hbm, 734, rfl⟩
abbrev main_v506 : Ref sig .tc := ⟨.hbm, 735, rfl⟩
abbrev main_v507 : Ref sig .tc := ⟨.hbm, 736, rfl⟩
abbrev main_c_150 : Ref sig .tc := ⟨.hbm, 737, rfl⟩
abbrev main_v508 : Ref sig .tc := ⟨.hbm, 738, rfl⟩
abbrev main_v509 : Ref sig .tc := ⟨.hbm, 739, rfl⟩
abbrev main_v510 : Ref sig .tc := ⟨.hbm, 740, rfl⟩
abbrev main_c_151 : Ref sig .tc := ⟨.hbm, 741, rfl⟩
abbrev main_v511 : Ref sig .tc := ⟨.hbm, 742, rfl⟩
abbrev main_v512 : Ref sig .tc := ⟨.hbm, 743, rfl⟩
abbrev main_c_152 : Ref sig .tc := ⟨.hbm, 744, rfl⟩
abbrev main_v513 : Ref sig .tc := ⟨.hbm, 745, rfl⟩
abbrev main_v514 : Ref sig .tc := ⟨.hbm, 746, rfl⟩
abbrev main_v515 : Ref sig .tc := ⟨.hbm, 747, rfl⟩
abbrev main_v516 : Ref sig .tc := ⟨.hbm, 748, rfl⟩
abbrev main_v517 : Ref sig .tc := ⟨.hbm, 749, rfl⟩
abbrev main_v518 : Ref sig .tc := ⟨.hbm, 750, rfl⟩
abbrev main_v519 : Ref sig .tc := ⟨.hbm, 751, rfl⟩
abbrev main_v520 : Ref sig .tc := ⟨.hbm, 752, rfl⟩
abbrev main_v521 : Ref sig .tc := ⟨.hbm, 753, rfl⟩
abbrev main_cst_153 : Ref sig .tc := ⟨.hbm, 754, rfl⟩
abbrev main_v522 : Ref sig .tc := ⟨.hbm, 755, rfl⟩
abbrev main_v523 : Ref sig .tc := ⟨.hbm, 756, rfl⟩
abbrev main_v524 : Ref sig .tc := ⟨.hbm, 757, rfl⟩
abbrev main_v525 : Ref sig .tc := ⟨.hbm, 758, rfl⟩
abbrev main_v526 : Ref sig .tc := ⟨.hbm, 759, rfl⟩
abbrev main_c_154 : Ref sig .tc := ⟨.hbm, 760, rfl⟩
abbrev main_v527 : Ref sig .tc := ⟨.hbm, 761, rfl⟩
abbrev main_v528 : Ref sig .tc := ⟨.hbm, 762, rfl⟩
abbrev main_c_155 : Ref sig .tc := ⟨.hbm, 763, rfl⟩
abbrev main_v529 : Ref sig .tc := ⟨.hbm, 764, rfl⟩
abbrev main_v530 : Ref sig .tc := ⟨.hbm, 765, rfl⟩
abbrev main_v531 : Ref sig .tc := ⟨.hbm, 766, rfl⟩
abbrev main_c_156 : Ref sig .tc := ⟨.hbm, 767, rfl⟩
abbrev main_v532 : Ref sig .tc := ⟨.hbm, 768, rfl⟩
abbrev main_v533 : Ref sig .tc := ⟨.hbm, 769, rfl⟩
abbrev main_c_157 : Ref sig .tc := ⟨.hbm, 770, rfl⟩
abbrev main_v534 : Ref sig .tc := ⟨.hbm, 771, rfl⟩
abbrev main_v535 : Ref sig .tc := ⟨.hbm, 772, rfl⟩
abbrev main_v536 : Ref sig .tc := ⟨.hbm, 773, rfl⟩
abbrev main_v537 : Ref sig .tc := ⟨.hbm, 774, rfl⟩
abbrev main_v538 : Ref sig .tc := ⟨.hbm, 775, rfl⟩
abbrev main_v539 : Ref sig .tc := ⟨.hbm, 776, rfl⟩
abbrev main_v540 : Ref sig .tc := ⟨.hbm, 777, rfl⟩
abbrev main_cst_158 : Ref sig .tc := ⟨.hbm, 778, rfl⟩
abbrev main_v541 : Ref sig .tc := ⟨.hbm, 779, rfl⟩
abbrev main_v542 : Ref sig .tc := ⟨.hbm, 780, rfl⟩
abbrev main_v543 : Ref sig .tc := ⟨.hbm, 781, rfl⟩
abbrev main_v544 : Ref sig .tc := ⟨.hbm, 782, rfl⟩
abbrev main_v545 : Ref sig .tc := ⟨.hbm, 783, rfl⟩
abbrev main_v546 : Ref sig .tc := ⟨.hbm, 784, rfl⟩
abbrev main_v547 : Ref sig .tc := ⟨.hbm, 785, rfl⟩
abbrev main_c_159 : Ref sig .tc := ⟨.hbm, 786, rfl⟩
abbrev main_v548 : Ref sig .tc := ⟨.hbm, 787, rfl⟩
abbrev main_v549 : Ref sig .tc := ⟨.hbm, 788, rfl⟩
abbrev main_c_160 : Ref sig .tc := ⟨.hbm, 789, rfl⟩
abbrev main_v550 : Ref sig .tc := ⟨.hbm, 790, rfl⟩
abbrev main_v551 : Ref sig .tc := ⟨.hbm, 791, rfl⟩
abbrev main_v552 : Ref sig .tc := ⟨.hbm, 792, rfl⟩
abbrev main_c_161 : Ref sig .tc := ⟨.hbm, 793, rfl⟩
abbrev main_v553 : Ref sig .tc := ⟨.hbm, 794, rfl⟩
abbrev main_v554 : Ref sig .tc := ⟨.hbm, 795, rfl⟩
abbrev main_c_162 : Ref sig .tc := ⟨.hbm, 796, rfl⟩
abbrev main_v555 : Ref sig .tc := ⟨.hbm, 797, rfl⟩
abbrev main_v556 : Ref sig .tc := ⟨.hbm, 798, rfl⟩
abbrev main_v557 : Ref sig .tc := ⟨.hbm, 799, rfl⟩
abbrev main_v558 : Ref sig .tc := ⟨.hbm, 800, rfl⟩
abbrev main_v559 : Ref sig .tc := ⟨.hbm, 801, rfl⟩
abbrev main_v560 : Ref sig .tc := ⟨.hbm, 802, rfl⟩
abbrev main_v561 : Ref sig .tc := ⟨.hbm, 803, rfl⟩
abbrev main_v562 : Ref sig .tc := ⟨.hbm, 804, rfl⟩
abbrev main_v563 : Ref sig .tc := ⟨.hbm, 805, rfl⟩
abbrev main_v564 : Ref sig .tc := ⟨.hbm, 806, rfl⟩
abbrev main_v565 : Ref sig .tc := ⟨.hbm, 807, rfl⟩
abbrev main_v566 : Ref sig .tc := ⟨.hbm, 808, rfl⟩
abbrev main_v567 : Ref sig .tc := ⟨.hbm, 809, rfl⟩
abbrev main_v568 : Ref sig .tc := ⟨.hbm, 810, rfl⟩
abbrev main_v569 : Ref sig .tc := ⟨.hbm, 811, rfl⟩
abbrev main_v570 : Ref sig .tc := ⟨.hbm, 812, rfl⟩
abbrev main_cst_163 : Ref sig .tc := ⟨.hbm, 813, rfl⟩
abbrev main_v571 : Ref sig .tc := ⟨.hbm, 814, rfl⟩
abbrev main_v572 : Ref sig .tc := ⟨.hbm, 815, rfl⟩
abbrev main_cst_164 : Ref sig .tc := ⟨.hbm, 816, rfl⟩
abbrev main_v573 : Ref sig .tc := ⟨.hbm, 817, rfl⟩
abbrev main_v574 : Ref sig .tc := ⟨.hbm, 818, rfl⟩
abbrev main_cst_165 : Ref sig .tc := ⟨.hbm, 819, rfl⟩
abbrev main_v575 : Ref sig .tc := ⟨.hbm, 820, rfl⟩
abbrev main_v576 : Ref sig .tc := ⟨.hbm, 821, rfl⟩
abbrev main_v577 : Ref sig .tc := ⟨.hbm, 822, rfl⟩
abbrev main_v578 : Ref sig .tc := ⟨.hbm, 823, rfl⟩
abbrev main_v579 : Ref sig .tc := ⟨.hbm, 824, rfl⟩
abbrev main_cst_166 : Ref sig .tc := ⟨.hbm, 825, rfl⟩
abbrev main_v580 : Ref sig .tc := ⟨.hbm, 826, rfl⟩
abbrev main_v581 : Ref sig .tc := ⟨.hbm, 827, rfl⟩
abbrev main_cst_167 : Ref sig .tc := ⟨.hbm, 828, rfl⟩
abbrev main_cst_168 : Ref sig .tc := ⟨.hbm, 829, rfl⟩
abbrev main_call15_v0 : Ref sig .tc := ⟨.hbm, 830, rfl⟩
abbrev main_call15_v1 : Ref sig .tc := ⟨.hbm, 831, rfl⟩
abbrev main_call15_v2 : Ref sig .tc := ⟨.hbm, 832, rfl⟩
abbrev main_call15_v3 : Ref sig .tc := ⟨.hbm, 833, rfl⟩
abbrev main_call15_v4 : Ref sig .tc := ⟨.hbm, 834, rfl⟩
abbrev main_v582 : Ref sig .tc := ⟨.hbm, 835, rfl⟩
abbrev main_cst_169 : Ref sig .tc := ⟨.hbm, 836, rfl⟩
abbrev main_v583 : Ref sig .tc := ⟨.hbm, 837, rfl⟩
abbrev main_v584 : Ref sig .tc := ⟨.hbm, 838, rfl⟩
abbrev main_cst_170 : Ref sig .tc := ⟨.hbm, 839, rfl⟩
abbrev main_cst_171 : Ref sig .tc := ⟨.hbm, 840, rfl⟩
abbrev main_call16_v0 : Ref sig .tc := ⟨.hbm, 841, rfl⟩
abbrev main_call16_v1 : Ref sig .tc := ⟨.hbm, 842, rfl⟩
abbrev main_call16_v2 : Ref sig .tc := ⟨.hbm, 843, rfl⟩
abbrev main_call16_v3 : Ref sig .tc := ⟨.hbm, 844, rfl⟩
abbrev main_call16_v4 : Ref sig .tc := ⟨.hbm, 845, rfl⟩
abbrev main_v585 : Ref sig .tc := ⟨.hbm, 846, rfl⟩
abbrev main_cst_172 : Ref sig .tc := ⟨.hbm, 847, rfl⟩
abbrev main_v586 : Ref sig .tc := ⟨.hbm, 848, rfl⟩
abbrev main_v587 : Ref sig .tc := ⟨.hbm, 849, rfl⟩
abbrev main_v588 : Ref sig .tc := ⟨.hbm, 850, rfl⟩
abbrev main_v589 : Ref sig .tc := ⟨.hbm, 851, rfl⟩
abbrev main_v590 : Ref sig .tc := ⟨.hbm, 852, rfl⟩
abbrev main_v591 : Ref sig .tc := ⟨.hbm, 853, rfl⟩
abbrev main_v592 : Ref sig .tc := ⟨.hbm, 854, rfl⟩
abbrev main_v593 : Ref sig .tc := ⟨.hbm, 855, rfl⟩
abbrev main_v594 : Ref sig .tc := ⟨.hbm, 856, rfl⟩
abbrev main_v595 : Ref sig .tc := ⟨.hbm, 857, rfl⟩
abbrev main_c_173 : Ref sig .tc := ⟨.hbm, 858, rfl⟩
abbrev main_v596 : Ref sig .tc := ⟨.hbm, 859, rfl⟩
abbrev main_v597 : Ref sig .tc := ⟨.hbm, 860, rfl⟩
abbrev main_c_174 : Ref sig .tc := ⟨.hbm, 861, rfl⟩
abbrev main_v598 : Ref sig .tc := ⟨.hbm, 862, rfl⟩
abbrev main_v599 : Ref sig .tc := ⟨.hbm, 863, rfl⟩
abbrev main_c_175 : Ref sig .tc := ⟨.hbm, 864, rfl⟩
abbrev main_v600 : Ref sig .tc := ⟨.hbm, 865, rfl⟩
abbrev main_v601 : Ref sig .tc := ⟨.hbm, 866, rfl⟩
abbrev main_c_176 : Ref sig .tc := ⟨.hbm, 867, rfl⟩
abbrev main_v602 : Ref sig .tc := ⟨.hbm, 868, rfl⟩
abbrev main_v603 : Ref sig .tc := ⟨.hbm, 869, rfl⟩
abbrev main_c_177 : Ref sig .tc := ⟨.hbm, 870, rfl⟩
abbrev main_v604 : Ref sig .tc := ⟨.hbm, 871, rfl⟩
abbrev main_v605 : Ref sig .tc := ⟨.hbm, 872, rfl⟩
abbrev main_c_178 : Ref sig .tc := ⟨.hbm, 873, rfl⟩
abbrev main_v606 : Ref sig .tc := ⟨.hbm, 874, rfl⟩
abbrev main_v607 : Ref sig .tc := ⟨.hbm, 875, rfl⟩
abbrev main_v608 : Ref sig .tc := ⟨.hbm, 876, rfl⟩
abbrev main_c_179 : Ref sig .tc := ⟨.hbm, 877, rfl⟩
abbrev main_v609 : Ref sig .tc := ⟨.hbm, 878, rfl⟩
abbrev main_v610 : Ref sig .tc := ⟨.hbm, 879, rfl⟩
abbrev main_c_180 : Ref sig .tc := ⟨.hbm, 880, rfl⟩
abbrev main_v611 : Ref sig .tc := ⟨.hbm, 881, rfl⟩
abbrev main_v612 : Ref sig .tc := ⟨.hbm, 882, rfl⟩
abbrev main_v613 : Ref sig .tc := ⟨.hbm, 883, rfl⟩
abbrev main_v614 : Ref sig .tc := ⟨.hbm, 884, rfl⟩
abbrev main_v615 : Ref sig .tc := ⟨.hbm, 885, rfl⟩
abbrev main_v616 : Ref sig .tc := ⟨.hbm, 886, rfl⟩
abbrev main_v617 : Ref sig .tc := ⟨.hbm, 887, rfl⟩
abbrev main_cst_181 : Ref sig .tc := ⟨.hbm, 888, rfl⟩
abbrev main_v618 : Ref sig .tc := ⟨.hbm, 889, rfl⟩
abbrev main_v619 : Ref sig .tc := ⟨.hbm, 890, rfl⟩
abbrev main_v620 : Ref sig .tc := ⟨.hbm, 891, rfl⟩
abbrev main_v621 : Ref sig .tc := ⟨.hbm, 892, rfl⟩
abbrev main_cst_182 : Ref sig .tc := ⟨.hbm, 893, rfl⟩
abbrev main_v622 : Ref sig .tc := ⟨.hbm, 894, rfl⟩
abbrev main_v623 : Ref sig .tc := ⟨.hbm, 895, rfl⟩
abbrev main_v624 : Ref sig .tc := ⟨.hbm, 896, rfl⟩
abbrev main_v625 : Ref sig .tc := ⟨.hbm, 897, rfl⟩
abbrev main_c_183 : Ref sig .tc := ⟨.hbm, 898, rfl⟩
abbrev main_v626 : Ref sig .tc := ⟨.hbm, 899, rfl⟩
abbrev main_v627 : Ref sig .tc := ⟨.hbm, 900, rfl⟩
abbrev main_c_184 : Ref sig .tc := ⟨.hbm, 901, rfl⟩
abbrev main_v628 : Ref sig .tc := ⟨.hbm, 902, rfl⟩
abbrev main_v629 : Ref sig .tc := ⟨.hbm, 903, rfl⟩
abbrev main_v630 : Ref sig .tc := ⟨.hbm, 904, rfl⟩
abbrev main_c_185 : Ref sig .tc := ⟨.hbm, 905, rfl⟩
abbrev main_v631 : Ref sig .tc := ⟨.hbm, 906, rfl⟩
abbrev main_v632 : Ref sig .tc := ⟨.hbm, 907, rfl⟩
abbrev main_c_186 : Ref sig .tc := ⟨.hbm, 908, rfl⟩
abbrev main_v633 : Ref sig .tc := ⟨.hbm, 909, rfl⟩
abbrev main_v634 : Ref sig .tc := ⟨.hbm, 910, rfl⟩
abbrev main_v635 : Ref sig .tc := ⟨.hbm, 911, rfl⟩
abbrev main_v636 : Ref sig .tc := ⟨.hbm, 912, rfl⟩
abbrev main_v637 : Ref sig .tc := ⟨.hbm, 913, rfl⟩
abbrev main_v638 : Ref sig .tc := ⟨.hbm, 914, rfl⟩
abbrev main_v639 : Ref sig .tc := ⟨.hbm, 915, rfl⟩
abbrev main_v640 : Ref sig .tc := ⟨.hbm, 916, rfl⟩
abbrev main_v641 : Ref sig .tc := ⟨.hbm, 917, rfl⟩
abbrev main_cst_187 : Ref sig .tc := ⟨.hbm, 918, rfl⟩
abbrev main_v642 : Ref sig .tc := ⟨.hbm, 919, rfl⟩
abbrev main_v643 : Ref sig .tc := ⟨.hbm, 920, rfl⟩
abbrev main_v644 : Ref sig .tc := ⟨.hbm, 921, rfl⟩
abbrev main_v645 : Ref sig .tc := ⟨.hbm, 922, rfl⟩
abbrev main_v646 : Ref sig .tc := ⟨.hbm, 923, rfl⟩
abbrev main_c_188 : Ref sig .tc := ⟨.hbm, 924, rfl⟩
abbrev main_v647 : Ref sig .tc := ⟨.hbm, 925, rfl⟩
abbrev main_v648 : Ref sig .tc := ⟨.hbm, 926, rfl⟩
abbrev main_c_189 : Ref sig .tc := ⟨.hbm, 927, rfl⟩
abbrev main_v649 : Ref sig .tc := ⟨.hbm, 928, rfl⟩
abbrev main_v650 : Ref sig .tc := ⟨.hbm, 929, rfl⟩
abbrev main_v651 : Ref sig .tc := ⟨.hbm, 930, rfl⟩
abbrev main_c_190 : Ref sig .tc := ⟨.hbm, 931, rfl⟩
abbrev main_v652 : Ref sig .tc := ⟨.hbm, 932, rfl⟩
abbrev main_v653 : Ref sig .tc := ⟨.hbm, 933, rfl⟩
abbrev main_c_191 : Ref sig .tc := ⟨.hbm, 934, rfl⟩
abbrev main_v654 : Ref sig .tc := ⟨.hbm, 935, rfl⟩
abbrev main_v655 : Ref sig .tc := ⟨.hbm, 936, rfl⟩
abbrev main_v656 : Ref sig .tc := ⟨.hbm, 937, rfl⟩
abbrev main_v657 : Ref sig .tc := ⟨.hbm, 938, rfl⟩
abbrev main_v658 : Ref sig .tc := ⟨.hbm, 939, rfl⟩
abbrev main_v659 : Ref sig .tc := ⟨.hbm, 940, rfl⟩
abbrev main_v660 : Ref sig .tc := ⟨.hbm, 941, rfl⟩
abbrev main_cst_192 : Ref sig .tc := ⟨.hbm, 942, rfl⟩
abbrev main_v661 : Ref sig .tc := ⟨.hbm, 943, rfl⟩
abbrev main_v662 : Ref sig .tc := ⟨.hbm, 944, rfl⟩
abbrev main_v663 : Ref sig .tc := ⟨.hbm, 945, rfl⟩
abbrev main_v664 : Ref sig .tc := ⟨.hbm, 946, rfl⟩
abbrev main_v665 : Ref sig .tc := ⟨.hbm, 947, rfl⟩
abbrev main_v666 : Ref sig .tc := ⟨.hbm, 948, rfl⟩
abbrev main_v667 : Ref sig .tc := ⟨.hbm, 949, rfl⟩
abbrev main_c_193 : Ref sig .tc := ⟨.hbm, 950, rfl⟩
abbrev main_v668 : Ref sig .tc := ⟨.hbm, 951, rfl⟩
abbrev main_v669 : Ref sig .tc := ⟨.hbm, 952, rfl⟩
abbrev main_c_194 : Ref sig .tc := ⟨.hbm, 953, rfl⟩
abbrev main_v670 : Ref sig .tc := ⟨.hbm, 954, rfl⟩
abbrev main_v671 : Ref sig .tc := ⟨.hbm, 955, rfl⟩
abbrev main_v672 : Ref sig .tc := ⟨.hbm, 956, rfl⟩
abbrev main_c_195 : Ref sig .tc := ⟨.hbm, 957, rfl⟩
abbrev main_v673 : Ref sig .tc := ⟨.hbm, 958, rfl⟩
abbrev main_v674 : Ref sig .tc := ⟨.hbm, 959, rfl⟩
abbrev main_c_196 : Ref sig .tc := ⟨.hbm, 960, rfl⟩
abbrev main_v675 : Ref sig .tc := ⟨.hbm, 961, rfl⟩
abbrev main_v676 : Ref sig .tc := ⟨.hbm, 962, rfl⟩
abbrev main_v677 : Ref sig .tc := ⟨.hbm, 963, rfl⟩
abbrev main_v678 : Ref sig .tc := ⟨.hbm, 964, rfl⟩
abbrev main_v679 : Ref sig .tc := ⟨.hbm, 965, rfl⟩
abbrev main_v680 : Ref sig .tc := ⟨.hbm, 966, rfl⟩
abbrev main_v681 : Ref sig .tc := ⟨.hbm, 967, rfl⟩
abbrev main_v682 : Ref sig .tc := ⟨.hbm, 968, rfl⟩
abbrev main_v683 : Ref sig .tc := ⟨.hbm, 969, rfl⟩
abbrev main_v684 : Ref sig .tc := ⟨.hbm, 970, rfl⟩
abbrev main_v685 : Ref sig .tc := ⟨.hbm, 971, rfl⟩
abbrev main_v686 : Ref sig .tc := ⟨.hbm, 972, rfl⟩
abbrev main_v687 : Ref sig .tc := ⟨.hbm, 973, rfl⟩
abbrev main_v688 : Ref sig .tc := ⟨.hbm, 974, rfl⟩
abbrev main_v689 : Ref sig .tc := ⟨.hbm, 975, rfl⟩
abbrev main_v690 : Ref sig .tc := ⟨.hbm, 976, rfl⟩
abbrev main_v691 : Ref sig .tc := ⟨.hbm, 977, rfl⟩
abbrev main_v692 : Ref sig .tc := ⟨.hbm, 978, rfl⟩
abbrev main_v693 : Ref sig .tc := ⟨.hbm, 979, rfl⟩
abbrev main_v694 : Ref sig .tc := ⟨.hbm, 980, rfl⟩
abbrev main_v695 : Ref sig .tc := ⟨.hbm, 981, rfl⟩
abbrev main_v696 : Ref sig .tc := ⟨.hbm, 982, rfl⟩
abbrev main_v697 : Ref sig .tc := ⟨.hbm, 983, rfl⟩
abbrev main_v698 : Ref sig .tc := ⟨.hbm, 984, rfl⟩
abbrev main_v699 : Ref sig .tc := ⟨.hbm, 985, rfl⟩
abbrev main_v700 : Ref sig .tc := ⟨.hbm, 986, rfl⟩
abbrev main_v701 : Ref sig .tc := ⟨.hbm, 987, rfl⟩
abbrev main_v702 : Ref sig .tc := ⟨.hbm, 988, rfl⟩
abbrev main_v703 : Ref sig .tc := ⟨.hbm, 989, rfl⟩
abbrev main_v704 : Ref sig .tc := ⟨.hbm, 990, rfl⟩
abbrev main_v705 : Ref sig .tc := ⟨.hbm, 991, rfl⟩
abbrev main_v706 : Ref sig .tc := ⟨.hbm, 992, rfl⟩
abbrev main_v707 : Ref sig .tc := ⟨.hbm, 993, rfl⟩
abbrev main_v708 : Ref sig .tc := ⟨.hbm, 994, rfl⟩
abbrev main_v709 : Ref sig .tc := ⟨.hbm, 995, rfl⟩
abbrev main_v710 : Ref sig .tc := ⟨.hbm, 996, rfl⟩
abbrev main_v711 : Ref sig .tc := ⟨.hbm, 997, rfl⟩
abbrev main_v712 : Ref sig .tc := ⟨.hbm, 998, rfl⟩
abbrev main_v713 : Ref sig .tc := ⟨.hbm, 999, rfl⟩
abbrev main_v714 : Ref sig .tc := ⟨.hbm, 1000, rfl⟩
abbrev main_v715 : Ref sig .tc := ⟨.hbm, 1001, rfl⟩
abbrev main_v716 : Ref sig .tc := ⟨.hbm, 1002, rfl⟩
abbrev main_v717 : Ref sig .tc := ⟨.hbm, 1003, rfl⟩
abbrev main_v718 : Ref sig .tc := ⟨.hbm, 1004, rfl⟩
abbrev main_v719 : Ref sig .tc := ⟨.hbm, 1005, rfl⟩
abbrev main_v720 : Ref sig .tc := ⟨.hbm, 1006, rfl⟩
abbrev main_v721 : Ref sig .tc := ⟨.hbm, 1007, rfl⟩
abbrev main_v722 : Ref sig .tc := ⟨.hbm, 1008, rfl⟩
abbrev main_v723 : Ref sig .tc := ⟨.hbm, 1009, rfl⟩
abbrev main_v724 : Ref sig .tc := ⟨.hbm, 1010, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S29x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S2048x2048x2_S2x2048x2048_2_0_1 : S2048x2048x2.Transposes [2, 0, 1] S2x2048x2048
  transposes_S2048x1_S1x2048_1_0 : S2048x1.Transposes [1, 0] S1x2048
  transposes_S64x64x3_S3x64x64_2_0_1 : S64x64x3.Transposes [2, 0, 1] S3x64x64
  transposes_S48x48x3_S3x48x48_2_0_1 : S48x48x3.Transposes [2, 0, 1] S3x48x48
  transposes_S96x2_S2x96_1_0 : S96x2.Transposes [1, 0] S2x96
  transposes_S32x32x1_S1x32x32_2_0_1 : S32x32x1.Transposes [2, 0, 1] S1x32x32
  transposes_S32x32x4_S4x32x32_2_0_1 : S32x32x4.Transposes [2, 0, 1] S4x32x32
  slices_S2097152x2_S2097152x1_0_0 : S2097152x2.Slices ![0, 0] S2097152x1
  shapeCasts_S2097152x1_S2097152 : S2097152x1.ShapeCasts S2097152
  bcast_S_S2x2048x2048 : S_.BroadcastsInDim S2x2048x2048 (![] : Fin 0 → Fin S2x2048x2048.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  slices_S2097152x2_S2097152x1_0_1 : S2097152x2.Slices ![0, 1] S2097152x1
  bcast_S_S1x2048 : S_.BroadcastsInDim S1x2048 (![] : Fin 0 → Fin S1x2048.rank)
  bcast_S_S3x64x64 : S_.BroadcastsInDim S3x64x64 (![] : Fin 0 → Fin S3x64x64.rank)
  bcast_S2097152_S1x2097152_1 : S2097152.BroadcastsInDim S1x2097152 (![1] : Fin 1 → Fin S1x2097152.rank)
  bcast_S_S1x2097152 : S_.BroadcastsInDim S1x2097152 (![] : Fin 0 → Fin S1x2097152.rank)
  bcast_S1x2097152_S3x2097152_0_1 : S1x2097152.BroadcastsInDim S3x2097152 (![0, 1] : Fin 2 → Fin S3x2097152.rank)
  bcast_S1x2097152_S2x2097152_0_1 : S1x2097152.BroadcastsInDim S2x2097152 (![0, 1] : Fin 2 → Fin S2x2097152.rank)
  bcast_S_S1x32x32 : S_.BroadcastsInDim S1x32x32 (![] : Fin 0 → Fin S1x32x32.rank)
  bcast_S_S4x32x32 : S_.BroadcastsInDim S4x32x32 (![] : Fin 0 → Fin S4x32x32.rank)
  bcast_S1x2097152_S4x2097152_0_1 : S1x2097152.BroadcastsInDim S4x2097152 (![0, 1] : Fin 2 → Fin S4x2097152.rank)
  concatenates_S1x2097152_S1x2097152_S1x2097152_S1x2097152_S1x2097152_S1x2097152_S1x2097152_S1x2097152_S1x2097152_S1x2097152_S1x2097152_S1x2097152_S12x2097152_d0 : Shape.Concatenates [S1x2097152, S1x2097152, S1x2097152, S1x2097152, S1x2097152, S1x2097152, S1x2097152, S1x2097152, S1x2097152, S1x2097152, S1x2097152, S1x2097152] S12x2097152 0
  concatenates_S12x2097152_S3x2097152_S3x2097152_S2x2097152_S1x2097152_S4x2097152_S4x2097152_S29x2097152_d0 : Shape.Concatenates [S12x2097152, S3x2097152, S3x2097152, S2x2097152, S1x2097152, S4x2097152, S4x2097152] S29x2097152 0
  inb_S29x16384_S29x16384_0_0 : ∀ a, (![0, 0] : Fin 2 → Nat) a + S29x16384.size a ≤ S29x16384.size a
  h_S29x16384 : 0 < S29x16384.numel
  shapeCasts_S29x16384_S29x16384 : S29x16384.ShapeCasts S29x16384
  slices_S29x16384_o0_0_S1x16384 : S29x16384.Slices ![0, 0] S1x16384
  slices_S29x16384_o1_0_S1x16384 : S29x16384.Slices ![1, 0] S1x16384
  slices_S29x16384_o3_0_S1x16384 : S29x16384.Slices ![3, 0] S1x16384
  slices_S29x16384_o4_0_S1x16384 : S29x16384.Slices ![4, 0] S1x16384
  slices_S29x16384_o5_0_S1x16384 : S29x16384.Slices ![5, 0] S1x16384
  slices_S29x16384_o6_0_S1x16384 : S29x16384.Slices ![6, 0] S1x16384
  slices_S29x16384_o7_0_S1x16384 : S29x16384.Slices ![7, 0] S1x16384
  slices_S29x16384_o8_0_S1x16384 : S29x16384.Slices ![8, 0] S1x16384
  slices_S29x16384_o9_0_S1x16384 : S29x16384.Slices ![9, 0] S1x16384
  slices_S29x16384_o10_0_S1x16384 : S29x16384.Slices ![10, 0] S1x16384
  slices_S29x16384_o11_0_S1x16384 : S29x16384.Slices ![11, 0] S1x16384
  slices_S29x16384_o12_0_S1x16384 : S29x16384.Slices ![12, 0] S1x16384
  slices_S29x16384_o13_0_S1x16384 : S29x16384.Slices ![13, 0] S1x16384
  slices_S29x16384_o14_0_S1x16384 : S29x16384.Slices ![14, 0] S1x16384
  slices_S29x16384_o15_0_S1x16384 : S29x16384.Slices ![15, 0] S1x16384
  slices_S29x16384_o16_0_S1x16384 : S29x16384.Slices ![16, 0] S1x16384
  slices_S29x16384_o17_0_S1x16384 : S29x16384.Slices ![17, 0] S1x16384
  slices_S29x16384_o18_0_S1x16384 : S29x16384.Slices ![18, 0] S1x16384
  slices_S29x16384_o19_0_S1x16384 : S29x16384.Slices ![19, 0] S1x16384
  slices_S29x16384_o20_0_S1x16384 : S29x16384.Slices ![20, 0] S1x16384
  slices_S29x16384_o21_0_S1x16384 : S29x16384.Slices ![21, 0] S1x16384
  slices_S29x16384_o22_0_S1x16384 : S29x16384.Slices ![22, 0] S1x16384
  slices_S29x16384_o23_0_S1x16384 : S29x16384.Slices ![23, 0] S1x16384
  slices_S29x16384_o24_0_S1x16384 : S29x16384.Slices ![24, 0] S1x16384
  slices_S29x16384_o25_0_S1x16384 : S29x16384.Slices ![25, 0] S1x16384
  slices_S29x16384_o26_0_S1x16384 : S29x16384.Slices ![26, 0] S1x16384
  slices_S29x16384_o27_0_S1x16384 : S29x16384.Slices ![27, 0] S1x16384
  slices_S29x16384_o28_0_S1x16384 : S29x16384.Slices ![28, 0] S1x16384
  concatenates_S1x16384_S1x16384_S2x16384_d0 : Shape.Concatenates [S1x16384, S1x16384] S2x16384 0
  inb_S2x16384_S2x16384_0_0 : ∀ a, (![0, 0] : Fin 2 → Nat) a + S2x16384.size a ≤ S2x16384.size a
  h_S2x16384 : 0 < S2x16384.numel
  transposes_S2x2097152_S2097152x2_1_0 : S2x2097152.Transposes [1, 0] S2097152x2
  gather_S2x2048x2048_S2097152x2_S2x2097152_0_12_n_n_12_1_211_wf : GatherDims.WF S2x2048x2048 S2097152x2 S2x2097152 [0] [1, 2] [] [1, 2] [] 1 ![2, 1, 1]
  gather_S1x2048_S2097152x1_S1x2097152_0_1_n_n_1_1_11_wf : GatherDims.WF S1x2048 S2097152x1 S1x2097152 [0] [1] [] [1] [] 1 ![1, 1]
  gather_S3x64x64_S2097152x2_S3x2097152_0_12_n_n_12_1_311_wf : GatherDims.WF S3x64x64 S2097152x2 S3x2097152 [0] [1, 2] [] [1, 2] [] 1 ![3, 1, 1]
  gather_S3x48x48_S2097152x2_S3x2097152_0_12_n_n_12_1_311_wf : GatherDims.WF S3x48x48 S2097152x2 S3x2097152 [0] [1, 2] [] [1, 2] [] 1 ![3, 1, 1]
  gather_S2x96_S2097152x1_S2x2097152_0_1_n_n_1_1_21_wf : GatherDims.WF S2x96 S2097152x1 S2x2097152 [0] [1] [] [1] [] 1 ![2, 1]
  gather_S1x32x32_S2097152x2_S1x2097152_0_12_n_n_12_1_111_wf : GatherDims.WF S1x32x32 S2097152x2 S1x2097152 [0] [1, 2] [] [1, 2] [] 1 ![1, 1, 1]
  gather_S4x32x32_S2097152x2_S4x2097152_0_12_n_n_12_1_411_wf : GatherDims.WF S4x32x32 S2097152x2 S4x2097152 [0] [1, 2] [] [1, 2] [] 1 ![4, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S29x16384.size a ≤ S29x2097152.size a
  hwx0_0 : ∀ i : grid0.Coords, EltTy.bits .f32 = 32 ∨ (Rect.block (s := S29x2097152) S29x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16384.size a ≤ S2x2097152.size a
  hwx0_1 : ∀ i : grid0.Coords, EltTy.bits .f32 = 32 ∨ (Rect.block (s := S2x2097152) S2x16384.size (cc0_transform_1 i) (hinb0_1 i)).WholeWords (EltTy.packing .f32)

variable [Facts₀]

def gather_S2x2048x2048_S2097152x2_S2x2097152_0_12_n_n_12_1_211 : GatherDims S2x2048x2048 S2097152x2 S2x2097152 where
  offsetDims := [0]
  collapsedSliceDims := [1, 2]
  operandBatchingDims := []
  startIndicesBatchingDims := []
  startIndexMap := [1, 2]
  indexVectorDim := 1
  sliceSizes := ![2, 1, 1]
  wf := gather_S2x2048x2048_S2097152x2_S2x2097152_0_12_n_n_12_1_211_wf
def gather_S1x2048_S2097152x1_S1x2097152_0_1_n_n_1_1_11 : GatherDims S1x2048 S2097152x1 S1x2097152 where
  offsetDims := [0]
  collapsedSliceDims := [1]
  operandBatchingDims := []
  startIndicesBatchingDims := []
  startIndexMap := [1]
  indexVectorDim := 1
  sliceSizes := ![1, 1]
  wf := gather_S1x2048_S2097152x1_S1x2097152_0_1_n_n_1_1_11_wf
def gather_S3x64x64_S2097152x2_S3x2097152_0_12_n_n_12_1_311 : GatherDims S3x64x64 S2097152x2 S3x2097152 where
  offsetDims := [0]
  collapsedSliceDims := [1, 2]
  operandBatchingDims := []
  startIndicesBatchingDims := []
  startIndexMap := [1, 2]
  indexVectorDim := 1
  sliceSizes := ![3, 1, 1]
  wf := gather_S3x64x64_S2097152x2_S3x2097152_0_12_n_n_12_1_311_wf
def gather_S3x48x48_S2097152x2_S3x2097152_0_12_n_n_12_1_311 : GatherDims S3x48x48 S2097152x2 S3x2097152 where
  offsetDims := [0]
  collapsedSliceDims := [1, 2]
  operandBatchingDims := []
  startIndicesBatchingDims := []
  startIndexMap := [1, 2]
  indexVectorDim := 1
  sliceSizes := ![3, 1, 1]
  wf := gather_S3x48x48_S2097152x2_S3x2097152_0_12_n_n_12_1_311_wf
def gather_S2x96_S2097152x1_S2x2097152_0_1_n_n_1_1_21 : GatherDims S2x96 S2097152x1 S2x2097152 where
  offsetDims := [0]
  collapsedSliceDims := [1]
  operandBatchingDims := []
  startIndicesBatchingDims := []
  startIndexMap := [1]
  indexVectorDim := 1
  sliceSizes := ![2, 1]
  wf := gather_S2x96_S2097152x1_S2x2097152_0_1_n_n_1_1_21_wf
def gather_S1x32x32_S2097152x2_S1x2097152_0_12_n_n_12_1_111 : GatherDims S1x32x32 S2097152x2 S1x2097152 where
  offsetDims := [0]
  collapsedSliceDims := [1, 2]
  operandBatchingDims := []
  startIndicesBatchingDims := []
  startIndexMap := [1, 2]
  indexVectorDim := 1
  sliceSizes := ![1, 1, 1]
  wf := gather_S1x32x32_S2097152x2_S1x2097152_0_12_n_n_12_1_111_wf
def gather_S4x32x32_S2097152x2_S4x2097152_0_12_n_n_12_1_411 : GatherDims S4x32x32 S2097152x2 S4x2097152 where
  offsetDims := [0]
  collapsedSliceDims := [1, 2]
  operandBatchingDims := []
  startIndicesBatchingDims := []
  startIndexMap := [1, 2]
  indexVectorDim := 1
  sliceSizes := ![4, 1, 1]
  wf := gather_S4x32x32_S2097152x2_S4x2097152_0_12_n_n_12_1_411_wf

abbrev win0_0 : Pipeline.Window sig grid0 :=
  Pipeline.Window.ofSpec (Memref.whole main_v722) S29x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v723) S2x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S2048x2048x2 : Shape := ⟨3, ![2048, 2048, 2]⟩
abbrev S2048x1 : Shape := ⟨2, ![2048, 1]⟩
abbrev S64x64x3 : Shape := ⟨3, ![64, 64, 3]⟩
abbrev S48x48x3 : Shape := ⟨3, ![48, 48, 3]⟩
abbrev S96x2 : Shape := ⟨2, ![96, 2]⟩
abbrev S32x32x1 : Shape := ⟨3, ![32, 32, 1]⟩
abbrev S32x32x4 : Shape := ⟨3, ![32, 32, 4]⟩
abbrev S2097152x1 : Shape := ⟨2, ![2097152, 1]⟩
abbrev S2097152 : Shape := ⟨1, ![2097152]⟩
abbrev S_ : Shape := ⟨0, ![]⟩
abbrev S2097152x3 : Shape := ⟨2, ![2097152, 3]⟩
abbrev S2097152x4 : Shape := ⟨2, ![2097152, 4]⟩

abbrev nBuf : Space → Nat
  | .hbm => 1132
  | .vmem => 0
  | .smem => 0
  | _ => 0

abbrev hbmTy0_0 (i : Nat) : BufTy := match i % 128 with
  | 0 => ⟨S2097152x2, .f32⟩
  | 1 => ⟨S2097152x2, .f32⟩
  | 2 => ⟨S2097152x2, .f32⟩
  | 3 => ⟨S2097152x2, .f32⟩
  | 4 => ⟨S2097152x2, .f32⟩
  | 5 => ⟨S2097152x2, .f32⟩
  | 6 => ⟨S2097152x2, .f32⟩
  | 7 => ⟨S2097152x2, .f32⟩
  | 8 => ⟨S2097152x2, .f32⟩
  | 9 => ⟨S2048x2048x2, .f32⟩
  | 10 => ⟨S2048x1, .f32⟩
  | 11 => ⟨S64x64x3, .f32⟩
  | 12 => ⟨S48x48x3, .f32⟩
  | 13 => ⟨S96x2, .f32⟩
  | 14 => ⟨S32x32x1, .f32⟩
  | 15 => ⟨S32x32x4, .f32⟩
  | 16 => ⟨S32x32x4, .f32⟩
  | 17 => ⟨S2097152x1, .f32⟩
  | 18 => ⟨S2097152, .f32⟩
  | 19 => ⟨S2097152x1, .f32⟩
  | 20 => ⟨S2097152, .f32⟩
  | 21 => ⟨S2097152x1, .f32⟩
  | 22 => ⟨S2097152x1, .f32⟩
  | 23 => ⟨S2097152x2, .f32⟩
  | 24 => ⟨S2097152x1, .f32⟩
  | 25 => ⟨S2097152, .f32⟩
  | 26 => ⟨S_, .f32⟩
  | 27 => ⟨S2048x2048x2, .f32⟩
  | 28 => ⟨S2048x2048x2, .f32⟩
  | 29 => ⟨S_, .f32⟩
  | 30 => ⟨S2048x2048x2, .f32⟩
  | 31 => ⟨S2048x2048x2, .f32⟩
  | 32 => ⟨S_, .f32⟩
  | 33 => ⟨S2048x2048x2, .f32⟩
  | 34 => ⟨S2048x2048x2, .f32⟩
  | 35 => ⟨S2048x2048x2, .f32⟩
  | 36 => ⟨S2048x2048x2, .f32⟩
  | 37 => ⟨S2048x2048x2, .f32⟩
  | 38 => ⟨S_, .f32⟩
  | 39 => ⟨S2048x2048x2, .f32⟩
  | 40 => ⟨S2048x2048x2, .f32⟩
  | 41 => ⟨S2097152x1, .f32⟩
  | 42 => ⟨S2097152, .f32⟩
  | 43 => ⟨S_, .f32⟩
  | 44 => ⟨S_, .f32⟩
  | 45 => ⟨S_, .f32⟩
  | 46 => ⟨S2097152, .f32⟩
  | 47 => ⟨S2097152, .f32⟩
  | 48 => ⟨S_, .f32⟩
  | 49 => ⟨S2097152, .f32⟩
  | 50 => ⟨S2097152, .f32⟩
  | 51 => ⟨S_, .f32⟩
  | 52 => ⟨S2097152, .f32⟩
  | 53 => ⟨S2097152, .f32⟩
  | 54 => ⟨S2097152x1, .f32⟩
  | 55 => ⟨S2097152, .f32⟩
  | 56 => ⟨S_, .f32⟩
  | 57 => ⟨S_, .f32⟩
  | 58 => ⟨S_, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S_, .f32⟩
  | 65 => ⟨S2097152, .f32⟩
  | 66 => ⟨S2097152, .f32⟩
  | 67 => ⟨S2097152, .f32⟩
  | 68 => ⟨S2097152, .i32⟩
  | 69 => ⟨S2097152, .f32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S_, .i32⟩
  | 79 => ⟨S2097152, .i32⟩
  | 80 => ⟨S2097152, .i1⟩
  | 81 => ⟨S_, .i32⟩
  | 82 => ⟨S2097152, .i32⟩
  | 83 => ⟨S2097152, .i32⟩
  | 84 => ⟨S2097152, .i32⟩
  | 85 => ⟨S2097152x1, .i32⟩
  | 86 => ⟨S2097152x1, .i32⟩
  | 87 => ⟨S2097152x2, .i32⟩
  | 88 => ⟨S2097152x2, .f32⟩
  | 89 => ⟨S2097152x1, .f32⟩
  | 90 => ⟨S2097152, .f32⟩
  | 91 => ⟨S_, .f32⟩
  | 92 => ⟨S2048x1, .f32⟩
  | 93 => ⟨S2048x1, .f32⟩
  | 94 => ⟨S_, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1, .f32⟩
  | 101 => ⟨S2048x1, .f32⟩
  | 102 => ⟨S2048x1, .f32⟩
  | 103 => ⟨S_, .f32⟩
  | 104 => ⟨S2048x1, .f32⟩
  | 105 => ⟨S2048x1, .f32⟩
  | 106 => ⟨S_, .f32⟩
  | 107 => ⟨S_, .f32⟩
  | 108 => ⟨S_, .f32⟩
  | 109 => ⟨S2097152, .f32⟩
  | 110 => ⟨S2097152, .f32⟩
  | 111 => ⟨S_, .f32⟩
  | 112 => ⟨S2097152, .f32⟩
  | 113 => ⟨S2097152, .f32⟩
  | 114 => ⟨S_, .f32⟩
  | 115 => ⟨S2097152, .f32⟩
  | 116 => ⟨S2097152, .f32⟩
  | 117 => ⟨S2097152, .f32⟩
  | 118 => ⟨S2097152, .i32⟩
  | 119 => ⟨S_, .i32⟩
  | 120 => ⟨S2097152, .i32⟩
  | 121 => ⟨S2097152, .i1⟩
  | 122 => ⟨S_, .i32⟩
  | 123 => ⟨S2097152, .i32⟩
  | 124 => ⟨S2097152, .i32⟩
  | 125 => ⟨S2097152, .i32⟩
  | 126 => ⟨S2097152x1, .i32⟩
  | 127 => ⟨S2097152x1, .f32⟩
  | _ => ⟨S2097152x2, .f32⟩

abbrev hbmTy0_1 (i : Nat) : BufTy := match i % 128 with
  | 0 => ⟨S2097152x1, .f32⟩
  | 1 => ⟨S2097152x1, .f32⟩
  | 2 => ⟨S2097152x2, .f32⟩
  | 3 => ⟨S_, .f32⟩
  | 4 => ⟨S64x64x3, .f32⟩
  | 5 => ⟨S64x64x3, .f32⟩
  | 6 => ⟨S_, .f32⟩
  | 7 => ⟨S64x64x3, .f32⟩
  | 8 => ⟨S64x64x3, .f32⟩
  | 9 => ⟨S_, .f32⟩
  | 10 => ⟨S64x64x3, .f32⟩
  | 11 => ⟨S64x64x3, .f32⟩
  | 12 => ⟨S64x64x3, .f32⟩
  | 13 => ⟨S64x64x3, .f32⟩
  | 14 => ⟨S64x64x3, .f32⟩
  | 15 => ⟨S_, .f32⟩
  | 16 => ⟨S64x64x3, .f32⟩
  | 17 => ⟨S64x64x3, .f32⟩
  | 18 => ⟨S2097152x1, .f32⟩
  | 19 => ⟨S2097152, .f32⟩
  | 20 => ⟨S_, .f32⟩
  | 21 => ⟨S_, .f32⟩
  | 22 => ⟨S_, .f32⟩
  | 23 => ⟨S2097152, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S2097152x1, .f32⟩
  | 32 => ⟨S2097152, .f32⟩
  | 33 => ⟨S_, .f32⟩
  | 34 => ⟨S_, .f32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S_, .f32⟩
  | 42 => ⟨S2097152, .f32⟩
  | 43 => ⟨S2097152, .f32⟩
  | 44 => ⟨S2097152, .f32⟩
  | 45 => ⟨S2097152, .f32⟩
  | 46 => ⟨S2097152, .f32⟩
  | 47 => ⟨S2097152x1, .f32⟩
  | 48 => ⟨S2097152, .f32⟩
  | 49 => ⟨S2097152x1, .f32⟩
  | 50 => ⟨S2097152, .i32⟩
  | 51 => ⟨S2097152, .i32⟩
  | 52 => ⟨S_, .i32⟩
  | 53 => ⟨S2097152, .i32⟩
  | 54 => ⟨S2097152, .i32⟩
  | 55 => ⟨S_, .i32⟩
  | 56 => ⟨S2097152, .i32⟩
  | 57 => ⟨S2097152, .i32⟩
  | 58 => ⟨S_, .i32⟩
  | 59 => ⟨S2097152, .i32⟩
  | 60 => ⟨S2097152, .i32⟩
  | 61 => ⟨S_, .i32⟩
  | 62 => ⟨S2097152, .i32⟩
  | 63 => ⟨S2097152, .i32⟩
  | 64 => ⟨S_, .i32⟩
  | 65 => ⟨S2097152, .i32⟩
  | 66 => ⟨S2097152, .i1⟩
  | 67 => ⟨S_, .i32⟩
  | 68 => ⟨S2097152, .i32⟩
  | 69 => ⟨S2097152, .i32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S2097152x1, .i32⟩
  | 79 => ⟨S2097152x1, .i32⟩
  | 80 => ⟨S2097152x2, .i32⟩
  | 81 => ⟨S2097152x3, .f32⟩
  | 82 => ⟨S_, .f32⟩
  | 83 => ⟨S2097152x1, .f32⟩
  | 84 => ⟨S2097152x1, .f32⟩
  | 85 => ⟨S2097152x3, .f32⟩
  | 86 => ⟨S2097152x3, .f32⟩
  | 87 => ⟨S_, .f32⟩
  | 88 => ⟨S2097152x1, .f32⟩
  | 89 => ⟨S2097152x1, .f32⟩
  | 90 => ⟨S2097152x3, .f32⟩
  | 91 => ⟨S2097152x3, .f32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S_, .i32⟩
  | 100 => ⟨S2097152, .i32⟩
  | 101 => ⟨S2097152, .i1⟩
  | 102 => ⟨S_, .i32⟩
  | 103 => ⟨S2097152, .i32⟩
  | 104 => ⟨S2097152, .i32⟩
  | 105 => ⟨S2097152, .i32⟩
  | 106 => ⟨S2097152x1, .i32⟩
  | 107 => ⟨S2097152x1, .i32⟩
  | 108 => ⟨S2097152x2, .i32⟩
  | 109 => ⟨S2097152x3, .f32⟩
  | 110 => ⟨S2097152x3, .f32⟩
  | 111 => ⟨S2097152x3, .f32⟩
  | 112 => ⟨S_, .f32⟩
  | 113 => ⟨S2097152x1, .f32⟩
  | 114 => ⟨S2097152x1, .f32⟩
  | 115 => ⟨S2097152x3, .f32⟩
  | 116 => ⟨S2097152x3, .f32⟩
  | 117 => ⟨S2097152x3, .f32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S2097152x2, .f32⟩

abbrev hbmTy0_2 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x1, .i32⟩
  | 6 => ⟨S2097152x2, .i32⟩
  | 7 => ⟨S2097152x3, .f32⟩
  | 8 => ⟨S_, .f32⟩
  | 9 => ⟨S2097152x1, .f32⟩
  | 10 => ⟨S2097152x1, .f32⟩
  | 11 => ⟨S2097152x3, .f32⟩
  | 12 => ⟨S2097152x3, .f32⟩
  | 13 => ⟨S2097152x3, .f32⟩
  | 14 => ⟨S2097152x3, .f32⟩
  | 15 => ⟨S2097152x3, .f32⟩
  | 16 => ⟨S_, .i32⟩
  | 17 => ⟨S2097152, .i32⟩
  | 18 => ⟨S2097152, .i1⟩
  | 19 => ⟨S_, .i32⟩
  | 20 => ⟨S2097152, .i32⟩
  | 21 => ⟨S2097152, .i32⟩
  | 22 => ⟨S2097152, .i32⟩
  | 23 => ⟨S_, .i32⟩
  | 24 => ⟨S2097152, .i32⟩
  | 25 => ⟨S2097152, .i1⟩
  | 26 => ⟨S_, .i32⟩
  | 27 => ⟨S2097152, .i32⟩
  | 28 => ⟨S2097152, .i32⟩
  | 29 => ⟨S2097152, .i32⟩
  | 30 => ⟨S2097152x1, .i32⟩
  | 31 => ⟨S2097152x1, .i32⟩
  | 32 => ⟨S2097152x2, .i32⟩
  | 33 => ⟨S2097152x3, .f32⟩
  | 34 => ⟨S2097152x3, .f32⟩
  | 35 => ⟨S2097152x3, .f32⟩
  | 36 => ⟨S2097152x3, .f32⟩
  | 37 => ⟨S2097152x3, .f32⟩
  | 38 => ⟨S2097152x3, .f32⟩
  | 39 => ⟨S_, .f32⟩
  | 40 => ⟨S2097152, .f32⟩
  | 41 => ⟨S2097152, .f32⟩
  | 42 => ⟨S2097152x1, .f32⟩
  | 43 => ⟨S2097152, .f32⟩
  | 44 => ⟨S2097152, .f32⟩
  | 45 => ⟨S2097152x1, .f32⟩
  | 46 => ⟨S2097152, .f32⟩
  | 47 => ⟨S_, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S2097152, .f32⟩
  | 54 => ⟨S2097152x1, .f32⟩
  | 55 => ⟨S2097152, .f32⟩
  | 56 => ⟨S2097152, .f32⟩
  | 57 => ⟨S2097152x1, .f32⟩
  | 58 => ⟨S2097152, .f32⟩
  | 59 => ⟨S2097152, .f32⟩
  | 60 => ⟨S2097152, .f32⟩
  | 61 => ⟨S2097152x1, .f32⟩
  | 62 => ⟨S2097152x1, .f32⟩
  | 63 => ⟨S2097152, .f32⟩
  | 64 => ⟨S_, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S2097152, .f32⟩
  | 71 => ⟨S2097152x1, .f32⟩
  | 72 => ⟨S2097152, .f32⟩
  | 73 => ⟨S_, .f32⟩
  | 74 => ⟨S2097152, .f32⟩
  | 75 => ⟨S2097152, .f32⟩
  | 76 => ⟨S2097152, .f32⟩
  | 77 => ⟨S2097152x1, .f32⟩
  | 78 => ⟨S2097152x1, .f32⟩
  | 79 => ⟨S2097152, .f32⟩
  | 80 => ⟨S_, .f32⟩
  | 81 => ⟨S2097152, .f32⟩
  | 82 => ⟨S2097152, .f32⟩
  | 83 => ⟨S2097152, .f32⟩
  | 84 => ⟨S2097152x1, .f32⟩
  | 85 => ⟨S2097152, .f32⟩
  | 86 => ⟨S2097152, .f32⟩
  | 87 => ⟨S2097152x1, .f32⟩
  | 88 => ⟨S2097152x1, .f32⟩
  | 89 => ⟨S2097152, .f32⟩
  | 90 => ⟨S_, .f32⟩
  | 91 => ⟨S2097152, .f32⟩
  | 92 => ⟨S2097152, .f32⟩
  | 93 => ⟨S2097152, .f32⟩
  | 94 => ⟨S2097152x1, .f32⟩
  | 95 => ⟨S2097152, .f32⟩
  | 96 => ⟨S_, .f32⟩
  | 97 => ⟨S2097152, .f32⟩
  | 98 => ⟨S2097152, .f32⟩
  | 99 => ⟨S2097152, .f32⟩
  | 100 => ⟨S2097152x1, .f32⟩
  | 101 => ⟨S2097152x1, .f32⟩
  | 102 => ⟨S2097152, .f32⟩
  | 103 => ⟨S_, .f32⟩
  | 104 => ⟨S2097152, .f32⟩
  | 105 => ⟨S2097152, .f32⟩
  | 106 => ⟨S2097152x1, .f32⟩
  | 107 => ⟨S2097152x1, .f32⟩
  | 108 => ⟨S2097152x3, .f32⟩
  | 109 => ⟨S2097152x3, .f32⟩
  | 110 => ⟨S2097152x1, .f32⟩
  | 111 => ⟨S2097152, .f32⟩
  | 112 => ⟨S_, .f32⟩
  | 113 => ⟨S_, .f32⟩
  | 114 => ⟨S_, .f32⟩
  | 115 => ⟨S2097152, .f32⟩
  | 116 => ⟨S2097152, .f32⟩
  | 117 => ⟨S_, .f32⟩
  | 118 => ⟨S2097152, .f32⟩
  | 119 => ⟨S2097152, .f32⟩
  | 120 => ⟨S_, .f32⟩
  | 121 => ⟨S2097152, .f32⟩
  | 122 => ⟨S2097152, .f32⟩
  | 123 => ⟨S2097152x1, .f32⟩
  | 124 => ⟨S2097152, .f32⟩
  | 125 => ⟨S_, .f32⟩
  | 126 => ⟨S_, .f32⟩
  | 127 => ⟨S_, .f32⟩
  | _ => ⟨S2097152x2, .f32⟩

abbrev hbmTy0_3 (i : Nat) : BufTy := match i % 128 with
  | 0 => ⟨S2097152, .f32⟩
  | 1 => ⟨S2097152, .f32⟩
  | 2 => ⟨S_, .f32⟩
  | 3 => ⟨S2097152, .f32⟩
  | 4 => ⟨S2097152, .f32⟩
  | 5 => ⟨S_, .f32⟩
  | 6 => ⟨S2097152, .f32⟩
  | 7 => ⟨S2097152, .f32⟩
  | 8 => ⟨S2097152, .f32⟩
  | 9 => ⟨S2097152, .f32⟩
  | 10 => ⟨S2097152, .f32⟩
  | 11 => ⟨S2097152x1, .f32⟩
  | 12 => ⟨S2097152, .f32⟩
  | 13 => ⟨S2097152x1, .f32⟩
  | 14 => ⟨S2097152, .i32⟩
  | 15 => ⟨S2097152, .i32⟩
  | 16 => ⟨S_, .i32⟩
  | 17 => ⟨S2097152, .i32⟩
  | 18 => ⟨S2097152, .i32⟩
  | 19 => ⟨S_, .i32⟩
  | 20 => ⟨S2097152, .i32⟩
  | 21 => ⟨S2097152, .i32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i32⟩
  | 28 => ⟨S_, .i32⟩
  | 29 => ⟨S2097152, .i32⟩
  | 30 => ⟨S2097152, .i1⟩
  | 31 => ⟨S_, .i32⟩
  | 32 => ⟨S2097152, .i32⟩
  | 33 => ⟨S2097152, .i32⟩
  | 34 => ⟨S2097152, .i32⟩
  | 35 => ⟨S_, .i32⟩
  | 36 => ⟨S2097152, .i32⟩
  | 37 => ⟨S2097152, .i1⟩
  | 38 => ⟨S_, .i32⟩
  | 39 => ⟨S2097152, .i32⟩
  | 40 => ⟨S2097152, .i32⟩
  | 41 => ⟨S2097152, .i32⟩
  | 42 => ⟨S2097152x1, .i32⟩
  | 43 => ⟨S2097152x1, .i32⟩
  | 44 => ⟨S2097152x2, .i32⟩
  | 45 => ⟨S2097152x3, .f32⟩
  | 46 => ⟨S_, .f32⟩
  | 47 => ⟨S2097152x1, .f32⟩
  | 48 => ⟨S2097152x1, .f32⟩
  | 49 => ⟨S2097152x3, .f32⟩
  | 50 => ⟨S2097152x3, .f32⟩
  | 51 => ⟨S_, .f32⟩
  | 52 => ⟨S2097152x1, .f32⟩
  | 53 => ⟨S2097152x1, .f32⟩
  | 54 => ⟨S2097152x3, .f32⟩
  | 55 => ⟨S2097152x3, .f32⟩
  | 56 => ⟨S_, .i32⟩
  | 57 => ⟨S2097152, .i32⟩
  | 58 => ⟨S2097152, .i1⟩
  | 59 => ⟨S_, .i32⟩
  | 60 => ⟨S2097152, .i32⟩
  | 61 => ⟨S2097152, .i32⟩
  | 62 => ⟨S2097152, .i32⟩
  | 63 => ⟨S_, .i32⟩
  | 64 => ⟨S2097152, .i32⟩
  | 65 => ⟨S2097152, .i1⟩
  | 66 => ⟨S_, .i32⟩
  | 67 => ⟨S2097152, .i32⟩
  | 68 => ⟨S2097152, .i32⟩
  | 69 => ⟨S2097152, .i32⟩
  | 70 => ⟨S2097152x1, .i32⟩
  | 71 => ⟨S2097152x1, .i32⟩
  | 72 => ⟨S2097152x2, .i32⟩
  | 73 => ⟨S2097152x3, .f32⟩
  | 74 => ⟨S2097152x3, .f32⟩
  | 75 => ⟨S2097152x3, .f32⟩
  | 76 => ⟨S_, .f32⟩
  | 77 => ⟨S2097152x1, .f32⟩
  | 78 => ⟨S2097152x1, .f32⟩
  | 79 => ⟨S2097152x3, .f32⟩
  | 80 => ⟨S2097152x3, .f32⟩
  | 81 => ⟨S2097152x3, .f32⟩
  | 82 => ⟨S_, .i32⟩
  | 83 => ⟨S2097152, .i32⟩
  | 84 => ⟨S2097152, .i1⟩
  | 85 => ⟨S_, .i32⟩
  | 86 => ⟨S2097152, .i32⟩
  | 87 => ⟨S2097152, .i32⟩
  | 88 => ⟨S2097152, .i32⟩
  | 89 => ⟨S_, .i32⟩
  | 90 => ⟨S2097152, .i32⟩
  | 91 => ⟨S2097152, .i1⟩
  | 92 => ⟨S_, .i32⟩
  | 93 => ⟨S2097152, .i32⟩
  | 94 => ⟨S2097152, .i32⟩
  | 95 => ⟨S2097152, .i32⟩
  | 96 => ⟨S2097152x1, .i32⟩
  | 97 => ⟨S2097152x1, .i32⟩
  | 98 => ⟨S2097152x2, .i32⟩
  | 99 => ⟨S2097152x3, .f32⟩
  | 100 => ⟨S_, .f32⟩
  | 101 => ⟨S2097152x1, .f32⟩
  | 102 => ⟨S2097152x1, .f32⟩
  | 103 => ⟨S2097152x3, .f32⟩
  | 104 => ⟨S2097152x3, .f32⟩
  | 105 => ⟨S2097152x3, .f32⟩
  | 106 => ⟨S2097152x3, .f32⟩
  | 107 => ⟨S2097152x3, .f32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S_, .i32⟩
  | 116 => ⟨S2097152, .i32⟩
  | 117 => ⟨S2097152, .i1⟩
  | 118 => ⟨S_, .i32⟩
  | 119 => ⟨S2097152, .i32⟩
  | 120 => ⟨S2097152, .i32⟩
  | 121 => ⟨S2097152, .i32⟩
  | 122 => ⟨S2097152x1, .i32⟩
  | 123 => ⟨S2097152x1, .i32⟩
  | 124 => ⟨S2097152x2, .i32⟩
  | 125 => ⟨S2097152x3, .f32⟩
  | 126 => ⟨S2097152x3, .f32⟩
  | 127 => ⟨S2097152x3, .f32⟩
  | _ => ⟨S2097152x2, .f32⟩

abbrev hbmTy0_4 (i : Nat) : BufTy := match i % 128 with
  | 0 => ⟨S2097152x3, .f32⟩
  | 1 => ⟨S2097152x3, .f32⟩
  | 2 => ⟨S2097152x3, .f32⟩
  | 3 => ⟨S2097152, .f32⟩
  | 4 => ⟨S_, .f32⟩
  | 5 => ⟨S_, .f32⟩
  | 6 => ⟨S_, .f32⟩
  | 7 => ⟨S2097152, .f32⟩
  | 8 => ⟨S2097152, .f32⟩
  | 9 => ⟨S_, .f32⟩
  | 10 => ⟨S2097152, .f32⟩
  | 11 => ⟨S2097152, .f32⟩
  | 12 => ⟨S_, .f32⟩
  | 13 => ⟨S2097152, .f32⟩
  | 14 => ⟨S2097152, .f32⟩
  | 15 => ⟨S2097152, .f32⟩
  | 16 => ⟨S2097152, .f32⟩
  | 17 => ⟨S2097152x1, .f32⟩
  | 18 => ⟨S2097152, .i32⟩
  | 19 => ⟨S_, .i32⟩
  | 20 => ⟨S2097152, .i32⟩
  | 21 => ⟨S2097152, .i32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i1⟩
  | 28 => ⟨S_, .i32⟩
  | 29 => ⟨S2097152, .i32⟩
  | 30 => ⟨S2097152, .i32⟩
  | 31 => ⟨S2097152, .i32⟩
  | 32 => ⟨S2097152x1, .i32⟩
  | 33 => ⟨S2097152x2, .f32⟩
  | 34 => ⟨S_, .f32⟩
  | 35 => ⟨S2097152x1, .f32⟩
  | 36 => ⟨S2097152x1, .f32⟩
  | 37 => ⟨S2097152x2, .f32⟩
  | 38 => ⟨S2097152x2, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152x2, .f32⟩
  | 48 => ⟨S2097152x2, .f32⟩
  | 49 => ⟨S2097152x2, .f32⟩
  | 50 => ⟨S2097152x2, .f32⟩
  | 51 => ⟨S2097152x1, .f32⟩
  | 52 => ⟨S2097152x1, .f32⟩
  | 53 => ⟨S2097152x1, .f32⟩
  | 54 => ⟨S2097152x1, .f32⟩
  | 55 => ⟨S2097152x2, .f32⟩
  | 56 => ⟨S_, .f32⟩
  | 57 => ⟨S32x32x1, .f32⟩
  | 58 => ⟨S32x32x1, .f32⟩
  | 59 => ⟨S_, .f32⟩
  | 60 => ⟨S32x32x1, .f32⟩
  | 61 => ⟨S32x32x1, .f32⟩
  | 62 => ⟨S_, .f32⟩
  | 63 => ⟨S32x32x1, .f32⟩
  | 64 => ⟨S32x32x1, .f32⟩
  | 65 => ⟨S32x32x1, .f32⟩
  | 66 => ⟨S32x32x1, .f32⟩
  | 67 => ⟨S32x32x1, .f32⟩
  | 68 => ⟨S_, .f32⟩
  | 69 => ⟨S32x32x1, .f32⟩
  | 70 => ⟨S32x32x1, .f32⟩
  | 71 => ⟨S2097152x1, .f32⟩
  | 72 => ⟨S2097152, .f32⟩
  | 73 => ⟨S_, .f32⟩
  | 74 => ⟨S_, .f32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S_, .f32⟩
  | 82 => ⟨S2097152, .f32⟩
  | 83 => ⟨S2097152, .f32⟩
  | 84 => ⟨S2097152x1, .f32⟩
  | 85 => ⟨S2097152, .f32⟩
  | 86 => ⟨S_, .f32⟩
  | 87 => ⟨S_, .f32⟩
  | 88 => ⟨S_, .f32⟩
  | 89 => ⟨S2097152, .f32⟩
  | 90 => ⟨S2097152, .f32⟩
  | 91 => ⟨S_, .f32⟩
  | 92 => ⟨S2097152, .f32⟩
  | 93 => ⟨S2097152, .f32⟩
  | 94 => ⟨S_, .f32⟩
  | 95 => ⟨S2097152, .f32⟩
  | 96 => ⟨S2097152, .f32⟩
  | 97 => ⟨S2097152, .f32⟩
  | 98 => ⟨S2097152, .f32⟩
  | 99 => ⟨S2097152, .f32⟩
  | 100 => ⟨S2097152x1, .f32⟩
  | 101 => ⟨S2097152, .f32⟩
  | 102 => ⟨S2097152x1, .f32⟩
  | 103 => ⟨S2097152, .i32⟩
  | 104 => ⟨S2097152, .i32⟩
  | 105 => ⟨S_, .i32⟩
  | 106 => ⟨S2097152, .i32⟩
  | 107 => ⟨S2097152, .i32⟩
  | 108 => ⟨S_, .i32⟩
  | 109 => ⟨S2097152, .i32⟩
  | 110 => ⟨S2097152, .i32⟩
  | 111 => ⟨S_, .i32⟩
  | 112 => ⟨S2097152, .i32⟩
  | 113 => ⟨S2097152, .i32⟩
  | 114 => ⟨S_, .i32⟩
  | 115 => ⟨S2097152, .i32⟩
  | 116 => ⟨S2097152, .i32⟩
  | 117 => ⟨S_, .i32⟩
  | 118 => ⟨S2097152, .i32⟩
  | 119 => ⟨S2097152, .i1⟩
  | 120 => ⟨S_, .i32⟩
  | 121 => ⟨S2097152, .i32⟩
  | 122 => ⟨S2097152, .i32⟩
  | 123 => ⟨S2097152, .i32⟩
  | 124 => ⟨S_, .i32⟩
  | 125 => ⟨S2097152, .i32⟩
  | 126 => ⟨S2097152, .i1⟩
  | 127 => ⟨S_, .i32⟩
  | _ => ⟨S2097152x2, .f32⟩

abbrev hbmTy0_5 (i : Nat) : BufTy := match i % 128 with
  | 0 => ⟨S2097152, .i32⟩
  | 1 => ⟨S2097152, .i32⟩
  | 2 => ⟨S2097152, .i32⟩
  | 3 => ⟨S2097152x1, .i32⟩
  | 4 => ⟨S2097152x1, .i32⟩
  | 5 => ⟨S2097152x2, .i32⟩
  | 6 => ⟨S2097152x1, .f32⟩
  | 7 => ⟨S_, .f32⟩
  | 8 => ⟨S2097152x1, .f32⟩
  | 9 => ⟨S2097152x1, .f32⟩
  | 10 => ⟨S2097152x1, .f32⟩
  | 11 => ⟨S_, .f32⟩
  | 12 => ⟨S2097152x1, .f32⟩
  | 13 => ⟨S2097152x1, .f32⟩
  | 14 => ⟨S2097152x1, .f32⟩
  | 15 => ⟨S_, .i32⟩
  | 16 => ⟨S2097152, .i32⟩
  | 17 => ⟨S2097152, .i1⟩
  | 18 => ⟨S_, .i32⟩
  | 19 => ⟨S2097152, .i32⟩
  | 20 => ⟨S2097152, .i32⟩
  | 21 => ⟨S2097152, .i32⟩
  | 22 => ⟨S_, .i32⟩
  | 23 => ⟨S2097152, .i32⟩
  | 24 => ⟨S2097152, .i1⟩
  | 25 => ⟨S_, .i32⟩
  | 26 => ⟨S2097152, .i32⟩
  | 27 => ⟨S2097152, .i32⟩
  | 28 => ⟨S2097152, .i32⟩
  | 29 => ⟨S2097152x1, .i32⟩
  | 30 => ⟨S2097152x1, .i32⟩
  | 31 => ⟨S2097152x2, .i32⟩
  | 32 => ⟨S2097152x1, .f32⟩
  | 33 => ⟨S2097152x1, .f32⟩
  | 34 => ⟨S_, .f32⟩
  | 35 => ⟨S2097152x1, .f32⟩
  | 36 => ⟨S2097152x1, .f32⟩
  | 37 => ⟨S2097152x1, .f32⟩
  | 38 => ⟨S2097152x1, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S_, .i32⟩
  | 47 => ⟨S2097152, .i32⟩
  | 48 => ⟨S2097152, .i1⟩
  | 49 => ⟨S_, .i32⟩
  | 50 => ⟨S2097152, .i32⟩
  | 51 => ⟨S2097152, .i32⟩
  | 52 => ⟨S2097152, .i32⟩
  | 53 => ⟨S2097152x1, .i32⟩
  | 54 => ⟨S2097152x1, .i32⟩
  | 55 => ⟨S2097152x2, .i32⟩
  | 56 => ⟨S2097152x1, .f32⟩
  | 57 => ⟨S_, .f32⟩
  | 58 => ⟨S2097152x1, .f32⟩
  | 59 => ⟨S2097152x1, .f32⟩
  | 60 => ⟨S2097152x1, .f32⟩
  | 61 => ⟨S2097152x1, .f32⟩
  | 62 => ⟨S2097152x1, .f32⟩
  | 63 => ⟨S_, .i32⟩
  | 64 => ⟨S2097152, .i32⟩
  | 65 => ⟨S2097152, .i1⟩
  | 66 => ⟨S_, .i32⟩
  | 67 => ⟨S2097152, .i32⟩
  | 68 => ⟨S2097152, .i32⟩
  | 69 => ⟨S2097152, .i32⟩
  | 70 => ⟨S_, .i32⟩
  | 71 => ⟨S2097152, .i32⟩
  | 72 => ⟨S2097152, .i1⟩
  | 73 => ⟨S_, .i32⟩
  | 74 => ⟨S2097152, .i32⟩
  | 75 => ⟨S2097152, .i32⟩
  | 76 => ⟨S2097152, .i32⟩
  | 77 => ⟨S2097152x1, .i32⟩
  | 78 => ⟨S2097152x1, .i32⟩
  | 79 => ⟨S2097152x2, .i32⟩
  | 80 => ⟨S2097152x1, .f32⟩
  | 81 => ⟨S2097152x1, .f32⟩
  | 82 => ⟨S2097152x1, .f32⟩
  | 83 => ⟨S2097152x1, .f32⟩
  | 84 => ⟨S_, .f32⟩
  | 85 => ⟨S32x32x4, .f32⟩
  | 86 => ⟨S32x32x4, .f32⟩
  | 87 => ⟨S_, .f32⟩
  | 88 => ⟨S32x32x4, .f32⟩
  | 89 => ⟨S32x32x4, .f32⟩
  | 90 => ⟨S_, .f32⟩
  | 91 => ⟨S32x32x4, .f32⟩
  | 92 => ⟨S32x32x4, .f32⟩
  | 93 => ⟨S32x32x4, .f32⟩
  | 94 => ⟨S32x32x4, .f32⟩
  | 95 => ⟨S32x32x4, .f32⟩
  | 96 => ⟨S_, .f32⟩
  | 97 => ⟨S32x32x4, .f32⟩
  | 98 => ⟨S32x32x4, .f32⟩
  | 99 => ⟨S2097152x1, .f32⟩
  | 100 => ⟨S2097152, .f32⟩
  | 101 => ⟨S_, .f32⟩
  | 102 => ⟨S_, .f32⟩
  | 103 => ⟨S_, .f32⟩
  | 104 => ⟨S2097152, .f32⟩
  | 105 => ⟨S2097152, .f32⟩
  | 106 => ⟨S_, .f32⟩
  | 107 => ⟨S2097152, .f32⟩
  | 108 => ⟨S2097152, .f32⟩
  | 109 => ⟨S_, .f32⟩
  | 110 => ⟨S2097152, .f32⟩
  | 111 => ⟨S2097152, .f32⟩
  | 112 => ⟨S2097152x1, .f32⟩
  | 113 => ⟨S2097152, .f32⟩
  | 114 => ⟨S_, .f32⟩
  | 115 => ⟨S_, .f32⟩
  | 116 => ⟨S_, .f32⟩
  | 117 => ⟨S2097152, .f32⟩
  | 118 => ⟨S2097152, .f32⟩
  | 119 => ⟨S_, .f32⟩
  | 120 => ⟨S2097152, .f32⟩
  | 121 => ⟨S2097152, .f32⟩
  | 122 => ⟨S_, .f32⟩
  | 123 => ⟨S2097152, .f32⟩
  | 124 => ⟨S2097152, .f32⟩
  | 125 => ⟨S2097152, .f32⟩
  | 126 => ⟨S2097152, .f32⟩
  | 127 => ⟨S2097152, .f32⟩
  | _ => ⟨S2097152x2, .f32⟩

abbrev hbmTy0_6 (i : Nat) : BufTy := match i % 128 with
  | 0 => ⟨S2097152x1, .f32⟩
  | 1 => ⟨S2097152, .f32⟩
  | 2 => ⟨S2097152x1, .f32⟩
  | 3 => ⟨S2097152, .i32⟩
  | 4 => ⟨S2097152, .i32⟩
  | 5 => ⟨S_, .i32⟩
  | 6 => ⟨S2097152, .i32⟩
  | 7 => ⟨S2097152, .i32⟩
  | 8 => ⟨S_, .i32⟩
  | 9 => ⟨S2097152, .i32⟩
  | 10 => ⟨S2097152, .i32⟩
  | 11 => ⟨S_, .i32⟩
  | 12 => ⟨S2097152, .i32⟩
  | 13 => ⟨S2097152, .i32⟩
  | 14 => ⟨S_, .i32⟩
  | 15 => ⟨S2097152, .i32⟩
  | 16 => ⟨S2097152, .i32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S_, .i32⟩
  | 25 => ⟨S2097152, .i32⟩
  | 26 => ⟨S2097152, .i1⟩
  | 27 => ⟨S_, .i32⟩
  | 28 => ⟨S2097152, .i32⟩
  | 29 => ⟨S2097152, .i32⟩
  | 30 => ⟨S2097152, .i32⟩
  | 31 => ⟨S2097152x1, .i32⟩
  | 32 => ⟨S2097152x1, .i32⟩
  | 33 => ⟨S2097152x2, .i32⟩
  | 34 => ⟨S2097152x4, .f32⟩
  | 35 => ⟨S_, .f32⟩
  | 36 => ⟨S2097152x1, .f32⟩
  | 37 => ⟨S2097152x1, .f32⟩
  | 38 => ⟨S2097152x4, .f32⟩
  | 39 => ⟨S2097152x4, .f32⟩
  | 40 => ⟨S_, .f32⟩
  | 41 => ⟨S2097152x1, .f32⟩
  | 42 => ⟨S2097152x1, .f32⟩
  | 43 => ⟨S2097152x4, .f32⟩
  | 44 => ⟨S2097152x4, .f32⟩
  | 45 => ⟨S_, .i32⟩
  | 46 => ⟨S2097152, .i32⟩
  | 47 => ⟨S2097152, .i1⟩
  | 48 => ⟨S_, .i32⟩
  | 49 => ⟨S2097152, .i32⟩
  | 50 => ⟨S2097152, .i32⟩
  | 51 => ⟨S2097152, .i32⟩
  | 52 => ⟨S_, .i32⟩
  | 53 => ⟨S2097152, .i32⟩
  | 54 => ⟨S2097152, .i1⟩
  | 55 => ⟨S_, .i32⟩
  | 56 => ⟨S2097152, .i32⟩
  | 57 => ⟨S2097152, .i32⟩
  | 58 => ⟨S2097152, .i32⟩
  | 59 => ⟨S2097152x1, .i32⟩
  | 60 => ⟨S2097152x1, .i32⟩
  | 61 => ⟨S2097152x2, .i32⟩
  | 62 => ⟨S2097152x4, .f32⟩
  | 63 => ⟨S2097152x4, .f32⟩
  | 64 => ⟨S2097152x4, .f32⟩
  | 65 => ⟨S_, .f32⟩
  | 66 => ⟨S2097152x1, .f32⟩
  | 67 => ⟨S2097152x1, .f32⟩
  | 68 => ⟨S2097152x4, .f32⟩
  | 69 => ⟨S2097152x4, .f32⟩
  | 70 => ⟨S2097152x4, .f32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S_, .i32⟩
  | 79 => ⟨S2097152, .i32⟩
  | 80 => ⟨S2097152, .i1⟩
  | 81 => ⟨S_, .i32⟩
  | 82 => ⟨S2097152, .i32⟩
  | 83 => ⟨S2097152, .i32⟩
  | 84 => ⟨S2097152, .i32⟩
  | 85 => ⟨S2097152x1, .i32⟩
  | 86 => ⟨S2097152x1, .i32⟩
  | 87 => ⟨S2097152x2, .i32⟩
  | 88 => ⟨S2097152x4, .f32⟩
  | 89 => ⟨S_, .f32⟩
  | 90 => ⟨S2097152x1, .f32⟩
  | 91 => ⟨S2097152x1, .f32⟩
  | 92 => ⟨S2097152x4, .f32⟩
  | 93 => ⟨S2097152x4, .f32⟩
  | 94 => ⟨S2097152x4, .f32⟩
  | 95 => ⟨S2097152x4, .f32⟩
  | 96 => ⟨S2097152x4, .f32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S_, .i32⟩
  | 105 => ⟨S2097152, .i32⟩
  | 106 => ⟨S2097152, .i1⟩
  | 107 => ⟨S_, .i32⟩
  | 108 => ⟨S2097152, .i32⟩
  | 109 => ⟨S2097152, .i32⟩
  | 110 => ⟨S2097152, .i32⟩
  | 111 => ⟨S2097152x1, .i32⟩
  | 112 => ⟨S2097152x1, .i32⟩
  | 113 => ⟨S2097152x2, .i32⟩
  | 114 => ⟨S2097152x4, .f32⟩
  | 115 => ⟨S2097152x4, .f32⟩
  | 116 => ⟨S2097152x4, .f32⟩
  | 117 => ⟨S2097152x4, .f32⟩
  | 118 => ⟨S2097152x4, .f32⟩
  | 119 => ⟨S2097152x4, .f32⟩
  | 120 => ⟨S2097152x1, .f32⟩
  | 121 => ⟨S2097152, .f32⟩
  | 122 => ⟨S2097152x1, .f32⟩
  | 123 => ⟨S2097152, .f32⟩
  | 124 => ⟨S2097152x1, .f32⟩
  | 125 => ⟨S2097152x1, .f32⟩
  | 126 => ⟨S2097152x2, .f32⟩
  | 127 => ⟨S_, .f32⟩
  | _ => ⟨S2097152x2, .f32⟩

abbrev hbmTy0_7 (i : Nat) : BufTy := match i % 128 with
  | 0 => ⟨S32x32x4, .f32⟩
  | 1 => ⟨S32x32x4, .f32⟩
  | 2 => ⟨S_, .f32⟩
  | 3 => ⟨S32x32x4, .f32⟩
  | 4 => ⟨S32x32x4, .f32⟩
  | 5 => ⟨S_, .f32⟩
  | 6 => ⟨S32x32x4, .f32⟩
  | 7 => ⟨S32x32x4, .f32⟩
  | 8 => ⟨S32x32x4, .f32⟩
  | 9 => ⟨S32x32x4, .f32⟩
  | 10 => ⟨S32x32x4, .f32⟩
  | 11 => ⟨S_, .f32⟩
  | 12 => ⟨S32x32x4, .f32⟩
  | 13 => ⟨S32x32x4, .f32⟩
  | 14 => ⟨S2097152x1, .f32⟩
  | 15 => ⟨S2097152, .f32⟩
  | 16 => ⟨S_, .f32⟩
  | 17 => ⟨S_, .f32⟩
  | 18 => ⟨S_, .f32⟩
  | 19 => ⟨S2097152, .f32⟩
  | 20 => ⟨S2097152, .f32⟩
  | 21 => ⟨S_, .f32⟩
  | 22 => ⟨S2097152, .f32⟩
  | 23 => ⟨S2097152, .f32⟩
  | 24 => ⟨S_, .f32⟩
  | 25 => ⟨S2097152, .f32⟩
  | 26 => ⟨S2097152, .f32⟩
  | 27 => ⟨S2097152x1, .f32⟩
  | 28 => ⟨S2097152, .f32⟩
  | 29 => ⟨S_, .f32⟩
  | 30 => ⟨S_, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S2097152, .f32⟩
  | 41 => ⟨S2097152, .f32⟩
  | 42 => ⟨S2097152, .f32⟩
  | 43 => ⟨S2097152x1, .f32⟩
  | 44 => ⟨S2097152, .f32⟩
  | 45 => ⟨S2097152x1, .f32⟩
  | 46 => ⟨S2097152, .i32⟩
  | 47 => ⟨S2097152, .i32⟩
  | 48 => ⟨S_, .i32⟩
  | 49 => ⟨S2097152, .i32⟩
  | 50 => ⟨S2097152, .i32⟩
  | 51 => ⟨S_, .i32⟩
  | 52 => ⟨S2097152, .i32⟩
  | 53 => ⟨S2097152, .i32⟩
  | 54 => ⟨S_, .i32⟩
  | 55 => ⟨S2097152, .i32⟩
  | 56 => ⟨S2097152, .i32⟩
  | 57 => ⟨S_, .i32⟩
  | 58 => ⟨S2097152, .i32⟩
  | 59 => ⟨S2097152, .i32⟩
  | 60 => ⟨S_, .i32⟩
  | 61 => ⟨S2097152, .i32⟩
  | 62 => ⟨S2097152, .i1⟩
  | 63 => ⟨S_, .i32⟩
  | 64 => ⟨S2097152, .i32⟩
  | 65 => ⟨S2097152, .i32⟩
  | 66 => ⟨S2097152, .i32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S2097152x1, .i32⟩
  | 75 => ⟨S2097152x1, .i32⟩
  | 76 => ⟨S2097152x2, .i32⟩
  | 77 => ⟨S2097152x4, .f32⟩
  | 78 => ⟨S_, .f32⟩
  | 79 => ⟨S2097152x1, .f32⟩
  | 80 => ⟨S2097152x1, .f32⟩
  | 81 => ⟨S2097152x4, .f32⟩
  | 82 => ⟨S2097152x4, .f32⟩
  | 83 => ⟨S_, .f32⟩
  | 84 => ⟨S2097152x1, .f32⟩
  | 85 => ⟨S2097152x1, .f32⟩
  | 86 => ⟨S2097152x4, .f32⟩
  | 87 => ⟨S2097152x4, .f32⟩
  | 88 => ⟨S_, .i32⟩
  | 89 => ⟨S2097152, .i32⟩
  | 90 => ⟨S2097152, .i1⟩
  | 91 => ⟨S_, .i32⟩
  | 92 => ⟨S2097152, .i32⟩
  | 93 => ⟨S2097152, .i32⟩
  | 94 => ⟨S2097152, .i32⟩
  | 95 => ⟨S_, .i32⟩
  | 96 => ⟨S2097152, .i32⟩
  | 97 => ⟨S2097152, .i1⟩
  | 98 => ⟨S_, .i32⟩
  | 99 => ⟨S2097152, .i32⟩
  | 100 => ⟨S2097152, .i32⟩
  | 101 => ⟨S2097152, .i32⟩
  | 102 => ⟨S2097152x1, .i32⟩
  | 103 => ⟨S2097152x1, .i32⟩
  | 104 => ⟨S2097152x2, .i32⟩
  | 105 => ⟨S2097152x4, .f32⟩
  | 106 => ⟨S2097152x4, .f32⟩
  | 107 => ⟨S2097152x4, .f32⟩
  | 108 => ⟨S_, .f32⟩
  | 109 => ⟨S2097152x1, .f32⟩
  | 110 => ⟨S2097152x1, .f32⟩
  | 111 => ⟨S2097152x4, .f32⟩
  | 112 => ⟨S2097152x4, .f32⟩
  | 113 => ⟨S2097152x4, .f32⟩
  | 114 => ⟨S_, .i32⟩
  | 115 => ⟨S2097152, .i32⟩
  | 116 => ⟨S2097152, .i1⟩
  | 117 => ⟨S_, .i32⟩
  | 118 => ⟨S2097152, .i32⟩
  | 119 => ⟨S2097152, .i32⟩
  | 120 => ⟨S2097152, .i32⟩
  | 121 => ⟨S_, .i32⟩
  | 122 => ⟨S2097152, .i32⟩
  | 123 => ⟨S2097152, .i1⟩
  | 124 => ⟨S_, .i32⟩
  | 125 => ⟨S2097152, .i32⟩
  | 126 => ⟨S2097152, .i32⟩
  | 127 => ⟨S2097152, .i32⟩
  | _ => ⟨S2097152x2, .f32⟩

abbrev hbmTy0_8 (i : Nat) : BufTy := match i % 128 with
  | 0 => ⟨S2097152x1, .i32⟩
  | 1 => ⟨S2097152x1, .i32⟩
  | 2 => ⟨S2097152x2, .i32⟩
  | 3 => ⟨S2097152x4, .f32⟩
  | 4 => ⟨S_, .f32⟩
  | 5 => ⟨S2097152x1, .f32⟩
  | 6 => ⟨S2097152x1, .f32⟩
  | 7 => ⟨S2097152x4, .f32⟩
  | 8 => ⟨S2097152x4, .f32⟩
  | 9 => ⟨S2097152x4, .f32⟩
  | 10 => ⟨S2097152x4, .f32⟩
  | 11 => ⟨S2097152x4, .f32⟩
  | 12 => ⟨S_, .i32⟩
  | 13 => ⟨S2097152, .i32⟩
  | 14 => ⟨S2097152, .i1⟩
  | 15 => ⟨S_, .i32⟩
  | 16 => ⟨S2097152, .i32⟩
  | 17 => ⟨S2097152, .i32⟩
  | 18 => ⟨S2097152, .i32⟩
  | 19 => ⟨S_, .i32⟩
  | 20 => ⟨S2097152, .i32⟩
  | 21 => ⟨S2097152, .i1⟩
  | 22 => ⟨S_, .i32⟩
  | 23 => ⟨S2097152, .i32⟩
  | 24 => ⟨S2097152, .i32⟩
  | 25 => ⟨S2097152, .i32⟩
  | 26 => ⟨S2097152x1, .i32⟩
  | 27 => ⟨S2097152x1, .i32⟩
  | 28 => ⟨S2097152x2, .i32⟩
  | 29 => ⟨S2097152x4, .f32⟩
  | 30 => ⟨S2097152x4, .f32⟩
  | 31 => ⟨S2097152x4, .f32⟩
  | 32 => ⟨S2097152x4, .f32⟩
  | 33 => ⟨S2097152x4, .f32⟩
  | 34 => ⟨S2097152x4, .f32⟩
  | 35 => ⟨S2097152x1, .f32⟩
  | 36 => ⟨S2097152, .f32⟩
  | 37 => ⟨S2097152, .f32⟩
  | 38 => ⟨S2097152x1, .f32⟩
  | 39 => ⟨S2097152, .f32⟩
  | 40 => ⟨S2097152x1, .f32⟩
  | 41 => ⟨S2097152, .f32⟩
  | 42 => ⟨S2097152, .f32⟩
  | 43 => ⟨S2097152, .f32⟩
  | 44 => ⟨S2097152x1, .f32⟩
  | 45 => ⟨S2097152, .f32⟩
  | 46 => ⟨S2097152, .f32⟩
  | 47 => ⟨S2097152, .f32⟩
  | 48 => ⟨S2097152x1, .f32⟩
  | 49 => ⟨S2097152, .f32⟩
  | 50 => ⟨S2097152, .f32⟩
  | 51 => ⟨S2097152x1, .f32⟩
  | 52 => ⟨S2097152, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S2097152x1, .f32⟩
  | 59 => ⟨S2097152x1, .f32⟩
  | 60 => ⟨S2097152x1, .f32⟩
  | 61 => ⟨S2097152x1, .f32⟩
  | 62 => ⟨S2097152x1, .f32⟩
  | 63 => ⟨S2097152x1, .f32⟩
  | 64 => ⟨S2097152x1, .f32⟩
  | 65 => ⟨S2097152x1, .f32⟩
  | 66 => ⟨S2097152x1, .f32⟩
  | 67 => ⟨S2097152x1, .f32⟩
  | 68 => ⟨S2097152x1, .f32⟩
  | 69 => ⟨S2097152x1, .f32⟩
  | 70 => ⟨S2097152x1, .f32⟩
  | 71 => ⟨S2097152x1, .f32⟩
  | 72 => ⟨S2097152x1, .f32⟩
  | 73 => ⟨S2097152x1, .f32⟩
  | 74 => ⟨S2097152x1, .f32⟩
  | 75 => ⟨S2097152x1, .f32⟩
  | 76 => ⟨S2097152x1, .f32⟩
  | 77 => ⟨S2097152x1, .f32⟩
  | 78 => ⟨S2097152x1, .f32⟩
  | 79 => ⟨S2097152x1, .f32⟩
  | 80 => ⟨S_, .f32⟩
  | 81 => ⟨S2097152x1, .f32⟩
  | 82 => ⟨S2097152x1, .f32⟩
  | 83 => ⟨S2097152x1, .f32⟩
  | 84 => ⟨S2097152x1, .f32⟩
  | 85 => ⟨S2097152x1, .f32⟩
  | 86 => ⟨S2097152x1, .f32⟩
  | 87 => ⟨S2097152x1, .f32⟩
  | 88 => ⟨S2097152x1, .f32⟩
  | 89 => ⟨S2097152x1, .f32⟩
  | 90 => ⟨S2097152x1, .f32⟩
  | 91 => ⟨S2097152x1, .f32⟩
  | 92 => ⟨S2097152x1, .f32⟩
  | 93 => ⟨S2097152x1, .f32⟩
  | 94 => ⟨S2097152x1, .f32⟩
  | 95 => ⟨S2097152x1, .f32⟩
  | 96 => ⟨S2097152, .f32⟩
  | 97 => ⟨S2097152x1, .f32⟩
  | 98 => ⟨S2097152, .f32⟩
  | 99 => ⟨S2097152, .f32⟩
  | 100 => ⟨S2097152x1, .f32⟩
  | 101 => ⟨S2097152, .f32⟩
  | 102 => ⟨S2097152, .f32⟩
  | 103 => ⟨S2097152, .f32⟩
  | 104 => ⟨S2097152x1, .f32⟩
  | 105 => ⟨S2097152x1, .f32⟩
  | 106 => ⟨S2097152x1, .f32⟩
  | 107 => ⟨S2097152x2, .f32⟩
  | _ => ⟨S2097152x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2097152x2, .f32⟩

abbrev bufTy : (tb : Table) → Fin (tcTables nBuf tb) → BufTy
  | .hbm, ⟨i, _⟩ => hbmTy i
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v22 : Ref sig .tc := ⟨.hbm, 50, rfl⟩
abbrev main_cst_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v27 : Ref sig .tc := ⟨.hbm, 63, rfl⟩
abbrev main_cst_8 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c : Ref sig .tc := ⟨.hbm, 71, rfl⟩
abbrev main_v34 : Ref sig .tc := ⟨.hbm, 72, rfl⟩
abbrev main_v35 : Ref sig .tc := ⟨.hbm, 73, rfl⟩
abbrev main_c_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_10 : Ref sig .tc := ⟨.hbm, 78, rfl⟩
abbrev main_v39 : Ref sig .tc := ⟨.hbm, 79, rfl⟩
abbrev main_v40 : Ref sig .tc := ⟨.hbm, 80, rfl⟩
abbrev main_c_11 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_v50 : Ref sig .tc := ⟨.hbm, 92, rfl⟩
abbrev main_v51 : Ref sig .tc := ⟨.hbm, 93, rfl⟩
abbrev main_cst_13 : Ref sig .tc := ⟨.hbm, 94, rfl⟩
abbrev main_v52 : Ref sig .tc := ⟨.hbm, 95, rfl⟩
abbrev main_v53 : Ref sig .tc := ⟨.hbm, 96, rfl⟩
abbrev main_cst_14 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_15 : Ref sig .tc := ⟨.hbm, 103, rfl⟩
abbrev main_v59 : Ref sig .tc := ⟨.hbm, 104, rfl⟩
abbrev main_v60 : Ref sig .tc := ⟨.hbm, 105, rfl⟩
abbrev main_cst_16 : Ref sig .tc := ⟨.hbm, 106, rfl⟩
abbrev main_cst_17 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v61 : Ref sig .tc := ⟨.hbm, 113, rfl⟩
abbrev main_cst_18 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_c_19 : Ref sig .tc := ⟨.hbm, 119, rfl⟩
abbrev main_v66 : Ref sig .tc := ⟨.hbm, 120, rfl⟩
abbrev main_v67 : Ref sig .tc := ⟨.hbm, 121, rfl⟩
abbrev main_c_20 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_21 : Ref sig .tc := ⟨.hbm, 131, rfl⟩
abbrev main_v76 : Ref sig .tc := ⟨.hbm, 132, rfl⟩
abbrev main_v77 : Ref sig .tc := ⟨.hbm, 133, rfl⟩
abbrev main_cst_22 : Ref sig .tc := ⟨.hbm, 134, rfl⟩
abbrev main_v78 : Ref sig .tc := ⟨.hbm, 135, rfl⟩
abbrev main_v79 : Ref sig .tc := ⟨.hbm, 136, rfl⟩
abbrev main_cst_23 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_24 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_25 : Ref sig .tc := ⟨.hbm, 148, rfl⟩
abbrev main_cst_26 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_v89 : Ref sig .tc := ⟨.hbm, 155, rfl⟩
abbrev main_cst_27 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_28 : Ref sig .tc := ⟨.hbm, 161, rfl⟩
abbrev main_cst_29 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_v94 : Ref sig .tc := ⟨.hbm, 168, rfl⟩
abbrev main_cst_30 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_c_31 : Ref sig .tc := ⟨.hbm, 180, rfl⟩
abbrev main_v105 : Ref sig .tc := ⟨.hbm, 181, rfl⟩
abbrev main_v106 : Ref sig .tc := ⟨.hbm, 182, rfl⟩
abbrev main_c_32 : Ref sig .tc := ⟨.hbm, 183, rfl⟩
abbrev main_v107 : Ref sig .tc := ⟨.hbm, 184, rfl⟩
abbrev main_v108 : Ref sig .tc := ⟨.hbm, 185, rfl⟩
abbrev main_c_33 : Ref sig .tc := ⟨.hbm, 186, rfl⟩
abbrev main_v109 : Ref sig .tc := ⟨.hbm, 187, rfl⟩
abbrev main_v110 : Ref sig .tc := ⟨.hbm, 188, rfl⟩
abbrev main_c_34 : Ref sig .tc := ⟨.hbm, 189, rfl⟩
abbrev main_v111 : Ref sig .tc := ⟨.hbm, 190, rfl⟩
abbrev main_v112 : Ref sig .tc := ⟨.hbm, 191, rfl⟩
abbrev main_c_35 : Ref sig .tc := ⟨.hbm, 192, rfl⟩
abbrev main_v113 : Ref sig .tc := ⟨.hbm, 193, rfl⟩
abbrev main_v114 : Ref sig .tc := ⟨.hbm, 194, rfl⟩
abbrev main_c_36 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_c_37 : Ref sig .tc := ⟨.hbm, 199, rfl⟩
abbrev main_v118 : Ref sig .tc := ⟨.hbm, 200, rfl⟩
abbrev main_v119 : Ref sig .tc := ⟨.hbm, 201, rfl⟩
abbrev main_c_38 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_cst_39 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_40 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_c_41 : Ref sig .tc := ⟨.hbm, 220, rfl⟩
abbrev main_v135 : Ref sig .tc := ⟨.hbm, 221, rfl⟩
abbrev main_v136 : Ref sig .tc := ⟨.hbm, 222, rfl⟩
abbrev main_c_42 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_c_43 : Ref sig .tc := ⟨.hbm, 227, rfl⟩
abbrev main_v140 : Ref sig .tc := ⟨.hbm, 228, rfl⟩
abbrev main_v141 : Ref sig .tc := ⟨.hbm, 229, rfl⟩
abbrev main_c_44 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_cst_45 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_c_46 : Ref sig .tc := ⟨.hbm, 246, rfl⟩
abbrev main_v156 : Ref sig .tc := ⟨.hbm, 247, rfl⟩
abbrev main_v157 : Ref sig .tc := ⟨.hbm, 248, rfl⟩
abbrev main_c_47 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_c_48 : Ref sig .tc := ⟨.hbm, 253, rfl⟩
abbrev main_v161 : Ref sig .tc := ⟨.hbm, 254, rfl⟩
abbrev main_v162 : Ref sig .tc := ⟨.hbm, 255, rfl⟩
abbrev main_c_49 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_cst_50 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_c_51 : Ref sig .tc := ⟨.hbm, 272, rfl⟩
abbrev main_v177 : Ref sig .tc := ⟨.hbm, 273, rfl⟩
abbrev main_v178 : Ref sig .tc := ⟨.hbm, 274, rfl⟩
abbrev main_c_52 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_c_53 : Ref sig .tc := ⟨.hbm, 279, rfl⟩
abbrev main_v182 : Ref sig .tc := ⟨.hbm, 280, rfl⟩
abbrev main_v183 : Ref sig .tc := ⟨.hbm, 281, rfl⟩
abbrev main_c_54 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_cst_55 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_cst_56 : Ref sig .tc := ⟨.hbm, 303, rfl⟩
abbrev main_v203 : Ref sig .tc := ⟨.hbm, 304, rfl⟩
abbrev main_v204 : Ref sig .tc := ⟨.hbm, 305, rfl⟩
abbrev main_cst_57 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_cst_58 : Ref sig .tc := ⟨.hbm, 320, rfl⟩
abbrev main_v218 : Ref sig .tc := ⟨.hbm, 321, rfl⟩
abbrev main_v219 : Ref sig .tc := ⟨.hbm, 322, rfl⟩
abbrev main_cst_59 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_cst_60 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_cst_61 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_cst_62 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_cst_63 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_cst_64 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_cst_65 : Ref sig .tc := ⟨.hbm, 368, rfl⟩
abbrev main_cst_66 : Ref sig .tc := ⟨.hbm, 369, rfl⟩
abbrev main_call8_v0 : Ref sig .tc := ⟨.hbm, 370, rfl⟩
abbrev main_call8_v1 : Ref sig .tc := ⟨.hbm, 371, rfl⟩
abbrev main_call8_v2 : Ref sig .tc := ⟨.hbm, 372, rfl⟩
abbrev main_call8_v3 : Ref sig .tc := ⟨.hbm, 373, rfl⟩
abbrev main_call8_v4 : Ref sig .tc := ⟨.hbm, 374, rfl⟩
abbrev main_v259 : Ref sig .tc := ⟨.hbm, 375, rfl⟩
abbrev main_cst_67 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_v263 : Ref sig .tc := ⟨.hbm, 380, rfl⟩
abbrev main_cst_68 : Ref sig .tc := ⟨.hbm, 381, rfl⟩
abbrev main_cst_69 : Ref sig .tc := ⟨.hbm, 382, rfl⟩
abbrev main_call9_v0 : Ref sig .tc := ⟨.hbm, 383, rfl⟩
abbrev main_call9_v1 : Ref sig .tc := ⟨.hbm, 384, rfl⟩
abbrev main_call9_v2 : Ref sig .tc := ⟨.hbm, 385, rfl⟩
abbrev main_call9_v3 : Ref sig .tc := ⟨.hbm, 386, rfl⟩
abbrev main_call9_v4 : Ref sig .tc := ⟨.hbm, 387, rfl⟩
abbrev main_v264 : Ref sig .tc := ⟨.hbm, 388, rfl⟩
abbrev main_cst_70 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_v274 : Ref sig .tc := ⟨.hbm, 399, rfl⟩
abbrev main_c_71 : Ref sig .tc := ⟨.hbm, 400, rfl⟩
abbrev main_v275 : Ref sig .tc := ⟨.hbm, 401, rfl⟩
abbrev main_v276 : Ref sig .tc := ⟨.hbm, 402, rfl⟩
abbrev main_c_72 : Ref sig .tc := ⟨.hbm, 403, rfl⟩
abbrev main_v277 : Ref sig .tc := ⟨.hbm, 404, rfl⟩
abbrev main_v278 : Ref sig .tc := ⟨.hbm, 405, rfl⟩
abbrev main_c_73 : Ref sig .tc := ⟨.hbm, 406, rfl⟩
abbrev main_v279 : Ref sig .tc := ⟨.hbm, 407, rfl⟩
abbrev main_v280 : Ref sig .tc := ⟨.hbm, 408, rfl⟩
abbrev main_c_74 : Ref sig .tc := ⟨.hbm, 409, rfl⟩
abbrev main_v281 : Ref sig .tc := ⟨.hbm, 410, rfl⟩
abbrev main_v282 : Ref sig .tc := ⟨.hbm, 411, rfl⟩
abbrev main_c_75 : Ref sig .tc := ⟨.hbm, 412, rfl⟩
abbrev main_v283 : Ref sig .tc := ⟨.hbm, 413, rfl⟩
abbrev main_v284 : Ref sig .tc := ⟨.hbm, 414, rfl⟩
abbrev main_c_76 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_c_77 : Ref sig .tc := ⟨.hbm, 419, rfl⟩
abbrev main_v288 : Ref sig .tc := ⟨.hbm, 420, rfl⟩
abbrev main_v289 : Ref sig .tc := ⟨.hbm, 421, rfl⟩
abbrev main_c_78 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_cst_79 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_cst_80 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_c_81 : Ref sig .tc := ⟨.hbm, 440, rfl⟩
abbrev main_v305 : Ref sig .tc := ⟨.hbm, 441, rfl⟩
abbrev main_v306 : Ref sig .tc := ⟨.hbm, 442, rfl⟩
abbrev main_c_82 : Ref sig .tc := ⟨.hbm, 443, rfl⟩
abbrev main_v307 : Ref sig .tc := ⟨.hbm, 444, rfl⟩
abbrev main_v308 : Ref sig .tc := ⟨.hbm, 445, rfl⟩
abbrev main_v309 : Ref sig .tc := ⟨.hbm, 446, rfl⟩
abbrev main_c_83 : Ref sig .tc := ⟨.hbm, 447, rfl⟩
abbrev main_v310 : Ref sig .tc := ⟨.hbm, 448, rfl⟩
abbrev main_v311 : Ref sig .tc := ⟨.hbm, 449, rfl⟩
abbrev main_c_84 : Ref sig .tc := ⟨.hbm, 450, rfl⟩
abbrev main_v312 : Ref sig .tc := ⟨.hbm, 451, rfl⟩
abbrev main_v313 : Ref sig .tc := ⟨.hbm, 452, rfl⟩
abbrev main_v314 : Ref sig .tc := ⟨.hbm, 453, rfl⟩
abbrev main_v315 : Ref sig .tc := ⟨.hbm, 454, rfl⟩
abbrev main_v316 : Ref sig .tc := ⟨.hbm, 455, rfl⟩
abbrev main_v317 : Ref sig .tc := ⟨.hbm, 456, rfl⟩
abbrev main_v318 : Ref sig .tc := ⟨.hbm, 457, rfl⟩
abbrev main_v319 : Ref sig .tc := ⟨.hbm, 458, rfl⟩
abbrev main_v320 : Ref sig .tc := ⟨.hbm, 459, rfl⟩
abbrev main_cst_85 : Ref sig .tc := ⟨.hbm, 460, rfl⟩
abbrev main_v321 : Ref sig .tc := ⟨.hbm, 461, rfl⟩
abbrev main_v322 : Ref sig .tc := ⟨.hbm, 462, rfl⟩
abbrev main_v323 : Ref sig .tc := ⟨.hbm, 463, rfl⟩
abbrev main_v324 : Ref sig .tc := ⟨.hbm, 464, rfl⟩
abbrev main_v325 : Ref sig .tc := ⟨.hbm, 465, rfl⟩
abbrev main_c_86 : Ref sig .tc := ⟨.hbm, 466, rfl⟩
abbrev main_v326 : Ref sig .tc := ⟨.hbm, 467, rfl⟩
abbrev main_v327 : Ref sig .tc := ⟨.hbm, 468, rfl⟩
abbrev main_c_87 : Ref sig .tc := ⟨.hbm, 469, rfl⟩
abbrev main_v328 : Ref sig .tc := ⟨.hbm, 470, rfl⟩
abbrev main_v329 : Ref sig .tc := ⟨.hbm, 471, rfl⟩
abbrev main_v330 : Ref sig .tc := ⟨.hbm, 472, rfl⟩
abbrev main_c_88 : Ref sig .tc := ⟨.hbm, 473, rfl⟩
abbrev main_v331 : Ref sig .tc := ⟨.hbm, 474, rfl⟩
abbrev main_v332 : Ref sig .tc := ⟨.hbm, 475, rfl⟩
abbrev main_c_89 : Ref sig .tc := ⟨.hbm, 476, rfl⟩
abbrev main_v333 : Ref sig .tc := ⟨.hbm, 477, rfl⟩
abbrev main_v334 : Ref sig .tc := ⟨.hbm, 478, rfl⟩
abbrev main_v335 : Ref sig .tc := ⟨.hbm, 479, rfl⟩
abbrev main_v336 : Ref sig .tc := ⟨.hbm, 480, rfl⟩
abbrev main_v337 : Ref sig .tc := ⟨.hbm, 481, rfl⟩
abbrev main_v338 : Ref sig .tc := ⟨.hbm, 482, rfl⟩
abbrev main_v339 : Ref sig .tc := ⟨.hbm, 483, rfl⟩
abbrev main_cst_90 : Ref sig .tc := ⟨.hbm, 484, rfl⟩
abbrev main_v340 : Ref sig .tc := ⟨.hbm, 485, rfl⟩
abbrev main_v341 : Ref sig .tc := ⟨.hbm, 486, rfl⟩
abbrev main_v342 : Ref sig .tc := ⟨.hbm, 487, rfl⟩
abbrev main_v343 : Ref sig .tc := ⟨.hbm, 488, rfl⟩
abbrev main_v344 : Ref sig .tc := ⟨.hbm, 489, rfl⟩
abbrev main_v345 : Ref sig .tc := ⟨.hbm, 490, rfl⟩
abbrev main_v346 : Ref sig .tc := ⟨.hbm, 491, rfl⟩
abbrev main_c_91 : Ref sig .tc := ⟨.hbm, 492, rfl⟩
abbrev main_v347 : Ref sig .tc := ⟨.hbm, 493, rfl⟩
abbrev main_v348 : Ref sig .tc := ⟨.hbm, 494, rfl⟩
abbrev main_c_92 : Ref sig .tc := ⟨.hbm, 495, rfl⟩
abbrev main_v349 : Ref sig .tc := ⟨.hbm, 496, rfl⟩
abbrev main_v350 : Ref sig .tc := ⟨.hbm, 497, rfl⟩
abbrev main_v351 : Ref sig .tc := ⟨.hbm, 498, rfl⟩
abbrev main_c_93 : Ref sig .tc := ⟨.hbm, 499, rfl⟩
abbrev main_v352 : Ref sig .tc := ⟨.hbm, 500, rfl⟩
abbrev main_v353 : Ref sig .tc := ⟨.hbm, 501, rfl⟩
abbrev main_c_94 : Ref sig .tc := ⟨.hbm, 502, rfl⟩
abbrev main_v354 : Ref sig .tc := ⟨.hbm, 503, rfl⟩
abbrev main_v355 : Ref sig .tc := ⟨.hbm, 504, rfl⟩
abbrev main_v356 : Ref sig .tc := ⟨.hbm, 505, rfl⟩
abbrev main_v357 : Ref sig .tc := ⟨.hbm, 506, rfl⟩
abbrev main_v358 : Ref sig .tc := ⟨.hbm, 507, rfl⟩
abbrev main_v359 : Ref sig .tc := ⟨.hbm, 508, rfl⟩
abbrev main_v360 : Ref sig .tc := ⟨.hbm, 509, rfl⟩
abbrev main_v361 : Ref sig .tc := ⟨.hbm, 510, rfl⟩
abbrev main_v362 : Ref sig .tc := ⟨.hbm, 511, rfl⟩
abbrev main_v363 : Ref sig .tc := ⟨.hbm, 512, rfl⟩
abbrev main_v364 : Ref sig .tc := ⟨.hbm, 513, rfl⟩
abbrev main_v365 : Ref sig .tc := ⟨.hbm, 514, rfl⟩
abbrev main_v366 : Ref sig .tc := ⟨.hbm, 515, rfl⟩
abbrev main_cst_95 : Ref sig .tc := ⟨.hbm, 516, rfl⟩
abbrev main_cst_96 : Ref sig .tc := ⟨.hbm, 517, rfl⟩
abbrev main_call10_v0 : Ref sig .tc := ⟨.hbm, 518, rfl⟩
abbrev main_call10_v1 : Ref sig .tc := ⟨.hbm, 519, rfl⟩
abbrev main_call10_v2 : Ref sig .tc := ⟨.hbm, 520, rfl⟩
abbrev main_call10_v3 : Ref sig .tc := ⟨.hbm, 521, rfl⟩
abbrev main_call10_v4 : Ref sig .tc := ⟨.hbm, 522, rfl⟩
abbrev main_v367 : Ref sig .tc := ⟨.hbm, 523, rfl⟩
abbrev main_cst_97 : Ref sig .tc := ⟨.hbm, 524, rfl⟩
abbrev main_v368 : Ref sig .tc := ⟨.hbm, 525, rfl⟩
abbrev main_v369 : Ref sig .tc := ⟨.hbm, 526, rfl⟩
abbrev main_v370 : Ref sig .tc := ⟨.hbm, 527, rfl⟩
abbrev main_v371 : Ref sig .tc := ⟨.hbm, 528, rfl⟩
abbrev main_v372 : Ref sig .tc := ⟨.hbm, 529, rfl⟩
abbrev main_v373 : Ref sig .tc := ⟨.hbm, 530, rfl⟩
abbrev main_c_98 : Ref sig .tc := ⟨.hbm, 531, rfl⟩
abbrev main_v374 : Ref sig .tc := ⟨.hbm, 532, rfl⟩
abbrev main_v375 : Ref sig .tc := ⟨.hbm, 533, rfl⟩
abbrev main_c_99 : Ref sig .tc := ⟨.hbm, 534, rfl⟩
abbrev main_v376 : Ref sig .tc := ⟨.hbm, 535, rfl⟩
abbrev main_v377 : Ref sig .tc := ⟨.hbm, 536, rfl⟩
abbrev main_c_100 : Ref sig .tc := ⟨.hbm, 537, rfl⟩
abbrev main_v378 : Ref sig .tc := ⟨.hbm, 538, rfl⟩
abbrev main_v379 : Ref sig .tc := ⟨.hbm, 539, rfl⟩
abbrev main_c_101 : Ref sig .tc := ⟨.hbm, 540, rfl⟩
abbrev main_v380 : Ref sig .tc := ⟨.hbm, 541, rfl⟩
abbrev main_v381 : Ref sig .tc := ⟨.hbm, 542, rfl⟩
abbrev main_v382 : Ref sig .tc := ⟨.hbm, 543, rfl⟩
abbrev main_v383 : Ref sig .tc := ⟨.hbm, 544, rfl⟩
abbrev main_v384 : Ref sig .tc := ⟨.hbm, 545, rfl⟩
abbrev main_cst_102 : Ref sig .tc := ⟨.hbm, 546, rfl⟩
abbrev main_v385 : Ref sig .tc := ⟨.hbm, 547, rfl⟩
abbrev main_v386 : Ref sig .tc := ⟨.hbm, 548, rfl⟩
abbrev main_v387 : Ref sig .tc := ⟨.hbm, 549, rfl⟩
abbrev main_v388 : Ref sig .tc := ⟨.hbm, 550, rfl⟩
abbrev main_c_103 : Ref sig .tc := ⟨.hbm, 551, rfl⟩
abbrev main_v389 : Ref sig .tc := ⟨.hbm, 552, rfl⟩
abbrev main_v390 : Ref sig .tc := ⟨.hbm, 553, rfl⟩
abbrev main_c_104 : Ref sig .tc := ⟨.hbm, 554, rfl⟩
abbrev main_v391 : Ref sig .tc := ⟨.hbm, 555, rfl⟩
abbrev main_v392 : Ref sig .tc := ⟨.hbm, 556, rfl⟩
abbrev main_v393 : Ref sig .tc := ⟨.hbm, 557, rfl⟩
abbrev main_v394 : Ref sig .tc := ⟨.hbm, 558, rfl⟩
abbrev main_v395 : Ref sig .tc := ⟨.hbm, 559, rfl⟩
abbrev main_v396 : Ref sig .tc := ⟨.hbm, 560, rfl⟩
abbrev main_v397 : Ref sig .tc := ⟨.hbm, 561, rfl⟩
abbrev main_v398 : Ref sig .tc := ⟨.hbm, 562, rfl⟩
abbrev main_v399 : Ref sig .tc := ⟨.hbm, 563, rfl⟩
abbrev main_v400 : Ref sig .tc := ⟨.hbm, 564, rfl⟩
abbrev main_v401 : Ref sig .tc := ⟨.hbm, 565, rfl⟩
abbrev main_v402 : Ref sig .tc := ⟨.hbm, 566, rfl⟩
abbrev main_v403 : Ref sig .tc := ⟨.hbm, 567, rfl⟩
abbrev main_cst_105 : Ref sig .tc := ⟨.hbm, 568, rfl⟩
abbrev main_v404 : Ref sig .tc := ⟨.hbm, 569, rfl⟩
abbrev main_v405 : Ref sig .tc := ⟨.hbm, 570, rfl⟩
abbrev main_cst_106 : Ref sig .tc := ⟨.hbm, 571, rfl⟩
abbrev main_v406 : Ref sig .tc := ⟨.hbm, 572, rfl⟩
abbrev main_v407 : Ref sig .tc := ⟨.hbm, 573, rfl⟩
abbrev main_cst_107 : Ref sig .tc := ⟨.hbm, 574, rfl⟩
abbrev main_v408 : Ref sig .tc := ⟨.hbm, 575, rfl⟩
abbrev main_v409 : Ref sig .tc := ⟨.hbm, 576, rfl⟩
abbrev main_v410 : Ref sig .tc := ⟨.hbm, 577, rfl⟩
abbrev main_v411 : Ref sig .tc := ⟨.hbm, 578, rfl⟩
abbrev main_v412 : Ref sig .tc := ⟨.hbm, 579, rfl⟩
abbrev main_cst_108 : Ref sig .tc := ⟨.hbm, 580, rfl⟩
abbrev main_v413 : Ref sig .tc := ⟨.hbm, 581, rfl⟩
abbrev main_v414 : Ref sig .tc := ⟨.hbm, 582, rfl⟩
abbrev main_v415 : Ref sig .tc := ⟨.hbm, 583, rfl⟩
abbrev main_v416 : Ref sig .tc := ⟨.hbm, 584, rfl⟩
abbrev main_cst_109 : Ref sig .tc := ⟨.hbm, 585, rfl⟩
abbrev main_cst_110 : Ref sig .tc := ⟨.hbm, 586, rfl⟩
abbrev main_call11_v0 : Ref sig .tc := ⟨.hbm, 587, rfl⟩
abbrev main_call11_v1 : Ref sig .tc := ⟨.hbm, 588, rfl⟩
abbrev main_call11_v2 : Ref sig .tc := ⟨.hbm, 589, rfl⟩
abbrev main_call11_v3 : Ref sig .tc := ⟨.hbm, 590, rfl⟩
abbrev main_call11_v4 : Ref sig .tc := ⟨.hbm, 591, rfl⟩
abbrev main_v417 : Ref sig .tc := ⟨.hbm, 592, rfl⟩
abbrev main_cst_111 : Ref sig .tc := ⟨.hbm, 593, rfl⟩
abbrev main_v418 : Ref sig .tc := ⟨.hbm, 594, rfl⟩
abbrev main_v419 : Ref sig .tc := ⟨.hbm, 595, rfl⟩
abbrev main_v420 : Ref sig .tc := ⟨.hbm, 596, rfl⟩
abbrev main_v421 : Ref sig .tc := ⟨.hbm, 597, rfl⟩
abbrev main_cst_112 : Ref sig .tc := ⟨.hbm, 598, rfl⟩
abbrev main_cst_113 : Ref sig .tc := ⟨.hbm, 599, rfl⟩
abbrev main_call12_v0 : Ref sig .tc := ⟨.hbm, 600, rfl⟩
abbrev main_call12_v1 : Ref sig .tc := ⟨.hbm, 601, rfl⟩
abbrev main_call12_v2 : Ref sig .tc := ⟨.hbm, 602, rfl⟩
abbrev main_call12_v3 : Ref sig .tc := ⟨.hbm, 603, rfl⟩
abbrev main_call12_v4 : Ref sig .tc := ⟨.hbm, 604, rfl⟩
abbrev main_v422 : Ref sig .tc := ⟨.hbm, 605, rfl⟩
abbrev main_cst_114 : Ref sig .tc := ⟨.hbm, 606, rfl⟩
abbrev main_v423 : Ref sig .tc := ⟨.hbm, 607, rfl⟩
abbrev main_v424 : Ref sig .tc := ⟨.hbm, 608, rfl⟩
abbrev main_v425 : Ref sig .tc := ⟨.hbm, 609, rfl⟩
abbrev main_v426 : Ref sig .tc := ⟨.hbm, 610, rfl⟩
abbrev main_v427 : Ref sig .tc := ⟨.hbm, 611, rfl⟩
abbrev main_v428 : Ref sig .tc := ⟨.hbm, 612, rfl⟩
abbrev main_v429 : Ref sig .tc := ⟨.hbm, 613, rfl⟩
abbrev main_v430 : Ref sig .tc := ⟨.hbm, 614, rfl⟩
abbrev main_v431 : Ref sig .tc := ⟨.hbm, 615, rfl⟩
abbrev main_v432 : Ref sig .tc := ⟨.hbm, 616, rfl⟩
abbrev main_c_115 : Ref sig .tc := ⟨.hbm, 617, rfl⟩
abbrev main_v433 : Ref sig .tc := ⟨.hbm, 618, rfl⟩
abbrev main_v434 : Ref sig .tc := ⟨.hbm, 619, rfl⟩
abbrev main_c_116 : Ref sig .tc := ⟨.hbm, 620, rfl⟩
abbrev main_v435 : Ref sig .tc := ⟨.hbm, 621, rfl⟩
abbrev main_v436 : Ref sig .tc := ⟨.hbm, 622, rfl⟩
abbrev main_c_117 : Ref sig .tc := ⟨.hbm, 623, rfl⟩
abbrev main_v437 : Ref sig .tc := ⟨.hbm, 624, rfl⟩
abbrev main_v438 : Ref sig .tc := ⟨.hbm, 625, rfl⟩
abbrev main_c_118 : Ref sig .tc := ⟨.hbm, 626, rfl⟩
abbrev main_v439 : Ref sig .tc := ⟨.hbm, 627, rfl⟩
abbrev main_v440 : Ref sig .tc := ⟨.hbm, 628, rfl⟩
abbrev main_c_119 : Ref sig .tc := ⟨.hbm, 629, rfl⟩
abbrev main_v441 : Ref sig .tc := ⟨.hbm, 630, rfl⟩
abbrev main_v442 : Ref sig .tc := ⟨.hbm, 631, rfl⟩
abbrev main_c_120 : Ref sig .tc := ⟨.hbm, 632, rfl⟩
abbrev main_v443 : Ref sig .tc := ⟨.hbm, 633, rfl⟩
abbrev main_v444 : Ref sig .tc := ⟨.hbm, 634, rfl⟩
abbrev main_v445 : Ref sig .tc := ⟨.hbm, 635, rfl⟩
abbrev main_c_121 : Ref sig .tc := ⟨.hbm, 636, rfl⟩
abbrev main_v446 : Ref sig .tc := ⟨.hbm, 637, rfl⟩
abbrev main_v447 : Ref sig .tc := ⟨.hbm, 638, rfl⟩
abbrev main_c_122 : Ref sig .tc := ⟨.hbm, 639, rfl⟩
abbrev main_v448 : Ref sig .tc := ⟨.hbm, 640, rfl⟩
abbrev main_v449 : Ref sig .tc := ⟨.hbm, 641, rfl⟩
abbrev main_v450 : Ref sig .tc := ⟨.hbm, 642, rfl⟩
abbrev main_v451 : Ref sig .tc := ⟨.hbm, 643, rfl⟩
abbrev main_v452 : Ref sig .tc := ⟨.hbm, 644, rfl⟩
abbrev main_v453 : Ref sig .tc := ⟨.hbm, 645, rfl⟩
abbrev main_v454 : Ref sig .tc := ⟨.hbm, 646, rfl⟩
abbrev main_cst_123 : Ref sig .tc := ⟨.hbm, 647, rfl⟩
abbrev main_v455 : Ref sig .tc := ⟨.hbm, 648, rfl⟩
abbrev main_v456 : Ref sig .tc := ⟨.hbm, 649, rfl⟩
abbrev main_v457 : Ref sig .tc := ⟨.hbm, 650, rfl⟩
abbrev main_cst_124 : Ref sig .tc := ⟨.hbm, 651, rfl⟩
abbrev main_v458 : Ref sig .tc := ⟨.hbm, 652, rfl⟩
abbrev main_v459 : Ref sig .tc := ⟨.hbm, 653, rfl⟩
abbrev main_v460 : Ref sig .tc := ⟨.hbm, 654, rfl⟩
abbrev main_c_125 : Ref sig .tc := ⟨.hbm, 655, rfl⟩
abbrev main_v461 : Ref sig .tc := ⟨.hbm, 656, rfl⟩
abbrev main_v462 : Ref sig .tc := ⟨.hbm, 657, rfl⟩
abbrev main_c_126 : Ref sig .tc := ⟨.hbm, 658, rfl⟩
abbrev main_v463 : Ref sig .tc := ⟨.hbm, 659, rfl⟩
abbrev main_v464 : Ref sig .tc := ⟨.hbm, 660, rfl⟩
abbrev main_v465 : Ref sig .tc := ⟨.hbm, 661, rfl⟩
abbrev main_c_127 : Ref sig .tc := ⟨.hbm, 662, rfl⟩
abbrev main_v466 : Ref sig .tc := ⟨.hbm, 663, rfl⟩
abbrev main_v467 : Ref sig .tc := ⟨.hbm, 664, rfl⟩
abbrev main_c_128 : Ref sig .tc := ⟨.hbm, 665, rfl⟩
abbrev main_v468 : Ref sig .tc := ⟨.hbm, 666, rfl⟩
abbrev main_v469 : Ref sig .tc := ⟨.hbm, 667, rfl⟩
abbrev main_v470 : Ref sig .tc := ⟨.hbm, 668, rfl⟩
abbrev main_v471 : Ref sig .tc := ⟨.hbm, 669, rfl⟩
abbrev main_v472 : Ref sig .tc := ⟨.hbm, 670, rfl⟩
abbrev main_v473 : Ref sig .tc := ⟨.hbm, 671, rfl⟩
abbrev main_v474 : Ref sig .tc := ⟨.hbm, 672, rfl⟩
abbrev main_v475 : Ref sig .tc := ⟨.hbm, 673, rfl⟩
abbrev main_cst_129 : Ref sig .tc := ⟨.hbm, 674, rfl⟩
abbrev main_v476 : Ref sig .tc := ⟨.hbm, 675, rfl⟩
abbrev main_v477 : Ref sig .tc := ⟨.hbm, 676, rfl⟩
abbrev main_v478 : Ref sig .tc := ⟨.hbm, 677, rfl⟩
abbrev main_v479 : Ref sig .tc := ⟨.hbm, 678, rfl⟩
abbrev main_c_130 : Ref sig .tc := ⟨.hbm, 679, rfl⟩
abbrev main_v480 : Ref sig .tc := ⟨.hbm, 680, rfl⟩
abbrev main_v481 : Ref sig .tc := ⟨.hbm, 681, rfl⟩
abbrev main_c_131 : Ref sig .tc := ⟨.hbm, 682, rfl⟩
abbrev main_v482 : Ref sig .tc := ⟨.hbm, 683, rfl⟩
abbrev main_v483 : Ref sig .tc := ⟨.hbm, 684, rfl⟩
abbrev main_v484 : Ref sig .tc := ⟨.hbm, 685, rfl⟩
abbrev main_c_132 : Ref sig .tc := ⟨.hbm, 686, rfl⟩
abbrev main_v485 : Ref sig .tc := ⟨.hbm, 687, rfl⟩
abbrev main_v486 : Ref sig .tc := ⟨.hbm, 688, rfl⟩
abbrev main_c_133 : Ref sig .tc := ⟨.hbm, 689, rfl⟩
abbrev main_v487 : Ref sig .tc := ⟨.hbm, 690, rfl⟩
abbrev main_v488 : Ref sig .tc := ⟨.hbm, 691, rfl⟩
abbrev main_v489 : Ref sig .tc := ⟨.hbm, 692, rfl⟩
abbrev main_v490 : Ref sig .tc := ⟨.hbm, 693, rfl⟩
abbrev main_v491 : Ref sig .tc := ⟨.hbm, 694, rfl⟩
abbrev main_v492 : Ref sig .tc := ⟨.hbm, 695, rfl⟩
abbrev main_v493 : Ref sig .tc := ⟨.hbm, 696, rfl⟩
abbrev main_cst_134 : Ref sig .tc := ⟨.hbm, 697, rfl⟩
abbrev main_v494 : Ref sig .tc := ⟨.hbm, 698, rfl⟩
abbrev main_v495 : Ref sig .tc := ⟨.hbm, 699, rfl⟩
abbrev main_v496 : Ref sig .tc := ⟨.hbm, 700, rfl⟩
abbrev main_v497 : Ref sig .tc := ⟨.hbm, 701, rfl⟩
abbrev main_v498 : Ref sig .tc := ⟨.hbm, 702, rfl⟩
abbrev main_c_135 : Ref sig .tc := ⟨.hbm, 703, rfl⟩
abbrev main_v499 : Ref sig .tc := ⟨.hbm, 704, rfl⟩
abbrev main_v500 : Ref sig .tc := ⟨.hbm, 705, rfl⟩
abbrev main_c_136 : Ref sig .tc := ⟨.hbm, 706, rfl⟩
abbrev main_v501 : Ref sig .tc := ⟨.hbm, 707, rfl⟩
abbrev main_v502 : Ref sig .tc := ⟨.hbm, 708, rfl⟩
abbrev main_v503 : Ref sig .tc := ⟨.hbm, 709, rfl⟩
abbrev main_c_137 : Ref sig .tc := ⟨.hbm, 710, rfl⟩
abbrev main_v504 : Ref sig .tc := ⟨.hbm, 711, rfl⟩
abbrev main_v505 : Ref sig .tc := ⟨.hbm, 712, rfl⟩
abbrev main_c_138 : Ref sig .tc := ⟨.hbm, 713, rfl⟩
abbrev main_v506 : Ref sig .tc := ⟨.hbm, 714, rfl⟩
abbrev main_v507 : Ref sig .tc := ⟨.hbm, 715, rfl⟩
abbrev main_v508 : Ref sig .tc := ⟨.hbm, 716, rfl⟩
abbrev main_v509 : Ref sig .tc := ⟨.hbm, 717, rfl⟩
abbrev main_v510 : Ref sig .tc := ⟨.hbm, 718, rfl⟩
abbrev main_v511 : Ref sig .tc := ⟨.hbm, 719, rfl⟩
abbrev main_v512 : Ref sig .tc := ⟨.hbm, 720, rfl⟩
abbrev main_v513 : Ref sig .tc := ⟨.hbm, 721, rfl⟩
abbrev main_v514 : Ref sig .tc := ⟨.hbm, 722, rfl⟩
abbrev main_v515 : Ref sig .tc := ⟨.hbm, 723, rfl⟩
abbrev main_cst_139 : Ref sig .tc := ⟨.hbm, 724, rfl⟩
abbrev main_v516 : Ref sig .tc := ⟨.hbm, 725, rfl⟩
abbrev main_v517 : Ref sig .tc := ⟨.hbm, 726, rfl⟩
abbrev main_cst_140 : Ref sig .tc := ⟨.hbm, 727, rfl⟩
abbrev main_v518 : Ref sig .tc := ⟨.hbm, 728, rfl⟩
abbrev main_v519 : Ref sig .tc := ⟨.hbm, 729, rfl⟩
abbrev main_cst_141 : Ref sig .tc := ⟨.hbm, 730, rfl⟩
abbrev main_v520 : Ref sig .tc := ⟨.hbm, 731, rfl⟩
abbrev main_v521 : Ref sig .tc := ⟨.hbm, 732, rfl⟩
abbrev main_v522 : Ref sig .tc := ⟨.hbm, 733, rfl⟩
abbrev main_v523 : Ref sig .tc := ⟨.hbm, 734, rfl⟩
abbrev main_v524 : Ref sig .tc := ⟨.hbm, 735, rfl⟩
abbrev main_cst_142 : Ref sig .tc := ⟨.hbm, 736, rfl⟩
abbrev main_v525 : Ref sig .tc := ⟨.hbm, 737, rfl⟩
abbrev main_v526 : Ref sig .tc := ⟨.hbm, 738, rfl⟩
abbrev main_v527 : Ref sig .tc := ⟨.hbm, 739, rfl⟩
abbrev main_v528 : Ref sig .tc := ⟨.hbm, 740, rfl⟩
abbrev main_cst_143 : Ref sig .tc := ⟨.hbm, 741, rfl⟩
abbrev main_cst_144 : Ref sig .tc := ⟨.hbm, 742, rfl⟩
abbrev main_call13_v0 : Ref sig .tc := ⟨.hbm, 743, rfl⟩
abbrev main_call13_v1 : Ref sig .tc := ⟨.hbm, 744, rfl⟩
abbrev main_call13_v2 : Ref sig .tc := ⟨.hbm, 745, rfl⟩
abbrev main_call13_v3 : Ref sig .tc := ⟨.hbm, 746, rfl⟩
abbrev main_call13_v4 : Ref sig .tc := ⟨.hbm, 747, rfl⟩
abbrev main_v529 : Ref sig .tc := ⟨.hbm, 748, rfl⟩
abbrev main_cst_145 : Ref sig .tc := ⟨.hbm, 749, rfl⟩
abbrev main_v530 : Ref sig .tc := ⟨.hbm, 750, rfl⟩
abbrev main_v531 : Ref sig .tc := ⟨.hbm, 751, rfl⟩
abbrev main_v532 : Ref sig .tc := ⟨.hbm, 752, rfl⟩
abbrev main_v533 : Ref sig .tc := ⟨.hbm, 753, rfl⟩
abbrev main_cst_146 : Ref sig .tc := ⟨.hbm, 754, rfl⟩
abbrev main_cst_147 : Ref sig .tc := ⟨.hbm, 755, rfl⟩
abbrev main_call14_v0 : Ref sig .tc := ⟨.hbm, 756, rfl⟩
abbrev main_call14_v1 : Ref sig .tc := ⟨.hbm, 757, rfl⟩
abbrev main_call14_v2 : Ref sig .tc := ⟨.hbm, 758, rfl⟩
abbrev main_call14_v3 : Ref sig .tc := ⟨.hbm, 759, rfl⟩
abbrev main_call14_v4 : Ref sig .tc := ⟨.hbm, 760, rfl⟩
abbrev main_v534 : Ref sig .tc := ⟨.hbm, 761, rfl⟩
abbrev main_cst_148 : Ref sig .tc := ⟨.hbm, 762, rfl⟩
abbrev main_v535 : Ref sig .tc := ⟨.hbm, 763, rfl⟩
abbrev main_v536 : Ref sig .tc := ⟨.hbm, 764, rfl⟩
abbrev main_v537 : Ref sig .tc := ⟨.hbm, 765, rfl⟩
abbrev main_v538 : Ref sig .tc := ⟨.hbm, 766, rfl⟩
abbrev main_v539 : Ref sig .tc := ⟨.hbm, 767, rfl⟩
abbrev main_v540 : Ref sig .tc := ⟨.hbm, 768, rfl⟩
abbrev main_v541 : Ref sig .tc := ⟨.hbm, 769, rfl⟩
abbrev main_v542 : Ref sig .tc := ⟨.hbm, 770, rfl⟩
abbrev main_v543 : Ref sig .tc := ⟨.hbm, 771, rfl⟩
abbrev main_v544 : Ref sig .tc := ⟨.hbm, 772, rfl⟩
abbrev main_c_149 : Ref sig .tc := ⟨.hbm, 773, rfl⟩
abbrev main_v545 : Ref sig .tc := ⟨.hbm, 774, rfl⟩
abbrev main_v546 : Ref sig .tc := ⟨.hbm, 775, rfl⟩
abbrev main_c_150 : Ref sig .tc := ⟨.hbm, 776, rfl⟩
abbrev main_v547 : Ref sig .tc := ⟨.hbm, 777, rfl⟩
abbrev main_v548 : Ref sig .tc := ⟨.hbm, 778, rfl⟩
abbrev main_c_151 : Ref sig .tc := ⟨.hbm, 779, rfl⟩
abbrev main_v549 : Ref sig .tc := ⟨.hbm, 780, rfl⟩
abbrev main_v550 : Ref sig .tc := ⟨.hbm, 781, rfl⟩
abbrev main_c_152 : Ref sig .tc := ⟨.hbm, 782, rfl⟩
abbrev main_v551 : Ref sig .tc := ⟨.hbm, 783, rfl⟩
abbrev main_v552 : Ref sig .tc := ⟨.hbm, 784, rfl⟩
abbrev main_c_153 : Ref sig .tc := ⟨.hbm, 785, rfl⟩
abbrev main_v553 : Ref sig .tc := ⟨.hbm, 786, rfl⟩
abbrev main_v554 : Ref sig .tc := ⟨.hbm, 787, rfl⟩
abbrev main_c_154 : Ref sig .tc := ⟨.hbm, 788, rfl⟩
abbrev main_v555 : Ref sig .tc := ⟨.hbm, 789, rfl⟩
abbrev main_v556 : Ref sig .tc := ⟨.hbm, 790, rfl⟩
abbrev main_v557 : Ref sig .tc := ⟨.hbm, 791, rfl⟩
abbrev main_c_155 : Ref sig .tc := ⟨.hbm, 792, rfl⟩
abbrev main_v558 : Ref sig .tc := ⟨.hbm, 793, rfl⟩
abbrev main_v559 : Ref sig .tc := ⟨.hbm, 794, rfl⟩
abbrev main_c_156 : Ref sig .tc := ⟨.hbm, 795, rfl⟩
abbrev main_v560 : Ref sig .tc := ⟨.hbm, 796, rfl⟩
abbrev main_v561 : Ref sig .tc := ⟨.hbm, 797, rfl⟩
abbrev main_v562 : Ref sig .tc := ⟨.hbm, 798, rfl⟩
abbrev main_v563 : Ref sig .tc := ⟨.hbm, 799, rfl⟩
abbrev main_v564 : Ref sig .tc := ⟨.hbm, 800, rfl⟩
abbrev main_v565 : Ref sig .tc := ⟨.hbm, 801, rfl⟩
abbrev main_v566 : Ref sig .tc := ⟨.hbm, 802, rfl⟩
abbrev main_cst_157 : Ref sig .tc := ⟨.hbm, 803, rfl⟩
abbrev main_v567 : Ref sig .tc := ⟨.hbm, 804, rfl⟩
abbrev main_v568 : Ref sig .tc := ⟨.hbm, 805, rfl⟩
abbrev main_v569 : Ref sig .tc := ⟨.hbm, 806, rfl⟩
abbrev main_v570 : Ref sig .tc := ⟨.hbm, 807, rfl⟩
abbrev main_cst_158 : Ref sig .tc := ⟨.hbm, 808, rfl⟩
abbrev main_v571 : Ref sig .tc := ⟨.hbm, 809, rfl⟩
abbrev main_v572 : Ref sig .tc := ⟨.hbm, 810, rfl⟩
abbrev main_v573 : Ref sig .tc := ⟨.hbm, 811, rfl⟩
abbrev main_v574 : Ref sig .tc := ⟨.hbm, 812, rfl⟩
abbrev main_c_159 : Ref sig .tc := ⟨.hbm, 813, rfl⟩
abbrev main_v575 : Ref sig .tc := ⟨.hbm, 814, rfl⟩
abbrev main_v576 : Ref sig .tc := ⟨.hbm, 815, rfl⟩
abbrev main_c_160 : Ref sig .tc := ⟨.hbm, 816, rfl⟩
abbrev main_v577 : Ref sig .tc := ⟨.hbm, 817, rfl⟩
abbrev main_v578 : Ref sig .tc := ⟨.hbm, 818, rfl⟩
abbrev main_v579 : Ref sig .tc := ⟨.hbm, 819, rfl⟩
abbrev main_c_161 : Ref sig .tc := ⟨.hbm, 820, rfl⟩
abbrev main_v580 : Ref sig .tc := ⟨.hbm, 821, rfl⟩
abbrev main_v581 : Ref sig .tc := ⟨.hbm, 822, rfl⟩
abbrev main_c_162 : Ref sig .tc := ⟨.hbm, 823, rfl⟩
abbrev main_v582 : Ref sig .tc := ⟨.hbm, 824, rfl⟩
abbrev main_v583 : Ref sig .tc := ⟨.hbm, 825, rfl⟩
abbrev main_v584 : Ref sig .tc := ⟨.hbm, 826, rfl⟩
abbrev main_v585 : Ref sig .tc := ⟨.hbm, 827, rfl⟩
abbrev main_v586 : Ref sig .tc := ⟨.hbm, 828, rfl⟩
abbrev main_v587 : Ref sig .tc := ⟨.hbm, 829, rfl⟩
abbrev main_v588 : Ref sig .tc := ⟨.hbm, 830, rfl⟩
abbrev main_v589 : Ref sig .tc := ⟨.hbm, 831, rfl⟩
abbrev main_v590 : Ref sig .tc := ⟨.hbm, 832, rfl⟩
abbrev main_cst_163 : Ref sig .tc := ⟨.hbm, 833, rfl⟩
abbrev main_v591 : Ref sig .tc := ⟨.hbm, 834, rfl⟩
abbrev main_v592 : Ref sig .tc := ⟨.hbm, 835, rfl⟩
abbrev main_v593 : Ref sig .tc := ⟨.hbm, 836, rfl⟩
abbrev main_v594 : Ref sig .tc := ⟨.hbm, 837, rfl⟩
abbrev main_v595 : Ref sig .tc := ⟨.hbm, 838, rfl⟩
abbrev main_c_164 : Ref sig .tc := ⟨.hbm, 839, rfl⟩
abbrev main_v596 : Ref sig .tc := ⟨.hbm, 840, rfl⟩
abbrev main_v597 : Ref sig .tc := ⟨.hbm, 841, rfl⟩
abbrev main_c_165 : Ref sig .tc := ⟨.hbm, 842, rfl⟩
abbrev main_v598 : Ref sig .tc := ⟨.hbm, 843, rfl⟩
abbrev main_v599 : Ref sig .tc := ⟨.hbm, 844, rfl⟩
abbrev main_v600 : Ref sig .tc := ⟨.hbm, 845, rfl⟩
abbrev main_c_166 : Ref sig .tc := ⟨.hbm, 846, rfl⟩
abbrev main_v601 : Ref sig .tc := ⟨.hbm, 847, rfl⟩
abbrev main_v602 : Ref sig .tc := ⟨.hbm, 848, rfl⟩
abbrev main_c_167 : Ref sig .tc := ⟨.hbm, 849, rfl⟩
abbrev main_v603 : Ref sig .tc := ⟨.hbm, 850, rfl⟩
abbrev main_v604 : Ref sig .tc := ⟨.hbm, 851, rfl⟩
abbrev main_v605 : Ref sig .tc := ⟨.hbm, 852, rfl⟩
abbrev main_v606 : Ref sig .tc := ⟨.hbm, 853, rfl⟩
abbrev main_v607 : Ref sig .tc := ⟨.hbm, 854, rfl⟩
abbrev main_v608 : Ref sig .tc := ⟨.hbm, 855, rfl⟩
abbrev main_v609 : Ref sig .tc := ⟨.hbm, 856, rfl⟩
abbrev main_cst_168 : Ref sig .tc := ⟨.hbm, 857, rfl⟩
abbrev main_v610 : Ref sig .tc := ⟨.hbm, 858, rfl⟩
abbrev main_v611 : Ref sig .tc := ⟨.hbm, 859, rfl⟩
abbrev main_v612 : Ref sig .tc := ⟨.hbm, 860, rfl⟩
abbrev main_v613 : Ref sig .tc := ⟨.hbm, 861, rfl⟩
abbrev main_v614 : Ref sig .tc := ⟨.hbm, 862, rfl⟩
abbrev main_v615 : Ref sig .tc := ⟨.hbm, 863, rfl⟩
abbrev main_v616 : Ref sig .tc := ⟨.hbm, 864, rfl⟩
abbrev main_c_169 : Ref sig .tc := ⟨.hbm, 865, rfl⟩
abbrev main_v617 : Ref sig .tc := ⟨.hbm, 866, rfl⟩
abbrev main_v618 : Ref sig .tc := ⟨.hbm, 867, rfl⟩
abbrev main_c_170 : Ref sig .tc := ⟨.hbm, 868, rfl⟩
abbrev main_v619 : Ref sig .tc := ⟨.hbm, 869, rfl⟩
abbrev main_v620 : Ref sig .tc := ⟨.hbm, 870, rfl⟩
abbrev main_v621 : Ref sig .tc := ⟨.hbm, 871, rfl⟩
abbrev main_c_171 : Ref sig .tc := ⟨.hbm, 872, rfl⟩
abbrev main_v622 : Ref sig .tc := ⟨.hbm, 873, rfl⟩
abbrev main_v623 : Ref sig .tc := ⟨.hbm, 874, rfl⟩
abbrev main_c_172 : Ref sig .tc := ⟨.hbm, 875, rfl⟩
abbrev main_v624 : Ref sig .tc := ⟨.hbm, 876, rfl⟩
abbrev main_v625 : Ref sig .tc := ⟨.hbm, 877, rfl⟩
abbrev main_v626 : Ref sig .tc := ⟨.hbm, 878, rfl⟩
abbrev main_v627 : Ref sig .tc := ⟨.hbm, 879, rfl⟩
abbrev main_v628 : Ref sig .tc := ⟨.hbm, 880, rfl⟩
abbrev main_v629 : Ref sig .tc := ⟨.hbm, 881, rfl⟩
abbrev main_v630 : Ref sig .tc := ⟨.hbm, 882, rfl⟩
abbrev main_v631 : Ref sig .tc := ⟨.hbm, 883, rfl⟩
abbrev main_v632 : Ref sig .tc := ⟨.hbm, 884, rfl⟩
abbrev main_v633 : Ref sig .tc := ⟨.hbm, 885, rfl⟩
abbrev main_v634 : Ref sig .tc := ⟨.hbm, 886, rfl⟩
abbrev main_v635 : Ref sig .tc := ⟨.hbm, 887, rfl⟩
abbrev main_v636 : Ref sig .tc := ⟨.hbm, 888, rfl⟩
abbrev main_v637 : Ref sig .tc := ⟨.hbm, 889, rfl⟩
abbrev main_v638 : Ref sig .tc := ⟨.hbm, 890, rfl⟩
abbrev main_v639 : Ref sig .tc := ⟨.hbm, 891, rfl⟩
abbrev main_v640 : Ref sig .tc := ⟨.hbm, 892, rfl⟩
abbrev main_v641 : Ref sig .tc := ⟨.hbm, 893, rfl⟩
abbrev main_v642 : Ref sig .tc := ⟨.hbm, 894, rfl⟩
abbrev main_cst_173 : Ref sig .tc := ⟨.hbm, 895, rfl⟩
abbrev main_v643 : Ref sig .tc := ⟨.hbm, 896, rfl⟩
abbrev main_v644 : Ref sig .tc := ⟨.hbm, 897, rfl⟩
abbrev main_cst_174 : Ref sig .tc := ⟨.hbm, 898, rfl⟩
abbrev main_v645 : Ref sig .tc := ⟨.hbm, 899, rfl⟩
abbrev main_v646 : Ref sig .tc := ⟨.hbm, 900, rfl⟩
abbrev main_cst_175 : Ref sig .tc := ⟨.hbm, 901, rfl⟩
abbrev main_v647 : Ref sig .tc := ⟨.hbm, 902, rfl⟩
abbrev main_v648 : Ref sig .tc := ⟨.hbm, 903, rfl⟩
abbrev main_v649 : Ref sig .tc := ⟨.hbm, 904, rfl⟩
abbrev main_v650 : Ref sig .tc := ⟨.hbm, 905, rfl⟩
abbrev main_v651 : Ref sig .tc := ⟨.hbm, 906, rfl⟩
abbrev main_cst_176 : Ref sig .tc := ⟨.hbm, 907, rfl⟩
abbrev main_v652 : Ref sig .tc := ⟨.hbm, 908, rfl⟩
abbrev main_v653 : Ref sig .tc := ⟨.hbm, 909, rfl⟩
abbrev main_v654 : Ref sig .tc := ⟨.hbm, 910, rfl⟩
abbrev main_v655 : Ref sig .tc := ⟨.hbm, 911, rfl⟩
abbrev main_cst_177 : Ref sig .tc := ⟨.hbm, 912, rfl⟩
abbrev main_cst_178 : Ref sig .tc := ⟨.hbm, 913, rfl⟩
abbrev main_call15_v0 : Ref sig .tc := ⟨.hbm, 914, rfl⟩
abbrev main_call15_v1 : Ref sig .tc := ⟨.hbm, 915, rfl⟩
abbrev main_call15_v2 : Ref sig .tc := ⟨.hbm, 916, rfl⟩
abbrev main_call15_v3 : Ref sig .tc := ⟨.hbm, 917, rfl⟩
abbrev main_call15_v4 : Ref sig .tc := ⟨.hbm, 918, rfl⟩
abbrev main_v656 : Ref sig .tc := ⟨.hbm, 919, rfl⟩
abbrev main_cst_179 : Ref sig .tc := ⟨.hbm, 920, rfl⟩
abbrev main_v657 : Ref sig .tc := ⟨.hbm, 921, rfl⟩
abbrev main_v658 : Ref sig .tc := ⟨.hbm, 922, rfl⟩
abbrev main_v659 : Ref sig .tc := ⟨.hbm, 923, rfl⟩
abbrev main_v660 : Ref sig .tc := ⟨.hbm, 924, rfl⟩
abbrev main_cst_180 : Ref sig .tc := ⟨.hbm, 925, rfl⟩
abbrev main_cst_181 : Ref sig .tc := ⟨.hbm, 926, rfl⟩
abbrev main_call16_v0 : Ref sig .tc := ⟨.hbm, 927, rfl⟩
abbrev main_call16_v1 : Ref sig .tc := ⟨.hbm, 928, rfl⟩
abbrev main_call16_v2 : Ref sig .tc := ⟨.hbm, 929, rfl⟩
abbrev main_call16_v3 : Ref sig .tc := ⟨.hbm, 930, rfl⟩
abbrev main_call16_v4 : Ref sig .tc := ⟨.hbm, 931, rfl⟩
abbrev main_v661 : Ref sig .tc := ⟨.hbm, 932, rfl⟩
abbrev main_cst_182 : Ref sig .tc := ⟨.hbm, 933, rfl⟩
abbrev main_v662 : Ref sig .tc := ⟨.hbm, 934, rfl⟩
abbrev main_v663 : Ref sig .tc := ⟨.hbm, 935, rfl⟩
abbrev main_v664 : Ref sig .tc := ⟨.hbm, 936, rfl⟩
abbrev main_v665 : Ref sig .tc := ⟨.hbm, 937, rfl⟩
abbrev main_v666 : Ref sig .tc := ⟨.hbm, 938, rfl⟩
abbrev main_v667 : Ref sig .tc := ⟨.hbm, 939, rfl⟩
abbrev main_v668 : Ref sig .tc := ⟨.hbm, 940, rfl⟩
abbrev main_v669 : Ref sig .tc := ⟨.hbm, 941, rfl⟩
abbrev main_v670 : Ref sig .tc := ⟨.hbm, 942, rfl⟩
abbrev main_v671 : Ref sig .tc := ⟨.hbm, 943, rfl⟩
abbrev main_c_183 : Ref sig .tc := ⟨.hbm, 944, rfl⟩
abbrev main_v672 : Ref sig .tc := ⟨.hbm, 945, rfl⟩
abbrev main_v673 : Ref sig .tc := ⟨.hbm, 946, rfl⟩
abbrev main_c_184 : Ref sig .tc := ⟨.hbm, 947, rfl⟩
abbrev main_v674 : Ref sig .tc := ⟨.hbm, 948, rfl⟩
abbrev main_v675 : Ref sig .tc := ⟨.hbm, 949, rfl⟩
abbrev main_c_185 : Ref sig .tc := ⟨.hbm, 950, rfl⟩
abbrev main_v676 : Ref sig .tc := ⟨.hbm, 951, rfl⟩
abbrev main_v677 : Ref sig .tc := ⟨.hbm, 952, rfl⟩
abbrev main_c_186 : Ref sig .tc := ⟨.hbm, 953, rfl⟩
abbrev main_v678 : Ref sig .tc := ⟨.hbm, 954, rfl⟩
abbrev main_v679 : Ref sig .tc := ⟨.hbm, 955, rfl⟩
abbrev main_c_187 : Ref sig .tc := ⟨.hbm, 956, rfl⟩
abbrev main_v680 : Ref sig .tc := ⟨.hbm, 957, rfl⟩
abbrev main_v681 : Ref sig .tc := ⟨.hbm, 958, rfl⟩
abbrev main_c_188 : Ref sig .tc := ⟨.hbm, 959, rfl⟩
abbrev main_v682 : Ref sig .tc := ⟨.hbm, 960, rfl⟩
abbrev main_v683 : Ref sig .tc := ⟨.hbm, 961, rfl⟩
abbrev main_v684 : Ref sig .tc := ⟨.hbm, 962, rfl⟩
abbrev main_c_189 : Ref sig .tc := ⟨.hbm, 963, rfl⟩
abbrev main_v685 : Ref sig .tc := ⟨.hbm, 964, rfl⟩
abbrev main_v686 : Ref sig .tc := ⟨.hbm, 965, rfl⟩
abbrev main_c_190 : Ref sig .tc := ⟨.hbm, 966, rfl⟩
abbrev main_v687 : Ref sig .tc := ⟨.hbm, 967, rfl⟩
abbrev main_v688 : Ref sig .tc := ⟨.hbm, 968, rfl⟩
abbrev main_v689 : Ref sig .tc := ⟨.hbm, 969, rfl⟩
abbrev main_v690 : Ref sig .tc := ⟨.hbm, 970, rfl⟩
abbrev main_v691 : Ref sig .tc := ⟨.hbm, 971, rfl⟩
abbrev main_v692 : Ref sig .tc := ⟨.hbm, 972, rfl⟩
abbrev main_v693 : Ref sig .tc := ⟨.hbm, 973, rfl⟩
abbrev main_cst_191 : Ref sig .tc := ⟨.hbm, 974, rfl⟩
abbrev main_v694 : Ref sig .tc := ⟨.hbm, 975, rfl⟩
abbrev main_v695 : Ref sig .tc := ⟨.hbm, 976, rfl⟩
abbrev main_v696 : Ref sig .tc := ⟨.hbm, 977, rfl⟩
abbrev main_v697 : Ref sig .tc := ⟨.hbm, 978, rfl⟩
abbrev main_cst_192 : Ref sig .tc := ⟨.hbm, 979, rfl⟩
abbrev main_v698 : Ref sig .tc := ⟨.hbm, 980, rfl⟩
abbrev main_v699 : Ref sig .tc := ⟨.hbm, 981, rfl⟩
abbrev main_v700 : Ref sig .tc := ⟨.hbm, 982, rfl⟩
abbrev main_v701 : Ref sig .tc := ⟨.hbm, 983, rfl⟩
abbrev main_c_193 : Ref sig .tc := ⟨.hbm, 984, rfl⟩
abbrev main_v702 : Ref sig .tc := ⟨.hbm, 985, rfl⟩
abbrev main_v703 : Ref sig .tc := ⟨.hbm, 986, rfl⟩
abbrev main_c_194 : Ref sig .tc := ⟨.hbm, 987, rfl⟩
abbrev main_v704 : Ref sig .tc := ⟨.hbm, 988, rfl⟩
abbrev main_v705 : Ref sig .tc := ⟨.hbm, 989, rfl⟩
abbrev main_v706 : Ref sig .tc := ⟨.hbm, 990, rfl⟩
abbrev main_c_195 : Ref sig .tc := ⟨.hbm, 991, rfl⟩
abbrev main_v707 : Ref sig .tc := ⟨.hbm, 992, rfl⟩
abbrev main_v708 : Ref sig .tc := ⟨.hbm, 993, rfl⟩
abbrev main_c_196 : Ref sig .tc := ⟨.hbm, 994, rfl⟩
abbrev main_v709 : Ref sig .tc := ⟨.hbm, 995, rfl⟩
abbrev main_v710 : Ref sig .tc := ⟨.hbm, 996, rfl⟩
abbrev main_v711 : Ref sig .tc := ⟨.hbm, 997, rfl⟩
abbrev main_v712 : Ref sig .tc := ⟨.hbm, 998, rfl⟩
abbrev main_v713 : Ref sig .tc := ⟨.hbm, 999, rfl⟩
abbrev main_v714 : Ref sig .tc := ⟨.hbm, 1000, rfl⟩
abbrev main_v715 : Ref sig .tc := ⟨.hbm, 1001, rfl⟩
abbrev main_v716 : Ref sig .tc := ⟨.hbm, 1002, rfl⟩
abbrev main_v717 : Ref sig .tc := ⟨.hbm, 1003, rfl⟩
abbrev main_cst_197 : Ref sig .tc := ⟨.hbm, 1004, rfl⟩
abbrev main_v718 : Ref sig .tc := ⟨.hbm, 1005, rfl⟩
abbrev main_v719 : Ref sig .tc := ⟨.hbm, 1006, rfl⟩
abbrev main_v720 : Ref sig .tc := ⟨.hbm, 1007, rfl⟩
abbrev main_v721 : Ref sig .tc := ⟨.hbm, 1008, rfl⟩
abbrev main_v722 : Ref sig .tc := ⟨.hbm, 1009, rfl⟩
abbrev main_c_198 : Ref sig .tc := ⟨.hbm, 1010, rfl⟩
abbrev main_v723 : Ref sig .tc := ⟨.hbm, 1011, rfl⟩
abbrev main_v724 : Ref sig .tc := ⟨.hbm, 1012, rfl⟩
abbrev main_c_199 : Ref sig .tc := ⟨.hbm, 1013, rfl⟩
abbrev main_v725 : Ref sig .tc := ⟨.hbm, 1014, rfl⟩
abbrev main_v726 : Ref sig .tc := ⟨.hbm, 1015, rfl⟩
abbrev main_v727 : Ref sig .tc := ⟨.hbm, 1016, rfl⟩
abbrev main_c_200 : Ref sig .tc := ⟨.hbm, 1017, rfl⟩
abbrev main_v728 : Ref sig .tc := ⟨.hbm, 1018, rfl⟩
abbrev main_v729 : Ref sig .tc := ⟨.hbm, 1019, rfl⟩
abbrev main_c_201 : Ref sig .tc := ⟨.hbm, 1020, rfl⟩
abbrev main_v730 : Ref sig .tc := ⟨.hbm, 1021, rfl⟩
abbrev main_v731 : Ref sig .tc := ⟨.hbm, 1022, rfl⟩
abbrev main_v732 : Ref sig .tc := ⟨.hbm, 1023, rfl⟩
abbrev main_v733 : Ref sig .tc := ⟨.hbm, 1024, rfl⟩
abbrev main_v734 : Ref sig .tc := ⟨.hbm, 1025, rfl⟩
abbrev main_v735 : Ref sig .tc := ⟨.hbm, 1026, rfl⟩
abbrev main_v736 : Ref sig .tc := ⟨.hbm, 1027, rfl⟩
abbrev main_cst_202 : Ref sig .tc := ⟨.hbm, 1028, rfl⟩
abbrev main_v737 : Ref sig .tc := ⟨.hbm, 1029, rfl⟩
abbrev main_v738 : Ref sig .tc := ⟨.hbm, 1030, rfl⟩
abbrev main_v739 : Ref sig .tc := ⟨.hbm, 1031, rfl⟩
abbrev main_v740 : Ref sig .tc := ⟨.hbm, 1032, rfl⟩
abbrev main_v741 : Ref sig .tc := ⟨.hbm, 1033, rfl⟩
abbrev main_v742 : Ref sig .tc := ⟨.hbm, 1034, rfl⟩
abbrev main_v743 : Ref sig .tc := ⟨.hbm, 1035, rfl⟩
abbrev main_c_203 : Ref sig .tc := ⟨.hbm, 1036, rfl⟩
abbrev main_v744 : Ref sig .tc := ⟨.hbm, 1037, rfl⟩
abbrev main_v745 : Ref sig .tc := ⟨.hbm, 1038, rfl⟩
abbrev main_c_204 : Ref sig .tc := ⟨.hbm, 1039, rfl⟩
abbrev main_v746 : Ref sig .tc := ⟨.hbm, 1040, rfl⟩
abbrev main_v747 : Ref sig .tc := ⟨.hbm, 1041, rfl⟩
abbrev main_v748 : Ref sig .tc := ⟨.hbm, 1042, rfl⟩
abbrev main_c_205 : Ref sig .tc := ⟨.hbm, 1043, rfl⟩
abbrev main_v749 : Ref sig .tc := ⟨.hbm, 1044, rfl⟩
abbrev main_v750 : Ref sig .tc := ⟨.hbm, 1045, rfl⟩
abbrev main_c_206 : Ref sig .tc := ⟨.hbm, 1046, rfl⟩
abbrev main_v751 : Ref sig .tc := ⟨.hbm, 1047, rfl⟩
abbrev main_v752 : Ref sig .tc := ⟨.hbm, 1048, rfl⟩
abbrev main_v753 : Ref sig .tc := ⟨.hbm, 1049, rfl⟩
abbrev main_v754 : Ref sig .tc := ⟨.hbm, 1050, rfl⟩
abbrev main_v755 : Ref sig .tc := ⟨.hbm, 1051, rfl⟩
abbrev main_v756 : Ref sig .tc := ⟨.hbm, 1052, rfl⟩
abbrev main_v757 : Ref sig .tc := ⟨.hbm, 1053, rfl⟩
abbrev main_v758 : Ref sig .tc := ⟨.hbm, 1054, rfl⟩
abbrev main_v759 : Ref sig .tc := ⟨.hbm, 1055, rfl⟩
abbrev main_v760 : Ref sig .tc := ⟨.hbm, 1056, rfl⟩
abbrev main_v761 : Ref sig .tc := ⟨.hbm, 1057, rfl⟩
abbrev main_v762 : Ref sig .tc := ⟨.hbm, 1058, rfl⟩
abbrev main_v763 : Ref sig .tc := ⟨.hbm, 1059, rfl⟩
abbrev main_v764 : Ref sig .tc := ⟨.hbm, 1060, rfl⟩
abbrev main_v765 : Ref sig .tc := ⟨.hbm, 1061, rfl⟩
abbrev main_v766 : Ref sig .tc := ⟨.hbm, 1062, rfl⟩
abbrev main_v767 : Ref sig .tc := ⟨.hbm, 1063, rfl⟩
abbrev main_v768 : Ref sig .tc := ⟨.hbm, 1064, rfl⟩
abbrev main_v769 : Ref sig .tc := ⟨.hbm, 1065, rfl⟩
abbrev main_v770 : Ref sig .tc := ⟨.hbm, 1066, rfl⟩
abbrev main_v771 : Ref sig .tc := ⟨.hbm, 1067, rfl⟩
abbrev main_v772 : Ref sig .tc := ⟨.hbm, 1068, rfl⟩
abbrev main_v773 : Ref sig .tc := ⟨.hbm, 1069, rfl⟩
abbrev main_v774 : Ref sig .tc := ⟨.hbm, 1070, rfl⟩
abbrev main_v775 : Ref sig .tc := ⟨.hbm, 1071, rfl⟩
abbrev main_v776 : Ref sig .tc := ⟨.hbm, 1072, rfl⟩
abbrev main_v777 : Ref sig .tc := ⟨.hbm, 1073, rfl⟩
abbrev main_v778 : Ref sig .tc := ⟨.hbm, 1074, rfl⟩
abbrev main_v779 : Ref sig .tc := ⟨.hbm, 1075, rfl⟩
abbrev main_v780 : Ref sig .tc := ⟨.hbm, 1076, rfl⟩
abbrev main_v781 : Ref sig .tc := ⟨.hbm, 1077, rfl⟩
abbrev main_v782 : Ref sig .tc := ⟨.hbm, 1078, rfl⟩
abbrev main_cst_207 : Ref sig .tc := ⟨.hbm, 1079, rfl⟩
abbrev main_v783 : Ref sig .tc := ⟨.hbm, 1080, rfl⟩
abbrev main_v784 : Ref sig .tc := ⟨.hbm, 1081, rfl⟩
abbrev main_v785 : Ref sig .tc := ⟨.hbm, 1082, rfl⟩
abbrev main_v786 : Ref sig .tc := ⟨.hbm, 1083, rfl⟩
abbrev main_v787 : Ref sig .tc := ⟨.hbm, 1084, rfl⟩
abbrev main_v788 : Ref sig .tc := ⟨.hbm, 1085, rfl⟩
abbrev main_v789 : Ref sig .tc := ⟨.hbm, 1086, rfl⟩
abbrev main_v790 : Ref sig .tc := ⟨.hbm, 1087, rfl⟩
abbrev main_v791 : Ref sig .tc := ⟨.hbm, 1088, rfl⟩
abbrev main_v792 : Ref sig .tc := ⟨.hbm, 1089, rfl⟩
abbrev main_v793 : Ref sig .tc := ⟨.hbm, 1090, rfl⟩
abbrev main_v794 : Ref sig .tc := ⟨.hbm, 1091, rfl⟩
abbrev main_v795 : Ref sig .tc := ⟨.hbm, 1092, rfl⟩
abbrev main_v796 : Ref sig .tc := ⟨.hbm, 1093, rfl⟩
abbrev main_v797 : Ref sig .tc := ⟨.hbm, 1094, rfl⟩
abbrev main_v798 : Ref sig .tc := ⟨.hbm, 1095, rfl⟩
abbrev main_v799 : Ref sig .tc := ⟨.hbm, 1096, rfl⟩
abbrev main_v800 : Ref sig .tc := ⟨.hbm, 1097, rfl⟩
abbrev main_v801 : Ref sig .tc := ⟨.hbm, 1098, rfl⟩
abbrev main_v802 : Ref sig .tc := ⟨.hbm, 1099, rfl⟩
abbrev main_v803 : Ref sig .tc := ⟨.hbm, 1100, rfl⟩
abbrev main_v804 : Ref sig .tc := ⟨.hbm, 1101, rfl⟩
abbrev main_v805 : Ref sig .tc := ⟨.hbm, 1102, rfl⟩
abbrev main_v806 : Ref sig .tc := ⟨.hbm, 1103, rfl⟩
abbrev main_cst_208 : Ref sig .tc := ⟨.hbm, 1104, rfl⟩
abbrev main_v807 : Ref sig .tc := ⟨.hbm, 1105, rfl⟩
abbrev main_v808 : Ref sig .tc := ⟨.hbm, 1106, rfl⟩
abbrev main_v809 : Ref sig .tc := ⟨.hbm, 1107, rfl⟩
abbrev main_v810 : Ref sig .tc := ⟨.hbm, 1108, rfl⟩
abbrev main_v811 : Ref sig .tc := ⟨.hbm, 1109, rfl⟩
abbrev main_v812 : Ref sig .tc := ⟨.hbm, 1110, rfl⟩
abbrev main_v813 : Ref sig .tc := ⟨.hbm, 1111, rfl⟩
abbrev main_v814 : Ref sig .tc := ⟨.hbm, 1112, rfl⟩
abbrev main_v815 : Ref sig .tc := ⟨.hbm, 1113, rfl⟩
abbrev main_v816 : Ref sig .tc := ⟨.hbm, 1114, rfl⟩
abbrev main_v817 : Ref sig .tc := ⟨.hbm, 1115, rfl⟩
abbrev main_v818 : Ref sig .tc := ⟨.hbm, 1116, rfl⟩
abbrev main_v819 : Ref sig .tc := ⟨.hbm, 1117, rfl⟩
abbrev main_v820 : Ref sig .tc := ⟨.hbm, 1118, rfl⟩
abbrev main_v821 : Ref sig .tc := ⟨.hbm, 1119, rfl⟩
abbrev main_v822 : Ref sig .tc := ⟨.hbm, 1120, rfl⟩
abbrev main_v823 : Ref sig .tc := ⟨.hbm, 1121, rfl⟩
abbrev main_v824 : Ref sig .tc := ⟨.hbm, 1122, rfl⟩
abbrev main_v825 : Ref sig .tc := ⟨.hbm, 1123, rfl⟩
abbrev main_v826 : Ref sig .tc := ⟨.hbm, 1124, rfl⟩
abbrev main_v827 : Ref sig .tc := ⟨.hbm, 1125, rfl⟩
abbrev main_v828 : Ref sig .tc := ⟨.hbm, 1126, rfl⟩
abbrev main_v829 : Ref sig .tc := ⟨.hbm, 1127, rfl⟩
abbrev main_v830 : Ref sig .tc := ⟨.hbm, 1128, rfl⟩
abbrev main_v831 : Ref sig .tc := ⟨.hbm, 1129, rfl⟩
abbrev main_v832 : Ref sig .tc := ⟨.hbm, 1130, rfl⟩
abbrev main_v833 : Ref sig .tc := ⟨.hbm, 1131, rfl⟩

abbrev nD : Nat := 1
abbrev τ : Topo := Topo.v7x

variable {F : FTy → Type} [FloatOps F]

class Facts₀ : Prop where
  slices_S2097152x2_S2097152x1_0_0 : S2097152x2.Slices ![0, 0] S2097152x1
  shapeCasts_S2097152x1_S2097152 : S2097152x1.ShapeCasts S2097152
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bcast_S_S2048x2048x2 : S_.BroadcastsInDim S2048x2048x2 (![] : Fin 0 → Fin S2048x2048x2.rank)
  bcast_S_S2097152 : S_.BroadcastsInDim S2097152 (![] : Fin 0 → Fin S2097152.rank)
  slices_S2097152x2_S2097152x1_0_1 : S2097152x2.Slices ![0, 1] S2097152x1
  bcast_S_S2048x1 : S_.BroadcastsInDim S2048x1 (![] : Fin 0 → Fin S2048x1.rank)
  bcast_S_S64x64x3 : S_.BroadcastsInDim S64x64x3 (![] : Fin 0 → Fin S64x64x3.rank)
  bcast_S_S2097152x1 : S_.BroadcastsInDim S2097152x1 (![] : Fin 0 → Fin S2097152x1.rank)
  bcast_S2097152x1_S2097152x3_0_1 : S2097152x1.BroadcastsInDim S2097152x3 (![0, 1] : Fin 2 → Fin S2097152x3.rank)
  bcast_S2097152x1_S2097152x2_0_1 : S2097152x1.BroadcastsInDim S2097152x2 (![0, 1] : Fin 2 → Fin S2097152x2.rank)
  bcast_S_S32x32x1 : S_.BroadcastsInDim S32x32x1 (![] : Fin 0 → Fin S32x32x1.rank)
  bcast_S_S32x32x4 : S_.BroadcastsInDim S32x32x4 (![] : Fin 0 → Fin S32x32x4.rank)
  bcast_S2097152x1_S2097152x4_0_1 : S2097152x1.BroadcastsInDim S2097152x4 (![0, 1] : Fin 2 → Fin S2097152x4.rank)
  slices_S2097152x3_S2097152x1_0_0 : S2097152x3.Slices ![0, 0] S2097152x1
  slices_S2097152x3_S2097152x1_0_1 : S2097152x3.Slices ![0, 1] S2097152x1
  slices_S2097152x3_S2097152x1_0_2 : S2097152x3.Slices ![0, 2] S2097152x1
  slices_S2097152x4_S2097152x1_0_1 : S2097152x4.Slices ![0, 1] S2097152x1
  slices_S2097152x4_S2097152x1_0_2 : S2097152x4.Slices ![0, 2] S2097152x1
  slices_S2097152x4_S2097152x1_0_3 : S2097152x4.Slices ![0, 3] S2097152x1
  slices_S2097152x4_S2097152x1_0_0 : S2097152x4.Slices ![0, 0] S2097152x1
  gather_S2048x2048x2_S2097152x2_S2097152x2_1_01_n_n_01_1_112_wf : GatherDims.WF S2048x2048x2 S2097152x2 S2097152x2 [1] [0, 1] [] [0, 1] [] 1 ![1, 1, 2]
  gather_S2048x1_S2097152x1_S2097152x1_1_0_n_n_0_1_11_wf : GatherDims.WF S2048x1 S2097152x1 S2097152x1 [1] [0] [] [0] [] 1 ![1, 1]
  gather_S64x64x3_S2097152x2_S2097152x3_1_01_n_n_01_1_113_wf : GatherDims.WF S64x64x3 S2097152x2 S2097152x3 [1] [0, 1] [] [0, 1] [] 1 ![1, 1, 3]
  gather_S48x48x3_S2097152x2_S2097152x3_1_01_n_n_01_1_113_wf : GatherDims.WF S48x48x3 S2097152x2 S2097152x3 [1] [0, 1] [] [0, 1] [] 1 ![1, 1, 3]
  gather_S96x2_S2097152x1_S2097152x2_1_0_n_n_0_1_12_wf : GatherDims.WF S96x2 S2097152x1 S2097152x2 [1] [0] [] [0] [] 1 ![1, 2]
  gather_S32x32x1_S2097152x2_S2097152x1_1_01_n_n_01_1_111_wf : GatherDims.WF S32x32x1 S2097152x2 S2097152x1 [1] [0, 1] [] [0, 1] [] 1 ![1, 1, 1]
  gather_S32x32x4_S2097152x2_S2097152x4_1_01_n_n_01_1_114_wf : GatherDims.WF S32x32x4 S2097152x2 S2097152x4 [1] [0, 1] [] [0, 1] [] 1 ![1, 1, 4]

variable [Facts₀]

def gather_S2048x2048x2_S2097152x2_S2097152x2_1_01_n_n_01_1_112 : GatherDims S2048x2048x2 S2097152x2 S2097152x2 where
  offsetDims := [1]
  collapsedSliceDims := [0, 1]
  operandBatchingDims := []
  startIndicesBatchingDims := []
  startIndexMap := [0, 1]
  indexVectorDim := 1
  sliceSizes := ![1, 1, 2]
  wf := gather_S2048x2048x2_S2097152x2_S2097152x2_1_01_n_n_01_1_112_wf
def gather_S2048x1_S2097152x1_S2097152x1_1_0_n_n_0_1_11 : GatherDims S2048x1 S2097152x1 S2097152x1 where
  offsetDims := [1]
  collapsedSliceDims := [0]
  operandBatchingDims := []
  startIndicesBatchingDims := []
  startIndexMap := [0]
  indexVectorDim := 1
  sliceSizes := ![1, 1]
  wf := gather_S2048x1_S2097152x1_S2097152x1_1_0_n_n_0_1_11_wf
def gather_S64x64x3_S2097152x2_S2097152x3_1_01_n_n_01_1_113 : GatherDims S64x64x3 S2097152x2 S2097152x3 where
  offsetDims := [1]
  collapsedSliceDims := [0, 1]
  operandBatchingDims := []
  startIndicesBatchingDims := []
  startIndexMap := [0, 1]
  indexVectorDim := 1
  sliceSizes := ![1, 1, 3]
  wf := gather_S64x64x3_S2097152x2_S2097152x3_1_01_n_n_01_1_113_wf
def gather_S48x48x3_S2097152x2_S2097152x3_1_01_n_n_01_1_113 : GatherDims S48x48x3 S2097152x2 S2097152x3 where
  offsetDims := [1]
  collapsedSliceDims := [0, 1]
  operandBatchingDims := []
  startIndicesBatchingDims := []
  startIndexMap := [0, 1]
  indexVectorDim := 1
  sliceSizes := ![1, 1, 3]
  wf := gather_S48x48x3_S2097152x2_S2097152x3_1_01_n_n_01_1_113_wf
def gather_S96x2_S2097152x1_S2097152x2_1_0_n_n_0_1_12 : GatherDims S96x2 S2097152x1 S2097152x2 where
  offsetDims := [1]
  collapsedSliceDims := [0]
  operandBatchingDims := []
  startIndicesBatchingDims := []
  startIndexMap := [0]
  indexVectorDim := 1
  sliceSizes := ![1, 2]
  wf := gather_S96x2_S2097152x1_S2097152x2_1_0_n_n_0_1_12_wf
def gather_S32x32x1_S2097152x2_S2097152x1_1_01_n_n_01_1_111 : GatherDims S32x32x1 S2097152x2 S2097152x1 where
  offsetDims := [1]
  collapsedSliceDims := [0, 1]
  operandBatchingDims := []
  startIndicesBatchingDims := []
  startIndexMap := [0, 1]
  indexVectorDim := 1
  sliceSizes := ![1, 1, 1]
  wf := gather_S32x32x1_S2097152x2_S2097152x1_1_01_n_n_01_1_111_wf
def gather_S32x32x4_S2097152x2_S2097152x4_1_01_n_n_01_1_114 : GatherDims S32x32x4 S2097152x2 S2097152x4 where
  offsetDims := [1]
  collapsedSliceDims := [0, 1]
  operandBatchingDims := []
  startIndicesBatchingDims := []
  startIndexMap := [0, 1]
  indexVectorDim := 1
  sliceSizes := ![1, 1, 4]
  wf := gather_S32x32x4_S2097152x2_S2097152x4_1_01_n_n_01_1_114_wf

class Facts : Prop extends Facts₀ where

variable [Facts]
-- ==== Proof.FrameB.lean ====
import proofs.«151772_j21234318312201_1_alg».proof.Proof.Gen.Kernel.Launch
import proofs.«151772_j21234318312201_1_alg».proof.Proof.Gen.Kernel.Skeleton
import proofs.«151772_j21234318312201_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of `Kernel`

`@main` is thirty-five stretches of host operations, one pipelined region of 128 grid points, and one last host
stretch (a transpose of the region's result). This module proves that every weakly fair execution of `@main`
terminates without fault, that the region's two arrays end at what the pipeline computes from the body's
per-point effect, and that every other unscoped buffer ends as the last stretch leaves it; read at the seventeen
argument arrays, which no operation of `@main` writes, that is the frame claim.

The body at a grid point loads its whole input block `x0` (29 × 16384), loads its output block once (a value it
never uses) and stores the whole output block (2 × 16384) with `outBlk x0`; so after the body the output window's
buffer holds `out0_1 x0`, whatever it held before.
-/

-- membership in a rectangle of these extents and the long literal lists of host operations recurse once per
-- coordinate, respectively once per operation
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `@main` around the region -/

/-- The host stretches of `@main` before the region, in program order. -/
abbrev preLists : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20, hostOps0_21, hostOps0_22, hostOps0_23, hostOps0_24, hostOps0_25, hostOps0_26, hostOps0_27,
   hostOps0_28, hostOps0_29, hostOps0_30, hostOps0_31, hostOps0_32, hostOps0_33, hostOps0_34]

/-- Core `c`'s TensorCore buffer contents when the region is entered, as a valuation: the launch contents `m`
    rewritten by every host operation before the region, in order. -/
abbrev V0 (c : Dev nD) : Valuation τ sig (Elt F) := StableHlo.after (List.flatten preLists) (fun b => m (c, b))
/-- The same read at a TensorCore reference. -/
abbrev V (c : Dev nD) (b : Ref sig .tc) : Buf (Elt F) ((c : Thread nD τ).loc b) := V0 m c (Proc.devRef .tc b)

/-! ## The host stretches allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- `@main` around the region, at any variants `𝒱₀`: the host stretches before it, the region, the host stretch after
    it. `@main` is the chain of exactly these items (`main_chain`), each earlier stretch touches TensorCore references
    only and allocates nothing; so `@main` reduces to the region entered at contents `V` and continued by the last
    stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preLists [hostOps1]
    ⟨hostOps0_sub, hostOps0_1_sub, hostOps0_2_sub, hostOps0_3_sub, hostOps0_4_sub, hostOps0_5_sub, hostOps0_6_sub,
     hostOps0_7_sub, hostOps0_8_sub, hostOps0_9_sub, hostOps0_10_sub, hostOps0_11_sub, hostOps0_12_sub, hostOps0_13_sub,
     hostOps0_14_sub, hostOps0_15_sub, hostOps0_16_sub, hostOps0_17_sub, hostOps0_18_sub, hostOps0_19_sub, hostOps0_20_sub,
     hostOps0_21_sub, hostOps0_22_sub, hostOps0_23_sub, hostOps0_24_sub, hostOps0_25_sub, hostOps0_26_sub, hostOps0_27_sub,
     hostOps0_28_sub, hostOps0_29_sub, hostOps0_30_sub, hostOps0_31_sub, hostOps0_32_sub, hostOps0_33_sub, hostOps0_34_sub⟩
    ⟨hostOps0_fresh, hostOps0_1_fresh, hostOps0_2_fresh, hostOps0_3_fresh, hostOps0_4_fresh, hostOps0_5_fresh, hostOps0_6_fresh,
     hostOps0_7_fresh, hostOps0_8_fresh, hostOps0_9_fresh, hostOps0_10_fresh, hostOps0_11_fresh, hostOps0_12_fresh, hostOps0_13_fresh,
     hostOps0_14_fresh, hostOps0_15_fresh, hostOps0_16_fresh, hostOps0_17_fresh, hostOps0_18_fresh, hostOps0_19_fresh, hostOps0_20_fresh,
     hostOps0_21_fresh, hostOps0_22_fresh, hostOps0_23_fresh, hostOps0_24_fresh, hostOps0_25_fresh, hostOps0_26_fresh, hostOps0_27_fresh,
     hostOps0_28_fresh, hostOps0_29_fresh, hostOps0_30_fresh, hostOps0_31_fresh, hostOps0_32_fresh, hostOps0_33_fresh, hostOps0_34_fresh⟩
    main_chain

/-! ## No host operation writes an argument array -/

/-- The argument arrays of `@main`. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- A write set of one buffer misses every argument array when that buffer is none of them (distinct references
    are distinct device buffers). -/
theorem args_not_mem_single {y : Ref sig .tc} (hy : y ∉ argRefs) :
    ∀ r ∈ argRefs, Proc.devRef (τ := τ) .tc r ∉ ({Proc.devRef .tc y} : Finset (DevRef τ sig)) := by
  intro r hr h
  rw [Finset.mem_singleton] at h
  exact hy (Proc.devRef_injective _ h ▸ hr)

/-- No operation of the stretch writes an argument array. -/
abbrev KeepsArgs (ops : List (HloOp τ sig (Elt F))) : Prop :=
  ops.Forall fun op => ∀ r ∈ argRefs, Proc.devRef (τ := τ) .tc r ∉ op.writes

/- Stretch by stretch: every operation writes exactly its result buffer, a value buffer of `@main` or of a called
   function, and that reference is none of the seventeen (decided on the references). -/
set_option maxHeartbeats 1000000 in
theorem keepsArgs0 : KeepsArgs (F := F) hostOps0 := by
  simp only [KeepsArgs, hostOps0, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs1 : KeepsArgs (F := F) hostOps0_1 := by
  simp only [KeepsArgs, hostOps0_1, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs2 : KeepsArgs (F := F) hostOps0_2 := by
  simp only [KeepsArgs, hostOps0_2, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs3 : KeepsArgs (F := F) hostOps0_3 := by
  simp only [KeepsArgs, hostOps0_3, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs4 : KeepsArgs (F := F) hostOps0_4 := by
  simp only [KeepsArgs, hostOps0_4, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs5 : KeepsArgs (F := F) hostOps0_5 := by
  simp only [KeepsArgs, hostOps0_5, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs6 : KeepsArgs (F := F) hostOps0_6 := by
  simp only [KeepsArgs, hostOps0_6, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs7 : KeepsArgs (F := F) hostOps0_7 := by
  simp only [KeepsArgs, hostOps0_7, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs8 : KeepsArgs (F := F) hostOps0_8 := by
  simp only [KeepsArgs, hostOps0_8, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs9 : KeepsArgs (F := F) hostOps0_9 := by
  simp only [KeepsArgs, hostOps0_9, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs10 : KeepsArgs (F := F) hostOps0_10 := by
  simp only [KeepsArgs, hostOps0_10, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs11 : KeepsArgs (F := F) hostOps0_11 := by
  simp only [KeepsArgs, hostOps0_11, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs12 : KeepsArgs (F := F) hostOps0_12 := by
  simp only [KeepsArgs, hostOps0_12, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs13 : KeepsArgs (F := F) hostOps0_13 := by
  simp only [KeepsArgs, hostOps0_13, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs14 : KeepsArgs (F := F) hostOps0_14 := by
  simp only [KeepsArgs, hostOps0_14, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs15 : KeepsArgs (F := F) hostOps0_15 := by
  simp only [KeepsArgs, hostOps0_15, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs16 : KeepsArgs (F := F) hostOps0_16 := by
  simp only [KeepsArgs, hostOps0_16, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs17 : KeepsArgs (F := F) hostOps0_17 := by
  simp only [KeepsArgs, hostOps0_17, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs18 : KeepsArgs (F := F) hostOps0_18 := by
  simp only [KeepsArgs, hostOps0_18, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs19 : KeepsArgs (F := F) hostOps0_19 := by
  simp only [KeepsArgs, hostOps0_19, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs20 : KeepsArgs (F := F) hostOps0_20 := by
  simp only [KeepsArgs, hostOps0_20, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs21 : KeepsArgs (F := F) hostOps0_21 := by
  simp only [KeepsArgs, hostOps0_21, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs22 : KeepsArgs (F := F) hostOps0_22 := by
  simp only [KeepsArgs, hostOps0_22, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs23 : KeepsArgs (F := F) hostOps0_23 := by
  simp only [KeepsArgs, hostOps0_23, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs24 : KeepsArgs (F := F) hostOps0_24 := by
  simp only [KeepsArgs, hostOps0_24, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs25 : KeepsArgs (F := F) hostOps0_25 := by
  simp only [KeepsArgs, hostOps0_25, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs26 : KeepsArgs (F := F) hostOps0_26 := by
  simp only [KeepsArgs, hostOps0_26, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs27 : KeepsArgs (F := F) hostOps0_27 := by
  simp only [KeepsArgs, hostOps0_27, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs28 : KeepsArgs (F := F) hostOps0_28 := by
  simp only [KeepsArgs, hostOps0_28, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs29 : KeepsArgs (F := F) hostOps0_29 := by
  simp only [KeepsArgs, hostOps0_29, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs30 : KeepsArgs (F := F) hostOps0_30 := by
  simp only [KeepsArgs, hostOps0_30, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs31 : KeepsArgs (F := F) hostOps0_31 := by
  simp only [KeepsArgs, hostOps0_31, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs32 : KeepsArgs (F := F) hostOps0_32 := by
  simp only [KeepsArgs, hostOps0_32, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs33 : KeepsArgs (F := F) hostOps0_33 := by
  simp only [KeepsArgs, hostOps0_33, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs34 : KeepsArgs (F := F) hostOps0_34 := by
  simp only [KeepsArgs, hostOps0_34, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgsPost : KeepsArgs (F := F) hostOps1 := by
  simp only [KeepsArgs, hostOps1, List.Forall, StableHlo.nullary_writes, StableHlo.unary_writes, StableHlo.binary_writes,
    StableHlo.ternary_writes, StableHlo.reshape_writes, StableHlo.nary_writes]
  repeat' apply And.intro
  all_goals exact args_not_mem_single (by decide)

/-- No operation before the region writes an argument array: an operation of the flattened prefix lies in one of the
    thirty-five stretches. -/
theorem keepsArgs_pre : ∀ op ∈ List.flatten (preLists (F := F)), ∀ r ∈ argRefs, Proc.devRef (τ := τ) .tc r ∉ op.writes := by
  intro op hop
  obtain ⟨l, hl, hopl⟩ := List.mem_flatten.mp hop
  have hall : (preLists (F := F)).Forall fun ops => KeepsArgs ops :=
    ⟨keepsArgs0, keepsArgs1, keepsArgs2, keepsArgs3, keepsArgs4, keepsArgs5, keepsArgs6, keepsArgs7, keepsArgs8, keepsArgs9,
     keepsArgs10, keepsArgs11, keepsArgs12, keepsArgs13, keepsArgs14, keepsArgs15, keepsArgs16, keepsArgs17, keepsArgs18,
     keepsArgs19, keepsArgs20, keepsArgs21, keepsArgs22, keepsArgs23, keepsArgs24, keepsArgs25, keepsArgs26, keepsArgs27,
     keepsArgs28, keepsArgs29, keepsArgs30, keepsArgs31, keepsArgs32, keepsArgs33, keepsArgs34⟩
  exact List.forall_iff_forall_mem.mp (List.forall_iff_forall_mem.mp hall l hl) op hopl

/-- Nor does the stretch after it. -/
theorem keepsArgs_post : ∀ op ∈ List.flatten [(hostOps1 : List (HloOp τ sig (Elt F)))], ∀ r ∈ argRefs,
    Proc.devRef (τ := τ) .tc r ∉ op.writes := by
  intro op hop
  obtain ⟨l, hl, hopl⟩ := List.mem_flatten.mp hop
  obtain rfl := List.mem_singleton.mp hl
  exact List.forall_iff_forall_mem.mp keepsArgsPost op hopl

/-- The region's two arrays are value buffers of `@main`, not arguments. -/
theorem arr_not_arg : ∀ w, Pipeline.arrRef spec0 w ∉ argRefs := by decide

/-- So the region finds every argument array as launched, -/
theorem V_of_arg (c : Dev nD) {r : Ref sig .tc} (hr : r ∈ argRefs) : V m c r = m ((c : Thread nD τ).loc r) :=
  StableHlo.after_of_forall_not_mem (b := Proc.devRef .tc r) _ _ fun op hop => keepsArgs_pre op hop r hr

/-- and `@main` ends with it as launched: the last stretch does not write it, and the region's exit contents differ
    from its entry contents at the two arrays only. -/
theorem W_of_arg (dats : (p : Fin 1) → (c : Dev nD) → Dat τ (Elt F) Unit ℕ (UR sig nD τ) ℕ (cfgs p) c) (c : Dev nD)
    {r : Ref sig .tc} (hr : r ∈ argRefs) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => keepsArgs_post op hop r hr),
    Pipeline.withArrays_of_ne _ c (V0 m c) _ r (fun w h => arr_not_arg w (h ▸ hr))]
  exact V_of_arg m c hr

theorem V_main_arg0 (c : Dev nD) : V m c main_arg0 = m ((c : Thread nD τ).loc main_arg0) := V_of_arg m c (by decide)
theorem V_main_arg1 (c : Dev nD) : V m c main_arg1 = m ((c : Thread nD τ).loc main_arg1) := V_of_arg m c (by decide)
theorem V_main_arg2 (c : Dev nD) : V m c main_arg2 = m ((c : Thread nD τ).loc main_arg2) := V_of_arg m c (by decide)
theorem V_main_arg3 (c : Dev nD) : V m c main_arg3 = m ((c : Thread nD τ).loc main_arg3) := V_of_arg m c (by decide)
theorem V_main_arg4 (c : Dev nD) : V m c main_arg4 = m ((c : Thread nD τ).loc main_arg4) := V_of_arg m c (by decide)
theorem V_main_arg5 (c : Dev nD) : V m c main_arg5 = m ((c : Thread nD τ).loc main_arg5) := V_of_arg m c (by decide)
theorem V_main_arg6 (c : Dev nD) : V m c main_arg6 = m ((c : Thread nD τ).loc main_arg6) := V_of_arg m c (by decide)
theorem V_main_arg7 (c : Dev nD) : V m c main_arg7 = m ((c : Thread nD τ).loc main_arg7) := V_of_arg m c (by decide)
theorem V_main_arg8 (c : Dev nD) : V m c main_arg8 = m ((c : Thread nD τ).loc main_arg8) := V_of_arg m c (by decide)
theorem V_main_arg9 (c : Dev nD) : V m c main_arg9 = m ((c : Thread nD τ).loc main_arg9) := V_of_arg m c (by decide)
theorem V_main_arg10 (c : Dev nD) : V m c main_arg10 = m ((c : Thread nD τ).loc main_arg10) := V_of_arg m c (by decide)
theorem V_main_arg11 (c : Dev nD) : V m c main_arg11 = m ((c : Thread nD τ).loc main_arg11) := V_of_arg m c (by decide)
theorem V_main_arg12 (c : Dev nD) : V m c main_arg12 = m ((c : Thread nD τ).loc main_arg12) := V_of_arg m c (by decide)
theorem V_main_arg13 (c : Dev nD) : V m c main_arg13 = m ((c : Thread nD τ).loc main_arg13) := V_of_arg m c (by decide)
theorem V_main_arg14 (c : Dev nD) : V m c main_arg14 = m ((c : Thread nD τ).loc main_arg14) := V_of_arg m c (by decide)
theorem V_main_arg15 (c : Dev nD) : V m c main_arg15 = m ((c : Thread nD τ).loc main_arg15) := V_of_arg m c (by decide)
theorem V_main_arg16 (c : Dev nD) : V m c main_arg16 = m ((c : Thread nD τ).loc main_arg16) := V_of_arg m c (by decide)

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_of_arg m dats c (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_of_arg m dats c (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_of_arg m dats c (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_of_arg m dats c (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_of_arg m dats c (by decide)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := W_of_arg m dats c (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := W_of_arg m dats c (by decide)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := W_of_arg m dats c (by decide)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := W_of_arg m dats c (by decide)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := W_of_arg m dats c (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := W_of_arg m dats c (by decide)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := W_of_arg m dats c (by decide)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := W_of_arg m dats c (by decide)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := W_of_arg m dats c (by decide)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := W_of_arg m dats c (by decide)
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := W_of_arg m dats c (by decide)
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := W_of_arg m dats c (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof
    data whose array is `V`'s (`hA`) and whose body leaves the block in place (`hafter`): where the window was not
    fetched its block index has not moved, so the buffer still holds this point's block; the window is uncut and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The rectangle of the body's one store: the whole output block. -/
abbrev r0_1 : Rect S2x16384 := Rect.unit (s := S2x16384) ![0, 0] S2x16384.size inb_S2x16384_S2x16384_0_0

/-- The value the body stores, as one term over the input block `x0`: the two output rows, each an arithmetic
    expression (sums, products, two quotients) in rows of `x0`, concatenated along axis 0. -/
def outBlk (x0 : Vec F S29x16384 .f32) : Vec F S2x16384 .f32 :=
  k0_pay3 (k0_pay5 x0) (k0_pay9 x0) (k0_pay12 x0) (k0_pay13 x0) (k0_pay17 x0) (k0_pay18 x0) (k0_pay20 x0) (k0_pay24 x0)
    (k0_pay25 x0) (k0_pay28 x0) (k0_pay30 x0)
    (k0_pay1 (k0_pay7 x0) (k0_pay14 x0) (k0_pay15 x0) (k0_pay16 x0) (k0_pay19 x0) (k0_pay21 x0) (k0_pay22 x0) (k0_pay23 x0)
      (k0_pay26 x0) (k0_pay29 x0) (k0_pay31 x0) (k0_pay32 x0))
    (k0_pay2 (k0_pay11 x0) (k0_pay12 x0) (k0_pay13 x0) (k0_pay19 x0) (k0_pay24 x0) (k0_pay27 x0) (k0_pay29 x0) (k0_pay30 x0)
      (k0_pay33 x0) (Scalar.ofBits .f32 0x3F800000#32))

/-- The output window's staging buffer after the body, from the input block: its one store as a one-piece list. -/
def out0_1 (x0 : Vec F S29x16384 .f32) : Vec F S2x16384 .f32 :=
  View.canon [⟨r0_1, outBlk x0⟩]

/-- The one store tiles the output block (a single tile of the block's own extents), so it covers it. -/
theorem cover0_1 (p0 : Vec F S2x16384 .f32) (y : S2x16384.Idx) :
    ∃ pc ∈ ([⟨r0_1, p0⟩] : List (View.Piece (Elt F) S2x16384 .f32)), y ∈ pc.1.set :=
  View.cover_of_tiled [⟨r0_1, p0⟩] S2x16384.size (by rfl) y

/-- The rectangle of the body's one load of its input block: the whole block. -/
abbrev r0_0 : Rect S29x16384 := Rect.unit (s := S29x16384) ![0, 0] S29x16384.size inb_S29x16384_S29x16384_0_0

/-- A load through it reads the block's contents as they are: it places index `x` at `0 + 1 * x` on each axis. -/
theorem in0_ld (X : Vec F S29x16384 .f32) : View.ld X r0_0 = X := by
  funext x
  show X (r0_0.idx x) = X x
  congr 1
  funext a
  apply Fin.ext
  have h0 : ∀ b : Fin 2, (![0, 0] : Fin 2 → Nat) b = 0 := by decide
  show (![0, 0] : Fin 2 → Nat) a + 1 * (x a : Nat) = x a
  rw [h0 a]; omega

/-! ## The body's triple -/

set_option maxHeartbeats 1000000 in
/-- The kernel body on whole staging memrefs, the input's at read contents `x0` and the output's at anything, runs to
    the continuation holding the input's as it was and the output's at `out0_1 x0`. The printed body is its skeleton:
    the part that loads the input block and returns its rows' combinations, one load of the output memref whose
    value nothing reads, and one store of the whole output block; what the store leaves reads as the one-piece canon
    because the piece covers the block, and its payload is `outBlk` of the block as loaded, which is the block. -/
theorem sound_kernel (c : Dev nD) (E : Set ℕ) (i : grid0.Coords) (arg1 : Memref sig .tc .vmem S29x16384 .f32) (harg1 : arg1.IsWhole)
    (arg2 : Memref sig .tc .vmem S2x16384 .f32) (harg2 : arg2.IsWhole)
    (x0 : Vec F S29x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__compose_kernel i arg1 harg1 arg2 harg2) K := by
  simp only [cc0__compose_kernel_eq_skeleton]; unfold cc0__compose_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _)).trans ?_
  rw [← in0_ld (View.read (Elt F) arg1.view f0)]
  rfl

/-! ## The pipeline's proof data -/

/-- The proof data of the pipeline on core `c`: the arrays as the region finds them (`V`); after the body at point
    `t` the input's buffer at its block and the output's at `out0_1` of the input block; the invariant that of a body
    touching nothing but its windows (the scoped rest and the generator register, untouched); nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents: the definition projected, so that `V` (a fold over a
    thousand host operations) is never unfolded to see it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`) and the output's holds something, so
    `sound_kernel` applies; the invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The stretch after the region -/

/-- It touches the pipeline's arrays and the bypassing buffers only: its buffers are unscoped TensorCore references,
    and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

/-- And it writes no array of the pipeline: its one operation transposes the output array into a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  fin_cases w <;> simp only [StableHlo.unary_writes, Finset.mem_singleton] <;> exact StableHlo.devRef_ne_of_ne (by decide)

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of `@main`
    on the TensorCores terminates, and every final state has the pipeline's two arrays at what the pipeline computes
    from the proof data and every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

/-- The frame from a frame run: for any proof data, a run to the pipeline's frame post read at the argument arrays —
    none of them an array of the pipeline, so each is among the bypassing buffers and ends as the last stretch leaves
    it, which is as launched (`W_main_arg…`) — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c),
     ((h c).2 main_arg8 (Pipeline.mem_restRefs_of main_arg8 (by decide) (by decide))).trans (W_main_arg8 m dats c),
     ((h c).2 main_arg9 (Pipeline.mem_restRefs_of main_arg9 (by decide) (by decide))).trans (W_main_arg9 m dats c),
     ((h c).2 main_arg10 (Pipeline.mem_restRefs_of main_arg10 (by decide) (by decide))).trans (W_main_arg10 m dats c),
     ((h c).2 main_arg11 (Pipeline.mem_restRefs_of main_arg11 (by decide) (by decide))).trans (W_main_arg11 m dats c),
     ((h c).2 main_arg12 (Pipeline.mem_restRefs_of main_arg12 (by decide) (by decide))).trans (W_main_arg12 m dats c),
     ((h c).2 main_arg13 (Pipeline.mem_restRefs_of main_arg13 (by decide) (by decide))).trans (W_main_arg13 m dats c),
     ((h c).2 main_arg14 (Pipeline.mem_restRefs_of main_arg14 (by decide) (by decide))).trans (W_main_arg14 m dats c),
     ((h c).2 main_arg15 (Pipeline.mem_restRefs_of main_arg15 (by decide) (by decide))).trans (W_main_arg15 m dats c),
     ((h c).2 main_arg16 (Pipeline.mem_restRefs_of main_arg16 (by decide) (by decide))).trans (W_main_arg16 m dats c)⟩) h

/-- THE FRAME: the frame claim's statement at any float family `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.Kernel.Fr

end
-- ==== Proof.KOps.lean ====
import proofs.«151772_j21234318312201_1_alg».proof.Proof.Gen.KernelIdeal.Launch
import Idealize.ShloMosaic.Lib.StableHlo.Run

set_option maxRecDepth 8192

noncomputable section

namespace Cert.KernelIdeal.Chunks

open Cert.KernelIdeal Cert.KernelIdeal.Gen Idealize.ShloMosaic Idealize.ShloMosaic.TcCoe Idealize.SL.Sem

variable {F : FTy → Type} [FloatOps F]

set_option maxHeartbeats 40000000 in
/-- Operations 0 to 13 of the program, in order (14 operations). -/
abbrev K0 : List (HloOp τ sig (Elt F)) :=
  [ StableHlo.unary main_arg9 main_v0 ((transpose S2x2048x2048 [2, 0, 1] · transposes_S2048x2048x2_S2x2048x2048_2_0_1) : (⟨S2048x2048x2, .f32⟩ : BufTy).Contents (Elt F) → (⟨S2x2048x2048, .f32⟩ : BufTy).Contents (Elt F)),
    StableHlo.unary main_arg10 main_v1 ((transpose S1x2048 [1, 0] · transposes_S2048x1_S1x2048_1_0) : (⟨S2048x1, .f32⟩ : BufTy).Contents (Elt F) → (⟨S1x2048, .f32⟩ : BufTy).Contents (Elt F)),
    StableHlo.unary main_arg11 main_v2 ((transpose S3x64x64 [2, 0, 1] · transposes_S64x64x3_S3x64x64_2_0_1) : (⟨S64x64x3, .f32⟩ : BufTy).Contents (Elt F) → (⟨S3x64x64, .f32⟩ : BufTy).Contents (Elt F)),
    StableHlo.unary main_arg12 main_v3 ((transpose S3x48x48 [2, 0, 1] · transposes_S48x48x3_S3x48x48_2_0_1) : (⟨S48x48x3, .f32⟩ : BufTy).Contents (Elt F) → (⟨S3x48x48, .f32⟩ : BufTy).Contents (Elt F)),
    StableHlo.unary main_arg13 main_v4 ((transpose S2x96 [1, 0] · transposes_S96x2_S2x96_1_0) : (⟨S96x2, .f32⟩ : BufTy).Contents (Elt F) → (⟨S2x96, .f32⟩ : BufTy).Contents (Elt F)),
    StableHlo.unary main_arg14 main_v5 ((transpose S1x32x32 [2, 0, 1] · transposes_S32x32x1_S1x32x32_2_0_1) : (⟨S32x32x1, .f32⟩ : BufTy).Contents (Elt F) → (⟨S1x32x32, .f32⟩ : BufTy).Contents (Elt F)),
    StableHlo.unary main_arg15 main_v6 ((transpose S4x32x32 [2, 0, 1] · transposes_S32x32x4_S4x32x32_2_0_1) : (⟨S32x32x4, .f32⟩ : BufTy).Contents (Elt F) → (⟨S4x32x32, .f32⟩ : BufTy).Contents (Elt F)),
    StableHlo.unary main_arg16 main_v7 ((transpose S4x32x32 [2, 0, 1] · transposes_S32x32x4_S4x32x32_2_0_1) : (⟨S32x32x4, .f32⟩ : BufTy).Contents (Elt F) → (⟨S4x32x32, .f32⟩ : BufTy).Contents (Elt F)),
    StableHlo.unary main_arg0 main_v8 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v8 main_v9 rfl shapeCasts_S2097152x1_S2097152,
    StableHlo.unary main_arg1 main_v10 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v10 main_v11 rfl shapeCasts_S2097152x1_S2097152,
    StableHlo.unary main_arg4 main_v12 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v12 main_v13 rfl shapeCasts_S2097152x1_S2097152 ]
/-- The references the operations of the chunk K0 write, in order. -/
abbrev K0w : List (Ref sig .tc) :=
  [main_v0, main_v1, main_v2, main_v3, main_v4, main_v5, main_v6, main_v7, main_v8, main_v9, main_v10, main_v11, main_v12, main_v13]

set_option maxHeartbeats 40000000 in
/-- Operations 14 to 76 of the program, in order (63 operations). -/
abbrev K1 : List (HloOp τ sig (Elt F)) :=
  [ StableHlo.nullary main_cst (constant S_ .f32 0x40000000#32),
    StableHlo.unary main_cst main_v14 (broadcastInDim S2x2048x2048 ![] bcast_S_S2x2048x2048 : (⟨S_, .f32⟩ : BufTy).Contents (Elt F) → (⟨S2x2048x2048, .f32⟩ : BufTy).Contents (Elt F)),
    StableHlo.binary main_v0 main_v14 main_v15 (Host.divf : (⟨S2x2048x2048, .f32⟩ : BufTy).Contents (Elt F) → (⟨S2x2048x2048, .f32⟩ : BufTy).Contents (Elt F) → (⟨S2x2048x2048, .f32⟩ : BufTy).Contents (Elt F)),
    StableHlo.nullary main_cst_0 (constant S_ .f32 0x40000000#32),
    StableHlo.unary main_cst_0 main_v16 (broadcastInDim S2x2048x2048 ![] bcast_S_S2x2048x2048 : (⟨S_, .f32⟩ : BufTy).Contents (Elt F) → (⟨S2x2048x2048, .f32⟩ : BufTy).Contents (Elt F)),
    StableHlo.binary main_v0 main_v16 main_v17 (Host.divf : (⟨S2x2048x2048, .f32⟩ : BufTy).Contents (Elt F) → (⟨S2x2048x2048, .f32⟩ : BufTy).Contents (Elt F) → (⟨S2x2048x2048, .f32⟩ : BufTy).Contents (Elt F)),
    StableHlo.nullary main_cst_1 (constant S_ .f32 0x3F000000#32),
    StableHlo.unary main_cst_1 main_v18 (broadcastInDim S2x2048x2048 ![] bcast_S_S2x2048x2048 : (⟨S_, .f32⟩ : BufTy).Contents (Elt F) → (⟨S2x2048x2048, .f32⟩ : BufTy).Contents (Elt F)),
    StableHlo.binary main_v17 main_v18 main_v19 (addf : (⟨S2x2048x2048, .f32⟩ : BufTy).Contents (Elt F) → (⟨S2x2048x2048, .f32⟩ : BufTy).Contents (Elt F) → (⟨S2x2048x2048, .f32⟩ : BufTy).Contents (Elt F)),
    StableHlo.unary main_v19 main_v20 (Host.floor : (⟨S2x2048x2048, .f32⟩ : BufTy).Contents (Elt F) → (⟨S2x2048x2048, .f32⟩ : BufTy).Contents (Elt F)),
    StableHlo.binary main_v15 main_v20 main_v21 (subf : (⟨S2x2048x2048, .f32⟩ : BufTy).Contents (Elt F) → (⟨S2x2048x2048, .f32⟩ : BufTy).Contents (Elt F) → (⟨S2x2048x2048, .f32⟩ : BufTy).Contents (Elt F)),
    StableHlo.unary main_v21 main_v22 (Host.absf : (⟨S2x2048x2048, .f32⟩ : BufTy).Contents (Elt F) → (⟨S2x2048x2048, .f32⟩ : BufTy).Contents (Elt F)),
    StableHlo.nullary main_cst_2 (constant S_ .f32 0x40000000#32),
    StableHlo.unary main_cst_2 main_v23 (broadcastInDim S2x2048x2048 ![] bcast_S_S2x2048x2048 : (⟨S_, .f32⟩ : BufTy).Contents (Elt F) → (⟨S2x2048x2048, .f32⟩ : BufTy).Contents (Elt F)),
    StableHlo.binary main_v23 main_v22 main_v24 (mulf : (⟨S2x2048x2048, .f32⟩ : BufTy).Contents (Elt F) → (⟨S2x2048x2048, .f32⟩ : BufTy).Contents (Elt F) → (⟨S2x2048x2048, .f32⟩ : BufTy).Contents (Elt F)),
    StableHlo.nullary main_cst_3 (constant S_ .f32 0x00000000#32),
    StableHlo.nullary main_cst_4 (constant S_ .f32 0x3F7FFFEF#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S2097152, .f32⟩) (broadcastInDim S2097152 ![] bcast_S_S2097152),
    StableHlo.TRef.binary (.of main_call0_v1 : StableHlo.TRef sig ⟨S2097152, .f32⟩) (.of main_v9 : StableHlo.TRef sig ⟨S2097152, .f32⟩) (.of main_call0_v2 : StableHlo.TRef sig ⟨S2097152, .f32⟩) maximumf,
    StableHlo.TRef.unary (.of main_cst_4 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S2097152, .f32⟩) (broadcastInDim S2097152 ![] bcast_S_S2097152),
    StableHlo.TRef.binary (.of main_call0_v4 : StableHlo.TRef sig ⟨S2097152, .f32⟩) (.of main_call0_v2 : StableHlo.TRef sig ⟨S2097152, .f32⟩) (.of main_v25 : StableHlo.TRef sig ⟨S2097152, .f32⟩) minimumf,
    StableHlo.nullary main_cst_5 (constant S_ .f32 0x44FFE000#32),
    StableHlo.unary main_cst_5 main_v26 (broadcastInDim S2097152 ![] bcast_S_S2097152 : (⟨S_, .f32⟩ : BufTy).Contents (Elt F) → (⟨S2097152, .f32⟩ : BufTy).Contents (Elt F)),
    StableHlo.binary main_v25 main_v26 main_v27 (mulf : (⟨S2097152, .f32⟩ : BufTy).Contents (Elt F) → (⟨S2097152, .f32⟩ : BufTy).Contents (Elt F) → (⟨S2097152, .f32⟩ : BufTy).Contents (Elt F)),
    StableHlo.nullary main_cst_6 (constant S_ .f32 0x00000000#32),
    StableHlo.nullary main_cst_7 (constant S_ .f32 0x3F7FFFEF#32),
    StableHlo.TRef.unary (.of main_cst_6 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2097152, .f32⟩) (broadcastInDim S2097152 ![] bcast_S_S2097152),
    StableHlo.TRef.binary (.of main_call1_v1 : StableHlo.TRef sig ⟨S2097152, .f32⟩) (.of main_v11 : StableHlo.TRef sig ⟨S2097152, .f32⟩) (.of main_call1_v2 : StableHlo.TRef sig ⟨S2097152, .f32⟩) maximumf,
    StableHlo.TRef.unary (.of main_cst_7 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S2097152, .f32⟩) (broadcastInDim S2097152 ![] bcast_S_S2097152),
    StableHlo.TRef.binary (.of main_call1_v4 : StableHlo.TRef sig ⟨S2097152, .f32⟩) (.of main_call1_v2 : StableHlo.TRef sig ⟨S2097152, .f32⟩) (.of main_v28 : StableHlo.TRef sig ⟨S2097152, .f32⟩) minimumf,
    StableHlo.nullary main_cst_8 (constant S_ .f32 0x44FFE000#32),
    StableHlo.unary main_cst_8 main_v29 (broadcastInDim S2097152 ![] bcast_S_S2097152 : (⟨S_, .f32⟩ : BufTy).Contents (Elt F) → (⟨S2097152, .f32⟩ : BufTy).Contents (Elt F)),
    StableHlo.binary main_v28 main_v29 main_v30 (mulf : (⟨S2097152, .f32⟩ : BufTy).Contents (Elt F) → (⟨S2097152, .f32⟩ : BufTy).Contents (Elt F) → (⟨S2097152, .f32⟩ : BufTy).Contents (Elt F)),
    StableHlo.TRef.unary (.of main_v27 : StableHlo.TRef sig ⟨S2097152, .f32⟩) (.of main_v31 : StableHlo.TRef sig ⟨S2097152, .f32⟩) Host.roundeven,
    StableHlo.unary main_v31 main_v32 (fptosi 32 : (⟨S2097152, .f32⟩ : BufTy).Contents (Elt F) → (⟨S2097152, .i32⟩ : BufTy).Contents (Elt F)),
    StableHlo.TRef.unary (.of main_v30 : StableHlo.TRef sig ⟨S2097152, .f32⟩) (.of main_v33 : StableHlo.TRef sig ⟨S2097152, .f32⟩) Host.roundeven,
    StableHlo.unary main_v33 main_v34 (fptosi 32 : (⟨S2097152, .f32⟩ : BufTy).Contents (Elt F) → (⟨S2097152, .i32⟩ : BufTy).Contents (Elt F)),
    StableHlo.nullary main_c (constantI S_ 32 0#32),
    StableHlo.unary main_c main_v35 (broadcastInDim S2097152 ![] bcast_S_S2097152 : (⟨S_, .i32⟩ : BufTy).Contents (Elt F) → (⟨S2097152, .i32⟩ : BufTy).Contents (Elt F)),
    StableHlo.binary main_v32 main_v35 main_v36 (cmpi .slt : (⟨S2097152, .i32⟩ : BufTy).Contents (Elt F) → (⟨S2097152, .i32⟩ : BufTy).Contents (Elt F) → (⟨S2097152, .i1⟩ : BufTy).Contents (Elt F)),
    StableHlo.nullary main_c_9 (constantI S_ 32 2048#32),
    StableHlo.unary main_c_9 main_v37 (broadcastInDim S2097152 ![] bcast_S_S2097152 : (⟨S_, .i32⟩ : BufTy).Contents (Elt F) → (⟨S2097152, .i32⟩ : BufTy).Contents (Elt F)),
    StableHlo.binary main_v32 main_v37 main_v38 (addi : (⟨S2097152, .i32⟩ : BufTy).Contents (Elt F) → (⟨S2097152, .i32⟩ : BufTy).Contents (Elt F) → (⟨S2097152, .i32⟩ : BufTy).Contents (Elt F)),
    StableHlo.ternary main_v36 main_v38 main_v32 main_v39 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_10 (constantI S_ 32 0#32),
    StableHlo.unary main_c_10 main_v40 (broadcastInDim S2097152 ![] bcast_S_S2097152 : (⟨S_, .i32⟩ : BufTy).Contents (Elt F) → (⟨S2097152, .i32⟩ : BufTy).Contents (Elt F)),
    StableHlo.binary main_v34 main_v40 main_v41 (cmpi .slt : (⟨S2097152, .i32⟩ : BufTy).Contents (Elt F) → (⟨S2097152, .i32⟩ : BufTy).Contents (Elt F) → (⟨S2097152, .i1⟩ : BufTy).Contents (Elt F)),
    StableHlo.nullary main_c_11 (constantI S_ 32 2048#32),
    StableHlo.unary main_c_11 main_v42 (broadcastInDim S2097152 ![] bcast_S_S2097152 : (⟨S_, .i32⟩ : BufTy).Contents (Elt F) → (⟨S2097152, .i32⟩ : BufTy).Contents (Elt F)),
    StableHlo.binary main_v34 main_v42 main_v43 (addi : (⟨S2097152, .i32⟩ : BufTy).Contents (Elt F) → (⟨S2097152, .i32⟩ : BufTy).Contents (Elt F) → (⟨S2097152, .i32⟩ : BufTy).Contents (Elt F)),
    StableHlo.ternary main_v41 main_v43 main_v34 main_v44 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v39 main_v45 (broadcastInDim S2097152x1 ![0] bcast_S2097152_S2097152x1_0 : (⟨S2097152, .i32⟩ : BufTy).Contents (Elt F) → (⟨S2097152x1, .i32⟩ : BufTy).Contents (Elt F)),
    StableHlo.unary main_v44 main_v46 (broadcastInDim S2097152x1 ![0] bcast_S2097152_S2097152x1_0 : (⟨S2097152, .i32⟩ : BufTy).Contents (Elt F) → (⟨S2097152x1, .i32⟩ : BufTy).Contents (Elt F)),
    StableHlo.binary main_v45 main_v46 main_v47 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v24 main_v47 main_v48 ((fun x i => Host.gather gather_S2x2048x2048_S2097152x2_S2x2097152_0_12_n_n_12_1_211 x i) : (⟨S2x2048x2048, .f32⟩ : BufTy).Contents (Elt F) → (⟨S2097152x2, .i32⟩ : BufTy).Contents (Elt F) → (⟨S2x2097152, .f32⟩ : BufTy).Contents (Elt F)),
    StableHlo.unary main_v48 main_v49 ((extractStridedSlice S1x2097152 ![0, 0] · slices_S2x2097152_S1x2097152_0_0) : (⟨S2x2097152, .f32⟩ : BufTy).Contents (Elt F) → (⟨S1x2097152, .f32⟩ : BufTy).Contents (Elt F)),
    StableHlo.reshape main_v49 main_v50 rfl shapeCasts_S1x2097152_S2097152,
    StableHlo.unary main_v48 main_v51 ((extractStridedSlice S1x2097152 ![1, 0] · slices_S2x2097152_S1x2097152_1_0) : (⟨S2x2097152, .f32⟩ : BufTy).Contents (Elt F) → (⟨S1x2097152, .f32⟩ : BufTy).Contents (Elt F)),
    StableHlo.reshape main_v51 main_v52 rfl shapeCasts_S1x2097152_S2097152 ]
/-- The references the operations of the chunk K1 write, in order. -/
abbrev K1w : List (Ref sig .tc) :=
  [main_cst, main_v14, main_v15, main_cst_0, main_v16, main_v17, main_cst_1, main_v18, main_v19, main_v20, main_v21, main_v22, main_cst_2, main_v23, main_v24, main_cst_3, main_cst_4, main_call0_v0, main_call0_v1, main_call0_v2, main_call0_v3, main_call0_v4, main_v25, main_cst_5, main_v26, main_v27, main_cst_6, main_cst_7, main_call1_v0, main_call1_v1, main_call1_v2, main_call1_v3, main_call1_v4, main_v28, main_cst_8, main_v29, main_v30, main_v31, main_v32, main_v33, main_v34, main_c, main_v35, main_v36, main_c_9, main_v37, main_v38, main_v39, main_c_10, main_v40, main_v41, main_c_11, main_v42, main_v43, main_v44, main_v45, main_v46, main_v47, main_v48, main_v49, main_v50, main_v51, main_v52]

set_option maxHeartbeats 40000000 in
/-- Operations 77 to 116 of the program, in order (40 operations). -/
abbrev K2 : List (HloOp τ sig (Elt F)) :=
  [ StableHlo.unary main_arg5 main_v53 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v53 main_v54 rfl shapeCasts_S2097152x1_S2097152,
    StableHlo.nullary main_cst_12 (constant S_ .f32 0x40000000#32),
    StableHlo.unary main_cst_12 main_v55 (broadcastInDim S1x2048 ![] bcast_S_S1x2048 : (⟨S_, .f32⟩ : BufTy).Contents (Elt F) → (⟨S1x2048, .f32⟩ : BufTy).Contents (Elt F)),
    StableHlo.binary main_v1 main_v55 main_v56 (Host.divf : (⟨S1x2048, .f32⟩ : BufTy).Contents (Elt F) → (⟨S1x2048, .f32⟩ : BufTy).Contents (Elt F) → (⟨S1x2048, .f32⟩ : BufTy).Contents (Elt F)),
    StableHlo.nullary main_cst_13 (constant S_ .f32 0x40000000#32),
    StableHlo.unary main_cst_13 main_v57 (broadcastInDim S1x2048 ![] bcast_S_S1x2048 : (⟨S_, .f32⟩ : BufTy).Contents (Elt F) → (⟨S1x2048, .f32⟩ : BufTy).Contents (Elt F)),
    StableHlo.binary main_v1 main_v57 main_v58 (Host.divf : (⟨S1x2048, .f32⟩ : BufTy).Contents (Elt F) → (⟨S1x2048, .f32⟩ : BufTy).Contents (Elt F) → (⟨S1x2048, .f32⟩ : BufTy).Contents (Elt F)),
    StableHlo.nullary main_cst_14 (constant S_ .f32 0x3F000000#32),
    StableHlo.unary main_cst_14 main_v59 (broadcastInDim S1x2048 ![] bcast_S_S1x2048 : (⟨S_, .f32⟩ : BufTy).Contents (Elt F) → (⟨S1x2048, .f32⟩ : BufTy).Contents (Elt F)),
    StableHlo.binary main_v58 main_v59 main_v60 (addf : (⟨S1x2048, .f32⟩ : BufTy).Contents (Elt F) → (⟨S1x2048, .f32⟩ : BufTy).Contents (Elt F) → (⟨S1x2048, .f32⟩ : BufTy).Contents (Elt F)),
    StableHlo.unary main_v60 main_v61 (Host.floor : (⟨S1x2048, .f32⟩ : BufTy).Contents (Elt F) → (⟨S1x2048, .f32⟩ : BufTy).Contents (Elt F)),
    StableHlo.binary main_v56 main_v61 main_v62 (subf : (⟨S1x2048, .f32⟩ : BufTy).Contents (Elt F) → (⟨S1x2048, .f32⟩ : BufTy).Contents (Elt F) → (⟨S1x2048, .f32⟩ : BufTy).Contents (Elt F)),
    StableHlo.unary main_v62 main_v63 (Host.absf : (⟨S1x2048, .f32⟩ : BufTy).Contents (Elt F) → (⟨S1x2048, .f32⟩ : BufTy).Contents (Elt F)),
    StableHlo.nullary main_cst_15 (constant S_ .f32 0x40000000#32),
    StableHlo.unary main_cst_15 main_v64 (broadcastInDim S1x2048 ![] bcast_S_S1x2048 : (⟨S_, .f32⟩ : BufTy).Contents (Elt F) → (⟨S1x2048, .f32⟩ : BufTy).Contents (Elt F)),
    StableHlo.binary main_v64 main_v63 main_v65 (mulf : (⟨S1x2048, .f32⟩ : BufTy).Contents (Elt F) → (⟨S1x2048, .f32⟩ : BufTy).Contents (Elt F) → (⟨S1x2048, .f32⟩ : BufTy).Contents (Elt F)),
    StableHlo.nullary main_cst_16 (constant S_ .f32 0x00000000#32),
    StableHlo.nullary main_cst_17 (constant S_ .f32 0x3F7FFFEF#32),
    StableHlo.TRef.unary (.of main_cst_16 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S2097152, .f32⟩) (broadcastInDim S2097152 ![] bcast_S_S2097152),
    StableHlo.TRef.binary (.of main_call4_v1 : StableHlo.TRef sig ⟨S2097152, .f32⟩) (.of main_v54 : StableHlo.TRef sig ⟨S2097152, .f32⟩) (.of main_call4_v2 : StableHlo.TRef sig ⟨S2097152, .f32⟩) maximumf,
    StableHlo.TRef.unary (.of main_cst_17 : StableHlo.TRef sig ⟨S_, .f32⟩) (.of main_call4_v3 : StableHlo.TRef sig ⟨S_, .f32⟩) id,
    StableHlo.TRef.unary (.of main_call4_v3 : StableHlo.TRef sig ⟨S_, .f32⟩) (.of main_call4_v4 : StableHlo.TRef sig ⟨S2097152, .f32⟩) (broadcastInDim S2097152 ![] bcast_S_S2097152),
    StableHlo.TRef.binary (.of main_call4_v4 : StableHlo.TRef sig ⟨S2097152, .f32⟩) (.of main_call4_v2 : StableHlo.TRef sig ⟨S2097152, .f32⟩) (.of main_v66 : StableHlo.TRef sig ⟨S2097152, .f32⟩) minimumf,
    StableHlo.nullary main_cst_18 (constant S_ .f32 0x44FFE000#32),
    StableHlo.unary main_cst_18 main_v67 (broadcastInDim S2097152 ![] bcast_S_S2097152 : (⟨S_, .f32⟩ : BufTy).Contents (Elt F) → (⟨S2097152, .f32⟩ : BufTy).Contents (Elt F)),
    StableHlo.binary main_v66 main_v67 main_v68 (mulf : (⟨S2097152, .f32⟩ : BufTy).Contents (Elt F) → (⟨S2097152, .f32⟩ : BufTy).Contents (Elt F) → (⟨S2097152, .f32⟩ : BufTy).Contents (Elt F)),
    StableHlo.TRef.unary (.of main_v68 : StableHlo.TRef sig ⟨S2097152, .f32⟩) (.of main_v69 : StableHlo.TRef sig ⟨S2097152, .f32⟩) Host.roundeven,
    StableHlo.unary main_v69 main_v70 (fptosi 32 : (⟨S2097152, .f32⟩ : BufTy).Contents (Elt F) → (⟨S2097152, .i32⟩ : BufTy).Contents (Elt F)),
    StableHlo.nullary main_c_19 (constantI S_ 32 0#32),
    StableHlo.unary main_c_19 main_v71 (broadcastInDim S2097152 ![] bcast_S_S2097152 : (⟨S_, .i32⟩ : BufTy).Contents (Elt F) → (⟨S2097152, .i32⟩ : BufTy).Contents (Elt F)),
    StableHlo.binary main_v70 main_v71 main_v72 (cmpi .slt : (⟨S2097152, .i32⟩ : BufTy).Contents (Elt F) → (⟨S2097152, .i32⟩ : BufTy).Contents (Elt F) → (⟨S2097152, .i1⟩ : BufTy).Contents (Elt F)),
    StableHlo.nullary main_c_20 (constantI S_ 32 2048#32),
    StableHlo.unary main_c_20 main_v73 (broadcastInDim S2097152 ![] bcast_S_S2097152 : (⟨S_, .i32⟩ : BufTy).Contents (Elt F) → (⟨S2097152, .i32⟩ : BufTy).Contents (Elt F)),
    StableHlo.binary main_v70 main_v73 main_v74 (addi : (⟨S2097152, .i32⟩ : BufTy).Contents (Elt F) → (⟨S2097152, .i32⟩ : BufTy).Contents (Elt F) → (⟨S2097152, .i32⟩ : BufTy).Contents (Elt F)),
    StableHlo.ternary main_v72 main_v74 main_v70 main_v75 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v75 main_v76 (broadcastInDim S2097152x1 ![0] bcast_S2097152_S2097152x1_0 : (⟨S2097152, .i32⟩ : BufTy).Contents (Elt F) → (⟨S2097152x1, .i32⟩ : BufTy).Contents (Elt F)),
    StableHlo.binary main_v65 main_v76 main_v77 ((fun x i => Host.gather gather_S1x2048_S2097152x1_S1x2097152_0_1_n_n_1_1_11 x i) : (⟨S1x2048, .f32⟩ : BufTy).Contents (Elt F) → (⟨S2097152x1, .i32⟩ : BufTy).Contents (Elt F) → (⟨S1x2097152, .f32⟩ : BufTy).Contents (Elt F)),
    StableHlo.reshape main_v77 main_v78 rfl shapeCasts_S1x2097152_S2097152 ]
/-- The references the operations of the chunk K2 write, in order. -/
abbrev K2w : List (Ref sig .tc) :=
  [main_v53, main_v54, main_cst_12, main_v55, main_v56, main_cst_13, main_v57, main_v58, main_cst_14, main_v59, main_v60, main_v61, main_v62, main_v63, main_cst_15, main_v64, main_v65, main_cst_16, main_cst_17, main_call4_v0, main_call4_v1, main_call4_v2, main_call4_v3, main_call4_v4, main_v66, main_cst_18, main_v67, main_v68, main_v69, main_v70, main_c_19, main_v71, main_v72, main_c_20, main_v73, main_v74, main_v75, main_v76, main_v77, main_v78]

set_option maxHeartbeats 40000000 in
/-- Operations 117 to 278 of the program, in order (162 operations). -/
abbrev K3 : List (HloOp τ sig (Elt F)) :=
  [ StableHlo.unary main_arg5 main_v79 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v79 main_v80 rfl shapeCasts_S2097152x1_S2097152,
    StableHlo.nullary main_cst_21 (constant S_ .f32 0x40000000#32),
    StableHlo.unary main_cst_21 main_v81 (broadcastInDim S3x64x64 ![] bcast_S_S3x64x64 : (⟨S_, .f32⟩ : BufTy).Contents (Elt F) → (⟨S3x64x64, .f32⟩ : BufTy).Contents (Elt F)),
    StableHlo.binary main_v2 main_v81 main_v82 (Host.divf : (⟨S3x64x64, .f32⟩ : BufTy).Contents (Elt F) → (⟨S3x64x64, .f32⟩ : BufTy).Contents (Elt F) → (⟨S3x64x64, .f32⟩ : BufTy).Contents (Elt F)),
    StableHlo.nullary main_cst_22 (constant S_ .f32 0x40000000#32),
    StableHlo.unary main_cst_22 main_v83 (broadcastInDim S3x64x64 ![] bcast_S_S3x64x64 : (⟨S_, .f32⟩ : BufTy).Contents (Elt F) → (⟨S3x64x64, .f32⟩ : BufTy).Contents (Elt F)),
    StableHlo.binary main_v2 main_v83 main_v84 (Host.divf : (⟨S3x64x64, .f32⟩ : BufTy).Contents (Elt F) → (⟨S3x64x64, .f32⟩ : BufTy).Contents (Elt F) → (⟨S3x64x64, .f32⟩ : BufTy).Contents (Elt F)),
    StableHlo.nullary main_cst_23 (constant S_ .f32 0x3F000000#32),
    StableHlo.unary main_cst_23 main_v85 (broadcastInDim S3x64x64 ![] bcast_S_S3x64x64 : (⟨S_, .f32⟩ : BufTy).Contents (Elt F) → (⟨S3x64x64, .f32⟩ : BufTy).Contents (Elt F)),
    StableHlo.binary main_v84 main_v85 main_v86 (addf : (⟨S3x64x64, .f32⟩ : BufTy).Contents (Elt F) → (⟨S3x64x64, .f32⟩ : BufTy).Contents (Elt F) → (⟨S3x64x64, .f32⟩ : BufTy).Contents (Elt F)),
    StableHlo.unary main_v86 main_v87 (Host.floor : (⟨S3x64x64, .f32⟩ : BufTy).Contents (Elt F) → (⟨S3x64x64, .f32⟩ : BufTy).Contents (Elt F)),
    StableHlo.binary main_v82 main_v87 main_v88 (subf : (⟨S3x64x64, .f32⟩ : BufTy).Contents (Elt F) → (⟨S3x64x64, .f32⟩ : BufTy).Contents (Elt F) → (⟨S3x64x64, .f32⟩ : BufTy).Contents (Elt F)),
    StableHlo.unary main_v88 main_v89 (Host.absf : (⟨S3x64x64, .f32⟩ : BufTy).Contents (Elt F) → (⟨S3x64x64, .f32⟩ : BufTy).Contents (Elt F)),
    StableHlo.nullary main_cst_24 (constant S_ .f32 0x40000000#32),
    StableHlo.unary main_cst_24 main_v90 (broadcastInDim S3x64x64 ![] bcast_S_S3x64x64 : (⟨S_, .f32⟩ : BufTy).Contents (Elt F) → (⟨S3x64x64, .f32⟩ : BufTy).Contents (Elt F)),
    StableHlo.binary main_v90 main_v89 main_v91 (mulf : (⟨S3x64x64, .f32⟩ : BufTy).Contents (Elt F) → (⟨S3x64x64, .f32⟩ : BufTy).Contents (Elt F) → (⟨S3x64x64, .f32⟩ : BufTy).Contents (Elt F)),
    StableHlo.nullary main_cst_25 (constant S_ .f32 0x00000000#32),
    StableHlo.nullary main_cst_26 (constant S_ .f32 0x3F7FFFEF#32),
    StableHlo.TRef.unary (.of main_cst_25 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S2097152, .f32⟩) (broadcastInDim S2097152 ![] bcast_S_S2097152),
    StableHlo.TRef.binary (.of main_call6_v1 : StableHlo.TRef sig ⟨S2097152, .f32⟩) (.of main_v9 : StableHlo.TRef sig ⟨S2097152, .f32⟩) (.of main_call6_v2 : StableHlo.TRef sig ⟨S2097152, .f32⟩) maximumf,
    StableHlo.TRef.unary (.of main_cst_26 : StableHlo.TRef sig ⟨S_, .f32⟩) (.of main_call6_v3 : StableHlo.TRef sig ⟨S_, .f32⟩) id,
    StableHlo.TRef.unary (.of main_call6_v3 : StableHlo.TRef sig ⟨S_, .f32⟩) (.of main_call6_v4 : StableHlo.TRef sig ⟨S2097152, .f32⟩) (broadcastInDim S2097152 ![] bcast_S_S2097152),
    StableHlo.TRef.binary (.of main_call6_v4 : StableHlo.TRef sig ⟨S2097152, .f32⟩) (.of main_call6_v2 : StableHlo.TRef sig ⟨S2097152, .f32⟩) (.of main_v92 : StableHlo.TRef sig ⟨S2097152, .f32⟩) minimumf,
    StableHlo.nullary main_cst_27 (constant S_ .f32 0x427C0000#32),
    StableHlo.unary main_cst_27 main_v93 (broadcastInDim S2097152 ![] bcast_S_S2097152 : (⟨S_, .f32⟩ : BufTy).Contents (Elt F) → (⟨S2097152, .f32⟩ : BufTy).Contents (Elt F)),
    StableHlo.binary main_v92 main_v93 main_v94 (mulf : (⟨S2097152, .f32⟩ : BufTy).Contents (Elt F) → (⟨S2097152, .f32⟩ : BufTy).Contents (Elt F) → (⟨S2097152, .f32⟩ : BufTy).Contents (Elt F)),
    StableHlo.nullary main_cst_28 (constant S_ .f32 0x00000000#32),
    StableHlo.nullary main_cst_29 (constant S_ .f32 0x3F7FFFEF#32),
    StableHlo.TRef.unary (.of main_cst_28 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S2097152, .f32⟩) (broadcastInDim S2097152 ![] bcast_S_S2097152),
    StableHlo.TRef.binary (.of main_call7_v1 : StableHlo.TRef sig ⟨S2097152, .f32⟩) (.of main_v80 : StableHlo.TRef sig ⟨S2097152, .f32⟩) (.of main_call7_v2 : StableHlo.TRef sig ⟨S2097152, .f32⟩) maximumf,
    StableHlo.TRef.unary (.of main_cst_29 : StableHlo.TRef sig ⟨S_, .f32⟩) (.of main_call7_v3 : StableHlo.TRef sig ⟨S_, .f32⟩) id,
    StableHlo.TRef.unary (.of main_call7_v3 : StableHlo.TRef sig ⟨S_, .f32⟩) (.of main_call7_v4 : StableHlo.TRef sig ⟨S2097152, .f32⟩) (broadcastInDim S2097152 ![] bcast_S_S2097152),
    StableHlo.TRef.binary (.of main_call7_v4 : StableHlo.TRef sig ⟨S2097152, .f32⟩) (.of main_call7_v2 : StableHlo.TRef sig ⟨S2097152, .f32⟩) (.of main_v95 : StableHlo.TRef sig ⟨S2097152, .f32⟩) minimumf,
    StableHlo.nullary main_cst_30 (constant S_ .f32 0x427C0000#32),
    StableHlo.unary main_cst_30 main_v96 (broadcastInDim S2097152 ![] bcast_S_S2097152 : (⟨S_, .f32⟩ : BufTy).Contents (Elt F) → (⟨S2097152, .f32⟩ : BufTy).Contents (Elt F)),
    StableHlo.binary main_v95 main_v96 main_v97 (mulf : (⟨S2097152, .f32⟩ : BufTy).Contents (Elt F) → (⟨S2097152, .f32⟩ : BufTy).Contents (Elt F) → (⟨S2097152, .f32⟩ : BufTy).Contents (Elt F)),
    StableHlo.unary main_v94 main_v98 (Host.floor : (⟨S2097152, .f32⟩ : BufTy).Contents (Elt F) → (⟨S2097152, .f32⟩ : BufTy).Contents (Elt F)),
    StableHlo.unary main_v97 main_v99 (Host.floor : (⟨S2097152, .f32⟩ : BufTy).Contents (Elt F) → (⟨S2097152, .f32⟩ : BufTy).Contents (Elt F)),
    StableHlo.binary main_v94 main_v98 main_v100 (subf : (⟨S2097152, .f32⟩ : BufTy).Contents (Elt F) → (⟨S2097152, .f32⟩ : BufTy).Contents (Elt F) → (⟨S2097152, .f32⟩ : BufTy).Contents (Elt F)),
    StableHlo.unary main_v100 main_v101 (broadcastInDim S1x2097152 ![1] bcast_S2097152_S1x2097152_1 : (⟨S2097152, .f32⟩ : BufTy).Contents (Elt F) → (⟨S1x2097152, .f32⟩ : BufTy).Contents (Elt F)),
    StableHlo.binary main_v97 main_v99 main_v102 (subf : (⟨S2097152, .f32⟩ : BufTy).Contents (Elt F) → (⟨S2097152, .f32⟩ : BufTy).Contents (Elt F) → (⟨S2097152, .f32⟩ : BufTy).Contents (Elt F)),
    StableHlo.unary main_v102 main_v103 (broadcastInDim S1x2097152 ![1] bcast_S2097152_S1x2097152_1 : (⟨S2097152, .f32⟩ : BufTy).Contents (Elt F) → (⟨S1x2097152, .f32⟩ : BufTy).Contents (Elt F)),
    StableHlo.unary main_v98 main_v104 (fptosi 32 : (⟨S2097152, .f32⟩ : BufTy).Contents (Elt F) → (⟨S2097152, .i32⟩ : BufTy).Contents (Elt F)),
    StableHlo.unary main_v99 main_v105 (fptosi 32 : (⟨S2097152, .f32⟩ : BufTy).Contents (Elt F) → (⟨S2097152, .i32⟩ : BufTy).Contents (Elt F)),
    StableHlo.nullary main_c_31 (constantI S_ 32 1#32),
    StableHlo.unary main_c_31 main_v106 (broadcastInDim S2097152 ![] bcast_S_S2097152 : (⟨S_, .i32⟩ : BufTy).Contents (Elt F) → (⟨S2097152, .i32⟩ : BufTy).Contents (Elt F)),
    StableHlo.binary main_v104 main_v106 main_v107 (addi : (⟨S2097152, .i32⟩ : BufTy).Contents (Elt F) → (⟨S2097152, .i32⟩ : BufTy).Contents (Elt F) → (⟨S2097152, .i32⟩ : BufTy).Contents (Elt F)),
    StableHlo.nullary main_c_32 (constantI S_ 32 63#32),
    StableHlo.unary main_c_32 main_v108 (broadcastInDim S2097152 ![] bcast_S_S2097152 : (⟨S_, .i32⟩ : BufTy).Contents (Elt F) → (⟨S2097152, .i32⟩ : BufTy).Contents (Elt F)),
    StableHlo.binary main_v107 main_v108 main_v109 (minsi : (⟨S2097152, .i32⟩ : BufTy).Contents (Elt F) → (⟨S2097152, .i32⟩ : BufTy).Contents (Elt F) → (⟨S2097152, .i32⟩ : BufTy).Contents (Elt F)),
    StableHlo.nullary main_c_33 (constantI S_ 32 1#32),
    StableHlo.unary main_c_33 main_v110 (broadcastInDim S2097152 ![] bcast_S_S2097152 : (⟨S_, .i32⟩ : BufTy).Contents (Elt F) → (⟨S2097152, .i32⟩ : BufTy).Contents (Elt F)),
    StableHlo.binary main_v105 main_v110 main_v111 (addi : (⟨S2097152, .i32⟩ : BufTy).Contents (Elt F) → (⟨S2097152, .i32⟩ : BufTy).Contents (Elt F) → (⟨S2097152, .i32⟩ : BufTy).Contents (Elt F)),
    StableHlo.nullary main_c_34 (constantI S_ 32 63#32),
    StableHlo.unary main_c_34 main_v112 (broadcastInDim S2097152 ![] bcast_S_S2097152 : (⟨S_, .i32⟩ : BufTy).Contents (Elt F) → (⟨S2097152, .i32⟩ : BufTy).Contents (Elt F)),
    StableHlo.binary main_v111 main_v112 main_v113 (minsi : (⟨S2097152, .i32⟩ : BufTy).Contents (Elt F) → (⟨S2097152, .i32⟩ : BufTy).Contents (Elt F) → (⟨S2097152, .i32⟩ : BufTy).Contents (Elt F)),
    StableHlo.nullary main_c_35 (constantI S_ 32 0#32),
    StableHlo.unary main_c_35 main_v114 (broadcastInDim S2097152 ![] bcast_S_S2097152 : (⟨S_, .i32⟩ : BufTy).Contents (Elt F) → (⟨S2097152, .i32⟩ : BufTy).Contents (Elt F)),
    StableHlo.binary main_v104 main_v114 main_v115 (cmpi .slt : (⟨S2097152, .i32⟩ : BufTy).Contents (Elt F) → (⟨S2097152, .i32⟩ : BufTy).Contents (Elt F) → (⟨S2097152, .i1⟩ : BufTy).Contents (Elt F)),
    StableHlo.nullary main_c_36 (constantI S_ 32 64#32),
    StableHlo.unary main_c_36 main_v116 (broadcastInDim S2097152 ![] bcast_S_S2097152 : (⟨S_, .i32⟩ : BufTy).Contents (Elt F) → (⟨S2097152, .i32⟩ : BufTy).Contents (Elt F)),
    StableHlo.binary main_v104 main_v116 main_v117 (addi : (⟨S2097152, .i32⟩ : BufTy).Contents (Elt F) → (⟨S2097152, .i32⟩ : BufTy).Contents (Elt F) → (⟨S2097152, .i32⟩ : BufTy).Contents (Elt F)),
    StableHlo.ternary main_v115 main_v117 main_v104 main_v118 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_37 (constantI S_ 32 0#32),
    StableHlo.unary main_c_37 main_v119 (broadcastInDim S2097152 ![] bcast_S_S2097152 : (⟨S_, .i32⟩ : BufTy).Contents (Elt F) → (⟨S2097152, .i32⟩ : BufTy).Contents (Elt F)),
    StableHlo.binary main_v105 main_v119 main_v120 (cmpi .slt : (⟨S2097152, .i32⟩ : BufTy).Contents (Elt F) → (⟨S2097152, .i32⟩ : BufTy).Contents (Elt F) → (⟨S2097152, .i1⟩ : BufTy).Contents (Elt F)),
    StableHlo.nullary main_c_38 (constantI S_ 32 64#32),
    StableHlo.unary main_c_38 main_v121 (broadcastInDim S2097152 ![] bcast_S_S2097152 : (⟨S_, .i32⟩ : BufTy).Contents (Elt F) → (⟨S2097152, .i32⟩ : BufTy).Contents (Elt F)),
    StableHlo.binary main_v105 main_v121 main_v122 (addi : (⟨S2097152, .i32⟩ : BufTy).Contents (Elt F) → (⟨S2097152, .i32⟩ : BufTy).Contents (Elt F) → (⟨S2097152, .i32⟩ : BufTy).Contents (Elt F)),
    StableHlo.ternary main_v120 main_v122 main_v105 main_v123 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v118 main_v124 (broadcastInDim S2097152x1 ![0] bcast_S2097152_S2097152x1_0 : (⟨S2097152, .i32⟩ : BufTy).Contents (Elt F) → (⟨S2097152x1, .i32⟩ : BufTy).Contents (Elt F)),
    StableHlo.unary main_v123 main_v125 (broadcastInDim S2097152x1 ![0] bcast_S2097152_S2097152x1_0 : (⟨S2097152, .i32⟩ : BufTy).Contents (Elt F) → (⟨S2097152x1, .i32⟩ : BufTy).Contents (Elt F)),
    StableHlo.binary main_v124 main_v125 main_v126 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v91 main_v126 main_v127 ((fun x i => Host.gather gather_S3x64x64_S2097152x2_S3x2097152_0_12_n_n_12_1_311 x i) : (⟨S3x64x64, .f32⟩ : BufTy).Contents (Elt F) → (⟨S2097152x2, .i32⟩ : BufTy).Contents (Elt F) → (⟨S3x2097152, .f32⟩ : BufTy).Contents (Elt F)),
    StableHlo.nullary main_cst_39 (constant S_ .f32 0x3F800000#32),
    StableHlo.unary main_cst_39 main_v128 (broadcastInDim S1x2097152 ![] bcast_S_S1x2097152 : (⟨S_, .f32⟩ : BufTy).Contents (Elt F) → (⟨S1x2097152, .f32⟩ : BufTy).Contents (Elt F)),
    StableHlo.binary main_v128 main_v101 main_v129 (subf : (⟨S1x2097152, .f32⟩ : BufTy).Contents (Elt F) → (⟨S1x2097152, .f32⟩ : BufTy).Contents (Elt F) → (⟨S1x2097152, .f32⟩ : BufTy).Contents (Elt F)),
    StableHlo.unary main_v129 main_v130 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v127 main_v130 main_v131 (mulf : (⟨S3x2097152, .f32⟩ : BufTy).Contents (Elt F) → (⟨S3x2097152, .f32⟩ : BufTy).Contents (Elt F) → (⟨S3x2097152, .f32⟩ : BufTy).Contents (Elt F)),
    StableHlo.nullary main_cst_40 (constant S_ .f32 0x3F800000#32),
    StableHlo.unary main_cst_40 main_v132 (broadcastInDim S1x2097152 ![] bcast_S_S1x2097152 : (⟨S_, .f32⟩ : BufTy).Contents (Elt F) → (⟨S1x2097152, .f32⟩ : BufTy).Contents (Elt F)),
    StableHlo.binary main_v132 main_v103 main_v133 (subf : (⟨S1x2097152, .f32⟩ : BufTy).Contents (Elt F) → (⟨S1x2097152, .f32⟩ : BufTy).Contents (Elt F) → (⟨S1x2097152, .f32⟩ : BufTy).Contents (Elt F)),
    StableHlo.unary main_v133 main_v134 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v131 main_v134 main_v135 (mulf : (⟨S3x2097152, .f32⟩ : BufTy).Contents (Elt F) → (⟨S3x2097152, .f32⟩ : BufTy).Contents (Elt F) → (⟨S3x2097152, .f32⟩ : BufTy).Contents (Elt F)),
    StableHlo.nullary main_c_41 (constantI S_ 32 0#32),
    StableHlo.unary main_c_41 main_v136 (broadcastInDim S2097152 ![] bcast_S_S2097152 : (⟨S_, .i32⟩ : BufTy).Contents (Elt F) → (⟨S2097152, .i32⟩ : BufTy).Contents (Elt F)),
    StableHlo.binary main_v109 main_v136 main_v137 (cmpi .slt : (⟨S2097152, .i32⟩ : BufTy).Contents (Elt F) → (⟨S2097152, .i32⟩ : BufTy).Contents (Elt F) → (⟨S2097152, .i1⟩ : BufTy).Contents (Elt F)),
    StableHlo.nullary main_c_42 (constantI S_ 32 64#32),
    StableHlo.unary main_c_42 main_v138 (broadcastInDim S2097152 ![] bcast_S_S2097152 : (⟨S_, .i32⟩ : BufTy).Contents (Elt F) → (⟨S2097152, .i32⟩ : BufTy).Contents (Elt F)),
    StableHlo.binary main_v109 main_v138 main_v139 (addi : (⟨S2097152, .i32⟩ : BufTy).Contents (Elt F) → (⟨S2097152, .i32⟩ : BufTy).Contents (Elt F) → (⟨S2097152, .i32⟩ : BufTy).Contents (Elt F)),
    StableHlo.ternary main_v137 main_v139 main_v109 main_v140 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_43 (constantI S_ 32 0#32),
    StableHlo.unary main_c_43 main_v141 (broadcastInDim S2097152 ![] bcast_S_S2097152 : (⟨S_, .i32⟩ : BufTy).Contents (Elt F) → (⟨S2097152, .i32⟩ : BufTy).Contents (Elt F)),
    StableHlo.binary main_v105 main_v141 main_v142 (cmpi .slt : (⟨S2097152, .i32⟩ : BufTy).Contents (Elt F) → (⟨S2097152, .i32⟩ : BufTy).Contents (Elt F) → (⟨S2097152, .i1⟩ : BufTy).Contents (Elt F)),
    StableHlo.nullary main_c_44 (constantI S_ 32 64#32),
    StableHlo.unary main_c_44 main_v143 (broadcastInDim S2097152 ![] bcast_S_S2097152 : (⟨S_, .i32⟩ : BufTy).Contents (Elt F) → (⟨S2097152, .i32⟩ : BufTy).Contents (Elt F)),
    StableHlo.binary main_v105 main_v143 main_v144 (addi : (⟨S2097152, .i32⟩ : BufTy).Contents (Elt F) → (⟨S2097152, .i32⟩ : BufTy).Contents (Elt F) → (⟨S2097152, .i32⟩ : BufTy).Contents (Elt F)),
    StableHlo.ternary main_v142 main_v144 main_v105 main_v145 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v140 main_v146 (broadcastInDim S2097152x1 ![0] bcast_S2097152_S2097152x1_0 : (⟨S2097152, .i32⟩ : BufTy).Contents (Elt F) → (⟨S2097152x1, .i32⟩ : BufTy).Contents (Elt F)),
    StableHlo.unary main_v145 main_v147 (broadcastInDim S2097152x1 ![0] bcast_S2097152_S2097152x1_0 : (⟨S2097152, .i32⟩ : BufTy).Contents (Elt F) → (⟨S2097152x1, .i32⟩ : BufTy).Contents (Elt F)),
    StableHlo.binary main_v146 main_v147 main_v148 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v91 main_v148 main_v149 ((fun x i => Host.gather gather_S3x64x64_S2097152x2_S3x2097152_0_12_n_n_12_1_311 x i) : (⟨S3x64x64, .f32⟩ : BufTy).Contents (Elt F) → (⟨S2097152x2, .i32⟩ : BufTy).Contents (Elt F) → (⟨S3x2097152, .f32⟩ : BufTy).Contents (Elt F)),
    StableHlo.unary main_v101 main_v150 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v149 main_v150 main_v151 (mulf : (⟨S3x2097152, .f32⟩ : BufTy).Contents (Elt F) → (⟨S3x2097152, .f32⟩ : BufTy).Contents (Elt F) → (⟨S3x2097152, .f32⟩ : BufTy).Contents (Elt F)),
    StableHlo.nullary main_cst_45 (constant S_ .f32 0x3F800000#32),
    StableHlo.unary main_cst_45 main_v152 (broadcastInDim S1x2097152 ![] bcast_S_S1x2097152 : (⟨S_, .f32⟩ : BufTy).Contents (Elt F) → (⟨S1x2097152, .f32⟩ : BufTy).Contents (Elt F)),
    StableHlo.binary main_v152 main_v103 main_v153 (subf : (⟨S1x2097152, .f32⟩ : BufTy).Contents (Elt F) → (⟨S1x2097152, .f32⟩ : BufTy).Contents (Elt F) → (⟨S1x2097152, .f32⟩ : BufTy).Contents (Elt F)),
    StableHlo.unary main_v153 main_v154 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v151 main_v154 main_v155 (mulf : (⟨S3x2097152, .f32⟩ : BufTy).Contents (Elt F) → (⟨S3x2097152, .f32⟩ : BufTy).Contents (Elt F) → (⟨S3x2097152, .f32⟩ : BufTy).Contents (Elt F)),
    StableHlo.binary main_v135 main_v155 main_v156 (addf : (⟨S3x2097152, .f32⟩ : BufTy).Contents (Elt F) → (⟨S3x2097152, .f32⟩ : BufTy).Contents (Elt F) → (⟨S3x2097152, .f32⟩ : BufTy).Contents (Elt F)),
    StableHlo.nullary main_c_46 (constantI S_ 32 0#32),
    StableHlo.unary main_c_46 main_v157 (broadcastInDim S2097152 ![] bcast_S_S2097152 : (⟨S_, .i32⟩ : BufTy).Contents (Elt F) → (⟨S2097152, .i32⟩ : BufTy).Contents (Elt F)),
    StableHlo.binary main_v104 main_v157 main_v158 (cmpi .slt : (⟨S2097152, .i32⟩ : BufTy).Contents (Elt F) → (⟨S2097152, .i32⟩ : BufTy).Contents (Elt F) → (⟨S2097152, .i1⟩ : BufTy).Contents (Elt F)),
    StableHlo.nullary main_c_47 (constantI S_ 32 64#32),
    StableHlo.unary main_c_47 main_v159 (broadcastInDim S2097152 ![] bcast_S_S2097152 : (⟨S_, .i32⟩ : BufTy).Contents (Elt F) → (⟨S2097152, .i32⟩ : BufTy).Contents (Elt F)),
    StableHlo.binary main_v104 main_v159 main_v160 (addi : (⟨S2097152, .i32⟩ : BufTy).Contents (Elt F) → (⟨S2097152, .i32⟩ : BufTy).Contents (Elt F) → (⟨S2097152, .i32⟩ : BufTy).Contents (Elt F)),
    StableHlo.ternary main_v158 main_v160 main_v104 main_v161 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_48 (constantI S_ 32 0#32),
    StableHlo.unary main_c_48 main_v162 (broadcastInDim S2097152 ![] bcast_S_S2097152 : (⟨S_, .i32⟩ : BufTy).Contents (Elt F) → (⟨S2097152, .i32⟩ : BufTy).Contents (Elt F)),
    StableHlo.binary main_v113 main_v162 main_v163 (cmpi .slt : (⟨S2097152, .i32⟩ : BufTy).Contents (Elt F) → (⟨S2097152, .i32⟩ : BufTy).Contents (Elt F) → (⟨S2097152, .i1⟩ : BufTy).Contents (Elt F)),
    StableHlo.nullary main_c_49 (constantI S_ 32 64#32),
    StableHlo.unary main_c_49 main_v164 (broadcastInDim S2097152 ![] bcast_S_S2097152 : (⟨S_, .i32⟩ : BufTy).Contents (Elt F) → (⟨S2097152, .i32⟩ : BufTy).Contents (Elt F)),
    StableHlo.binary main_v113 main_v164 main_v165 (addi : (⟨S2097152, .i32⟩ : BufTy).Contents (Elt F) → (⟨S2097152, .i32⟩ : BufTy).Contents (Elt F) → (⟨S2097152, .i32⟩ : BufTy).Contents (Elt F)),
    StableHlo.ternary main_v163 main_v165 main_v113 main_v166 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v161 main_v167 (broadcastInDim S2097152x1 ![0] bcast_S2097152_S2097152x1_0 : (⟨S2097152, .i32⟩ : BufTy).Contents (Elt F) → (⟨S2097152x1, .i32⟩ : BufTy).Contents (Elt F)),
    StableHlo.unary main_v166 main_v168 (broadcastInDim S2097152x1 ![0] bcast_S2097152_S2097152x1_0 : (⟨S2097152, .i32⟩ : BufTy).Contents (Elt F) → (⟨S2097152x1, .i32⟩ : BufTy).Contents (Elt F)),
    StableHlo.binary main_v167 main_v168 main_v169 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v91 main_v169 main_v170 ((fun x i => Host.gather gather_S3x64x64_S2097152x2_S3x2097152_0_12_n_n_12_1_311 x i) : (⟨S3x64x64, .f32⟩ : BufTy).Contents (Elt F) → (⟨S2097152x2, .i32⟩ : BufTy).Contents (Elt F) → (⟨S3x2097152, .f32⟩ : BufTy).Contents (Elt F)),
    StableHlo.nullary main_cst_50 (constant S_ .f32 0x3F800000#32),
    StableHlo.unary main_cst_50 main_v171 (broadcastInDim S1x2097152 ![] bcast_S_S1x2097152 : (⟨S_, .f32⟩ : BufTy).Contents (Elt F) → (⟨S1x2097152, .f32⟩ : BufTy).Contents (Elt F)),
    StableHlo.binary main_v171 main_v101 main_v172 (subf : (⟨S1x2097152, .f32⟩ : BufTy).Contents (Elt F) → (⟨S1x2097152, .f32⟩ : BufTy).Contents (Elt F) → (⟨S1x2097152, .f32⟩ : BufTy).Contents (Elt F)),
    StableHlo.unary main_v172 main_v173 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v170 main_v173 main_v174 (mulf : (⟨S3x2097152, .f32⟩ : BufTy).Contents (Elt F) → (⟨S3x2097152, .f32⟩ : BufTy).Contents (Elt F) → (⟨S3x2097152, .f32⟩ : BufTy).Contents (Elt F)),
    StableHlo.unary main_v103 main_v175 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v174 main_v175 main_v176 (mulf : (⟨S3x2097152, .f32⟩ : BufTy).Contents (Elt F) → (⟨S3x2097152, .f32⟩ : BufTy).Contents (Elt F) → (⟨S3x2097152, .f32⟩ : BufTy).Contents (Elt F)),
    StableHlo.binary main_v156 main_v176 main_v177 (addf : (⟨S3x2097152, .f32⟩ : BufTy).Contents (Elt F) → (⟨S3x2097152, .f32⟩ : BufTy).Contents (Elt F) → (⟨S3x2097152, .f32⟩ : BufTy).Contents (Elt F)),
    StableHlo.nullary main_c_51 (constantI S_ 32 0#32),
    StableHlo.unary main_c_51 main_v178 (broadcastInDim S2097152 ![] bcast_S_S2097152 : (⟨S_, .i32⟩ : BufTy).Contents (Elt F) → (⟨S2097152, .i32⟩ : BufTy).Contents (Elt F)),
    StableHlo.binary main_v109 main_v178 main_v179 (cmpi .slt : (⟨S2097152, .i32⟩ : BufTy).Contents (Elt F) → (⟨S2097152, .i32⟩ : BufTy).Contents (Elt F) → (⟨S2097152, .i1⟩ : BufTy).Contents (Elt F)),
    StableHlo.nullary main_c_52 (constantI S_ 32 64#32),
    StableHlo.unary main_c_52 main_v180 (broadcastInDim S2097152 ![] bcast_S_S2097152 : (⟨S_, .i32⟩ : BufTy).Contents (Elt F) → (⟨S2097152, .i32⟩ : BufTy).Contents (Elt F)),
    StableHlo.binary main_v109 main_v180 main_v181 (addi : (⟨S2097152, .i32⟩ : BufTy).Contents (Elt F) → (⟨S2097152, .i32⟩ : BufTy).Contents (Elt F) → (⟨S2097152, .i32⟩ : BufTy).Contents (Elt F)),
    StableHlo.ternary main_v179 main_v181 main_v109 main_v182 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_53 (constantI S_ 32 0#32),
    StableHlo.unary main_c_53 main_v183 (broadcastInDim S2097152 ![] bcast_S_S2097152 : (⟨S_, .i32⟩ : BufTy).Contents (Elt F) → (⟨S2097152, .i32⟩ : BufTy).Contents (Elt F)),
    StableHlo.binary main_v113 main_v183 main_v184 (cmpi .slt : (⟨S2097152, .i32⟩ : BufTy).Contents (Elt F) → (⟨S2097152, .i32⟩ : BufTy).Contents (Elt F) → (⟨S2097152, .i1⟩ : BufTy).Contents (Elt F)),
    StableHlo.nullary main_c_54 (constantI S_ 32 64#32),
    StableHlo.unary main_c_54 main_v185 (broadcastInDim S2097152 ![] bcast_S_S2097152 : (⟨S_, .i32⟩ : BufTy).Contents (Elt F) → (⟨S2097152, .i32⟩ : BufTy).Contents (Elt F)),
    StableHlo.binary main_v113 main_v185 main_v186 (addi : (⟨S2097152, .i32⟩ : BufTy).Contents (Elt F) → (⟨S2097152, .i32⟩ : BufTy).Contents (Elt F) → (⟨S2097152, .i32⟩ : BufTy).Contents (Elt F)),
    StableHlo.ternary main_v184 main_v186 main_v113 main_v187 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v182 main_v188 (broadcastInDim S2097152x1 ![0] bcast_S2097152_S2097152x1_0 : (⟨S2097152, .i32⟩ : BufTy).Contents (Elt F) → (⟨S2097152x1, .i32⟩ : BufTy).Contents (Elt F)),
    StableHlo.unary main_v187 main_v189 (broadcastInDim S2097152x1 ![0] bcast_S2097152_S2097152x1_0 : (⟨S2097152, .i32⟩ : BufTy).Contents (Elt F) → (⟨S2097152x1, .i32⟩ : BufTy).Contents (Elt F)),
    StableHlo.binary main_v188 main_v189 main_v190 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v91 main_v190 main_v191 ((fun x i => Host.gather gather_S3x64x64_S2097152x2_S3x2097152_0_12_n_n_12_1_311 x i) : (⟨S3x64x64, .f32⟩ : BufTy).Contents (Elt F) → (⟨S2097152x2, .i32⟩ : BufTy).Contents (Elt F) → (⟨S3x2097152, .f32⟩ : BufTy).Contents (Elt F)),
    StableHlo.unary main_v101 main_v192 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v191 main_v192 main_v193 (mulf : (⟨S3x2097152, .f32⟩ : BufTy).Contents (Elt F) → (⟨S3x2097152, .f32⟩ : BufTy).Contents (Elt F) → (⟨S3x2097152, .f32⟩ : BufTy).Contents (Elt F)),
    StableHlo.unary main_v103 main_v194 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v193 main_v194 main_v195 (mulf : (⟨S3x2097152, .f32⟩ : BufTy).Contents (Elt F) → (⟨S3x2097152, .f32⟩ : BufTy).Contents (Elt F) → (⟨S3x2097152, .f32⟩ : BufTy).Contents (Elt F)),
    StableHlo.binary main_v177 main_v195 main_v196 (addf : (⟨S3x2097152, .f32⟩ : BufTy).Contents (Elt F) → (⟨S3x2097152, .f32⟩ : BufTy).Contents (Elt F) → (⟨S3x2097152, .f32⟩ : BufTy).Contents (Elt F)) ]
/-- The references the operations of the chunk K3 write, in order. -/
abbrev K3w : List (Ref sig .tc) :=
  [main_v79, main_v80, main_cst_21, main_v81, main_v82, main_cst_22, main_v83, main_v84, main_cst_23, main_v85, main_v86, main_v87, main_v88, main_v89, main_cst_24, main_v90, main_v91, main_cst_25, main_cst_26, main_call6_v0, main_call6_v1, main_call6_v2, main_call6_v3, main_call6_v4, main_v92, main_cst_27, main_v93, main_v94, main_cst_28, main_cst_29, main_call7_v0, main_call7_v1, main_call7_v2, main_call7_v3, main_call7_v4, main_v95, main_cst_30, main_v96, main_v97, main_v98, main_v99, main_v100, main_v101, main_v102, main_v103, main_v104, main_v105, main_c_31, main_v106, main_v107, main_c_32, main_v108, main_v109, main_c_33, main_v110, main_v111, main_c_34, main_v112, main_v113, main_c_35, main_v114, main_v115, main_c_36, main_v116, main_v117, main_v118, main_c_37, main_v119, main_v120, main_c_38, main_v121, main_v122, main_v123, main_v124, main_v125, main_v126, main_v127, main_cst_39, main_v128, main_v129, main_v130, main_v131, main_cst_40, main_v132, main_v133, main_v134, main_v135, main_c_41, main_v136, main_v137, main_c_42, main_v138, main_v139, main_v140, main_c_43, main_v141, main_v142, main_c_44, main_v143, main_v144, main_v145, main_v146, main_v147, main_v148, main_v149, main_v150, main_v151, main_cst_45, main_v152, main_v153, main_v154, main_v155, main_v156, main_c_46, main_v157, main_v158, main_c_47, main_v159, main_v160, main_v161, main_c_48, main_v162, main_v163, main_c_49, main_v164, main_v165, main_v166, main_v167, main_v168, main_v169, main_v170, main_cst_50, main_v171, main_v172, main_v173, main_v174, main_v175, main_v176, main_v177, main_c_51, main_v178, main_v179, main_c_52, main_v180, main_v181, main_v182, main_c_53, main_v183, main_v184, main_c_54, main_v185, main_v186, main_v187, main_v188, main_v189, main_v190, main_v191, main_v192, main_v193, main_v194, main_v195, main_v196]

set_option maxHeartbeats 40000000 in
/-- Operations 279 to 423 of the program, in order (145 operations). -/
abbrev K4 : List (HloOp τ sig (Elt F)) :=
  [ StableHlo.nullary main_cst_55 (constant S_ .f32 0x00000000#32),
    StableHlo.nullary main_cst_56 (constant S_ .f32 0x3F7FFFEF#32),
    StableHlo.TRef.unary (.of main_cst_55 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S2097152, .f32⟩) (broadcastInDim S2097152 ![] bcast_S_S2097152),
    StableHlo.TRef.binary (.of main_call8_v1 : StableHlo.TRef sig ⟨S2097152, .f32⟩) (.of main_v50 : StableHlo.TRef sig ⟨S2097152, .f32⟩) (.of main_call8_v2 : StableHlo.TRef sig ⟨S2097152, .f32⟩) maximumf,
    StableHlo.TRef.unary (.of main_cst_56 : StableHlo.TRef sig ⟨S_, .f32⟩) (.of main_call8_v3 : StableHlo.TRef sig ⟨S_, .f32⟩) id,
    StableHlo.TRef.unary (.of main_call8_v3 : StableHlo.TRef sig ⟨S_, .f32⟩) (.of main_call8_v4 : StableHlo.TRef sig ⟨S2097152, .f32⟩) (broadcastInDim S2097152 ![] bcast_S_S2097152),
    StableHlo.TRef.binary (.of main_call8_v4 : StableHlo.TRef sig ⟨S2097152, .f32⟩) (.of main_call8_v2 : StableHlo.TRef sig ⟨S2097152, .f32⟩) (.of main_v197 : StableHlo.TRef sig ⟨S2097152, .f32⟩) minimumf,
    StableHlo.nullary main_cst_57 (constant S_ .f32 0x423C0000#32),
    StableHlo.unary main_cst_57 main_v198 (broadcastInDim S2097152 ![] bcast_S_S2097152 : (⟨S_, .f32⟩ : BufTy).Contents (Elt F) → (⟨S2097152, .f32⟩ : BufTy).Contents (Elt F)),
    StableHlo.binary main_v197 main_v198 main_v199 (mulf : (⟨S2097152, .f32⟩ : BufTy).Contents (Elt F) → (⟨S2097152, .f32⟩ : BufTy).Contents (Elt F) → (⟨S2097152, .f32⟩ : BufTy).Contents (Elt F)),
    StableHlo.nullary main_cst_58 (constant S_ .f32 0x00000000#32),
    StableHlo.nullary main_cst_59 (constant S_ .f32 0x3F7FFFEF#32),
    StableHlo.TRef.unary (.of main_cst_58 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S2097152, .f32⟩) (broadcastInDim S2097152 ![] bcast_S_S2097152),
    StableHlo.TRef.binary (.of main_call9_v1 : StableHlo.TRef sig ⟨S2097152, .f32⟩) (.of main_v52 : StableHlo.TRef sig ⟨S2097152, .f32⟩) (.of main_call9_v2 : StableHlo.TRef sig ⟨S2097152, .f32⟩) maximumf,
    StableHlo.TRef.unary (.of main_cst_59 : StableHlo.TRef sig ⟨S_, .f32⟩) (.of main_call9_v3 : StableHlo.TRef sig ⟨S_, .f32⟩) id,
    StableHlo.TRef.unary (.of main_call9_v3 : StableHlo.TRef sig ⟨S_, .f32⟩) (.of main_call9_v4 : StableHlo.TRef sig ⟨S2097152, .f32⟩) (broadcastInDim S2097152 ![] bcast_S_S2097152),
    StableHlo.TRef.binary (.of main_call9_v4 : StableHlo.TRef sig ⟨S2097152, .f32⟩) (.of main_call9_v2 : StableHlo.TRef sig ⟨S2097152, .f32⟩) (.of main_v200 : StableHlo.TRef sig ⟨S2097152, .f32⟩) minimumf,
    StableHlo.nullary main_cst_60 (constant S_ .f32 0x423C0000#32),
    StableHlo.unary main_cst_60 main_v201 (broadcastInDim S2097152 ![] bcast_S_S2097152 : (⟨S_, .f32⟩ : BufTy).Contents (Elt F) → (⟨S2097152, .f32⟩ : BufTy).Contents (Elt F)),
    StableHlo.binary main_v200 main_v201 main_v202 (mulf : (⟨S2097152, .f32⟩ : BufTy).Contents (Elt F) → (⟨S2097152, .f32⟩ : BufTy).Contents (Elt F) → (⟨S2097152, .f32⟩ : BufTy).Contents (Elt F)),
    StableHlo.unary main_v199 main_v203 (Host.floor : (⟨S2097152, .f32⟩ : BufTy).Contents (Elt F) → (⟨S2097152, .f32⟩ : BufTy).Contents (Elt F)),
    StableHlo.unary main_v202 main_v204 (Host.floor : (⟨S2097152, .f32⟩ : BufTy).Contents (Elt F) → (⟨S2097152, .f32⟩ : BufTy).Contents (Elt F)),
    StableHlo.binary main_v199 main_v203 main_v205 (subf : (⟨S2097152, .f32⟩ : BufTy).Contents (Elt F) → (⟨S2097152, .f32⟩ : BufTy).Contents (Elt F) → (⟨S2097152, .f32⟩ : BufTy).Contents (Elt F)),
    StableHlo.unary main_v205 main_v206 (broadcastInDim S1x2097152 ![1] bcast_S2097152_S1x2097152_1 : (⟨S2097152, .f32⟩ : BufTy).Contents (Elt F) → (⟨S1x2097152, .f32⟩ : BufTy).Contents (Elt F)),
    StableHlo.binary main_v202 main_v204 main_v207 (subf : (⟨S2097152, .f32⟩ : BufTy).Contents (Elt F) → (⟨S2097152, .f32⟩ : BufTy).Contents (Elt F) → (⟨S2097152, .f32⟩ : BufTy).Contents (Elt F)),
    StableHlo.unary main_v207 main_v208 (broadcastInDim S1x2097152 ![1] bcast_S2097152_S1x2097152_1 : (⟨S2097152, .f32⟩ : BufTy).Contents (Elt F) → (⟨S1x2097152, .f32⟩ : BufTy).Contents (Elt F)),
    StableHlo.unary main_v203 main_v209 (fptosi 32 : (⟨S2097152, .f32⟩ : BufTy).Contents (Elt F) → (⟨S2097152, .i32⟩ : BufTy).Contents (Elt F)),
    StableHlo.unary main_v204 main_v210 (fptosi 32 : (⟨S2097152, .f32⟩ : BufTy).Contents (Elt F) → (⟨S2097152, .i32⟩ : BufTy).Contents (Elt F)),
    StableHlo.nullary main_c_61 (constantI S_ 32 1#32),
    StableHlo.unary main_c_61 main_v211 (broadcastInDim S2097152 ![] bcast_S_S2097152 : (⟨S_, .i32⟩ : BufTy).Contents (Elt F) → (⟨S2097152, .i32⟩ : BufTy).Contents (Elt F)),
    StableHlo.binary main_v209 main_v211 main_v212 (addi : (⟨S2097152, .i32⟩ : BufTy).Contents (Elt F) → (⟨S2097152, .i32⟩ : BufTy).Contents (Elt F) → (⟨S2097152, .i32⟩ : BufTy).Contents (Elt F)),
    StableHlo.nullary main_c_62 (constantI S_ 32 47#32),
    StableHlo.unary main_c_62 main_v213 (broadcastInDim S2097152 ![] bcast_S_S2097152 : (⟨S_, .i32⟩ : BufTy).Contents (Elt F) → (⟨S2097152, .i32⟩ : BufTy).Contents (Elt F)),
    StableHlo.binary main_v212 main_v213 main_v214 (minsi : (⟨S2097152, .i32⟩ : BufTy).Contents (Elt F) → (⟨S2097152, .i32⟩ : BufTy).Contents (Elt F) → (⟨S2097152, .i32⟩ : BufTy).Contents (Elt F)),
    StableHlo.nullary main_c_63 (constantI S_ 32 1#32),
    StableHlo.unary main_c_63 main_v215 (broadcastInDim S2097152 ![] bcast_S_S2097152 : (⟨S_, .i32⟩ : BufTy).Contents (Elt F) → (⟨S2097152, .i32⟩ : BufTy).Contents (Elt F)),
    StableHlo.binary main_v210 main_v215 main_v216 (addi : (⟨S2097152, .i32⟩ : BufTy).Contents (Elt F) → (⟨S2097152, .i32⟩ : BufTy).Contents (Elt F) → (⟨S2097152, .i32⟩ : BufTy).Contents (Elt F)),
    StableHlo.nullary main_c_64 (constantI S_ 32 47#32),
    StableHlo.unary main_c_64 main_v217 (broadcastInDim S2097152 ![] bcast_S_S2097152 : (⟨S_, .i32⟩ : BufTy).Contents (Elt F) → (⟨S2097152, .i32⟩ : BufTy).Contents (Elt F)),
    StableHlo.binary main_v216 main_v217 main_v218 (minsi : (⟨S2097152, .i32⟩ : BufTy).Contents (Elt F) → (⟨S2097152, .i32⟩ : BufTy).Contents (Elt F) → (⟨S2097152, .i32⟩ : BufTy).Contents (Elt F)),
    StableHlo.nullary main_c_65 (constantI S_ 32 0#32),
    StableHlo.unary main_c_65 main_v219 (broadcastInDim S2097152 ![] bcast_S_S2097152 : (⟨S_, .i32⟩ : BufTy).Contents (Elt F) → (⟨S2097152, .i32⟩ : BufTy).Contents (Elt F)),
    StableHlo.binary main_v209 main_v219 main_v220 (cmpi .slt : (⟨S2097152, .i32⟩ : BufTy).Contents (Elt F) → (⟨S2097152, .i32⟩ : BufTy).Contents (Elt F) → (⟨S2097152, .i1⟩ : BufTy).Contents (Elt F)),
    StableHlo.nullary main_c_66 (constantI S_ 32 48#32),
    StableHlo.unary main_c_66 main_v221 (broadcastInDim S2097152 ![] bcast_S_S2097152 : (⟨S_, .i32⟩ : BufTy).Contents (Elt F) → (⟨S2097152, .i32⟩ : BufTy).Contents (Elt F)),
    StableHlo.binary main_v209 main_v221 main_v222 (addi : (⟨S2097152, .i32⟩ : BufTy).Contents (Elt F) → (⟨S2097152, .i32⟩ : BufTy).Contents (Elt F) → (⟨S2097152, .i32⟩ : BufTy).Contents (Elt F)),
    StableHlo.ternary main_v220 main_v222 main_v209 main_v223 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_67 (constantI S_ 32 0#32),
    StableHlo.unary main_c_67 main_v224 (broadcastInDim S2097152 ![] bcast_S_S2097152 : (⟨S_, .i32⟩ : BufTy).Contents (Elt F) → (⟨S2097152, .i32⟩ : BufTy).Contents (Elt F)),
    StableHlo.binary main_v210 main_v224 main_v225 (cmpi .slt : (⟨S2097152, .i32⟩ : BufTy).Contents (Elt F) → (⟨S2097152, .i32⟩ : BufTy).Contents (Elt F) → (⟨S2097152, .i1⟩ : BufTy).Contents (Elt F)),
    StableHlo.nullary main_c_68 (constantI S_ 32 48#32),
    StableHlo.unary main_c_68 main_v226 (broadcastInDim S2097152 ![] bcast_S_S2097152 : (⟨S_, .i32⟩ : BufTy).Contents (Elt F) → (⟨S2097152, .i32⟩ : BufTy).Contents (Elt F)),
    StableHlo.binary main_v210 main_v226 main_v227 (addi : (⟨S2097152, .i32⟩ : BufTy).Contents (Elt F) → (⟨S2097152, .i32⟩ : BufTy).Contents (Elt F) → (⟨S2097152, .i32⟩ : BufTy).Contents (Elt F)),
    StableHlo.ternary main_v225 main_v227 main_v210 main_v228 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v223 main_v229 (broadcastInDim S2097152x1 ![0] bcast_S2097152_S2097152x1_0 : (⟨S2097152, .i32⟩ : BufTy).Contents (Elt F) → (⟨S2097152x1, .i32⟩ : BufTy).Contents (Elt F)),
    StableHlo.unary main_v228 main_v230 (broadcastInDim S2097152x1 ![0] bcast_S2097152_S2097152x1_0 : (⟨S2097152, .i32⟩ : BufTy).Contents (Elt F) → (⟨S2097152x1, .i32⟩ : BufTy).Contents (Elt F)),
    StableHlo.binary main_v229 main_v230 main_v231 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v3 main_v231 main_v232 ((fun x i => Host.gather gather_S3x48x48_S2097152x2_S3x2097152_0_12_n_n_12_1_311 x i) : (⟨S3x48x48, .f32⟩ : BufTy).Contents (Elt F) → (⟨S2097152x2, .i32⟩ : BufTy).Contents (Elt F) → (⟨S3x2097152, .f32⟩ : BufTy).Contents (Elt F)),
    StableHlo.nullary main_cst_69 (constant S_ .f32 0x3F800000#32),
    StableHlo.unary main_cst_69 main_v233 (broadcastInDim S1x2097152 ![] bcast_S_S1x2097152 : (⟨S_, .f32⟩ : BufTy).Contents (Elt F) → (⟨S1x2097152, .f32⟩ : BufTy).Contents (Elt F)),
    StableHlo.binary main_v233 main_v206 main_v234 (subf : (⟨S1x2097152, .f32⟩ : BufTy).Contents (Elt F) → (⟨S1x2097152, .f32⟩ : BufTy).Contents (Elt F) → (⟨S1x2097152, .f32⟩ : BufTy).Contents (Elt F)),
    StableHlo.unary main_v234 main_v235 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v232 main_v235 main_v236 (mulf : (⟨S3x2097152, .f32⟩ : BufTy).Contents (Elt F) → (⟨S3x2097152, .f32⟩ : BufTy).Contents (Elt F) → (⟨S3x2097152, .f32⟩ : BufTy).Contents (Elt F)),
    StableHlo.nullary main_cst_70 (constant S_ .f32 0x3F800000#32),
    StableHlo.unary main_cst_70 main_v237 (broadcastInDim S1x2097152 ![] bcast_S_S1x2097152 : (⟨S_, .f32⟩ : BufTy).Contents (Elt F) → (⟨S1x2097152, .f32⟩ : BufTy).Contents (Elt F)),
    StableHlo.binary main_v237 main_v208 main_v238 (subf : (⟨S1x2097152, .f32⟩ : BufTy).Contents (Elt F) → (⟨S1x2097152, .f32⟩ : BufTy).Contents (Elt F) → (⟨S1x2097152, .f32⟩ : BufTy).Contents (Elt F)),
    StableHlo.unary main_v238 main_v239 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v236 main_v239 main_v240 (mulf : (⟨S3x2097152, .f32⟩ : BufTy).Contents (Elt F) → (⟨S3x2097152, .f32⟩ : BufTy).Contents (Elt F) → (⟨S3x2097152, .f32⟩ : BufTy).Contents (Elt F)),
    StableHlo.nullary main_c_71 (constantI S_ 32 0#32),
    StableHlo.unary main_c_71 main_v241 (broadcastInDim S2097152 ![] bcast_S_S2097152 : (⟨S_, .i32⟩ : BufTy).Contents (Elt F) → (⟨S2097152, .i32⟩ : BufTy).Contents (Elt F)),
    StableHlo.binary main_v214 main_v241 main_v242 (cmpi .slt : (⟨S2097152, .i32⟩ : BufTy).Contents (Elt F) → (⟨S2097152, .i32⟩ : BufTy).Contents (Elt F) → (⟨S2097152, .i1⟩ : BufTy).Contents (Elt F)),
    StableHlo.nullary main_c_72 (constantI S_ 32 48#32),
    StableHlo.unary main_c_72 main_v243 (broadcastInDim S2097152 ![] bcast_S_S2097152 : (⟨S_, .i32⟩ : BufTy).Contents (Elt F) → (⟨S2097152, .i32⟩ : BufTy).Contents (Elt F)),
    StableHlo.binary main_v214 main_v243 main_v244 (addi : (⟨S2097152, .i32⟩ : BufTy).Contents (Elt F) → (⟨S2097152, .i32⟩ : BufTy).Contents (Elt F) → (⟨S2097152, .i32⟩ : BufTy).Contents (Elt F)),
    StableHlo.ternary main_v242 main_v244 main_v214 main_v245 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_73 (constantI S_ 32 0#32),
    StableHlo.unary main_c_73 main_v246 (broadcastInDim S2097152 ![] bcast_S_S2097152 : (⟨S_, .i32⟩ : BufTy).Contents (Elt F) → (⟨S2097152, .i32⟩ : BufTy).Contents (Elt F)),
    StableHlo.binary main_v210 main_v246 main_v247 (cmpi .slt : (⟨S2097152, .i32⟩ : BufTy).Contents (Elt F) → (⟨S2097152, .i32⟩ : BufTy).Contents (Elt F) → (⟨S2097152, .i1⟩ : BufTy).Contents (Elt F)),
    StableHlo.nullary main_c_74 (constantI S_ 32 48#32),
    StableHlo.unary main_c_74 main_v248 (broadcastInDim S2097152 ![] bcast_S_S2097152 : (⟨S_, .i32⟩ : BufTy).Contents (Elt F) → (⟨S2097152, .i32⟩ : BufTy).Contents (Elt F)),
    StableHlo.binary main_v210 main_v248 main_v249 (addi : (⟨S2097152, .i32⟩ : BufTy).Contents (Elt F) → (⟨S2097152, .i32⟩ : BufTy).Contents (Elt F) → (⟨S2097152, .i32⟩ : BufTy).Contents (Elt F)),
    StableHlo.ternary main_v247 main_v249 main_v210 main_v250 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v245 main_v251 (broadcastInDim S2097152x1 ![0] bcast_S2097152_S2097152x1_0 : (⟨S2097152, .i32⟩ : BufTy).Contents (Elt F) → (⟨S2097152x1, .i32⟩ : BufTy).Contents (Elt F)),
    StableHlo.unary main_v250 main_v252 (broadcastInDim S2097152x1 ![0] bcast_S2097152_S2097152x1_0 : (⟨S2097152, .i32⟩ : BufTy).Contents (Elt F) → (⟨S2097152x1, .i32⟩ : BufTy).Contents (Elt F)),
    StableHlo.binary main_v251 main_v252 main_v253 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v3 main_v253 main_v254 ((fun x i => Host.gather gather_S3x48x48_S2097152x2_S3x2097152_0_12_n_n_12_1_311 x i) : (⟨S3x48x48, .f32⟩ : BufTy).Contents (Elt F) → (⟨S2097152x2, .i32⟩ : BufTy).Contents (Elt F) → (⟨S3x2097152, .f32⟩ : BufTy).Contents (Elt F)),
    StableHlo.unary main_v206 main_v255 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v254 main_v255 main_v256 (mulf : (⟨S3x2097152, .f32⟩ : BufTy).Contents (Elt F) → (⟨S3x2097152, .f32⟩ : BufTy).Contents (Elt F) → (⟨S3x2097152, .f32⟩ : BufTy).Contents (Elt F)),
    StableHlo.nullary main_cst_75 (constant S_ .f32 0x3F800000#32),
    StableHlo.unary main_cst_75 main_v257 (broadcastInDim S1x2097152 ![] bcast_S_S1x2097152 : (⟨S_, .f32⟩ : BufTy).Contents (Elt F) → (⟨S1x2097152, .f32⟩ : BufTy).Contents (Elt F)),
    StableHlo.binary main_v257 main_v208 main_v258 (subf : (⟨S1x2097152, .f32⟩ : BufTy).Contents (Elt F) → (⟨S1x2097152, .f32⟩ : BufTy).Contents (Elt F) → (⟨S1x2097152, .f32⟩ : BufTy).Contents (Elt F)),
    StableHlo.unary main_v258 main_v259 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v256 main_v259 main_v260 (mulf : (⟨S3x2097152, .f32⟩ : BufTy).Contents (Elt F) → (⟨S3x2097152, .f32⟩ : BufTy).Contents (Elt F) → (⟨S3x2097152, .f32⟩ : BufTy).Contents (Elt F)),
    StableHlo.binary main_v240 main_v260 main_v261 (addf : (⟨S3x2097152, .f32⟩ : BufTy).Contents (Elt F) → (⟨S3x2097152, .f32⟩ : BufTy).Contents (Elt F) → (⟨S3x2097152, .f32⟩ : BufTy).Contents (Elt F)),
    StableHlo.nullary main_c_76 (constantI S_ 32 0#32),
    StableHlo.unary main_c_76 main_v262 (broadcastInDim S2097152 ![] bcast_S_S2097152 : (⟨S_, .i32⟩ : BufTy).Contents (Elt F) → (⟨S2097152, .i32⟩ : BufTy).Contents (Elt F)),
    StableHlo.binary main_v209 main_v262 main_v263 (cmpi .slt : (⟨S2097152, .i32⟩ : BufTy).Contents (Elt F) → (⟨S2097152, .i32⟩ : BufTy).Contents (Elt F) → (⟨S2097152, .i1⟩ : BufTy).Contents (Elt F)),
    StableHlo.nullary main_c_77 (constantI S_ 32 48#32),
    StableHlo.unary main_c_77 main_v264 (broadcastInDim S2097152 ![] bcast_S_S2097152 : (⟨S_, .i32⟩ : BufTy).Contents (Elt F) → (⟨S2097152, .i32⟩ : BufTy).Contents (Elt F)),
    StableHlo.binary main_v209 main_v264 main_v265 (addi : (⟨S2097152, .i32⟩ : BufTy).Contents (Elt F) → (⟨S2097152, .i32⟩ : BufTy).Contents (Elt F) → (⟨S2097152, .i32⟩ : BufTy).Contents (Elt F)),
    StableHlo.ternary main_v263 main_v265 main_v209 main_v266 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_78 (constantI S_ 32 0#32),
    StableHlo.unary main_c_78 main_v267 (broadcastInDim S2097152 ![] bcast_S_S2097152 : (⟨S_, .i32⟩ : BufTy).Contents (Elt F) → (⟨S2097152, .i32⟩ : BufTy).Contents (Elt F)),
    StableHlo.binary main_v218 main_v267 main_v268 (cmpi .slt : (⟨S2097152, .i32⟩ : BufTy).Contents (Elt F) → (⟨S2097152, .i32⟩ : BufTy).Contents (Elt F) → (⟨S2097152, .i1⟩ : BufTy).Contents (Elt F)),
    StableHlo.nullary main_c_79 (constantI S_ 32 48#32),
    StableHlo.unary main_c_79 main_v269 (broadcastInDim S2097152 ![] bcast_S_S2097152 : (⟨S_, .i32⟩ : BufTy).Contents (Elt F) → (⟨S2097152, .i32⟩ : BufTy).Contents (Elt F)),
    StableHlo.binary main_v218 main_v269 main_v270 (addi : (⟨S2097152, .i32⟩ : BufTy).Contents (Elt F) → (⟨S2097152, .i32⟩ : BufTy).Contents (Elt F) → (⟨S2097152, .i32⟩ : BufTy).Contents (Elt F)),
    StableHlo.ternary main_v268 main_v270 main_v218 main_v271 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v266 main_v272 (broadcastInDim S2097152x1 ![0] bcast_S2097152_S2097152x1_0 : (⟨S2097152, .i32⟩ : BufTy).Contents (Elt F) → (⟨S2097152x1, .i32⟩ : BufTy).Contents (Elt F)),
    StableHlo.unary main_v271 main_v273 (broadcastInDim S2097152x1 ![0] bcast_S2097152_S2097152x1_0 : (⟨S2097152, .i32⟩ : BufTy).Contents (Elt F) → (⟨S2097152x1, .i32⟩ : BufTy).Contents (Elt F)),
    StableHlo.binary main_v272 main_v273 main_v274 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v3 main_v274 main_v275 ((fun x i => Host.gather gather_S3x48x48_S2097152x2_S3x2097152_0_12_n_n_12_1_311 x i) : (⟨S3x48x48, .f32⟩ : BufTy).Contents (Elt F) → (⟨S2097152x2, .i32⟩ : BufTy).Contents (Elt F) → (⟨S3x2097152, .f32⟩ : BufTy).Contents (Elt F)),
    StableHlo.nullary main_cst_80 (constant S_ .f32 0x3F800000#32),
    StableHlo.unary main_cst_80 main_v276 (broadcastInDim S1x2097152 ![] bcast_S_S1x2097152 : (⟨S_, .f32⟩ : BufTy).Contents (Elt F) → (⟨S1x2097152, .f32⟩ : BufTy).Contents (Elt F)),
    StableHlo.binary main_v276 main_v206 main_v277 (subf : (⟨S1x2097152, .f32⟩ : BufTy).Contents (Elt F) → (⟨S1x2097152, .f32⟩ : BufTy).Contents (Elt F) → (⟨S1x2097152, .f32⟩ : BufTy).Contents (Elt F)),
    StableHlo.unary main_v277 main_v278 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v275 main_v278 main_v279 (mulf : (⟨S3x2097152, .f32⟩ : BufTy).Contents (Elt F) → (⟨S3x2097152, .f32⟩ : BufTy).Contents (Elt F) → (⟨S3x2097152, .f32⟩ : BufTy).Contents (Elt F)),
    StableHlo.unary main_v208 main_v280 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v279 main_v280 main_v281 (mulf : (⟨S3x2097152, .f32⟩ : BufTy).Contents (Elt F) → (⟨S3x2097152, .f32⟩ : BufTy).Contents (Elt F) → (⟨S3x2097152, .f32⟩ : BufTy).Contents (Elt F)),
    StableHlo.binary main_v261 main_v281 main_v282 (addf : (⟨S3x2097152, .f32⟩ : BufTy).Contents (Elt F) → (⟨S3x2097152, .f32⟩ : BufTy).Contents (Elt F) → (⟨S3x2097152, .f32⟩ : BufTy).Contents (Elt F)),
    StableHlo.nullary main_c_81 (constantI S_ 32 0#32),
    StableHlo.unary main_c_81 main_v283 (broadcastInDim S2097152 ![] bcast_S_S2097152 : (⟨S_, .i32⟩ : BufTy).Contents (Elt F) → (⟨S2097152, .i32⟩ : BufTy).Contents (Elt F)),
    StableHlo.binary main_v214 main_v283 main_v284 (cmpi .slt : (⟨S2097152, .i32⟩ : BufTy).Contents (Elt F) → (⟨S2097152, .i32⟩ : BufTy).Contents (Elt F) → (⟨S2097152, .i1⟩ : BufTy).Contents (Elt F)),
    StableHlo.nullary main_c_82 (constantI S_ 32 48#32),
    StableHlo.unary main_c_82 main_v285 (broadcastInDim S2097152 ![] bcast_S_S2097152 : (⟨S_, .i32⟩ : BufTy).Contents (Elt F) → (⟨S2097152, .i32⟩ : BufTy).Contents (Elt F)),
    StableHlo.binary main_v214 main_v285 main_v286 (addi : (⟨S2097152, .i32⟩ : BufTy).Contents (Elt F) → (⟨S2097152, .i32⟩ : BufTy).Contents (Elt F) → (⟨S2097152, .i32⟩ : BufTy).Contents (Elt F)),
    StableHlo.ternary main_v284 main_v286 main_v214 main_v287 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_83 (constantI S_ 32 0#32),
    StableHlo.unary main_c_83 main_v288 (broadcastInDim S2097152 ![] bcast_S_S2097152 : (⟨S_, .i32⟩ : BufTy).Contents (Elt F) → (⟨S2097152, .i32⟩ : BufTy).Contents (Elt F)),
    StableHlo.binary main_v218 main_v288 main_v289 (cmpi .slt : (⟨S2097152, .i32⟩ : BufTy).Contents (Elt F) → (⟨S2097152, .i32⟩ : BufTy).Contents (Elt F) → (⟨S2097152, .i1⟩ : BufTy).Contents (Elt F)),
    StableHlo.nullary main_c_84 (constantI S_ 32 48#32),
    StableHlo.unary main_c_84 main_v290 (broadcastInDim S2097152 ![] bcast_S_S2097152 : (⟨S_, .i32⟩ : BufTy).Contents (Elt F) → (⟨S2097152, .i32⟩ : BufTy).Contents (Elt F)),
    StableHlo.binary main_v218 main_v290 main_v291 (addi : (⟨S2097152, .i32⟩ : BufTy).Contents (Elt F) → (⟨S2097152, .i32⟩ : BufTy).Contents (Elt F) → (⟨S2097152, .i32⟩ : BufTy).Contents (Elt F)),
    StableHlo.ternary main_v289 main_v291 main_v218 main_v292 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v287 main_v293 (broadcastInDim S2097152x1 ![0] bcast_S2097152_S2097152x1_0 : (⟨S2097152, .i32⟩ : BufTy).Contents (Elt F) → (⟨S2097152x1, .i32⟩ : BufTy).Contents (Elt F)),
    StableHlo.unary main_v292 main_v294 (broadcastInDim S2097152x1 ![0] bcast_S2097152_S2097152x1_0 : (⟨S2097152, .i32⟩ : BufTy).Contents (Elt F) → (⟨S2097152x1, .i32⟩ : BufTy).Contents (Elt F)),
    StableHlo.binary main_v293 main_v294 main_v295 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v3 main_v295 main_v296 ((fun x i => Host.gather gather_S3x48x48_S2097152x2_S3x2097152_0_12_n_n_12_1_311 x i) : (⟨S3x48x48, .f32⟩ : BufTy).Contents (Elt F) → (⟨S2097152x2, .i32⟩ : BufTy).Contents (Elt F) → (⟨S3x2097152, .f32⟩ : BufTy).Contents (Elt F)),
    StableHlo.unary main_v206 main_v297 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v296 main_v297 main_v298 (mulf : (⟨S3x2097152, .f32⟩ : BufTy).Contents (Elt F) → (⟨S3x2097152, .f32⟩ : BufTy).Contents (Elt F) → (⟨S3x2097152, .f32⟩ : BufTy).Contents (Elt F)),
    StableHlo.unary main_v208 main_v299 (broadcastInDim S3x2097152 ![0, 1] bcast_S1x2097152_S3x2097152_0_1 : (⟨S1x2097152, .f32⟩ : BufTy).Contents (Elt F) → (⟨S3x2097152, .f32⟩ : BufTy).Contents (Elt F)),
    StableHlo.binary main_v298 main_v299 main_v300 (mulf : (⟨S3x2097152, .f32⟩ : BufTy).Contents (Elt F) → (⟨S3x2097152, .f32⟩ : BufTy).Contents (Elt F) → (⟨S3x2097152, .f32⟩ : BufTy).Contents (Elt F)),
    StableHlo.binary main_v282 main_v300 main_v301 (addf : (⟨S3x2097152, .f32⟩ : BufTy).Contents (Elt F) → (⟨S3x2097152, .f32⟩ : BufTy).Contents (Elt F) → (⟨S3x2097152, .f32⟩ : BufTy).Contents (Elt F)) ]
/-- The references the operations of the chunk K4 write, in order. -/
abbrev K4w : List (Ref sig .tc) :=
  [main_cst_55, main_cst_56, main_call8_v0, main_call8_v1, main_call8_v2, main_call8_v3, main_call8_v4, main_v197, main_cst_57, main_v198, main_v199, main_cst_58, main_cst_59, main_call9_v0, main_call9_v1, main_call9_v2, main_call9_v3, main_call9_v4, main_v200, main_cst_60, main_v201, main_v202, main_v203, main_v204, main_v205, main_v206, main_v207, main_v208, main_v209, main_v210, main_c_61, main_v211, main_v212, main_c_62, main_v213, main_v214, main_c_63, main_v215, main_v216, main_c_64, main_v217, main_v218, main_c_65, main_v219, main_v220, main_c_66, main_v221, main_v222, main_v223, main_c_67, main_v224, main_v225, main_c_68, main_v226, main_v227, main_v228, main_v229, main_v230, main_v231, main_v232, main_cst_69, main_v233, main_v234, main_v235, main_v236, main_cst_70, main_v237, main_v238, main_v239, main_v240, main_c_71, main_v241, main_v242, main_c_72, main_v243, main_v244, main_v245, main_c_73, main_v246, main_v247, main_c_74, main_v248, main_v249, main_v250, main_v251, main_v252, main_v253, main_v254, main_v255, main_v256, main_cst_75, main_v257, main_v258, main_v259, main_v260, main_v261, main_c_76, main_v262, main_v263, main_c_77, main_v264, main_v265, main_v266, main_c_78, main_v267, main_v268, main_c_79, main_v269, main_v270, main_v271, main_v272, main_v273, main_v274, main_v275, main_cst_80, main_v276, main_v277, main_v278, main_v279, main_v280, main_v281, main_v282, main_c_81, main_v283, main_v284, main_c_82, main_v285, main_v286, main_v287, main_c_83, main_v288, main_v289, main_c_84, main_v290, main_v291, main_v292, main_v293, main_v294, main_v295, main_v296, main_v297, main_v298, main_v299, main_v300, main_v301]

set_option maxHeartbeats 40000000 in
/-- Operations 424 to 470 of the program, in order (47 operations). -/
abbrev K5 : List (HloOp τ sig (Elt F)) :=
  [ StableHlo.nullary main_cst_85 (constant S_ .f32 0x00000000#32),
    StableHlo.nullary main_cst_86 (constant S_ .f32 0x3F7FFFEF#32),
    StableHlo.TRef.unary (.of main_cst_85 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S2097152, .f32⟩) (broadcastInDim S2097152 ![] bcast_S_S2097152),
    StableHlo.TRef.binary (.of main_call10_v1 : StableHlo.TRef sig ⟨S2097152, .f32⟩) (.of main_v78 : StableHlo.TRef sig ⟨S2097152, .f32⟩) (.of main_call10_v2 : StableHlo.TRef sig ⟨S2097152, .f32⟩) maximumf,
    StableHlo.TRef.unary (.of main_cst_86 : StableHlo.TRef sig ⟨S_, .f32⟩) (.of main_call10_v3 : StableHlo.TRef sig ⟨S_, .f32⟩) id,
    StableHlo.TRef.unary (.of main_call10_v3 : StableHlo.TRef sig ⟨S_, .f32⟩) (.of main_call10_v4 : StableHlo.TRef sig ⟨S2097152, .f32⟩) (broadcastInDim S2097152 ![] bcast_S_S2097152),
    StableHlo.TRef.binary (.of main_call10_v4 : StableHlo.TRef sig ⟨S2097152, .f32⟩) (.of main_call10_v2 : StableHlo.TRef sig ⟨S2097152, .f32⟩) (.of main_v302 : StableHlo.TRef sig ⟨S2097152, .f32⟩) minimumf,
    StableHlo.nullary main_cst_87 (constant S_ .f32 0x42BE0000#32),
    StableHlo.unary main_cst_87 main_v303 (broadcastInDim S2097152 ![] bcast_S_S2097152 : (⟨S_, .f32⟩ : BufTy).Contents (Elt F) → (⟨S2097152, .f32⟩ : BufTy).Contents (Elt F)),
    StableHlo.binary main_v302 main_v303 main_v304 (mulf : (⟨S2097152, .f32⟩ : BufTy).Contents (Elt F) → (⟨S2097152, .f32⟩ : BufTy).Contents (Elt F) → (⟨S2097152, .f32⟩ : BufTy).Contents (Elt F)),
    StableHlo.unary main_v304 main_v305 (Host.floor : (⟨S2097152, .f32⟩ : BufTy).Contents (Elt F) → (⟨S2097152, .f32⟩ : BufTy).Contents (Elt F)),
    StableHlo.binary main_v304 main_v305 main_v306 (subf : (⟨S2097152, .f32⟩ : BufTy).Contents (Elt F) → (⟨S2097152, .f32⟩ : BufTy).Contents (Elt F) → (⟨S2097152, .f32⟩ : BufTy).Contents (Elt F)),
    StableHlo.unary main_v306 main_v307 (broadcastInDim S1x2097152 ![1] bcast_S2097152_S1x2097152_1 : (⟨S2097152, .f32⟩ : BufTy).Contents (Elt F) → (⟨S1x2097152, .f32⟩ : BufTy).Contents (Elt F)),
    StableHlo.unary main_v305 main_v308 (fptosi 32 : (⟨S2097152, .f32⟩ : BufTy).Contents (Elt F) → (⟨S2097152, .i32⟩ : BufTy).Contents (Elt F)),
    StableHlo.nullary main_c_88 (constantI S_ 32 1#32),
    StableHlo.unary main_c_88 main_v309 (broadcastInDim S2097152 ![] bcast_S_S2097152 : (⟨S_, .i32⟩ : BufTy).Contents (Elt F) → (⟨S2097152, .i32⟩ : BufTy).Contents (Elt F)),
    StableHlo.binary main_v308 main_v309 main_v310 (addi : (⟨S2097152, .i32⟩ : BufTy).Contents (Elt F) → (⟨S2097152, .i32⟩ : BufTy).Contents (Elt F) → (⟨S2097152, .i32⟩ : BufTy).Contents (Elt F)),
    StableHlo.nullary main_c_89 (constantI S_ 32 95#32),
    StableHlo.unary main_c_89 main_v311 (broadcastInDim S2097152 ![] bcast_S_S2097152 : (⟨S_, .i32⟩ : BufTy).Contents (Elt F) → (⟨S2097152, .i32⟩ : BufTy).Contents (Elt F)),
    StableHlo.binary main_v310 main_v311 main_v312 (minsi : (⟨S2097152, .i32⟩ : BufTy).Contents (Elt F) → (⟨S2097152, .i32⟩ : BufTy).Contents (Elt F) → (⟨S2097152, .i32⟩ : BufTy).Contents (Elt F)),
    StableHlo.nullary main_c_90 (constantI S_ 32 0#32),
    StableHlo.unary main_c_90 main_v313 (broadcastInDim S2097152 ![] bcast_S_S2097152 : (⟨S_, .i32⟩ : BufTy).Contents (Elt F) → (⟨S2097152, .i32⟩ : BufTy).Contents (Elt F)),
    StableHlo.binary main_v308 main_v313 main_v314 (cmpi .slt : (⟨S2097152, .i32⟩ : BufTy).Contents (Elt F) → (⟨S2097152, .i32⟩ : BufTy).Contents (Elt F) → (⟨S2097152, .i1⟩ : BufTy).Contents (Elt F)),
    StableHlo.nullary main_c_91 (constantI S_ 32 96#32),
    StableHlo.unary main_c_91 main_v315 (broadcastInDim S2097152 ![] bcast_S_S2097152 : (⟨S_, .i32⟩ : BufTy).Contents (Elt F) → (⟨S2097152, .i32⟩ : BufTy).Contents (Elt F)),
    StableHlo.binary main_v308 main_v315 main_v316 (addi : (⟨S2097152, .i32⟩ : BufTy).Contents (Elt F) → (⟨S2097152, .i32⟩ : BufTy).Contents (Elt F) → (⟨S2097152, .i32⟩ : BufTy).Contents (Elt F)),
    StableHlo.ternary main_v314 main_v316 main_v308 main_v317 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v317 main_v318 (broadcastInDim S2097152x1 ![0] bcast_S2097152_S2097152x1_0 : (⟨S2097152, .i32⟩ : BufTy).Contents (Elt F) → (⟨S2097152x1, .i32⟩ : BufTy).Contents (Elt F)),
    StableHlo.binary main_v4 main_v318 main_v319 ((fun x i => Host.gather gather_S2x96_S2097152x1_S2x2097152_0_1_n_n_1_1_21 x i) : (⟨S2x96, .f32⟩ : BufTy).Contents (Elt F) → (⟨S2097152x1, .i32⟩ : BufTy).Contents (Elt F) → (⟨S2x2097152, .f32⟩ : BufTy).Contents (Elt F)),
    StableHlo.nullary main_cst_92 (constant S_ .f32 0x3F800000#32),
    StableHlo.unary main_cst_92 main_v320 (broadcastInDim S1x2097152 ![] bcast_S_S1x2097152 : (⟨S_, .f32⟩ : BufTy).Contents (Elt F) → (⟨S1x2097152, .f32⟩ : BufTy).Contents (Elt F)),
    StableHlo.binary main_v320 main_v307 main_v321 (subf : (⟨S1x2097152, .f32⟩ : BufTy).Contents (Elt F) → (⟨S1x2097152, .f32⟩ : BufTy).Contents (Elt F) → (⟨S1x2097152, .f32⟩ : BufTy).Contents (Elt F)),
    StableHlo.unary main_v321 main_v322 (broadcastInDim S2x2097152 ![0, 1] bcast_S1x2097152_S2x2097152_0_1 : (⟨S1x2097152, .f32⟩ : BufTy).Contents (Elt F) → (⟨S2x2097152, .f32⟩ : BufTy).Contents (Elt F)),
    StableHlo.binary main_v319 main_v322 main_v323 (mulf : (⟨S2x2097152, .f32⟩ : BufTy).Contents (Elt F) → (⟨S2x2097152, .f32⟩ : BufTy).Contents (Elt F) → (⟨S2x2097152, .f32⟩ : BufTy).Contents (Elt F)),
    StableHlo.nullary main_c_93 (constantI S_ 32 0#32),
    StableHlo.unary main_c_93 main_v324 (broadcastInDim S2097152 ![] bcast_S_S2097152 : (⟨S_, .i32⟩ : BufTy).Contents (Elt F) → (⟨S2097152, .i32⟩ : BufTy).Contents (Elt F)),
    StableHlo.binary main_v312 main_v324 main_v325 (cmpi .slt : (⟨S2097152, .i32⟩ : BufTy).Contents (Elt F) → (⟨S2097152, .i32⟩ : BufTy).Contents (Elt F) → (⟨S2097152, .i1⟩ : BufTy).Contents (Elt F)),
    StableHlo.nullary main_c_94 (constantI S_ 32 96#32),
    StableHlo.unary main_c_94 main_v326 (broadcastInDim S2097152 ![] bcast_S_S2097152 : (⟨S_, .i32⟩ : BufTy).Contents (Elt F) → (⟨S2097152, .i32⟩ : BufTy).Contents (Elt F)),
    StableHlo.binary main_v312 main_v326 main_v327 (addi : (⟨S2097152, .i32⟩ : BufTy).Contents (Elt F) → (⟨S2097152, .i32⟩ : BufTy).Contents (Elt F) → (⟨S2097152, .i32⟩ : BufTy).Contents (Elt F)),
    StableHlo.ternary main_v325 main_v327 main_v312 main_v328 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v328 main_v329 (broadcastInDim S2097152x1 ![0] bcast_S2097152_S2097152x1_0 : (⟨S2097152, .i32⟩ : BufTy).Contents (Elt F) → (⟨S2097152x1, .i32⟩ : BufTy).Contents (Elt F)),
    StableHlo.binary main_v4 main_v329 main_v330 ((fun x i => Host.gather gather_S2x96_S2097152x1_S2x2097152_0_1_n_n_1_1_21 x i) : (⟨S2x96, .f32⟩ : BufTy).Contents (Elt F) → (⟨S2097152x1, .i32⟩ : BufTy).Contents (Elt F) → (⟨S2x2097152, .f32⟩ : BufTy).Contents (Elt F)),
    StableHlo.unary main_v307 main_v331 (broadcastInDim S2x2097152 ![0, 1] bcast_S1x2097152_S2x2097152_0_1 : (⟨S1x2097152, .f32⟩ : BufTy).Contents (Elt F) → (⟨S2x2097152, .f32⟩ : BufTy).Contents (Elt F)),
    StableHlo.binary main_v330 main_v331 main_v332 (mulf : (⟨S2x2097152, .f32⟩ : BufTy).Contents (Elt F) → (⟨S2x2097152, .f32⟩ : BufTy).Contents (Elt F) → (⟨S2x2097152, .f32⟩ : BufTy).Contents (Elt F)),
    StableHlo.binary main_v323 main_v332 main_v333 (addf : (⟨S2x2097152, .f32⟩ : BufTy).Contents (Elt F) → (⟨S2x2097152, .f32⟩ : BufTy).Contents (Elt F) → (⟨S2x2097152, .f32⟩ : BufTy).Contents (Elt F)) ]
/-- The references the operations of the chunk K5 write, in order. -/
abbrev K5w : List (Ref sig .tc) :=
  [main_cst_85, main_cst_86, main_call10_v0, main_call10_v1, main_call10_v2, main_call10_v3, main_call10_v4, main_v302, main_cst_87, main_v303, main_v304, main_v305, main_v306, main_v307, main_v308, main_c_88, main_v309, main_v310, main_c_89, main_v311, main_v312, main_c_90, main_v313, main_v314, main_c_91, main_v315, main_v316, main_v317, main_v318, main_v319, main_cst_92, main_v320, main_v321, main_v322, main_v323, main_c_93, main_v324, main_v325, main_c_94, main_v326, main_v327, main_v328, main_v329, main_v330, main_v331, main_v332, main_v333]

set_option maxHeartbeats 40000000 in
/-- Operations 471 to 627 of the program, in order (157 operations). -/
abbrev K6 : List (HloOp τ sig (Elt F)) :=
  [ StableHlo.unary main_arg2 main_v334 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v334 main_v335 rfl shapeCasts_S2097152x1_S2097152,
    StableHlo.unary main_arg2 main_v336 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v336 main_v337 rfl shapeCasts_S2097152x1_S2097152,
    StableHlo.binary main_v335 main_v337 main_v338 (mulf : (⟨S2097152, .f32⟩ : BufTy).Contents (Elt F) → (⟨S2097152, .f32⟩ : BufTy).Contents (Elt F) → (⟨S2097152, .f32⟩ : BufTy).Contents (Elt F)),
    StableHlo.nullary main_cst_95 (constant S_ .f32 0x40000000#32),
    StableHlo.unary main_cst_95 main_v339 (broadcastInDim S1x32x32 ![] bcast_S_S1x32x32 : (⟨S_, .f32⟩ : BufTy).Contents (Elt F) → (⟨S1x32x32, .f32⟩ : BufTy).Contents (Elt F)),
    StableHlo.binary main_v5 main_v339 main_v340 (Host.divf : (⟨S1x32x32, .f32⟩ : BufTy).Contents (Elt F) → (⟨S1x32x32, .f32⟩ : BufTy).Contents (Elt F) → (⟨S1x32x32, .f32⟩ : BufTy).Contents (Elt F)),
    StableHlo.nullary main_cst_96 (constant S_ .f32 0x40000000#32),
    StableHlo.unary main_cst_96 main_v341 (broadcastInDim S1x32x32 ![] bcast_S_S1x32x32 : (⟨S_, .f32⟩ : BufTy).Contents (Elt F) → (⟨S1x32x32, .f32⟩ : BufTy).Contents (Elt F)),
    StableHlo.binary main_v5 main_v341 main_v342 (Host.divf : (⟨S1x32x32, .f32⟩ : BufTy).Contents (Elt F) → (⟨S1x32x32, .f32⟩ : BufTy).Contents (Elt F) → (⟨S1x32x32, .f32⟩ : BufTy).Contents (Elt F)),
    StableHlo.nullary main_cst_97 (constant S_ .f32 0x3F000000#32),
    StableHlo.unary main_cst_97 main_v343 (broadcastInDim S1x32x32 ![] bcast_S_S1x32x32 : (⟨S_, .f32⟩ : BufTy).Contents (Elt F) → (⟨S1x32x32, .f32⟩ : BufTy).Contents (Elt F)),
    StableHlo.binary main_v342 main_v343 main_v344 (addf : (⟨S1x32x32, .f32⟩ : BufTy).Contents (Elt F) → (⟨S1x32x32, .f32⟩ : BufTy).Contents (Elt F) → (⟨S1x32x32, .f32⟩ : BufTy).Contents (Elt F)),
    StableHlo.unary main_v344 main_v345 (Host.floor : (⟨S1x32x32, .f32⟩ : BufTy).Contents (Elt F) → (⟨S1x32x32, .f32⟩ : BufTy).Contents (Elt F)),
    StableHlo.binary main_v340 main_v345 main_v346 (subf : (⟨S1x32x32, .f32⟩ : BufTy).Contents (Elt F) → (⟨S1x32x32, .f32⟩ : BufTy).Contents (Elt F) → (⟨S1x32x32, .f32⟩ : BufTy).Contents (Elt F)),
    StableHlo.unary main_v346 main_v347 (Host.absf : (⟨S1x32x32, .f32⟩ : BufTy).Contents (Elt F) → (⟨S1x32x32, .f32⟩ : BufTy).Contents (Elt F)),
    StableHlo.nullary main_cst_98 (constant S_ .f32 0x40000000#32),
    StableHlo.unary main_cst_98 main_v348 (broadcastInDim S1x32x32 ![] bcast_S_S1x32x32 : (⟨S_, .f32⟩ : BufTy).Contents (Elt F) → (⟨S1x32x32, .f32⟩ : BufTy).Contents (Elt F)),
    StableHlo.binary main_v348 main_v347 main_v349 (mulf : (⟨S1x32x32, .f32⟩ : BufTy).Contents (Elt F) → (⟨S1x32x32, .f32⟩ : BufTy).Contents (Elt F) → (⟨S1x32x32, .f32⟩ : BufTy).Contents (Elt F)),
    StableHlo.nullary main_cst_99 (constant S_ .f32 0x00000000#32),
    StableHlo.nullary main_cst_100 (constant S_ .f32 0x3F7FFFEF#32),
    StableHlo.TRef.unary (.of main_cst_99 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S2097152, .f32⟩) (broadcastInDim S2097152 ![] bcast_S_S2097152),
    StableHlo.TRef.binary (.of main_call11_v1 : StableHlo.TRef sig ⟨S2097152, .f32⟩) (.of main_v338 : StableHlo.TRef sig ⟨S2097152, .f32⟩) (.of main_call11_v2 : StableHlo.TRef sig ⟨S2097152, .f32⟩) maximumf,
    StableHlo.TRef.unary (.of main_cst_100 : StableHlo.TRef sig ⟨S_, .f32⟩) (.of main_call11_v3 : StableHlo.TRef sig ⟨S_, .f32⟩) id,
    StableHlo.TRef.unary (.of main_call11_v3 : StableHlo.TRef sig ⟨S_, .f32⟩) (.of main_call11_v4 : StableHlo.TRef sig ⟨S2097152, .f32⟩) (broadcastInDim S2097152 ![] bcast_S_S2097152),
    StableHlo.TRef.binary (.of main_call11_v4 : StableHlo.TRef sig ⟨S2097152, .f32⟩) (.of main_call11_v2 : StableHlo.TRef sig ⟨S2097152, .f32⟩) (.of main_v350 : StableHlo.TRef sig ⟨S2097152, .f32⟩) minimumf,
    StableHlo.nullary main_cst_101 (constant S_ .f32 0x41F80000#32),
    StableHlo.unary main_cst_101 main_v351 (broadcastInDim S2097152 ![] bcast_S_S2097152 : (⟨S_, .f32⟩ : BufTy).Contents (Elt F) → (⟨S2097152, .f32⟩ : BufTy).Contents (Elt F)),
    StableHlo.binary main_v350 main_v351 main_v352 (mulf : (⟨S2097152, .f32⟩ : BufTy).Contents (Elt F) → (⟨S2097152, .f32⟩ : BufTy).Contents (Elt F) → (⟨S2097152, .f32⟩ : BufTy).Contents (Elt F)),
    StableHlo.nullary main_cst_102 (constant S_ .f32 0x00000000#32),
    StableHlo.nullary main_cst_103 (constant S_ .f32 0x3F7FFFEF#32),
    StableHlo.TRef.unary (.of main_cst_102 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S2097152, .f32⟩) (broadcastInDim S2097152 ![] bcast_S_S2097152),
    StableHlo.TRef.binary (.of main_call12_v1 : StableHlo.TRef sig ⟨S2097152, .f32⟩) (.of main_v50 : StableHlo.TRef sig ⟨S2097152, .f32⟩) (.of main_call12_v2 : StableHlo.TRef sig ⟨S2097152, .f32⟩) maximumf,
    StableHlo.TRef.unary (.of main_cst_103 : StableHlo.TRef sig ⟨S_, .f32⟩) (.of main_call12_v3 : StableHlo.TRef sig ⟨S_, .f32⟩) id,
    StableHlo.TRef.unary (.of main_call12_v3 : StableHlo.TRef sig ⟨S_, .f32⟩) (.of main_call12_v4 : StableHlo.TRef sig ⟨S2097152, .f32⟩) (broadcastInDim S2097152 ![] bcast_S_S2097152),
    StableHlo.TRef.binary (.of main_call12_v4 : StableHlo.TRef sig ⟨S2097152, .f32⟩) (.of main_call12_v2 : StableHlo.TRef sig ⟨S2097152, .f32⟩) (.of main_v353 : StableHlo.TRef sig ⟨S2097152, .f32⟩) minimumf,
    StableHlo.nullary main_cst_104 (constant S_ .f32 0x41F80000#32),
    StableHlo.unary main_cst_104 main_v354 (broadcastInDim S2097152 ![] bcast_S_S2097152 : (⟨S_, .f32⟩ : BufTy).Contents (Elt F) → (⟨S2097152, .f32⟩ : BufTy).Contents (Elt F)),
    StableHlo.binary main_v353 main_v354 main_v355 (mulf : (⟨S2097152, .f32⟩ : BufTy).Contents (Elt F) → (⟨S2097152, .f32⟩ : BufTy).Contents (Elt F) → (⟨S2097152, .f32⟩ : BufTy).Contents (Elt F)),
    StableHlo.unary main_v352 main_v356 (Host.floor : (⟨S2097152, .f32⟩ : BufTy).Contents (Elt F) → (⟨S2097152, .f32⟩ : BufTy).Contents (Elt F)),
    StableHlo.unary main_v355 main_v357 (Host.floor : (⟨S2097152, .f32⟩ : BufTy).Contents (Elt F) → (⟨S2097152, .f32⟩ : BufTy).Contents (Elt F)),
    StableHlo.binary main_v352 main_v356 main_v358 (subf : (⟨S2097152, .f32⟩ : BufTy).Contents (Elt F) → (⟨S2097152, .f32⟩ : BufTy).Contents (Elt F) → (⟨S2097152, .f32⟩ : BufTy).Contents (Elt F)),
    StableHlo.unary main_v358 main_v359 (broadcastInDim S1x2097152 ![1] bcast_S2097152_S1x2097152_1 : (⟨S2097152, .f32⟩ : BufTy).Contents (Elt F) → (⟨S1x2097152, .f32⟩ : BufTy).Contents (Elt F)),
    StableHlo.binary main_v355 main_v357 main_v360 (subf : (⟨S2097152, .f32⟩ : BufTy).Contents (Elt F) → (⟨S2097152, .f32⟩ : BufTy).Contents (Elt F) → (⟨S2097152, .f32⟩ : BufTy).Contents (Elt F)),
    StableHlo.unary main_v360 main_v361 (broadcastInDim S1x2097152 ![1] bcast_S2097152_S1x2097152_1 : (⟨S2097152, .f32⟩ : BufTy).Contents (Elt F) → (⟨S1x2097152, .f32⟩ : BufTy).Contents (Elt F)),
    StableHlo.unary main_v356 main_v362 (fptosi 32 : (⟨S2097152, .f32⟩ : BufTy).Contents (Elt F) → (⟨S2097152, .i32⟩ : BufTy).Contents (Elt F)),
    StableHlo.unary main_v357 main_v363 (fptosi 32 : (⟨S2097152, .f32⟩ : BufTy).Contents (Elt F) → (⟨S2097152, .i32⟩ : BufTy).Contents (Elt F)),
    StableHlo.nullary main_c_105 (constantI S_ 32 1#32),
    StableHlo.unary main_c_105 main_v364 (broadcastInDim S2097152 ![] bcast_S_S2097152 : (⟨S_, .i32⟩ : BufTy).Contents (Elt F) → (⟨S2097152, .i32⟩ : BufTy).Contents (Elt F)),
    StableHlo.binary main_v362 main_v364 main_v365 (addi : (⟨S2097152, .i32⟩ : BufTy).Contents (Elt F) → (⟨S2097152, .i32⟩ : BufTy).Contents (Elt F) → (⟨S2097152, .i32⟩ : BufTy).Contents (Elt F)),
    StableHlo.nullary main_c_106 (constantI S_ 32 31#32),
    StableHlo.unary main_c_106 main_v366 (broadcastInDim S2097152 ![] bcast_S_S2097152 : (⟨S_, .i32⟩ : BufTy).Contents (Elt F) → (⟨S2097152, .i32⟩ : BufTy).Contents (Elt F)),
    StableHlo.binary main_v365 main_v366 main_v367 (minsi : (⟨S2097152, .i32⟩ : BufTy).Contents (Elt F) → (⟨S2097152, .i32⟩ : BufTy).Contents (Elt F) → (⟨S2097152, .i32⟩ : BufTy).Contents (Elt F)),
    StableHlo.nullary main_c_107 (constantI S_ 32 1#32),
    StableHlo.unary main_c_107 main_v368 (broadcastInDim S2097152 ![] bcast_S_S2097152 : (⟨S_, .i32⟩ : BufTy).Contents (Elt F) → (⟨S2097152, .i32⟩ : BufTy).Contents (Elt F)),
    StableHlo.binary main_v363 main_v368 main_v369 (addi : (⟨S2097152, .i32⟩ : BufTy).Contents (Elt F) → (⟨S2097152, .i32⟩ : BufTy).Contents (Elt F) → (⟨S2097152, .i32⟩ : BufTy).Contents (Elt F)),
    StableHlo.nullary main_c_108 (constantI S_ 32 31#32),
    StableHlo.unary main_c_108 main_v370 (broadcastInDim S2097152 ![] bcast_S_S2097152 : (⟨S_, .i32⟩ : BufTy).Contents (Elt F) → (⟨S2097152, .i32⟩ : BufTy).Contents (Elt F)),
    StableHlo.binary main_v369 main_v370 main_v371 (minsi : (⟨S2097152, .i32⟩ : BufTy).Contents (Elt F) → (⟨S2097152, .i32⟩ : BufTy).Contents (Elt F) → (⟨S2097152, .i32⟩ : BufTy).Contents (Elt F)),
    StableHlo.nullary main_c_109 (constantI S_ 32 0#32),
    StableHlo.unary main_c_109 main_v372 (broadcastInDim S2097152 ![] bcast_S_S2097152 : (⟨S_, .i32⟩ : BufTy).Contents (Elt F) → (⟨S2097152, .i32⟩ : BufTy).Contents (Elt F)),
    StableHlo.binary main_v362 main_v372 main_v373 (cmpi .slt : (⟨S2097152, .i32⟩ : BufTy).Contents (Elt F) → (⟨S2097152, .i32⟩ : BufTy).Contents (Elt F) → (⟨S2097152, .i1⟩ : BufTy).Contents (Elt F)),
    StableHlo.nullary main_c_110 (constantI S_ 32 32#32),
    StableHlo.unary main_c_110 main_v374 (broadcastInDim S2097152 ![] bcast_S_S2097152 : (⟨S_, .i32⟩ : BufTy).Contents (Elt F) → (⟨S2097152, .i32⟩ : BufTy).Contents (Elt F)),
    StableHlo.binary main_v362 main_v374 main_v375 (addi : (⟨S2097152, .i32⟩ : BufTy).Contents (Elt F) → (⟨S2097152, .i32⟩ : BufTy).Contents (Elt F) → (⟨S2097152, .i32⟩ : BufTy).Contents (Elt F)),
    StableHlo.ternary main_v373 main_v375 main_v362 main_v376 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_111 (constantI S_ 32 0#32),
    StableHlo.unary main_c_111 main_v377 (broadcastInDim S2097152 ![] bcast_S_S2097152 : (⟨S_, .i32⟩ : BufTy).Contents (Elt F) → (⟨S2097152, .i32⟩ : BufTy).Contents (Elt F)),
    StableHlo.binary main_v363 main_v377 main_v378 (cmpi .slt : (⟨S2097152, .i32⟩ : BufTy).Contents (Elt F) → (⟨S2097152, .i32⟩ : BufTy).Contents (Elt F) → (⟨S2097152, .i1⟩ : BufTy).Contents (Elt F)),
    StableHlo.nullary main_c_112 (constantI S_ 32 32#32),
    StableHlo.unary main_c_112 main_v379 (broadcastInDim S2097152 ![] bcast_S_S2097152 : (⟨S_, .i32⟩ : BufTy).Contents (Elt F) → (⟨S2097152, .i32⟩ : BufTy).Contents (Elt F)),
    StableHlo.binary main_v363 main_v379 main_v380 (addi : (⟨S2097152, .i32⟩ : BufTy).Contents (Elt F) → (⟨S2097152, .i32⟩ : BufTy).Contents (Elt F) → (⟨S2097152, .i32⟩ : BufTy).Contents (Elt F)),
    StableHlo.ternary main_v378 main_v380 main_v363 main_v381 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v376 main_v382 (broadcastInDim S2097152x1 ![0] bcast_S2097152_S2097152x1_0 : (⟨S2097152, .i32⟩ : BufTy).Contents (Elt F) → (⟨S2097152x1, .i32⟩ : BufTy).Contents (Elt F)),
    StableHlo.unary main_v381 main_v383 (broadcastInDim S2097152x1 ![0] bcast_S2097152_S2097152x1_0 : (⟨S2097152, .i32⟩ : BufTy).Contents (Elt F) → (⟨S2097152x1, .i32⟩ : BufTy).Contents (Elt F)),
    StableHlo.binary main_v382 main_v383 main_v384 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v349 main_v384 main_v385 ((fun x i => Host.gather gather_S1x32x32_S2097152x2_S1x2097152_0_12_n_n_12_1_111 x i) : (⟨S1x32x32, .f32⟩ : BufTy).Contents (Elt F) → (⟨S2097152x2, .i32⟩ : BufTy).Contents (Elt F) → (⟨S1x2097152, .f32⟩ : BufTy).Contents (Elt F)),
    StableHlo.nullary main_cst_113 (constant S_ .f32 0x3F800000#32),
    StableHlo.unary main_cst_113 main_v386 (broadcastInDim S1x2097152 ![] bcast_S_S1x2097152 : (⟨S_, .f32⟩ : BufTy).Contents (Elt F) → (⟨S1x2097152, .f32⟩ : BufTy).Contents (Elt F)),
    StableHlo.binary main_v386 main_v359 main_v387 (subf : (⟨S1x2097152, .f32⟩ : BufTy).Contents (Elt F) → (⟨S1x2097152, .f32⟩ : BufTy).Contents (Elt F) → (⟨S1x2097152, .f32⟩ : BufTy).Contents (Elt F)),
    StableHlo.binary main_v385 main_v387 main_v388 (mulf : (⟨S1x2097152, .f32⟩ : BufTy).Contents (Elt F) → (⟨S1x2097152, .f32⟩ : BufTy).Contents (Elt F) → (⟨S1x2097152, .f32⟩ : BufTy).Contents (Elt F)),
    StableHlo.nullary main_cst_114 (constant S_ .f32 0x3F800000#32),
    StableHlo.unary main_cst_114 main_v389 (broadcastInDim S1x2097152 ![] bcast_S_S1x2097152 : (⟨S_, .f32⟩ : BufTy).Contents (Elt F) → (⟨S1x2097152, .f32⟩ : BufTy).Contents (Elt F)),
    StableHlo.binary main_v389 main_v361 main_v390 (subf : (⟨S1x2097152, .f32⟩ : BufTy).Contents (Elt F) → (⟨S1x2097152, .f32⟩ : BufTy).Contents (Elt F) → (⟨S1x2097152, .f32⟩ : BufTy).Contents (Elt F)),
    StableHlo.binary main_v388 main_v390 main_v391 (mulf : (⟨S1x2097152, .f32⟩ : BufTy).Contents (Elt F) → (⟨S1x2097152, .f32⟩ : BufTy).Contents (Elt F) → (⟨S1x2097152, .f32⟩ : BufTy).Contents (Elt F)),
    StableHlo.nullary main_c_115 (constantI S_ 32 0#32),
    StableHlo.unary main_c_115 main_v392 (broadcastInDim S2097152 ![] bcast_S_S2097152 : (⟨S_, .i32⟩ : BufTy).Contents (Elt F) → (⟨S2097152, .i32⟩ : BufTy).Contents (Elt F)),
    StableHlo.binary main_v367 main_v392 main_v393 (cmpi .slt : (⟨S2097152, .i32⟩ : BufTy).Contents (Elt F) → (⟨S2097152, .i32⟩ : BufTy).Contents (Elt F) → (⟨S2097152, .i1⟩ : BufTy).Contents (Elt F)),
    StableHlo.nullary main_c_116 (constantI S_ 32 32#32),
    StableHlo.unary main_c_116 main_v394 (broadcastInDim S2097152 ![] bcast_S_S2097152 : (⟨S_, .i32⟩ : BufTy).Contents (Elt F) → (⟨S2097152, .i32⟩ : BufTy).Contents (Elt F)),
    StableHlo.binary main_v367 main_v394 main_v395 (addi : (⟨S2097152, .i32⟩ : BufTy).Contents (Elt F) → (⟨S2097152, .i32⟩ : BufTy).Contents (Elt F) → (⟨S2097152, .i32⟩ : BufTy).Contents (Elt F)),
    StableHlo.ternary main_v393 main_v395 main_v367 main_v396 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_117 (constantI S_ 32 0#32),
    StableHlo.unary main_c_117 main_v397 (broadcastInDim S2097152 ![] bcast_S_S2097152 : (⟨S_, .i32⟩ : BufTy).Contents (Elt F) → (⟨S2097152, .i32⟩ : BufTy).Contents (Elt F)),
    StableHlo.binary main_v363 main_v397 main_v398 (cmpi .slt : (⟨S2097152, .i32⟩ : BufTy).Contents (Elt F) → (⟨S2097152, .i32⟩ : BufTy).Contents (Elt F) → (⟨S2097152, .i1⟩ : BufTy).Contents (Elt F)),
    StableHlo.nullary main_c_118 (constantI S_ 32 32#32),
    StableHlo.unary main_c_118 main_v399 (broadcastInDim S2097152 ![] bcast_S_S2097152 : (⟨S_, .i32⟩ : BufTy).Contents (Elt F) → (⟨S2097152, .i32⟩ : BufTy).Contents (Elt F)),
    StableHlo.binary main_v363 main_v399 main_v400 (addi : (⟨S2097152, .i32⟩ : BufTy).Contents (Elt F) → (⟨S2097152, .i32⟩ : BufTy).Contents (Elt F) → (⟨S2097152, .i32⟩ : BufTy).Contents (Elt F)),
    StableHlo.ternary main_v398 main_v400 main_v363 main_v401 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v396 main_v402 (broadcastInDim S2097152x1 ![0] bcast_S2097152_S2097152x1_0 : (⟨S2097152, .i32⟩ : BufTy).Contents (Elt F) → (⟨S2097152x1, .i32⟩ : BufTy).Contents (Elt F)),
    StableHlo.unary main_v401 main_v403 (broadcastInDim S2097152x1 ![0] bcast_S2097152_S2097152x1_0 : (⟨S2097152, .i32⟩ : BufTy).Contents (Elt F) → (⟨S2097152x1, .i32⟩ : BufTy).Contents (Elt F)),
    StableHlo.binary main_v402 main_v403 main_v404 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v349 main_v404 main_v405 ((fun x i => Host.gather gather_S1x32x32_S2097152x2_S1x2097152_0_12_n_n_12_1_111 x i) : (⟨S1x32x32, .f32⟩ : BufTy).Contents (Elt F) → (⟨S2097152x2, .i32⟩ : BufTy).Contents (Elt F) → (⟨S1x2097152, .f32⟩ : BufTy).Contents (Elt F)),
    StableHlo.binary main_v405 main_v359 main_v406 (mulf : (⟨S1x2097152, .f32⟩ : BufTy).Contents (Elt F) → (⟨S1x2097152, .f32⟩ : BufTy).Contents (Elt F) → (⟨S1x2097152, .f32⟩ : BufTy).Contents (Elt F)),
    StableHlo.nullary main_cst_119 (constant S_ .f32 0x3F800000#32),
    StableHlo.unary main_cst_119 main_v407 (broadcastInDim S1x2097152 ![] bcast_S_S1x2097152 : (⟨S_, .f32⟩ : BufTy).Contents (Elt F) → (⟨S1x2097152, .f32⟩ : BufTy).Contents (Elt F)),
    StableHlo.binary main_v407 main_v361 main_v408 (subf : (⟨S1x2097152, .f32⟩ : BufTy).Contents (Elt F) → (⟨S1x2097152, .f32⟩ : BufTy).Contents (Elt F) → (⟨S1x2097152, .f32⟩ : BufTy).Contents (Elt F)),
    StableHlo.binary main_v406 main_v408 main_v409 (mulf : (⟨S1x2097152, .f32⟩ : BufTy).Contents (Elt F) → (⟨S1x2097152, .f32⟩ : BufTy).Contents (Elt F) → (⟨S1x2097152, .f32⟩ : BufTy).Contents (Elt F)),
    StableHlo.binary main_v391 main_v409 main_v410 (addf : (⟨S1x2097152, .f32⟩ : BufTy).Contents (Elt F) → (⟨S1x2097152, .f32⟩ : BufTy).Contents (Elt F) → (⟨S1x2097152, .f32⟩ : BufTy).Contents (Elt F)),
    StableHlo.nullary main_c_120 (constantI S_ 32 0#32),
    StableHlo.unary main_c_120 main_v411 (broadcastInDim S2097152 ![] bcast_S_S2097152 : (⟨S_, .i32⟩ : BufTy).Contents (Elt F) → (⟨S2097152, .i32⟩ : BufTy).Contents (Elt F)),
    StableHlo.binary main_v362 main_v411 main_v412 (cmpi .slt : (⟨S2097152, .i32⟩ : BufTy).Contents (Elt F) → (⟨S2097152, .i32⟩ : BufTy).Contents (Elt F) → (⟨S2097152, .i1⟩ : BufTy).Contents (Elt F)),
    StableHlo.nullary main_c_121 (constantI S_ 32 32#32),
    StableHlo.unary main_c_121 main_v413 (broadcastInDim S2097152 ![] bcast_S_S2097152 : (⟨S_, .i32⟩ : BufTy).Contents (Elt F) → (⟨S2097152, .i32⟩ : BufTy).Contents (Elt F)),
    StableHlo.binary main_v362 main_v413 main_v414 (addi : (⟨S2097152, .i32⟩ : BufTy).Contents (Elt F) → (⟨S2097152, .i32⟩ : BufTy).Contents (Elt F) → (⟨S2097152, .i32⟩ : BufTy).Contents (Elt F)),
    StableHlo.ternary main_v412 main_v414 main_v362 main_v415 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_122 (constantI S_ 32 0#32),
    StableHlo.unary main_c_122 main_v416 (broadcastInDim S2097152 ![] bcast_S_S2097152 : (⟨S_, .i32⟩ : BufTy).Contents (Elt F) → (⟨S2097152, .i32⟩ : BufTy).Contents (Elt F)),
    StableHlo.binary main_v371 main_v416 main_v417 (cmpi .slt : (⟨S2097152, .i32⟩ : BufTy).Contents (Elt F) → (⟨S2097152, .i32⟩ : BufTy).Contents (Elt F) → (⟨S2097152, .i1⟩ : BufTy).Contents (Elt F)),
    StableHlo.nullary main_c_123 (constantI S_ 32 32#32),
    StableHlo.unary main_c_123 main_v418 (broadcastInDim S2097152 ![] bcast_S_S2097152 : (⟨S_, .i32⟩ : BufTy).Contents (Elt F) → (⟨S2097152, .i32⟩ : BufTy).Contents (Elt F)),
    StableHlo.binary main_v371 main_v418 main_v419 (addi : (⟨S2097152, .i32⟩ : BufTy).Contents (Elt F) → (⟨S2097152, .i32⟩ : BufTy).Contents (Elt F) → (⟨S2097152, .i32⟩ : BufTy).Contents (Elt F)),
    StableHlo.ternary main_v417 main_v419 main_v371 main_v420 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v415 main_v421 (broadcastInDim S2097152x1 ![0] bcast_S2097152_S2097152x1_0 : (⟨S2097152, .i32⟩ : BufTy).Contents (Elt F) → (⟨S2097152x1, .i32⟩ : BufTy).Contents (Elt F)),
    StableHlo.unary main_v420 main_v422 (broadcastInDim S2097152x1 ![0] bcast_S2097152_S2097152x1_0 : (⟨S2097152, .i32⟩ : BufTy).Contents (Elt F) → (⟨S2097152x1, .i32⟩ : BufTy).Contents (Elt F)),
    StableHlo.binary main_v421 main_v422 main_v423 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v349 main_v423 main_v424 ((fun x i => Host.gather gather_S1x32x32_S2097152x2_S1x2097152_0_12_n_n_12_1_111 x i) : (⟨S1x32x32, .f32⟩ : BufTy).Contents (Elt F) → (⟨S2097152x2, .i32⟩ : BufTy).Contents (Elt F) → (⟨S1x2097152, .f32⟩ : BufTy).Contents (Elt F)),
    StableHlo.nullary main_cst_124 (constant S_ .f32 0x3F800000#32),
    StableHlo.unary main_cst_124 main_v425 (broadcastInDim S1x2097152 ![] bcast_S_S1x2097152 : (⟨S_, .f32⟩ : BufTy).Contents (Elt F) → (⟨S1x2097152, .f32⟩ : BufTy).Contents (Elt F)),
    StableHlo.binary main_v425 main_v359 main_v426 (subf : (⟨S1x2097152, .f32⟩ : BufTy).Contents (Elt F) → (⟨S1x2097152, .f32⟩ : BufTy).Contents (Elt F) → (⟨S1x2097152, .f32⟩ : BufTy).Contents (Elt F)),
    StableHlo.binary main_v424 main_v426 main_v427 (mulf : (⟨S1x2097152, .f32⟩ : BufTy).Contents (Elt F) → (⟨S1x2097152, .f32⟩ : BufTy).Contents (Elt F) → (⟨S1x2097152, .f32⟩ : BufTy).Contents (Elt F)),
    StableHlo.binary main_v427 main_v361 main_v428 (mulf : (⟨S1x2097152, .f32⟩ : BufTy).Contents (Elt F) → (⟨S1x2097152, .f32⟩ : BufTy).Contents (Elt F) → (⟨S1x2097152, .f32⟩ : BufTy).Contents (Elt F)),
    StableHlo.binary main_v410 main_v428 main_v429 (addf : (⟨S1x2097152, .f32⟩ : BufTy).Contents (Elt F) → (⟨S1x2097152, .f32⟩ : BufTy).Contents (Elt F) → (⟨S1x2097152, .f32⟩ : BufTy).Contents (Elt F)),
    StableHlo.nullary main_c_125 (constantI S_ 32 0#32),
    StableHlo.unary main_c_125 main_v430 (broadcastInDim S2097152 ![] bcast_S_S2097152 : (⟨S_, .i32⟩ : BufTy).Contents (Elt F) → (⟨S2097152, .i32⟩ : BufTy).Contents (Elt F)),
    StableHlo.binary main_v367 main_v430 main_v431 (cmpi .slt : (⟨S2097152, .i32⟩ : BufTy).Contents (Elt F) → (⟨S2097152, .i32⟩ : BufTy).Contents (Elt F) → (⟨S2097152, .i1⟩ : BufTy).Contents (Elt F)),
    StableHlo.nullary main_c_126 (constantI S_ 32 32#32),
    StableHlo.unary main_c_126 main_v432 (broadcastInDim S2097152 ![] bcast_S_S2097152 : (⟨S_, .i32⟩ : BufTy).Contents (Elt F) → (⟨S2097152, .i32⟩ : BufTy).Contents (Elt F)),
    StableHlo.binary main_v367 main_v432 main_v433 (addi : (⟨S2097152, .i32⟩ : BufTy).Contents (Elt F) → (⟨S2097152, .i32⟩ : BufTy).Contents (Elt F) → (⟨S2097152, .i32⟩ : BufTy).Contents (Elt F)),
    StableHlo.ternary main_v431 main_v433 main_v367 main_v434 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_127 (constantI S_ 32 0#32),
    StableHlo.unary main_c_127 main_v435 (broadcastInDim S2097152 ![] bcast_S_S2097152 : (⟨S_, .i32⟩ : BufTy).Contents (Elt F) → (⟨S2097152, .i32⟩ : BufTy).Contents (Elt F)),
    StableHlo.binary main_v371 main_v435 main_v436 (cmpi .slt : (⟨S2097152, .i32⟩ : BufTy).Contents (Elt F) → (⟨S2097152, .i32⟩ : BufTy).Contents (Elt F) → (⟨S2097152, .i1⟩ : BufTy).Contents (Elt F)),
    StableHlo.nullary main_c_128 (constantI S_ 32 32#32),
    StableHlo.unary main_c_128 main_v437 (broadcastInDim S2097152 ![] bcast_S_S2097152 : (⟨S_, .i32⟩ : BufTy).Contents (Elt F) → (⟨S2097152, .i32⟩ : BufTy).Contents (Elt F)),
    StableHlo.binary main_v371 main_v437 main_v438 (addi : (⟨S2097152, .i32⟩ : BufTy).Contents (Elt F) → (⟨S2097152, .i32⟩ : BufTy).Contents (Elt F) → (⟨S2097152, .i32⟩ : BufTy).Contents (Elt F)),
    StableHlo.ternary main_v436 main_v438 main_v371 main_v439 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v434 main_v440 (broadcastInDim S2097152x1 ![0] bcast_S2097152_S2097152x1_0 : (⟨S2097152, .i32⟩ : BufTy).Contents (Elt F) → (⟨S2097152x1, .i32⟩ : BufTy).Contents (Elt F)),
    StableHlo.unary main_v439 main_v441 (broadcastInDim S2097152x1 ![0] bcast_S2097152_S2097152x1_0 : (⟨S2097152, .i32⟩ : BufTy).Contents (Elt F) → (⟨S2097152x1, .i32⟩ : BufTy).Contents (Elt F)),
    StableHlo.binary main_v440 main_v441 main_v442 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v349 main_v442 main_v443 ((fun x i => Host.gather gather_S1x32x32_S2097152x2_S1x2097152_0_12_n_n_12_1_111 x i) : (⟨S1x32x32, .f32⟩ : BufTy).Contents (Elt F) → (⟨S2097152x2, .i32⟩ : BufTy).Contents (Elt F) → (⟨S1x2097152, .f32⟩ : BufTy).Contents (Elt F)),
    StableHlo.binary main_v443 main_v359 main_v444 (mulf : (⟨S1x2097152, .f32⟩ : BufTy).Contents (Elt F) → (⟨S1x2097152, .f32⟩ : BufTy).Contents (Elt F) → (⟨S1x2097152, .f32⟩ : BufTy).Contents (Elt F)),
    StableHlo.binary main_v444 main_v361 main_v445 (mulf : (⟨S1x2097152, .f32⟩ : BufTy).Contents (Elt F) → (⟨S1x2097152, .f32⟩ : BufTy).Contents (Elt F) → (⟨S1x2097152, .f32⟩ : BufTy).Contents (Elt F)),
    StableHlo.binary main_v429 main_v445 main_v446 (addf : (⟨S1x2097152, .f32⟩ : BufTy).Contents (Elt F) → (⟨S1x2097152, .f32⟩ : BufTy).Contents (Elt F) → (⟨S1x2097152, .f32⟩ : BufTy).Contents (Elt F)) ]
/-- The references the operations of the chunk K6 write, in order. -/
abbrev K6w : List (Ref sig .tc) :=
  [main_v334, main_v335, main_v336, main_v337, main_v338, main_cst_95, main_v339, main_v340, main_cst_96, main_v341, main_v342, main_cst_97, main_v343, main_v344, main_v345, main_v346, main_v347, main_cst_98, main_v348, main_v349, main_cst_99, main_cst_100, main_call11_v0, main_call11_v1, main_call11_v2, main_call11_v3, main_call11_v4, main_v350, main_cst_101, main_v351, main_v352, main_cst_102, main_cst_103, main_call12_v0, main_call12_v1, main_call12_v2, main_call12_v3, main_call12_v4, main_v353, main_cst_104, main_v354, main_v355, main_v356, main_v357, main_v358, main_v359, main_v360, main_v361, main_v362, main_v363, main_c_105, main_v364, main_v365, main_c_106, main_v366, main_v367, main_c_107, main_v368, main_v369, main_c_108, main_v370, main_v371, main_c_109, main_v372, main_v373, main_c_110, main_v374, main_v375, main_v376, main_c_111, main_v377, main_v378, main_c_112, main_v379, main_v380, main_v381, main_v382, main_v383, main_v384, main_v385, main_cst_113, main_v386, main_v387, main_v388, main_cst_114, main_v389, main_v390, main_v391, main_c_115, main_v392, main_v393, main_c_116, main_v394, main_v395, main_v396, main_c_117, main_v397, main_v398, main_c_118, main_v399, main_v400, main_v401, main_v402, main_v403, main_v404, main_v405, main_v406, main_cst_119, main_v407, main_v408, main_v409, main_v410, main_c_120, main_v411, main_v412, main_c_121, main_v413, main_v414, main_v415, main_c_122, main_v416, main_v417, main_c_123, main_v418, main_v419, main_v420, main_v421, main_v422, main_v423, main_v424, main_cst_124, main_v425, main_v426, main_v427, main_v428, main_v429, main_c_125, main_v430, main_v431, main_c_126, main_v432, main_v433, main_v434, main_c_127, main_v435, main_v436, main_c_128, main_v437, main_v438, main_v439, main_v440, main_v441, main_v442, main_v443, main_v444, main_v445, main_v446]

set_option maxHeartbeats 40000000 in
/-- Operations 628 to 791 of the program, in order (164 operations). -/
abbrev K7 : List (HloOp τ sig (Elt F)) :=
  [ StableHlo.unary main_arg2 main_v447 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v447 main_v448 rfl shapeCasts_S2097152x1_S2097152,
    StableHlo.unary main_arg2 main_v449 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v449 main_v450 rfl shapeCasts_S2097152x1_S2097152,
    StableHlo.nullary main_cst_129 (constant S_ .f32 0x40000000#32),
    StableHlo.unary main_cst_129 main_v451 (broadcastInDim S4x32x32 ![] bcast_S_S4x32x32 : (⟨S_, .f32⟩ : BufTy).Contents (Elt F) → (⟨S4x32x32, .f32⟩ : BufTy).Contents (Elt F)),
    StableHlo.binary main_v6 main_v451 main_v452 (Host.divf : (⟨S4x32x32, .f32⟩ : BufTy).Contents (Elt F) → (⟨S4x32x32, .f32⟩ : BufTy).Contents (Elt F) → (⟨S4x32x32, .f32⟩ : BufTy).Contents (Elt F)),
    StableHlo.nullary main_cst_130 (constant S_ .f32 0x40000000#32),
    StableHlo.unary main_cst_130 main_v453 (broadcastInDim S4x32x32 ![] bcast_S_S4x32x32 : (⟨S_, .f32⟩ : BufTy).Contents (Elt F) → (⟨S4x32x32, .f32⟩ : BufTy).Contents (Elt F)),
    StableHlo.binary main_v6 main_v453 main_v454 (Host.divf : (⟨S4x32x32, .f32⟩ : BufTy).Contents (Elt F) → (⟨S4x32x32, .f32⟩ : BufTy).Contents (Elt F) → (⟨S4x32x32, .f32⟩ : BufTy).Contents (Elt F)),
    StableHlo.nullary main_cst_131 (constant S_ .f32 0x3F000000#32),
    StableHlo.unary main_cst_131 main_v455 (broadcastInDim S4x32x32 ![] bcast_S_S4x32x32 : (⟨S_, .f32⟩ : BufTy).Contents (Elt F) → (⟨S4x32x32, .f32⟩ : BufTy).Contents (Elt F)),
    StableHlo.binary main_v454 main_v455 main_v456 (addf : (⟨S4x32x32, .f32⟩ : BufTy).Contents (Elt F) → (⟨S4x32x32, .f32⟩ : BufTy).Contents (Elt F) → (⟨S4x32x32, .f32⟩ : BufTy).Contents (Elt F)),
    StableHlo.unary main_v456 main_v457 (Host.floor : (⟨S4x32x32, .f32⟩ : BufTy).Contents (Elt F) → (⟨S4x32x32, .f32⟩ : BufTy).Contents (Elt F)),
    StableHlo.binary main_v452 main_v457 main_v458 (subf : (⟨S4x32x32, .f32⟩ : BufTy).Contents (Elt F) → (⟨S4x32x32, .f32⟩ : BufTy).Contents (Elt F) → (⟨S4x32x32, .f32⟩ : BufTy).Contents (Elt F)),
    StableHlo.unary main_v458 main_v459 (Host.absf : (⟨S4x32x32, .f32⟩ : BufTy).Contents (Elt F) → (⟨S4x32x32, .f32⟩ : BufTy).Contents (Elt F)),
    StableHlo.nullary main_cst_132 (constant S_ .f32 0x40000000#32),
    StableHlo.unary main_cst_132 main_v460 (broadcastInDim S4x32x32 ![] bcast_S_S4x32x32 : (⟨S_, .f32⟩ : BufTy).Contents (Elt F) → (⟨S4x32x32, .f32⟩ : BufTy).Contents (Elt F)),
    StableHlo.binary main_v460 main_v459 main_v461 (mulf : (⟨S4x32x32, .f32⟩ : BufTy).Contents (Elt F) → (⟨S4x32x32, .f32⟩ : BufTy).Contents (Elt F) → (⟨S4x32x32, .f32⟩ : BufTy).Contents (Elt F)),
    StableHlo.nullary main_cst_133 (constant S_ .f32 0x00000000#32),
    StableHlo.nullary main_cst_134 (constant S_ .f32 0x3F7FFFEF#32),
    StableHlo.TRef.unary (.of main_cst_133 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S2097152, .f32⟩) (broadcastInDim S2097152 ![] bcast_S_S2097152),
    StableHlo.TRef.binary (.of main_call13_v1 : StableHlo.TRef sig ⟨S2097152, .f32⟩) (.of main_v448 : StableHlo.TRef sig ⟨S2097152, .f32⟩) (.of main_call13_v2 : StableHlo.TRef sig ⟨S2097152, .f32⟩) maximumf,
    StableHlo.TRef.unary (.of main_cst_134 : StableHlo.TRef sig ⟨S_, .f32⟩) (.of main_call13_v3 : StableHlo.TRef sig ⟨S_, .f32⟩) id,
    StableHlo.TRef.unary (.of main_call13_v3 : StableHlo.TRef sig ⟨S_, .f32⟩) (.of main_call13_v4 : StableHlo.TRef sig ⟨S2097152, .f32⟩) (broadcastInDim S2097152 ![] bcast_S_S2097152),
    StableHlo.TRef.binary (.of main_call13_v4 : StableHlo.TRef sig ⟨S2097152, .f32⟩) (.of main_call13_v2 : StableHlo.TRef sig ⟨S2097152, .f32⟩) (.of main_v462 : StableHlo.TRef sig ⟨S2097152, .f32⟩) minimumf,
    StableHlo.nullary main_cst_135 (constant S_ .f32 0x41F80000#32),
    StableHlo.unary main_cst_135 main_v463 (broadcastInDim S2097152 ![] bcast_S_S2097152 : (⟨S_, .f32⟩ : BufTy).Contents (Elt F) → (⟨S2097152, .f32⟩ : BufTy).Contents (Elt F)),
    StableHlo.binary main_v462 main_v463 main_v464 (mulf : (⟨S2097152, .f32⟩ : BufTy).Contents (Elt F) → (⟨S2097152, .f32⟩ : BufTy).Contents (Elt F) → (⟨S2097152, .f32⟩ : BufTy).Contents (Elt F)),
    StableHlo.nullary main_cst_136 (constant S_ .f32 0x00000000#32),
    StableHlo.nullary main_cst_137 (constant S_ .f32 0x3F7FFFEF#32),
    StableHlo.TRef.unary (.of main_cst_136 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S2097152, .f32⟩) (broadcastInDim S2097152 ![] bcast_S_S2097152),
    StableHlo.TRef.binary (.of main_call14_v1 : StableHlo.TRef sig ⟨S2097152, .f32⟩) (.of main_v450 : StableHlo.TRef sig ⟨S2097152, .f32⟩) (.of main_call14_v2 : StableHlo.TRef sig ⟨S2097152, .f32⟩) maximumf,
    StableHlo.TRef.unary (.of main_cst_137 : StableHlo.TRef sig ⟨S_, .f32⟩) (.of main_call14_v3 : StableHlo.TRef sig ⟨S_, .f32⟩) id,
    StableHlo.TRef.unary (.of main_call14_v3 : StableHlo.TRef sig ⟨S_, .f32⟩) (.of main_call14_v4 : StableHlo.TRef sig ⟨S2097152, .f32⟩) (broadcastInDim S2097152 ![] bcast_S_S2097152),
    StableHlo.TRef.binary (.of main_call14_v4 : StableHlo.TRef sig ⟨S2097152, .f32⟩) (.of main_call14_v2 : StableHlo.TRef sig ⟨S2097152, .f32⟩) (.of main_v465 : StableHlo.TRef sig ⟨S2097152, .f32⟩) minimumf,
    StableHlo.nullary main_cst_138 (constant S_ .f32 0x41F80000#32),
    StableHlo.unary main_cst_138 main_v466 (broadcastInDim S2097152 ![] bcast_S_S2097152 : (⟨S_, .f32⟩ : BufTy).Contents (Elt F) → (⟨S2097152, .f32⟩ : BufTy).Contents (Elt F)),
    StableHlo.binary main_v465 main_v466 main_v467 (mulf : (⟨S2097152, .f32⟩ : BufTy).Contents (Elt F) → (⟨S2097152, .f32⟩ : BufTy).Contents (Elt F) → (⟨S2097152, .f32⟩ : BufTy).Contents (Elt F)),
    StableHlo.unary main_v464 main_v468 (Host.floor : (⟨S2097152, .f32⟩ : BufTy).Contents (Elt F) → (⟨S2097152, .f32⟩ : BufTy).Contents (Elt F)),
    StableHlo.unary main_v467 main_v469 (Host.floor : (⟨S2097152, .f32⟩ : BufTy).Contents (Elt F) → (⟨S2097152, .f32⟩ : BufTy).Contents (Elt F)),
    StableHlo.binary main_v464 main_v468 main_v470 (subf : (⟨S2097152, .f32⟩ : BufTy).Contents (Elt F) → (⟨S2097152, .f32⟩ : BufTy).Contents (Elt F) → (⟨S2097152, .f32⟩ : BufTy).Contents (Elt F)),
    StableHlo.unary main_v470 main_v471 (broadcastInDim S1x2097152 ![1] bcast_S2097152_S1x2097152_1 : (⟨S2097152, .f32⟩ : BufTy).Contents (Elt F) → (⟨S1x2097152, .f32⟩ : BufTy).Contents (Elt F)),
    StableHlo.binary main_v467 main_v469 main_v472 (subf : (⟨S2097152, .f32⟩ : BufTy).Contents (Elt F) → (⟨S2097152, .f32⟩ : BufTy).Contents (Elt F) → (⟨S2097152, .f32⟩ : BufTy).Contents (Elt F)),
    StableHlo.unary main_v472 main_v473 (broadcastInDim S1x2097152 ![1] bcast_S2097152_S1x2097152_1 : (⟨S2097152, .f32⟩ : BufTy).Contents (Elt F) → (⟨S1x2097152, .f32⟩ : BufTy).Contents (Elt F)),
    StableHlo.unary main_v468 main_v474 (fptosi 32 : (⟨S2097152, .f32⟩ : BufTy).Contents (Elt F) → (⟨S2097152, .i32⟩ : BufTy).Contents (Elt F)),
    StableHlo.unary main_v469 main_v475 (fptosi 32 : (⟨S2097152, .f32⟩ : BufTy).Contents (Elt F) → (⟨S2097152, .i32⟩ : BufTy).Contents (Elt F)),
    StableHlo.nullary main_c_139 (constantI S_ 32 1#32),
    StableHlo.unary main_c_139 main_v476 (broadcastInDim S2097152 ![] bcast_S_S2097152 : (⟨S_, .i32⟩ : BufTy).Contents (Elt F) → (⟨S2097152, .i32⟩ : BufTy).Contents (Elt F)),
    StableHlo.binary main_v474 main_v476 main_v477 (addi : (⟨S2097152, .i32⟩ : BufTy).Contents (Elt F) → (⟨S2097152, .i32⟩ : BufTy).Contents (Elt F) → (⟨S2097152, .i32⟩ : BufTy).Contents (Elt F)),
    StableHlo.nullary main_c_140 (constantI S_ 32 31#32),
    StableHlo.unary main_c_140 main_v478 (broadcastInDim S2097152 ![] bcast_S_S2097152 : (⟨S_, .i32⟩ : BufTy).Contents (Elt F) → (⟨S2097152, .i32⟩ : BufTy).Contents (Elt F)),
    StableHlo.binary main_v477 main_v478 main_v479 (minsi : (⟨S2097152, .i32⟩ : BufTy).Contents (Elt F) → (⟨S2097152, .i32⟩ : BufTy).Contents (Elt F) → (⟨S2097152, .i32⟩ : BufTy).Contents (Elt F)),
    StableHlo.nullary main_c_141 (constantI S_ 32 1#32),
    StableHlo.unary main_c_141 main_v480 (broadcastInDim S2097152 ![] bcast_S_S2097152 : (⟨S_, .i32⟩ : BufTy).Contents (Elt F) → (⟨S2097152, .i32⟩ : BufTy).Contents (Elt F)),
    StableHlo.binary main_v475 main_v480 main_v481 (addi : (⟨S2097152, .i32⟩ : BufTy).Contents (Elt F) → (⟨S2097152, .i32⟩ : BufTy).Contents (Elt F) → (⟨S2097152, .i32⟩ : BufTy).Contents (Elt F)),
    StableHlo.nullary main_c_142 (constantI S_ 32 31#32),
    StableHlo.unary main_c_142 main_v482 (broadcastInDim S2097152 ![] bcast_S_S2097152 : (⟨S_, .i32⟩ : BufTy).Contents (Elt F) → (⟨S2097152, .i32⟩ : BufTy).Contents (Elt F)),
    StableHlo.binary main_v481 main_v482 main_v483 (minsi : (⟨S2097152, .i32⟩ : BufTy).Contents (Elt F) → (⟨S2097152, .i32⟩ : BufTy).Contents (Elt F) → (⟨S2097152, .i32⟩ : BufTy).Contents (Elt F)),
    StableHlo.nullary main_c_143 (constantI S_ 32 0#32),
    StableHlo.unary main_c_143 main_v484 (broadcastInDim S2097152 ![] bcast_S_S2097152 : (⟨S_, .i32⟩ : BufTy).Contents (Elt F) → (⟨S2097152, .i32⟩ : BufTy).Contents (Elt F)),
    StableHlo.binary main_v474 main_v484 main_v485 (cmpi .slt : (⟨S2097152, .i32⟩ : BufTy).Contents (Elt F) → (⟨S2097152, .i32⟩ : BufTy).Contents (Elt F) → (⟨S2097152, .i1⟩ : BufTy).Contents (Elt F)),
    StableHlo.nullary main_c_144 (constantI S_ 32 32#32),
    StableHlo.unary main_c_144 main_v486 (broadcastInDim S2097152 ![] bcast_S_S2097152 : (⟨S_, .i32⟩ : BufTy).Contents (Elt F) → (⟨S2097152, .i32⟩ : BufTy).Contents (Elt F)),
    StableHlo.binary main_v474 main_v486 main_v487 (addi : (⟨S2097152, .i32⟩ : BufTy).Contents (Elt F) → (⟨S2097152, .i32⟩ : BufTy).Contents (Elt F) → (⟨S2097152, .i32⟩ : BufTy).Contents (Elt F)),
    StableHlo.ternary main_v485 main_v487 main_v474 main_v488 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_145 (constantI S_ 32 0#32),
    StableHlo.unary main_c_145 main_v489 (broadcastInDim S2097152 ![] bcast_S_S2097152 : (⟨S_, .i32⟩ : BufTy).Contents (Elt F) → (⟨S2097152, .i32⟩ : BufTy).Contents (Elt F)),
    StableHlo.binary main_v475 main_v489 main_v490 (cmpi .slt : (⟨S2097152, .i32⟩ : BufTy).Contents (Elt F) → (⟨S2097152, .i32⟩ : BufTy).Contents (Elt F) → (⟨S2097152, .i1⟩ : BufTy).Contents (Elt F)),
    StableHlo.nullary main_c_146 (constantI S_ 32 32#32),
    StableHlo.unary main_c_146 main_v491 (broadcastInDim S2097152 ![] bcast_S_S2097152 : (⟨S_, .i32⟩ : BufTy).Contents (Elt F) → (⟨S2097152, .i32⟩ : BufTy).Contents (Elt F)),
    StableHlo.binary main_v475 main_v491 main_v492 (addi : (⟨S2097152, .i32⟩ : BufTy).Contents (Elt F) → (⟨S2097152, .i32⟩ : BufTy).Contents (Elt F) → (⟨S2097152, .i32⟩ : BufTy).Contents (Elt F)),
    StableHlo.ternary main_v490 main_v492 main_v475 main_v493 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v488 main_v494 (broadcastInDim S2097152x1 ![0] bcast_S2097152_S2097152x1_0 : (⟨S2097152, .i32⟩ : BufTy).Contents (Elt F) → (⟨S2097152x1, .i32⟩ : BufTy).Contents (Elt F)),
    StableHlo.unary main_v493 main_v495 (broadcastInDim S2097152x1 ![0] bcast_S2097152_S2097152x1_0 : (⟨S2097152, .i32⟩ : BufTy).Contents (Elt F) → (⟨S2097152x1, .i32⟩ : BufTy).Contents (Elt F)),
    StableHlo.binary main_v494 main_v495 main_v496 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v461 main_v496 main_v497 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.nullary main_cst_147 (constant S_ .f32 0x3F800000#32),
    StableHlo.unary main_cst_147 main_v498 (broadcastInDim S1x2097152 ![] bcast_S_S1x2097152 : (⟨S_, .f32⟩ : BufTy).Contents (Elt F) → (⟨S1x2097152, .f32⟩ : BufTy).Contents (Elt F)),
    StableHlo.binary main_v498 main_v471 main_v499 (subf : (⟨S1x2097152, .f32⟩ : BufTy).Contents (Elt F) → (⟨S1x2097152, .f32⟩ : BufTy).Contents (Elt F) → (⟨S1x2097152, .f32⟩ : BufTy).Contents (Elt F)),
    StableHlo.unary main_v499 main_v500 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v497 main_v500 main_v501 (mulf : (⟨S4x2097152, .f32⟩ : BufTy).Contents (Elt F) → (⟨S4x2097152, .f32⟩ : BufTy).Contents (Elt F) → (⟨S4x2097152, .f32⟩ : BufTy).Contents (Elt F)),
    StableHlo.nullary main_cst_148 (constant S_ .f32 0x3F800000#32),
    StableHlo.unary main_cst_148 main_v502 (broadcastInDim S1x2097152 ![] bcast_S_S1x2097152 : (⟨S_, .f32⟩ : BufTy).Contents (Elt F) → (⟨S1x2097152, .f32⟩ : BufTy).Contents (Elt F)),
    StableHlo.binary main_v502 main_v473 main_v503 (subf : (⟨S1x2097152, .f32⟩ : BufTy).Contents (Elt F) → (⟨S1x2097152, .f32⟩ : BufTy).Contents (Elt F) → (⟨S1x2097152, .f32⟩ : BufTy).Contents (Elt F)),
    StableHlo.unary main_v503 main_v504 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v501 main_v504 main_v505 (mulf : (⟨S4x2097152, .f32⟩ : BufTy).Contents (Elt F) → (⟨S4x2097152, .f32⟩ : BufTy).Contents (Elt F) → (⟨S4x2097152, .f32⟩ : BufTy).Contents (Elt F)),
    StableHlo.nullary main_c_149 (constantI S_ 32 0#32),
    StableHlo.unary main_c_149 main_v506 (broadcastInDim S2097152 ![] bcast_S_S2097152 : (⟨S_, .i32⟩ : BufTy).Contents (Elt F) → (⟨S2097152, .i32⟩ : BufTy).Contents (Elt F)),
    StableHlo.binary main_v479 main_v506 main_v507 (cmpi .slt : (⟨S2097152, .i32⟩ : BufTy).Contents (Elt F) → (⟨S2097152, .i32⟩ : BufTy).Contents (Elt F) → (⟨S2097152, .i1⟩ : BufTy).Contents (Elt F)),
    StableHlo.nullary main_c_150 (constantI S_ 32 32#32),
    StableHlo.unary main_c_150 main_v508 (broadcastInDim S2097152 ![] bcast_S_S2097152 : (⟨S_, .i32⟩ : BufTy).Contents (Elt F) → (⟨S2097152, .i32⟩ : BufTy).Contents (Elt F)),
    StableHlo.binary main_v479 main_v508 main_v509 (addi : (⟨S2097152, .i32⟩ : BufTy).Contents (Elt F) → (⟨S2097152, .i32⟩ : BufTy).Contents (Elt F) → (⟨S2097152, .i32⟩ : BufTy).Contents (Elt F)),
    StableHlo.ternary main_v507 main_v509 main_v479 main_v510 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_151 (constantI S_ 32 0#32),
    StableHlo.unary main_c_151 main_v511 (broadcastInDim S2097152 ![] bcast_S_S2097152 : (⟨S_, .i32⟩ : BufTy).Contents (Elt F) → (⟨S2097152, .i32⟩ : BufTy).Contents (Elt F)),
    StableHlo.binary main_v475 main_v511 main_v512 (cmpi .slt : (⟨S2097152, .i32⟩ : BufTy).Contents (Elt F) → (⟨S2097152, .i32⟩ : BufTy).Contents (Elt F) → (⟨S2097152, .i1⟩ : BufTy).Contents (Elt F)),
    StableHlo.nullary main_c_152 (constantI S_ 32 32#32),
    StableHlo.unary main_c_152 main_v513 (broadcastInDim S2097152 ![] bcast_S_S2097152 : (⟨S_, .i32⟩ : BufTy).Contents (Elt F) → (⟨S2097152, .i32⟩ : BufTy).Contents (Elt F)),
    StableHlo.binary main_v475 main_v513 main_v514 (addi : (⟨S2097152, .i32⟩ : BufTy).Contents (Elt F) → (⟨S2097152, .i32⟩ : BufTy).Contents (Elt F) → (⟨S2097152, .i32⟩ : BufTy).Contents (Elt F)),
    StableHlo.ternary main_v512 main_v514 main_v475 main_v515 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v510 main_v516 (broadcastInDim S2097152x1 ![0] bcast_S2097152_S2097152x1_0 : (⟨S2097152, .i32⟩ : BufTy).Contents (Elt F) → (⟨S2097152x1, .i32⟩ : BufTy).Contents (Elt F)),
    StableHlo.unary main_v515 main_v517 (broadcastInDim S2097152x1 ![0] bcast_S2097152_S2097152x1_0 : (⟨S2097152, .i32⟩ : BufTy).Contents (Elt F) → (⟨S2097152x1, .i32⟩ : BufTy).Contents (Elt F)),
    StableHlo.binary main_v516 main_v517 main_v518 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v461 main_v518 main_v519 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.unary main_v471 main_v520 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v519 main_v520 main_v521 (mulf : (⟨S4x2097152, .f32⟩ : BufTy).Contents (Elt F) → (⟨S4x2097152, .f32⟩ : BufTy).Contents (Elt F) → (⟨S4x2097152, .f32⟩ : BufTy).Contents (Elt F)),
    StableHlo.nullary main_cst_153 (constant S_ .f32 0x3F800000#32),
    StableHlo.unary main_cst_153 main_v522 (broadcastInDim S1x2097152 ![] bcast_S_S1x2097152 : (⟨S_, .f32⟩ : BufTy).Contents (Elt F) → (⟨S1x2097152, .f32⟩ : BufTy).Contents (Elt F)),
    StableHlo.binary main_v522 main_v473 main_v523 (subf : (⟨S1x2097152, .f32⟩ : BufTy).Contents (Elt F) → (⟨S1x2097152, .f32⟩ : BufTy).Contents (Elt F) → (⟨S1x2097152, .f32⟩ : BufTy).Contents (Elt F)),
    StableHlo.unary main_v523 main_v524 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v521 main_v524 main_v525 (mulf : (⟨S4x2097152, .f32⟩ : BufTy).Contents (Elt F) → (⟨S4x2097152, .f32⟩ : BufTy).Contents (Elt F) → (⟨S4x2097152, .f32⟩ : BufTy).Contents (Elt F)),
    StableHlo.binary main_v505 main_v525 main_v526 (addf : (⟨S4x2097152, .f32⟩ : BufTy).Contents (Elt F) → (⟨S4x2097152, .f32⟩ : BufTy).Contents (Elt F) → (⟨S4x2097152, .f32⟩ : BufTy).Contents (Elt F)),
    StableHlo.nullary main_c_154 (constantI S_ 32 0#32),
    StableHlo.unary main_c_154 main_v527 (broadcastInDim S2097152 ![] bcast_S_S2097152 : (⟨S_, .i32⟩ : BufTy).Contents (Elt F) → (⟨S2097152, .i32⟩ : BufTy).Contents (Elt F)),
    StableHlo.binary main_v474 main_v527 main_v528 (cmpi .slt : (⟨S2097152, .i32⟩ : BufTy).Contents (Elt F) → (⟨S2097152, .i32⟩ : BufTy).Contents (Elt F) → (⟨S2097152, .i1⟩ : BufTy).Contents (Elt F)),
    StableHlo.nullary main_c_155 (constantI S_ 32 32#32),
    StableHlo.unary main_c_155 main_v529 (broadcastInDim S2097152 ![] bcast_S_S2097152 : (⟨S_, .i32⟩ : BufTy).Contents (Elt F) → (⟨S2097152, .i32⟩ : BufTy).Contents (Elt F)),
    StableHlo.binary main_v474 main_v529 main_v530 (addi : (⟨S2097152, .i32⟩ : BufTy).Contents (Elt F) → (⟨S2097152, .i32⟩ : BufTy).Contents (Elt F) → (⟨S2097152, .i32⟩ : BufTy).Contents (Elt F)),
    StableHlo.ternary main_v528 main_v530 main_v474 main_v531 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_156 (constantI S_ 32 0#32),
    StableHlo.unary main_c_156 main_v532 (broadcastInDim S2097152 ![] bcast_S_S2097152 : (⟨S_, .i32⟩ : BufTy).Contents (Elt F) → (⟨S2097152, .i32⟩ : BufTy).Contents (Elt F)),
    StableHlo.binary main_v483 main_v532 main_v533 (cmpi .slt : (⟨S2097152, .i32⟩ : BufTy).Contents (Elt F) → (⟨S2097152, .i32⟩ : BufTy).Contents (Elt F) → (⟨S2097152, .i1⟩ : BufTy).Contents (Elt F)),
    StableHlo.nullary main_c_157 (constantI S_ 32 32#32),
    StableHlo.unary main_c_157 main_v534 (broadcastInDim S2097152 ![] bcast_S_S2097152 : (⟨S_, .i32⟩ : BufTy).Contents (Elt F) → (⟨S2097152, .i32⟩ : BufTy).Contents (Elt F)),
    StableHlo.binary main_v483 main_v534 main_v535 (addi : (⟨S2097152, .i32⟩ : BufTy).Contents (Elt F) → (⟨S2097152, .i32⟩ : BufTy).Contents (Elt F) → (⟨S2097152, .i32⟩ : BufTy).Contents (Elt F)),
    StableHlo.ternary main_v533 main_v535 main_v483 main_v536 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v531 main_v537 (broadcastInDim S2097152x1 ![0] bcast_S2097152_S2097152x1_0 : (⟨S2097152, .i32⟩ : BufTy).Contents (Elt F) → (⟨S2097152x1, .i32⟩ : BufTy).Contents (Elt F)),
    StableHlo.unary main_v536 main_v538 (broadcastInDim S2097152x1 ![0] bcast_S2097152_S2097152x1_0 : (⟨S2097152, .i32⟩ : BufTy).Contents (Elt F) → (⟨S2097152x1, .i32⟩ : BufTy).Contents (Elt F)),
    StableHlo.binary main_v537 main_v538 main_v539 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v461 main_v539 main_v540 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.nullary main_cst_158 (constant S_ .f32 0x3F800000#32),
    StableHlo.unary main_cst_158 main_v541 (broadcastInDim S1x2097152 ![] bcast_S_S1x2097152 : (⟨S_, .f32⟩ : BufTy).Contents (Elt F) → (⟨S1x2097152, .f32⟩ : BufTy).Contents (Elt F)),
    StableHlo.binary main_v541 main_v471 main_v542 (subf : (⟨S1x2097152, .f32⟩ : BufTy).Contents (Elt F) → (⟨S1x2097152, .f32⟩ : BufTy).Contents (Elt F) → (⟨S1x2097152, .f32⟩ : BufTy).Contents (Elt F)),
    StableHlo.unary main_v542 main_v543 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v540 main_v543 main_v544 (mulf : (⟨S4x2097152, .f32⟩ : BufTy).Contents (Elt F) → (⟨S4x2097152, .f32⟩ : BufTy).Contents (Elt F) → (⟨S4x2097152, .f32⟩ : BufTy).Contents (Elt F)),
    StableHlo.unary main_v473 main_v545 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v544 main_v545 main_v546 (mulf : (⟨S4x2097152, .f32⟩ : BufTy).Contents (Elt F) → (⟨S4x2097152, .f32⟩ : BufTy).Contents (Elt F) → (⟨S4x2097152, .f32⟩ : BufTy).Contents (Elt F)),
    StableHlo.binary main_v526 main_v546 main_v547 (addf : (⟨S4x2097152, .f32⟩ : BufTy).Contents (Elt F) → (⟨S4x2097152, .f32⟩ : BufTy).Contents (Elt F) → (⟨S4x2097152, .f32⟩ : BufTy).Contents (Elt F)),
    StableHlo.nullary main_c_159 (constantI S_ 32 0#32),
    StableHlo.unary main_c_159 main_v548 (broadcastInDim S2097152 ![] bcast_S_S2097152 : (⟨S_, .i32⟩ : BufTy).Contents (Elt F) → (⟨S2097152, .i32⟩ : BufTy).Contents (Elt F)),
    StableHlo.binary main_v479 main_v548 main_v549 (cmpi .slt : (⟨S2097152, .i32⟩ : BufTy).Contents (Elt F) → (⟨S2097152, .i32⟩ : BufTy).Contents (Elt F) → (⟨S2097152, .i1⟩ : BufTy).Contents (Elt F)),
    StableHlo.nullary main_c_160 (constantI S_ 32 32#32),
    StableHlo.unary main_c_160 main_v550 (broadcastInDim S2097152 ![] bcast_S_S2097152 : (⟨S_, .i32⟩ : BufTy).Contents (Elt F) → (⟨S2097152, .i32⟩ : BufTy).Contents (Elt F)),
    StableHlo.binary main_v479 main_v550 main_v551 (addi : (⟨S2097152, .i32⟩ : BufTy).Contents (Elt F) → (⟨S2097152, .i32⟩ : BufTy).Contents (Elt F) → (⟨S2097152, .i32⟩ : BufTy).Contents (Elt F)),
    StableHlo.ternary main_v549 main_v551 main_v479 main_v552 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_161 (constantI S_ 32 0#32),
    StableHlo.unary main_c_161 main_v553 (broadcastInDim S2097152 ![] bcast_S_S2097152 : (⟨S_, .i32⟩ : BufTy).Contents (Elt F) → (⟨S2097152, .i32⟩ : BufTy).Contents (Elt F)),
    StableHlo.binary main_v483 main_v553 main_v554 (cmpi .slt : (⟨S2097152, .i32⟩ : BufTy).Contents (Elt F) → (⟨S2097152, .i32⟩ : BufTy).Contents (Elt F) → (⟨S2097152, .i1⟩ : BufTy).Contents (Elt F)),
    StableHlo.nullary main_c_162 (constantI S_ 32 32#32),
    StableHlo.unary main_c_162 main_v555 (broadcastInDim S2097152 ![] bcast_S_S2097152 : (⟨S_, .i32⟩ : BufTy).Contents (Elt F) → (⟨S2097152, .i32⟩ : BufTy).Contents (Elt F)),
    StableHlo.binary main_v483 main_v555 main_v556 (addi : (⟨S2097152, .i32⟩ : BufTy).Contents (Elt F) → (⟨S2097152, .i32⟩ : BufTy).Contents (Elt F) → (⟨S2097152, .i32⟩ : BufTy).Contents (Elt F)),
    StableHlo.ternary main_v554 main_v556 main_v483 main_v557 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v552 main_v558 (broadcastInDim S2097152x1 ![0] bcast_S2097152_S2097152x1_0 : (⟨S2097152, .i32⟩ : BufTy).Contents (Elt F) → (⟨S2097152x1, .i32⟩ : BufTy).Contents (Elt F)),
    StableHlo.unary main_v557 main_v559 (broadcastInDim S2097152x1 ![0] bcast_S2097152_S2097152x1_0 : (⟨S2097152, .i32⟩ : BufTy).Contents (Elt F) → (⟨S2097152x1, .i32⟩ : BufTy).Contents (Elt F)),
    StableHlo.binary main_v558 main_v559 main_v560 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v461 main_v560 main_v561 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.unary main_v471 main_v562 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v561 main_v562 main_v563 (mulf : (⟨S4x2097152, .f32⟩ : BufTy).Contents (Elt F) → (⟨S4x2097152, .f32⟩ : BufTy).Contents (Elt F) → (⟨S4x2097152, .f32⟩ : BufTy).Contents (Elt F)),
    StableHlo.unary main_v473 main_v564 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v563 main_v564 main_v565 (mulf : (⟨S4x2097152, .f32⟩ : BufTy).Contents (Elt F) → (⟨S4x2097152, .f32⟩ : BufTy).Contents (Elt F) → (⟨S4x2097152, .f32⟩ : BufTy).Contents (Elt F)),
    StableHlo.binary main_v547 main_v565 main_v566 (addf : (⟨S4x2097152, .f32⟩ : BufTy).Contents (Elt F) → (⟨S4x2097152, .f32⟩ : BufTy).Contents (Elt F) → (⟨S4x2097152, .f32⟩ : BufTy).Contents (Elt F)) ]
/-- The references the operations of the chunk K7 write, in order. -/
abbrev K7w : List (Ref sig .tc) :=
  [main_v447, main_v448, main_v449, main_v450, main_cst_129, main_v451, main_v452, main_cst_130, main_v453, main_v454, main_cst_131, main_v455, main_v456, main_v457, main_v458, main_v459, main_cst_132, main_v460, main_v461, main_cst_133, main_cst_134, main_call13_v0, main_call13_v1, main_call13_v2, main_call13_v3, main_call13_v4, main_v462, main_cst_135, main_v463, main_v464, main_cst_136, main_cst_137, main_call14_v0, main_call14_v1, main_call14_v2, main_call14_v3, main_call14_v4, main_v465, main_cst_138, main_v466, main_v467, main_v468, main_v469, main_v470, main_v471, main_v472, main_v473, main_v474, main_v475, main_c_139, main_v476, main_v477, main_c_140, main_v478, main_v479, main_c_141, main_v480, main_v481, main_c_142, main_v482, main_v483, main_c_143, main_v484, main_v485, main_c_144, main_v486, main_v487, main_v488, main_c_145, main_v489, main_v490, main_c_146, main_v491, main_v492, main_v493, main_v494, main_v495, main_v496, main_v497, main_cst_147, main_v498, main_v499, main_v500, main_v501, main_cst_148, main_v502, main_v503, main_v504, main_v505, main_c_149, main_v506, main_v507, main_c_150, main_v508, main_v509, main_v510, main_c_151, main_v511, main_v512, main_c_152, main_v513, main_v514, main_v515, main_v516, main_v517, main_v518, main_v519, main_v520, main_v521, main_cst_153, main_v522, main_v523, main_v524, main_v525, main_v526, main_c_154, main_v527, main_v528, main_c_155, main_v529, main_v530, main_v531, main_c_156, main_v532, main_v533, main_c_157, main_v534, main_v535, main_v536, main_v537, main_v538, main_v539, main_v540, main_cst_158, main_v541, main_v542, main_v543, main_v544, main_v545, main_v546, main_v547, main_c_159, main_v548, main_v549, main_c_160, main_v550, main_v551, main_v552, main_c_161, main_v553, main_v554, main_c_162, main_v555, main_v556, main_v557, main_v558, main_v559, main_v560, main_v561, main_v562, main_v563, main_v564, main_v565, main_v566]

set_option maxHeartbeats 40000000 in
/-- Operations 792 to 955 of the program, in order (164 operations). -/
abbrev K8 : List (HloOp τ sig (Elt F)) :=
  [ StableHlo.unary main_arg4 main_v567 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v567 main_v568 rfl shapeCasts_S2097152x1_S2097152,
    StableHlo.unary main_arg2 main_v569 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v569 main_v570 rfl shapeCasts_S2097152x1_S2097152,
    StableHlo.nullary main_cst_163 (constant S_ .f32 0x40000000#32),
    StableHlo.unary main_cst_163 main_v571 (broadcastInDim S4x32x32 ![] bcast_S_S4x32x32 : (⟨S_, .f32⟩ : BufTy).Contents (Elt F) → (⟨S4x32x32, .f32⟩ : BufTy).Contents (Elt F)),
    StableHlo.binary main_v7 main_v571 main_v572 (Host.divf : (⟨S4x32x32, .f32⟩ : BufTy).Contents (Elt F) → (⟨S4x32x32, .f32⟩ : BufTy).Contents (Elt F) → (⟨S4x32x32, .f32⟩ : BufTy).Contents (Elt F)),
    StableHlo.nullary main_cst_164 (constant S_ .f32 0x40000000#32),
    StableHlo.unary main_cst_164 main_v573 (broadcastInDim S4x32x32 ![] bcast_S_S4x32x32 : (⟨S_, .f32⟩ : BufTy).Contents (Elt F) → (⟨S4x32x32, .f32⟩ : BufTy).Contents (Elt F)),
    StableHlo.binary main_v7 main_v573 main_v574 (Host.divf : (⟨S4x32x32, .f32⟩ : BufTy).Contents (Elt F) → (⟨S4x32x32, .f32⟩ : BufTy).Contents (Elt F) → (⟨S4x32x32, .f32⟩ : BufTy).Contents (Elt F)),
    StableHlo.nullary main_cst_165 (constant S_ .f32 0x3F000000#32),
    StableHlo.unary main_cst_165 main_v575 (broadcastInDim S4x32x32 ![] bcast_S_S4x32x32 : (⟨S_, .f32⟩ : BufTy).Contents (Elt F) → (⟨S4x32x32, .f32⟩ : BufTy).Contents (Elt F)),
    StableHlo.binary main_v574 main_v575 main_v576 (addf : (⟨S4x32x32, .f32⟩ : BufTy).Contents (Elt F) → (⟨S4x32x32, .f32⟩ : BufTy).Contents (Elt F) → (⟨S4x32x32, .f32⟩ : BufTy).Contents (Elt F)),
    StableHlo.unary main_v576 main_v577 (Host.floor : (⟨S4x32x32, .f32⟩ : BufTy).Contents (Elt F) → (⟨S4x32x32, .f32⟩ : BufTy).Contents (Elt F)),
    StableHlo.binary main_v572 main_v577 main_v578 (subf : (⟨S4x32x32, .f32⟩ : BufTy).Contents (Elt F) → (⟨S4x32x32, .f32⟩ : BufTy).Contents (Elt F) → (⟨S4x32x32, .f32⟩ : BufTy).Contents (Elt F)),
    StableHlo.unary main_v578 main_v579 (Host.absf : (⟨S4x32x32, .f32⟩ : BufTy).Contents (Elt F) → (⟨S4x32x32, .f32⟩ : BufTy).Contents (Elt F)),
    StableHlo.nullary main_cst_166 (constant S_ .f32 0x40000000#32),
    StableHlo.unary main_cst_166 main_v580 (broadcastInDim S4x32x32 ![] bcast_S_S4x32x32 : (⟨S_, .f32⟩ : BufTy).Contents (Elt F) → (⟨S4x32x32, .f32⟩ : BufTy).Contents (Elt F)),
    StableHlo.binary main_v580 main_v579 main_v581 (mulf : (⟨S4x32x32, .f32⟩ : BufTy).Contents (Elt F) → (⟨S4x32x32, .f32⟩ : BufTy).Contents (Elt F) → (⟨S4x32x32, .f32⟩ : BufTy).Contents (Elt F)),
    StableHlo.nullary main_cst_167 (constant S_ .f32 0x00000000#32),
    StableHlo.nullary main_cst_168 (constant S_ .f32 0x3F7FFFEF#32),
    StableHlo.TRef.unary (.of main_cst_167 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S2097152, .f32⟩) (broadcastInDim S2097152 ![] bcast_S_S2097152),
    StableHlo.TRef.binary (.of main_call15_v1 : StableHlo.TRef sig ⟨S2097152, .f32⟩) (.of main_v568 : StableHlo.TRef sig ⟨S2097152, .f32⟩) (.of main_call15_v2 : StableHlo.TRef sig ⟨S2097152, .f32⟩) maximumf,
    StableHlo.TRef.unary (.of main_cst_168 : StableHlo.TRef sig ⟨S_, .f32⟩) (.of main_call15_v3 : StableHlo.TRef sig ⟨S_, .f32⟩) id,
    StableHlo.TRef.unary (.of main_call15_v3 : StableHlo.TRef sig ⟨S_, .f32⟩) (.of main_call15_v4 : StableHlo.TRef sig ⟨S2097152, .f32⟩) (broadcastInDim S2097152 ![] bcast_S_S2097152),
    StableHlo.TRef.binary (.of main_call15_v4 : StableHlo.TRef sig ⟨S2097152, .f32⟩) (.of main_call15_v2 : StableHlo.TRef sig ⟨S2097152, .f32⟩) (.of main_v582 : StableHlo.TRef sig ⟨S2097152, .f32⟩) minimumf,
    StableHlo.nullary main_cst_169 (constant S_ .f32 0x41F80000#32),
    StableHlo.unary main_cst_169 main_v583 (broadcastInDim S2097152 ![] bcast_S_S2097152 : (⟨S_, .f32⟩ : BufTy).Contents (Elt F) → (⟨S2097152, .f32⟩ : BufTy).Contents (Elt F)),
    StableHlo.binary main_v582 main_v583 main_v584 (mulf : (⟨S2097152, .f32⟩ : BufTy).Contents (Elt F) → (⟨S2097152, .f32⟩ : BufTy).Contents (Elt F) → (⟨S2097152, .f32⟩ : BufTy).Contents (Elt F)),
    StableHlo.nullary main_cst_170 (constant S_ .f32 0x00000000#32),
    StableHlo.nullary main_cst_171 (constant S_ .f32 0x3F7FFFEF#32),
    StableHlo.TRef.unary (.of main_cst_170 : StableHlo.TRef sig ⟨S_, .f32⟩) (.of main_call16_v0 : StableHlo.TRef sig ⟨S_, .f32⟩) id,
    StableHlo.TRef.unary (.of main_call16_v0 : StableHlo.TRef sig ⟨S_, .f32⟩) (.of main_call16_v1 : StableHlo.TRef sig ⟨S2097152, .f32⟩) (broadcastInDim S2097152 ![] bcast_S_S2097152),
    StableHlo.TRef.binary (.of main_call16_v1 : StableHlo.TRef sig ⟨S2097152, .f32⟩) (.of main_v570 : StableHlo.TRef sig ⟨S2097152, .f32⟩) (.of main_call16_v2 : StableHlo.TRef sig ⟨S2097152, .f32⟩) maximumf,
    StableHlo.TRef.unary (.of main_cst_171 : StableHlo.TRef sig ⟨S_, .f32⟩) (.of main_call16_v3 : StableHlo.TRef sig ⟨S_, .f32⟩) id,
    StableHlo.TRef.unary (.of main_call16_v3 : StableHlo.TRef sig ⟨S_, .f32⟩) (.of main_call16_v4 : StableHlo.TRef sig ⟨S2097152, .f32⟩) (broadcastInDim S2097152 ![] bcast_S_S2097152),
    StableHlo.TRef.binary (.of main_call16_v4 : StableHlo.TRef sig ⟨S2097152, .f32⟩) (.of main_call16_v2 : StableHlo.TRef sig ⟨S2097152, .f32⟩) (.of main_v585 : StableHlo.TRef sig ⟨S2097152, .f32⟩) minimumf,
    StableHlo.nullary main_cst_172 (constant S_ .f32 0x41F80000#32),
    StableHlo.unary main_cst_172 main_v586 (broadcastInDim S2097152 ![] bcast_S_S2097152 : (⟨S_, .f32⟩ : BufTy).Contents (Elt F) → (⟨S2097152, .f32⟩ : BufTy).Contents (Elt F)),
    StableHlo.binary main_v585 main_v586 main_v587 (mulf : (⟨S2097152, .f32⟩ : BufTy).Contents (Elt F) → (⟨S2097152, .f32⟩ : BufTy).Contents (Elt F) → (⟨S2097152, .f32⟩ : BufTy).Contents (Elt F)),
    StableHlo.unary main_v584 main_v588 (Host.floor : (⟨S2097152, .f32⟩ : BufTy).Contents (Elt F) → (⟨S2097152, .f32⟩ : BufTy).Contents (Elt F)),
    StableHlo.unary main_v587 main_v589 (Host.floor : (⟨S2097152, .f32⟩ : BufTy).Contents (Elt F) → (⟨S2097152, .f32⟩ : BufTy).Contents (Elt F)),
    StableHlo.binary main_v584 main_v588 main_v590 (subf : (⟨S2097152, .f32⟩ : BufTy).Contents (Elt F) → (⟨S2097152, .f32⟩ : BufTy).Contents (Elt F) → (⟨S2097152, .f32⟩ : BufTy).Contents (Elt F)),
    StableHlo.unary main_v590 main_v591 (broadcastInDim S1x2097152 ![1] bcast_S2097152_S1x2097152_1 : (⟨S2097152, .f32⟩ : BufTy).Contents (Elt F) → (⟨S1x2097152, .f32⟩ : BufTy).Contents (Elt F)),
    StableHlo.binary main_v587 main_v589 main_v592 (subf : (⟨S2097152, .f32⟩ : BufTy).Contents (Elt F) → (⟨S2097152, .f32⟩ : BufTy).Contents (Elt F) → (⟨S2097152, .f32⟩ : BufTy).Contents (Elt F)),
    StableHlo.unary main_v592 main_v593 (broadcastInDim S1x2097152 ![1] bcast_S2097152_S1x2097152_1 : (⟨S2097152, .f32⟩ : BufTy).Contents (Elt F) → (⟨S1x2097152, .f32⟩ : BufTy).Contents (Elt F)),
    StableHlo.unary main_v588 main_v594 (fptosi 32 : (⟨S2097152, .f32⟩ : BufTy).Contents (Elt F) → (⟨S2097152, .i32⟩ : BufTy).Contents (Elt F)),
    StableHlo.unary main_v589 main_v595 (fptosi 32 : (⟨S2097152, .f32⟩ : BufTy).Contents (Elt F) → (⟨S2097152, .i32⟩ : BufTy).Contents (Elt F)),
    StableHlo.nullary main_c_173 (constantI S_ 32 1#32),
    StableHlo.unary main_c_173 main_v596 (broadcastInDim S2097152 ![] bcast_S_S2097152 : (⟨S_, .i32⟩ : BufTy).Contents (Elt F) → (⟨S2097152, .i32⟩ : BufTy).Contents (Elt F)),
    StableHlo.binary main_v594 main_v596 main_v597 (addi : (⟨S2097152, .i32⟩ : BufTy).Contents (Elt F) → (⟨S2097152, .i32⟩ : BufTy).Contents (Elt F) → (⟨S2097152, .i32⟩ : BufTy).Contents (Elt F)),
    StableHlo.nullary main_c_174 (constantI S_ 32 31#32),
    StableHlo.unary main_c_174 main_v598 (broadcastInDim S2097152 ![] bcast_S_S2097152 : (⟨S_, .i32⟩ : BufTy).Contents (Elt F) → (⟨S2097152, .i32⟩ : BufTy).Contents (Elt F)),
    StableHlo.binary main_v597 main_v598 main_v599 (minsi : (⟨S2097152, .i32⟩ : BufTy).Contents (Elt F) → (⟨S2097152, .i32⟩ : BufTy).Contents (Elt F) → (⟨S2097152, .i32⟩ : BufTy).Contents (Elt F)),
    StableHlo.nullary main_c_175 (constantI S_ 32 1#32),
    StableHlo.unary main_c_175 main_v600 (broadcastInDim S2097152 ![] bcast_S_S2097152 : (⟨S_, .i32⟩ : BufTy).Contents (Elt F) → (⟨S2097152, .i32⟩ : BufTy).Contents (Elt F)),
    StableHlo.binary main_v595 main_v600 main_v601 (addi : (⟨S2097152, .i32⟩ : BufTy).Contents (Elt F) → (⟨S2097152, .i32⟩ : BufTy).Contents (Elt F) → (⟨S2097152, .i32⟩ : BufTy).Contents (Elt F)),
    StableHlo.nullary main_c_176 (constantI S_ 32 31#32),
    StableHlo.unary main_c_176 main_v602 (broadcastInDim S2097152 ![] bcast_S_S2097152 : (⟨S_, .i32⟩ : BufTy).Contents (Elt F) → (⟨S2097152, .i32⟩ : BufTy).Contents (Elt F)),
    StableHlo.binary main_v601 main_v602 main_v603 (minsi : (⟨S2097152, .i32⟩ : BufTy).Contents (Elt F) → (⟨S2097152, .i32⟩ : BufTy).Contents (Elt F) → (⟨S2097152, .i32⟩ : BufTy).Contents (Elt F)),
    StableHlo.nullary main_c_177 (constantI S_ 32 0#32),
    StableHlo.unary main_c_177 main_v604 (broadcastInDim S2097152 ![] bcast_S_S2097152 : (⟨S_, .i32⟩ : BufTy).Contents (Elt F) → (⟨S2097152, .i32⟩ : BufTy).Contents (Elt F)),
    StableHlo.binary main_v594 main_v604 main_v605 (cmpi .slt : (⟨S2097152, .i32⟩ : BufTy).Contents (Elt F) → (⟨S2097152, .i32⟩ : BufTy).Contents (Elt F) → (⟨S2097152, .i1⟩ : BufTy).Contents (Elt F)),
    StableHlo.nullary main_c_178 (constantI S_ 32 32#32),
    StableHlo.unary main_c_178 main_v606 (broadcastInDim S2097152 ![] bcast_S_S2097152 : (⟨S_, .i32⟩ : BufTy).Contents (Elt F) → (⟨S2097152, .i32⟩ : BufTy).Contents (Elt F)),
    StableHlo.binary main_v594 main_v606 main_v607 (addi : (⟨S2097152, .i32⟩ : BufTy).Contents (Elt F) → (⟨S2097152, .i32⟩ : BufTy).Contents (Elt F) → (⟨S2097152, .i32⟩ : BufTy).Contents (Elt F)),
    StableHlo.ternary main_v605 main_v607 main_v594 main_v608 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_179 (constantI S_ 32 0#32),
    StableHlo.unary main_c_179 main_v609 (broadcastInDim S2097152 ![] bcast_S_S2097152 : (⟨S_, .i32⟩ : BufTy).Contents (Elt F) → (⟨S2097152, .i32⟩ : BufTy).Contents (Elt F)),
    StableHlo.binary main_v595 main_v609 main_v610 (cmpi .slt : (⟨S2097152, .i32⟩ : BufTy).Contents (Elt F) → (⟨S2097152, .i32⟩ : BufTy).Contents (Elt F) → (⟨S2097152, .i1⟩ : BufTy).Contents (Elt F)),
    StableHlo.nullary main_c_180 (constantI S_ 32 32#32),
    StableHlo.unary main_c_180 main_v611 (broadcastInDim S2097152 ![] bcast_S_S2097152 : (⟨S_, .i32⟩ : BufTy).Contents (Elt F) → (⟨S2097152, .i32⟩ : BufTy).Contents (Elt F)),
    StableHlo.binary main_v595 main_v611 main_v612 (addi : (⟨S2097152, .i32⟩ : BufTy).Contents (Elt F) → (⟨S2097152, .i32⟩ : BufTy).Contents (Elt F) → (⟨S2097152, .i32⟩ : BufTy).Contents (Elt F)),
    StableHlo.ternary main_v610 main_v612 main_v595 main_v613 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v608 main_v614 (broadcastInDim S2097152x1 ![0] bcast_S2097152_S2097152x1_0 : (⟨S2097152, .i32⟩ : BufTy).Contents (Elt F) → (⟨S2097152x1, .i32⟩ : BufTy).Contents (Elt F)),
    StableHlo.unary main_v613 main_v615 (broadcastInDim S2097152x1 ![0] bcast_S2097152_S2097152x1_0 : (⟨S2097152, .i32⟩ : BufTy).Contents (Elt F) → (⟨S2097152x1, .i32⟩ : BufTy).Contents (Elt F)),
    StableHlo.binary main_v614 main_v615 main_v616 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v581 main_v616 main_v617 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.nullary main_cst_181 (constant S_ .f32 0x3F800000#32),
    StableHlo.unary main_cst_181 main_v618 (broadcastInDim S1x2097152 ![] bcast_S_S1x2097152 : (⟨S_, .f32⟩ : BufTy).Contents (Elt F) → (⟨S1x2097152, .f32⟩ : BufTy).Contents (Elt F)),
    StableHlo.binary main_v618 main_v591 main_v619 (subf : (⟨S1x2097152, .f32⟩ : BufTy).Contents (Elt F) → (⟨S1x2097152, .f32⟩ : BufTy).Contents (Elt F) → (⟨S1x2097152, .f32⟩ : BufTy).Contents (Elt F)),
    StableHlo.unary main_v619 main_v620 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v617 main_v620 main_v621 (mulf : (⟨S4x2097152, .f32⟩ : BufTy).Contents (Elt F) → (⟨S4x2097152, .f32⟩ : BufTy).Contents (Elt F) → (⟨S4x2097152, .f32⟩ : BufTy).Contents (Elt F)),
    StableHlo.nullary main_cst_182 (constant S_ .f32 0x3F800000#32),
    StableHlo.unary main_cst_182 main_v622 (broadcastInDim S1x2097152 ![] bcast_S_S1x2097152 : (⟨S_, .f32⟩ : BufTy).Contents (Elt F) → (⟨S1x2097152, .f32⟩ : BufTy).Contents (Elt F)),
    StableHlo.binary main_v622 main_v593 main_v623 (subf : (⟨S1x2097152, .f32⟩ : BufTy).Contents (Elt F) → (⟨S1x2097152, .f32⟩ : BufTy).Contents (Elt F) → (⟨S1x2097152, .f32⟩ : BufTy).Contents (Elt F)),
    StableHlo.unary main_v623 main_v624 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v621 main_v624 main_v625 (mulf : (⟨S4x2097152, .f32⟩ : BufTy).Contents (Elt F) → (⟨S4x2097152, .f32⟩ : BufTy).Contents (Elt F) → (⟨S4x2097152, .f32⟩ : BufTy).Contents (Elt F)),
    StableHlo.nullary main_c_183 (constantI S_ 32 0#32),
    StableHlo.unary main_c_183 main_v626 (broadcastInDim S2097152 ![] bcast_S_S2097152 : (⟨S_, .i32⟩ : BufTy).Contents (Elt F) → (⟨S2097152, .i32⟩ : BufTy).Contents (Elt F)),
    StableHlo.binary main_v599 main_v626 main_v627 (cmpi .slt : (⟨S2097152, .i32⟩ : BufTy).Contents (Elt F) → (⟨S2097152, .i32⟩ : BufTy).Contents (Elt F) → (⟨S2097152, .i1⟩ : BufTy).Contents (Elt F)),
    StableHlo.nullary main_c_184 (constantI S_ 32 32#32),
    StableHlo.unary main_c_184 main_v628 (broadcastInDim S2097152 ![] bcast_S_S2097152 : (⟨S_, .i32⟩ : BufTy).Contents (Elt F) → (⟨S2097152, .i32⟩ : BufTy).Contents (Elt F)),
    StableHlo.binary main_v599 main_v628 main_v629 (addi : (⟨S2097152, .i32⟩ : BufTy).Contents (Elt F) → (⟨S2097152, .i32⟩ : BufTy).Contents (Elt F) → (⟨S2097152, .i32⟩ : BufTy).Contents (Elt F)),
    StableHlo.ternary main_v627 main_v629 main_v599 main_v630 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_185 (constantI S_ 32 0#32),
    StableHlo.unary main_c_185 main_v631 (broadcastInDim S2097152 ![] bcast_S_S2097152 : (⟨S_, .i32⟩ : BufTy).Contents (Elt F) → (⟨S2097152, .i32⟩ : BufTy).Contents (Elt F)),
    StableHlo.binary main_v595 main_v631 main_v632 (cmpi .slt : (⟨S2097152, .i32⟩ : BufTy).Contents (Elt F) → (⟨S2097152, .i32⟩ : BufTy).Contents (Elt F) → (⟨S2097152, .i1⟩ : BufTy).Contents (Elt F)),
    StableHlo.nullary main_c_186 (constantI S_ 32 32#32),
    StableHlo.unary main_c_186 main_v633 (broadcastInDim S2097152 ![] bcast_S_S2097152 : (⟨S_, .i32⟩ : BufTy).Contents (Elt F) → (⟨S2097152, .i32⟩ : BufTy).Contents (Elt F)),
    StableHlo.binary main_v595 main_v633 main_v634 (addi : (⟨S2097152, .i32⟩ : BufTy).Contents (Elt F) → (⟨S2097152, .i32⟩ : BufTy).Contents (Elt F) → (⟨S2097152, .i32⟩ : BufTy).Contents (Elt F)),
    StableHlo.ternary main_v632 main_v634 main_v595 main_v635 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v630 main_v636 (broadcastInDim S2097152x1 ![0] bcast_S2097152_S2097152x1_0 : (⟨S2097152, .i32⟩ : BufTy).Contents (Elt F) → (⟨S2097152x1, .i32⟩ : BufTy).Contents (Elt F)),
    StableHlo.unary main_v635 main_v637 (broadcastInDim S2097152x1 ![0] bcast_S2097152_S2097152x1_0 : (⟨S2097152, .i32⟩ : BufTy).Contents (Elt F) → (⟨S2097152x1, .i32⟩ : BufTy).Contents (Elt F)),
    StableHlo.binary main_v636 main_v637 main_v638 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v581 main_v638 main_v639 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.unary main_v591 main_v640 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v639 main_v640 main_v641 (mulf : (⟨S4x2097152, .f32⟩ : BufTy).Contents (Elt F) → (⟨S4x2097152, .f32⟩ : BufTy).Contents (Elt F) → (⟨S4x2097152, .f32⟩ : BufTy).Contents (Elt F)),
    StableHlo.nullary main_cst_187 (constant S_ .f32 0x3F800000#32),
    StableHlo.unary main_cst_187 main_v642 (broadcastInDim S1x2097152 ![] bcast_S_S1x2097152 : (⟨S_, .f32⟩ : BufTy).Contents (Elt F) → (⟨S1x2097152, .f32⟩ : BufTy).Contents (Elt F)),
    StableHlo.binary main_v642 main_v593 main_v643 (subf : (⟨S1x2097152, .f32⟩ : BufTy).Contents (Elt F) → (⟨S1x2097152, .f32⟩ : BufTy).Contents (Elt F) → (⟨S1x2097152, .f32⟩ : BufTy).Contents (Elt F)),
    StableHlo.unary main_v643 main_v644 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v641 main_v644 main_v645 (mulf : (⟨S4x2097152, .f32⟩ : BufTy).Contents (Elt F) → (⟨S4x2097152, .f32⟩ : BufTy).Contents (Elt F) → (⟨S4x2097152, .f32⟩ : BufTy).Contents (Elt F)),
    StableHlo.binary main_v625 main_v645 main_v646 (addf : (⟨S4x2097152, .f32⟩ : BufTy).Contents (Elt F) → (⟨S4x2097152, .f32⟩ : BufTy).Contents (Elt F) → (⟨S4x2097152, .f32⟩ : BufTy).Contents (Elt F)),
    StableHlo.nullary main_c_188 (constantI S_ 32 0#32),
    StableHlo.unary main_c_188 main_v647 (broadcastInDim S2097152 ![] bcast_S_S2097152 : (⟨S_, .i32⟩ : BufTy).Contents (Elt F) → (⟨S2097152, .i32⟩ : BufTy).Contents (Elt F)),
    StableHlo.binary main_v594 main_v647 main_v648 (cmpi .slt : (⟨S2097152, .i32⟩ : BufTy).Contents (Elt F) → (⟨S2097152, .i32⟩ : BufTy).Contents (Elt F) → (⟨S2097152, .i1⟩ : BufTy).Contents (Elt F)),
    StableHlo.nullary main_c_189 (constantI S_ 32 32#32),
    StableHlo.unary main_c_189 main_v649 (broadcastInDim S2097152 ![] bcast_S_S2097152 : (⟨S_, .i32⟩ : BufTy).Contents (Elt F) → (⟨S2097152, .i32⟩ : BufTy).Contents (Elt F)),
    StableHlo.binary main_v594 main_v649 main_v650 (addi : (⟨S2097152, .i32⟩ : BufTy).Contents (Elt F) → (⟨S2097152, .i32⟩ : BufTy).Contents (Elt F) → (⟨S2097152, .i32⟩ : BufTy).Contents (Elt F)),
    StableHlo.ternary main_v648 main_v650 main_v594 main_v651 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_190 (constantI S_ 32 0#32),
    StableHlo.unary main_c_190 main_v652 (broadcastInDim S2097152 ![] bcast_S_S2097152 : (⟨S_, .i32⟩ : BufTy).Contents (Elt F) → (⟨S2097152, .i32⟩ : BufTy).Contents (Elt F)),
    StableHlo.binary main_v603 main_v652 main_v653 (cmpi .slt : (⟨S2097152, .i32⟩ : BufTy).Contents (Elt F) → (⟨S2097152, .i32⟩ : BufTy).Contents (Elt F) → (⟨S2097152, .i1⟩ : BufTy).Contents (Elt F)),
    StableHlo.nullary main_c_191 (constantI S_ 32 32#32),
    StableHlo.unary main_c_191 main_v654 (broadcastInDim S2097152 ![] bcast_S_S2097152 : (⟨S_, .i32⟩ : BufTy).Contents (Elt F) → (⟨S2097152, .i32⟩ : BufTy).Contents (Elt F)),
    StableHlo.binary main_v603 main_v654 main_v655 (addi : (⟨S2097152, .i32⟩ : BufTy).Contents (Elt F) → (⟨S2097152, .i32⟩ : BufTy).Contents (Elt F) → (⟨S2097152, .i32⟩ : BufTy).Contents (Elt F)),
    StableHlo.ternary main_v653 main_v655 main_v603 main_v656 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v651 main_v657 (broadcastInDim S2097152x1 ![0] bcast_S2097152_S2097152x1_0 : (⟨S2097152, .i32⟩ : BufTy).Contents (Elt F) → (⟨S2097152x1, .i32⟩ : BufTy).Contents (Elt F)),
    StableHlo.unary main_v656 main_v658 (broadcastInDim S2097152x1 ![0] bcast_S2097152_S2097152x1_0 : (⟨S2097152, .i32⟩ : BufTy).Contents (Elt F) → (⟨S2097152x1, .i32⟩ : BufTy).Contents (Elt F)),
    StableHlo.binary main_v657 main_v658 main_v659 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v581 main_v659 main_v660 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.nullary main_cst_192 (constant S_ .f32 0x3F800000#32),
    StableHlo.unary main_cst_192 main_v661 (broadcastInDim S1x2097152 ![] bcast_S_S1x2097152 : (⟨S_, .f32⟩ : BufTy).Contents (Elt F) → (⟨S1x2097152, .f32⟩ : BufTy).Contents (Elt F)),
    StableHlo.binary main_v661 main_v591 main_v662 (subf : (⟨S1x2097152, .f32⟩ : BufTy).Contents (Elt F) → (⟨S1x2097152, .f32⟩ : BufTy).Contents (Elt F) → (⟨S1x2097152, .f32⟩ : BufTy).Contents (Elt F)),
    StableHlo.unary main_v662 main_v663 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v660 main_v663 main_v664 (mulf : (⟨S4x2097152, .f32⟩ : BufTy).Contents (Elt F) → (⟨S4x2097152, .f32⟩ : BufTy).Contents (Elt F) → (⟨S4x2097152, .f32⟩ : BufTy).Contents (Elt F)),
    StableHlo.unary main_v593 main_v665 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v664 main_v665 main_v666 (mulf : (⟨S4x2097152, .f32⟩ : BufTy).Contents (Elt F) → (⟨S4x2097152, .f32⟩ : BufTy).Contents (Elt F) → (⟨S4x2097152, .f32⟩ : BufTy).Contents (Elt F)),
    StableHlo.binary main_v646 main_v666 main_v667 (addf : (⟨S4x2097152, .f32⟩ : BufTy).Contents (Elt F) → (⟨S4x2097152, .f32⟩ : BufTy).Contents (Elt F) → (⟨S4x2097152, .f32⟩ : BufTy).Contents (Elt F)),
    StableHlo.nullary main_c_193 (constantI S_ 32 0#32),
    StableHlo.unary main_c_193 main_v668 (broadcastInDim S2097152 ![] bcast_S_S2097152 : (⟨S_, .i32⟩ : BufTy).Contents (Elt F) → (⟨S2097152, .i32⟩ : BufTy).Contents (Elt F)),
    StableHlo.binary main_v599 main_v668 main_v669 (cmpi .slt : (⟨S2097152, .i32⟩ : BufTy).Contents (Elt F) → (⟨S2097152, .i32⟩ : BufTy).Contents (Elt F) → (⟨S2097152, .i1⟩ : BufTy).Contents (Elt F)),
    StableHlo.nullary main_c_194 (constantI S_ 32 32#32),
    StableHlo.unary main_c_194 main_v670 (broadcastInDim S2097152 ![] bcast_S_S2097152 : (⟨S_, .i32⟩ : BufTy).Contents (Elt F) → (⟨S2097152, .i32⟩ : BufTy).Contents (Elt F)),
    StableHlo.binary main_v599 main_v670 main_v671 (addi : (⟨S2097152, .i32⟩ : BufTy).Contents (Elt F) → (⟨S2097152, .i32⟩ : BufTy).Contents (Elt F) → (⟨S2097152, .i32⟩ : BufTy).Contents (Elt F)),
    StableHlo.ternary main_v669 main_v671 main_v599 main_v672 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.nullary main_c_195 (constantI S_ 32 0#32),
    StableHlo.unary main_c_195 main_v673 (broadcastInDim S2097152 ![] bcast_S_S2097152 : (⟨S_, .i32⟩ : BufTy).Contents (Elt F) → (⟨S2097152, .i32⟩ : BufTy).Contents (Elt F)),
    StableHlo.binary main_v603 main_v673 main_v674 (cmpi .slt : (⟨S2097152, .i32⟩ : BufTy).Contents (Elt F) → (⟨S2097152, .i32⟩ : BufTy).Contents (Elt F) → (⟨S2097152, .i1⟩ : BufTy).Contents (Elt F)),
    StableHlo.nullary main_c_196 (constantI S_ 32 32#32),
    StableHlo.unary main_c_196 main_v675 (broadcastInDim S2097152 ![] bcast_S_S2097152 : (⟨S_, .i32⟩ : BufTy).Contents (Elt F) → (⟨S2097152, .i32⟩ : BufTy).Contents (Elt F)),
    StableHlo.binary main_v603 main_v675 main_v676 (addi : (⟨S2097152, .i32⟩ : BufTy).Contents (Elt F) → (⟨S2097152, .i32⟩ : BufTy).Contents (Elt F) → (⟨S2097152, .i32⟩ : BufTy).Contents (Elt F)),
    StableHlo.ternary main_v674 main_v676 main_v603 main_v677 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v672 main_v678 (broadcastInDim S2097152x1 ![0] bcast_S2097152_S2097152x1_0 : (⟨S2097152, .i32⟩ : BufTy).Contents (Elt F) → (⟨S2097152x1, .i32⟩ : BufTy).Contents (Elt F)),
    StableHlo.unary main_v677 main_v679 (broadcastInDim S2097152x1 ![0] bcast_S2097152_S2097152x1_0 : (⟨S2097152, .i32⟩ : BufTy).Contents (Elt F) → (⟨S2097152x1, .i32⟩ : BufTy).Contents (Elt F)),
    StableHlo.binary main_v678 main_v679 main_v680 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    StableHlo.binary main_v581 main_v680 main_v681 ((fun x i => Host.gather gather_S4x32x32_S2097152x2_S4x2097152_0_12_n_n_12_1_411 x i) : (⟨S4x32x32, .f32⟩ : BufTy).Contents (Elt F) → (⟨S2097152x2, .i32⟩ : BufTy).Contents (Elt F) → (⟨S4x2097152, .f32⟩ : BufTy).Contents (Elt F)),
    StableHlo.unary main_v591 main_v682 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v681 main_v682 main_v683 (mulf : (⟨S4x2097152, .f32⟩ : BufTy).Contents (Elt F) → (⟨S4x2097152, .f32⟩ : BufTy).Contents (Elt F) → (⟨S4x2097152, .f32⟩ : BufTy).Contents (Elt F)),
    StableHlo.unary main_v593 main_v684 (broadcastInDim S4x2097152 ![0, 1] bcast_S1x2097152_S4x2097152_0_1 : (⟨S1x2097152, .f32⟩ : BufTy).Contents (Elt F) → (⟨S4x2097152, .f32⟩ : BufTy).Contents (Elt F)),
    StableHlo.binary main_v683 main_v684 main_v685 (mulf : (⟨S4x2097152, .f32⟩ : BufTy).Contents (Elt F) → (⟨S4x2097152, .f32⟩ : BufTy).Contents (Elt F) → (⟨S4x2097152, .f32⟩ : BufTy).Contents (Elt F)),
    StableHlo.binary main_v667 main_v685 main_v686 (addf : (⟨S4x2097152, .f32⟩ : BufTy).Contents (Elt F) → (⟨S4x2097152, .f32⟩ : BufTy).Contents (Elt F) → (⟨S4x2097152, .f32⟩ : BufTy).Contents (Elt F)) ]
/-- The references the operations of the chunk K8 write, in order. -/
abbrev K8w : List (Ref sig .tc) :=
  [main_v567, main_v568, main_v569, main_v570, main_cst_163, main_v571, main_v572, main_cst_164, main_v573, main_v574, main_cst_165, main_v575, main_v576, main_v577, main_v578, main_v579, main_cst_166, main_v580, main_v581, main_cst_167, main_cst_168, main_call15_v0, main_call15_v1, main_call15_v2, main_call15_v3, main_call15_v4, main_v582, main_cst_169, main_v583, main_v584, main_cst_170, main_cst_171, main_call16_v0, main_call16_v1, main_call16_v2, main_call16_v3, main_call16_v4, main_v585, main_cst_172, main_v586, main_v587, main_v588, main_v589, main_v590, main_v591, main_v592, main_v593, main_v594, main_v595, main_c_173, main_v596, main_v597, main_c_174, main_v598, main_v599, main_c_175, main_v600, main_v601, main_c_176, main_v602, main_v603, main_c_177, main_v604, main_v605, main_c_178, main_v606, main_v607, main_v608, main_c_179, main_v609, main_v610, main_c_180, main_v611, main_v612, main_v613, main_v614, main_v615, main_v616, main_v617, main_cst_181, main_v618, main_v619, main_v620, main_v621, main_cst_182, main_v622, main_v623, main_v624, main_v625, main_c_183, main_v626, main_v627, main_c_184, main_v628, main_v629, main_v630, main_c_185, main_v631, main_v632, main_c_186, main_v633, main_v634, main_v635, main_v636, main_v637, main_v638, main_v639, main_v640, main_v641, main_cst_187, main_v642, main_v643, main_v644, main_v645, main_v646, main_c_188, main_v647, main_v648, main_c_189, main_v649, main_v650, main_v651, main_c_190, main_v652, main_v653, main_c_191, main_v654, main_v655, main_v656, main_v657, main_v658, main_v659, main_v660, main_cst_192, main_v661, main_v662, main_v663, main_v664, main_v665, main_v666, main_v667, main_c_193, main_v668, main_v669, main_c_194, main_v670, main_v671, main_v672, main_c_195, main_v673, main_v674, main_c_196, main_v675, main_v676, main_v677, main_v678, main_v679, main_v680, main_v681, main_v682, main_v683, main_v684, main_v685, main_v686]

set_option maxHeartbeats 40000000 in
/-- Operations 956 to 991 of the program, in order (36 operations). -/
abbrev K9 : List (HloOp τ sig (Elt F)) :=
  [ StableHlo.unary main_arg0 main_v687 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v687 main_v688 rfl shapeCasts_S2097152x1_S2097152,
    StableHlo.unary main_arg1 main_v689 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v689 main_v690 rfl shapeCasts_S2097152x1_S2097152,
    StableHlo.unary main_arg2 main_v691 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v691 main_v692 rfl shapeCasts_S2097152x1_S2097152,
    StableHlo.unary main_arg2 main_v693 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v693 main_v694 rfl shapeCasts_S2097152x1_S2097152,
    StableHlo.unary main_arg4 main_v695 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v695 main_v696 rfl shapeCasts_S2097152x1_S2097152,
    StableHlo.unary main_arg8 main_v697 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v697 main_v698 rfl shapeCasts_S2097152x1_S2097152,
    StableHlo.unary main_arg8 main_v699 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v699 main_v700 rfl shapeCasts_S2097152x1_S2097152,
    StableHlo.unary main_arg6 main_v701 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v701 main_v702 rfl shapeCasts_S2097152x1_S2097152,
    StableHlo.unary main_arg6 main_v703 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v703 main_v704 rfl shapeCasts_S2097152x1_S2097152,
    StableHlo.unary main_arg7 main_v705 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v705 main_v706 rfl shapeCasts_S2097152x1_S2097152,
    StableHlo.unary main_arg7 main_v707 ((extractStridedSlice S2097152x1 ![0, 1] · slices_S2097152x2_S2097152x1_0_1) : (⟨S2097152x2, .f32⟩ : BufTy).Contents (Elt F) → (⟨S2097152x1, .f32⟩ : BufTy).Contents (Elt F)),
    StableHlo.reshape main_v707 main_v708 rfl shapeCasts_S2097152x1_S2097152,
    StableHlo.unary main_v688 main_v709 (broadcastInDim S1x2097152 ![1] bcast_S2097152_S1x2097152_1 : (⟨S2097152, .f32⟩ : BufTy).Contents (Elt F) → (⟨S1x2097152, .f32⟩ : BufTy).Contents (Elt F)),
    StableHlo.unary main_v690 main_v710 (broadcastInDim S1x2097152 ![1] bcast_S2097152_S1x2097152_1 : (⟨S2097152, .f32⟩ : BufTy).Contents (Elt F) → (⟨S1x2097152, .f32⟩ : BufTy).Contents (Elt F)),
    StableHlo.unary main_v692 main_v711 (broadcastInDim S1x2097152 ![1] bcast_S2097152_S1x2097152_1 : (⟨S2097152, .f32⟩ : BufTy).Contents (Elt F) → (⟨S1x2097152, .f32⟩ : BufTy).Contents (Elt F)),
    StableHlo.unary main_v694 main_v712 (broadcastInDim S1x2097152 ![1] bcast_S2097152_S1x2097152_1 : (⟨S2097152, .f32⟩ : BufTy).Contents (Elt F) → (⟨S1x2097152, .f32⟩ : BufTy).Contents (Elt F)),
    StableHlo.unary main_v13 main_v713 (broadcastInDim S1x2097152 ![1] bcast_S2097152_S1x2097152_1 : (⟨S2097152, .f32⟩ : BufTy).Contents (Elt F) → (⟨S1x2097152, .f32⟩ : BufTy).Contents (Elt F)),
    StableHlo.unary main_v696 main_v714 (broadcastInDim S1x2097152 ![1] bcast_S2097152_S1x2097152_1 : (⟨S2097152, .f32⟩ : BufTy).Contents (Elt F) → (⟨S1x2097152, .f32⟩ : BufTy).Contents (Elt F)),
    StableHlo.unary main_v698 main_v715 (broadcastInDim S1x2097152 ![1] bcast_S2097152_S1x2097152_1 : (⟨S2097152, .f32⟩ : BufTy).Contents (Elt F) → (⟨S1x2097152, .f32⟩ : BufTy).Contents (Elt F)),
    StableHlo.unary main_v700 main_v716 (broadcastInDim S1x2097152 ![1] bcast_S2097152_S1x2097152_1 : (⟨S2097152, .f32⟩ : BufTy).Contents (Elt F) → (⟨S1x2097152, .f32⟩ : BufTy).Contents (Elt F)),
    StableHlo.unary main_v702 main_v717 (broadcastInDim S1x2097152 ![1] bcast_S2097152_S1x2097152_1 : (⟨S2097152, .f32⟩ : BufTy).Contents (Elt F) → (⟨S1x2097152, .f32⟩ : BufTy).Contents (Elt F)),
    StableHlo.unary main_v704 main_v718 (broadcastInDim S1x2097152 ![1] bcast_S2097152_S1x2097152_1 : (⟨S2097152, .f32⟩ : BufTy).Contents (Elt F) → (⟨S1x2097152, .f32⟩ : BufTy).Contents (Elt F)),
    StableHlo.unary main_v706 main_v719 (broadcastInDim S1x2097152 ![1] bcast_S2097152_S1x2097152_1 : (⟨S2097152, .f32⟩ : BufTy).Contents (Elt F) → (⟨S1x2097152, .f32⟩ : BufTy).Contents (Elt F)),
    StableHlo.unary main_v708 main_v720 (broadcastInDim S1x2097152 ![1] bcast_S2097152_S1x2097152_1 : (⟨S2097152, .f32⟩ : BufTy).Contents (Elt F) → (⟨S1x2097152, .f32⟩ : BufTy).Contents (Elt F)),
    StableHlo.nary ![main_v709, main_v710, main_v711, main_v712, main_v713, main_v714, main_v715, main_v716, main_v717, main_v718, main_v719, main_v720] main_v721 (fun u => concatenate S12x2097152 0 [⟨S1x2097152, u 0⟩, ⟨S1x2097152, u 1⟩, ⟨S1x2097152, u 2⟩, ⟨S1x2097152, u 3⟩, ⟨S1x2097152, u 4⟩, ⟨S1x2097152, u 5⟩, ⟨S1x2097152, u 6⟩, ⟨S1x2097152, u 7⟩, ⟨S1x2097152, u 8⟩, ⟨S1x2097152, u 9⟩, ⟨S1x2097152, u 10⟩, ⟨S1x2097152, u 11⟩] concatenates_S1x2097152_S1x2097152_S1x2097152_S1x2097152_S1x2097152_S1x2097152_S1x2097152_S1x2097152_S1x2097152_S1x2097152_S1x2097152_S1x2097152_S12x2097152_d0),
    StableHlo.nary ![main_v721, main_v196, main_v301, main_v333, main_v446, main_v566, main_v686] main_v722 (fun u => concatenate S29x2097152 0 [⟨S12x2097152, u 0⟩, ⟨S3x2097152, u 1⟩, ⟨S3x2097152, u 2⟩, ⟨S2x2097152, u 3⟩, ⟨S1x2097152, u 4⟩, ⟨S4x2097152, u 5⟩, ⟨S4x2097152, u 6⟩] concatenates_S12x2097152_S3x2097152_S3x2097152_S2x2097152_S1x2097152_S4x2097152_S4x2097152_S29x2097152_d0) ]
/-- The references the operations of the chunk K9 write, in order. -/
abbrev K9w : List (Ref sig .tc) :=
  [main_v687, main_v688, main_v689, main_v690, main_v691, main_v692, main_v693, main_v694, main_v695, main_v696, main_v697, main_v698, main_v699, main_v700, main_v701, main_v702, main_v703, main_v704, main_v705, main_v706, main_v707, main_v708, main_v709, main_v710, main_v711, main_v712, main_v713, main_v714, main_v715, main_v716, main_v717, main_v718, main_v719, main_v720, main_v721, main_v722]

end Cert.KernelIdeal.Chunks

end
-- ==== Proof.LibAfter.lean ====
/-
  Straight lines of host operations run one after the other, and what a line leaves alone.

  `StableHlo.after ops V` is the device's buffer contents once the operations `ops` have run in order from contents `V`.
  Two facts about it, for reading one value out of a long program cut into chunks: a concatenation of two lines runs the
  first and then the second (`after_append`), and a line every operation of which writes only references of a list `W`
  leaves every reference outside `W` at what it held (`keep`).
-/
import Idealize.ShloMosaic.Lib.StableHlo.Run

noncomputable section

namespace Cert.LibAfter

open Idealize.ShloMosaic Idealize.ShloMosaic.StableHlo

variable {τ : Topo} {sig : RefSig} {Val : EltTy → Type}

/-- The contents after `l₁ ++ l₂` are the contents after `l₂`, run from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of the line writes only references of the list `W`. -/
def WritesIn (ops : List (HloOp τ sig Val)) (W : List (Ref sig .tc)) : Prop :=
  ops.Forall fun op => op.writes ⊆ (W.map (Proc.devRef (τ := τ) .tc)).toFinset

/-- A reference outside the list keeps its contents through the line. -/
theorem keep {ops : List (HloOp τ sig Val)} {W : List (Ref sig .tc)} (h : WritesIn ops W) (V : Valuation τ sig Val)
    {r : Ref sig .tc} (hr : r ∉ W) : after ops V (Proc.devRef .tc r) = V (Proc.devRef .tc r) :=
  after_of_writes_sub ops V h hr

/-- The single written reference of an operation is in the list: the form in which `WritesIn` is checked, one
    operation at a time. -/
theorem singleton_sub {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

end Cert.LibAfter

end
-- ==== Proof.KRead.lean ====
/-
  The host operations of the program, cut into 10 consecutive chunks, read one chunk at a time.
  `St j V` is what the device's buffers hold after the first `j` chunks, run from contents `V`; the whole line's contents
  are `St 10 V` (`after_all`). Each chunk writes only the references of its list (`*_writes`), so a reference that no later
  chunk writes holds at the end what its own chunk left (`out_*`), and a reference that neither a chunk nor any later
  one writes holds at the end what it held when that chunk started (`in_*`). With these, one value of the program is
  read by running ONE chunk from contents that are those of the whole program at every reference the chunk reads.
-/
import proofs.«151772_j21234318312201_1_alg».proof.Proof.KOps
import proofs.«151772_j21234318312201_1_alg».proof.Proof.LibAfter

set_option maxRecDepth 16384

noncomputable section

namespace Cert.KernelIdeal.KRead

open Cert.KernelIdeal Cert.KernelIdeal.Gen Cert.KernelIdeal.Chunks Cert.LibAfter Idealize.ShloMosaic Idealize.ShloMosaic.TcCoe Idealize.SL.Sem
open Idealize.ShloMosaic.StableHlo (after)

variable {F : FTy → Type} [FloatOps F]

/-! ## What each chunk writes -/

set_option maxHeartbeats 8000000 in
theorem K0_writes : WritesIn (K0 (F := F)) K0w := by
  simp only [WritesIn, K0, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K1_writes : WritesIn (K1 (F := F)) K1w := by
  simp only [WritesIn, K1, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K2_writes : WritesIn (K2 (F := F)) K2w := by
  simp only [WritesIn, K2, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K3_writes : WritesIn (K3 (F := F)) K3w := by
  simp only [WritesIn, K3, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K4_writes : WritesIn (K4 (F := F)) K4w := by
  simp only [WritesIn, K4, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K5_writes : WritesIn (K5 (F := F)) K5w := by
  simp only [WritesIn, K5, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K6_writes : WritesIn (K6 (F := F)) K6w := by
  simp only [WritesIn, K6, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K7_writes : WritesIn (K7 (F := F)) K7w := by
  simp only [WritesIn, K7, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K8_writes : WritesIn (K8 (F := F)) K8w := by
  simp only [WritesIn, K8, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem K9_writes : WritesIn (K9 (F := F)) K9w := by
  simp only [WritesIn, K9, List.Forall, StableHlo.nullary_writes, StableHlo.unary_writes, StableHlo.binary_writes,
    StableHlo.ternary_writes, StableHlo.reshape_writes, StableHlo.nary_writes]
  repeat' apply And.intro
  all_goals exact singleton_sub (by decide)

/-! ## The contents after the first chunks -/

/-- The contents after no chunk: the contents the line starts from. -/
def St0 (V : Valuation τ sig (Elt F)) : Valuation τ sig (Elt F) := V
/-- The contents after the first 1 chunk. -/
def St1 (V : Valuation τ sig (Elt F)) : Valuation τ sig (Elt F) := after K0 (St0 V)
/-- The contents after the first 2 chunks. -/
def St2 (V : Valuation τ sig (Elt F)) : Valuation τ sig (Elt F) := after K1 (St1 V)
/-- The contents after the first 3 chunks. -/
def St3 (V : Valuation τ sig (Elt F)) : Valuation τ sig (Elt F) := after K2 (St2 V)
/-- The contents after the first 4 chunks. -/
def St4 (V : Valuation τ sig (Elt F)) : Valuation τ sig (Elt F) := after K3 (St3 V)
/-- The contents after the first 5 chunks. -/
def St5 (V : Valuation τ sig (Elt F)) : Valuation τ sig (Elt F) := after K4 (St4 V)
/-- The contents after the first 6 chunks. -/
def St6 (V : Valuation τ sig (Elt F)) : Valuation τ sig (Elt F) := after K5 (St5 V)
/-- The contents after the first 7 chunks. -/
def St7 (V : Valuation τ sig (Elt F)) : Valuation τ sig (Elt F) := after K6 (St6 V)
/-- The contents after the first 8 chunks. -/
def St8 (V : Valuation τ sig (Elt F)) : Valuation τ sig (Elt F) := after K7 (St7 V)
/-- The contents after the first 9 chunks. -/
def St9 (V : Valuation τ sig (Elt F)) : Valuation τ sig (Elt F) := after K8 (St8 V)
/-- The contents after the first 10 chunks. -/
def St10 (V : Valuation τ sig (Elt F)) : Valuation τ sig (Elt F) := after K9 (St9 V)

/-- The whole line: the chunks one after the other. -/
abbrev All : List (HloOp τ sig (Elt F)) := K0 ++ (K1 ++ (K2 ++ (K3 ++ (K4 ++ (K5 ++ (K6 ++ (K7 ++ (K8 ++ (K9)))))))))

/-- Running the whole line is running its chunks in order. -/
theorem after_all (V : Valuation τ sig (Elt F)) : after (All (F := F)) V = St10 V := by
  simp only [All, after_append, St0, St1, St2, St3, St4, St5, St6, St7, St8, St9, St10]

/-! ## One value of the line, from its own chunk -/

/-- A reference no chunk after `K0` writes holds at the end what `K0` left in it. -/
theorem out_K0 (V : Valuation τ sig (Elt F)) {r : Ref sig .tc} (h : r ∉ K1w ++ (K2w ++ (K3w ++ (K4w ++ (K5w ++ (K6w ++ (K7w ++ (K8w ++ (K9w))))))))) :
    St10 V (Proc.devRef .tc r) = after K0 (St0 V) (Proc.devRef .tc r) := by
  simp only [List.mem_append, not_or] at h
  obtain ⟨h1, h2, h3, h4, h5, h6, h7, h8, h9⟩ := h
  rw [St10, keep K9_writes _ h9, St9, keep K8_writes _ h8, St8, keep K7_writes _ h7, St7, keep K6_writes _ h6, St6, keep K5_writes _ h5, St5, keep K4_writes _ h4, St4, keep K3_writes _ h3, St3, keep K2_writes _ h2, St2, keep K1_writes _ h1, St1]
/-- A reference no chunk after `K1` writes holds at the end what `K1` left in it. -/
theorem out_K1 (V : Valuation τ sig (Elt F)) {r : Ref sig .tc} (h : r ∉ K2w ++ (K3w ++ (K4w ++ (K5w ++ (K6w ++ (K7w ++ (K8w ++ (K9w)))))))) :
    St10 V (Proc.devRef .tc r) = after K1 (St1 V) (Proc.devRef .tc r) := by
  simp only [List.mem_append, not_or] at h
  obtain ⟨h2, h3, h4, h5, h6, h7, h8, h9⟩ := h
  rw [St10, keep K9_writes _ h9, St9, keep K8_writes _ h8, St8, keep K7_writes _ h7, St7, keep K6_writes _ h6, St6, keep K5_writes _ h5, St5, keep K4_writes _ h4, St4, keep K3_writes _ h3, St3, keep K2_writes _ h2, St2]
/-- A reference no chunk after `K2` writes holds at the end what `K2` left in it. -/
theorem out_K2 (V : Valuation τ sig (Elt F)) {r : Ref sig .tc} (h : r ∉ K3w ++ (K4w ++ (K5w ++ (K6w ++ (K7w ++ (K8w ++ (K9w))))))) :
    St10 V (Proc.devRef .tc r) = after K2 (St2 V) (Proc.devRef .tc r) := by
  simp only [List.mem_append, not_or] at h
  obtain ⟨h3, h4, h5, h6, h7, h8, h9⟩ := h
  rw [St10, keep K9_writes _ h9, St9, keep K8_writes _ h8, St8, keep K7_writes _ h7, St7, keep K6_writes _ h6, St6, keep K5_writes _ h5, St5, keep K4_writes _ h4, St4, keep K3_writes _ h3, St3]
/-- A reference no chunk after `K3` writes holds at the end what `K3` left in it. -/
theorem out_K3 (V : Valuation τ sig (Elt F)) {r : Ref sig .tc} (h : r ∉ K4w ++ (K5w ++ (K6w ++ (K7w ++ (K8w ++ (K9w)))))) :
    St10 V (Proc.devRef .tc r) = after K3 (St3 V) (Proc.devRef .tc r) := by
  simp only [List.mem_append, not_or] at h
  obtain ⟨h4, h5, h6, h7, h8, h9⟩ := h
  rw [St10, keep K9_writes _ h9, St9, keep K8_writes _ h8, St8, keep K7_writes _ h7, St7, keep K6_writes _ h6, St6, keep K5_writes _ h5, St5, keep K4_writes _ h4, St4]
/-- A reference no chunk after `K4` writes holds at the end what `K4` left in it. -/
theorem out_K4 (V : Valuation τ sig (Elt F)) {r : Ref sig .tc} (h : r ∉ K5w ++ (K6w ++ (K7w ++ (K8w ++ (K9w))))) :
    St10 V (Proc.devRef .tc r) = after K4 (St4 V) (Proc.devRef .tc r) := by
  simp only [List.mem_append, not_or] at h
  obtain ⟨h5, h6, h7, h8, h9⟩ := h
  rw [St10, keep K9_writes _ h9, St9, keep K8_writes _ h8, St8, keep K7_writes _ h7, St7, keep K6_writes _ h6, St6, keep K5_writes _ h5, St5]
/-- A reference no chunk after `K5` writes holds at the end what `K5` left in it. -/
theorem out_K5 (V : Valuation τ sig (Elt F)) {r : Ref sig .tc} (h : r ∉ K6w ++ (K7w ++ (K8w ++ (K9w)))) :
    St10 V (Proc.devRef .tc r) = after K5 (St5 V) (Proc.devRef .tc r) := by
  simp only [List.mem_append, not_or] at h
  obtain ⟨h6, h7, h8, h9⟩ := h
  rw [St10, keep K9_writes _ h9, St9, keep K8_writes _ h8, St8, keep K7_writes _ h7, St7, keep K6_writes _ h6, St6]
/-- A reference no chunk after `K6` writes holds at the end what `K6` left in it. -/
theorem out_K6 (V : Valuation τ sig (Elt F)) {r : Ref sig .tc} (h : r ∉ K7w ++ (K8w ++ (K9w))) :
    St10 V (Proc.devRef .tc r) = after K6 (St6 V) (Proc.devRef .tc r) := by
  simp only [List.mem_append, not_or] at h
  obtain ⟨h7, h8, h9⟩ := h
  rw [St10, keep K9_writes _ h9, St9, keep K8_writes _ h8, St8, keep K7_writes _ h7, St7]
/-- A reference no chunk after `K7` writes holds at the end what `K7` left in it. -/
theorem out_K7 (V : Valuation τ sig (Elt F)) {r : Ref sig .tc} (h : r ∉ K8w ++ (K9w)) :
    St10 V (Proc.devRef .tc r) = after K7 (St7 V) (Proc.devRef .tc r) := by
  simp only [List.mem_append, not_or] at h
  obtain ⟨h8, h9⟩ := h
  rw [St10, keep K9_writes _ h9, St9, keep K8_writes _ h8, St8]
/-- A reference no chunk after `K8` writes holds at the end what `K8` left in it. -/
theorem out_K8 (V : Valuation τ sig (Elt F)) {r : Ref sig .tc} (h : r ∉ K9w) :
    St10 V (Proc.devRef .tc r) = after K8 (St8 V) (Proc.devRef .tc r) := by
  have h9 := h
  rw [St10, keep K9_writes _ h9, St9]
/-- A reference no chunk after `K9` writes holds at the end what `K9` left in it. -/
theorem out_K9 (V : Valuation τ sig (Elt F)) {r : Ref sig .tc}  :
    St10 V (Proc.devRef .tc r) = after K9 (St9 V) (Proc.devRef .tc r) := by
  rw [St10]

/-! ## One value a chunk reads: what the whole line holds there -/

/-- A reference neither `K0` nor any later chunk writes: what it holds when `K0` starts is what it holds at the end. -/
theorem in_K0 (V : Valuation τ sig (Elt F)) {r : Ref sig .tc} (h : r ∉ K0w ++ (K1w ++ (K2w ++ (K3w ++ (K4w ++ (K5w ++ (K6w ++ (K7w ++ (K8w ++ (K9w)))))))))) :
    St0 V (Proc.devRef .tc r) = St10 V (Proc.devRef .tc r) := by
  simp only [List.mem_append, not_or] at h
  obtain ⟨h0, h1, h2, h3, h4, h5, h6, h7, h8, h9⟩ := h
  rw [St10, keep K9_writes _ h9, St9, keep K8_writes _ h8, St8, keep K7_writes _ h7, St7, keep K6_writes _ h6, St6, keep K5_writes _ h5, St5, keep K4_writes _ h4, St4, keep K3_writes _ h3, St3, keep K2_writes _ h2, St2, keep K1_writes _ h1, St1, keep K0_writes _ h0]
/-- A reference neither `K1` nor any later chunk writes: what it holds when `K1` starts is what it holds at the end. -/
theorem in_K1 (V : Valuation τ sig (Elt F)) {r : Ref sig .tc} (h : r ∉ K1w ++ (K2w ++ (K3w ++ (K4w ++ (K5w ++ (K6w ++ (K7w ++ (K8w ++ (K9w))))))))) :
    St1 V (Proc.devRef .tc r) = St10 V (Proc.devRef .tc r) := by
  simp only [List.mem_append, not_or] at h
  obtain ⟨h1, h2, h3, h4, h5, h6, h7, h8, h9⟩ := h
  rw [St10, keep K9_writes _ h9, St9, keep K8_writes _ h8, St8, keep K7_writes _ h7, St7, keep K6_writes _ h6, St6, keep K5_writes _ h5, St5, keep K4_writes _ h4, St4, keep K3_writes _ h3, St3, keep K2_writes _ h2, St2, keep K1_writes _ h1]
/-- A reference neither `K2` nor any later chunk writes: what it holds when `K2` starts is what it holds at the end. -/
theorem in_K2 (V : Valuation τ sig (Elt F)) {r : Ref sig .tc} (h : r ∉ K2w ++ (K3w ++ (K4w ++ (K5w ++ (K6w ++ (K7w ++ (K8w ++ (K9w)))))))) :
    St2 V (Proc.devRef .tc r) = St10 V (Proc.devRef .tc r) := by
  simp only [List.mem_append, not_or] at h
  obtain ⟨h2, h3, h4, h5, h6, h7, h8, h9⟩ := h
  rw [St10, keep K9_writes _ h9, St9, keep K8_writes _ h8, St8, keep K7_writes _ h7, St7, keep K6_writes _ h6, St6, keep K5_writes _ h5, St5, keep K4_writes _ h4, St4, keep K3_writes _ h3, St3, keep K2_writes _ h2]
/-- A reference neither `K3` nor any later chunk writes: what it holds when `K3` starts is what it holds at the end. -/
theorem in_K3 (V : Valuation τ sig (Elt F)) {r : Ref sig .tc} (h : r ∉ K3w ++ (K4w ++ (K5w ++ (K6w ++ (K7w ++ (K8w ++ (K9w))))))) :
    St3 V (Proc.devRef .tc r) = St10 V (Proc.devRef .tc r) := by
  simp only [List.mem_append, not_or] at h
  obtain ⟨h3, h4, h5, h6, h7, h8, h9⟩ := h
  rw [St10, keep K9_writes _ h9, St9, keep K8_writes _ h8, St8, keep K7_writes _ h7, St7, keep K6_writes _ h6, St6, keep K5_writes _ h5, St5, keep K4_writes _ h4, St4, keep K3_writes _ h3]
/-- A reference neither `K4` nor any later chunk writes: what it holds when `K4` starts is what it holds at the end. -/
theorem in_K4 (V : Valuation τ sig (Elt F)) {r : Ref sig .tc} (h : r ∉ K4w ++ (K5w ++ (K6w ++ (K7w ++ (K8w ++ (K9w)))))) :
    St4 V (Proc.devRef .tc r) = St10 V (Proc.devRef .tc r) := by
  simp only [List.mem_append, not_or] at h
  obtain ⟨h4, h5, h6, h7, h8, h9⟩ := h
  rw [St10, keep K9_writes _ h9, St9, keep K8_writes _ h8, St8, keep K7_writes _ h7, St7, keep K6_writes _ h6, St6, keep K5_writes _ h5, St5, keep K4_writes _ h4]
/-- A reference neither `K5` nor any later chunk writes: what it holds when `K5` starts is what it holds at the end. -/
theorem in_K5 (V : Valuation τ sig (Elt F)) {r : Ref sig .tc} (h : r ∉ K5w ++ (K6w ++ (K7w ++ (K8w ++ (K9w))))) :
    St5 V (Proc.devRef .tc r) = St10 V (Proc.devRef .tc r) := by
  simp only [List.mem_append, not_or] at h
  obtain ⟨h5, h6, h7, h8, h9⟩ := h
  rw [St10, keep K9_writes _ h9, St9, keep K8_writes _ h8, St8, keep K7_writes _ h7, St7, keep K6_writes _ h6, St6, keep K5_writes _ h5]
/-- A reference neither `K6` nor any later chunk writes: what it holds when `K6` starts is what it holds at the end. -/
theorem in_K6 (V : Valuation τ sig (Elt F)) {r : Ref sig .tc} (h : r ∉ K6w ++ (K7w ++ (K8w ++ (K9w)))) :
    St6 V (Proc.devRef .tc r) = St10 V (Proc.devRef .tc r) := by
  simp only [List.mem_append, not_or] at h
  obtain ⟨h6, h7, h8, h9⟩ := h
  rw [St10, keep K9_writes _ h9, St9, keep K8_writes _ h8, St8, keep K7_writes _ h7, St7, keep K6_writes _ h6]
/-- A reference neither `K7` nor any later chunk writes: what it holds when `K7` starts is what it holds at the end. -/
theorem in_K7 (V : Valuation τ sig (Elt F)) {r : Ref sig .tc} (h : r ∉ K7w ++ (K8w ++ (K9w))) :
    St7 V (Proc.devRef .tc r) = St10 V (Proc.devRef .tc r) := by
  simp only [List.mem_append, not_or] at h
  obtain ⟨h7, h8, h9⟩ := h
  rw [St10, keep K9_writes _ h9, St9, keep K8_writes _ h8, St8, keep K7_writes _ h7]
/-- A reference neither `K8` nor any later chunk writes: what it holds when `K8` starts is what it holds at the end. -/
theorem in_K8 (V : Valuation τ sig (Elt F)) {r : Ref sig .tc} (h : r ∉ K8w ++ (K9w)) :
    St8 V (Proc.devRef .tc r) = St10 V (Proc.devRef .tc r) := by
  simp only [List.mem_append, not_or] at h
  obtain ⟨h8, h9⟩ := h
  rw [St10, keep K9_writes _ h9, St9, keep K8_writes _ h8]
/-- A reference neither `K9` nor any later chunk writes: what it holds when `K9` starts is what it holds at the end. -/
theorem in_K9 (V : Valuation τ sig (Elt F)) {r : Ref sig .tc} (h : r ∉ K9w) :
    St9 V (Proc.devRef .tc r) = St10 V (Proc.devRef .tc r) := by
  have h9 := h
  rw [St10, keep K9_writes _ h9]

/-! ## The printed stretches are these chunks -/

set_option maxHeartbeats 40000000 in
/-- The program's host operations before its region, stretch by stretch as printed, are the chunks in order: the same
    operations in the same order, cut elsewhere. -/
theorem flat_eq : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34] = (All : List (HloOp τ sig (Elt F))) := rfl

end Cert.KernelIdeal.KRead

end
-- ==== Proof.ROps.lean ====
import proofs.«151772_j21234318312201_1_alg».proof.Proof.Gen.ReferenceIdeal
import Idealize.ShloMosaic.Lib.StableHlo.Run

set_option maxRecDepth 8192

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Operations 0 to 8 of the program, in order (9 operations). -/
abbrev R0 : List (HloOp τ sig (Elt F)) :=
  [ unary main_arg0 main_v0 ((extractStridedSlice S2097152x1 ![0, 0] · slices_S2097152x2_S2097152x1_0_0) : (⟨S2097152x2, .f32⟩ : BufTy).Contents (Elt F) → (⟨S2097152x1, .f32⟩ : BufTy).Contents (Elt F)),
    reshape main_v0 main_v1 rfl shapeCasts_S2097152x1_S2097152,
    unary main_arg1 main_v2 ((extractStridedSlice S2097152x1 ![0, 0] · slices_S2097152x2_S2097152x1_0_0) : (⟨S2097152x2, .f32⟩ : BufTy).Contents (Elt F) → (⟨S2097152x1, .f32⟩ : BufTy).Contents (Elt F)),
    reshape main_v2 main_v3 rfl shapeCasts_S2097152x1_S2097152,
    unary main_v1 main_v4 (broadcastInDim S2097152x1 ![0] bcast_S2097152_S2097152x1_0 : (⟨S2097152, .f32⟩ : BufTy).Contents (Elt F) → (⟨S2097152x1, .f32⟩ : BufTy).Contents (Elt F)),
    unary main_v3 main_v5 (broadcastInDim S2097152x1 ![0] bcast_S2097152_S2097152x1_0 : (⟨S2097152, .f32⟩ : BufTy).Contents (Elt F) → (⟨S2097152x1, .f32⟩ : BufTy).Contents (Elt F)),
    binary main_v4 main_v5 main_v6 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)),
    unary main_arg4 main_v7 ((extractStridedSlice S2097152x1 ![0, 0] · slices_S2097152x2_S2097152x1_0_0) : (⟨S2097152x2, .f32⟩ : BufTy).Contents (Elt F) → (⟨S2097152x1, .f32⟩ : BufTy).Contents (Elt F)),
    reshape main_v7 main_v8 rfl shapeCasts_S2097152x1_S2097152 ]
/-- The references the operations of the chunk R0 write, in order. -/
abbrev R0w : List (Ref sig .tc) :=
  [main_v0, main_v1, main_v2, main_v3, main_v4, main_v5, main_v6, main_v7, main_v8]

set_option maxHeartbeats 40000000 in
/-- Operations 9 to 71 of the program, in order (63 operations). -/
abbrev R1 : List (HloOp τ sig (Elt F)) :=
  [ nullary main_cst (constant S_ .f32 0x40000000#32),
    unary main_cst main_v9 (broadcastInDim S2048x2048x2 ![] bcast_S_S2048x2048x2 : (⟨S_, .f32⟩ : BufTy).Contents (Elt F) → (⟨S2048x2048x2, .f32⟩ : BufTy).Contents (Elt F)),
    binary main_arg9 main_v9 main_v10 (Host.divf : (⟨S2048x2048x2, .f32⟩ : BufTy).Contents (Elt F) → (⟨S2048x2048x2, .f32⟩ : BufTy).Contents (Elt F) → (⟨S2048x2048x2, .f32⟩ : BufTy).Contents (Elt F)),
    nullary main_cst_0 (constant S_ .f32 0x40000000#32),
    unary main_cst_0 main_v11 (broadcastInDim S2048x2048x2 ![] bcast_S_S2048x2048x2 : (⟨S_, .f32⟩ : BufTy).Contents (Elt F) → (⟨S2048x2048x2, .f32⟩ : BufTy).Contents (Elt F)),
    binary main_arg9 main_v11 main_v12 (Host.divf : (⟨S2048x2048x2, .f32⟩ : BufTy).Contents (Elt F) → (⟨S2048x2048x2, .f32⟩ : BufTy).Contents (Elt F) → (⟨S2048x2048x2, .f32⟩ : BufTy).Contents (Elt F)),
    nullary main_cst_1 (constant S_ .f32 0x3F000000#32),
    unary main_cst_1 main_v13 (broadcastInDim S2048x2048x2 ![] bcast_S_S2048x2048x2 : (⟨S_, .f32⟩ : BufTy).Contents (Elt F) → (⟨S2048x2048x2, .f32⟩ : BufTy).Contents (Elt F)),
    binary main_v12 main_v13 main_v14 (addf : (⟨S2048x2048x2, .f32⟩ : BufTy).Contents (Elt F) → (⟨S2048x2048x2, .f32⟩ : BufTy).Contents (Elt F) → (⟨S2048x2048x2, .f32⟩ : BufTy).Contents (Elt F)),
    unary main_v14 main_v15 (Host.floor : (⟨S2048x2048x2, .f32⟩ : BufTy).Contents (Elt F) → (⟨S2048x2048x2, .f32⟩ : BufTy).Contents (Elt F)),
    binary main_v10 main_v15 main_v16 (subf : (⟨S2048x2048x2, .f32⟩ : BufTy).Contents (Elt F) → (⟨S2048x2048x2, .f32⟩ : BufTy).Contents (Elt F) → (⟨S2048x2048x2, .f32⟩ : BufTy).Contents (Elt F)),
    unary main_v16 main_v17 (Host.absf : (⟨S2048x2048x2, .f32⟩ : BufTy).Contents (Elt F) → (⟨S2048x2048x2, .f32⟩ : BufTy).Contents (Elt F)),
    nullary main_cst_2 (constant S_ .f32 0x40000000#32),
    unary main_cst_2 main_v18 (broadcastInDim S2048x2048x2 ![] bcast_S_S2048x2048x2 : (⟨S_, .f32⟩ : BufTy).Contents (Elt F) → (⟨S2048x2048x2, .f32⟩ : BufTy).Contents (Elt F)),
    binary main_v18 main_v17 main_v19 (mulf : (⟨S2048x2048x2, .f32⟩ : BufTy).Contents (Elt F) → (⟨S2048x2048x2, .f32⟩ : BufTy).Contents (Elt F) → (⟨S2048x2048x2, .f32⟩ : BufTy).Contents (Elt F)),
    unary main_v6 main_v20 ((extractStridedSlice S2097152x1 ![0, 0] · slices_S2097152x2_S2097152x1_0_0) : (⟨S2097152x2, .f32⟩ : BufTy).Contents (Elt F) → (⟨S2097152x1, .f32⟩ : BufTy).Contents (Elt F)),
    reshape main_v20 main_v21 rfl shapeCasts_S2097152x1_S2097152,
    nullary main_cst_3 (constant S_ .f32 0x00000000#32),
    nullary main_cst_4 (constant S_ .f32 0x3F7FFFEF#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S2097152, .f32⟩) main_call0_v1) (broadcastInDim S2097152 ![] bcast_S_S2097152),
    TRef.binary (TRef.of (T := ⟨S2097152, .f32⟩) main_call0_v1) (TRef.of (T := ⟨S2097152, .f32⟩) main_v21) (TRef.of (T := ⟨S2097152, .f32⟩) main_call0_v2) maximumf,
    TRef.unary (TRef.of (T := ⟨S_, .f32⟩) main_cst_4) (TRef.of (T := ⟨S_, .f32⟩) main_call0_v3) id,
    TRef.unary (TRef.of (T := ⟨S_, .f32⟩) main_call0_v3) (TRef.of (T := ⟨S2097152, .f32⟩) main_call0_v4) (broadcastInDim S2097152 ![] bcast_S_S2097152),
    TRef.binary (TRef.of (T := ⟨S2097152, .f32⟩) main_call0_v4) (TRef.of (T := ⟨S2097152, .f32⟩) main_call0_v2) (TRef.of (T := ⟨S2097152, .f32⟩) main_v22) minimumf,
    nullary main_cst_5 (constant S_ .f32 0x44FFE000#32),
    unary main_cst_5 main_v23 (broadcastInDim S2097152 ![] bcast_S_S2097152 : (⟨S_, .f32⟩ : BufTy).Contents (Elt F) → (⟨S2097152, .f32⟩ : BufTy).Contents (Elt F)),
    binary main_v22 main_v23 main_v24 (mulf : (⟨S2097152, .f32⟩ : BufTy).Contents (Elt F) → (⟨S2097152, .f32⟩ : BufTy).Contents (Elt F) → (⟨S2097152, .f32⟩ : BufTy).Contents (Elt F)),
    unary main_v6 main_v25 ((extractStridedSlice S2097152x1 ![0, 1] · slices_S2097152x2_S2097152x1_0_1) : (⟨S2097152x2, .f32⟩ : BufTy).Contents (Elt F) → (⟨S2097152x1, .f32⟩ : BufTy).Contents (Elt F)),
    reshape main_v25 main_v26 rfl shapeCasts_S2097152x1_S2097152,
    nullary main_cst_6 (constant S_ .f32 0x00000000#32),
    nullary main_cst_7 (constant S_ .f32 0x3F7FFFEF#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S2097152, .f32⟩) main_call1_v1) (broadcastInDim S2097152 ![] bcast_S_S2097152),
    TRef.binary (TRef.of (T := ⟨S2097152, .f32⟩) main_call1_v1) (TRef.of (T := ⟨S2097152, .f32⟩) main_v26) (TRef.of (T := ⟨S2097152, .f32⟩) main_call1_v2) maximumf,
    TRef.unary (TRef.of (T := ⟨S_, .f32⟩) main_cst_7) (TRef.of (T := ⟨S_, .f32⟩) main_call1_v3) id,
    TRef.unary (TRef.of (T := ⟨S_, .f32⟩) main_call1_v3) (TRef.of (T := ⟨S2097152, .f32⟩) main_call1_v4) (broadcastInDim S2097152 ![] bcast_S_S2097152),
    TRef.binary (TRef.of (T := ⟨S2097152, .f32⟩) main_call1_v4) (TRef.of (T := ⟨S2097152, .f32⟩) main_call1_v2) (TRef.of (T := ⟨S2097152, .f32⟩) main_v27) minimumf,
    nullary main_cst_8 (constant S_ .f32 0x44FFE000#32),
    unary main_cst_8 main_v28 (broadcastInDim S2097152 ![] bcast_S_S2097152 : (⟨S_, .f32⟩ : BufTy).Contents (Elt F) → (⟨S2097152, .f32⟩ : BufTy).Contents (Elt F)),
    binary main_v27 main_v28 main_v29 (mulf : (⟨S2097152, .f32⟩ : BufTy).Contents (Elt F) → (⟨S2097152, .f32⟩ : BufTy).Contents (Elt F) → (⟨S2097152, .f32⟩ : BufTy).Contents (Elt F)),
    TRef.unary (TRef.of (T := ⟨S2097152, .f32⟩) main_v24) (TRef.of (T := ⟨S2097152, .f32⟩) main_v30) Host.roundeven,
    unary main_v30 main_v31 (fptosi 32 : (⟨S2097152, .f32⟩ : BufTy).Contents (Elt F) → (⟨S2097152, .i32⟩ : BufTy).Contents (Elt F)),
    TRef.unary (TRef.of (T := ⟨S2097152, .f32⟩) main_v29) (TRef.of (T := ⟨S2097152, .f32⟩) main_v32) Host.roundeven,
    unary main_v32 main_v33 (fptosi 32 : (⟨S2097152, .f32⟩ : BufTy).Contents (Elt F) → (⟨S2097152, .i32⟩ : BufTy).Contents (Elt F)),
    nullary main_c (constantI S_ 32 0#32),
    unary main_c main_v34 (broadcastInDim S2097152 ![] bcast_S_S2097152 : (⟨S_, .i32⟩ : BufTy).Contents (Elt F) → (⟨S2097152, .i32⟩ : BufTy).Contents (Elt F)),
    binary main_v31 main_v34 main_v35 (cmpi .slt : (⟨S2097152, .i32⟩ : BufTy).Contents (Elt F) → (⟨S2097152, .i32⟩ : BufTy).Contents (Elt F) → (⟨S2097152, .i1⟩ : BufTy).Contents (Elt F)),
    nullary main_c_9 (constantI S_ 32 2048#32),
    unary main_c_9 main_v36 (broadcastInDim S2097152 ![] bcast_S_S2097152 : (⟨S_, .i32⟩ : BufTy).Contents (Elt F) → (⟨S2097152, .i32⟩ : BufTy).Contents (Elt F)),
    binary main_v31 main_v36 main_v37 (addi : (⟨S2097152, .i32⟩ : BufTy).Contents (Elt F) → (⟨S2097152, .i32⟩ : BufTy).Contents (Elt F) → (⟨S2097152, .i32⟩ : BufTy).Contents (Elt F)),
    ternary main_v35 main_v37 main_v31 main_v38 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_10 (constantI S_ 32 0#32),
    unary main_c_10 main_v39 (broadcastInDim S2097152 ![] bcast_S_S2097152 : (⟨S_, .i32⟩ : BufTy).Contents (Elt F) → (⟨S2097152, .i32⟩ : BufTy).Contents (Elt F)),
    binary main_v33 main_v39 main_v40 (cmpi .slt : (⟨S2097152, .i32⟩ : BufTy).Contents (Elt F) → (⟨S2097152, .i32⟩ : BufTy).Contents (Elt F) → (⟨S2097152, .i1⟩ : BufTy).Contents (Elt F)),
    nullary main_c_11 (constantI S_ 32 2048#32),
    unary main_c_11 main_v41 (broadcastInDim S2097152 ![] bcast_S_S2097152 : (⟨S_, .i32⟩ : BufTy).Contents (Elt F) → (⟨S2097152, .i32⟩ : BufTy).Contents (Elt F)),
    binary main_v33 main_v41 main_v42 (addi : (⟨S2097152, .i32⟩ : BufTy).Contents (Elt F) → (⟨S2097152, .i32⟩ : BufTy).Contents (Elt F) → (⟨S2097152, .i32⟩ : BufTy).Contents (Elt F)),
    ternary main_v40 main_v42 main_v33 main_v43 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v38 main_v44 (broadcastInDim S2097152x1 ![0] bcast_S2097152_S2097152x1_0 : (⟨S2097152, .i32⟩ : BufTy).Contents (Elt F) → (⟨S2097152x1, .i32⟩ : BufTy).Contents (Elt F)),
    unary main_v43 main_v45 (broadcastInDim S2097152x1 ![0] bcast_S2097152_S2097152x1_0 : (⟨S2097152, .i32⟩ : BufTy).Contents (Elt F) → (⟨S2097152x1, .i32⟩ : BufTy).Contents (Elt F)),
    binary main_v44 main_v45 main_v46 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v19 main_v46 main_v47 ((fun x i => Host.gather gather_S2048x2048x2_S2097152x2_S2097152x2_1_01_n_n_01_1_112 x i) : (⟨S2048x2048x2, .f32⟩ : BufTy).Contents (Elt F) → (⟨S2097152x2, .i32⟩ : BufTy).Contents (Elt F) → (⟨S2097152x2, .f32⟩ : BufTy).Contents (Elt F)) ]
/-- The references the operations of the chunk R1 write, in order. -/
abbrev R1w : List (Ref sig .tc) :=
  [main_cst, main_v9, main_v10, main_cst_0, main_v11, main_v12, main_cst_1, main_v13, main_v14, main_v15, main_v16, main_v17, main_cst_2, main_v18, main_v19, main_v20, main_v21, main_cst_3, main_cst_4, main_call0_v0, main_call0_v1, main_call0_v2, main_call0_v3, main_call0_v4, main_v22, main_cst_5, main_v23, main_v24, main_v25, main_v26, main_cst_6, main_cst_7, main_call1_v0, main_call1_v1, main_call1_v2, main_call1_v3, main_call1_v4, main_v27, main_cst_8, main_v28, main_v29, main_v30, main_v31, main_v32, main_v33, main_c, main_v34, main_v35, main_c_9, main_v36, main_v37, main_v38, main_c_10, main_v39, main_v40, main_c_11, main_v41, main_v42, main_v43, main_v44, main_v45, main_v46, main_v47]

set_option maxHeartbeats 40000000 in
/-- Operations 72 to 110 of the program, in order (39 operations). -/
abbrev R2 : List (HloOp τ sig (Elt F)) :=
  [ unary main_arg5 main_v48 ((extractStridedSlice S2097152x1 ![0, 1] · slices_S2097152x2_S2097152x1_0_1) : (⟨S2097152x2, .f32⟩ : BufTy).Contents (Elt F) → (⟨S2097152x1, .f32⟩ : BufTy).Contents (Elt F)),
    reshape main_v48 main_v49 rfl shapeCasts_S2097152x1_S2097152,
    nullary main_cst_12 (constant S_ .f32 0x40000000#32),
    unary main_cst_12 main_v50 (broadcastInDim S2048x1 ![] bcast_S_S2048x1 : (⟨S_, .f32⟩ : BufTy).Contents (Elt F) → (⟨S2048x1, .f32⟩ : BufTy).Contents (Elt F)),
    binary main_arg10 main_v50 main_v51 (Host.divf : (⟨S2048x1, .f32⟩ : BufTy).Contents (Elt F) → (⟨S2048x1, .f32⟩ : BufTy).Contents (Elt F) → (⟨S2048x1, .f32⟩ : BufTy).Contents (Elt F)),
    nullary main_cst_13 (constant S_ .f32 0x40000000#32),
    unary main_cst_13 main_v52 (broadcastInDim S2048x1 ![] bcast_S_S2048x1 : (⟨S_, .f32⟩ : BufTy).Contents (Elt F) → (⟨S2048x1, .f32⟩ : BufTy).Contents (Elt F)),
    binary main_arg10 main_v52 main_v53 (Host.divf : (⟨S2048x1, .f32⟩ : BufTy).Contents (Elt F) → (⟨S2048x1, .f32⟩ : BufTy).Contents (Elt F) → (⟨S2048x1, .f32⟩ : BufTy).Contents (Elt F)),
    nullary main_cst_14 (constant S_ .f32 0x3F000000#32),
    unary main_cst_14 main_v54 (broadcastInDim S2048x1 ![] bcast_S_S2048x1 : (⟨S_, .f32⟩ : BufTy).Contents (Elt F) → (⟨S2048x1, .f32⟩ : BufTy).Contents (Elt F)),
    binary main_v53 main_v54 main_v55 (addf : (⟨S2048x1, .f32⟩ : BufTy).Contents (Elt F) → (⟨S2048x1, .f32⟩ : BufTy).Contents (Elt F) → (⟨S2048x1, .f32⟩ : BufTy).Contents (Elt F)),
    unary main_v55 main_v56 (Host.floor : (⟨S2048x1, .f32⟩ : BufTy).Contents (Elt F) → (⟨S2048x1, .f32⟩ : BufTy).Contents (Elt F)),
    binary main_v51 main_v56 main_v57 (subf : (⟨S2048x1, .f32⟩ : BufTy).Contents (Elt F) → (⟨S2048x1, .f32⟩ : BufTy).Contents (Elt F) → (⟨S2048x1, .f32⟩ : BufTy).Contents (Elt F)),
    unary main_v57 main_v58 (Host.absf : (⟨S2048x1, .f32⟩ : BufTy).Contents (Elt F) → (⟨S2048x1, .f32⟩ : BufTy).Contents (Elt F)),
    nullary main_cst_15 (constant S_ .f32 0x40000000#32),
    unary main_cst_15 main_v59 (broadcastInDim S2048x1 ![] bcast_S_S2048x1 : (⟨S_, .f32⟩ : BufTy).Contents (Elt F) → (⟨S2048x1, .f32⟩ : BufTy).Contents (Elt F)),
    binary main_v59 main_v58 main_v60 (mulf : (⟨S2048x1, .f32⟩ : BufTy).Contents (Elt F) → (⟨S2048x1, .f32⟩ : BufTy).Contents (Elt F) → (⟨S2048x1, .f32⟩ : BufTy).Contents (Elt F)),
    nullary main_cst_16 (constant S_ .f32 0x00000000#32),
    nullary main_cst_17 (constant S_ .f32 0x3F7FFFEF#32),
    TRef.unary (TRef.of (T := ⟨S_, .f32⟩) main_cst_16) (TRef.of (T := ⟨S_, .f32⟩) main_call4_v0) id,
    TRef.unary (TRef.of (T := ⟨S_, .f32⟩) main_call4_v0) (TRef.of (T := ⟨S2097152, .f32⟩) main_call4_v1) (broadcastInDim S2097152 ![] bcast_S_S2097152),
    TRef.binary (TRef.of (T := ⟨S2097152, .f32⟩) main_call4_v1) (TRef.of (T := ⟨S2097152, .f32⟩) main_v49) (TRef.of (T := ⟨S2097152, .f32⟩) main_call4_v2) maximumf,
    TRef.unary (TRef.of (T := ⟨S_, .f32⟩) main_cst_17) (TRef.of (T := ⟨S_, .f32⟩) main_call4_v3) id,
    TRef.unary (TRef.of (T := ⟨S_, .f32⟩) main_call4_v3) (TRef.of (T := ⟨S2097152, .f32⟩) main_call4_v4) (broadcastInDim S2097152 ![] bcast_S_S2097152),
    TRef.binary (TRef.of (T := ⟨S2097152, .f32⟩) main_call4_v4) (TRef.of (T := ⟨S2097152, .f32⟩) main_call4_v2) (TRef.of (T := ⟨S2097152, .f32⟩) main_v61) minimumf,
    nullary main_cst_18 (constant S_ .f32 0x44FFE000#32),
    unary main_cst_18 main_v62 (broadcastInDim S2097152 ![] bcast_S_S2097152 : (⟨S_, .f32⟩ : BufTy).Contents (Elt F) → (⟨S2097152, .f32⟩ : BufTy).Contents (Elt F)),
    binary main_v61 main_v62 main_v63 (mulf : (⟨S2097152, .f32⟩ : BufTy).Contents (Elt F) → (⟨S2097152, .f32⟩ : BufTy).Contents (Elt F) → (⟨S2097152, .f32⟩ : BufTy).Contents (Elt F)),
    TRef.unary (TRef.of (T := ⟨S2097152, .f32⟩) main_v63) (TRef.of (T := ⟨S2097152, .f32⟩) main_v64) Host.roundeven,
    unary main_v64 main_v65 (fptosi 32 : (⟨S2097152, .f32⟩ : BufTy).Contents (Elt F) → (⟨S2097152, .i32⟩ : BufTy).Contents (Elt F)),
    nullary main_c_19 (constantI S_ 32 0#32),
    unary main_c_19 main_v66 (broadcastInDim S2097152 ![] bcast_S_S2097152 : (⟨S_, .i32⟩ : BufTy).Contents (Elt F) → (⟨S2097152, .i32⟩ : BufTy).Contents (Elt F)),
    binary main_v65 main_v66 main_v67 (cmpi .slt : (⟨S2097152, .i32⟩ : BufTy).Contents (Elt F) → (⟨S2097152, .i32⟩ : BufTy).Contents (Elt F) → (⟨S2097152, .i1⟩ : BufTy).Contents (Elt F)),
    nullary main_c_20 (constantI S_ 32 2048#32),
    unary main_c_20 main_v68 (broadcastInDim S2097152 ![] bcast_S_S2097152 : (⟨S_, .i32⟩ : BufTy).Contents (Elt F) → (⟨S2097152, .i32⟩ : BufTy).Contents (Elt F)),
    binary main_v65 main_v68 main_v69 (addi : (⟨S2097152, .i32⟩ : BufTy).Contents (Elt F) → (⟨S2097152, .i32⟩ : BufTy).Contents (Elt F) → (⟨S2097152, .i32⟩ : BufTy).Contents (Elt F)),
    ternary main_v67 main_v69 main_v65 main_v70 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v70 main_v71 (broadcastInDim S2097152x1 ![0] bcast_S2097152_S2097152x1_0 : (⟨S2097152, .i32⟩ : BufTy).Contents (Elt F) → (⟨S2097152x1, .i32⟩ : BufTy).Contents (Elt F)),
    binary main_v60 main_v71 main_v72 ((fun x i => Host.gather gather_S2048x1_S2097152x1_S2097152x1_1_0_n_n_0_1_11 x i) : (⟨S2048x1, .f32⟩ : BufTy).Contents (Elt F) → (⟨S2097152x1, .i32⟩ : BufTy).Contents (Elt F) → (⟨S2097152x1, .f32⟩ : BufTy).Contents (Elt F)) ]
/-- The references the operations of the chunk R2 write, in order. -/
abbrev R2w : List (Ref sig .tc) :=
  [main_v48, main_v49, main_cst_12, main_v50, main_v51, main_cst_13, main_v52, main_v53, main_cst_14, main_v54, main_v55, main_v56, main_v57, main_v58, main_cst_15, main_v59, main_v60, main_cst_16, main_cst_17, main_call4_v0, main_call4_v1, main_call4_v2, main_call4_v3, main_call4_v4, main_v61, main_cst_18, main_v62, main_v63, main_v64, main_v65, main_c_19, main_v66, main_v67, main_c_20, main_v68, main_v69, main_v70, main_v71, main_v72]

set_option maxHeartbeats 40000000 in
/-- Operations 111 to 277 of the program, in order (167 operations). -/
abbrev R3 : List (HloOp τ sig (Elt F)) :=
  [ unary main_v6 main_v73 ((extractStridedSlice S2097152x1 ![0, 0] · slices_S2097152x2_S2097152x1_0_0) : (⟨S2097152x2, .f32⟩ : BufTy).Contents (Elt F) → (⟨S2097152x1, .f32⟩ : BufTy).Contents (Elt F)),
    unary main_arg5 main_v74 ((extractStridedSlice S2097152x1 ![0, 0] · slices_S2097152x2_S2097152x1_0_0) : (⟨S2097152x2, .f32⟩ : BufTy).Contents (Elt F) → (⟨S2097152x1, .f32⟩ : BufTy).Contents (Elt F)),
    binary main_v73 main_v74 main_v75 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)),
    nullary main_cst_21 (constant S_ .f32 0x40000000#32),
    unary main_cst_21 main_v76 (broadcastInDim S64x64x3 ![] bcast_S_S64x64x3 : (⟨S_, .f32⟩ : BufTy).Contents (Elt F) → (⟨S64x64x3, .f32⟩ : BufTy).Contents (Elt F)),
    binary main_arg11 main_v76 main_v77 (Host.divf : (⟨S64x64x3, .f32⟩ : BufTy).Contents (Elt F) → (⟨S64x64x3, .f32⟩ : BufTy).Contents (Elt F) → (⟨S64x64x3, .f32⟩ : BufTy).Contents (Elt F)),
    nullary main_cst_22 (constant S_ .f32 0x40000000#32),
    unary main_cst_22 main_v78 (broadcastInDim S64x64x3 ![] bcast_S_S64x64x3 : (⟨S_, .f32⟩ : BufTy).Contents (Elt F) → (⟨S64x64x3, .f32⟩ : BufTy).Contents (Elt F)),
    binary main_arg11 main_v78 main_v79 (Host.divf : (⟨S64x64x3, .f32⟩ : BufTy).Contents (Elt F) → (⟨S64x64x3, .f32⟩ : BufTy).Contents (Elt F) → (⟨S64x64x3, .f32⟩ : BufTy).Contents (Elt F)),
    nullary main_cst_23 (constant S_ .f32 0x3F000000#32),
    unary main_cst_23 main_v80 (broadcastInDim S64x64x3 ![] bcast_S_S64x64x3 : (⟨S_, .f32⟩ : BufTy).Contents (Elt F) → (⟨S64x64x3, .f32⟩ : BufTy).Contents (Elt F)),
    binary main_v79 main_v80 main_v81 (addf : (⟨S64x64x3, .f32⟩ : BufTy).Contents (Elt F) → (⟨S64x64x3, .f32⟩ : BufTy).Contents (Elt F) → (⟨S64x64x3, .f32⟩ : BufTy).Contents (Elt F)),
    unary main_v81 main_v82 (Host.floor : (⟨S64x64x3, .f32⟩ : BufTy).Contents (Elt F) → (⟨S64x64x3, .f32⟩ : BufTy).Contents (Elt F)),
    binary main_v77 main_v82 main_v83 (subf : (⟨S64x64x3, .f32⟩ : BufTy).Contents (Elt F) → (⟨S64x64x3, .f32⟩ : BufTy).Contents (Elt F) → (⟨S64x64x3, .f32⟩ : BufTy).Contents (Elt F)),
    unary main_v83 main_v84 (Host.absf : (⟨S64x64x3, .f32⟩ : BufTy).Contents (Elt F) → (⟨S64x64x3, .f32⟩ : BufTy).Contents (Elt F)),
    nullary main_cst_24 (constant S_ .f32 0x40000000#32),
    unary main_cst_24 main_v85 (broadcastInDim S64x64x3 ![] bcast_S_S64x64x3 : (⟨S_, .f32⟩ : BufTy).Contents (Elt F) → (⟨S64x64x3, .f32⟩ : BufTy).Contents (Elt F)),
    binary main_v85 main_v84 main_v86 (mulf : (⟨S64x64x3, .f32⟩ : BufTy).Contents (Elt F) → (⟨S64x64x3, .f32⟩ : BufTy).Contents (Elt F) → (⟨S64x64x3, .f32⟩ : BufTy).Contents (Elt F)),
    unary main_v75 main_v87 ((extractStridedSlice S2097152x1 ![0, 0] · slices_S2097152x2_S2097152x1_0_0) : (⟨S2097152x2, .f32⟩ : BufTy).Contents (Elt F) → (⟨S2097152x1, .f32⟩ : BufTy).Contents (Elt F)),
    reshape main_v87 main_v88 rfl shapeCasts_S2097152x1_S2097152,
    nullary main_cst_25 (constant S_ .f32 0x00000000#32),
    nullary main_cst_26 (constant S_ .f32 0x3F7FFFEF#32),
    TRef.unary (TRef.of (T := ⟨S_, .f32⟩) main_cst_25) (TRef.of (T := ⟨S_, .f32⟩) main_call6_v0) id,
    TRef.unary (TRef.of (T := ⟨S_, .f32⟩) main_call6_v0) (TRef.of (T := ⟨S2097152, .f32⟩) main_call6_v1) (broadcastInDim S2097152 ![] bcast_S_S2097152),
    TRef.binary (TRef.of (T := ⟨S2097152, .f32⟩) main_call6_v1) (TRef.of (T := ⟨S2097152, .f32⟩) main_v88) (TRef.of (T := ⟨S2097152, .f32⟩) main_call6_v2) maximumf,
    TRef.unary (TRef.of (T := ⟨S_, .f32⟩) main_cst_26) (TRef.of (T := ⟨S_, .f32⟩) main_call6_v3) id,
    TRef.unary (TRef.of (T := ⟨S_, .f32⟩) main_call6_v3) (TRef.of (T := ⟨S2097152, .f32⟩) main_call6_v4) (broadcastInDim S2097152 ![] bcast_S_S2097152),
    TRef.binary (TRef.of (T := ⟨S2097152, .f32⟩) main_call6_v4) (TRef.of (T := ⟨S2097152, .f32⟩) main_call6_v2) (TRef.of (T := ⟨S2097152, .f32⟩) main_v89) minimumf,
    nullary main_cst_27 (constant S_ .f32 0x427C0000#32),
    unary main_cst_27 main_v90 (broadcastInDim S2097152 ![] bcast_S_S2097152 : (⟨S_, .f32⟩ : BufTy).Contents (Elt F) → (⟨S2097152, .f32⟩ : BufTy).Contents (Elt F)),
    binary main_v89 main_v90 main_v91 (mulf : (⟨S2097152, .f32⟩ : BufTy).Contents (Elt F) → (⟨S2097152, .f32⟩ : BufTy).Contents (Elt F) → (⟨S2097152, .f32⟩ : BufTy).Contents (Elt F)),
    unary main_v75 main_v92 ((extractStridedSlice S2097152x1 ![0, 1] · slices_S2097152x2_S2097152x1_0_1) : (⟨S2097152x2, .f32⟩ : BufTy).Contents (Elt F) → (⟨S2097152x1, .f32⟩ : BufTy).Contents (Elt F)),
    reshape main_v92 main_v93 rfl shapeCasts_S2097152x1_S2097152,
    nullary main_cst_28 (constant S_ .f32 0x00000000#32),
    nullary main_cst_29 (constant S_ .f32 0x3F7FFFEF#32),
    TRef.unary (TRef.of (T := ⟨S_, .f32⟩) main_cst_28) (TRef.of (T := ⟨S_, .f32⟩) main_call7_v0) id,
    TRef.unary (TRef.of (T := ⟨S_, .f32⟩) main_call7_v0) (TRef.of (T := ⟨S2097152, .f32⟩) main_call7_v1) (broadcastInDim S2097152 ![] bcast_S_S2097152),
    TRef.binary (TRef.of (T := ⟨S2097152, .f32⟩) main_call7_v1) (TRef.of (T := ⟨S2097152, .f32⟩) main_v93) (TRef.of (T := ⟨S2097152, .f32⟩) main_call7_v2) maximumf,
    TRef.unary (TRef.of (T := ⟨S_, .f32⟩) main_cst_29) (TRef.of (T := ⟨S_, .f32⟩) main_call7_v3) id,
    TRef.unary (TRef.of (T := ⟨S_, .f32⟩) main_call7_v3) (TRef.of (T := ⟨S2097152, .f32⟩) main_call7_v4) (broadcastInDim S2097152 ![] bcast_S_S2097152),
    TRef.binary (TRef.of (T := ⟨S2097152, .f32⟩) main_call7_v4) (TRef.of (T := ⟨S2097152, .f32⟩) main_call7_v2) (TRef.of (T := ⟨S2097152, .f32⟩) main_v94) minimumf,
    nullary main_cst_30 (constant S_ .f32 0x427C0000#32),
    unary main_cst_30 main_v95 (broadcastInDim S2097152 ![] bcast_S_S2097152 : (⟨S_, .f32⟩ : BufTy).Contents (Elt F) → (⟨S2097152, .f32⟩ : BufTy).Contents (Elt F)),
    binary main_v94 main_v95 main_v96 (mulf : (⟨S2097152, .f32⟩ : BufTy).Contents (Elt F) → (⟨S2097152, .f32⟩ : BufTy).Contents (Elt F) → (⟨S2097152, .f32⟩ : BufTy).Contents (Elt F)),
    unary main_v91 main_v97 (Host.floor : (⟨S2097152, .f32⟩ : BufTy).Contents (Elt F) → (⟨S2097152, .f32⟩ : BufTy).Contents (Elt F)),
    unary main_v96 main_v98 (Host.floor : (⟨S2097152, .f32⟩ : BufTy).Contents (Elt F) → (⟨S2097152, .f32⟩ : BufTy).Contents (Elt F)),
    binary main_v91 main_v97 main_v99 (subf : (⟨S2097152, .f32⟩ : BufTy).Contents (Elt F) → (⟨S2097152, .f32⟩ : BufTy).Contents (Elt F) → (⟨S2097152, .f32⟩ : BufTy).Contents (Elt F)),
    unary main_v99 main_v100 (broadcastInDim S2097152x1 ![0] bcast_S2097152_S2097152x1_0 : (⟨S2097152, .f32⟩ : BufTy).Contents (Elt F) → (⟨S2097152x1, .f32⟩ : BufTy).Contents (Elt F)),
    binary main_v96 main_v98 main_v101 (subf : (⟨S2097152, .f32⟩ : BufTy).Contents (Elt F) → (⟨S2097152, .f32⟩ : BufTy).Contents (Elt F) → (⟨S2097152, .f32⟩ : BufTy).Contents (Elt F)),
    unary main_v101 main_v102 (broadcastInDim S2097152x1 ![0] bcast_S2097152_S2097152x1_0 : (⟨S2097152, .f32⟩ : BufTy).Contents (Elt F) → (⟨S2097152x1, .f32⟩ : BufTy).Contents (Elt F)),
    unary main_v97 main_v103 (fptosi 32 : (⟨S2097152, .f32⟩ : BufTy).Contents (Elt F) → (⟨S2097152, .i32⟩ : BufTy).Contents (Elt F)),
    unary main_v98 main_v104 (fptosi 32 : (⟨S2097152, .f32⟩ : BufTy).Contents (Elt F) → (⟨S2097152, .i32⟩ : BufTy).Contents (Elt F)),
    nullary main_c_31 (constantI S_ 32 1#32),
    unary main_c_31 main_v105 (broadcastInDim S2097152 ![] bcast_S_S2097152 : (⟨S_, .i32⟩ : BufTy).Contents (Elt F) → (⟨S2097152, .i32⟩ : BufTy).Contents (Elt F)),
    binary main_v103 main_v105 main_v106 (addi : (⟨S2097152, .i32⟩ : BufTy).Contents (Elt F) → (⟨S2097152, .i32⟩ : BufTy).Contents (Elt F) → (⟨S2097152, .i32⟩ : BufTy).Contents (Elt F)),
    nullary main_c_32 (constantI S_ 32 63#32),
    unary main_c_32 main_v107 (broadcastInDim S2097152 ![] bcast_S_S2097152 : (⟨S_, .i32⟩ : BufTy).Contents (Elt F) → (⟨S2097152, .i32⟩ : BufTy).Contents (Elt F)),
    binary main_v106 main_v107 main_v108 (minsi : (⟨S2097152, .i32⟩ : BufTy).Contents (Elt F) → (⟨S2097152, .i32⟩ : BufTy).Contents (Elt F) → (⟨S2097152, .i32⟩ : BufTy).Contents (Elt F)),
    nullary main_c_33 (constantI S_ 32 1#32),
    unary main_c_33 main_v109 (broadcastInDim S2097152 ![] bcast_S_S2097152 : (⟨S_, .i32⟩ : BufTy).Contents (Elt F) → (⟨S2097152, .i32⟩ : BufTy).Contents (Elt F)),
    binary main_v104 main_v109 main_v110 (addi : (⟨S2097152, .i32⟩ : BufTy).Contents (Elt F) → (⟨S2097152, .i32⟩ : BufTy).Contents (Elt F) → (⟨S2097152, .i32⟩ : BufTy).Contents (Elt F)),
    nullary main_c_34 (constantI S_ 32 63#32),
    unary main_c_34 main_v111 (broadcastInDim S2097152 ![] bcast_S_S2097152 : (⟨S_, .i32⟩ : BufTy).Contents (Elt F) → (⟨S2097152, .i32⟩ : BufTy).Contents (Elt F)),
    binary main_v110 main_v111 main_v112 (minsi : (⟨S2097152, .i32⟩ : BufTy).Contents (Elt F) → (⟨S2097152, .i32⟩ : BufTy).Contents (Elt F) → (⟨S2097152, .i32⟩ : BufTy).Contents (Elt F)),
    nullary main_c_35 (constantI S_ 32 0#32),
    unary main_c_35 main_v113 (broadcastInDim S2097152 ![] bcast_S_S2097152 : (⟨S_, .i32⟩ : BufTy).Contents (Elt F) → (⟨S2097152, .i32⟩ : BufTy).Contents (Elt F)),
    binary main_v103 main_v113 main_v114 (cmpi .slt : (⟨S2097152, .i32⟩ : BufTy).Contents (Elt F) → (⟨S2097152, .i32⟩ : BufTy).Contents (Elt F) → (⟨S2097152, .i1⟩ : BufTy).Contents (Elt F)),
    nullary main_c_36 (constantI S_ 32 64#32),
    unary main_c_36 main_v115 (broadcastInDim S2097152 ![] bcast_S_S2097152 : (⟨S_, .i32⟩ : BufTy).Contents (Elt F) → (⟨S2097152, .i32⟩ : BufTy).Contents (Elt F)),
    binary main_v103 main_v115 main_v116 (addi : (⟨S2097152, .i32⟩ : BufTy).Contents (Elt F) → (⟨S2097152, .i32⟩ : BufTy).Contents (Elt F) → (⟨S2097152, .i32⟩ : BufTy).Contents (Elt F)),
    ternary main_v114 main_v116 main_v103 main_v117 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_37 (constantI S_ 32 0#32),
    unary main_c_37 main_v118 (broadcastInDim S2097152 ![] bcast_S_S2097152 : (⟨S_, .i32⟩ : BufTy).Contents (Elt F) → (⟨S2097152, .i32⟩ : BufTy).Contents (Elt F)),
    binary main_v104 main_v118 main_v119 (cmpi .slt : (⟨S2097152, .i32⟩ : BufTy).Contents (Elt F) → (⟨S2097152, .i32⟩ : BufTy).Contents (Elt F) → (⟨S2097152, .i1⟩ : BufTy).Contents (Elt F)),
    nullary main_c_38 (constantI S_ 32 64#32),
    unary main_c_38 main_v120 (broadcastInDim S2097152 ![] bcast_S_S2097152 : (⟨S_, .i32⟩ : BufTy).Contents (Elt F) → (⟨S2097152, .i32⟩ : BufTy).Contents (Elt F)),
    binary main_v104 main_v120 main_v121 (addi : (⟨S2097152, .i32⟩ : BufTy).Contents (Elt F) → (⟨S2097152, .i32⟩ : BufTy).Contents (Elt F) → (⟨S2097152, .i32⟩ : BufTy).Contents (Elt F)),
    ternary main_v119 main_v121 main_v104 main_v122 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v117 main_v123 (broadcastInDim S2097152x1 ![0] bcast_S2097152_S2097152x1_0 : (⟨S2097152, .i32⟩ : BufTy).Contents (Elt F) → (⟨S2097152x1, .i32⟩ : BufTy).Contents (Elt F)),
    unary main_v122 main_v124 (broadcastInDim S2097152x1 ![0] bcast_S2097152_S2097152x1_0 : (⟨S2097152, .i32⟩ : BufTy).Contents (Elt F) → (⟨S2097152x1, .i32⟩ : BufTy).Contents (Elt F)),
    binary main_v123 main_v124 main_v125 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v86 main_v125 main_v126 ((fun x i => Host.gather gather_S64x64x3_S2097152x2_S2097152x3_1_01_n_n_01_1_113 x i) : (⟨S64x64x3, .f32⟩ : BufTy).Contents (Elt F) → (⟨S2097152x2, .i32⟩ : BufTy).Contents (Elt F) → (⟨S2097152x3, .f32⟩ : BufTy).Contents (Elt F)),
    nullary main_cst_39 (constant S_ .f32 0x3F800000#32),
    unary main_cst_39 main_v127 (broadcastInDim S2097152x1 ![] bcast_S_S2097152x1 : (⟨S_, .f32⟩ : BufTy).Contents (Elt F) → (⟨S2097152x1, .f32⟩ : BufTy).Contents (Elt F)),
    binary main_v127 main_v100 main_v128 (subf : (⟨S2097152x1, .f32⟩ : BufTy).Contents (Elt F) → (⟨S2097152x1, .f32⟩ : BufTy).Contents (Elt F) → (⟨S2097152x1, .f32⟩ : BufTy).Contents (Elt F)),
    unary main_v128 main_v129 (broadcastInDim S2097152x3 ![0, 1] bcast_S2097152x1_S2097152x3_0_1 : (⟨S2097152x1, .f32⟩ : BufTy).Contents (Elt F) → (⟨S2097152x3, .f32⟩ : BufTy).Contents (Elt F)),
    binary main_v126 main_v129 main_v130 (mulf : (⟨S2097152x3, .f32⟩ : BufTy).Contents (Elt F) → (⟨S2097152x3, .f32⟩ : BufTy).Contents (Elt F) → (⟨S2097152x3, .f32⟩ : BufTy).Contents (Elt F)),
    nullary main_cst_40 (constant S_ .f32 0x3F800000#32),
    unary main_cst_40 main_v131 (broadcastInDim S2097152x1 ![] bcast_S_S2097152x1 : (⟨S_, .f32⟩ : BufTy).Contents (Elt F) → (⟨S2097152x1, .f32⟩ : BufTy).Contents (Elt F)),
    binary main_v131 main_v102 main_v132 (subf : (⟨S2097152x1, .f32⟩ : BufTy).Contents (Elt F) → (⟨S2097152x1, .f32⟩ : BufTy).Contents (Elt F) → (⟨S2097152x1, .f32⟩ : BufTy).Contents (Elt F)),
    unary main_v132 main_v133 (broadcastInDim S2097152x3 ![0, 1] bcast_S2097152x1_S2097152x3_0_1 : (⟨S2097152x1, .f32⟩ : BufTy).Contents (Elt F) → (⟨S2097152x3, .f32⟩ : BufTy).Contents (Elt F)),
    binary main_v130 main_v133 main_v134 (mulf : (⟨S2097152x3, .f32⟩ : BufTy).Contents (Elt F) → (⟨S2097152x3, .f32⟩ : BufTy).Contents (Elt F) → (⟨S2097152x3, .f32⟩ : BufTy).Contents (Elt F)),
    nullary main_c_41 (constantI S_ 32 0#32),
    unary main_c_41 main_v135 (broadcastInDim S2097152 ![] bcast_S_S2097152 : (⟨S_, .i32⟩ : BufTy).Contents (Elt F) → (⟨S2097152, .i32⟩ : BufTy).Contents (Elt F)),
    binary main_v108 main_v135 main_v136 (cmpi .slt : (⟨S2097152, .i32⟩ : BufTy).Contents (Elt F) → (⟨S2097152, .i32⟩ : BufTy).Contents (Elt F) → (⟨S2097152, .i1⟩ : BufTy).Contents (Elt F)),
    nullary main_c_42 (constantI S_ 32 64#32),
    unary main_c_42 main_v137 (broadcastInDim S2097152 ![] bcast_S_S2097152 : (⟨S_, .i32⟩ : BufTy).Contents (Elt F) → (⟨S2097152, .i32⟩ : BufTy).Contents (Elt F)),
    binary main_v108 main_v137 main_v138 (addi : (⟨S2097152, .i32⟩ : BufTy).Contents (Elt F) → (⟨S2097152, .i32⟩ : BufTy).Contents (Elt F) → (⟨S2097152, .i32⟩ : BufTy).Contents (Elt F)),
    ternary main_v136 main_v138 main_v108 main_v139 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_43 (constantI S_ 32 0#32),
    unary main_c_43 main_v140 (broadcastInDim S2097152 ![] bcast_S_S2097152 : (⟨S_, .i32⟩ : BufTy).Contents (Elt F) → (⟨S2097152, .i32⟩ : BufTy).Contents (Elt F)),
    binary main_v104 main_v140 main_v141 (cmpi .slt : (⟨S2097152, .i32⟩ : BufTy).Contents (Elt F) → (⟨S2097152, .i32⟩ : BufTy).Contents (Elt F) → (⟨S2097152, .i1⟩ : BufTy).Contents (Elt F)),
    nullary main_c_44 (constantI S_ 32 64#32),
    unary main_c_44 main_v142 (broadcastInDim S2097152 ![] bcast_S_S2097152 : (⟨S_, .i32⟩ : BufTy).Contents (Elt F) → (⟨S2097152, .i32⟩ : BufTy).Contents (Elt F)),
    binary main_v104 main_v142 main_v143 (addi : (⟨S2097152, .i32⟩ : BufTy).Contents (Elt F) → (⟨S2097152, .i32⟩ : BufTy).Contents (Elt F) → (⟨S2097152, .i32⟩ : BufTy).Contents (Elt F)),
    ternary main_v141 main_v143 main_v104 main_v144 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v139 main_v145 (broadcastInDim S2097152x1 ![0] bcast_S2097152_S2097152x1_0 : (⟨S2097152, .i32⟩ : BufTy).Contents (Elt F) → (⟨S2097152x1, .i32⟩ : BufTy).Contents (Elt F)),
    unary main_v144 main_v146 (broadcastInDim S2097152x1 ![0] bcast_S2097152_S2097152x1_0 : (⟨S2097152, .i32⟩ : BufTy).Contents (Elt F) → (⟨S2097152x1, .i32⟩ : BufTy).Contents (Elt F)),
    binary main_v145 main_v146 main_v147 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v86 main_v147 main_v148 ((fun x i => Host.gather gather_S64x64x3_S2097152x2_S2097152x3_1_01_n_n_01_1_113 x i) : (⟨S64x64x3, .f32⟩ : BufTy).Contents (Elt F) → (⟨S2097152x2, .i32⟩ : BufTy).Contents (Elt F) → (⟨S2097152x3, .f32⟩ : BufTy).Contents (Elt F)),
    unary main_v100 main_v149 (broadcastInDim S2097152x3 ![0, 1] bcast_S2097152x1_S2097152x3_0_1 : (⟨S2097152x1, .f32⟩ : BufTy).Contents (Elt F) → (⟨S2097152x3, .f32⟩ : BufTy).Contents (Elt F)),
    binary main_v148 main_v149 main_v150 (mulf : (⟨S2097152x3, .f32⟩ : BufTy).Contents (Elt F) → (⟨S2097152x3, .f32⟩ : BufTy).Contents (Elt F) → (⟨S2097152x3, .f32⟩ : BufTy).Contents (Elt F)),
    nullary main_cst_45 (constant S_ .f32 0x3F800000#32),
    unary main_cst_45 main_v151 (broadcastInDim S2097152x1 ![] bcast_S_S2097152x1 : (⟨S_, .f32⟩ : BufTy).Contents (Elt F) → (⟨S2097152x1, .f32⟩ : BufTy).Contents (Elt F)),
    binary main_v151 main_v102 main_v152 (subf : (⟨S2097152x1, .f32⟩ : BufTy).Contents (Elt F) → (⟨S2097152x1, .f32⟩ : BufTy).Contents (Elt F) → (⟨S2097152x1, .f32⟩ : BufTy).Contents (Elt F)),
    unary main_v152 main_v153 (broadcastInDim S2097152x3 ![0, 1] bcast_S2097152x1_S2097152x3_0_1 : (⟨S2097152x1, .f32⟩ : BufTy).Contents (Elt F) → (⟨S2097152x3, .f32⟩ : BufTy).Contents (Elt F)),
    binary main_v150 main_v153 main_v154 (mulf : (⟨S2097152x3, .f32⟩ : BufTy).Contents (Elt F) → (⟨S2097152x3, .f32⟩ : BufTy).Contents (Elt F) → (⟨S2097152x3, .f32⟩ : BufTy).Contents (Elt F)),
    binary main_v134 main_v154 main_v155 (addf : (⟨S2097152x3, .f32⟩ : BufTy).Contents (Elt F) → (⟨S2097152x3, .f32⟩ : BufTy).Contents (Elt F) → (⟨S2097152x3, .f32⟩ : BufTy).Contents (Elt F)),
    nullary main_c_46 (constantI S_ 32 0#32),
    unary main_c_46 main_v156 (broadcastInDim S2097152 ![] bcast_S_S2097152 : (⟨S_, .i32⟩ : BufTy).Contents (Elt F) → (⟨S2097152, .i32⟩ : BufTy).Contents (Elt F)),
    binary main_v103 main_v156 main_v157 (cmpi .slt : (⟨S2097152, .i32⟩ : BufTy).Contents (Elt F) → (⟨S2097152, .i32⟩ : BufTy).Contents (Elt F) → (⟨S2097152, .i1⟩ : BufTy).Contents (Elt F)),
    nullary main_c_47 (constantI S_ 32 64#32),
    unary main_c_47 main_v158 (broadcastInDim S2097152 ![] bcast_S_S2097152 : (⟨S_, .i32⟩ : BufTy).Contents (Elt F) → (⟨S2097152, .i32⟩ : BufTy).Contents (Elt F)),
    binary main_v103 main_v158 main_v159 (addi : (⟨S2097152, .i32⟩ : BufTy).Contents (Elt F) → (⟨S2097152, .i32⟩ : BufTy).Contents (Elt F) → (⟨S2097152, .i32⟩ : BufTy).Contents (Elt F)),
    ternary main_v157 main_v159 main_v103 main_v160 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_48 (constantI S_ 32 0#32),
    unary main_c_48 main_v161 (broadcastInDim S2097152 ![] bcast_S_S2097152 : (⟨S_, .i32⟩ : BufTy).Contents (Elt F) → (⟨S2097152, .i32⟩ : BufTy).Contents (Elt F)),
    binary main_v112 main_v161 main_v162 (cmpi .slt : (⟨S2097152, .i32⟩ : BufTy).Contents (Elt F) → (⟨S2097152, .i32⟩ : BufTy).Contents (Elt F) → (⟨S2097152, .i1⟩ : BufTy).Contents (Elt F)),
    nullary main_c_49 (constantI S_ 32 64#32),
    unary main_c_49 main_v163 (broadcastInDim S2097152 ![] bcast_S_S2097152 : (⟨S_, .i32⟩ : BufTy).Contents (Elt F) → (⟨S2097152, .i32⟩ : BufTy).Contents (Elt F)),
    binary main_v112 main_v163 main_v164 (addi : (⟨S2097152, .i32⟩ : BufTy).Contents (Elt F) → (⟨S2097152, .i32⟩ : BufTy).Contents (Elt F) → (⟨S2097152, .i32⟩ : BufTy).Contents (Elt F)),
    ternary main_v162 main_v164 main_v112 main_v165 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v160 main_v166 (broadcastInDim S2097152x1 ![0] bcast_S2097152_S2097152x1_0 : (⟨S2097152, .i32⟩ : BufTy).Contents (Elt F) → (⟨S2097152x1, .i32⟩ : BufTy).Contents (Elt F)),
    unary main_v165 main_v167 (broadcastInDim S2097152x1 ![0] bcast_S2097152_S2097152x1_0 : (⟨S2097152, .i32⟩ : BufTy).Contents (Elt F) → (⟨S2097152x1, .i32⟩ : BufTy).Contents (Elt F)),
    binary main_v166 main_v167 main_v168 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v86 main_v168 main_v169 ((fun x i => Host.gather gather_S64x64x3_S2097152x2_S2097152x3_1_01_n_n_01_1_113 x i) : (⟨S64x64x3, .f32⟩ : BufTy).Contents (Elt F) → (⟨S2097152x2, .i32⟩ : BufTy).Contents (Elt F) → (⟨S2097152x3, .f32⟩ : BufTy).Contents (Elt F)),
    nullary main_cst_50 (constant S_ .f32 0x3F800000#32),
    unary main_cst_50 main_v170 (broadcastInDim S2097152x1 ![] bcast_S_S2097152x1 : (⟨S_, .f32⟩ : BufTy).Contents (Elt F) → (⟨S2097152x1, .f32⟩ : BufTy).Contents (Elt F)),
    binary main_v170 main_v100 main_v171 (subf : (⟨S2097152x1, .f32⟩ : BufTy).Contents (Elt F) → (⟨S2097152x1, .f32⟩ : BufTy).Contents (Elt F) → (⟨S2097152x1, .f32⟩ : BufTy).Contents (Elt F)),
    unary main_v171 main_v172 (broadcastInDim S2097152x3 ![0, 1] bcast_S2097152x1_S2097152x3_0_1 : (⟨S2097152x1, .f32⟩ : BufTy).Contents (Elt F) → (⟨S2097152x3, .f32⟩ : BufTy).Contents (Elt F)),
    binary main_v169 main_v172 main_v173 (mulf : (⟨S2097152x3, .f32⟩ : BufTy).Contents (Elt F) → (⟨S2097152x3, .f32⟩ : BufTy).Contents (Elt F) → (⟨S2097152x3, .f32⟩ : BufTy).Contents (Elt F)),
    unary main_v102 main_v174 (broadcastInDim S2097152x3 ![0, 1] bcast_S2097152x1_S2097152x3_0_1 : (⟨S2097152x1, .f32⟩ : BufTy).Contents (Elt F) → (⟨S2097152x3, .f32⟩ : BufTy).Contents (Elt F)),
    binary main_v173 main_v174 main_v175 (mulf : (⟨S2097152x3, .f32⟩ : BufTy).Contents (Elt F) → (⟨S2097152x3, .f32⟩ : BufTy).Contents (Elt F) → (⟨S2097152x3, .f32⟩ : BufTy).Contents (Elt F)),
    binary main_v155 main_v175 main_v176 (addf : (⟨S2097152x3, .f32⟩ : BufTy).Contents (Elt F) → (⟨S2097152x3, .f32⟩ : BufTy).Contents (Elt F) → (⟨S2097152x3, .f32⟩ : BufTy).Contents (Elt F)),
    nullary main_c_51 (constantI S_ 32 0#32),
    unary main_c_51 main_v177 (broadcastInDim S2097152 ![] bcast_S_S2097152 : (⟨S_, .i32⟩ : BufTy).Contents (Elt F) → (⟨S2097152, .i32⟩ : BufTy).Contents (Elt F)),
    binary main_v108 main_v177 main_v178 (cmpi .slt : (⟨S2097152, .i32⟩ : BufTy).Contents (Elt F) → (⟨S2097152, .i32⟩ : BufTy).Contents (Elt F) → (⟨S2097152, .i1⟩ : BufTy).Contents (Elt F)),
    nullary main_c_52 (constantI S_ 32 64#32),
    unary main_c_52 main_v179 (broadcastInDim S2097152 ![] bcast_S_S2097152 : (⟨S_, .i32⟩ : BufTy).Contents (Elt F) → (⟨S2097152, .i32⟩ : BufTy).Contents (Elt F)),
    binary main_v108 main_v179 main_v180 (addi : (⟨S2097152, .i32⟩ : BufTy).Contents (Elt F) → (⟨S2097152, .i32⟩ : BufTy).Contents (Elt F) → (⟨S2097152, .i32⟩ : BufTy).Contents (Elt F)),
    ternary main_v178 main_v180 main_v108 main_v181 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_53 (constantI S_ 32 0#32),
    unary main_c_53 main_v182 (broadcastInDim S2097152 ![] bcast_S_S2097152 : (⟨S_, .i32⟩ : BufTy).Contents (Elt F) → (⟨S2097152, .i32⟩ : BufTy).Contents (Elt F)),
    binary main_v112 main_v182 main_v183 (cmpi .slt : (⟨S2097152, .i32⟩ : BufTy).Contents (Elt F) → (⟨S2097152, .i32⟩ : BufTy).Contents (Elt F) → (⟨S2097152, .i1⟩ : BufTy).Contents (Elt F)),
    nullary main_c_54 (constantI S_ 32 64#32),
    unary main_c_54 main_v184 (broadcastInDim S2097152 ![] bcast_S_S2097152 : (⟨S_, .i32⟩ : BufTy).Contents (Elt F) → (⟨S2097152, .i32⟩ : BufTy).Contents (Elt F)),
    binary main_v112 main_v184 main_v185 (addi : (⟨S2097152, .i32⟩ : BufTy).Contents (Elt F) → (⟨S2097152, .i32⟩ : BufTy).Contents (Elt F) → (⟨S2097152, .i32⟩ : BufTy).Contents (Elt F)),
    ternary main_v183 main_v185 main_v112 main_v186 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v181 main_v187 (broadcastInDim S2097152x1 ![0] bcast_S2097152_S2097152x1_0 : (⟨S2097152, .i32⟩ : BufTy).Contents (Elt F) → (⟨S2097152x1, .i32⟩ : BufTy).Contents (Elt F)),
    unary main_v186 main_v188 (broadcastInDim S2097152x1 ![0] bcast_S2097152_S2097152x1_0 : (⟨S2097152, .i32⟩ : BufTy).Contents (Elt F) → (⟨S2097152x1, .i32⟩ : BufTy).Contents (Elt F)),
    binary main_v187 main_v188 main_v189 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v86 main_v189 main_v190 ((fun x i => Host.gather gather_S64x64x3_S2097152x2_S2097152x3_1_01_n_n_01_1_113 x i) : (⟨S64x64x3, .f32⟩ : BufTy).Contents (Elt F) → (⟨S2097152x2, .i32⟩ : BufTy).Contents (Elt F) → (⟨S2097152x3, .f32⟩ : BufTy).Contents (Elt F)),
    unary main_v100 main_v191 (broadcastInDim S2097152x3 ![0, 1] bcast_S2097152x1_S2097152x3_0_1 : (⟨S2097152x1, .f32⟩ : BufTy).Contents (Elt F) → (⟨S2097152x3, .f32⟩ : BufTy).Contents (Elt F)),
    binary main_v190 main_v191 main_v192 (mulf : (⟨S2097152x3, .f32⟩ : BufTy).Contents (Elt F) → (⟨S2097152x3, .f32⟩ : BufTy).Contents (Elt F) → (⟨S2097152x3, .f32⟩ : BufTy).Contents (Elt F)),
    unary main_v102 main_v193 (broadcastInDim S2097152x3 ![0, 1] bcast_S2097152x1_S2097152x3_0_1 : (⟨S2097152x1, .f32⟩ : BufTy).Contents (Elt F) → (⟨S2097152x3, .f32⟩ : BufTy).Contents (Elt F)),
    binary main_v192 main_v193 main_v194 (mulf : (⟨S2097152x3, .f32⟩ : BufTy).Contents (Elt F) → (⟨S2097152x3, .f32⟩ : BufTy).Contents (Elt F) → (⟨S2097152x3, .f32⟩ : BufTy).Contents (Elt F)),
    binary main_v176 main_v194 main_v195 (addf : (⟨S2097152x3, .f32⟩ : BufTy).Contents (Elt F) → (⟨S2097152x3, .f32⟩ : BufTy).Contents (Elt F) → (⟨S2097152x3, .f32⟩ : BufTy).Contents (Elt F)) ]
/-- The references the operations of the chunk R3 write, in order. -/
abbrev R3w : List (Ref sig .tc) :=
  [main_v73, main_v74, main_v75, main_cst_21, main_v76, main_v77, main_cst_22, main_v78, main_v79, main_cst_23, main_v80, main_v81, main_v82, main_v83, main_v84, main_cst_24, main_v85, main_v86, main_v87, main_v88, main_cst_25, main_cst_26, main_call6_v0, main_call6_v1, main_call6_v2, main_call6_v3, main_call6_v4, main_v89, main_cst_27, main_v90, main_v91, main_v92, main_v93, main_cst_28, main_cst_29, main_call7_v0, main_call7_v1, main_call7_v2, main_call7_v3, main_call7_v4, main_v94, main_cst_30, main_v95, main_v96, main_v97, main_v98, main_v99, main_v100, main_v101, main_v102, main_v103, main_v104, main_c_31, main_v105, main_v106, main_c_32, main_v107, main_v108, main_c_33, main_v109, main_v110, main_c_34, main_v111, main_v112, main_c_35, main_v113, main_v114, main_c_36, main_v115, main_v116, main_v117, main_c_37, main_v118, main_v119, main_c_38, main_v120, main_v121, main_v122, main_v123, main_v124, main_v125, main_v126, main_cst_39, main_v127, main_v128, main_v129, main_v130, main_cst_40, main_v131, main_v132, main_v133, main_v134, main_c_41, main_v135, main_v136, main_c_42, main_v137, main_v138, main_v139, main_c_43, main_v140, main_v141, main_c_44, main_v142, main_v143, main_v144, main_v145, main_v146, main_v147, main_v148, main_v149, main_v150, main_cst_45, main_v151, main_v152, main_v153, main_v154, main_v155, main_c_46, main_v156, main_v157, main_c_47, main_v158, main_v159, main_v160, main_c_48, main_v161, main_v162, main_c_49, main_v163, main_v164, main_v165, main_v166, main_v167, main_v168, main_v169, main_cst_50, main_v170, main_v171, main_v172, main_v173, main_v174, main_v175, main_v176, main_c_51, main_v177, main_v178, main_c_52, main_v179, main_v180, main_v181, main_c_53, main_v182, main_v183, main_c_54, main_v184, main_v185, main_v186, main_v187, main_v188, main_v189, main_v190, main_v191, main_v192, main_v193, main_v194, main_v195]

set_option maxHeartbeats 40000000 in
/-- Operations 278 to 348 of the program, in order (71 operations). -/
abbrev R3b : List (HloOp τ sig (Elt F)) :=
  [ nullary main_cst_55 (constant S_ .f32 0x3F800000#32),
    unary main_cst_55 main_v196 (broadcastInDim S2097152 ![] bcast_S_S2097152 : (⟨S_, .f32⟩ : BufTy).Contents (Elt F) → (⟨S2097152, .f32⟩ : BufTy).Contents (Elt F)),
    binary main_v196 main_v8 main_v197 (subf : (⟨S2097152, .f32⟩ : BufTy).Contents (Elt F) → (⟨S2097152, .f32⟩ : BufTy).Contents (Elt F) → (⟨S2097152, .f32⟩ : BufTy).Contents (Elt F)),
    unary main_arg8 main_v198 ((extractStridedSlice S2097152x1 ![0, 0] · slices_S2097152x2_S2097152x1_0_0) : (⟨S2097152x2, .f32⟩ : BufTy).Contents (Elt F) → (⟨S2097152x1, .f32⟩ : BufTy).Contents (Elt F)),
    reshape main_v198 main_v199 rfl shapeCasts_S2097152x1_S2097152,
    binary main_v197 main_v199 main_v200 (mulf : (⟨S2097152, .f32⟩ : BufTy).Contents (Elt F) → (⟨S2097152, .f32⟩ : BufTy).Contents (Elt F) → (⟨S2097152, .f32⟩ : BufTy).Contents (Elt F)),
    unary main_arg6 main_v201 ((extractStridedSlice S2097152x1 ![0, 0] · slices_S2097152x2_S2097152x1_0_0) : (⟨S2097152x2, .f32⟩ : BufTy).Contents (Elt F) → (⟨S2097152x1, .f32⟩ : BufTy).Contents (Elt F)),
    reshape main_v201 main_v202 rfl shapeCasts_S2097152x1_S2097152,
    nullary main_cst_56 (constant S_ .f32 0x3DCCCCCD#32),
    unary main_cst_56 main_v203 (broadcastInDim S2097152 ![] bcast_S_S2097152 : (⟨S_, .f32⟩ : BufTy).Contents (Elt F) → (⟨S2097152, .f32⟩ : BufTy).Contents (Elt F)),
    binary main_v202 main_v203 main_v204 (mulf : (⟨S2097152, .f32⟩ : BufTy).Contents (Elt F) → (⟨S2097152, .f32⟩ : BufTy).Contents (Elt F) → (⟨S2097152, .f32⟩ : BufTy).Contents (Elt F)),
    nullary main_cst_57 (constant S_ .f32 0x3F800000#32),
    unary main_cst_57 main_v205 (broadcastInDim S2097152 ![] bcast_S_S2097152 : (⟨S_, .f32⟩ : BufTy).Contents (Elt F) → (⟨S2097152, .f32⟩ : BufTy).Contents (Elt F)),
    binary main_v205 main_v8 main_v206 (subf : (⟨S2097152, .f32⟩ : BufTy).Contents (Elt F) → (⟨S2097152, .f32⟩ : BufTy).Contents (Elt F) → (⟨S2097152, .f32⟩ : BufTy).Contents (Elt F)),
    binary main_v204 main_v206 main_v207 (mulf : (⟨S2097152, .f32⟩ : BufTy).Contents (Elt F) → (⟨S2097152, .f32⟩ : BufTy).Contents (Elt F) → (⟨S2097152, .f32⟩ : BufTy).Contents (Elt F)),
    unary main_arg6 main_v208 ((extractStridedSlice S2097152x1 ![0, 1] · slices_S2097152x2_S2097152x1_0_1) : (⟨S2097152x2, .f32⟩ : BufTy).Contents (Elt F) → (⟨S2097152x1, .f32⟩ : BufTy).Contents (Elt F)),
    reshape main_v208 main_v209 rfl shapeCasts_S2097152x1_S2097152,
    binary main_v207 main_v209 main_v210 (mulf : (⟨S2097152, .f32⟩ : BufTy).Contents (Elt F) → (⟨S2097152, .f32⟩ : BufTy).Contents (Elt F) → (⟨S2097152, .f32⟩ : BufTy).Contents (Elt F)),
    unary main_arg8 main_v211 ((extractStridedSlice S2097152x1 ![0, 0] · slices_S2097152x2_S2097152x1_0_0) : (⟨S2097152x2, .f32⟩ : BufTy).Contents (Elt F) → (⟨S2097152x1, .f32⟩ : BufTy).Contents (Elt F)),
    reshape main_v211 main_v212 rfl shapeCasts_S2097152x1_S2097152,
    binary main_v8 main_v212 main_v213 (mulf : (⟨S2097152, .f32⟩ : BufTy).Contents (Elt F) → (⟨S2097152, .f32⟩ : BufTy).Contents (Elt F) → (⟨S2097152, .f32⟩ : BufTy).Contents (Elt F)),
    binary main_v210 main_v213 main_v214 (addf : (⟨S2097152, .f32⟩ : BufTy).Contents (Elt F) → (⟨S2097152, .f32⟩ : BufTy).Contents (Elt F) → (⟨S2097152, .f32⟩ : BufTy).Contents (Elt F)),
    unary main_v214 main_v215 (broadcastInDim S2097152x1 ![0] bcast_S2097152_S2097152x1_0 : (⟨S2097152, .f32⟩ : BufTy).Contents (Elt F) → (⟨S2097152x1, .f32⟩ : BufTy).Contents (Elt F)),
    unary main_arg6 main_v216 ((extractStridedSlice S2097152x1 ![0, 0] · slices_S2097152x2_S2097152x1_0_0) : (⟨S2097152x2, .f32⟩ : BufTy).Contents (Elt F) → (⟨S2097152x1, .f32⟩ : BufTy).Contents (Elt F)),
    reshape main_v216 main_v217 rfl shapeCasts_S2097152x1_S2097152,
    nullary main_cst_58 (constant S_ .f32 0x3DCCCCCD#32),
    unary main_cst_58 main_v218 (broadcastInDim S2097152 ![] bcast_S_S2097152 : (⟨S_, .f32⟩ : BufTy).Contents (Elt F) → (⟨S2097152, .f32⟩ : BufTy).Contents (Elt F)),
    binary main_v217 main_v218 main_v219 (mulf : (⟨S2097152, .f32⟩ : BufTy).Contents (Elt F) → (⟨S2097152, .f32⟩ : BufTy).Contents (Elt F) → (⟨S2097152, .f32⟩ : BufTy).Contents (Elt F)),
    nullary main_cst_59 (constant S_ .f32 0x3F800000#32),
    unary main_cst_59 main_v220 (broadcastInDim S2097152 ![] bcast_S_S2097152 : (⟨S_, .f32⟩ : BufTy).Contents (Elt F) → (⟨S2097152, .f32⟩ : BufTy).Contents (Elt F)),
    binary main_v220 main_v8 main_v221 (subf : (⟨S2097152, .f32⟩ : BufTy).Contents (Elt F) → (⟨S2097152, .f32⟩ : BufTy).Contents (Elt F) → (⟨S2097152, .f32⟩ : BufTy).Contents (Elt F)),
    binary main_v219 main_v221 main_v222 (mulf : (⟨S2097152, .f32⟩ : BufTy).Contents (Elt F) → (⟨S2097152, .f32⟩ : BufTy).Contents (Elt F) → (⟨S2097152, .f32⟩ : BufTy).Contents (Elt F)),
    unary main_arg6 main_v223 ((extractStridedSlice S2097152x1 ![0, 1] · slices_S2097152x2_S2097152x1_0_1) : (⟨S2097152x2, .f32⟩ : BufTy).Contents (Elt F) → (⟨S2097152x1, .f32⟩ : BufTy).Contents (Elt F)),
    reshape main_v223 main_v224 rfl shapeCasts_S2097152x1_S2097152,
    nullary main_cst_60 (constant S_ .f32 0x3F800000#32),
    unary main_cst_60 main_v225 (broadcastInDim S2097152 ![] bcast_S_S2097152 : (⟨S_, .f32⟩ : BufTy).Contents (Elt F) → (⟨S2097152, .f32⟩ : BufTy).Contents (Elt F)),
    binary main_v225 main_v224 main_v226 (subf : (⟨S2097152, .f32⟩ : BufTy).Contents (Elt F) → (⟨S2097152, .f32⟩ : BufTy).Contents (Elt F) → (⟨S2097152, .f32⟩ : BufTy).Contents (Elt F)),
    binary main_v222 main_v226 main_v227 (mulf : (⟨S2097152, .f32⟩ : BufTy).Contents (Elt F) → (⟨S2097152, .f32⟩ : BufTy).Contents (Elt F) → (⟨S2097152, .f32⟩ : BufTy).Contents (Elt F)),
    unary main_v227 main_v228 (broadcastInDim S2097152x1 ![0] bcast_S2097152_S2097152x1_0 : (⟨S2097152, .f32⟩ : BufTy).Contents (Elt F) → (⟨S2097152x1, .f32⟩ : BufTy).Contents (Elt F)),
    unary main_arg7 main_v229 ((extractStridedSlice S2097152x1 ![0, 0] · slices_S2097152x2_S2097152x1_0_0) : (⟨S2097152x2, .f32⟩ : BufTy).Contents (Elt F) → (⟨S2097152x1, .f32⟩ : BufTy).Contents (Elt F)),
    reshape main_v229 main_v230 rfl shapeCasts_S2097152x1_S2097152,
    nullary main_cst_61 (constant S_ .f32 0x3F800000#32),
    unary main_cst_61 main_v231 (broadcastInDim S2097152 ![] bcast_S_S2097152 : (⟨S_, .f32⟩ : BufTy).Contents (Elt F) → (⟨S2097152, .f32⟩ : BufTy).Contents (Elt F)),
    binary main_v231 main_v8 main_v232 (subf : (⟨S2097152, .f32⟩ : BufTy).Contents (Elt F) → (⟨S2097152, .f32⟩ : BufTy).Contents (Elt F) → (⟨S2097152, .f32⟩ : BufTy).Contents (Elt F)),
    binary main_v230 main_v232 main_v233 (mulf : (⟨S2097152, .f32⟩ : BufTy).Contents (Elt F) → (⟨S2097152, .f32⟩ : BufTy).Contents (Elt F) → (⟨S2097152, .f32⟩ : BufTy).Contents (Elt F)),
    unary main_arg7 main_v234 ((extractStridedSlice S2097152x1 ![0, 1] · slices_S2097152x2_S2097152x1_0_1) : (⟨S2097152x2, .f32⟩ : BufTy).Contents (Elt F) → (⟨S2097152x1, .f32⟩ : BufTy).Contents (Elt F)),
    reshape main_v234 main_v235 rfl shapeCasts_S2097152x1_S2097152,
    binary main_v233 main_v235 main_v236 (mulf : (⟨S2097152, .f32⟩ : BufTy).Contents (Elt F) → (⟨S2097152, .f32⟩ : BufTy).Contents (Elt F) → (⟨S2097152, .f32⟩ : BufTy).Contents (Elt F)),
    unary main_v236 main_v237 (broadcastInDim S2097152x1 ![0] bcast_S2097152_S2097152x1_0 : (⟨S2097152, .f32⟩ : BufTy).Contents (Elt F) → (⟨S2097152x1, .f32⟩ : BufTy).Contents (Elt F)),
    unary main_arg7 main_v238 ((extractStridedSlice S2097152x1 ![0, 0] · slices_S2097152x2_S2097152x1_0_0) : (⟨S2097152x2, .f32⟩ : BufTy).Contents (Elt F) → (⟨S2097152x1, .f32⟩ : BufTy).Contents (Elt F)),
    reshape main_v238 main_v239 rfl shapeCasts_S2097152x1_S2097152,
    nullary main_cst_62 (constant S_ .f32 0x3F800000#32),
    unary main_cst_62 main_v240 (broadcastInDim S2097152 ![] bcast_S_S2097152 : (⟨S_, .f32⟩ : BufTy).Contents (Elt F) → (⟨S2097152, .f32⟩ : BufTy).Contents (Elt F)),
    binary main_v240 main_v8 main_v241 (subf : (⟨S2097152, .f32⟩ : BufTy).Contents (Elt F) → (⟨S2097152, .f32⟩ : BufTy).Contents (Elt F) → (⟨S2097152, .f32⟩ : BufTy).Contents (Elt F)),
    binary main_v239 main_v241 main_v242 (mulf : (⟨S2097152, .f32⟩ : BufTy).Contents (Elt F) → (⟨S2097152, .f32⟩ : BufTy).Contents (Elt F) → (⟨S2097152, .f32⟩ : BufTy).Contents (Elt F)),
    unary main_arg7 main_v243 ((extractStridedSlice S2097152x1 ![0, 1] · slices_S2097152x2_S2097152x1_0_1) : (⟨S2097152x2, .f32⟩ : BufTy).Contents (Elt F) → (⟨S2097152x1, .f32⟩ : BufTy).Contents (Elt F)),
    reshape main_v243 main_v244 rfl shapeCasts_S2097152x1_S2097152,
    nullary main_cst_63 (constant S_ .f32 0x3F800000#32),
    unary main_cst_63 main_v245 (broadcastInDim S2097152 ![] bcast_S_S2097152 : (⟨S_, .f32⟩ : BufTy).Contents (Elt F) → (⟨S2097152, .f32⟩ : BufTy).Contents (Elt F)),
    binary main_v245 main_v244 main_v246 (subf : (⟨S2097152, .f32⟩ : BufTy).Contents (Elt F) → (⟨S2097152, .f32⟩ : BufTy).Contents (Elt F) → (⟨S2097152, .f32⟩ : BufTy).Contents (Elt F)),
    binary main_v242 main_v246 main_v247 (mulf : (⟨S2097152, .f32⟩ : BufTy).Contents (Elt F) → (⟨S2097152, .f32⟩ : BufTy).Contents (Elt F) → (⟨S2097152, .f32⟩ : BufTy).Contents (Elt F)),
    unary main_v247 main_v248 (broadcastInDim S2097152x1 ![0] bcast_S2097152_S2097152x1_0 : (⟨S2097152, .f32⟩ : BufTy).Contents (Elt F) → (⟨S2097152x1, .f32⟩ : BufTy).Contents (Elt F)),
    unary main_arg8 main_v249 ((extractStridedSlice S2097152x1 ![0, 1] · slices_S2097152x2_S2097152x1_0_1) : (⟨S2097152x2, .f32⟩ : BufTy).Contents (Elt F) → (⟨S2097152x1, .f32⟩ : BufTy).Contents (Elt F)),
    reshape main_v249 main_v250 rfl shapeCasts_S2097152x1_S2097152,
    nullary main_cst_64 (constant S_ .f32 0x3D800000#32),
    unary main_cst_64 main_v251 (broadcastInDim S2097152 ![] bcast_S_S2097152 : (⟨S_, .f32⟩ : BufTy).Contents (Elt F) → (⟨S2097152, .f32⟩ : BufTy).Contents (Elt F)),
    binary main_v251 main_v250 main_v252 (mulf : (⟨S2097152, .f32⟩ : BufTy).Contents (Elt F) → (⟨S2097152, .f32⟩ : BufTy).Contents (Elt F) → (⟨S2097152, .f32⟩ : BufTy).Contents (Elt F)),
    unary main_v252 main_v253 (broadcastInDim S2097152x1 ![0] bcast_S2097152_S2097152x1_0 : (⟨S2097152, .f32⟩ : BufTy).Contents (Elt F) → (⟨S2097152x1, .f32⟩ : BufTy).Contents (Elt F)),
    unary main_v200 main_v254 (broadcastInDim S2097152x1 ![0] bcast_S2097152_S2097152x1_0 : (⟨S2097152, .f32⟩ : BufTy).Contents (Elt F) → (⟨S2097152x1, .f32⟩ : BufTy).Contents (Elt F)),
    unary main_v254 main_v255 (broadcastInDim S2097152x3 ![0, 1] bcast_S2097152x1_S2097152x3_0_1 : (⟨S2097152x1, .f32⟩ : BufTy).Contents (Elt F) → (⟨S2097152x3, .f32⟩ : BufTy).Contents (Elt F)),
    binary main_v195 main_v255 main_v256 (mulf : (⟨S2097152x3, .f32⟩ : BufTy).Contents (Elt F) → (⟨S2097152x3, .f32⟩ : BufTy).Contents (Elt F) → (⟨S2097152x3, .f32⟩ : BufTy).Contents (Elt F)) ]
/-- The references the operations of the chunk R3b write, in order. -/
abbrev R3bw : List (Ref sig .tc) :=
  [main_cst_55, main_v196, main_v197, main_v198, main_v199, main_v200, main_v201, main_v202, main_cst_56, main_v203, main_v204, main_cst_57, main_v205, main_v206, main_v207, main_v208, main_v209, main_v210, main_v211, main_v212, main_v213, main_v214, main_v215, main_v216, main_v217, main_cst_58, main_v218, main_v219, main_cst_59, main_v220, main_v221, main_v222, main_v223, main_v224, main_cst_60, main_v225, main_v226, main_v227, main_v228, main_v229, main_v230, main_cst_61, main_v231, main_v232, main_v233, main_v234, main_v235, main_v236, main_v237, main_v238, main_v239, main_cst_62, main_v240, main_v241, main_v242, main_v243, main_v244, main_cst_63, main_v245, main_v246, main_v247, main_v248, main_v249, main_v250, main_cst_64, main_v251, main_v252, main_v253, main_v254, main_v255, main_v256]

set_option maxHeartbeats 40000000 in
/-- Operations 349 to 497 of the program, in order (149 operations). -/
abbrev R4 : List (HloOp τ sig (Elt F)) :=
  [ unary main_v47 main_v257 ((extractStridedSlice S2097152x1 ![0, 0] · slices_S2097152x2_S2097152x1_0_0) : (⟨S2097152x2, .f32⟩ : BufTy).Contents (Elt F) → (⟨S2097152x1, .f32⟩ : BufTy).Contents (Elt F)),
    reshape main_v257 main_v258 rfl shapeCasts_S2097152x1_S2097152,
    nullary main_cst_65 (constant S_ .f32 0x00000000#32),
    nullary main_cst_66 (constant S_ .f32 0x3F7FFFEF#32),
    TRef.unary (TRef.of (T := ⟨S_, .f32⟩) main_cst_65) (TRef.of (T := ⟨S_, .f32⟩) main_call8_v0) id,
    TRef.unary (TRef.of (T := ⟨S_, .f32⟩) main_call8_v0) (TRef.of (T := ⟨S2097152, .f32⟩) main_call8_v1) (broadcastInDim S2097152 ![] bcast_S_S2097152),
    TRef.binary (TRef.of (T := ⟨S2097152, .f32⟩) main_call8_v1) (TRef.of (T := ⟨S2097152, .f32⟩) main_v258) (TRef.of (T := ⟨S2097152, .f32⟩) main_call8_v2) maximumf,
    TRef.unary (TRef.of (T := ⟨S_, .f32⟩) main_cst_66) (TRef.of (T := ⟨S_, .f32⟩) main_call8_v3) id,
    TRef.unary (TRef.of (T := ⟨S_, .f32⟩) main_call8_v3) (TRef.of (T := ⟨S2097152, .f32⟩) main_call8_v4) (broadcastInDim S2097152 ![] bcast_S_S2097152),
    TRef.binary (TRef.of (T := ⟨S2097152, .f32⟩) main_call8_v4) (TRef.of (T := ⟨S2097152, .f32⟩) main_call8_v2) (TRef.of (T := ⟨S2097152, .f32⟩) main_v259) minimumf,
    nullary main_cst_67 (constant S_ .f32 0x423C0000#32),
    unary main_cst_67 main_v260 (broadcastInDim S2097152 ![] bcast_S_S2097152 : (⟨S_, .f32⟩ : BufTy).Contents (Elt F) → (⟨S2097152, .f32⟩ : BufTy).Contents (Elt F)),
    binary main_v259 main_v260 main_v261 (mulf : (⟨S2097152, .f32⟩ : BufTy).Contents (Elt F) → (⟨S2097152, .f32⟩ : BufTy).Contents (Elt F) → (⟨S2097152, .f32⟩ : BufTy).Contents (Elt F)),
    unary main_v47 main_v262 ((extractStridedSlice S2097152x1 ![0, 1] · slices_S2097152x2_S2097152x1_0_1) : (⟨S2097152x2, .f32⟩ : BufTy).Contents (Elt F) → (⟨S2097152x1, .f32⟩ : BufTy).Contents (Elt F)),
    reshape main_v262 main_v263 rfl shapeCasts_S2097152x1_S2097152,
    nullary main_cst_68 (constant S_ .f32 0x00000000#32),
    nullary main_cst_69 (constant S_ .f32 0x3F7FFFEF#32),
    TRef.unary (TRef.of (T := ⟨S_, .f32⟩) main_cst_68) (TRef.of (T := ⟨S_, .f32⟩) main_call9_v0) id,
    TRef.unary (TRef.of (T := ⟨S_, .f32⟩) main_call9_v0) (TRef.of (T := ⟨S2097152, .f32⟩) main_call9_v1) (broadcastInDim S2097152 ![] bcast_S_S2097152),
    TRef.binary (TRef.of (T := ⟨S2097152, .f32⟩) main_call9_v1) (TRef.of (T := ⟨S2097152, .f32⟩) main_v263) (TRef.of (T := ⟨S2097152, .f32⟩) main_call9_v2) maximumf,
    TRef.unary (TRef.of (T := ⟨S_, .f32⟩) main_cst_69) (TRef.of (T := ⟨S_, .f32⟩) main_call9_v3) id,
    TRef.unary (TRef.of (T := ⟨S_, .f32⟩) main_call9_v3) (TRef.of (T := ⟨S2097152, .f32⟩) main_call9_v4) (broadcastInDim S2097152 ![] bcast_S_S2097152),
    TRef.binary (TRef.of (T := ⟨S2097152, .f32⟩) main_call9_v4) (TRef.of (T := ⟨S2097152, .f32⟩) main_call9_v2) (TRef.of (T := ⟨S2097152, .f32⟩) main_v264) minimumf,
    nullary main_cst_70 (constant S_ .f32 0x423C0000#32),
    unary main_cst_70 main_v265 (broadcastInDim S2097152 ![] bcast_S_S2097152 : (⟨S_, .f32⟩ : BufTy).Contents (Elt F) → (⟨S2097152, .f32⟩ : BufTy).Contents (Elt F)),
    binary main_v264 main_v265 main_v266 (mulf : (⟨S2097152, .f32⟩ : BufTy).Contents (Elt F) → (⟨S2097152, .f32⟩ : BufTy).Contents (Elt F) → (⟨S2097152, .f32⟩ : BufTy).Contents (Elt F)),
    unary main_v261 main_v267 (Host.floor : (⟨S2097152, .f32⟩ : BufTy).Contents (Elt F) → (⟨S2097152, .f32⟩ : BufTy).Contents (Elt F)),
    unary main_v266 main_v268 (Host.floor : (⟨S2097152, .f32⟩ : BufTy).Contents (Elt F) → (⟨S2097152, .f32⟩ : BufTy).Contents (Elt F)),
    binary main_v261 main_v267 main_v269 (subf : (⟨S2097152, .f32⟩ : BufTy).Contents (Elt F) → (⟨S2097152, .f32⟩ : BufTy).Contents (Elt F) → (⟨S2097152, .f32⟩ : BufTy).Contents (Elt F)),
    unary main_v269 main_v270 (broadcastInDim S2097152x1 ![0] bcast_S2097152_S2097152x1_0 : (⟨S2097152, .f32⟩ : BufTy).Contents (Elt F) → (⟨S2097152x1, .f32⟩ : BufTy).Contents (Elt F)),
    binary main_v266 main_v268 main_v271 (subf : (⟨S2097152, .f32⟩ : BufTy).Contents (Elt F) → (⟨S2097152, .f32⟩ : BufTy).Contents (Elt F) → (⟨S2097152, .f32⟩ : BufTy).Contents (Elt F)),
    unary main_v271 main_v272 (broadcastInDim S2097152x1 ![0] bcast_S2097152_S2097152x1_0 : (⟨S2097152, .f32⟩ : BufTy).Contents (Elt F) → (⟨S2097152x1, .f32⟩ : BufTy).Contents (Elt F)),
    unary main_v267 main_v273 (fptosi 32 : (⟨S2097152, .f32⟩ : BufTy).Contents (Elt F) → (⟨S2097152, .i32⟩ : BufTy).Contents (Elt F)),
    unary main_v268 main_v274 (fptosi 32 : (⟨S2097152, .f32⟩ : BufTy).Contents (Elt F) → (⟨S2097152, .i32⟩ : BufTy).Contents (Elt F)),
    nullary main_c_71 (constantI S_ 32 1#32),
    unary main_c_71 main_v275 (broadcastInDim S2097152 ![] bcast_S_S2097152 : (⟨S_, .i32⟩ : BufTy).Contents (Elt F) → (⟨S2097152, .i32⟩ : BufTy).Contents (Elt F)),
    binary main_v273 main_v275 main_v276 (addi : (⟨S2097152, .i32⟩ : BufTy).Contents (Elt F) → (⟨S2097152, .i32⟩ : BufTy).Contents (Elt F) → (⟨S2097152, .i32⟩ : BufTy).Contents (Elt F)),
    nullary main_c_72 (constantI S_ 32 47#32),
    unary main_c_72 main_v277 (broadcastInDim S2097152 ![] bcast_S_S2097152 : (⟨S_, .i32⟩ : BufTy).Contents (Elt F) → (⟨S2097152, .i32⟩ : BufTy).Contents (Elt F)),
    binary main_v276 main_v277 main_v278 (minsi : (⟨S2097152, .i32⟩ : BufTy).Contents (Elt F) → (⟨S2097152, .i32⟩ : BufTy).Contents (Elt F) → (⟨S2097152, .i32⟩ : BufTy).Contents (Elt F)),
    nullary main_c_73 (constantI S_ 32 1#32),
    unary main_c_73 main_v279 (broadcastInDim S2097152 ![] bcast_S_S2097152 : (⟨S_, .i32⟩ : BufTy).Contents (Elt F) → (⟨S2097152, .i32⟩ : BufTy).Contents (Elt F)),
    binary main_v274 main_v279 main_v280 (addi : (⟨S2097152, .i32⟩ : BufTy).Contents (Elt F) → (⟨S2097152, .i32⟩ : BufTy).Contents (Elt F) → (⟨S2097152, .i32⟩ : BufTy).Contents (Elt F)),
    nullary main_c_74 (constantI S_ 32 47#32),
    unary main_c_74 main_v281 (broadcastInDim S2097152 ![] bcast_S_S2097152 : (⟨S_, .i32⟩ : BufTy).Contents (Elt F) → (⟨S2097152, .i32⟩ : BufTy).Contents (Elt F)),
    binary main_v280 main_v281 main_v282 (minsi : (⟨S2097152, .i32⟩ : BufTy).Contents (Elt F) → (⟨S2097152, .i32⟩ : BufTy).Contents (Elt F) → (⟨S2097152, .i32⟩ : BufTy).Contents (Elt F)),
    nullary main_c_75 (constantI S_ 32 0#32),
    unary main_c_75 main_v283 (broadcastInDim S2097152 ![] bcast_S_S2097152 : (⟨S_, .i32⟩ : BufTy).Contents (Elt F) → (⟨S2097152, .i32⟩ : BufTy).Contents (Elt F)),
    binary main_v273 main_v283 main_v284 (cmpi .slt : (⟨S2097152, .i32⟩ : BufTy).Contents (Elt F) → (⟨S2097152, .i32⟩ : BufTy).Contents (Elt F) → (⟨S2097152, .i1⟩ : BufTy).Contents (Elt F)),
    nullary main_c_76 (constantI S_ 32 48#32),
    unary main_c_76 main_v285 (broadcastInDim S2097152 ![] bcast_S_S2097152 : (⟨S_, .i32⟩ : BufTy).Contents (Elt F) → (⟨S2097152, .i32⟩ : BufTy).Contents (Elt F)),
    binary main_v273 main_v285 main_v286 (addi : (⟨S2097152, .i32⟩ : BufTy).Contents (Elt F) → (⟨S2097152, .i32⟩ : BufTy).Contents (Elt F) → (⟨S2097152, .i32⟩ : BufTy).Contents (Elt F)),
    ternary main_v284 main_v286 main_v273 main_v287 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_77 (constantI S_ 32 0#32),
    unary main_c_77 main_v288 (broadcastInDim S2097152 ![] bcast_S_S2097152 : (⟨S_, .i32⟩ : BufTy).Contents (Elt F) → (⟨S2097152, .i32⟩ : BufTy).Contents (Elt F)),
    binary main_v274 main_v288 main_v289 (cmpi .slt : (⟨S2097152, .i32⟩ : BufTy).Contents (Elt F) → (⟨S2097152, .i32⟩ : BufTy).Contents (Elt F) → (⟨S2097152, .i1⟩ : BufTy).Contents (Elt F)),
    nullary main_c_78 (constantI S_ 32 48#32),
    unary main_c_78 main_v290 (broadcastInDim S2097152 ![] bcast_S_S2097152 : (⟨S_, .i32⟩ : BufTy).Contents (Elt F) → (⟨S2097152, .i32⟩ : BufTy).Contents (Elt F)),
    binary main_v274 main_v290 main_v291 (addi : (⟨S2097152, .i32⟩ : BufTy).Contents (Elt F) → (⟨S2097152, .i32⟩ : BufTy).Contents (Elt F) → (⟨S2097152, .i32⟩ : BufTy).Contents (Elt F)),
    ternary main_v289 main_v291 main_v274 main_v292 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v287 main_v293 (broadcastInDim S2097152x1 ![0] bcast_S2097152_S2097152x1_0 : (⟨S2097152, .i32⟩ : BufTy).Contents (Elt F) → (⟨S2097152x1, .i32⟩ : BufTy).Contents (Elt F)),
    unary main_v292 main_v294 (broadcastInDim S2097152x1 ![0] bcast_S2097152_S2097152x1_0 : (⟨S2097152, .i32⟩ : BufTy).Contents (Elt F) → (⟨S2097152x1, .i32⟩ : BufTy).Contents (Elt F)),
    binary main_v293 main_v294 main_v295 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_arg12 main_v295 main_v296 ((fun x i => Host.gather gather_S48x48x3_S2097152x2_S2097152x3_1_01_n_n_01_1_113 x i) : (⟨S48x48x3, .f32⟩ : BufTy).Contents (Elt F) → (⟨S2097152x2, .i32⟩ : BufTy).Contents (Elt F) → (⟨S2097152x3, .f32⟩ : BufTy).Contents (Elt F)),
    nullary main_cst_79 (constant S_ .f32 0x3F800000#32),
    unary main_cst_79 main_v297 (broadcastInDim S2097152x1 ![] bcast_S_S2097152x1 : (⟨S_, .f32⟩ : BufTy).Contents (Elt F) → (⟨S2097152x1, .f32⟩ : BufTy).Contents (Elt F)),
    binary main_v297 main_v270 main_v298 (subf : (⟨S2097152x1, .f32⟩ : BufTy).Contents (Elt F) → (⟨S2097152x1, .f32⟩ : BufTy).Contents (Elt F) → (⟨S2097152x1, .f32⟩ : BufTy).Contents (Elt F)),
    unary main_v298 main_v299 (broadcastInDim S2097152x3 ![0, 1] bcast_S2097152x1_S2097152x3_0_1 : (⟨S2097152x1, .f32⟩ : BufTy).Contents (Elt F) → (⟨S2097152x3, .f32⟩ : BufTy).Contents (Elt F)),
    binary main_v296 main_v299 main_v300 (mulf : (⟨S2097152x3, .f32⟩ : BufTy).Contents (Elt F) → (⟨S2097152x3, .f32⟩ : BufTy).Contents (Elt F) → (⟨S2097152x3, .f32⟩ : BufTy).Contents (Elt F)),
    nullary main_cst_80 (constant S_ .f32 0x3F800000#32),
    unary main_cst_80 main_v301 (broadcastInDim S2097152x1 ![] bcast_S_S2097152x1 : (⟨S_, .f32⟩ : BufTy).Contents (Elt F) → (⟨S2097152x1, .f32⟩ : BufTy).Contents (Elt F)),
    binary main_v301 main_v272 main_v302 (subf : (⟨S2097152x1, .f32⟩ : BufTy).Contents (Elt F) → (⟨S2097152x1, .f32⟩ : BufTy).Contents (Elt F) → (⟨S2097152x1, .f32⟩ : BufTy).Contents (Elt F)),
    unary main_v302 main_v303 (broadcastInDim S2097152x3 ![0, 1] bcast_S2097152x1_S2097152x3_0_1 : (⟨S2097152x1, .f32⟩ : BufTy).Contents (Elt F) → (⟨S2097152x3, .f32⟩ : BufTy).Contents (Elt F)),
    binary main_v300 main_v303 main_v304 (mulf : (⟨S2097152x3, .f32⟩ : BufTy).Contents (Elt F) → (⟨S2097152x3, .f32⟩ : BufTy).Contents (Elt F) → (⟨S2097152x3, .f32⟩ : BufTy).Contents (Elt F)),
    nullary main_c_81 (constantI S_ 32 0#32),
    unary main_c_81 main_v305 (broadcastInDim S2097152 ![] bcast_S_S2097152 : (⟨S_, .i32⟩ : BufTy).Contents (Elt F) → (⟨S2097152, .i32⟩ : BufTy).Contents (Elt F)),
    binary main_v278 main_v305 main_v306 (cmpi .slt : (⟨S2097152, .i32⟩ : BufTy).Contents (Elt F) → (⟨S2097152, .i32⟩ : BufTy).Contents (Elt F) → (⟨S2097152, .i1⟩ : BufTy).Contents (Elt F)),
    nullary main_c_82 (constantI S_ 32 48#32),
    unary main_c_82 main_v307 (broadcastInDim S2097152 ![] bcast_S_S2097152 : (⟨S_, .i32⟩ : BufTy).Contents (Elt F) → (⟨S2097152, .i32⟩ : BufTy).Contents (Elt F)),
    binary main_v278 main_v307 main_v308 (addi : (⟨S2097152, .i32⟩ : BufTy).Contents (Elt F) → (⟨S2097152, .i32⟩ : BufTy).Contents (Elt F) → (⟨S2097152, .i32⟩ : BufTy).Contents (Elt F)),
    ternary main_v306 main_v308 main_v278 main_v309 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_83 (constantI S_ 32 0#32),
    unary main_c_83 main_v310 (broadcastInDim S2097152 ![] bcast_S_S2097152 : (⟨S_, .i32⟩ : BufTy).Contents (Elt F) → (⟨S2097152, .i32⟩ : BufTy).Contents (Elt F)),
    binary main_v274 main_v310 main_v311 (cmpi .slt : (⟨S2097152, .i32⟩ : BufTy).Contents (Elt F) → (⟨S2097152, .i32⟩ : BufTy).Contents (Elt F) → (⟨S2097152, .i1⟩ : BufTy).Contents (Elt F)),
    nullary main_c_84 (constantI S_ 32 48#32),
    unary main_c_84 main_v312 (broadcastInDim S2097152 ![] bcast_S_S2097152 : (⟨S_, .i32⟩ : BufTy).Contents (Elt F) → (⟨S2097152, .i32⟩ : BufTy).Contents (Elt F)),
    binary main_v274 main_v312 main_v313 (addi : (⟨S2097152, .i32⟩ : BufTy).Contents (Elt F) → (⟨S2097152, .i32⟩ : BufTy).Contents (Elt F) → (⟨S2097152, .i32⟩ : BufTy).Contents (Elt F)),
    ternary main_v311 main_v313 main_v274 main_v314 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v309 main_v315 (broadcastInDim S2097152x1 ![0] bcast_S2097152_S2097152x1_0 : (⟨S2097152, .i32⟩ : BufTy).Contents (Elt F) → (⟨S2097152x1, .i32⟩ : BufTy).Contents (Elt F)),
    unary main_v314 main_v316 (broadcastInDim S2097152x1 ![0] bcast_S2097152_S2097152x1_0 : (⟨S2097152, .i32⟩ : BufTy).Contents (Elt F) → (⟨S2097152x1, .i32⟩ : BufTy).Contents (Elt F)),
    binary main_v315 main_v316 main_v317 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_arg12 main_v317 main_v318 ((fun x i => Host.gather gather_S48x48x3_S2097152x2_S2097152x3_1_01_n_n_01_1_113 x i) : (⟨S48x48x3, .f32⟩ : BufTy).Contents (Elt F) → (⟨S2097152x2, .i32⟩ : BufTy).Contents (Elt F) → (⟨S2097152x3, .f32⟩ : BufTy).Contents (Elt F)),
    unary main_v270 main_v319 (broadcastInDim S2097152x3 ![0, 1] bcast_S2097152x1_S2097152x3_0_1 : (⟨S2097152x1, .f32⟩ : BufTy).Contents (Elt F) → (⟨S2097152x3, .f32⟩ : BufTy).Contents (Elt F)),
    binary main_v318 main_v319 main_v320 (mulf : (⟨S2097152x3, .f32⟩ : BufTy).Contents (Elt F) → (⟨S2097152x3, .f32⟩ : BufTy).Contents (Elt F) → (⟨S2097152x3, .f32⟩ : BufTy).Contents (Elt F)),
    nullary main_cst_85 (constant S_ .f32 0x3F800000#32),
    unary main_cst_85 main_v321 (broadcastInDim S2097152x1 ![] bcast_S_S2097152x1 : (⟨S_, .f32⟩ : BufTy).Contents (Elt F) → (⟨S2097152x1, .f32⟩ : BufTy).Contents (Elt F)),
    binary main_v321 main_v272 main_v322 (subf : (⟨S2097152x1, .f32⟩ : BufTy).Contents (Elt F) → (⟨S2097152x1, .f32⟩ : BufTy).Contents (Elt F) → (⟨S2097152x1, .f32⟩ : BufTy).Contents (Elt F)),
    unary main_v322 main_v323 (broadcastInDim S2097152x3 ![0, 1] bcast_S2097152x1_S2097152x3_0_1 : (⟨S2097152x1, .f32⟩ : BufTy).Contents (Elt F) → (⟨S2097152x3, .f32⟩ : BufTy).Contents (Elt F)),
    binary main_v320 main_v323 main_v324 (mulf : (⟨S2097152x3, .f32⟩ : BufTy).Contents (Elt F) → (⟨S2097152x3, .f32⟩ : BufTy).Contents (Elt F) → (⟨S2097152x3, .f32⟩ : BufTy).Contents (Elt F)),
    binary main_v304 main_v324 main_v325 (addf : (⟨S2097152x3, .f32⟩ : BufTy).Contents (Elt F) → (⟨S2097152x3, .f32⟩ : BufTy).Contents (Elt F) → (⟨S2097152x3, .f32⟩ : BufTy).Contents (Elt F)),
    nullary main_c_86 (constantI S_ 32 0#32),
    unary main_c_86 main_v326 (broadcastInDim S2097152 ![] bcast_S_S2097152 : (⟨S_, .i32⟩ : BufTy).Contents (Elt F) → (⟨S2097152, .i32⟩ : BufTy).Contents (Elt F)),
    binary main_v273 main_v326 main_v327 (cmpi .slt : (⟨S2097152, .i32⟩ : BufTy).Contents (Elt F) → (⟨S2097152, .i32⟩ : BufTy).Contents (Elt F) → (⟨S2097152, .i1⟩ : BufTy).Contents (Elt F)),
    nullary main_c_87 (constantI S_ 32 48#32),
    unary main_c_87 main_v328 (broadcastInDim S2097152 ![] bcast_S_S2097152 : (⟨S_, .i32⟩ : BufTy).Contents (Elt F) → (⟨S2097152, .i32⟩ : BufTy).Contents (Elt F)),
    binary main_v273 main_v328 main_v329 (addi : (⟨S2097152, .i32⟩ : BufTy).Contents (Elt F) → (⟨S2097152, .i32⟩ : BufTy).Contents (Elt F) → (⟨S2097152, .i32⟩ : BufTy).Contents (Elt F)),
    ternary main_v327 main_v329 main_v273 main_v330 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_88 (constantI S_ 32 0#32),
    unary main_c_88 main_v331 (broadcastInDim S2097152 ![] bcast_S_S2097152 : (⟨S_, .i32⟩ : BufTy).Contents (Elt F) → (⟨S2097152, .i32⟩ : BufTy).Contents (Elt F)),
    binary main_v282 main_v331 main_v332 (cmpi .slt : (⟨S2097152, .i32⟩ : BufTy).Contents (Elt F) → (⟨S2097152, .i32⟩ : BufTy).Contents (Elt F) → (⟨S2097152, .i1⟩ : BufTy).Contents (Elt F)),
    nullary main_c_89 (constantI S_ 32 48#32),
    unary main_c_89 main_v333 (broadcastInDim S2097152 ![] bcast_S_S2097152 : (⟨S_, .i32⟩ : BufTy).Contents (Elt F) → (⟨S2097152, .i32⟩ : BufTy).Contents (Elt F)),
    binary main_v282 main_v333 main_v334 (addi : (⟨S2097152, .i32⟩ : BufTy).Contents (Elt F) → (⟨S2097152, .i32⟩ : BufTy).Contents (Elt F) → (⟨S2097152, .i32⟩ : BufTy).Contents (Elt F)),
    ternary main_v332 main_v334 main_v282 main_v335 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v330 main_v336 (broadcastInDim S2097152x1 ![0] bcast_S2097152_S2097152x1_0 : (⟨S2097152, .i32⟩ : BufTy).Contents (Elt F) → (⟨S2097152x1, .i32⟩ : BufTy).Contents (Elt F)),
    unary main_v335 main_v337 (broadcastInDim S2097152x1 ![0] bcast_S2097152_S2097152x1_0 : (⟨S2097152, .i32⟩ : BufTy).Contents (Elt F) → (⟨S2097152x1, .i32⟩ : BufTy).Contents (Elt F)),
    binary main_v336 main_v337 main_v338 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_arg12 main_v338 main_v339 ((fun x i => Host.gather gather_S48x48x3_S2097152x2_S2097152x3_1_01_n_n_01_1_113 x i) : (⟨S48x48x3, .f32⟩ : BufTy).Contents (Elt F) → (⟨S2097152x2, .i32⟩ : BufTy).Contents (Elt F) → (⟨S2097152x3, .f32⟩ : BufTy).Contents (Elt F)),
    nullary main_cst_90 (constant S_ .f32 0x3F800000#32),
    unary main_cst_90 main_v340 (broadcastInDim S2097152x1 ![] bcast_S_S2097152x1 : (⟨S_, .f32⟩ : BufTy).Contents (Elt F) → (⟨S2097152x1, .f32⟩ : BufTy).Contents (Elt F)),
    binary main_v340 main_v270 main_v341 (subf : (⟨S2097152x1, .f32⟩ : BufTy).Contents (Elt F) → (⟨S2097152x1, .f32⟩ : BufTy).Contents (Elt F) → (⟨S2097152x1, .f32⟩ : BufTy).Contents (Elt F)),
    unary main_v341 main_v342 (broadcastInDim S2097152x3 ![0, 1] bcast_S2097152x1_S2097152x3_0_1 : (⟨S2097152x1, .f32⟩ : BufTy).Contents (Elt F) → (⟨S2097152x3, .f32⟩ : BufTy).Contents (Elt F)),
    binary main_v339 main_v342 main_v343 (mulf : (⟨S2097152x3, .f32⟩ : BufTy).Contents (Elt F) → (⟨S2097152x3, .f32⟩ : BufTy).Contents (Elt F) → (⟨S2097152x3, .f32⟩ : BufTy).Contents (Elt F)),
    unary main_v272 main_v344 (broadcastInDim S2097152x3 ![0, 1] bcast_S2097152x1_S2097152x3_0_1 : (⟨S2097152x1, .f32⟩ : BufTy).Contents (Elt F) → (⟨S2097152x3, .f32⟩ : BufTy).Contents (Elt F)),
    binary main_v343 main_v344 main_v345 (mulf : (⟨S2097152x3, .f32⟩ : BufTy).Contents (Elt F) → (⟨S2097152x3, .f32⟩ : BufTy).Contents (Elt F) → (⟨S2097152x3, .f32⟩ : BufTy).Contents (Elt F)),
    binary main_v325 main_v345 main_v346 (addf : (⟨S2097152x3, .f32⟩ : BufTy).Contents (Elt F) → (⟨S2097152x3, .f32⟩ : BufTy).Contents (Elt F) → (⟨S2097152x3, .f32⟩ : BufTy).Contents (Elt F)),
    nullary main_c_91 (constantI S_ 32 0#32),
    unary main_c_91 main_v347 (broadcastInDim S2097152 ![] bcast_S_S2097152 : (⟨S_, .i32⟩ : BufTy).Contents (Elt F) → (⟨S2097152, .i32⟩ : BufTy).Contents (Elt F)),
    binary main_v278 main_v347 main_v348 (cmpi .slt : (⟨S2097152, .i32⟩ : BufTy).Contents (Elt F) → (⟨S2097152, .i32⟩ : BufTy).Contents (Elt F) → (⟨S2097152, .i1⟩ : BufTy).Contents (Elt F)),
    nullary main_c_92 (constantI S_ 32 48#32),
    unary main_c_92 main_v349 (broadcastInDim S2097152 ![] bcast_S_S2097152 : (⟨S_, .i32⟩ : BufTy).Contents (Elt F) → (⟨S2097152, .i32⟩ : BufTy).Contents (Elt F)),
    binary main_v278 main_v349 main_v350 (addi : (⟨S2097152, .i32⟩ : BufTy).Contents (Elt F) → (⟨S2097152, .i32⟩ : BufTy).Contents (Elt F) → (⟨S2097152, .i32⟩ : BufTy).Contents (Elt F)),
    ternary main_v348 main_v350 main_v278 main_v351 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_93 (constantI S_ 32 0#32),
    unary main_c_93 main_v352 (broadcastInDim S2097152 ![] bcast_S_S2097152 : (⟨S_, .i32⟩ : BufTy).Contents (Elt F) → (⟨S2097152, .i32⟩ : BufTy).Contents (Elt F)),
    binary main_v282 main_v352 main_v353 (cmpi .slt : (⟨S2097152, .i32⟩ : BufTy).Contents (Elt F) → (⟨S2097152, .i32⟩ : BufTy).Contents (Elt F) → (⟨S2097152, .i1⟩ : BufTy).Contents (Elt F)),
    nullary main_c_94 (constantI S_ 32 48#32),
    unary main_c_94 main_v354 (broadcastInDim S2097152 ![] bcast_S_S2097152 : (⟨S_, .i32⟩ : BufTy).Contents (Elt F) → (⟨S2097152, .i32⟩ : BufTy).Contents (Elt F)),
    binary main_v282 main_v354 main_v355 (addi : (⟨S2097152, .i32⟩ : BufTy).Contents (Elt F) → (⟨S2097152, .i32⟩ : BufTy).Contents (Elt F) → (⟨S2097152, .i32⟩ : BufTy).Contents (Elt F)),
    ternary main_v353 main_v355 main_v282 main_v356 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v351 main_v357 (broadcastInDim S2097152x1 ![0] bcast_S2097152_S2097152x1_0 : (⟨S2097152, .i32⟩ : BufTy).Contents (Elt F) → (⟨S2097152x1, .i32⟩ : BufTy).Contents (Elt F)),
    unary main_v356 main_v358 (broadcastInDim S2097152x1 ![0] bcast_S2097152_S2097152x1_0 : (⟨S2097152, .i32⟩ : BufTy).Contents (Elt F) → (⟨S2097152x1, .i32⟩ : BufTy).Contents (Elt F)),
    binary main_v357 main_v358 main_v359 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_arg12 main_v359 main_v360 ((fun x i => Host.gather gather_S48x48x3_S2097152x2_S2097152x3_1_01_n_n_01_1_113 x i) : (⟨S48x48x3, .f32⟩ : BufTy).Contents (Elt F) → (⟨S2097152x2, .i32⟩ : BufTy).Contents (Elt F) → (⟨S2097152x3, .f32⟩ : BufTy).Contents (Elt F)),
    unary main_v270 main_v361 (broadcastInDim S2097152x3 ![0, 1] bcast_S2097152x1_S2097152x3_0_1 : (⟨S2097152x1, .f32⟩ : BufTy).Contents (Elt F) → (⟨S2097152x3, .f32⟩ : BufTy).Contents (Elt F)),
    binary main_v360 main_v361 main_v362 (mulf : (⟨S2097152x3, .f32⟩ : BufTy).Contents (Elt F) → (⟨S2097152x3, .f32⟩ : BufTy).Contents (Elt F) → (⟨S2097152x3, .f32⟩ : BufTy).Contents (Elt F)),
    unary main_v272 main_v363 (broadcastInDim S2097152x3 ![0, 1] bcast_S2097152x1_S2097152x3_0_1 : (⟨S2097152x1, .f32⟩ : BufTy).Contents (Elt F) → (⟨S2097152x3, .f32⟩ : BufTy).Contents (Elt F)),
    binary main_v362 main_v363 main_v364 (mulf : (⟨S2097152x3, .f32⟩ : BufTy).Contents (Elt F) → (⟨S2097152x3, .f32⟩ : BufTy).Contents (Elt F) → (⟨S2097152x3, .f32⟩ : BufTy).Contents (Elt F)),
    binary main_v346 main_v364 main_v365 (addf : (⟨S2097152x3, .f32⟩ : BufTy).Contents (Elt F) → (⟨S2097152x3, .f32⟩ : BufTy).Contents (Elt F) → (⟨S2097152x3, .f32⟩ : BufTy).Contents (Elt F)) ]
/-- The references the operations of the chunk R4 write, in order. -/
abbrev R4w : List (Ref sig .tc) :=
  [main_v257, main_v258, main_cst_65, main_cst_66, main_call8_v0, main_call8_v1, main_call8_v2, main_call8_v3, main_call8_v4, main_v259, main_cst_67, main_v260, main_v261, main_v262, main_v263, main_cst_68, main_cst_69, main_call9_v0, main_call9_v1, main_call9_v2, main_call9_v3, main_call9_v4, main_v264, main_cst_70, main_v265, main_v266, main_v267, main_v268, main_v269, main_v270, main_v271, main_v272, main_v273, main_v274, main_c_71, main_v275, main_v276, main_c_72, main_v277, main_v278, main_c_73, main_v279, main_v280, main_c_74, main_v281, main_v282, main_c_75, main_v283, main_v284, main_c_76, main_v285, main_v286, main_v287, main_c_77, main_v288, main_v289, main_c_78, main_v290, main_v291, main_v292, main_v293, main_v294, main_v295, main_v296, main_cst_79, main_v297, main_v298, main_v299, main_v300, main_cst_80, main_v301, main_v302, main_v303, main_v304, main_c_81, main_v305, main_v306, main_c_82, main_v307, main_v308, main_v309, main_c_83, main_v310, main_v311, main_c_84, main_v312, main_v313, main_v314, main_v315, main_v316, main_v317, main_v318, main_v319, main_v320, main_cst_85, main_v321, main_v322, main_v323, main_v324, main_v325, main_c_86, main_v326, main_v327, main_c_87, main_v328, main_v329, main_v330, main_c_88, main_v331, main_v332, main_c_89, main_v333, main_v334, main_v335, main_v336, main_v337, main_v338, main_v339, main_cst_90, main_v340, main_v341, main_v342, main_v343, main_v344, main_v345, main_v346, main_c_91, main_v347, main_v348, main_c_92, main_v349, main_v350, main_v351, main_c_93, main_v352, main_v353, main_c_94, main_v354, main_v355, main_v356, main_v357, main_v358, main_v359, main_v360, main_v361, main_v362, main_v363, main_v364, main_v365]

set_option maxHeartbeats 40000000 in
/-- Operations 498 to 545 of the program, in order (48 operations). -/
abbrev R5 : List (HloOp τ sig (Elt F)) :=
  [ reshape main_v72 main_v366 rfl shapeCasts_S2097152x1_S2097152,
    nullary main_cst_95 (constant S_ .f32 0x00000000#32),
    nullary main_cst_96 (constant S_ .f32 0x3F7FFFEF#32),
    TRef.unary (TRef.of (T := ⟨S_, .f32⟩) main_cst_95) (TRef.of (T := ⟨S_, .f32⟩) main_call10_v0) id,
    TRef.unary (TRef.of (T := ⟨S_, .f32⟩) main_call10_v0) (TRef.of (T := ⟨S2097152, .f32⟩) main_call10_v1) (broadcastInDim S2097152 ![] bcast_S_S2097152),
    TRef.binary (TRef.of (T := ⟨S2097152, .f32⟩) main_call10_v1) (TRef.of (T := ⟨S2097152, .f32⟩) main_v366) (TRef.of (T := ⟨S2097152, .f32⟩) main_call10_v2) maximumf,
    TRef.unary (TRef.of (T := ⟨S_, .f32⟩) main_cst_96) (TRef.of (T := ⟨S_, .f32⟩) main_call10_v3) id,
    TRef.unary (TRef.of (T := ⟨S_, .f32⟩) main_call10_v3) (TRef.of (T := ⟨S2097152, .f32⟩) main_call10_v4) (broadcastInDim S2097152 ![] bcast_S_S2097152),
    TRef.binary (TRef.of (T := ⟨S2097152, .f32⟩) main_call10_v4) (TRef.of (T := ⟨S2097152, .f32⟩) main_call10_v2) (TRef.of (T := ⟨S2097152, .f32⟩) main_v367) minimumf,
    nullary main_cst_97 (constant S_ .f32 0x42BE0000#32),
    unary main_cst_97 main_v368 (broadcastInDim S2097152 ![] bcast_S_S2097152 : (⟨S_, .f32⟩ : BufTy).Contents (Elt F) → (⟨S2097152, .f32⟩ : BufTy).Contents (Elt F)),
    binary main_v367 main_v368 main_v369 (mulf : (⟨S2097152, .f32⟩ : BufTy).Contents (Elt F) → (⟨S2097152, .f32⟩ : BufTy).Contents (Elt F) → (⟨S2097152, .f32⟩ : BufTy).Contents (Elt F)),
    unary main_v369 main_v370 (Host.floor : (⟨S2097152, .f32⟩ : BufTy).Contents (Elt F) → (⟨S2097152, .f32⟩ : BufTy).Contents (Elt F)),
    binary main_v369 main_v370 main_v371 (subf : (⟨S2097152, .f32⟩ : BufTy).Contents (Elt F) → (⟨S2097152, .f32⟩ : BufTy).Contents (Elt F) → (⟨S2097152, .f32⟩ : BufTy).Contents (Elt F)),
    unary main_v371 main_v372 (broadcastInDim S2097152x1 ![0] bcast_S2097152_S2097152x1_0 : (⟨S2097152, .f32⟩ : BufTy).Contents (Elt F) → (⟨S2097152x1, .f32⟩ : BufTy).Contents (Elt F)),
    unary main_v370 main_v373 (fptosi 32 : (⟨S2097152, .f32⟩ : BufTy).Contents (Elt F) → (⟨S2097152, .i32⟩ : BufTy).Contents (Elt F)),
    nullary main_c_98 (constantI S_ 32 1#32),
    unary main_c_98 main_v374 (broadcastInDim S2097152 ![] bcast_S_S2097152 : (⟨S_, .i32⟩ : BufTy).Contents (Elt F) → (⟨S2097152, .i32⟩ : BufTy).Contents (Elt F)),
    binary main_v373 main_v374 main_v375 (addi : (⟨S2097152, .i32⟩ : BufTy).Contents (Elt F) → (⟨S2097152, .i32⟩ : BufTy).Contents (Elt F) → (⟨S2097152, .i32⟩ : BufTy).Contents (Elt F)),
    nullary main_c_99 (constantI S_ 32 95#32),
    unary main_c_99 main_v376 (broadcastInDim S2097152 ![] bcast_S_S2097152 : (⟨S_, .i32⟩ : BufTy).Contents (Elt F) → (⟨S2097152, .i32⟩ : BufTy).Contents (Elt F)),
    binary main_v375 main_v376 main_v377 (minsi : (⟨S2097152, .i32⟩ : BufTy).Contents (Elt F) → (⟨S2097152, .i32⟩ : BufTy).Contents (Elt F) → (⟨S2097152, .i32⟩ : BufTy).Contents (Elt F)),
    nullary main_c_100 (constantI S_ 32 0#32),
    unary main_c_100 main_v378 (broadcastInDim S2097152 ![] bcast_S_S2097152 : (⟨S_, .i32⟩ : BufTy).Contents (Elt F) → (⟨S2097152, .i32⟩ : BufTy).Contents (Elt F)),
    binary main_v373 main_v378 main_v379 (cmpi .slt : (⟨S2097152, .i32⟩ : BufTy).Contents (Elt F) → (⟨S2097152, .i32⟩ : BufTy).Contents (Elt F) → (⟨S2097152, .i1⟩ : BufTy).Contents (Elt F)),
    nullary main_c_101 (constantI S_ 32 96#32),
    unary main_c_101 main_v380 (broadcastInDim S2097152 ![] bcast_S_S2097152 : (⟨S_, .i32⟩ : BufTy).Contents (Elt F) → (⟨S2097152, .i32⟩ : BufTy).Contents (Elt F)),
    binary main_v373 main_v380 main_v381 (addi : (⟨S2097152, .i32⟩ : BufTy).Contents (Elt F) → (⟨S2097152, .i32⟩ : BufTy).Contents (Elt F) → (⟨S2097152, .i32⟩ : BufTy).Contents (Elt F)),
    ternary main_v379 main_v381 main_v373 main_v382 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v382 main_v383 (broadcastInDim S2097152x1 ![0] bcast_S2097152_S2097152x1_0 : (⟨S2097152, .i32⟩ : BufTy).Contents (Elt F) → (⟨S2097152x1, .i32⟩ : BufTy).Contents (Elt F)),
    binary main_arg13 main_v383 main_v384 ((fun x i => Host.gather gather_S96x2_S2097152x1_S2097152x2_1_0_n_n_0_1_12 x i) : (⟨S96x2, .f32⟩ : BufTy).Contents (Elt F) → (⟨S2097152x1, .i32⟩ : BufTy).Contents (Elt F) → (⟨S2097152x2, .f32⟩ : BufTy).Contents (Elt F)),
    nullary main_cst_102 (constant S_ .f32 0x3F800000#32),
    unary main_cst_102 main_v385 (broadcastInDim S2097152x1 ![] bcast_S_S2097152x1 : (⟨S_, .f32⟩ : BufTy).Contents (Elt F) → (⟨S2097152x1, .f32⟩ : BufTy).Contents (Elt F)),
    binary main_v385 main_v372 main_v386 (subf : (⟨S2097152x1, .f32⟩ : BufTy).Contents (Elt F) → (⟨S2097152x1, .f32⟩ : BufTy).Contents (Elt F) → (⟨S2097152x1, .f32⟩ : BufTy).Contents (Elt F)),
    unary main_v386 main_v387 (broadcastInDim S2097152x2 ![0, 1] bcast_S2097152x1_S2097152x2_0_1 : (⟨S2097152x1, .f32⟩ : BufTy).Contents (Elt F) → (⟨S2097152x2, .f32⟩ : BufTy).Contents (Elt F)),
    binary main_v384 main_v387 main_v388 (mulf : (⟨S2097152x2, .f32⟩ : BufTy).Contents (Elt F) → (⟨S2097152x2, .f32⟩ : BufTy).Contents (Elt F) → (⟨S2097152x2, .f32⟩ : BufTy).Contents (Elt F)),
    nullary main_c_103 (constantI S_ 32 0#32),
    unary main_c_103 main_v389 (broadcastInDim S2097152 ![] bcast_S_S2097152 : (⟨S_, .i32⟩ : BufTy).Contents (Elt F) → (⟨S2097152, .i32⟩ : BufTy).Contents (Elt F)),
    binary main_v377 main_v389 main_v390 (cmpi .slt : (⟨S2097152, .i32⟩ : BufTy).Contents (Elt F) → (⟨S2097152, .i32⟩ : BufTy).Contents (Elt F) → (⟨S2097152, .i1⟩ : BufTy).Contents (Elt F)),
    nullary main_c_104 (constantI S_ 32 96#32),
    unary main_c_104 main_v391 (broadcastInDim S2097152 ![] bcast_S_S2097152 : (⟨S_, .i32⟩ : BufTy).Contents (Elt F) → (⟨S2097152, .i32⟩ : BufTy).Contents (Elt F)),
    binary main_v377 main_v391 main_v392 (addi : (⟨S2097152, .i32⟩ : BufTy).Contents (Elt F) → (⟨S2097152, .i32⟩ : BufTy).Contents (Elt F) → (⟨S2097152, .i32⟩ : BufTy).Contents (Elt F)),
    ternary main_v390 main_v392 main_v377 main_v393 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v393 main_v394 (broadcastInDim S2097152x1 ![0] bcast_S2097152_S2097152x1_0 : (⟨S2097152, .i32⟩ : BufTy).Contents (Elt F) → (⟨S2097152x1, .i32⟩ : BufTy).Contents (Elt F)),
    binary main_arg13 main_v394 main_v395 ((fun x i => Host.gather gather_S96x2_S2097152x1_S2097152x2_1_0_n_n_0_1_12 x i) : (⟨S96x2, .f32⟩ : BufTy).Contents (Elt F) → (⟨S2097152x1, .i32⟩ : BufTy).Contents (Elt F) → (⟨S2097152x2, .f32⟩ : BufTy).Contents (Elt F)),
    unary main_v372 main_v396 (broadcastInDim S2097152x2 ![0, 1] bcast_S2097152x1_S2097152x2_0_1 : (⟨S2097152x1, .f32⟩ : BufTy).Contents (Elt F) → (⟨S2097152x2, .f32⟩ : BufTy).Contents (Elt F)),
    binary main_v395 main_v396 main_v397 (mulf : (⟨S2097152x2, .f32⟩ : BufTy).Contents (Elt F) → (⟨S2097152x2, .f32⟩ : BufTy).Contents (Elt F) → (⟨S2097152x2, .f32⟩ : BufTy).Contents (Elt F)),
    binary main_v388 main_v397 main_v398 (addf : (⟨S2097152x2, .f32⟩ : BufTy).Contents (Elt F) → (⟨S2097152x2, .f32⟩ : BufTy).Contents (Elt F) → (⟨S2097152x2, .f32⟩ : BufTy).Contents (Elt F)) ]
/-- The references the operations of the chunk R5 write, in order. -/
abbrev R5w : List (Ref sig .tc) :=
  [main_v366, main_cst_95, main_cst_96, main_call10_v0, main_call10_v1, main_call10_v2, main_call10_v3, main_call10_v4, main_v367, main_cst_97, main_v368, main_v369, main_v370, main_v371, main_v372, main_v373, main_c_98, main_v374, main_v375, main_c_99, main_v376, main_v377, main_c_100, main_v378, main_v379, main_c_101, main_v380, main_v381, main_v382, main_v383, main_v384, main_cst_102, main_v385, main_v386, main_v387, main_v388, main_c_103, main_v389, main_v390, main_c_104, main_v391, main_v392, main_v393, main_v394, main_v395, main_v396, main_v397, main_v398]

set_option maxHeartbeats 40000000 in
/-- Operations 546 to 706 of the program, in order (161 operations). -/
abbrev R6 : List (HloOp τ sig (Elt F)) :=
  [ unary main_arg2 main_v399 ((extractStridedSlice S2097152x1 ![0, 0] · slices_S2097152x2_S2097152x1_0_0) : (⟨S2097152x2, .f32⟩ : BufTy).Contents (Elt F) → (⟨S2097152x1, .f32⟩ : BufTy).Contents (Elt F)),
    unary main_arg2 main_v400 ((extractStridedSlice S2097152x1 ![0, 1] · slices_S2097152x2_S2097152x1_0_1) : (⟨S2097152x2, .f32⟩ : BufTy).Contents (Elt F) → (⟨S2097152x1, .f32⟩ : BufTy).Contents (Elt F)),
    binary main_v399 main_v400 main_v401 (mulf : (⟨S2097152x1, .f32⟩ : BufTy).Contents (Elt F) → (⟨S2097152x1, .f32⟩ : BufTy).Contents (Elt F) → (⟨S2097152x1, .f32⟩ : BufTy).Contents (Elt F)),
    unary main_v47 main_v402 ((extractStridedSlice S2097152x1 ![0, 0] · slices_S2097152x2_S2097152x1_0_0) : (⟨S2097152x2, .f32⟩ : BufTy).Contents (Elt F) → (⟨S2097152x1, .f32⟩ : BufTy).Contents (Elt F)),
    binary main_v401 main_v402 main_v403 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)),
    nullary main_cst_105 (constant S_ .f32 0x40000000#32),
    unary main_cst_105 main_v404 (broadcastInDim S32x32x1 ![] bcast_S_S32x32x1 : (⟨S_, .f32⟩ : BufTy).Contents (Elt F) → (⟨S32x32x1, .f32⟩ : BufTy).Contents (Elt F)),
    binary main_arg14 main_v404 main_v405 (Host.divf : (⟨S32x32x1, .f32⟩ : BufTy).Contents (Elt F) → (⟨S32x32x1, .f32⟩ : BufTy).Contents (Elt F) → (⟨S32x32x1, .f32⟩ : BufTy).Contents (Elt F)),
    nullary main_cst_106 (constant S_ .f32 0x40000000#32),
    unary main_cst_106 main_v406 (broadcastInDim S32x32x1 ![] bcast_S_S32x32x1 : (⟨S_, .f32⟩ : BufTy).Contents (Elt F) → (⟨S32x32x1, .f32⟩ : BufTy).Contents (Elt F)),
    binary main_arg14 main_v406 main_v407 (Host.divf : (⟨S32x32x1, .f32⟩ : BufTy).Contents (Elt F) → (⟨S32x32x1, .f32⟩ : BufTy).Contents (Elt F) → (⟨S32x32x1, .f32⟩ : BufTy).Contents (Elt F)),
    nullary main_cst_107 (constant S_ .f32 0x3F000000#32),
    unary main_cst_107 main_v408 (broadcastInDim S32x32x1 ![] bcast_S_S32x32x1 : (⟨S_, .f32⟩ : BufTy).Contents (Elt F) → (⟨S32x32x1, .f32⟩ : BufTy).Contents (Elt F)),
    binary main_v407 main_v408 main_v409 (addf : (⟨S32x32x1, .f32⟩ : BufTy).Contents (Elt F) → (⟨S32x32x1, .f32⟩ : BufTy).Contents (Elt F) → (⟨S32x32x1, .f32⟩ : BufTy).Contents (Elt F)),
    unary main_v409 main_v410 (Host.floor : (⟨S32x32x1, .f32⟩ : BufTy).Contents (Elt F) → (⟨S32x32x1, .f32⟩ : BufTy).Contents (Elt F)),
    binary main_v405 main_v410 main_v411 (subf : (⟨S32x32x1, .f32⟩ : BufTy).Contents (Elt F) → (⟨S32x32x1, .f32⟩ : BufTy).Contents (Elt F) → (⟨S32x32x1, .f32⟩ : BufTy).Contents (Elt F)),
    unary main_v411 main_v412 (Host.absf : (⟨S32x32x1, .f32⟩ : BufTy).Contents (Elt F) → (⟨S32x32x1, .f32⟩ : BufTy).Contents (Elt F)),
    nullary main_cst_108 (constant S_ .f32 0x40000000#32),
    unary main_cst_108 main_v413 (broadcastInDim S32x32x1 ![] bcast_S_S32x32x1 : (⟨S_, .f32⟩ : BufTy).Contents (Elt F) → (⟨S32x32x1, .f32⟩ : BufTy).Contents (Elt F)),
    binary main_v413 main_v412 main_v414 (mulf : (⟨S32x32x1, .f32⟩ : BufTy).Contents (Elt F) → (⟨S32x32x1, .f32⟩ : BufTy).Contents (Elt F) → (⟨S32x32x1, .f32⟩ : BufTy).Contents (Elt F)),
    unary main_v403 main_v415 ((extractStridedSlice S2097152x1 ![0, 0] · slices_S2097152x2_S2097152x1_0_0) : (⟨S2097152x2, .f32⟩ : BufTy).Contents (Elt F) → (⟨S2097152x1, .f32⟩ : BufTy).Contents (Elt F)),
    reshape main_v415 main_v416 rfl shapeCasts_S2097152x1_S2097152,
    nullary main_cst_109 (constant S_ .f32 0x00000000#32),
    nullary main_cst_110 (constant S_ .f32 0x3F7FFFEF#32),
    TRef.unary (TRef.of (T := ⟨S_, .f32⟩) main_cst_109) (TRef.of (T := ⟨S_, .f32⟩) main_call11_v0) id,
    TRef.unary (TRef.of (T := ⟨S_, .f32⟩) main_call11_v0) (TRef.of (T := ⟨S2097152, .f32⟩) main_call11_v1) (broadcastInDim S2097152 ![] bcast_S_S2097152),
    TRef.binary (TRef.of (T := ⟨S2097152, .f32⟩) main_call11_v1) (TRef.of (T := ⟨S2097152, .f32⟩) main_v416) (TRef.of (T := ⟨S2097152, .f32⟩) main_call11_v2) maximumf,
    TRef.unary (TRef.of (T := ⟨S_, .f32⟩) main_cst_110) (TRef.of (T := ⟨S_, .f32⟩) main_call11_v3) id,
    TRef.unary (TRef.of (T := ⟨S_, .f32⟩) main_call11_v3) (TRef.of (T := ⟨S2097152, .f32⟩) main_call11_v4) (broadcastInDim S2097152 ![] bcast_S_S2097152),
    TRef.binary (TRef.of (T := ⟨S2097152, .f32⟩) main_call11_v4) (TRef.of (T := ⟨S2097152, .f32⟩) main_call11_v2) (TRef.of (T := ⟨S2097152, .f32⟩) main_v417) minimumf,
    nullary main_cst_111 (constant S_ .f32 0x41F80000#32),
    unary main_cst_111 main_v418 (broadcastInDim S2097152 ![] bcast_S_S2097152 : (⟨S_, .f32⟩ : BufTy).Contents (Elt F) → (⟨S2097152, .f32⟩ : BufTy).Contents (Elt F)),
    binary main_v417 main_v418 main_v419 (mulf : (⟨S2097152, .f32⟩ : BufTy).Contents (Elt F) → (⟨S2097152, .f32⟩ : BufTy).Contents (Elt F) → (⟨S2097152, .f32⟩ : BufTy).Contents (Elt F)),
    unary main_v403 main_v420 ((extractStridedSlice S2097152x1 ![0, 1] · slices_S2097152x2_S2097152x1_0_1) : (⟨S2097152x2, .f32⟩ : BufTy).Contents (Elt F) → (⟨S2097152x1, .f32⟩ : BufTy).Contents (Elt F)),
    reshape main_v420 main_v421 rfl shapeCasts_S2097152x1_S2097152,
    nullary main_cst_112 (constant S_ .f32 0x00000000#32),
    nullary main_cst_113 (constant S_ .f32 0x3F7FFFEF#32),
    TRef.unary (TRef.of (T := ⟨S_, .f32⟩) main_cst_112) (TRef.of (T := ⟨S_, .f32⟩) main_call12_v0) id,
    TRef.unary (TRef.of (T := ⟨S_, .f32⟩) main_call12_v0) (TRef.of (T := ⟨S2097152, .f32⟩) main_call12_v1) (broadcastInDim S2097152 ![] bcast_S_S2097152),
    TRef.binary (TRef.of (T := ⟨S2097152, .f32⟩) main_call12_v1) (TRef.of (T := ⟨S2097152, .f32⟩) main_v421) (TRef.of (T := ⟨S2097152, .f32⟩) main_call12_v2) maximumf,
    TRef.unary (TRef.of (T := ⟨S_, .f32⟩) main_cst_113) (TRef.of (T := ⟨S_, .f32⟩) main_call12_v3) id,
    TRef.unary (TRef.of (T := ⟨S_, .f32⟩) main_call12_v3) (TRef.of (T := ⟨S2097152, .f32⟩) main_call12_v4) (broadcastInDim S2097152 ![] bcast_S_S2097152),
    TRef.binary (TRef.of (T := ⟨S2097152, .f32⟩) main_call12_v4) (TRef.of (T := ⟨S2097152, .f32⟩) main_call12_v2) (TRef.of (T := ⟨S2097152, .f32⟩) main_v422) minimumf,
    nullary main_cst_114 (constant S_ .f32 0x41F80000#32),
    unary main_cst_114 main_v423 (broadcastInDim S2097152 ![] bcast_S_S2097152 : (⟨S_, .f32⟩ : BufTy).Contents (Elt F) → (⟨S2097152, .f32⟩ : BufTy).Contents (Elt F)),
    binary main_v422 main_v423 main_v424 (mulf : (⟨S2097152, .f32⟩ : BufTy).Contents (Elt F) → (⟨S2097152, .f32⟩ : BufTy).Contents (Elt F) → (⟨S2097152, .f32⟩ : BufTy).Contents (Elt F)),
    unary main_v419 main_v425 (Host.floor : (⟨S2097152, .f32⟩ : BufTy).Contents (Elt F) → (⟨S2097152, .f32⟩ : BufTy).Contents (Elt F)),
    unary main_v424 main_v426 (Host.floor : (⟨S2097152, .f32⟩ : BufTy).Contents (Elt F) → (⟨S2097152, .f32⟩ : BufTy).Contents (Elt F)),
    binary main_v419 main_v425 main_v427 (subf : (⟨S2097152, .f32⟩ : BufTy).Contents (Elt F) → (⟨S2097152, .f32⟩ : BufTy).Contents (Elt F) → (⟨S2097152, .f32⟩ : BufTy).Contents (Elt F)),
    unary main_v427 main_v428 (broadcastInDim S2097152x1 ![0] bcast_S2097152_S2097152x1_0 : (⟨S2097152, .f32⟩ : BufTy).Contents (Elt F) → (⟨S2097152x1, .f32⟩ : BufTy).Contents (Elt F)),
    binary main_v424 main_v426 main_v429 (subf : (⟨S2097152, .f32⟩ : BufTy).Contents (Elt F) → (⟨S2097152, .f32⟩ : BufTy).Contents (Elt F) → (⟨S2097152, .f32⟩ : BufTy).Contents (Elt F)),
    unary main_v429 main_v430 (broadcastInDim S2097152x1 ![0] bcast_S2097152_S2097152x1_0 : (⟨S2097152, .f32⟩ : BufTy).Contents (Elt F) → (⟨S2097152x1, .f32⟩ : BufTy).Contents (Elt F)),
    unary main_v425 main_v431 (fptosi 32 : (⟨S2097152, .f32⟩ : BufTy).Contents (Elt F) → (⟨S2097152, .i32⟩ : BufTy).Contents (Elt F)),
    unary main_v426 main_v432 (fptosi 32 : (⟨S2097152, .f32⟩ : BufTy).Contents (Elt F) → (⟨S2097152, .i32⟩ : BufTy).Contents (Elt F)),
    nullary main_c_115 (constantI S_ 32 1#32),
    unary main_c_115 main_v433 (broadcastInDim S2097152 ![] bcast_S_S2097152 : (⟨S_, .i32⟩ : BufTy).Contents (Elt F) → (⟨S2097152, .i32⟩ : BufTy).Contents (Elt F)),
    binary main_v431 main_v433 main_v434 (addi : (⟨S2097152, .i32⟩ : BufTy).Contents (Elt F) → (⟨S2097152, .i32⟩ : BufTy).Contents (Elt F) → (⟨S2097152, .i32⟩ : BufTy).Contents (Elt F)),
    nullary main_c_116 (constantI S_ 32 31#32),
    unary main_c_116 main_v435 (broadcastInDim S2097152 ![] bcast_S_S2097152 : (⟨S_, .i32⟩ : BufTy).Contents (Elt F) → (⟨S2097152, .i32⟩ : BufTy).Contents (Elt F)),
    binary main_v434 main_v435 main_v436 (minsi : (⟨S2097152, .i32⟩ : BufTy).Contents (Elt F) → (⟨S2097152, .i32⟩ : BufTy).Contents (Elt F) → (⟨S2097152, .i32⟩ : BufTy).Contents (Elt F)),
    nullary main_c_117 (constantI S_ 32 1#32),
    unary main_c_117 main_v437 (broadcastInDim S2097152 ![] bcast_S_S2097152 : (⟨S_, .i32⟩ : BufTy).Contents (Elt F) → (⟨S2097152, .i32⟩ : BufTy).Contents (Elt F)),
    binary main_v432 main_v437 main_v438 (addi : (⟨S2097152, .i32⟩ : BufTy).Contents (Elt F) → (⟨S2097152, .i32⟩ : BufTy).Contents (Elt F) → (⟨S2097152, .i32⟩ : BufTy).Contents (Elt F)),
    nullary main_c_118 (constantI S_ 32 31#32),
    unary main_c_118 main_v439 (broadcastInDim S2097152 ![] bcast_S_S2097152 : (⟨S_, .i32⟩ : BufTy).Contents (Elt F) → (⟨S2097152, .i32⟩ : BufTy).Contents (Elt F)),
    binary main_v438 main_v439 main_v440 (minsi : (⟨S2097152, .i32⟩ : BufTy).Contents (Elt F) → (⟨S2097152, .i32⟩ : BufTy).Contents (Elt F) → (⟨S2097152, .i32⟩ : BufTy).Contents (Elt F)),
    nullary main_c_119 (constantI S_ 32 0#32),
    unary main_c_119 main_v441 (broadcastInDim S2097152 ![] bcast_S_S2097152 : (⟨S_, .i32⟩ : BufTy).Contents (Elt F) → (⟨S2097152, .i32⟩ : BufTy).Contents (Elt F)),
    binary main_v431 main_v441 main_v442 (cmpi .slt : (⟨S2097152, .i32⟩ : BufTy).Contents (Elt F) → (⟨S2097152, .i32⟩ : BufTy).Contents (Elt F) → (⟨S2097152, .i1⟩ : BufTy).Contents (Elt F)),
    nullary main_c_120 (constantI S_ 32 32#32),
    unary main_c_120 main_v443 (broadcastInDim S2097152 ![] bcast_S_S2097152 : (⟨S_, .i32⟩ : BufTy).Contents (Elt F) → (⟨S2097152, .i32⟩ : BufTy).Contents (Elt F)),
    binary main_v431 main_v443 main_v444 (addi : (⟨S2097152, .i32⟩ : BufTy).Contents (Elt F) → (⟨S2097152, .i32⟩ : BufTy).Contents (Elt F) → (⟨S2097152, .i32⟩ : BufTy).Contents (Elt F)),
    ternary main_v442 main_v444 main_v431 main_v445 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_121 (constantI S_ 32 0#32),
    unary main_c_121 main_v446 (broadcastInDim S2097152 ![] bcast_S_S2097152 : (⟨S_, .i32⟩ : BufTy).Contents (Elt F) → (⟨S2097152, .i32⟩ : BufTy).Contents (Elt F)),
    binary main_v432 main_v446 main_v447 (cmpi .slt : (⟨S2097152, .i32⟩ : BufTy).Contents (Elt F) → (⟨S2097152, .i32⟩ : BufTy).Contents (Elt F) → (⟨S2097152, .i1⟩ : BufTy).Contents (Elt F)),
    nullary main_c_122 (constantI S_ 32 32#32),
    unary main_c_122 main_v448 (broadcastInDim S2097152 ![] bcast_S_S2097152 : (⟨S_, .i32⟩ : BufTy).Contents (Elt F) → (⟨S2097152, .i32⟩ : BufTy).Contents (Elt F)),
    binary main_v432 main_v448 main_v449 (addi : (⟨S2097152, .i32⟩ : BufTy).Contents (Elt F) → (⟨S2097152, .i32⟩ : BufTy).Contents (Elt F) → (⟨S2097152, .i32⟩ : BufTy).Contents (Elt F)),
    ternary main_v447 main_v449 main_v432 main_v450 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v445 main_v451 (broadcastInDim S2097152x1 ![0] bcast_S2097152_S2097152x1_0 : (⟨S2097152, .i32⟩ : BufTy).Contents (Elt F) → (⟨S2097152x1, .i32⟩ : BufTy).Contents (Elt F)),
    unary main_v450 main_v452 (broadcastInDim S2097152x1 ![0] bcast_S2097152_S2097152x1_0 : (⟨S2097152, .i32⟩ : BufTy).Contents (Elt F) → (⟨S2097152x1, .i32⟩ : BufTy).Contents (Elt F)),
    binary main_v451 main_v452 main_v453 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v414 main_v453 main_v454 ((fun x i => Host.gather gather_S32x32x1_S2097152x2_S2097152x1_1_01_n_n_01_1_111 x i) : (⟨S32x32x1, .f32⟩ : BufTy).Contents (Elt F) → (⟨S2097152x2, .i32⟩ : BufTy).Contents (Elt F) → (⟨S2097152x1, .f32⟩ : BufTy).Contents (Elt F)),
    nullary main_cst_123 (constant S_ .f32 0x3F800000#32),
    unary main_cst_123 main_v455 (broadcastInDim S2097152x1 ![] bcast_S_S2097152x1 : (⟨S_, .f32⟩ : BufTy).Contents (Elt F) → (⟨S2097152x1, .f32⟩ : BufTy).Contents (Elt F)),
    binary main_v455 main_v428 main_v456 (subf : (⟨S2097152x1, .f32⟩ : BufTy).Contents (Elt F) → (⟨S2097152x1, .f32⟩ : BufTy).Contents (Elt F) → (⟨S2097152x1, .f32⟩ : BufTy).Contents (Elt F)),
    binary main_v454 main_v456 main_v457 (mulf : (⟨S2097152x1, .f32⟩ : BufTy).Contents (Elt F) → (⟨S2097152x1, .f32⟩ : BufTy).Contents (Elt F) → (⟨S2097152x1, .f32⟩ : BufTy).Contents (Elt F)),
    nullary main_cst_124 (constant S_ .f32 0x3F800000#32),
    unary main_cst_124 main_v458 (broadcastInDim S2097152x1 ![] bcast_S_S2097152x1 : (⟨S_, .f32⟩ : BufTy).Contents (Elt F) → (⟨S2097152x1, .f32⟩ : BufTy).Contents (Elt F)),
    binary main_v458 main_v430 main_v459 (subf : (⟨S2097152x1, .f32⟩ : BufTy).Contents (Elt F) → (⟨S2097152x1, .f32⟩ : BufTy).Contents (Elt F) → (⟨S2097152x1, .f32⟩ : BufTy).Contents (Elt F)),
    binary main_v457 main_v459 main_v460 (mulf : (⟨S2097152x1, .f32⟩ : BufTy).Contents (Elt F) → (⟨S2097152x1, .f32⟩ : BufTy).Contents (Elt F) → (⟨S2097152x1, .f32⟩ : BufTy).Contents (Elt F)),
    nullary main_c_125 (constantI S_ 32 0#32),
    unary main_c_125 main_v461 (broadcastInDim S2097152 ![] bcast_S_S2097152 : (⟨S_, .i32⟩ : BufTy).Contents (Elt F) → (⟨S2097152, .i32⟩ : BufTy).Contents (Elt F)),
    binary main_v436 main_v461 main_v462 (cmpi .slt : (⟨S2097152, .i32⟩ : BufTy).Contents (Elt F) → (⟨S2097152, .i32⟩ : BufTy).Contents (Elt F) → (⟨S2097152, .i1⟩ : BufTy).Contents (Elt F)),
    nullary main_c_126 (constantI S_ 32 32#32),
    unary main_c_126 main_v463 (broadcastInDim S2097152 ![] bcast_S_S2097152 : (⟨S_, .i32⟩ : BufTy).Contents (Elt F) → (⟨S2097152, .i32⟩ : BufTy).Contents (Elt F)),
    binary main_v436 main_v463 main_v464 (addi : (⟨S2097152, .i32⟩ : BufTy).Contents (Elt F) → (⟨S2097152, .i32⟩ : BufTy).Contents (Elt F) → (⟨S2097152, .i32⟩ : BufTy).Contents (Elt F)),
    ternary main_v462 main_v464 main_v436 main_v465 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_127 (constantI S_ 32 0#32),
    unary main_c_127 main_v466 (broadcastInDim S2097152 ![] bcast_S_S2097152 : (⟨S_, .i32⟩ : BufTy).Contents (Elt F) → (⟨S2097152, .i32⟩ : BufTy).Contents (Elt F)),
    binary main_v432 main_v466 main_v467 (cmpi .slt : (⟨S2097152, .i32⟩ : BufTy).Contents (Elt F) → (⟨S2097152, .i32⟩ : BufTy).Contents (Elt F) → (⟨S2097152, .i1⟩ : BufTy).Contents (Elt F)),
    nullary main_c_128 (constantI S_ 32 32#32),
    unary main_c_128 main_v468 (broadcastInDim S2097152 ![] bcast_S_S2097152 : (⟨S_, .i32⟩ : BufTy).Contents (Elt F) → (⟨S2097152, .i32⟩ : BufTy).Contents (Elt F)),
    binary main_v432 main_v468 main_v469 (addi : (⟨S2097152, .i32⟩ : BufTy).Contents (Elt F) → (⟨S2097152, .i32⟩ : BufTy).Contents (Elt F) → (⟨S2097152, .i32⟩ : BufTy).Contents (Elt F)),
    ternary main_v467 main_v469 main_v432 main_v470 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v465 main_v471 (broadcastInDim S2097152x1 ![0] bcast_S2097152_S2097152x1_0 : (⟨S2097152, .i32⟩ : BufTy).Contents (Elt F) → (⟨S2097152x1, .i32⟩ : BufTy).Contents (Elt F)),
    unary main_v470 main_v472 (broadcastInDim S2097152x1 ![0] bcast_S2097152_S2097152x1_0 : (⟨S2097152, .i32⟩ : BufTy).Contents (Elt F) → (⟨S2097152x1, .i32⟩ : BufTy).Contents (Elt F)),
    binary main_v471 main_v472 main_v473 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v414 main_v473 main_v474 ((fun x i => Host.gather gather_S32x32x1_S2097152x2_S2097152x1_1_01_n_n_01_1_111 x i) : (⟨S32x32x1, .f32⟩ : BufTy).Contents (Elt F) → (⟨S2097152x2, .i32⟩ : BufTy).Contents (Elt F) → (⟨S2097152x1, .f32⟩ : BufTy).Contents (Elt F)),
    binary main_v474 main_v428 main_v475 (mulf : (⟨S2097152x1, .f32⟩ : BufTy).Contents (Elt F) → (⟨S2097152x1, .f32⟩ : BufTy).Contents (Elt F) → (⟨S2097152x1, .f32⟩ : BufTy).Contents (Elt F)),
    nullary main_cst_129 (constant S_ .f32 0x3F800000#32),
    unary main_cst_129 main_v476 (broadcastInDim S2097152x1 ![] bcast_S_S2097152x1 : (⟨S_, .f32⟩ : BufTy).Contents (Elt F) → (⟨S2097152x1, .f32⟩ : BufTy).Contents (Elt F)),
    binary main_v476 main_v430 main_v477 (subf : (⟨S2097152x1, .f32⟩ : BufTy).Contents (Elt F) → (⟨S2097152x1, .f32⟩ : BufTy).Contents (Elt F) → (⟨S2097152x1, .f32⟩ : BufTy).Contents (Elt F)),
    binary main_v475 main_v477 main_v478 (mulf : (⟨S2097152x1, .f32⟩ : BufTy).Contents (Elt F) → (⟨S2097152x1, .f32⟩ : BufTy).Contents (Elt F) → (⟨S2097152x1, .f32⟩ : BufTy).Contents (Elt F)),
    binary main_v460 main_v478 main_v479 (addf : (⟨S2097152x1, .f32⟩ : BufTy).Contents (Elt F) → (⟨S2097152x1, .f32⟩ : BufTy).Contents (Elt F) → (⟨S2097152x1, .f32⟩ : BufTy).Contents (Elt F)),
    nullary main_c_130 (constantI S_ 32 0#32),
    unary main_c_130 main_v480 (broadcastInDim S2097152 ![] bcast_S_S2097152 : (⟨S_, .i32⟩ : BufTy).Contents (Elt F) → (⟨S2097152, .i32⟩ : BufTy).Contents (Elt F)),
    binary main_v431 main_v480 main_v481 (cmpi .slt : (⟨S2097152, .i32⟩ : BufTy).Contents (Elt F) → (⟨S2097152, .i32⟩ : BufTy).Contents (Elt F) → (⟨S2097152, .i1⟩ : BufTy).Contents (Elt F)),
    nullary main_c_131 (constantI S_ 32 32#32),
    unary main_c_131 main_v482 (broadcastInDim S2097152 ![] bcast_S_S2097152 : (⟨S_, .i32⟩ : BufTy).Contents (Elt F) → (⟨S2097152, .i32⟩ : BufTy).Contents (Elt F)),
    binary main_v431 main_v482 main_v483 (addi : (⟨S2097152, .i32⟩ : BufTy).Contents (Elt F) → (⟨S2097152, .i32⟩ : BufTy).Contents (Elt F) → (⟨S2097152, .i32⟩ : BufTy).Contents (Elt F)),
    ternary main_v481 main_v483 main_v431 main_v484 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_132 (constantI S_ 32 0#32),
    unary main_c_132 main_v485 (broadcastInDim S2097152 ![] bcast_S_S2097152 : (⟨S_, .i32⟩ : BufTy).Contents (Elt F) → (⟨S2097152, .i32⟩ : BufTy).Contents (Elt F)),
    binary main_v440 main_v485 main_v486 (cmpi .slt : (⟨S2097152, .i32⟩ : BufTy).Contents (Elt F) → (⟨S2097152, .i32⟩ : BufTy).Contents (Elt F) → (⟨S2097152, .i1⟩ : BufTy).Contents (Elt F)),
    nullary main_c_133 (constantI S_ 32 32#32),
    unary main_c_133 main_v487 (broadcastInDim S2097152 ![] bcast_S_S2097152 : (⟨S_, .i32⟩ : BufTy).Contents (Elt F) → (⟨S2097152, .i32⟩ : BufTy).Contents (Elt F)),
    binary main_v440 main_v487 main_v488 (addi : (⟨S2097152, .i32⟩ : BufTy).Contents (Elt F) → (⟨S2097152, .i32⟩ : BufTy).Contents (Elt F) → (⟨S2097152, .i32⟩ : BufTy).Contents (Elt F)),
    ternary main_v486 main_v488 main_v440 main_v489 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v484 main_v490 (broadcastInDim S2097152x1 ![0] bcast_S2097152_S2097152x1_0 : (⟨S2097152, .i32⟩ : BufTy).Contents (Elt F) → (⟨S2097152x1, .i32⟩ : BufTy).Contents (Elt F)),
    unary main_v489 main_v491 (broadcastInDim S2097152x1 ![0] bcast_S2097152_S2097152x1_0 : (⟨S2097152, .i32⟩ : BufTy).Contents (Elt F) → (⟨S2097152x1, .i32⟩ : BufTy).Contents (Elt F)),
    binary main_v490 main_v491 main_v492 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v414 main_v492 main_v493 ((fun x i => Host.gather gather_S32x32x1_S2097152x2_S2097152x1_1_01_n_n_01_1_111 x i) : (⟨S32x32x1, .f32⟩ : BufTy).Contents (Elt F) → (⟨S2097152x2, .i32⟩ : BufTy).Contents (Elt F) → (⟨S2097152x1, .f32⟩ : BufTy).Contents (Elt F)),
    nullary main_cst_134 (constant S_ .f32 0x3F800000#32),
    unary main_cst_134 main_v494 (broadcastInDim S2097152x1 ![] bcast_S_S2097152x1 : (⟨S_, .f32⟩ : BufTy).Contents (Elt F) → (⟨S2097152x1, .f32⟩ : BufTy).Contents (Elt F)),
    binary main_v494 main_v428 main_v495 (subf : (⟨S2097152x1, .f32⟩ : BufTy).Contents (Elt F) → (⟨S2097152x1, .f32⟩ : BufTy).Contents (Elt F) → (⟨S2097152x1, .f32⟩ : BufTy).Contents (Elt F)),
    binary main_v493 main_v495 main_v496 (mulf : (⟨S2097152x1, .f32⟩ : BufTy).Contents (Elt F) → (⟨S2097152x1, .f32⟩ : BufTy).Contents (Elt F) → (⟨S2097152x1, .f32⟩ : BufTy).Contents (Elt F)),
    binary main_v496 main_v430 main_v497 (mulf : (⟨S2097152x1, .f32⟩ : BufTy).Contents (Elt F) → (⟨S2097152x1, .f32⟩ : BufTy).Contents (Elt F) → (⟨S2097152x1, .f32⟩ : BufTy).Contents (Elt F)),
    binary main_v479 main_v497 main_v498 (addf : (⟨S2097152x1, .f32⟩ : BufTy).Contents (Elt F) → (⟨S2097152x1, .f32⟩ : BufTy).Contents (Elt F) → (⟨S2097152x1, .f32⟩ : BufTy).Contents (Elt F)),
    nullary main_c_135 (constantI S_ 32 0#32),
    unary main_c_135 main_v499 (broadcastInDim S2097152 ![] bcast_S_S2097152 : (⟨S_, .i32⟩ : BufTy).Contents (Elt F) → (⟨S2097152, .i32⟩ : BufTy).Contents (Elt F)),
    binary main_v436 main_v499 main_v500 (cmpi .slt : (⟨S2097152, .i32⟩ : BufTy).Contents (Elt F) → (⟨S2097152, .i32⟩ : BufTy).Contents (Elt F) → (⟨S2097152, .i1⟩ : BufTy).Contents (Elt F)),
    nullary main_c_136 (constantI S_ 32 32#32),
    unary main_c_136 main_v501 (broadcastInDim S2097152 ![] bcast_S_S2097152 : (⟨S_, .i32⟩ : BufTy).Contents (Elt F) → (⟨S2097152, .i32⟩ : BufTy).Contents (Elt F)),
    binary main_v436 main_v501 main_v502 (addi : (⟨S2097152, .i32⟩ : BufTy).Contents (Elt F) → (⟨S2097152, .i32⟩ : BufTy).Contents (Elt F) → (⟨S2097152, .i32⟩ : BufTy).Contents (Elt F)),
    ternary main_v500 main_v502 main_v436 main_v503 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_137 (constantI S_ 32 0#32),
    unary main_c_137 main_v504 (broadcastInDim S2097152 ![] bcast_S_S2097152 : (⟨S_, .i32⟩ : BufTy).Contents (Elt F) → (⟨S2097152, .i32⟩ : BufTy).Contents (Elt F)),
    binary main_v440 main_v504 main_v505 (cmpi .slt : (⟨S2097152, .i32⟩ : BufTy).Contents (Elt F) → (⟨S2097152, .i32⟩ : BufTy).Contents (Elt F) → (⟨S2097152, .i1⟩ : BufTy).Contents (Elt F)),
    nullary main_c_138 (constantI S_ 32 32#32),
    unary main_c_138 main_v506 (broadcastInDim S2097152 ![] bcast_S_S2097152 : (⟨S_, .i32⟩ : BufTy).Contents (Elt F) → (⟨S2097152, .i32⟩ : BufTy).Contents (Elt F)),
    binary main_v440 main_v506 main_v507 (addi : (⟨S2097152, .i32⟩ : BufTy).Contents (Elt F) → (⟨S2097152, .i32⟩ : BufTy).Contents (Elt F) → (⟨S2097152, .i32⟩ : BufTy).Contents (Elt F)),
    ternary main_v505 main_v507 main_v440 main_v508 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v503 main_v509 (broadcastInDim S2097152x1 ![0] bcast_S2097152_S2097152x1_0 : (⟨S2097152, .i32⟩ : BufTy).Contents (Elt F) → (⟨S2097152x1, .i32⟩ : BufTy).Contents (Elt F)),
    unary main_v508 main_v510 (broadcastInDim S2097152x1 ![0] bcast_S2097152_S2097152x1_0 : (⟨S2097152, .i32⟩ : BufTy).Contents (Elt F) → (⟨S2097152x1, .i32⟩ : BufTy).Contents (Elt F)),
    binary main_v509 main_v510 main_v511 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v414 main_v511 main_v512 ((fun x i => Host.gather gather_S32x32x1_S2097152x2_S2097152x1_1_01_n_n_01_1_111 x i) : (⟨S32x32x1, .f32⟩ : BufTy).Contents (Elt F) → (⟨S2097152x2, .i32⟩ : BufTy).Contents (Elt F) → (⟨S2097152x1, .f32⟩ : BufTy).Contents (Elt F)),
    binary main_v512 main_v428 main_v513 (mulf : (⟨S2097152x1, .f32⟩ : BufTy).Contents (Elt F) → (⟨S2097152x1, .f32⟩ : BufTy).Contents (Elt F) → (⟨S2097152x1, .f32⟩ : BufTy).Contents (Elt F)),
    binary main_v513 main_v430 main_v514 (mulf : (⟨S2097152x1, .f32⟩ : BufTy).Contents (Elt F) → (⟨S2097152x1, .f32⟩ : BufTy).Contents (Elt F) → (⟨S2097152x1, .f32⟩ : BufTy).Contents (Elt F)),
    binary main_v498 main_v514 main_v515 (addf : (⟨S2097152x1, .f32⟩ : BufTy).Contents (Elt F) → (⟨S2097152x1, .f32⟩ : BufTy).Contents (Elt F) → (⟨S2097152x1, .f32⟩ : BufTy).Contents (Elt F)) ]
/-- The references the operations of the chunk R6 write, in order. -/
abbrev R6w : List (Ref sig .tc) :=
  [main_v399, main_v400, main_v401, main_v402, main_v403, main_cst_105, main_v404, main_v405, main_cst_106, main_v406, main_v407, main_cst_107, main_v408, main_v409, main_v410, main_v411, main_v412, main_cst_108, main_v413, main_v414, main_v415, main_v416, main_cst_109, main_cst_110, main_call11_v0, main_call11_v1, main_call11_v2, main_call11_v3, main_call11_v4, main_v417, main_cst_111, main_v418, main_v419, main_v420, main_v421, main_cst_112, main_cst_113, main_call12_v0, main_call12_v1, main_call12_v2, main_call12_v3, main_call12_v4, main_v422, main_cst_114, main_v423, main_v424, main_v425, main_v426, main_v427, main_v428, main_v429, main_v430, main_v431, main_v432, main_c_115, main_v433, main_v434, main_c_116, main_v435, main_v436, main_c_117, main_v437, main_v438, main_c_118, main_v439, main_v440, main_c_119, main_v441, main_v442, main_c_120, main_v443, main_v444, main_v445, main_c_121, main_v446, main_v447, main_c_122, main_v448, main_v449, main_v450, main_v451, main_v452, main_v453, main_v454, main_cst_123, main_v455, main_v456, main_v457, main_cst_124, main_v458, main_v459, main_v460, main_c_125, main_v461, main_v462, main_c_126, main_v463, main_v464, main_v465, main_c_127, main_v466, main_v467, main_c_128, main_v468, main_v469, main_v470, main_v471, main_v472, main_v473, main_v474, main_v475, main_cst_129, main_v476, main_v477, main_v478, main_v479, main_c_130, main_v480, main_v481, main_c_131, main_v482, main_v483, main_v484, main_c_132, main_v485, main_v486, main_c_133, main_v487, main_v488, main_v489, main_v490, main_v491, main_v492, main_v493, main_cst_134, main_v494, main_v495, main_v496, main_v497, main_v498, main_c_135, main_v499, main_v500, main_c_136, main_v501, main_v502, main_v503, main_c_137, main_v504, main_v505, main_c_138, main_v506, main_v507, main_v508, main_v509, main_v510, main_v511, main_v512, main_v513, main_v514, main_v515]

set_option maxHeartbeats 40000000 in
/-- Operations 707 to 870 of the program, in order (164 operations). -/
abbrev R7 : List (HloOp τ sig (Elt F)) :=
  [ nullary main_cst_139 (constant S_ .f32 0x40000000#32),
    unary main_cst_139 main_v516 (broadcastInDim S32x32x4 ![] bcast_S_S32x32x4 : (⟨S_, .f32⟩ : BufTy).Contents (Elt F) → (⟨S32x32x4, .f32⟩ : BufTy).Contents (Elt F)),
    binary main_arg15 main_v516 main_v517 (Host.divf : (⟨S32x32x4, .f32⟩ : BufTy).Contents (Elt F) → (⟨S32x32x4, .f32⟩ : BufTy).Contents (Elt F) → (⟨S32x32x4, .f32⟩ : BufTy).Contents (Elt F)),
    nullary main_cst_140 (constant S_ .f32 0x40000000#32),
    unary main_cst_140 main_v518 (broadcastInDim S32x32x4 ![] bcast_S_S32x32x4 : (⟨S_, .f32⟩ : BufTy).Contents (Elt F) → (⟨S32x32x4, .f32⟩ : BufTy).Contents (Elt F)),
    binary main_arg15 main_v518 main_v519 (Host.divf : (⟨S32x32x4, .f32⟩ : BufTy).Contents (Elt F) → (⟨S32x32x4, .f32⟩ : BufTy).Contents (Elt F) → (⟨S32x32x4, .f32⟩ : BufTy).Contents (Elt F)),
    nullary main_cst_141 (constant S_ .f32 0x3F000000#32),
    unary main_cst_141 main_v520 (broadcastInDim S32x32x4 ![] bcast_S_S32x32x4 : (⟨S_, .f32⟩ : BufTy).Contents (Elt F) → (⟨S32x32x4, .f32⟩ : BufTy).Contents (Elt F)),
    binary main_v519 main_v520 main_v521 (addf : (⟨S32x32x4, .f32⟩ : BufTy).Contents (Elt F) → (⟨S32x32x4, .f32⟩ : BufTy).Contents (Elt F) → (⟨S32x32x4, .f32⟩ : BufTy).Contents (Elt F)),
    unary main_v521 main_v522 (Host.floor : (⟨S32x32x4, .f32⟩ : BufTy).Contents (Elt F) → (⟨S32x32x4, .f32⟩ : BufTy).Contents (Elt F)),
    binary main_v517 main_v522 main_v523 (subf : (⟨S32x32x4, .f32⟩ : BufTy).Contents (Elt F) → (⟨S32x32x4, .f32⟩ : BufTy).Contents (Elt F) → (⟨S32x32x4, .f32⟩ : BufTy).Contents (Elt F)),
    unary main_v523 main_v524 (Host.absf : (⟨S32x32x4, .f32⟩ : BufTy).Contents (Elt F) → (⟨S32x32x4, .f32⟩ : BufTy).Contents (Elt F)),
    nullary main_cst_142 (constant S_ .f32 0x40000000#32),
    unary main_cst_142 main_v525 (broadcastInDim S32x32x4 ![] bcast_S_S32x32x4 : (⟨S_, .f32⟩ : BufTy).Contents (Elt F) → (⟨S32x32x4, .f32⟩ : BufTy).Contents (Elt F)),
    binary main_v525 main_v524 main_v526 (mulf : (⟨S32x32x4, .f32⟩ : BufTy).Contents (Elt F) → (⟨S32x32x4, .f32⟩ : BufTy).Contents (Elt F) → (⟨S32x32x4, .f32⟩ : BufTy).Contents (Elt F)),
    unary main_arg2 main_v527 ((extractStridedSlice S2097152x1 ![0, 0] · slices_S2097152x2_S2097152x1_0_0) : (⟨S2097152x2, .f32⟩ : BufTy).Contents (Elt F) → (⟨S2097152x1, .f32⟩ : BufTy).Contents (Elt F)),
    reshape main_v527 main_v528 rfl shapeCasts_S2097152x1_S2097152,
    nullary main_cst_143 (constant S_ .f32 0x00000000#32),
    nullary main_cst_144 (constant S_ .f32 0x3F7FFFEF#32),
    TRef.unary (TRef.of (T := ⟨S_, .f32⟩) main_cst_143) (TRef.of (T := ⟨S_, .f32⟩) main_call13_v0) id,
    TRef.unary (TRef.of (T := ⟨S_, .f32⟩) main_call13_v0) (TRef.of (T := ⟨S2097152, .f32⟩) main_call13_v1) (broadcastInDim S2097152 ![] bcast_S_S2097152),
    TRef.binary (TRef.of (T := ⟨S2097152, .f32⟩) main_call13_v1) (TRef.of (T := ⟨S2097152, .f32⟩) main_v528) (TRef.of (T := ⟨S2097152, .f32⟩) main_call13_v2) maximumf,
    TRef.unary (TRef.of (T := ⟨S_, .f32⟩) main_cst_144) (TRef.of (T := ⟨S_, .f32⟩) main_call13_v3) id,
    TRef.unary (TRef.of (T := ⟨S_, .f32⟩) main_call13_v3) (TRef.of (T := ⟨S2097152, .f32⟩) main_call13_v4) (broadcastInDim S2097152 ![] bcast_S_S2097152),
    TRef.binary (TRef.of (T := ⟨S2097152, .f32⟩) main_call13_v4) (TRef.of (T := ⟨S2097152, .f32⟩) main_call13_v2) (TRef.of (T := ⟨S2097152, .f32⟩) main_v529) minimumf,
    nullary main_cst_145 (constant S_ .f32 0x41F80000#32),
    unary main_cst_145 main_v530 (broadcastInDim S2097152 ![] bcast_S_S2097152 : (⟨S_, .f32⟩ : BufTy).Contents (Elt F) → (⟨S2097152, .f32⟩ : BufTy).Contents (Elt F)),
    binary main_v529 main_v530 main_v531 (mulf : (⟨S2097152, .f32⟩ : BufTy).Contents (Elt F) → (⟨S2097152, .f32⟩ : BufTy).Contents (Elt F) → (⟨S2097152, .f32⟩ : BufTy).Contents (Elt F)),
    unary main_arg2 main_v532 ((extractStridedSlice S2097152x1 ![0, 1] · slices_S2097152x2_S2097152x1_0_1) : (⟨S2097152x2, .f32⟩ : BufTy).Contents (Elt F) → (⟨S2097152x1, .f32⟩ : BufTy).Contents (Elt F)),
    reshape main_v532 main_v533 rfl shapeCasts_S2097152x1_S2097152,
    nullary main_cst_146 (constant S_ .f32 0x00000000#32),
    nullary main_cst_147 (constant S_ .f32 0x3F7FFFEF#32),
    TRef.unary (TRef.of (T := ⟨S_, .f32⟩) main_cst_146) (TRef.of (T := ⟨S_, .f32⟩) main_call14_v0) id,
    TRef.unary (TRef.of (T := ⟨S_, .f32⟩) main_call14_v0) (TRef.of (T := ⟨S2097152, .f32⟩) main_call14_v1) (broadcastInDim S2097152 ![] bcast_S_S2097152),
    TRef.binary (TRef.of (T := ⟨S2097152, .f32⟩) main_call14_v1) (TRef.of (T := ⟨S2097152, .f32⟩) main_v533) (TRef.of (T := ⟨S2097152, .f32⟩) main_call14_v2) maximumf,
    TRef.unary (TRef.of (T := ⟨S_, .f32⟩) main_cst_147) (TRef.of (T := ⟨S_, .f32⟩) main_call14_v3) id,
    TRef.unary (TRef.of (T := ⟨S_, .f32⟩) main_call14_v3) (TRef.of (T := ⟨S2097152, .f32⟩) main_call14_v4) (broadcastInDim S2097152 ![] bcast_S_S2097152),
    TRef.binary (TRef.of (T := ⟨S2097152, .f32⟩) main_call14_v4) (TRef.of (T := ⟨S2097152, .f32⟩) main_call14_v2) (TRef.of (T := ⟨S2097152, .f32⟩) main_v534) minimumf,
    nullary main_cst_148 (constant S_ .f32 0x41F80000#32),
    unary main_cst_148 main_v535 (broadcastInDim S2097152 ![] bcast_S_S2097152 : (⟨S_, .f32⟩ : BufTy).Contents (Elt F) → (⟨S2097152, .f32⟩ : BufTy).Contents (Elt F)),
    binary main_v534 main_v535 main_v536 (mulf : (⟨S2097152, .f32⟩ : BufTy).Contents (Elt F) → (⟨S2097152, .f32⟩ : BufTy).Contents (Elt F) → (⟨S2097152, .f32⟩ : BufTy).Contents (Elt F)),
    unary main_v531 main_v537 (Host.floor : (⟨S2097152, .f32⟩ : BufTy).Contents (Elt F) → (⟨S2097152, .f32⟩ : BufTy).Contents (Elt F)),
    unary main_v536 main_v538 (Host.floor : (⟨S2097152, .f32⟩ : BufTy).Contents (Elt F) → (⟨S2097152, .f32⟩ : BufTy).Contents (Elt F)),
    binary main_v531 main_v537 main_v539 (subf : (⟨S2097152, .f32⟩ : BufTy).Contents (Elt F) → (⟨S2097152, .f32⟩ : BufTy).Contents (Elt F) → (⟨S2097152, .f32⟩ : BufTy).Contents (Elt F)),
    unary main_v539 main_v540 (broadcastInDim S2097152x1 ![0] bcast_S2097152_S2097152x1_0 : (⟨S2097152, .f32⟩ : BufTy).Contents (Elt F) → (⟨S2097152x1, .f32⟩ : BufTy).Contents (Elt F)),
    binary main_v536 main_v538 main_v541 (subf : (⟨S2097152, .f32⟩ : BufTy).Contents (Elt F) → (⟨S2097152, .f32⟩ : BufTy).Contents (Elt F) → (⟨S2097152, .f32⟩ : BufTy).Contents (Elt F)),
    unary main_v541 main_v542 (broadcastInDim S2097152x1 ![0] bcast_S2097152_S2097152x1_0 : (⟨S2097152, .f32⟩ : BufTy).Contents (Elt F) → (⟨S2097152x1, .f32⟩ : BufTy).Contents (Elt F)),
    unary main_v537 main_v543 (fptosi 32 : (⟨S2097152, .f32⟩ : BufTy).Contents (Elt F) → (⟨S2097152, .i32⟩ : BufTy).Contents (Elt F)),
    unary main_v538 main_v544 (fptosi 32 : (⟨S2097152, .f32⟩ : BufTy).Contents (Elt F) → (⟨S2097152, .i32⟩ : BufTy).Contents (Elt F)),
    nullary main_c_149 (constantI S_ 32 1#32),
    unary main_c_149 main_v545 (broadcastInDim S2097152 ![] bcast_S_S2097152 : (⟨S_, .i32⟩ : BufTy).Contents (Elt F) → (⟨S2097152, .i32⟩ : BufTy).Contents (Elt F)),
    binary main_v543 main_v545 main_v546 (addi : (⟨S2097152, .i32⟩ : BufTy).Contents (Elt F) → (⟨S2097152, .i32⟩ : BufTy).Contents (Elt F) → (⟨S2097152, .i32⟩ : BufTy).Contents (Elt F)),
    nullary main_c_150 (constantI S_ 32 31#32),
    unary main_c_150 main_v547 (broadcastInDim S2097152 ![] bcast_S_S2097152 : (⟨S_, .i32⟩ : BufTy).Contents (Elt F) → (⟨S2097152, .i32⟩ : BufTy).Contents (Elt F)),
    binary main_v546 main_v547 main_v548 (minsi : (⟨S2097152, .i32⟩ : BufTy).Contents (Elt F) → (⟨S2097152, .i32⟩ : BufTy).Contents (Elt F) → (⟨S2097152, .i32⟩ : BufTy).Contents (Elt F)),
    nullary main_c_151 (constantI S_ 32 1#32),
    unary main_c_151 main_v549 (broadcastInDim S2097152 ![] bcast_S_S2097152 : (⟨S_, .i32⟩ : BufTy).Contents (Elt F) → (⟨S2097152, .i32⟩ : BufTy).Contents (Elt F)),
    binary main_v544 main_v549 main_v550 (addi : (⟨S2097152, .i32⟩ : BufTy).Contents (Elt F) → (⟨S2097152, .i32⟩ : BufTy).Contents (Elt F) → (⟨S2097152, .i32⟩ : BufTy).Contents (Elt F)),
    nullary main_c_152 (constantI S_ 32 31#32),
    unary main_c_152 main_v551 (broadcastInDim S2097152 ![] bcast_S_S2097152 : (⟨S_, .i32⟩ : BufTy).Contents (Elt F) → (⟨S2097152, .i32⟩ : BufTy).Contents (Elt F)),
    binary main_v550 main_v551 main_v552 (minsi : (⟨S2097152, .i32⟩ : BufTy).Contents (Elt F) → (⟨S2097152, .i32⟩ : BufTy).Contents (Elt F) → (⟨S2097152, .i32⟩ : BufTy).Contents (Elt F)),
    nullary main_c_153 (constantI S_ 32 0#32),
    unary main_c_153 main_v553 (broadcastInDim S2097152 ![] bcast_S_S2097152 : (⟨S_, .i32⟩ : BufTy).Contents (Elt F) → (⟨S2097152, .i32⟩ : BufTy).Contents (Elt F)),
    binary main_v543 main_v553 main_v554 (cmpi .slt : (⟨S2097152, .i32⟩ : BufTy).Contents (Elt F) → (⟨S2097152, .i32⟩ : BufTy).Contents (Elt F) → (⟨S2097152, .i1⟩ : BufTy).Contents (Elt F)),
    nullary main_c_154 (constantI S_ 32 32#32),
    unary main_c_154 main_v555 (broadcastInDim S2097152 ![] bcast_S_S2097152 : (⟨S_, .i32⟩ : BufTy).Contents (Elt F) → (⟨S2097152, .i32⟩ : BufTy).Contents (Elt F)),
    binary main_v543 main_v555 main_v556 (addi : (⟨S2097152, .i32⟩ : BufTy).Contents (Elt F) → (⟨S2097152, .i32⟩ : BufTy).Contents (Elt F) → (⟨S2097152, .i32⟩ : BufTy).Contents (Elt F)),
    ternary main_v554 main_v556 main_v543 main_v557 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_155 (constantI S_ 32 0#32),
    unary main_c_155 main_v558 (broadcastInDim S2097152 ![] bcast_S_S2097152 : (⟨S_, .i32⟩ : BufTy).Contents (Elt F) → (⟨S2097152, .i32⟩ : BufTy).Contents (Elt F)),
    binary main_v544 main_v558 main_v559 (cmpi .slt : (⟨S2097152, .i32⟩ : BufTy).Contents (Elt F) → (⟨S2097152, .i32⟩ : BufTy).Contents (Elt F) → (⟨S2097152, .i1⟩ : BufTy).Contents (Elt F)),
    nullary main_c_156 (constantI S_ 32 32#32),
    unary main_c_156 main_v560 (broadcastInDim S2097152 ![] bcast_S_S2097152 : (⟨S_, .i32⟩ : BufTy).Contents (Elt F) → (⟨S2097152, .i32⟩ : BufTy).Contents (Elt F)),
    binary main_v544 main_v560 main_v561 (addi : (⟨S2097152, .i32⟩ : BufTy).Contents (Elt F) → (⟨S2097152, .i32⟩ : BufTy).Contents (Elt F) → (⟨S2097152, .i32⟩ : BufTy).Contents (Elt F)),
    ternary main_v559 main_v561 main_v544 main_v562 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v557 main_v563 (broadcastInDim S2097152x1 ![0] bcast_S2097152_S2097152x1_0 : (⟨S2097152, .i32⟩ : BufTy).Contents (Elt F) → (⟨S2097152x1, .i32⟩ : BufTy).Contents (Elt F)),
    unary main_v562 main_v564 (broadcastInDim S2097152x1 ![0] bcast_S2097152_S2097152x1_0 : (⟨S2097152, .i32⟩ : BufTy).Contents (Elt F) → (⟨S2097152x1, .i32⟩ : BufTy).Contents (Elt F)),
    binary main_v563 main_v564 main_v565 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v526 main_v565 main_v566 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    nullary main_cst_157 (constant S_ .f32 0x3F800000#32),
    unary main_cst_157 main_v567 (broadcastInDim S2097152x1 ![] bcast_S_S2097152x1 : (⟨S_, .f32⟩ : BufTy).Contents (Elt F) → (⟨S2097152x1, .f32⟩ : BufTy).Contents (Elt F)),
    binary main_v567 main_v540 main_v568 (subf : (⟨S2097152x1, .f32⟩ : BufTy).Contents (Elt F) → (⟨S2097152x1, .f32⟩ : BufTy).Contents (Elt F) → (⟨S2097152x1, .f32⟩ : BufTy).Contents (Elt F)),
    unary main_v568 main_v569 (broadcastInDim S2097152x4 ![0, 1] bcast_S2097152x1_S2097152x4_0_1 : (⟨S2097152x1, .f32⟩ : BufTy).Contents (Elt F) → (⟨S2097152x4, .f32⟩ : BufTy).Contents (Elt F)),
    binary main_v566 main_v569 main_v570 (mulf : (⟨S2097152x4, .f32⟩ : BufTy).Contents (Elt F) → (⟨S2097152x4, .f32⟩ : BufTy).Contents (Elt F) → (⟨S2097152x4, .f32⟩ : BufTy).Contents (Elt F)),
    nullary main_cst_158 (constant S_ .f32 0x3F800000#32),
    unary main_cst_158 main_v571 (broadcastInDim S2097152x1 ![] bcast_S_S2097152x1 : (⟨S_, .f32⟩ : BufTy).Contents (Elt F) → (⟨S2097152x1, .f32⟩ : BufTy).Contents (Elt F)),
    binary main_v571 main_v542 main_v572 (subf : (⟨S2097152x1, .f32⟩ : BufTy).Contents (Elt F) → (⟨S2097152x1, .f32⟩ : BufTy).Contents (Elt F) → (⟨S2097152x1, .f32⟩ : BufTy).Contents (Elt F)),
    unary main_v572 main_v573 (broadcastInDim S2097152x4 ![0, 1] bcast_S2097152x1_S2097152x4_0_1 : (⟨S2097152x1, .f32⟩ : BufTy).Contents (Elt F) → (⟨S2097152x4, .f32⟩ : BufTy).Contents (Elt F)),
    binary main_v570 main_v573 main_v574 (mulf : (⟨S2097152x4, .f32⟩ : BufTy).Contents (Elt F) → (⟨S2097152x4, .f32⟩ : BufTy).Contents (Elt F) → (⟨S2097152x4, .f32⟩ : BufTy).Contents (Elt F)),
    nullary main_c_159 (constantI S_ 32 0#32),
    unary main_c_159 main_v575 (broadcastInDim S2097152 ![] bcast_S_S2097152 : (⟨S_, .i32⟩ : BufTy).Contents (Elt F) → (⟨S2097152, .i32⟩ : BufTy).Contents (Elt F)),
    binary main_v548 main_v575 main_v576 (cmpi .slt : (⟨S2097152, .i32⟩ : BufTy).Contents (Elt F) → (⟨S2097152, .i32⟩ : BufTy).Contents (Elt F) → (⟨S2097152, .i1⟩ : BufTy).Contents (Elt F)),
    nullary main_c_160 (constantI S_ 32 32#32),
    unary main_c_160 main_v577 (broadcastInDim S2097152 ![] bcast_S_S2097152 : (⟨S_, .i32⟩ : BufTy).Contents (Elt F) → (⟨S2097152, .i32⟩ : BufTy).Contents (Elt F)),
    binary main_v548 main_v577 main_v578 (addi : (⟨S2097152, .i32⟩ : BufTy).Contents (Elt F) → (⟨S2097152, .i32⟩ : BufTy).Contents (Elt F) → (⟨S2097152, .i32⟩ : BufTy).Contents (Elt F)),
    ternary main_v576 main_v578 main_v548 main_v579 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_161 (constantI S_ 32 0#32),
    unary main_c_161 main_v580 (broadcastInDim S2097152 ![] bcast_S_S2097152 : (⟨S_, .i32⟩ : BufTy).Contents (Elt F) → (⟨S2097152, .i32⟩ : BufTy).Contents (Elt F)),
    binary main_v544 main_v580 main_v581 (cmpi .slt : (⟨S2097152, .i32⟩ : BufTy).Contents (Elt F) → (⟨S2097152, .i32⟩ : BufTy).Contents (Elt F) → (⟨S2097152, .i1⟩ : BufTy).Contents (Elt F)),
    nullary main_c_162 (constantI S_ 32 32#32),
    unary main_c_162 main_v582 (broadcastInDim S2097152 ![] bcast_S_S2097152 : (⟨S_, .i32⟩ : BufTy).Contents (Elt F) → (⟨S2097152, .i32⟩ : BufTy).Contents (Elt F)),
    binary main_v544 main_v582 main_v583 (addi : (⟨S2097152, .i32⟩ : BufTy).Contents (Elt F) → (⟨S2097152, .i32⟩ : BufTy).Contents (Elt F) → (⟨S2097152, .i32⟩ : BufTy).Contents (Elt F)),
    ternary main_v581 main_v583 main_v544 main_v584 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v579 main_v585 (broadcastInDim S2097152x1 ![0] bcast_S2097152_S2097152x1_0 : (⟨S2097152, .i32⟩ : BufTy).Contents (Elt F) → (⟨S2097152x1, .i32⟩ : BufTy).Contents (Elt F)),
    unary main_v584 main_v586 (broadcastInDim S2097152x1 ![0] bcast_S2097152_S2097152x1_0 : (⟨S2097152, .i32⟩ : BufTy).Contents (Elt F) → (⟨S2097152x1, .i32⟩ : BufTy).Contents (Elt F)),
    binary main_v585 main_v586 main_v587 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v526 main_v587 main_v588 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    unary main_v540 main_v589 (broadcastInDim S2097152x4 ![0, 1] bcast_S2097152x1_S2097152x4_0_1 : (⟨S2097152x1, .f32⟩ : BufTy).Contents (Elt F) → (⟨S2097152x4, .f32⟩ : BufTy).Contents (Elt F)),
    binary main_v588 main_v589 main_v590 (mulf : (⟨S2097152x4, .f32⟩ : BufTy).Contents (Elt F) → (⟨S2097152x4, .f32⟩ : BufTy).Contents (Elt F) → (⟨S2097152x4, .f32⟩ : BufTy).Contents (Elt F)),
    nullary main_cst_163 (constant S_ .f32 0x3F800000#32),
    unary main_cst_163 main_v591 (broadcastInDim S2097152x1 ![] bcast_S_S2097152x1 : (⟨S_, .f32⟩ : BufTy).Contents (Elt F) → (⟨S2097152x1, .f32⟩ : BufTy).Contents (Elt F)),
    binary main_v591 main_v542 main_v592 (subf : (⟨S2097152x1, .f32⟩ : BufTy).Contents (Elt F) → (⟨S2097152x1, .f32⟩ : BufTy).Contents (Elt F) → (⟨S2097152x1, .f32⟩ : BufTy).Contents (Elt F)),
    unary main_v592 main_v593 (broadcastInDim S2097152x4 ![0, 1] bcast_S2097152x1_S2097152x4_0_1 : (⟨S2097152x1, .f32⟩ : BufTy).Contents (Elt F) → (⟨S2097152x4, .f32⟩ : BufTy).Contents (Elt F)),
    binary main_v590 main_v593 main_v594 (mulf : (⟨S2097152x4, .f32⟩ : BufTy).Contents (Elt F) → (⟨S2097152x4, .f32⟩ : BufTy).Contents (Elt F) → (⟨S2097152x4, .f32⟩ : BufTy).Contents (Elt F)),
    binary main_v574 main_v594 main_v595 (addf : (⟨S2097152x4, .f32⟩ : BufTy).Contents (Elt F) → (⟨S2097152x4, .f32⟩ : BufTy).Contents (Elt F) → (⟨S2097152x4, .f32⟩ : BufTy).Contents (Elt F)),
    nullary main_c_164 (constantI S_ 32 0#32),
    unary main_c_164 main_v596 (broadcastInDim S2097152 ![] bcast_S_S2097152 : (⟨S_, .i32⟩ : BufTy).Contents (Elt F) → (⟨S2097152, .i32⟩ : BufTy).Contents (Elt F)),
    binary main_v543 main_v596 main_v597 (cmpi .slt : (⟨S2097152, .i32⟩ : BufTy).Contents (Elt F) → (⟨S2097152, .i32⟩ : BufTy).Contents (Elt F) → (⟨S2097152, .i1⟩ : BufTy).Contents (Elt F)),
    nullary main_c_165 (constantI S_ 32 32#32),
    unary main_c_165 main_v598 (broadcastInDim S2097152 ![] bcast_S_S2097152 : (⟨S_, .i32⟩ : BufTy).Contents (Elt F) → (⟨S2097152, .i32⟩ : BufTy).Contents (Elt F)),
    binary main_v543 main_v598 main_v599 (addi : (⟨S2097152, .i32⟩ : BufTy).Contents (Elt F) → (⟨S2097152, .i32⟩ : BufTy).Contents (Elt F) → (⟨S2097152, .i32⟩ : BufTy).Contents (Elt F)),
    ternary main_v597 main_v599 main_v543 main_v600 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_166 (constantI S_ 32 0#32),
    unary main_c_166 main_v601 (broadcastInDim S2097152 ![] bcast_S_S2097152 : (⟨S_, .i32⟩ : BufTy).Contents (Elt F) → (⟨S2097152, .i32⟩ : BufTy).Contents (Elt F)),
    binary main_v552 main_v601 main_v602 (cmpi .slt : (⟨S2097152, .i32⟩ : BufTy).Contents (Elt F) → (⟨S2097152, .i32⟩ : BufTy).Contents (Elt F) → (⟨S2097152, .i1⟩ : BufTy).Contents (Elt F)),
    nullary main_c_167 (constantI S_ 32 32#32),
    unary main_c_167 main_v603 (broadcastInDim S2097152 ![] bcast_S_S2097152 : (⟨S_, .i32⟩ : BufTy).Contents (Elt F) → (⟨S2097152, .i32⟩ : BufTy).Contents (Elt F)),
    binary main_v552 main_v603 main_v604 (addi : (⟨S2097152, .i32⟩ : BufTy).Contents (Elt F) → (⟨S2097152, .i32⟩ : BufTy).Contents (Elt F) → (⟨S2097152, .i32⟩ : BufTy).Contents (Elt F)),
    ternary main_v602 main_v604 main_v552 main_v605 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v600 main_v606 (broadcastInDim S2097152x1 ![0] bcast_S2097152_S2097152x1_0 : (⟨S2097152, .i32⟩ : BufTy).Contents (Elt F) → (⟨S2097152x1, .i32⟩ : BufTy).Contents (Elt F)),
    unary main_v605 main_v607 (broadcastInDim S2097152x1 ![0] bcast_S2097152_S2097152x1_0 : (⟨S2097152, .i32⟩ : BufTy).Contents (Elt F) → (⟨S2097152x1, .i32⟩ : BufTy).Contents (Elt F)),
    binary main_v606 main_v607 main_v608 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v526 main_v608 main_v609 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    nullary main_cst_168 (constant S_ .f32 0x3F800000#32),
    unary main_cst_168 main_v610 (broadcastInDim S2097152x1 ![] bcast_S_S2097152x1 : (⟨S_, .f32⟩ : BufTy).Contents (Elt F) → (⟨S2097152x1, .f32⟩ : BufTy).Contents (Elt F)),
    binary main_v610 main_v540 main_v611 (subf : (⟨S2097152x1, .f32⟩ : BufTy).Contents (Elt F) → (⟨S2097152x1, .f32⟩ : BufTy).Contents (Elt F) → (⟨S2097152x1, .f32⟩ : BufTy).Contents (Elt F)),
    unary main_v611 main_v612 (broadcastInDim S2097152x4 ![0, 1] bcast_S2097152x1_S2097152x4_0_1 : (⟨S2097152x1, .f32⟩ : BufTy).Contents (Elt F) → (⟨S2097152x4, .f32⟩ : BufTy).Contents (Elt F)),
    binary main_v609 main_v612 main_v613 (mulf : (⟨S2097152x4, .f32⟩ : BufTy).Contents (Elt F) → (⟨S2097152x4, .f32⟩ : BufTy).Contents (Elt F) → (⟨S2097152x4, .f32⟩ : BufTy).Contents (Elt F)),
    unary main_v542 main_v614 (broadcastInDim S2097152x4 ![0, 1] bcast_S2097152x1_S2097152x4_0_1 : (⟨S2097152x1, .f32⟩ : BufTy).Contents (Elt F) → (⟨S2097152x4, .f32⟩ : BufTy).Contents (Elt F)),
    binary main_v613 main_v614 main_v615 (mulf : (⟨S2097152x4, .f32⟩ : BufTy).Contents (Elt F) → (⟨S2097152x4, .f32⟩ : BufTy).Contents (Elt F) → (⟨S2097152x4, .f32⟩ : BufTy).Contents (Elt F)),
    binary main_v595 main_v615 main_v616 (addf : (⟨S2097152x4, .f32⟩ : BufTy).Contents (Elt F) → (⟨S2097152x4, .f32⟩ : BufTy).Contents (Elt F) → (⟨S2097152x4, .f32⟩ : BufTy).Contents (Elt F)),
    nullary main_c_169 (constantI S_ 32 0#32),
    unary main_c_169 main_v617 (broadcastInDim S2097152 ![] bcast_S_S2097152 : (⟨S_, .i32⟩ : BufTy).Contents (Elt F) → (⟨S2097152, .i32⟩ : BufTy).Contents (Elt F)),
    binary main_v548 main_v617 main_v618 (cmpi .slt : (⟨S2097152, .i32⟩ : BufTy).Contents (Elt F) → (⟨S2097152, .i32⟩ : BufTy).Contents (Elt F) → (⟨S2097152, .i1⟩ : BufTy).Contents (Elt F)),
    nullary main_c_170 (constantI S_ 32 32#32),
    unary main_c_170 main_v619 (broadcastInDim S2097152 ![] bcast_S_S2097152 : (⟨S_, .i32⟩ : BufTy).Contents (Elt F) → (⟨S2097152, .i32⟩ : BufTy).Contents (Elt F)),
    binary main_v548 main_v619 main_v620 (addi : (⟨S2097152, .i32⟩ : BufTy).Contents (Elt F) → (⟨S2097152, .i32⟩ : BufTy).Contents (Elt F) → (⟨S2097152, .i32⟩ : BufTy).Contents (Elt F)),
    ternary main_v618 main_v620 main_v548 main_v621 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_171 (constantI S_ 32 0#32),
    unary main_c_171 main_v622 (broadcastInDim S2097152 ![] bcast_S_S2097152 : (⟨S_, .i32⟩ : BufTy).Contents (Elt F) → (⟨S2097152, .i32⟩ : BufTy).Contents (Elt F)),
    binary main_v552 main_v622 main_v623 (cmpi .slt : (⟨S2097152, .i32⟩ : BufTy).Contents (Elt F) → (⟨S2097152, .i32⟩ : BufTy).Contents (Elt F) → (⟨S2097152, .i1⟩ : BufTy).Contents (Elt F)),
    nullary main_c_172 (constantI S_ 32 32#32),
    unary main_c_172 main_v624 (broadcastInDim S2097152 ![] bcast_S_S2097152 : (⟨S_, .i32⟩ : BufTy).Contents (Elt F) → (⟨S2097152, .i32⟩ : BufTy).Contents (Elt F)),
    binary main_v552 main_v624 main_v625 (addi : (⟨S2097152, .i32⟩ : BufTy).Contents (Elt F) → (⟨S2097152, .i32⟩ : BufTy).Contents (Elt F) → (⟨S2097152, .i32⟩ : BufTy).Contents (Elt F)),
    ternary main_v623 main_v625 main_v552 main_v626 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v621 main_v627 (broadcastInDim S2097152x1 ![0] bcast_S2097152_S2097152x1_0 : (⟨S2097152, .i32⟩ : BufTy).Contents (Elt F) → (⟨S2097152x1, .i32⟩ : BufTy).Contents (Elt F)),
    unary main_v626 main_v628 (broadcastInDim S2097152x1 ![0] bcast_S2097152_S2097152x1_0 : (⟨S2097152, .i32⟩ : BufTy).Contents (Elt F) → (⟨S2097152x1, .i32⟩ : BufTy).Contents (Elt F)),
    binary main_v627 main_v628 main_v629 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v526 main_v629 main_v630 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    unary main_v540 main_v631 (broadcastInDim S2097152x4 ![0, 1] bcast_S2097152x1_S2097152x4_0_1 : (⟨S2097152x1, .f32⟩ : BufTy).Contents (Elt F) → (⟨S2097152x4, .f32⟩ : BufTy).Contents (Elt F)),
    binary main_v630 main_v631 main_v632 (mulf : (⟨S2097152x4, .f32⟩ : BufTy).Contents (Elt F) → (⟨S2097152x4, .f32⟩ : BufTy).Contents (Elt F) → (⟨S2097152x4, .f32⟩ : BufTy).Contents (Elt F)),
    unary main_v542 main_v633 (broadcastInDim S2097152x4 ![0, 1] bcast_S2097152x1_S2097152x4_0_1 : (⟨S2097152x1, .f32⟩ : BufTy).Contents (Elt F) → (⟨S2097152x4, .f32⟩ : BufTy).Contents (Elt F)),
    binary main_v632 main_v633 main_v634 (mulf : (⟨S2097152x4, .f32⟩ : BufTy).Contents (Elt F) → (⟨S2097152x4, .f32⟩ : BufTy).Contents (Elt F) → (⟨S2097152x4, .f32⟩ : BufTy).Contents (Elt F)),
    binary main_v616 main_v634 main_v635 (addf : (⟨S2097152x4, .f32⟩ : BufTy).Contents (Elt F) → (⟨S2097152x4, .f32⟩ : BufTy).Contents (Elt F) → (⟨S2097152x4, .f32⟩ : BufTy).Contents (Elt F)) ]
/-- The references the operations of the chunk R7 write, in order. -/
abbrev R7w : List (Ref sig .tc) :=
  [main_cst_139, main_v516, main_v517, main_cst_140, main_v518, main_v519, main_cst_141, main_v520, main_v521, main_v522, main_v523, main_v524, main_cst_142, main_v525, main_v526, main_v527, main_v528, main_cst_143, main_cst_144, main_call13_v0, main_call13_v1, main_call13_v2, main_call13_v3, main_call13_v4, main_v529, main_cst_145, main_v530, main_v531, main_v532, main_v533, main_cst_146, main_cst_147, main_call14_v0, main_call14_v1, main_call14_v2, main_call14_v3, main_call14_v4, main_v534, main_cst_148, main_v535, main_v536, main_v537, main_v538, main_v539, main_v540, main_v541, main_v542, main_v543, main_v544, main_c_149, main_v545, main_v546, main_c_150, main_v547, main_v548, main_c_151, main_v549, main_v550, main_c_152, main_v551, main_v552, main_c_153, main_v553, main_v554, main_c_154, main_v555, main_v556, main_v557, main_c_155, main_v558, main_v559, main_c_156, main_v560, main_v561, main_v562, main_v563, main_v564, main_v565, main_v566, main_cst_157, main_v567, main_v568, main_v569, main_v570, main_cst_158, main_v571, main_v572, main_v573, main_v574, main_c_159, main_v575, main_v576, main_c_160, main_v577, main_v578, main_v579, main_c_161, main_v580, main_v581, main_c_162, main_v582, main_v583, main_v584, main_v585, main_v586, main_v587, main_v588, main_v589, main_v590, main_cst_163, main_v591, main_v592, main_v593, main_v594, main_v595, main_c_164, main_v596, main_v597, main_c_165, main_v598, main_v599, main_v600, main_c_166, main_v601, main_v602, main_c_167, main_v603, main_v604, main_v605, main_v606, main_v607, main_v608, main_v609, main_cst_168, main_v610, main_v611, main_v612, main_v613, main_v614, main_v615, main_v616, main_c_169, main_v617, main_v618, main_c_170, main_v619, main_v620, main_v621, main_c_171, main_v622, main_v623, main_c_172, main_v624, main_v625, main_v626, main_v627, main_v628, main_v629, main_v630, main_v631, main_v632, main_v633, main_v634, main_v635]

set_option maxHeartbeats 40000000 in
/-- Operations 871 to 1041 of the program, in order (171 operations). -/
abbrev R8 : List (HloOp τ sig (Elt F)) :=
  [ unary main_arg4 main_v636 ((extractStridedSlice S2097152x1 ![0, 1] · slices_S2097152x2_S2097152x1_0_1) : (⟨S2097152x2, .f32⟩ : BufTy).Contents (Elt F) → (⟨S2097152x1, .f32⟩ : BufTy).Contents (Elt F)),
    reshape main_v636 main_v637 rfl shapeCasts_S2097152x1_S2097152,
    unary main_arg2 main_v638 ((extractStridedSlice S2097152x1 ![0, 0] · slices_S2097152x2_S2097152x1_0_0) : (⟨S2097152x2, .f32⟩ : BufTy).Contents (Elt F) → (⟨S2097152x1, .f32⟩ : BufTy).Contents (Elt F)),
    reshape main_v638 main_v639 rfl shapeCasts_S2097152x1_S2097152,
    unary main_v637 main_v640 (broadcastInDim S2097152x1 ![0] bcast_S2097152_S2097152x1_0 : (⟨S2097152, .f32⟩ : BufTy).Contents (Elt F) → (⟨S2097152x1, .f32⟩ : BufTy).Contents (Elt F)),
    unary main_v639 main_v641 (broadcastInDim S2097152x1 ![0] bcast_S2097152_S2097152x1_0 : (⟨S2097152, .f32⟩ : BufTy).Contents (Elt F) → (⟨S2097152x1, .f32⟩ : BufTy).Contents (Elt F)),
    binary main_v640 main_v641 main_v642 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)),
    nullary main_cst_173 (constant S_ .f32 0x40000000#32),
    unary main_cst_173 main_v643 (broadcastInDim S32x32x4 ![] bcast_S_S32x32x4 : (⟨S_, .f32⟩ : BufTy).Contents (Elt F) → (⟨S32x32x4, .f32⟩ : BufTy).Contents (Elt F)),
    binary main_arg16 main_v643 main_v644 (Host.divf : (⟨S32x32x4, .f32⟩ : BufTy).Contents (Elt F) → (⟨S32x32x4, .f32⟩ : BufTy).Contents (Elt F) → (⟨S32x32x4, .f32⟩ : BufTy).Contents (Elt F)),
    nullary main_cst_174 (constant S_ .f32 0x40000000#32),
    unary main_cst_174 main_v645 (broadcastInDim S32x32x4 ![] bcast_S_S32x32x4 : (⟨S_, .f32⟩ : BufTy).Contents (Elt F) → (⟨S32x32x4, .f32⟩ : BufTy).Contents (Elt F)),
    binary main_arg16 main_v645 main_v646 (Host.divf : (⟨S32x32x4, .f32⟩ : BufTy).Contents (Elt F) → (⟨S32x32x4, .f32⟩ : BufTy).Contents (Elt F) → (⟨S32x32x4, .f32⟩ : BufTy).Contents (Elt F)),
    nullary main_cst_175 (constant S_ .f32 0x3F000000#32),
    unary main_cst_175 main_v647 (broadcastInDim S32x32x4 ![] bcast_S_S32x32x4 : (⟨S_, .f32⟩ : BufTy).Contents (Elt F) → (⟨S32x32x4, .f32⟩ : BufTy).Contents (Elt F)),
    binary main_v646 main_v647 main_v648 (addf : (⟨S32x32x4, .f32⟩ : BufTy).Contents (Elt F) → (⟨S32x32x4, .f32⟩ : BufTy).Contents (Elt F) → (⟨S32x32x4, .f32⟩ : BufTy).Contents (Elt F)),
    unary main_v648 main_v649 (Host.floor : (⟨S32x32x4, .f32⟩ : BufTy).Contents (Elt F) → (⟨S32x32x4, .f32⟩ : BufTy).Contents (Elt F)),
    binary main_v644 main_v649 main_v650 (subf : (⟨S32x32x4, .f32⟩ : BufTy).Contents (Elt F) → (⟨S32x32x4, .f32⟩ : BufTy).Contents (Elt F) → (⟨S32x32x4, .f32⟩ : BufTy).Contents (Elt F)),
    unary main_v650 main_v651 (Host.absf : (⟨S32x32x4, .f32⟩ : BufTy).Contents (Elt F) → (⟨S32x32x4, .f32⟩ : BufTy).Contents (Elt F)),
    nullary main_cst_176 (constant S_ .f32 0x40000000#32),
    unary main_cst_176 main_v652 (broadcastInDim S32x32x4 ![] bcast_S_S32x32x4 : (⟨S_, .f32⟩ : BufTy).Contents (Elt F) → (⟨S32x32x4, .f32⟩ : BufTy).Contents (Elt F)),
    binary main_v652 main_v651 main_v653 (mulf : (⟨S32x32x4, .f32⟩ : BufTy).Contents (Elt F) → (⟨S32x32x4, .f32⟩ : BufTy).Contents (Elt F) → (⟨S32x32x4, .f32⟩ : BufTy).Contents (Elt F)),
    unary main_v642 main_v654 ((extractStridedSlice S2097152x1 ![0, 0] · slices_S2097152x2_S2097152x1_0_0) : (⟨S2097152x2, .f32⟩ : BufTy).Contents (Elt F) → (⟨S2097152x1, .f32⟩ : BufTy).Contents (Elt F)),
    reshape main_v654 main_v655 rfl shapeCasts_S2097152x1_S2097152,
    nullary main_cst_177 (constant S_ .f32 0x00000000#32),
    nullary main_cst_178 (constant S_ .f32 0x3F7FFFEF#32),
    TRef.unary (TRef.of (T := ⟨S_, .f32⟩) main_cst_177) (TRef.of (T := ⟨S_, .f32⟩) main_call15_v0) id,
    TRef.unary (TRef.of (T := ⟨S_, .f32⟩) main_call15_v0) (TRef.of (T := ⟨S2097152, .f32⟩) main_call15_v1) (broadcastInDim S2097152 ![] bcast_S_S2097152),
    TRef.binary (TRef.of (T := ⟨S2097152, .f32⟩) main_call15_v1) (TRef.of (T := ⟨S2097152, .f32⟩) main_v655) (TRef.of (T := ⟨S2097152, .f32⟩) main_call15_v2) maximumf,
    TRef.unary (TRef.of (T := ⟨S_, .f32⟩) main_cst_178) (TRef.of (T := ⟨S_, .f32⟩) main_call15_v3) id,
    TRef.unary (TRef.of (T := ⟨S_, .f32⟩) main_call15_v3) (TRef.of (T := ⟨S2097152, .f32⟩) main_call15_v4) (broadcastInDim S2097152 ![] bcast_S_S2097152),
    TRef.binary (TRef.of (T := ⟨S2097152, .f32⟩) main_call15_v4) (TRef.of (T := ⟨S2097152, .f32⟩) main_call15_v2) (TRef.of (T := ⟨S2097152, .f32⟩) main_v656) minimumf,
    nullary main_cst_179 (constant S_ .f32 0x41F80000#32),
    unary main_cst_179 main_v657 (broadcastInDim S2097152 ![] bcast_S_S2097152 : (⟨S_, .f32⟩ : BufTy).Contents (Elt F) → (⟨S2097152, .f32⟩ : BufTy).Contents (Elt F)),
    binary main_v656 main_v657 main_v658 (mulf : (⟨S2097152, .f32⟩ : BufTy).Contents (Elt F) → (⟨S2097152, .f32⟩ : BufTy).Contents (Elt F) → (⟨S2097152, .f32⟩ : BufTy).Contents (Elt F)),
    unary main_v642 main_v659 ((extractStridedSlice S2097152x1 ![0, 1] · slices_S2097152x2_S2097152x1_0_1) : (⟨S2097152x2, .f32⟩ : BufTy).Contents (Elt F) → (⟨S2097152x1, .f32⟩ : BufTy).Contents (Elt F)),
    reshape main_v659 main_v660 rfl shapeCasts_S2097152x1_S2097152,
    nullary main_cst_180 (constant S_ .f32 0x00000000#32),
    nullary main_cst_181 (constant S_ .f32 0x3F7FFFEF#32),
    TRef.unary (TRef.of (T := ⟨S_, .f32⟩) main_cst_180) (TRef.of (T := ⟨S_, .f32⟩) main_call16_v0) id,
    TRef.unary (TRef.of (T := ⟨S_, .f32⟩) main_call16_v0) (TRef.of (T := ⟨S2097152, .f32⟩) main_call16_v1) (broadcastInDim S2097152 ![] bcast_S_S2097152),
    TRef.binary (TRef.of (T := ⟨S2097152, .f32⟩) main_call16_v1) (TRef.of (T := ⟨S2097152, .f32⟩) main_v660) (TRef.of (T := ⟨S2097152, .f32⟩) main_call16_v2) maximumf,
    TRef.unary (TRef.of (T := ⟨S_, .f32⟩) main_cst_181) (TRef.of (T := ⟨S_, .f32⟩) main_call16_v3) id,
    TRef.unary (TRef.of (T := ⟨S_, .f32⟩) main_call16_v3) (TRef.of (T := ⟨S2097152, .f32⟩) main_call16_v4) (broadcastInDim S2097152 ![] bcast_S_S2097152),
    TRef.binary (TRef.of (T := ⟨S2097152, .f32⟩) main_call16_v4) (TRef.of (T := ⟨S2097152, .f32⟩) main_call16_v2) (TRef.of (T := ⟨S2097152, .f32⟩) main_v661) minimumf,
    nullary main_cst_182 (constant S_ .f32 0x41F80000#32),
    unary main_cst_182 main_v662 (broadcastInDim S2097152 ![] bcast_S_S2097152 : (⟨S_, .f32⟩ : BufTy).Contents (Elt F) → (⟨S2097152, .f32⟩ : BufTy).Contents (Elt F)),
    binary main_v661 main_v662 main_v663 (mulf : (⟨S2097152, .f32⟩ : BufTy).Contents (Elt F) → (⟨S2097152, .f32⟩ : BufTy).Contents (Elt F) → (⟨S2097152, .f32⟩ : BufTy).Contents (Elt F)),
    unary main_v658 main_v664 (Host.floor : (⟨S2097152, .f32⟩ : BufTy).Contents (Elt F) → (⟨S2097152, .f32⟩ : BufTy).Contents (Elt F)),
    unary main_v663 main_v665 (Host.floor : (⟨S2097152, .f32⟩ : BufTy).Contents (Elt F) → (⟨S2097152, .f32⟩ : BufTy).Contents (Elt F)),
    binary main_v658 main_v664 main_v666 (subf : (⟨S2097152, .f32⟩ : BufTy).Contents (Elt F) → (⟨S2097152, .f32⟩ : BufTy).Contents (Elt F) → (⟨S2097152, .f32⟩ : BufTy).Contents (Elt F)),
    unary main_v666 main_v667 (broadcastInDim S2097152x1 ![0] bcast_S2097152_S2097152x1_0 : (⟨S2097152, .f32⟩ : BufTy).Contents (Elt F) → (⟨S2097152x1, .f32⟩ : BufTy).Contents (Elt F)),
    binary main_v663 main_v665 main_v668 (subf : (⟨S2097152, .f32⟩ : BufTy).Contents (Elt F) → (⟨S2097152, .f32⟩ : BufTy).Contents (Elt F) → (⟨S2097152, .f32⟩ : BufTy).Contents (Elt F)),
    unary main_v668 main_v669 (broadcastInDim S2097152x1 ![0] bcast_S2097152_S2097152x1_0 : (⟨S2097152, .f32⟩ : BufTy).Contents (Elt F) → (⟨S2097152x1, .f32⟩ : BufTy).Contents (Elt F)),
    unary main_v664 main_v670 (fptosi 32 : (⟨S2097152, .f32⟩ : BufTy).Contents (Elt F) → (⟨S2097152, .i32⟩ : BufTy).Contents (Elt F)),
    unary main_v665 main_v671 (fptosi 32 : (⟨S2097152, .f32⟩ : BufTy).Contents (Elt F) → (⟨S2097152, .i32⟩ : BufTy).Contents (Elt F)),
    nullary main_c_183 (constantI S_ 32 1#32),
    unary main_c_183 main_v672 (broadcastInDim S2097152 ![] bcast_S_S2097152 : (⟨S_, .i32⟩ : BufTy).Contents (Elt F) → (⟨S2097152, .i32⟩ : BufTy).Contents (Elt F)),
    binary main_v670 main_v672 main_v673 (addi : (⟨S2097152, .i32⟩ : BufTy).Contents (Elt F) → (⟨S2097152, .i32⟩ : BufTy).Contents (Elt F) → (⟨S2097152, .i32⟩ : BufTy).Contents (Elt F)),
    nullary main_c_184 (constantI S_ 32 31#32),
    unary main_c_184 main_v674 (broadcastInDim S2097152 ![] bcast_S_S2097152 : (⟨S_, .i32⟩ : BufTy).Contents (Elt F) → (⟨S2097152, .i32⟩ : BufTy).Contents (Elt F)),
    binary main_v673 main_v674 main_v675 (minsi : (⟨S2097152, .i32⟩ : BufTy).Contents (Elt F) → (⟨S2097152, .i32⟩ : BufTy).Contents (Elt F) → (⟨S2097152, .i32⟩ : BufTy).Contents (Elt F)),
    nullary main_c_185 (constantI S_ 32 1#32),
    unary main_c_185 main_v676 (broadcastInDim S2097152 ![] bcast_S_S2097152 : (⟨S_, .i32⟩ : BufTy).Contents (Elt F) → (⟨S2097152, .i32⟩ : BufTy).Contents (Elt F)),
    binary main_v671 main_v676 main_v677 (addi : (⟨S2097152, .i32⟩ : BufTy).Contents (Elt F) → (⟨S2097152, .i32⟩ : BufTy).Contents (Elt F) → (⟨S2097152, .i32⟩ : BufTy).Contents (Elt F)),
    nullary main_c_186 (constantI S_ 32 31#32),
    unary main_c_186 main_v678 (broadcastInDim S2097152 ![] bcast_S_S2097152 : (⟨S_, .i32⟩ : BufTy).Contents (Elt F) → (⟨S2097152, .i32⟩ : BufTy).Contents (Elt F)),
    binary main_v677 main_v678 main_v679 (minsi : (⟨S2097152, .i32⟩ : BufTy).Contents (Elt F) → (⟨S2097152, .i32⟩ : BufTy).Contents (Elt F) → (⟨S2097152, .i32⟩ : BufTy).Contents (Elt F)),
    nullary main_c_187 (constantI S_ 32 0#32),
    unary main_c_187 main_v680 (broadcastInDim S2097152 ![] bcast_S_S2097152 : (⟨S_, .i32⟩ : BufTy).Contents (Elt F) → (⟨S2097152, .i32⟩ : BufTy).Contents (Elt F)),
    binary main_v670 main_v680 main_v681 (cmpi .slt : (⟨S2097152, .i32⟩ : BufTy).Contents (Elt F) → (⟨S2097152, .i32⟩ : BufTy).Contents (Elt F) → (⟨S2097152, .i1⟩ : BufTy).Contents (Elt F)),
    nullary main_c_188 (constantI S_ 32 32#32),
    unary main_c_188 main_v682 (broadcastInDim S2097152 ![] bcast_S_S2097152 : (⟨S_, .i32⟩ : BufTy).Contents (Elt F) → (⟨S2097152, .i32⟩ : BufTy).Contents (Elt F)),
    binary main_v670 main_v682 main_v683 (addi : (⟨S2097152, .i32⟩ : BufTy).Contents (Elt F) → (⟨S2097152, .i32⟩ : BufTy).Contents (Elt F) → (⟨S2097152, .i32⟩ : BufTy).Contents (Elt F)),
    ternary main_v681 main_v683 main_v670 main_v684 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_189 (constantI S_ 32 0#32),
    unary main_c_189 main_v685 (broadcastInDim S2097152 ![] bcast_S_S2097152 : (⟨S_, .i32⟩ : BufTy).Contents (Elt F) → (⟨S2097152, .i32⟩ : BufTy).Contents (Elt F)),
    binary main_v671 main_v685 main_v686 (cmpi .slt : (⟨S2097152, .i32⟩ : BufTy).Contents (Elt F) → (⟨S2097152, .i32⟩ : BufTy).Contents (Elt F) → (⟨S2097152, .i1⟩ : BufTy).Contents (Elt F)),
    nullary main_c_190 (constantI S_ 32 32#32),
    unary main_c_190 main_v687 (broadcastInDim S2097152 ![] bcast_S_S2097152 : (⟨S_, .i32⟩ : BufTy).Contents (Elt F) → (⟨S2097152, .i32⟩ : BufTy).Contents (Elt F)),
    binary main_v671 main_v687 main_v688 (addi : (⟨S2097152, .i32⟩ : BufTy).Contents (Elt F) → (⟨S2097152, .i32⟩ : BufTy).Contents (Elt F) → (⟨S2097152, .i32⟩ : BufTy).Contents (Elt F)),
    ternary main_v686 main_v688 main_v671 main_v689 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v684 main_v690 (broadcastInDim S2097152x1 ![0] bcast_S2097152_S2097152x1_0 : (⟨S2097152, .i32⟩ : BufTy).Contents (Elt F) → (⟨S2097152x1, .i32⟩ : BufTy).Contents (Elt F)),
    unary main_v689 main_v691 (broadcastInDim S2097152x1 ![0] bcast_S2097152_S2097152x1_0 : (⟨S2097152, .i32⟩ : BufTy).Contents (Elt F) → (⟨S2097152x1, .i32⟩ : BufTy).Contents (Elt F)),
    binary main_v690 main_v691 main_v692 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v653 main_v692 main_v693 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    nullary main_cst_191 (constant S_ .f32 0x3F800000#32),
    unary main_cst_191 main_v694 (broadcastInDim S2097152x1 ![] bcast_S_S2097152x1 : (⟨S_, .f32⟩ : BufTy).Contents (Elt F) → (⟨S2097152x1, .f32⟩ : BufTy).Contents (Elt F)),
    binary main_v694 main_v667 main_v695 (subf : (⟨S2097152x1, .f32⟩ : BufTy).Contents (Elt F) → (⟨S2097152x1, .f32⟩ : BufTy).Contents (Elt F) → (⟨S2097152x1, .f32⟩ : BufTy).Contents (Elt F)),
    unary main_v695 main_v696 (broadcastInDim S2097152x4 ![0, 1] bcast_S2097152x1_S2097152x4_0_1 : (⟨S2097152x1, .f32⟩ : BufTy).Contents (Elt F) → (⟨S2097152x4, .f32⟩ : BufTy).Contents (Elt F)),
    binary main_v693 main_v696 main_v697 (mulf : (⟨S2097152x4, .f32⟩ : BufTy).Contents (Elt F) → (⟨S2097152x4, .f32⟩ : BufTy).Contents (Elt F) → (⟨S2097152x4, .f32⟩ : BufTy).Contents (Elt F)),
    nullary main_cst_192 (constant S_ .f32 0x3F800000#32),
    unary main_cst_192 main_v698 (broadcastInDim S2097152x1 ![] bcast_S_S2097152x1 : (⟨S_, .f32⟩ : BufTy).Contents (Elt F) → (⟨S2097152x1, .f32⟩ : BufTy).Contents (Elt F)),
    binary main_v698 main_v669 main_v699 (subf : (⟨S2097152x1, .f32⟩ : BufTy).Contents (Elt F) → (⟨S2097152x1, .f32⟩ : BufTy).Contents (Elt F) → (⟨S2097152x1, .f32⟩ : BufTy).Contents (Elt F)),
    unary main_v699 main_v700 (broadcastInDim S2097152x4 ![0, 1] bcast_S2097152x1_S2097152x4_0_1 : (⟨S2097152x1, .f32⟩ : BufTy).Contents (Elt F) → (⟨S2097152x4, .f32⟩ : BufTy).Contents (Elt F)),
    binary main_v697 main_v700 main_v701 (mulf : (⟨S2097152x4, .f32⟩ : BufTy).Contents (Elt F) → (⟨S2097152x4, .f32⟩ : BufTy).Contents (Elt F) → (⟨S2097152x4, .f32⟩ : BufTy).Contents (Elt F)),
    nullary main_c_193 (constantI S_ 32 0#32),
    unary main_c_193 main_v702 (broadcastInDim S2097152 ![] bcast_S_S2097152 : (⟨S_, .i32⟩ : BufTy).Contents (Elt F) → (⟨S2097152, .i32⟩ : BufTy).Contents (Elt F)),
    binary main_v675 main_v702 main_v703 (cmpi .slt : (⟨S2097152, .i32⟩ : BufTy).Contents (Elt F) → (⟨S2097152, .i32⟩ : BufTy).Contents (Elt F) → (⟨S2097152, .i1⟩ : BufTy).Contents (Elt F)),
    nullary main_c_194 (constantI S_ 32 32#32),
    unary main_c_194 main_v704 (broadcastInDim S2097152 ![] bcast_S_S2097152 : (⟨S_, .i32⟩ : BufTy).Contents (Elt F) → (⟨S2097152, .i32⟩ : BufTy).Contents (Elt F)),
    binary main_v675 main_v704 main_v705 (addi : (⟨S2097152, .i32⟩ : BufTy).Contents (Elt F) → (⟨S2097152, .i32⟩ : BufTy).Contents (Elt F) → (⟨S2097152, .i32⟩ : BufTy).Contents (Elt F)),
    ternary main_v703 main_v705 main_v675 main_v706 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_195 (constantI S_ 32 0#32),
    unary main_c_195 main_v707 (broadcastInDim S2097152 ![] bcast_S_S2097152 : (⟨S_, .i32⟩ : BufTy).Contents (Elt F) → (⟨S2097152, .i32⟩ : BufTy).Contents (Elt F)),
    binary main_v671 main_v707 main_v708 (cmpi .slt : (⟨S2097152, .i32⟩ : BufTy).Contents (Elt F) → (⟨S2097152, .i32⟩ : BufTy).Contents (Elt F) → (⟨S2097152, .i1⟩ : BufTy).Contents (Elt F)),
    nullary main_c_196 (constantI S_ 32 32#32),
    unary main_c_196 main_v709 (broadcastInDim S2097152 ![] bcast_S_S2097152 : (⟨S_, .i32⟩ : BufTy).Contents (Elt F) → (⟨S2097152, .i32⟩ : BufTy).Contents (Elt F)),
    binary main_v671 main_v709 main_v710 (addi : (⟨S2097152, .i32⟩ : BufTy).Contents (Elt F) → (⟨S2097152, .i32⟩ : BufTy).Contents (Elt F) → (⟨S2097152, .i32⟩ : BufTy).Contents (Elt F)),
    ternary main_v708 main_v710 main_v671 main_v711 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v706 main_v712 (broadcastInDim S2097152x1 ![0] bcast_S2097152_S2097152x1_0 : (⟨S2097152, .i32⟩ : BufTy).Contents (Elt F) → (⟨S2097152x1, .i32⟩ : BufTy).Contents (Elt F)),
    unary main_v711 main_v713 (broadcastInDim S2097152x1 ![0] bcast_S2097152_S2097152x1_0 : (⟨S2097152, .i32⟩ : BufTy).Contents (Elt F) → (⟨S2097152x1, .i32⟩ : BufTy).Contents (Elt F)),
    binary main_v712 main_v713 main_v714 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v653 main_v714 main_v715 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    unary main_v667 main_v716 (broadcastInDim S2097152x4 ![0, 1] bcast_S2097152x1_S2097152x4_0_1 : (⟨S2097152x1, .f32⟩ : BufTy).Contents (Elt F) → (⟨S2097152x4, .f32⟩ : BufTy).Contents (Elt F)),
    binary main_v715 main_v716 main_v717 (mulf : (⟨S2097152x4, .f32⟩ : BufTy).Contents (Elt F) → (⟨S2097152x4, .f32⟩ : BufTy).Contents (Elt F) → (⟨S2097152x4, .f32⟩ : BufTy).Contents (Elt F)),
    nullary main_cst_197 (constant S_ .f32 0x3F800000#32),
    unary main_cst_197 main_v718 (broadcastInDim S2097152x1 ![] bcast_S_S2097152x1 : (⟨S_, .f32⟩ : BufTy).Contents (Elt F) → (⟨S2097152x1, .f32⟩ : BufTy).Contents (Elt F)),
    binary main_v718 main_v669 main_v719 (subf : (⟨S2097152x1, .f32⟩ : BufTy).Contents (Elt F) → (⟨S2097152x1, .f32⟩ : BufTy).Contents (Elt F) → (⟨S2097152x1, .f32⟩ : BufTy).Contents (Elt F)),
    unary main_v719 main_v720 (broadcastInDim S2097152x4 ![0, 1] bcast_S2097152x1_S2097152x4_0_1 : (⟨S2097152x1, .f32⟩ : BufTy).Contents (Elt F) → (⟨S2097152x4, .f32⟩ : BufTy).Contents (Elt F)),
    binary main_v717 main_v720 main_v721 (mulf : (⟨S2097152x4, .f32⟩ : BufTy).Contents (Elt F) → (⟨S2097152x4, .f32⟩ : BufTy).Contents (Elt F) → (⟨S2097152x4, .f32⟩ : BufTy).Contents (Elt F)),
    binary main_v701 main_v721 main_v722 (addf : (⟨S2097152x4, .f32⟩ : BufTy).Contents (Elt F) → (⟨S2097152x4, .f32⟩ : BufTy).Contents (Elt F) → (⟨S2097152x4, .f32⟩ : BufTy).Contents (Elt F)),
    nullary main_c_198 (constantI S_ 32 0#32),
    unary main_c_198 main_v723 (broadcastInDim S2097152 ![] bcast_S_S2097152 : (⟨S_, .i32⟩ : BufTy).Contents (Elt F) → (⟨S2097152, .i32⟩ : BufTy).Contents (Elt F)),
    binary main_v670 main_v723 main_v724 (cmpi .slt : (⟨S2097152, .i32⟩ : BufTy).Contents (Elt F) → (⟨S2097152, .i32⟩ : BufTy).Contents (Elt F) → (⟨S2097152, .i1⟩ : BufTy).Contents (Elt F)),
    nullary main_c_199 (constantI S_ 32 32#32),
    unary main_c_199 main_v725 (broadcastInDim S2097152 ![] bcast_S_S2097152 : (⟨S_, .i32⟩ : BufTy).Contents (Elt F) → (⟨S2097152, .i32⟩ : BufTy).Contents (Elt F)),
    binary main_v670 main_v725 main_v726 (addi : (⟨S2097152, .i32⟩ : BufTy).Contents (Elt F) → (⟨S2097152, .i32⟩ : BufTy).Contents (Elt F) → (⟨S2097152, .i32⟩ : BufTy).Contents (Elt F)),
    ternary main_v724 main_v726 main_v670 main_v727 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_200 (constantI S_ 32 0#32),
    unary main_c_200 main_v728 (broadcastInDim S2097152 ![] bcast_S_S2097152 : (⟨S_, .i32⟩ : BufTy).Contents (Elt F) → (⟨S2097152, .i32⟩ : BufTy).Contents (Elt F)),
    binary main_v679 main_v728 main_v729 (cmpi .slt : (⟨S2097152, .i32⟩ : BufTy).Contents (Elt F) → (⟨S2097152, .i32⟩ : BufTy).Contents (Elt F) → (⟨S2097152, .i1⟩ : BufTy).Contents (Elt F)),
    nullary main_c_201 (constantI S_ 32 32#32),
    unary main_c_201 main_v730 (broadcastInDim S2097152 ![] bcast_S_S2097152 : (⟨S_, .i32⟩ : BufTy).Contents (Elt F) → (⟨S2097152, .i32⟩ : BufTy).Contents (Elt F)),
    binary main_v679 main_v730 main_v731 (addi : (⟨S2097152, .i32⟩ : BufTy).Contents (Elt F) → (⟨S2097152, .i32⟩ : BufTy).Contents (Elt F) → (⟨S2097152, .i32⟩ : BufTy).Contents (Elt F)),
    ternary main_v729 main_v731 main_v679 main_v732 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v727 main_v733 (broadcastInDim S2097152x1 ![0] bcast_S2097152_S2097152x1_0 : (⟨S2097152, .i32⟩ : BufTy).Contents (Elt F) → (⟨S2097152x1, .i32⟩ : BufTy).Contents (Elt F)),
    unary main_v732 main_v734 (broadcastInDim S2097152x1 ![0] bcast_S2097152_S2097152x1_0 : (⟨S2097152, .i32⟩ : BufTy).Contents (Elt F) → (⟨S2097152x1, .i32⟩ : BufTy).Contents (Elt F)),
    binary main_v733 main_v734 main_v735 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v653 main_v735 main_v736 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    nullary main_cst_202 (constant S_ .f32 0x3F800000#32),
    unary main_cst_202 main_v737 (broadcastInDim S2097152x1 ![] bcast_S_S2097152x1 : (⟨S_, .f32⟩ : BufTy).Contents (Elt F) → (⟨S2097152x1, .f32⟩ : BufTy).Contents (Elt F)),
    binary main_v737 main_v667 main_v738 (subf : (⟨S2097152x1, .f32⟩ : BufTy).Contents (Elt F) → (⟨S2097152x1, .f32⟩ : BufTy).Contents (Elt F) → (⟨S2097152x1, .f32⟩ : BufTy).Contents (Elt F)),
    unary main_v738 main_v739 (broadcastInDim S2097152x4 ![0, 1] bcast_S2097152x1_S2097152x4_0_1 : (⟨S2097152x1, .f32⟩ : BufTy).Contents (Elt F) → (⟨S2097152x4, .f32⟩ : BufTy).Contents (Elt F)),
    binary main_v736 main_v739 main_v740 (mulf : (⟨S2097152x4, .f32⟩ : BufTy).Contents (Elt F) → (⟨S2097152x4, .f32⟩ : BufTy).Contents (Elt F) → (⟨S2097152x4, .f32⟩ : BufTy).Contents (Elt F)),
    unary main_v669 main_v741 (broadcastInDim S2097152x4 ![0, 1] bcast_S2097152x1_S2097152x4_0_1 : (⟨S2097152x1, .f32⟩ : BufTy).Contents (Elt F) → (⟨S2097152x4, .f32⟩ : BufTy).Contents (Elt F)),
    binary main_v740 main_v741 main_v742 (mulf : (⟨S2097152x4, .f32⟩ : BufTy).Contents (Elt F) → (⟨S2097152x4, .f32⟩ : BufTy).Contents (Elt F) → (⟨S2097152x4, .f32⟩ : BufTy).Contents (Elt F)),
    binary main_v722 main_v742 main_v743 (addf : (⟨S2097152x4, .f32⟩ : BufTy).Contents (Elt F) → (⟨S2097152x4, .f32⟩ : BufTy).Contents (Elt F) → (⟨S2097152x4, .f32⟩ : BufTy).Contents (Elt F)),
    nullary main_c_203 (constantI S_ 32 0#32),
    unary main_c_203 main_v744 (broadcastInDim S2097152 ![] bcast_S_S2097152 : (⟨S_, .i32⟩ : BufTy).Contents (Elt F) → (⟨S2097152, .i32⟩ : BufTy).Contents (Elt F)),
    binary main_v675 main_v744 main_v745 (cmpi .slt : (⟨S2097152, .i32⟩ : BufTy).Contents (Elt F) → (⟨S2097152, .i32⟩ : BufTy).Contents (Elt F) → (⟨S2097152, .i1⟩ : BufTy).Contents (Elt F)),
    nullary main_c_204 (constantI S_ 32 32#32),
    unary main_c_204 main_v746 (broadcastInDim S2097152 ![] bcast_S_S2097152 : (⟨S_, .i32⟩ : BufTy).Contents (Elt F) → (⟨S2097152, .i32⟩ : BufTy).Contents (Elt F)),
    binary main_v675 main_v746 main_v747 (addi : (⟨S2097152, .i32⟩ : BufTy).Contents (Elt F) → (⟨S2097152, .i32⟩ : BufTy).Contents (Elt F) → (⟨S2097152, .i32⟩ : BufTy).Contents (Elt F)),
    ternary main_v745 main_v747 main_v675 main_v748 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_205 (constantI S_ 32 0#32),
    unary main_c_205 main_v749 (broadcastInDim S2097152 ![] bcast_S_S2097152 : (⟨S_, .i32⟩ : BufTy).Contents (Elt F) → (⟨S2097152, .i32⟩ : BufTy).Contents (Elt F)),
    binary main_v679 main_v749 main_v750 (cmpi .slt : (⟨S2097152, .i32⟩ : BufTy).Contents (Elt F) → (⟨S2097152, .i32⟩ : BufTy).Contents (Elt F) → (⟨S2097152, .i1⟩ : BufTy).Contents (Elt F)),
    nullary main_c_206 (constantI S_ 32 32#32),
    unary main_c_206 main_v751 (broadcastInDim S2097152 ![] bcast_S_S2097152 : (⟨S_, .i32⟩ : BufTy).Contents (Elt F) → (⟨S2097152, .i32⟩ : BufTy).Contents (Elt F)),
    binary main_v679 main_v751 main_v752 (addi : (⟨S2097152, .i32⟩ : BufTy).Contents (Elt F) → (⟨S2097152, .i32⟩ : BufTy).Contents (Elt F) → (⟨S2097152, .i32⟩ : BufTy).Contents (Elt F)),
    ternary main_v750 main_v752 main_v679 main_v753 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v748 main_v754 (broadcastInDim S2097152x1 ![0] bcast_S2097152_S2097152x1_0 : (⟨S2097152, .i32⟩ : BufTy).Contents (Elt F) → (⟨S2097152x1, .i32⟩ : BufTy).Contents (Elt F)),
    unary main_v753 main_v755 (broadcastInDim S2097152x1 ![0] bcast_S2097152_S2097152x1_0 : (⟨S2097152, .i32⟩ : BufTy).Contents (Elt F) → (⟨S2097152x1, .i32⟩ : BufTy).Contents (Elt F)),
    binary main_v754 main_v755 main_v756 ((fun a b => concatenate S2097152x2 1 [⟨S2097152x1, a⟩, ⟨S2097152x1, b⟩] concatenates_S2097152x1_S2097152x1_S2097152x2_d1) : (⟨S2097152x1, .i32⟩ : BufTy).Contents (Elt F) → (⟨S2097152x1, .i32⟩ : BufTy).Contents (Elt F) → (⟨S2097152x2, .i32⟩ : BufTy).Contents (Elt F)),
    binary main_v653 main_v756 main_v757 ((fun x i => Host.gather gather_S32x32x4_S2097152x2_S2097152x4_1_01_n_n_01_1_114 x i) : (⟨S32x32x4, .f32⟩ : BufTy).Contents (Elt F) → (⟨S2097152x2, .i32⟩ : BufTy).Contents (Elt F) → (⟨S2097152x4, .f32⟩ : BufTy).Contents (Elt F)),
    unary main_v667 main_v758 (broadcastInDim S2097152x4 ![0, 1] bcast_S2097152x1_S2097152x4_0_1 : (⟨S2097152x1, .f32⟩ : BufTy).Contents (Elt F) → (⟨S2097152x4, .f32⟩ : BufTy).Contents (Elt F)),
    binary main_v757 main_v758 main_v759 (mulf : (⟨S2097152x4, .f32⟩ : BufTy).Contents (Elt F) → (⟨S2097152x4, .f32⟩ : BufTy).Contents (Elt F) → (⟨S2097152x4, .f32⟩ : BufTy).Contents (Elt F)),
    unary main_v669 main_v760 (broadcastInDim S2097152x4 ![0, 1] bcast_S2097152x1_S2097152x4_0_1 : (⟨S2097152x1, .f32⟩ : BufTy).Contents (Elt F) → (⟨S2097152x4, .f32⟩ : BufTy).Contents (Elt F)),
    binary main_v759 main_v760 main_v761 (mulf : (⟨S2097152x4, .f32⟩ : BufTy).Contents (Elt F) → (⟨S2097152x4, .f32⟩ : BufTy).Contents (Elt F) → (⟨S2097152x4, .f32⟩ : BufTy).Contents (Elt F)),
    binary main_v743 main_v761 main_v762 (addf : (⟨S2097152x4, .f32⟩ : BufTy).Contents (Elt F) → (⟨S2097152x4, .f32⟩ : BufTy).Contents (Elt F) → (⟨S2097152x4, .f32⟩ : BufTy).Contents (Elt F)) ]
/-- The references the operations of the chunk R8 write, in order. -/
abbrev R8w : List (Ref sig .tc) :=
  [main_v636, main_v637, main_v638, main_v639, main_v640, main_v641, main_v642, main_cst_173, main_v643, main_v644, main_cst_174, main_v645, main_v646, main_cst_175, main_v647, main_v648, main_v649, main_v650, main_v651, main_cst_176, main_v652, main_v653, main_v654, main_v655, main_cst_177, main_cst_178, main_call15_v0, main_call15_v1, main_call15_v2, main_call15_v3, main_call15_v4, main_v656, main_cst_179, main_v657, main_v658, main_v659, main_v660, main_cst_180, main_cst_181, main_call16_v0, main_call16_v1, main_call16_v2, main_call16_v3, main_call16_v4, main_v661, main_cst_182, main_v662, main_v663, main_v664, main_v665, main_v666, main_v667, main_v668, main_v669, main_v670, main_v671, main_c_183, main_v672, main_v673, main_c_184, main_v674, main_v675, main_c_185, main_v676, main_v677, main_c_186, main_v678, main_v679, main_c_187, main_v680, main_v681, main_c_188, main_v682, main_v683, main_v684, main_c_189, main_v685, main_v686, main_c_190, main_v687, main_v688, main_v689, main_v690, main_v691, main_v692, main_v693, main_cst_191, main_v694, main_v695, main_v696, main_v697, main_cst_192, main_v698, main_v699, main_v700, main_v701, main_c_193, main_v702, main_v703, main_c_194, main_v704, main_v705, main_v706, main_c_195, main_v707, main_v708, main_c_196, main_v709, main_v710, main_v711, main_v712, main_v713, main_v714, main_v715, main_v716, main_v717, main_cst_197, main_v718, main_v719, main_v720, main_v721, main_v722, main_c_198, main_v723, main_v724, main_c_199, main_v725, main_v726, main_v727, main_c_200, main_v728, main_v729, main_c_201, main_v730, main_v731, main_v732, main_v733, main_v734, main_v735, main_v736, main_cst_202, main_v737, main_v738, main_v739, main_v740, main_v741, main_v742, main_v743, main_c_203, main_v744, main_v745, main_c_204, main_v746, main_v747, main_v748, main_c_205, main_v749, main_v750, main_c_206, main_v751, main_v752, main_v753, main_v754, main_v755, main_v756, main_v757, main_v758, main_v759, main_v760, main_v761, main_v762]

set_option maxHeartbeats 40000000 in
/-- Operations 1042 to 1114 of the program, in order (73 operations). -/
abbrev R9 : List (HloOp τ sig (Elt F)) :=
  [ unary main_arg0 main_v763 ((extractStridedSlice S2097152x1 ![0, 1] · slices_S2097152x2_S2097152x1_0_1) : (⟨S2097152x2, .f32⟩ : BufTy).Contents (Elt F) → (⟨S2097152x1, .f32⟩ : BufTy).Contents (Elt F)),
    reshape main_v763 main_v764 rfl shapeCasts_S2097152x1_S2097152,
    binary main_v764 main_v764 main_v765 (mulf : (⟨S2097152, .f32⟩ : BufTy).Contents (Elt F) → (⟨S2097152, .f32⟩ : BufTy).Contents (Elt F) → (⟨S2097152, .f32⟩ : BufTy).Contents (Elt F)),
    unary main_v365 main_v766 ((extractStridedSlice S2097152x1 ![0, 0] · slices_S2097152x3_S2097152x1_0_0) : (⟨S2097152x3, .f32⟩ : BufTy).Contents (Elt F) → (⟨S2097152x1, .f32⟩ : BufTy).Contents (Elt F)),
    reshape main_v766 main_v767 rfl shapeCasts_S2097152x1_S2097152,
    unary main_arg1 main_v768 ((extractStridedSlice S2097152x1 ![0, 1] · slices_S2097152x2_S2097152x1_0_1) : (⟨S2097152x2, .f32⟩ : BufTy).Contents (Elt F) → (⟨S2097152x1, .f32⟩ : BufTy).Contents (Elt F)),
    reshape main_v768 main_v769 rfl shapeCasts_S2097152x1_S2097152,
    binary main_v769 main_v769 main_v770 (mulf : (⟨S2097152, .f32⟩ : BufTy).Contents (Elt F) → (⟨S2097152, .f32⟩ : BufTy).Contents (Elt F) → (⟨S2097152, .f32⟩ : BufTy).Contents (Elt F)),
    binary main_v767 main_v770 main_v771 (mulf : (⟨S2097152, .f32⟩ : BufTy).Contents (Elt F) → (⟨S2097152, .f32⟩ : BufTy).Contents (Elt F) → (⟨S2097152, .f32⟩ : BufTy).Contents (Elt F)),
    unary main_v365 main_v772 ((extractStridedSlice S2097152x1 ![0, 1] · slices_S2097152x3_S2097152x1_0_1) : (⟨S2097152x3, .f32⟩ : BufTy).Contents (Elt F) → (⟨S2097152x1, .f32⟩ : BufTy).Contents (Elt F)),
    reshape main_v772 main_v773 rfl shapeCasts_S2097152x1_S2097152,
    binary main_v773 main_v765 main_v774 (mulf : (⟨S2097152, .f32⟩ : BufTy).Contents (Elt F) → (⟨S2097152, .f32⟩ : BufTy).Contents (Elt F) → (⟨S2097152, .f32⟩ : BufTy).Contents (Elt F)),
    binary main_v771 main_v774 main_v775 (addf : (⟨S2097152, .f32⟩ : BufTy).Contents (Elt F) → (⟨S2097152, .f32⟩ : BufTy).Contents (Elt F) → (⟨S2097152, .f32⟩ : BufTy).Contents (Elt F)),
    unary main_v365 main_v776 ((extractStridedSlice S2097152x1 ![0, 2] · slices_S2097152x3_S2097152x1_0_2) : (⟨S2097152x3, .f32⟩ : BufTy).Contents (Elt F) → (⟨S2097152x1, .f32⟩ : BufTy).Contents (Elt F)),
    reshape main_v776 main_v777 rfl shapeCasts_S2097152x1_S2097152,
    binary main_v775 main_v777 main_v778 (addf : (⟨S2097152, .f32⟩ : BufTy).Contents (Elt F) → (⟨S2097152, .f32⟩ : BufTy).Contents (Elt F) → (⟨S2097152, .f32⟩ : BufTy).Contents (Elt F)),
    unary main_arg2 main_v779 ((extractStridedSlice S2097152x1 ![0, 1] · slices_S2097152x2_S2097152x1_0_1) : (⟨S2097152x2, .f32⟩ : BufTy).Contents (Elt F) → (⟨S2097152x1, .f32⟩ : BufTy).Contents (Elt F)),
    reshape main_v779 main_v780 rfl shapeCasts_S2097152x1_S2097152,
    binary main_v778 main_v778 main_v781 (mulf : (⟨S2097152, .f32⟩ : BufTy).Contents (Elt F) → (⟨S2097152, .f32⟩ : BufTy).Contents (Elt F) → (⟨S2097152, .f32⟩ : BufTy).Contents (Elt F)),
    binary main_v780 main_v781 main_v782 (mulf : (⟨S2097152, .f32⟩ : BufTy).Contents (Elt F) → (⟨S2097152, .f32⟩ : BufTy).Contents (Elt F) → (⟨S2097152, .f32⟩ : BufTy).Contents (Elt F)),
    nullary main_cst_207 (constant S_ .f32 0x3E800000#32),
    unary main_cst_207 main_v783 (broadcastInDim S2097152 ![] bcast_S_S2097152 : (⟨S_, .f32⟩ : BufTy).Contents (Elt F) → (⟨S2097152, .f32⟩ : BufTy).Contents (Elt F)),
    binary main_v783 main_v782 main_v784 (Host.divf : (⟨S2097152, .f32⟩ : BufTy).Contents (Elt F) → (⟨S2097152, .f32⟩ : BufTy).Contents (Elt F) → (⟨S2097152, .f32⟩ : BufTy).Contents (Elt F)),
    unary main_v784 main_v785 (broadcastInDim S2097152x1 ![0] bcast_S2097152_S2097152x1_0 : (⟨S2097152, .f32⟩ : BufTy).Contents (Elt F) → (⟨S2097152x1, .f32⟩ : BufTy).Contents (Elt F)),
    unary main_v256 main_v786 ((extractStridedSlice S2097152x1 ![0, 0] · slices_S2097152x3_S2097152x1_0_0) : (⟨S2097152x3, .f32⟩ : BufTy).Contents (Elt F) → (⟨S2097152x1, .f32⟩ : BufTy).Contents (Elt F)),
    unary main_arg4 main_v787 ((extractStridedSlice S2097152x1 ![0, 1] · slices_S2097152x2_S2097152x1_0_1) : (⟨S2097152x2, .f32⟩ : BufTy).Contents (Elt F) → (⟨S2097152x1, .f32⟩ : BufTy).Contents (Elt F)),
    binary main_v786 main_v787 main_v788 (mulf : (⟨S2097152x1, .f32⟩ : BufTy).Contents (Elt F) → (⟨S2097152x1, .f32⟩ : BufTy).Contents (Elt F) → (⟨S2097152x1, .f32⟩ : BufTy).Contents (Elt F)),
    unary main_v635 main_v789 ((extractStridedSlice S2097152x1 ![0, 1] · slices_S2097152x4_S2097152x1_0_1) : (⟨S2097152x4, .f32⟩ : BufTy).Contents (Elt F) → (⟨S2097152x1, .f32⟩ : BufTy).Contents (Elt F)),
    binary main_v788 main_v789 main_v790 (mulf : (⟨S2097152x1, .f32⟩ : BufTy).Contents (Elt F) → (⟨S2097152x1, .f32⟩ : BufTy).Contents (Elt F) → (⟨S2097152x1, .f32⟩ : BufTy).Contents (Elt F)),
    unary main_v256 main_v791 ((extractStridedSlice S2097152x1 ![0, 1] · slices_S2097152x3_S2097152x1_0_1) : (⟨S2097152x3, .f32⟩ : BufTy).Contents (Elt F) → (⟨S2097152x1, .f32⟩ : BufTy).Contents (Elt F)),
    unary main_v635 main_v792 ((extractStridedSlice S2097152x1 ![0, 2] · slices_S2097152x4_S2097152x1_0_2) : (⟨S2097152x4, .f32⟩ : BufTy).Contents (Elt F) → (⟨S2097152x1, .f32⟩ : BufTy).Contents (Elt F)),
    binary main_v791 main_v792 main_v793 (mulf : (⟨S2097152x1, .f32⟩ : BufTy).Contents (Elt F) → (⟨S2097152x1, .f32⟩ : BufTy).Contents (Elt F) → (⟨S2097152x1, .f32⟩ : BufTy).Contents (Elt F)),
    binary main_v790 main_v793 main_v794 (addf : (⟨S2097152x1, .f32⟩ : BufTy).Contents (Elt F) → (⟨S2097152x1, .f32⟩ : BufTy).Contents (Elt F) → (⟨S2097152x1, .f32⟩ : BufTy).Contents (Elt F)),
    unary main_v256 main_v795 ((extractStridedSlice S2097152x1 ![0, 2] · slices_S2097152x3_S2097152x1_0_2) : (⟨S2097152x3, .f32⟩ : BufTy).Contents (Elt F) → (⟨S2097152x1, .f32⟩ : BufTy).Contents (Elt F)),
    unary main_v635 main_v796 ((extractStridedSlice S2097152x1 ![0, 3] · slices_S2097152x4_S2097152x1_0_3) : (⟨S2097152x4, .f32⟩ : BufTy).Contents (Elt F) → (⟨S2097152x1, .f32⟩ : BufTy).Contents (Elt F)),
    binary main_v795 main_v796 main_v797 (mulf : (⟨S2097152x1, .f32⟩ : BufTy).Contents (Elt F) → (⟨S2097152x1, .f32⟩ : BufTy).Contents (Elt F) → (⟨S2097152x1, .f32⟩ : BufTy).Contents (Elt F)),
    binary main_v794 main_v797 main_v798 (addf : (⟨S2097152x1, .f32⟩ : BufTy).Contents (Elt F) → (⟨S2097152x1, .f32⟩ : BufTy).Contents (Elt F) → (⟨S2097152x1, .f32⟩ : BufTy).Contents (Elt F)),
    binary main_v215 main_v515 main_v799 (mulf : (⟨S2097152x1, .f32⟩ : BufTy).Contents (Elt F) → (⟨S2097152x1, .f32⟩ : BufTy).Contents (Elt F) → (⟨S2097152x1, .f32⟩ : BufTy).Contents (Elt F)),
    unary main_v762 main_v800 ((extractStridedSlice S2097152x1 ![0, 2] · slices_S2097152x4_S2097152x1_0_2) : (⟨S2097152x4, .f32⟩ : BufTy).Contents (Elt F) → (⟨S2097152x1, .f32⟩ : BufTy).Contents (Elt F)),
    binary main_v799 main_v800 main_v801 (mulf : (⟨S2097152x1, .f32⟩ : BufTy).Contents (Elt F) → (⟨S2097152x1, .f32⟩ : BufTy).Contents (Elt F) → (⟨S2097152x1, .f32⟩ : BufTy).Contents (Elt F)),
    binary main_v801 main_v785 main_v802 (mulf : (⟨S2097152x1, .f32⟩ : BufTy).Contents (Elt F) → (⟨S2097152x1, .f32⟩ : BufTy).Contents (Elt F) → (⟨S2097152x1, .f32⟩ : BufTy).Contents (Elt F)),
    binary main_v798 main_v802 main_v803 (addf : (⟨S2097152x1, .f32⟩ : BufTy).Contents (Elt F) → (⟨S2097152x1, .f32⟩ : BufTy).Contents (Elt F) → (⟨S2097152x1, .f32⟩ : BufTy).Contents (Elt F)),
    unary main_v762 main_v804 ((extractStridedSlice S2097152x1 ![0, 0] · slices_S2097152x4_S2097152x1_0_0) : (⟨S2097152x4, .f32⟩ : BufTy).Contents (Elt F) → (⟨S2097152x1, .f32⟩ : BufTy).Contents (Elt F)),
    binary main_v237 main_v804 main_v805 (mulf : (⟨S2097152x1, .f32⟩ : BufTy).Contents (Elt F) → (⟨S2097152x1, .f32⟩ : BufTy).Contents (Elt F) → (⟨S2097152x1, .f32⟩ : BufTy).Contents (Elt F)),
    binary main_v803 main_v805 main_v806 (addf : (⟨S2097152x1, .f32⟩ : BufTy).Contents (Elt F) → (⟨S2097152x1, .f32⟩ : BufTy).Contents (Elt F) → (⟨S2097152x1, .f32⟩ : BufTy).Contents (Elt F)),
    nullary main_cst_208 (constant S_ .f32 0x3F800000#32),
    unary main_cst_208 main_v807 (broadcastInDim S2097152x1 ![] bcast_S_S2097152x1 : (⟨S_, .f32⟩ : BufTy).Contents (Elt F) → (⟨S2097152x1, .f32⟩ : BufTy).Contents (Elt F)),
    binary main_v807 main_v228 main_v808 (subf : (⟨S2097152x1, .f32⟩ : BufTy).Contents (Elt F) → (⟨S2097152x1, .f32⟩ : BufTy).Contents (Elt F) → (⟨S2097152x1, .f32⟩ : BufTy).Contents (Elt F)),
    unary main_v762 main_v809 ((extractStridedSlice S2097152x1 ![0, 3] · slices_S2097152x4_S2097152x1_0_3) : (⟨S2097152x4, .f32⟩ : BufTy).Contents (Elt F) → (⟨S2097152x1, .f32⟩ : BufTy).Contents (Elt F)),
    binary main_v808 main_v809 main_v810 (mulf : (⟨S2097152x1, .f32⟩ : BufTy).Contents (Elt F) → (⟨S2097152x1, .f32⟩ : BufTy).Contents (Elt F) → (⟨S2097152x1, .f32⟩ : BufTy).Contents (Elt F)),
    binary main_v810 main_v228 main_v811 (addf : (⟨S2097152x1, .f32⟩ : BufTy).Contents (Elt F) → (⟨S2097152x1, .f32⟩ : BufTy).Contents (Elt F) → (⟨S2097152x1, .f32⟩ : BufTy).Contents (Elt F)),
    binary main_v811 main_v515 main_v812 (mulf : (⟨S2097152x1, .f32⟩ : BufTy).Contents (Elt F) → (⟨S2097152x1, .f32⟩ : BufTy).Contents (Elt F) → (⟨S2097152x1, .f32⟩ : BufTy).Contents (Elt F)),
    binary main_v812 main_v785 main_v813 (mulf : (⟨S2097152x1, .f32⟩ : BufTy).Contents (Elt F) → (⟨S2097152x1, .f32⟩ : BufTy).Contents (Elt F) → (⟨S2097152x1, .f32⟩ : BufTy).Contents (Elt F)),
    unary main_v762 main_v814 ((extractStridedSlice S2097152x1 ![0, 0] · slices_S2097152x4_S2097152x1_0_0) : (⟨S2097152x4, .f32⟩ : BufTy).Contents (Elt F) → (⟨S2097152x1, .f32⟩ : BufTy).Contents (Elt F)),
    binary main_v248 main_v814 main_v815 (mulf : (⟨S2097152x1, .f32⟩ : BufTy).Contents (Elt F) → (⟨S2097152x1, .f32⟩ : BufTy).Contents (Elt F) → (⟨S2097152x1, .f32⟩ : BufTy).Contents (Elt F)),
    binary main_v813 main_v815 main_v816 (addf : (⟨S2097152x1, .f32⟩ : BufTy).Contents (Elt F) → (⟨S2097152x1, .f32⟩ : BufTy).Contents (Elt F) → (⟨S2097152x1, .f32⟩ : BufTy).Contents (Elt F)),
    unary main_v762 main_v817 ((extractStridedSlice S2097152x1 ![0, 1] · slices_S2097152x4_S2097152x1_0_1) : (⟨S2097152x4, .f32⟩ : BufTy).Contents (Elt F) → (⟨S2097152x1, .f32⟩ : BufTy).Contents (Elt F)),
    binary main_v253 main_v817 main_v818 (mulf : (⟨S2097152x1, .f32⟩ : BufTy).Contents (Elt F) → (⟨S2097152x1, .f32⟩ : BufTy).Contents (Elt F) → (⟨S2097152x1, .f32⟩ : BufTy).Contents (Elt F)),
    unary main_v635 main_v819 ((extractStridedSlice S2097152x1 ![0, 0] · slices_S2097152x4_S2097152x1_0_0) : (⟨S2097152x4, .f32⟩ : BufTy).Contents (Elt F) → (⟨S2097152x1, .f32⟩ : BufTy).Contents (Elt F)),
    binary main_v818 main_v819 main_v820 (mulf : (⟨S2097152x1, .f32⟩ : BufTy).Contents (Elt F) → (⟨S2097152x1, .f32⟩ : BufTy).Contents (Elt F) → (⟨S2097152x1, .f32⟩ : BufTy).Contents (Elt F)),
    unary main_arg2 main_v821 ((extractStridedSlice S2097152x1 ![0, 1] · slices_S2097152x2_S2097152x1_0_1) : (⟨S2097152x2, .f32⟩ : BufTy).Contents (Elt F) → (⟨S2097152x1, .f32⟩ : BufTy).Contents (Elt F)),
    reshape main_v821 main_v822 rfl shapeCasts_S2097152x1_S2097152,
    unary main_v398 main_v823 ((extractStridedSlice S2097152x1 ![0, 0] · slices_S2097152x2_S2097152x1_0_0) : (⟨S2097152x2, .f32⟩ : BufTy).Contents (Elt F) → (⟨S2097152x1, .f32⟩ : BufTy).Contents (Elt F)),
    reshape main_v823 main_v824 rfl shapeCasts_S2097152x1_S2097152,
    binary main_v824 main_v765 main_v825 (mulf : (⟨S2097152, .f32⟩ : BufTy).Contents (Elt F) → (⟨S2097152, .f32⟩ : BufTy).Contents (Elt F) → (⟨S2097152, .f32⟩ : BufTy).Contents (Elt F)),
    unary main_v398 main_v826 ((extractStridedSlice S2097152x1 ![0, 1] · slices_S2097152x2_S2097152x1_0_1) : (⟨S2097152x2, .f32⟩ : BufTy).Contents (Elt F) → (⟨S2097152x1, .f32⟩ : BufTy).Contents (Elt F)),
    reshape main_v826 main_v827 rfl shapeCasts_S2097152x1_S2097152,
    binary main_v825 main_v827 main_v828 (addf : (⟨S2097152, .f32⟩ : BufTy).Contents (Elt F) → (⟨S2097152, .f32⟩ : BufTy).Contents (Elt F) → (⟨S2097152, .f32⟩ : BufTy).Contents (Elt F)),
    binary main_v822 main_v828 main_v829 (mulf : (⟨S2097152, .f32⟩ : BufTy).Contents (Elt F) → (⟨S2097152, .f32⟩ : BufTy).Contents (Elt F) → (⟨S2097152, .f32⟩ : BufTy).Contents (Elt F)),
    unary main_v829 main_v830 (broadcastInDim S2097152x1 ![0] bcast_S2097152_S2097152x1_0 : (⟨S2097152, .f32⟩ : BufTy).Contents (Elt F) → (⟨S2097152x1, .f32⟩ : BufTy).Contents (Elt F)),
    binary main_v820 main_v830 main_v831 (Host.divf : (⟨S2097152x1, .f32⟩ : BufTy).Contents (Elt F) → (⟨S2097152x1, .f32⟩ : BufTy).Contents (Elt F) → (⟨S2097152x1, .f32⟩ : BufTy).Contents (Elt F)),
    binary main_v816 main_v831 main_v832 (addf : (⟨S2097152x1, .f32⟩ : BufTy).Contents (Elt F) → (⟨S2097152x1, .f32⟩ : BufTy).Contents (Elt F) → (⟨S2097152x1, .f32⟩ : BufTy).Contents (Elt F)),
    binary main_v806 main_v832 main_v833 ((fun a b => concatenate S2097152x2 1 [⟨S2097152x1, a⟩, ⟨S2097152x1, b⟩] concatenates_S2097152x1_S2097152x1_S2097152x2_d1) : (⟨S2097152x1, .f32⟩ : BufTy).Contents (Elt F) → (⟨S2097152x1, .f32⟩ : BufTy).Contents (Elt F) → (⟨S2097152x2, .f32⟩ : BufTy).Contents (Elt F)) ]
/-- The references the operations of the chunk R9 write, in order. -/
abbrev R9w : List (Ref sig .tc) :=
  [main_v763, main_v764, main_v765, main_v766, main_v767, main_v768, main_v769, main_v770, main_v771, main_v772, main_v773, main_v774, main_v775, main_v776, main_v777, main_v778, main_v779, main_v780, main_v781, main_v782, main_cst_207, main_v783, main_v784, main_v785, main_v786, main_v787, main_v788, main_v789, main_v790, main_v791, main_v792, main_v793, main_v794, main_v795, main_v796, main_v797, main_v798, main_v799, main_v800, main_v801, main_v802, main_v803, main_v804, main_v805, main_v806, main_cst_208, main_v807, main_v808, main_v809, main_v810, main_v811, main_v812, main_v813, main_v814, main_v815, main_v816, main_v817, main_v818, main_v819, main_v820, main_v821, main_v822, main_v823, main_v824, main_v825, main_v826, main_v827, main_v828, main_v829, main_v830, main_v831, main_v832, main_v833]

end Cert.ReferenceIdeal.Chunks

end
-- ==== Proof.RRead.lean ====
/-
  The host operations of the program, cut into 11 consecutive chunks, read one chunk at a time.
  `St j V` is what the device's buffers hold after the first `j` chunks, run from contents `V`; the whole line's contents
  are `St 11 V` (`after_all`). Each chunk writes only the references of its list (`*_writes`), so a reference that no later
  chunk writes holds at the end what its own chunk left (`out_*`), and a reference that neither a chunk nor any later
  one writes holds at the end what it held when that chunk started (`in_*`). With these, one value of the program is
  read by running ONE chunk from contents that are those of the whole program at every reference the chunk reads.
-/
import proofs.«151772_j21234318312201_1_alg».proof.Proof.ROps
import proofs.«151772_j21234318312201_1_alg».proof.Proof.LibAfter

set_option maxRecDepth 16384

noncomputable section

namespace Cert.ReferenceIdeal.RRead

open Cert.ReferenceIdeal Cert.ReferenceIdeal.Gen Cert.ReferenceIdeal.Chunks Cert.LibAfter Idealize.ShloMosaic Idealize.ShloMosaic.TcCoe Idealize.SL.Sem
open Idealize.ShloMosaic.StableHlo (after)

variable {F : FTy → Type} [FloatOps F]

/-! ## What each chunk writes -/

set_option maxHeartbeats 8000000 in
theorem R0_writes : WritesIn (R0 (F := F)) R0w := by
  simp only [WritesIn, R0, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R1_writes : WritesIn (R1 (F := F)) R1w := by
  simp only [WritesIn, R1, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R2_writes : WritesIn (R2 (F := F)) R2w := by
  simp only [WritesIn, R2, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R3_writes : WritesIn (R3 (F := F)) R3w := by
  simp only [WritesIn, R3, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R3b_writes : WritesIn (R3b (F := F)) R3bw := by
  simp only [WritesIn, R3b, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R4_writes : WritesIn (R4 (F := F)) R4w := by
  simp only [WritesIn, R4, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R5_writes : WritesIn (R5 (F := F)) R5w := by
  simp only [WritesIn, R5, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R6_writes : WritesIn (R6 (F := F)) R6w := by
  simp only [WritesIn, R6, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R7_writes : WritesIn (R7 (F := F)) R7w := by
  simp only [WritesIn, R7, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R8_writes : WritesIn (R8 (F := F)) R8w := by
  simp only [WritesIn, R8, List.Forall, StableHlo.nullary_writes, StableHlo.unary_writes, StableHlo.binary_writes,
    StableHlo.ternary_writes, StableHlo.reshape_writes, StableHlo.nary_writes]
  repeat' apply And.intro
  all_goals exact singleton_sub (by decide)
set_option maxHeartbeats 8000000 in
theorem R9_writes : WritesIn (R9 (F := F)) R9w := by
  simp only [WritesIn, R9, List.Forall, StableHlo.nullary_writes, StableHlo.unary_writes, StableHlo.binary_writes,
    StableHlo.ternary_writes, StableHlo.reshape_writes, StableHlo.nary_writes]
  repeat' apply And.intro
  all_goals exact singleton_sub (by decide)

/-! ## The contents after the first chunks -/

/-- The contents after no chunk: the contents the line starts from. -/
def St0 (V : Valuation τ sig (Elt F)) : Valuation τ sig (Elt F) := V
/-- The contents after the first 1 chunk. -/
def St1 (V : Valuation τ sig (Elt F)) : Valuation τ sig (Elt F) := after R0 (St0 V)
/-- The contents after the first 2 chunks. -/
def St2 (V : Valuation τ sig (Elt F)) : Valuation τ sig (Elt F) := after R1 (St1 V)
/-- The contents after the first 3 chunks. -/
def St3 (V : Valuation τ sig (Elt F)) : Valuation τ sig (Elt F) := after R2 (St2 V)
/-- The contents after the first 4 chunks. -/
def St4 (V : Valuation τ sig (Elt F)) : Valuation τ sig (Elt F) := after R3 (St3 V)
/-- The contents after the first 5 chunks. -/
def St5 (V : Valuation τ sig (Elt F)) : Valuation τ sig (Elt F) := after R3b (St4 V)
/-- The contents after the first 6 chunks. -/
def St6 (V : Valuation τ sig (Elt F)) : Valuation τ sig (Elt F) := after R4 (St5 V)
/-- The contents after the first 7 chunks. -/
def St7 (V : Valuation τ sig (Elt F)) : Valuation τ sig (Elt F) := after R5 (St6 V)
/-- The contents after the first 8 chunks. -/
def St8 (V : Valuation τ sig (Elt F)) : Valuation τ sig (Elt F) := after R6 (St7 V)
/-- The contents after the first 9 chunks. -/
def St9 (V : Valuation τ sig (Elt F)) : Valuation τ sig (Elt F) := after R7 (St8 V)
/-- The contents after the first 10 chunks. -/
def St10 (V : Valuation τ sig (Elt F)) : Valuation τ sig (Elt F) := after R8 (St9 V)
/-- The contents after the first 11 chunks. -/
def St11 (V : Valuation τ sig (Elt F)) : Valuation τ sig (Elt F) := after R9 (St10 V)

/-- The whole line: the chunks one after the other. -/
abbrev All : List (HloOp τ sig (Elt F)) := R0 ++ (R1 ++ (R2 ++ (R3 ++ (R3b ++ (R4 ++ (R5 ++ (R6 ++ (R7 ++ (R8 ++ (R9))))))))))

/-- Running the whole line is running its chunks in order. -/
theorem after_all (V : Valuation τ sig (Elt F)) : after (All (F := F)) V = St11 V := by
  simp only [All, after_append, St0, St1, St2, St3, St4, St5, St6, St7, St8, St9, St10, St11]

/-! ## One value of the line, from its own chunk -/

/-- A reference no chunk after `R0` writes holds at the end what `R0` left in it. -/
theorem out_R0 (V : Valuation τ sig (Elt F)) {r : Ref sig .tc} (h : r ∉ R1w ++ (R2w ++ (R3w ++ (R3bw ++ (R4w ++ (R5w ++ (R6w ++ (R7w ++ (R8w ++ (R9w)))))))))) :
    St11 V (Proc.devRef .tc r) = after R0 (St0 V) (Proc.devRef .tc r) := by
  simp only [List.mem_append, not_or] at h
  obtain ⟨h1, h2, h3, h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4, keep R3_writes _ h3, St3, keep R2_writes _ h2, St2, keep R1_writes _ h1, St1]
/-- A reference no chunk after `R1` writes holds at the end what `R1` left in it. -/
theorem out_R1 (V : Valuation τ sig (Elt F)) {r : Ref sig .tc} (h : r ∉ R2w ++ (R3w ++ (R3bw ++ (R4w ++ (R5w ++ (R6w ++ (R7w ++ (R8w ++ (R9w))))))))) :
    St11 V (Proc.devRef .tc r) = after R1 (St1 V) (Proc.devRef .tc r) := by
  simp only [List.mem_append, not_or] at h
  obtain ⟨h2, h3, h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4, keep R3_writes _ h3, St3, keep R2_writes _ h2, St2]
/-- A reference no chunk after `R2` writes holds at the end what `R2` left in it. -/
theorem out_R2 (V : Valuation τ sig (Elt F)) {r : Ref sig .tc} (h : r ∉ R3w ++ (R3bw ++ (R4w ++ (R5w ++ (R6w ++ (R7w ++ (R8w ++ (R9w)))))))) :
    St11 V (Proc.devRef .tc r) = after R2 (St2 V) (Proc.devRef .tc r) := by
  simp only [List.mem_append, not_or] at h
  obtain ⟨h3, h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4, keep R3_writes _ h3, St3]
/-- A reference no chunk after `R3` writes holds at the end what `R3` left in it. -/
theorem out_R3 (V : Valuation τ sig (Elt F)) {r : Ref sig .tc} (h : r ∉ R3bw ++ (R4w ++ (R5w ++ (R6w ++ (R7w ++ (R8w ++ (R9w))))))) :
    St11 V (Proc.devRef .tc r) = after R3 (St3 V) (Proc.devRef .tc r) := by
  simp only [List.mem_append, not_or] at h
  obtain ⟨h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4]
/-- A reference no chunk after `R3b` writes holds at the end what `R3b` left in it. -/
theorem out_R3b (V : Valuation τ sig (Elt F)) {r : Ref sig .tc} (h : r ∉ R4w ++ (R5w ++ (R6w ++ (R7w ++ (R8w ++ (R9w)))))) :
    St11 V (Proc.devRef .tc r) = after R3b (St4 V) (Proc.devRef .tc r) := by
  simp only [List.mem_append, not_or] at h
  obtain ⟨h5, h6, h7, h8, h9, h10⟩ := h
  rw [St11, keep R9_writes _ h10, St10, keep R8_writes _ h9, St9, keep R7_writes _ h8, St8, keep R6_writes _ h7, St7, keep R5_writes _ h6, St6, keep R4_writes _ h5, St5]
/-- A reference no chunk after `R4` writes holds at the end what `R4` left in it. -/
theorem out_R4 (V : Valuation τ sig (Elt F)) {r : Ref sig .tc} (h : r ∉ R5w ++ (R6w ++ (R7w ++ (R8w ++ (R9w))))) :
    St11 V (Proc.devRef .tc r) = after R4 (St5 V) (Proc.devRef .tc r) := by
  simp only [List.mem_append, not_or] at h
  obtain ⟨h6, h7, h8, h9, h10⟩ := h
  rw [St11, keep R9_writes _ h10, St10, keep R8_writes _ h9, St9, keep R7_writes _ h8, St8, keep R6_writes _ h7, St7, keep R5_writes _ h6, St6]
/-- A reference no chunk after `R5` writes holds at the end what `R5` left in it. -/
theorem out_R5 (V : Valuation τ sig (Elt F)) {r : Ref sig .tc} (h : r ∉ R6w ++ (R7w ++ (R8w ++ (R9w)))) :
    St11 V (Proc.devRef .tc r) = after R5 (St6 V) (Proc.devRef .tc r) := by
  simp only [List.mem_append, not_or] at h
  obtain ⟨h7, h8, h9, h10⟩ := h
  rw [St11, keep R9_writes _ h10, St10, keep R8_writes _ h9, St9, keep R7_writes _ h8, St8, keep R6_writes _ h7, St7]
/-- A reference no chunk after `R6` writes holds at the end what `R6` left in it. -/
theorem out_R6 (V : Valuation τ sig (Elt F)) {r : Ref sig .tc} (h : r ∉ R7w ++ (R8w ++ (R9w))) :
    St11 V (Proc.devRef .tc r) = after R6 (St7 V) (Proc.devRef .tc r) := by
  simp only [List.mem_append, not_or] at h
  obtain ⟨h8, h9, h10⟩ := h
  rw [St11, keep R9_writes _ h10, St10, keep R8_writes _ h9, St9, keep R7_writes _ h8, St8]
/-- A reference no chunk after `R7` writes holds at the end what `R7` left in it. -/
theorem out_R7 (V : Valuation τ sig (Elt F)) {r : Ref sig .tc} (h : r ∉ R8w ++ (R9w)) :
    St11 V (Proc.devRef .tc r) = after R7 (St8 V) (Proc.devRef .tc r) := by
  simp only [List.mem_append, not_or] at h
  obtain ⟨h9, h10⟩ := h
  rw [St11, keep R9_writes _ h10, St10, keep R8_writes _ h9, St9]
/-- A reference no chunk after `R8` writes holds at the end what `R8` left in it. -/
theorem out_R8 (V : Valuation τ sig (Elt F)) {r : Ref sig .tc} (h : r ∉ R9w) :
    St11 V (Proc.devRef .tc r) = after R8 (St9 V) (Proc.devRef .tc r) := by
  have h10 := h
  rw [St11, keep R9_writes _ h10, St10]
/-- A reference no chunk after `R9` writes holds at the end what `R9` left in it. -/
theorem out_R9 (V : Valuation τ sig (Elt F)) {r : Ref sig .tc}  :
    St11 V (Proc.devRef .tc r) = after R9 (St10 V) (Proc.devRef .tc r) := by
  rw [St11]

/-! ## One value a chunk reads: what the whole line holds there -/

/-- A reference neither `R0` nor any later chunk writes: what it holds when `R0` starts is what it holds at the end. -/
theorem in_R0 (V : Valuation τ sig (Elt F)) {r : Ref sig .tc} (h : r ∉ R0w ++ (R1w ++ (R2w ++ (R3w ++ (R3bw ++ (R4w ++ (R5w ++ (R6w ++ (R7w ++ (R8w ++ (R9w))))))))))) :
    St0 V (Proc.devRef .tc r) = St11 V (Proc.devRef .tc r) := by
  simp only [List.mem_append, not_or] at h
  obtain ⟨h0, h1, h2, h3, h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4, keep R3_writes _ h3, St3, keep R2_writes _ h2, St2, keep R1_writes _ h1, St1, keep R0_writes _ h0]
/-- A reference neither `R1` nor any later chunk writes: what it holds when `R1` starts is what it holds at the end. -/
theorem in_R1 (V : Valuation τ sig (Elt F)) {r : Ref sig .tc} (h : r ∉ R1w ++ (R2w ++ (R3w ++ (R3bw ++ (R4w ++ (R5w ++ (R6w ++ (R7w ++ (R8w ++ (R9w)))))))))) :
    St1 V (Proc.devRef .tc r) = St11 V (Proc.devRef .tc r) := by
  simp only [List.mem_append, not_or] at h
  obtain ⟨h1, h2, h3, h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4, keep R3_writes _ h3, St3, keep R2_writes _ h2, St2, keep R1_writes _ h1]
/-- A reference neither `R2` nor any later chunk writes: what it holds when `R2` starts is what it holds at the end. -/
theorem in_R2 (V : Valuation τ sig (Elt F)) {r : Ref sig .tc} (h : r ∉ R2w ++ (R3w ++ (R3bw ++ (R4w ++ (R5w ++ (R6w ++ (R7w ++ (R8w ++ (R9w))))))))) :
    St2 V (Proc.devRef .tc r) = St11 V (Proc.devRef .tc r) := by
  simp only [List.mem_append, not_or] at h
  obtain ⟨h2, h3, h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4, keep R3_writes _ h3, St3, keep R2_writes _ h2]
/-- A reference neither `R3` nor any later chunk writes: what it holds when `R3` starts is what it holds at the end. -/
theorem in_R3 (V : Valuation τ sig (Elt F)) {r : Ref sig .tc} (h : r ∉ R3w ++ (R3bw ++ (R4w ++ (R5w ++ (R6w ++ (R7w ++ (R8w ++ (R9w)))))))) :
    St3 V (Proc.devRef .tc r) = St11 V (Proc.devRef .tc r) := by
  simp only [List.mem_append, not_or] at h
  obtain ⟨h3, h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4, St4, keep R3_writes _ h3]
/-- A reference neither `R3b` nor any later chunk writes: what it holds when `R3b` starts is what it holds at the end. -/
theorem in_R3b (V : Valuation τ sig (Elt F)) {r : Ref sig .tc} (h : r ∉ R3bw ++ (R4w ++ (R5w ++ (R6w ++ (R7w ++ (R8w ++ (R9w))))))) :
    St4 V (Proc.devRef .tc r) = St11 V (Proc.devRef .tc r) := by
  simp only [List.mem_append, not_or] at h
  obtain ⟨h4, h5, h6, h7, h8, h9, h10⟩ := h
  rw [St11, keep R9_writes _ h10, St10, keep R8_writes _ h9, St9, keep R7_writes _ h8, St8, keep R6_writes _ h7, St7, keep R5_writes _ h6, St6, keep R4_writes _ h5, St5, keep R3b_writes _ h4]
/-- A reference neither `R4` nor any later chunk writes: what it holds when `R4` starts is what it holds at the end. -/
theorem in_R4 (V : Valuation τ sig (Elt F)) {r : Ref sig .tc} (h : r ∉ R4w ++ (R5w ++ (R6w ++ (R7w ++ (R8w ++ (R9w)))))) :
    St5 V (Proc.devRef .tc r) = St11 V (Proc.devRef .tc r) := by
  simp only [List.mem_append, not_or] at h
  obtain ⟨h5, h6, h7, h8, h9, h10⟩ := h
  rw [St11, keep R9_writes _ h10, St10, keep R8_writes _ h9, St9, keep R7_writes _ h8, St8, keep R6_writes _ h7, St7, keep R5_writes _ h6, St6, keep R4_writes _ h5]
/-- A reference neither `R5` nor any later chunk writes: what it holds when `R5` starts is what it holds at the end. -/
theorem in_R5 (V : Valuation τ sig (Elt F)) {r : Ref sig .tc} (h : r ∉ R5w ++ (R6w ++ (R7w ++ (R8w ++ (R9w))))) :
    St6 V (Proc.devRef .tc r) = St11 V (Proc.devRef .tc r) := by
  simp only [List.mem_append, not_or] at h
  obtain ⟨h6, h7, h8, h9, h10⟩ := h
  rw [St11, keep R9_writes _ h10, St10, keep R8_writes _ h9, St9, keep R7_writes _ h8, St8, keep R6_writes _ h7, St7, keep R5_writes _ h6]
/-- A reference neither `R6` nor any later chunk writes: what it holds when `R6` starts is what it holds at the end. -/
theorem in_R6 (V : Valuation τ sig (Elt F)) {r : Ref sig .tc} (h : r ∉ R6w ++ (R7w ++ (R8w ++ (R9w)))) :
    St7 V (Proc.devRef .tc r) = St11 V (Proc.devRef .tc r) := by
  simp only [List.mem_append, not_or] at h
  obtain ⟨h7, h8, h9, h10⟩ := h
  rw [St11, keep R9_writes _ h10, St10, keep R8_writes _ h9, St9, keep R7_writes _ h8, St8, keep R6_writes _ h7]
/-- A reference neither `R7` nor any later chunk writes: what it holds when `R7` starts is what it holds at the end. -/
theorem in_R7 (V : Valuation τ sig (Elt F)) {r : Ref sig .tc} (h : r ∉ R7w ++ (R8w ++ (R9w))) :
    St8 V (Proc.devRef .tc r) = St11 V (Proc.devRef .tc r) := by
  simp only [List.mem_append, not_or] at h
  obtain ⟨h8, h9, h10⟩ := h
  rw [St11, keep R9_writes _ h10, St10, keep R8_writes _ h9, St9, keep R7_writes _ h8]
/-- A reference neither `R8` nor any later chunk writes: what it holds when `R8` starts is what it holds at the end. -/
theorem in_R8 (V : Valuation τ sig (Elt F)) {r : Ref sig .tc} (h : r ∉ R8w ++ (R9w)) :
    St9 V (Proc.devRef .tc r) = St11 V (Proc.devRef .tc r) := by
  simp only [List.mem_append, not_or] at h
  obtain ⟨h9, h10⟩ := h
  rw [St11, keep R9_writes _ h10, St10, keep R8_writes _ h9]
/-- A reference neither `R9` nor any later chunk writes: what it holds when `R9` starts is what it holds at the end. -/
theorem in_R9 (V : Valuation τ sig (Elt F)) {r : Ref sig .tc} (h : r ∉ R9w) :
    St10 V (Proc.devRef .tc r) = St11 V (Proc.devRef .tc r) := by
  have h10 := h
  rw [St11, keep R9_writes _ h10]

/-! ## The program is this line, and its run -/

set_option maxHeartbeats 8000000 in
theorem R0_sub : (R0 (F := F)).Forall fun op => op.bufs ⊆ StableHlo.tcRefs τ sig := by
  simp only [R0, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R0_fresh : (R0 (F := F)).Forall fun op => op.fresh = ∅ := by
  simp only [List.Forall]; repeat' constructor
set_option maxHeartbeats 8000000 in
theorem R1_sub : (R1 (F := F)).Forall fun op => op.bufs ⊆ StableHlo.tcRefs τ sig := by
  simp only [R1, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R1_fresh : (R1 (F := F)).Forall fun op => op.fresh = ∅ := by
  simp only [List.Forall]; repeat' constructor
set_option maxHeartbeats 8000000 in
theorem R2_sub : (R2 (F := F)).Forall fun op => op.bufs ⊆ StableHlo.tcRefs τ sig := by
  simp only [R2, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R2_fresh : (R2 (F := F)).Forall fun op => op.fresh = ∅ := by
  simp only [List.Forall]; repeat' constructor
set_option maxHeartbeats 8000000 in
theorem R3_sub : (R3 (F := F)).Forall fun op => op.bufs ⊆ StableHlo.tcRefs τ sig := by
  simp only [R3, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R3_fresh : (R3 (F := F)).Forall fun op => op.fresh = ∅ := by
  simp only [List.Forall]; repeat' constructor
set_option maxHeartbeats 8000000 in
theorem R3b_sub : (R3b (F := F)).Forall fun op => op.bufs ⊆ StableHlo.tcRefs τ sig := by
  simp only [R3b, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R3b_fresh : (R3b (F := F)).Forall fun op => op.fresh = ∅ := by
  simp only [List.Forall]; repeat' constructor
set_option maxHeartbeats 8000000 in
theorem R4_sub : (R4 (F := F)).Forall fun op => op.bufs ⊆ StableHlo.tcRefs τ sig := by
  simp only [R4, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R4_fresh : (R4 (F := F)).Forall fun op => op.fresh = ∅ := by
  simp only [List.Forall]; repeat' constructor
set_option maxHeartbeats 8000000 in
theorem R5_sub : (R5 (F := F)).Forall fun op => op.bufs ⊆ StableHlo.tcRefs τ sig := by
  simp only [R5, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R5_fresh : (R5 (F := F)).Forall fun op => op.fresh = ∅ := by
  simp only [List.Forall]; repeat' constructor
set_option maxHeartbeats 8000000 in
theorem R6_sub : (R6 (F := F)).Forall fun op => op.bufs ⊆ StableHlo.tcRefs τ sig := by
  simp only [R6, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R6_fresh : (R6 (F := F)).Forall fun op => op.fresh = ∅ := by
  simp only [List.Forall]; repeat' constructor
set_option maxHeartbeats 8000000 in
theorem R7_sub : (R7 (F := F)).Forall fun op => op.bufs ⊆ StableHlo.tcRefs τ sig := by
  simp only [R7, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R7_fresh : (R7 (F := F)).Forall fun op => op.fresh = ∅ := by
  simp only [List.Forall]; repeat' constructor
set_option maxHeartbeats 8000000 in
theorem R8_sub : (R8 (F := F)).Forall fun op => op.bufs ⊆ StableHlo.tcRefs τ sig := by
  simp only [R8, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R8_fresh : (R8 (F := F)).Forall fun op => op.fresh = ∅ := by
  simp only [List.Forall]; repeat' constructor
set_option maxHeartbeats 8000000 in
theorem R9_sub : (R9 (F := F)).Forall fun op => op.bufs ⊆ StableHlo.tcRefs τ sig := by
  simp only [R9, List.Forall, StableHlo.nullary_bufs_sub, StableHlo.unary_bufs_sub, StableHlo.binary_bufs_sub, StableHlo.ternary_bufs_sub, StableHlo.reshape_bufs_sub, StableHlo.nary_bufs_sub, and_self]
set_option maxHeartbeats 8000000 in
theorem R9_fresh : (R9 (F := F)).Forall fun op => op.fresh = ∅ := by
  simp only [List.Forall]; repeat' constructor

theorem All_sub : (All (F := F)).Forall fun op => op.bufs ⊆ StableHlo.tcRefs τ sig := by
  simp only [All, List.forall_append]
  exact ⟨R0_sub, R1_sub, R2_sub, R3_sub, R3b_sub, R4_sub, R5_sub, R6_sub, R7_sub, R8_sub, R9_sub⟩

theorem All_fresh : ∀ op ∈ (All (F := F)), op.fresh = ∅ := by
  have h : (All (F := F)).Forall fun op => op.fresh = ∅ := by
    simp only [All, List.forall_append]
    exact ⟨R0_fresh, R1_fresh, R2_fresh, R3_fresh, R3b_fresh, R4_fresh, R5_fresh, R6_fresh, R7_fresh, R8_fresh, R9_fresh⟩
  exact List.forall_iff_forall_mem.mp h

set_option maxRecDepth 100000 in
set_option maxHeartbeats 40000000 in
/-- The printed program is the line of its operations: the chunks joined into one list are, operation by operation, the
    program's statements. -/
theorem main_eq (c : Dev nD) : main (F := F) c = StableHlo.seq All := by
  simp only [All, R0, R1, R2, R3, R3b, R4, R5, R6, R7, R8, R9, List.cons_append, List.nil_append]
  rfl

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of the program terminates, and every
    buffer ends at what the chunks, run in order from the launch contents, leave in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = St11 (StableHlo.launchContents m c) (Proc.devRef .tc b) :=
  (θ_run defs _ _).mono (fun _ h c b => (h c b).trans (by rw [after_all]))
    (StableHlo.run_seq scopedRefs_eq scopedSems_eq defs main (fun _ => All) main_eq (fun _ => All_sub) m ρ (fun _ => All_fresh))

end Cert.ReferenceIdeal.RRead

end
-- ==== Proof.BridgeDefs.lean ====
/-
  The two programs' host values side by side.
  `KV V r` is what the kernel program's buffer `r` holds when its pallas region is entered, the host operations before the
  region run from launch contents `V`; `RV V r` is what the reference program's buffer `r` holds at its end, run from
  launch contents `V`. The correspondence lemmas of the other modules are stated over these two, at any float family:
  they are facts about layout (which element of which array an element is), not about arithmetic.
-/
import proofs.«151772_j21234318312201_1_alg».proof.Proof.KRead
import proofs.«151772_j21234318312201_1_alg».proof.Proof.RRead

noncomputable section

namespace Cert.Bridge

open Idealize.ShloMosaic Idealize.ShloMosaic.TcCoe Idealize.SL.Sem

variable {F : FTy → Type} [FloatOps F]

/-- The kernel program's buffer `r` at the entry of its region (after all ten chunks of its host operations). -/
abbrev KV (V : Valuation Cert.KernelIdeal.τ Cert.KernelIdeal.sig (Elt F)) (r : Ref Cert.KernelIdeal.sig .tc) :
    (Proc.devRef (τ := Cert.KernelIdeal.τ) .tc r).ty.Contents (Elt F) :=
  Cert.KernelIdeal.KRead.St10 V (Proc.devRef .tc r)

/-- The reference program's buffer `r` at its end (after all eleven chunks of its host operations). -/
abbrev RV (V : Valuation Cert.ReferenceIdeal.τ Cert.ReferenceIdeal.sig (Elt F)) (r : Ref Cert.ReferenceIdeal.sig .tc) :
    (Proc.devRef (τ := Cert.ReferenceIdeal.τ) .tc r).ty.Contents (Elt F) :=
  Cert.ReferenceIdeal.RRead.St11 V (Proc.devRef .tc r)

end Cert.Bridge

end
-- ==== Proof.LibGather2.lean ====
/-
  A `stablehlo.gather` whose start index has ONE or TWO components, read at a result index.

  The operand is a table with one "long" axis of extent `L` that is kept whole (an offset axis of the result) and one or
  two "gathered" axes of extents `U` (and `V`) that are collapsed and named by the start index map; the start indices
  are an `[N × 1]` or `[N × 2]` array, one start index per row. Result element `(l, n)` (gathered axes last in the
  operand) or `(n, l)` (gathered axes first) is the operand at long coordinate `l` and, on each gathered axis, the
  row-`n` start index's component read as a SIGNED integer and clamped into the axis (`clampIdx`: a negative component
  reads position 0, one past the end reads the last position), as StableHLO's gather clamps every start index.
-/
import Idealize.ShloMosaic.Lib.ValueIdx
import Idealize.ShloMosaic.PureOps.ShapeOps
import Idealize.ShloMosaic.PureOps.Dims

namespace Cert.LibGather2

open Idealize.ShloMosaic Idealize.ShloMosaic.ValueIdx

/-- A `w`-bit word read as a signed integer and clamped into `[0, U − 1]`: the position on an axis of extent `U` that a
    gather's start-index component names (a negative word names position 0, a word past the end the last position). -/
def clampIdx {w : Nat} (U : Nat) (hU : 0 < U) (z : BitVec w) : Fin U := ⟨min z.toInt.toNat (U - 1), by omega⟩

@[simp] theorem clampIdx_val {w : Nat} (U : Nat) (hU : 0 < U) (z : BitVec w) :
    (clampIdx U hU z).val = min z.toInt.toNat (U - 1) := rfl

/-! ## The pieces of the operand index, under a singleton batch / offset axis list -/

/-- A list equal to a singleton has that one element at every position. -/
private theorem getElem_of_eq_singleton {β : Type} {l : List β} {a : β} (hl : l = [a]) (k : Nat) (h : k < l.length) :
    l[k]'h = a := by
  subst hl; simp

/-- With ONE offset axis `o` in the result, the offset coordinate on a kept operand axis is the result index's coordinate
    on `o`. -/
private theorem offCoord_single {s si t : Shape} (d : GatherDims s si t) {o : Fin t.rank} (hod : d.offsetDims = [o])
    (j : t.Idx) (a : Fin s.rank) (ha : a ∈ d.sKept) : d.offCoord j a = (j o).val := by
  unfold GatherDims.offCoord
  rw [dif_pos ha, getElem_of_eq_singleton hod]

/-- With ONE batch axis `b` in the result and the index vector on axis 1 of a rank-2 array of start indices, component
    `c` of the start index that result index `j` reads sits at row `j b`, column `c`. -/
private theorem siIdx_single {s t : Shape} {N K : Nat} (d : GatherDims s ⟨2, ![N, K]⟩ t) {b : Fin t.rank}
    (hbd : d.batchDims = [b]) (hivd : d.indexVectorDim = 1) (j : t.Idx) (n : Fin N) (hn : (j b).val = n.val)
    (c : Fin d.startIndexMap.length) (c' : Fin K) (hc : c.val = c'.val) :
    d.siIdx j c = ix2 n c' := by
  funext e
  match e with
  | ⟨0, _⟩ =>
    unfold GatherDims.siIdx
    rw [dif_neg (by rw [hivd]; simp)]
    unfold GatherDims.siCoord
    apply Fin.ext
    simp only [Fin.val_cast]
    rw [getElem_of_eq_singleton hbd]
    exact hn
  | ⟨1, _⟩ =>
    unfold GatherDims.siIdx
    rw [dif_pos (by rw [hivd])]
    exact Fin.ext hc

/-- The slice start on a GATHERED operand axis `a` (collapsed, and named by the start index map at position `c`): row
    `n`'s start index's component `c`, read signed and clamped to the axis. -/
private theorem start_gathered {s t : Shape} {N K w : Nat} (d : GatherDims s ⟨2, ![N, K]⟩ t) {b : Fin t.rank}
    (hbd : d.batchDims = [b]) (hivd : d.indexVectorDim = 1) (j : t.Idx) (n : Fin N) (hn : (j b).val = n.val)
    (idx : IVec ⟨2, ![N, K]⟩ w) (a : Fin s.rank) (ha : a ∈ d.startIndexMap) (hcl : a ∈ d.collapsedSliceDims)
    (c' : Fin K) (hc : d.startIndexMap.idxOf a = c'.val) :
    d.start j idx a = min (idx (ix2 n c')).toInt.toNat (s.size a - 1) := by
  unfold GatherDims.start
  rw [dif_pos ha, d.slice_collapsed a hcl, siIdx_single d hbd hivd j n hn _ c' hc]

/-- The operand coordinate on a GATHERED axis, when no axis is a batching one: the clamped start alone. -/
private theorem coord_gathered {s t : Shape} {N K w : Nat} (d : GatherDims s ⟨2, ![N, K]⟩ t) {b : Fin t.rank}
    (hbd : d.batchDims = [b]) (hob : d.operandBatchingDims = []) (hivd : d.indexVectorDim = 1) (j : t.Idx) (n : Fin N)
    (hn : (j b).val = n.val) (idx : IVec ⟨2, ![N, K]⟩ w) (a : Fin s.rank) (ha : a ∈ d.startIndexMap)
    (hcl : a ∈ d.collapsedSliceDims) (c' : Fin K) (hc : d.startIndexMap.idxOf a = c'.val) :
    (d.operandIdx j idx a).val = min (idx (ix2 n c')).toInt.toNat (s.size a - 1) := by
  show d.start j idx a + d.batchCoord j a + d.offCoord j a = _
  rw [d.batchCoord_eq_zero j a (by rw [hob]; exact List.not_mem_nil),
    d.offCoord_eq_zero j a (fun h => ((d.mem_sKept a).1 h).1 hcl)]
  simp only [Nat.add_zero]
  exact start_gathered d hbd hivd j n hn idx a ha hcl c' hc

/-- The operand coordinate on the KEPT axis (not collapsed, not named by the start index map), with one offset axis `o` in
    the result and no batching: the result index's coordinate on `o`. -/
private theorem coord_kept {s si t : Shape} {w : Nat} (d : GatherDims s si t) {o : Fin t.rank} (hod : d.offsetDims = [o])
    (hob : d.operandBatchingDims = []) (j : t.Idx) (idx : IVec si w) (a : Fin s.rank) (ha : a ∉ d.startIndexMap)
    (hcl : a ∉ d.collapsedSliceDims) : (d.operandIdx j idx a).val = (j o).val := by
  have hb : a ∉ d.operandBatchingDims := by rw [hob]; exact List.not_mem_nil
  show d.start j idx a + d.batchCoord j a + d.offCoord j a = _
  rw [d.batchCoord_eq_zero j a hb, offCoord_single d hod j a ((d.mem_sKept a).2 ⟨hcl, hb⟩)]
  unfold GatherDims.start
  rw [dif_neg ha]
  simp only [Nat.add_zero, Nat.zero_add]

/-! ## The four reads -/

/-- (A) TWO gathered axes, LAST in the operand. Result element `(l, n)` of the gather of an `[L × U × V]` table at an
    `[N × 2]` array of start indices is the table at `(l, u, v)`, `u` and `v` the two components of row `n`'s start
    index, each read signed and clamped into its axis. -/
theorem gather_last2 {α : Type} {L U V N w : Nat} (d : GatherDims ⟨3, ![L, U, V]⟩ ⟨2, ![N, 2]⟩ ⟨2, ![L, N]⟩)
    (hod : d.offsetDims = [0]) (hcoll : d.collapsedSliceDims = [1, 2]) (hob : d.operandBatchingDims = [])
    (hsim : d.startIndexMap = [1, 2]) (hivd : d.indexVectorDim = 1) (hU : 0 < U) (hV : 0 < V)
    (x : (⟨3, ![L, U, V]⟩ : Shape).Idx → α) (idx : IVec ⟨2, ![N, 2]⟩ w) (l : Fin L) (n : Fin N) :
    Host.gather d x idx (ix2 l n) = x (ix3 l (clampIdx U hU (idx (ix2 n 0))) (clampIdx V hV (idx (ix2 n 1)))) := by
  have hbd : d.batchDims = [1] := by
    show Shape.kept _ d.offsetDims = [1]
    rw [hod]; rfl
  unfold Host.gather
  congr 1
  funext a
  apply Fin.ext
  match a with
  | ⟨0, _⟩ =>
    exact coord_kept d hod hob (ix2 l n) idx 0 (by rw [hsim]; simp) (by rw [hcoll]; simp)
  | ⟨1, _⟩ =>
    exact coord_gathered d hbd hob hivd (ix2 l n) n rfl idx 1 (by rw [hsim]; simp) (by rw [hcoll]; simp) 0 (by rw [hsim]; rfl)
  | ⟨2, _⟩ =>
    exact coord_gathered d hbd hob hivd (ix2 l n) n rfl idx 2 (by rw [hsim]; simp) (by rw [hcoll]; simp) 1 (by rw [hsim]; rfl)

/-- (B) TWO gathered axes, FIRST in the operand. Result element `(n, l)` of the gather of a `[U × V × L]` table at an
    `[N × 2]` array of start indices is the table at `(u, v, l)`, `u` and `v` the two components of row `n`'s start
    index, each read signed and clamped into its axis. The hypotheses are the printed dimension numbers (each `rfl` at
    a program's literal attribute); the slice sizes need no hypothesis: a collapsed axis has slice size one, and the
    kept axis starts at 0 whatever its slice. -/
theorem gather_first2 {α : Type} {L U V N w : Nat} (d : GatherDims ⟨3, ![U, V, L]⟩ ⟨2, ![N, 2]⟩ ⟨2, ![N, L]⟩)
    (hod : d.offsetDims = [1]) (hcoll : d.collapsedSliceDims = [0, 1]) (hob : d.operandBatchingDims = [])
    (hsim : d.startIndexMap = [0, 1]) (hivd : d.indexVectorDim = 1) (hU : 0 < U) (hV : 0 < V)
    (x : (⟨3, ![U, V, L]⟩ : Shape).Idx → α) (idx : IVec ⟨2, ![N, 2]⟩ w) (n : Fin N) (l : Fin L) :
    Host.gather d x idx (ix2 n l) = x (ix3 (clampIdx U hU (idx (ix2 n 0))) (clampIdx V hV (idx (ix2 n 1))) l) := by
  have hbd : d.batchDims = [0] := by
    show Shape.kept _ d.offsetDims = [0]
    rw [hod]; rfl
  unfold Host.gather
  congr 1
  funext a
  apply Fin.ext
  match a with
  | ⟨0, _⟩ =>
    exact coord_gathered d hbd hob hivd (ix2 n l) n rfl idx 0 (by rw [hsim]; simp) (by rw [hcoll]; simp) 0 (by rw [hsim]; rfl)
  | ⟨1, _⟩ =>
    exact coord_gathered d hbd hob hivd (ix2 n l) n rfl idx 1 (by rw [hsim]; simp) (by rw [hcoll]; simp) 1 (by rw [hsim]; rfl)
  | ⟨2, _⟩ =>
    exact coord_kept d hod hob (ix2 n l) idx 2 (by rw [hsim]; simp) (by rw [hcoll]; simp)

/-- (C) ONE gathered axis, LAST in the operand. Result element `(l, n)` of the gather of an `[L × U]` table at an
    `[N × 1]` column of start indices is the table at `(l, u)`, `u` row `n`'s start index read signed and clamped into
    the axis. -/
theorem gather_last1 {α : Type} {L U N w : Nat} (d : GatherDims ⟨2, ![L, U]⟩ ⟨2, ![N, 1]⟩ ⟨2, ![L, N]⟩)
    (hod : d.offsetDims = [0]) (hcoll : d.collapsedSliceDims = [1]) (hob : d.operandBatchingDims = [])
    (hsim : d.startIndexMap = [1]) (hivd : d.indexVectorDim = 1) (hU : 0 < U)
    (x : (⟨2, ![L, U]⟩ : Shape).Idx → α) (idx : IVec ⟨2, ![N, 1]⟩ w) (l : Fin L) (n : Fin N) :
    Host.gather d x idx (ix2 l n) = x (ix2 l (clampIdx U hU (idx (ix2 n 0)))) := by
  have hbd : d.batchDims = [1] := by
    show Shape.kept _ d.offsetDims = [1]
    rw [hod]; rfl
  unfold Host.gather
  congr 1
  funext a
  apply Fin.ext
  match a with
  | ⟨0, _⟩ =>
    exact coord_kept d hod hob (ix2 l n) idx 0 (by rw [hsim]; simp) (by rw [hcoll]; simp)
  | ⟨1, _⟩ =>
    exact coord_gathered d hbd hob hivd (ix2 l n) n rfl idx 1 (by rw [hsim]; simp) (by rw [hcoll]; simp) 0 (by rw [hsim]; rfl)

/-- (D) ONE gathered axis, FIRST in the operand. Result element `(n, l)` of the gather of a `[U × L]` table at an
    `[N × 1]` column of start indices is the table at `(u, l)`, `u` row `n`'s start index read signed and clamped into
    the axis. -/
theorem gather_first1 {α : Type} {L U N w : Nat} (d : GatherDims ⟨2, ![U, L]⟩ ⟨2, ![N, 1]⟩ ⟨2, ![N, L]⟩)
    (hod : d.offsetDims = [1]) (hcoll : d.collapsedSliceDims = [0]) (hob : d.operandBatchingDims = [])
    (hsim : d.startIndexMap = [0]) (hivd : d.indexVectorDim = 1) (hU : 0 < U)
    (x : (⟨2, ![U, L]⟩ : Shape).Idx → α) (idx : IVec ⟨2, ![N, 1]⟩ w) (n : Fin N) (l : Fin L) :
    Host.gather d x idx (ix2 n l) = x (ix2 (clampIdx U hU (idx (ix2 n 0))) l) := by
  have hbd : d.batchDims = [0] := by
    show Shape.kept _ d.offsetDims = [0]
    rw [hod]; rfl
  unfold Host.gather
  congr 1
  funext a
  apply Fin.ext
  match a with
  | ⟨0, _⟩ =>
    exact coord_gathered d hbd hob hivd (ix2 n l) n rfl idx 0 (by rw [hsim]; simp) (by rw [hcoll]; simp) 0 (by rw [hsim]; rfl)
  | ⟨1, _⟩ =>
    exact coord_kept d hod hob (ix2 n l) idx 1 (by rw [hsim]; simp) (by rw [hcoll]; simp)

end Cert.LibGather2
-- ==== Proof.BlockPre.lean ====
/-
  The two preludes, and the arguments.

  An argument of either program is written by no operation, so what it holds when the program has run is what it held at
  launch (`kv_arg*`, `rv_arg*`). The kernel program first transposes each looked-up table so that its channel axis comes
  first (`pk_T*`: element `(l, u, v)` of the transposed table is element `(u, v, l)` of the argument) and cuts the first
  column out of three of its coordinate arrays (`pk_9`, `pk_11`, `pk_13`); the reference program puts the first columns
  of two of them side by side (`pr_6a`, `pr_6b`) and cuts the first column out of a third (`pr_8`). Each fact is first
  read off the prelude alone, run from any contents `W` (`k0_*`, `r0_*`), and then placed in the whole program.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Idealize.ShloMosaic.StableHlo

variable {F : FTy → Type} [FloatOps F]

/-! ## Layout operations at an index written by coordinates -/

/-- A rank-3 array with its last axis moved to the front (permutation `[2, 0, 1]`) reads, at `(l, u, v)`, the operand
    at `(u, v, l)`. -/
private theorem transpose_ix3_201_apply {α : Type} {a b c : ℕ} (x : (⟨3, ![a, b, c]⟩ : Shape).Idx → α)
    (h : (⟨3, ![a, b, c]⟩ : Shape).Transposes [2, 0, 1] ⟨3, ![c, a, b]⟩) (l : Fin c) (u : Fin a) (v : Fin b) :
    transpose ⟨3, ![c, a, b]⟩ [2, 0, 1] x h (ix3 l u v) = x (ix3 u v l) :=
  transpose_apply _ x h _ _ fun d => match d with | ⟨0, _⟩ => rfl | ⟨1, _⟩ => rfl | ⟨2, _⟩ => rfl

/-- An `[a, 1]` column cast to `[a]` reads, at `i`, the operand at `(i, 0)`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector broadcast to an `[a, 1]` column (its axis kept as axis 0) reads, at `(i, u)`, the operand at `i`. -/
private theorem broadcastInDim_a_a1_apply {α : Type} {a : ℕ} (ha : a ≠ 1) (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ fun d => match d with
    | ⟨0, _⟩ => by show i.val = if a = 1 then 0 else i.val; rw [if_neg ha]

/-! ## The arguments -/

/-- A reference no operation of the kernel program writes holds, when its region is entered, what it held at launch. -/
theorem kv_of_unwritten (VK : Valuation Cert.KernelIdeal.τ Cert.KernelIdeal.sig (Elt F)) {r : Ref Cert.KernelIdeal.sig .tc}
    (h : r ∉ Cert.KernelIdeal.Chunks.K0w ++ (Cert.KernelIdeal.Chunks.K1w ++ (Cert.KernelIdeal.Chunks.K2w ++ (Cert.KernelIdeal.Chunks.K3w ++ (Cert.KernelIdeal.Chunks.K4w ++ (Cert.KernelIdeal.Chunks.K5w ++ (Cert.KernelIdeal.Chunks.K6w ++ (Cert.KernelIdeal.Chunks.K7w ++ (Cert.KernelIdeal.Chunks.K8w ++ Cert.KernelIdeal.Chunks.K9w))))))))) :
    KV VK r = VK (Proc.devRef .tc r) :=
  (Cert.KernelIdeal.KRead.in_K0 VK h).symm

/-- A reference no operation of the reference program writes holds, at its end, what it held at launch. -/
theorem rv_of_unwritten (VR : Valuation Cert.ReferenceIdeal.τ Cert.ReferenceIdeal.sig (Elt F)) {r : Ref Cert.ReferenceIdeal.sig .tc}
    (h : r ∉ Cert.ReferenceIdeal.Chunks.R0w ++ (Cert.ReferenceIdeal.Chunks.R1w ++ (Cert.ReferenceIdeal.Chunks.R2w ++ (Cert.ReferenceIdeal.Chunks.R3w ++ (Cert.ReferenceIdeal.Chunks.R3bw ++ (Cert.ReferenceIdeal.Chunks.R4w ++ (Cert.ReferenceIdeal.Chunks.R5w ++ (Cert.ReferenceIdeal.Chunks.R6w ++ (Cert.ReferenceIdeal.Chunks.R7w ++ (Cert.ReferenceIdeal.Chunks.R8w ++ Cert.ReferenceIdeal.Chunks.R9w)))))))))) :
    RV VR r = VR (Proc.devRef .tc r) :=
  (Cert.ReferenceIdeal.RRead.in_R0 VR h).symm

theorem kv_arg0 (VK : Valuation Cert.KernelIdeal.τ Cert.KernelIdeal.sig (Elt F)) :
    KV VK Cert.KernelIdeal.main_arg0 = VK (Proc.devRef .tc Cert.KernelIdeal.main_arg0) := kv_of_unwritten VK (by decide)
theorem kv_arg1 (VK : Valuation Cert.KernelIdeal.τ Cert.KernelIdeal.sig (Elt F)) :
    KV VK Cert.KernelIdeal.main_arg1 = VK (Proc.devRef .tc Cert.KernelIdeal.main_arg1) := kv_of_unwritten VK (by decide)
theorem kv_arg2 (VK : Valuation Cert.KernelIdeal.τ Cert.KernelIdeal.sig (Elt F)) :
    KV VK Cert.KernelIdeal.main_arg2 = VK (Proc.devRef .tc Cert.KernelIdeal.main_arg2) := kv_of_unwritten VK (by decide)
theorem kv_arg4 (VK : Valuation Cert.KernelIdeal.τ Cert.KernelIdeal.sig (Elt F)) :
    KV VK Cert.KernelIdeal.main_arg4 = VK (Proc.devRef .tc Cert.KernelIdeal.main_arg4) := kv_of_unwritten VK (by decide)
theorem kv_arg5 (VK : Valuation Cert.KernelIdeal.τ Cert.KernelIdeal.sig (Elt F)) :
    KV VK Cert.KernelIdeal.main_arg5 = VK (Proc.devRef .tc Cert.KernelIdeal.main_arg5) := kv_of_unwritten VK (by decide)
theorem kv_arg6 (VK : Valuation Cert.KernelIdeal.τ Cert.KernelIdeal.sig (Elt F)) :
    KV VK Cert.KernelIdeal.main_arg6 = VK (Proc.devRef .tc Cert.KernelIdeal.main_arg6) := kv_of_unwritten VK (by decide)
theorem kv_arg7 (VK : Valuation Cert.KernelIdeal.τ Cert.KernelIdeal.sig (Elt F)) :
    KV VK Cert.KernelIdeal.main_arg7 = VK (Proc.devRef .tc Cert.KernelIdeal.main_arg7) := kv_of_unwritten VK (by decide)
theorem kv_arg8 (VK : Valuation Cert.KernelIdeal.τ Cert.KernelIdeal.sig (Elt F)) :
    KV VK Cert.KernelIdeal.main_arg8 = VK (Proc.devRef .tc Cert.KernelIdeal.main_arg8) := kv_of_unwritten VK (by decide)
theorem kv_arg9 (VK : Valuation Cert.KernelIdeal.τ Cert.KernelIdeal.sig (Elt F)) :
    KV VK Cert.KernelIdeal.main_arg9 = VK (Proc.devRef .tc Cert.KernelIdeal.main_arg9) := kv_of_unwritten VK (by decide)
theorem kv_arg10 (VK : Valuation Cert.KernelIdeal.τ Cert.KernelIdeal.sig (Elt F)) :
    KV VK Cert.KernelIdeal.main_arg10 = VK (Proc.devRef .tc Cert.KernelIdeal.main_arg10) := kv_of_unwritten VK (by decide)
theorem kv_arg11 (VK : Valuation Cert.KernelIdeal.τ Cert.KernelIdeal.sig (Elt F)) :
    KV VK Cert.KernelIdeal.main_arg11 = VK (Proc.devRef .tc Cert.KernelIdeal.main_arg11) := kv_of_unwritten VK (by decide)
theorem kv_arg12 (VK : Valuation Cert.KernelIdeal.τ Cert.KernelIdeal.sig (Elt F)) :
    KV VK Cert.KernelIdeal.main_arg12 = VK (Proc.devRef .tc Cert.KernelIdeal.main_arg12) := kv_of_unwritten VK (by decide)
theorem kv_arg13 (VK : Valuation Cert.KernelIdeal.τ Cert.KernelIdeal.sig (Elt F)) :
    KV VK Cert.KernelIdeal.main_arg13 = VK (Proc.devRef .tc Cert.KernelIdeal.main_arg13) := kv_of_unwritten VK (by decide)
theorem kv_arg14 (VK : Valuation Cert.KernelIdeal.τ Cert.KernelIdeal.sig (Elt F)) :
    KV VK Cert.KernelIdeal.main_arg14 = VK (Proc.devRef .tc Cert.KernelIdeal.main_arg14) := kv_of_unwritten VK (by decide)
theorem kv_arg15 (VK : Valuation Cert.KernelIdeal.τ Cert.KernelIdeal.sig (Elt F)) :
    KV VK Cert.KernelIdeal.main_arg15 = VK (Proc.devRef .tc Cert.KernelIdeal.main_arg15) := kv_of_unwritten VK (by decide)
theorem kv_arg16 (VK : Valuation Cert.KernelIdeal.τ Cert.KernelIdeal.sig (Elt F)) :
    KV VK Cert.KernelIdeal.main_arg16 = VK (Proc.devRef .tc Cert.KernelIdeal.main_arg16) := kv_of_unwritten VK (by decide)

theorem rv_arg0 (VR : Valuation Cert.ReferenceIdeal.τ Cert.ReferenceIdeal.sig (Elt F)) :
    RV VR Cert.ReferenceIdeal.main_arg0 = VR (Proc.devRef .tc Cert.ReferenceIdeal.main_arg0) := rv_of_unwritten VR (by decide)
theorem rv_arg1 (VR : Valuation Cert.ReferenceIdeal.τ Cert.ReferenceIdeal.sig (Elt F)) :
    RV VR Cert.ReferenceIdeal.main_arg1 = VR (Proc.devRef .tc Cert.ReferenceIdeal.main_arg1) := rv_of_unwritten VR (by decide)
theorem rv_arg2 (VR : Valuation Cert.ReferenceIdeal.τ Cert.ReferenceIdeal.sig (Elt F)) :
    RV VR Cert.ReferenceIdeal.main_arg2 = VR (Proc.devRef .tc Cert.ReferenceIdeal.main_arg2) := rv_of_unwritten VR (by decide)
theorem rv_arg4 (VR : Valuation Cert.ReferenceIdeal.τ Cert.ReferenceIdeal.sig (Elt F)) :
    RV VR Cert.ReferenceIdeal.main_arg4 = VR (Proc.devRef .tc Cert.ReferenceIdeal.main_arg4) := rv_of_unwritten VR (by decide)
theorem rv_arg5 (VR : Valuation Cert.ReferenceIdeal.τ Cert.ReferenceIdeal.sig (Elt F)) :
    RV VR Cert.ReferenceIdeal.main_arg5 = VR (Proc.devRef .tc Cert.ReferenceIdeal.main_arg5) := rv_of_unwritten VR (by decide)
theorem rv_arg6 (VR : Valuation Cert.ReferenceIdeal.τ Cert.ReferenceIdeal.sig (Elt F)) :
    RV VR Cert.ReferenceIdeal.main_arg6 = VR (Proc.devRef .tc Cert.ReferenceIdeal.main_arg6) := rv_of_unwritten VR (by decide)
theorem rv_arg7 (VR : Valuation Cert.ReferenceIdeal.τ Cert.ReferenceIdeal.sig (Elt F)) :
    RV VR Cert.ReferenceIdeal.main_arg7 = VR (Proc.devRef .tc Cert.ReferenceIdeal.main_arg7) := rv_of_unwritten VR (by decide)
theorem rv_arg8 (VR : Valuation Cert.ReferenceIdeal.τ Cert.ReferenceIdeal.sig (Elt F)) :
    RV VR Cert.ReferenceIdeal.main_arg8 = VR (Proc.devRef .tc Cert.ReferenceIdeal.main_arg8) := rv_of_unwritten VR (by decide)
theorem rv_arg9 (VR : Valuation Cert.ReferenceIdeal.τ Cert.ReferenceIdeal.sig (Elt F)) :
    RV VR Cert.ReferenceIdeal.main_arg9 = VR (Proc.devRef .tc Cert.ReferenceIdeal.main_arg9) := rv_of_unwritten VR (by decide)
theorem rv_arg10 (VR : Valuation Cert.ReferenceIdeal.τ Cert.ReferenceIdeal.sig (Elt F)) :
    RV VR Cert.ReferenceIdeal.main_arg10 = VR (Proc.devRef .tc Cert.ReferenceIdeal.main_arg10) := rv_of_unwritten VR (by decide)
theorem rv_arg11 (VR : Valuation Cert.ReferenceIdeal.τ Cert.ReferenceIdeal.sig (Elt F)) :
    RV VR Cert.ReferenceIdeal.main_arg11 = VR (Proc.devRef .tc Cert.ReferenceIdeal.main_arg11) := rv_of_unwritten VR (by decide)
theorem rv_arg12 (VR : Valuation Cert.ReferenceIdeal.τ Cert.ReferenceIdeal.sig (Elt F)) :
    RV VR Cert.ReferenceIdeal.main_arg12 = VR (Proc.devRef .tc Cert.ReferenceIdeal.main_arg12) := rv_of_unwritten VR (by decide)
theorem rv_arg13 (VR : Valuation Cert.ReferenceIdeal.τ Cert.ReferenceIdeal.sig (Elt F)) :
    RV VR Cert.ReferenceIdeal.main_arg13 = VR (Proc.devRef .tc Cert.ReferenceIdeal.main_arg13) := rv_of_unwritten VR (by decide)
theorem rv_arg14 (VR : Valuation Cert.ReferenceIdeal.τ Cert.ReferenceIdeal.sig (Elt F)) :
    RV VR Cert.ReferenceIdeal.main_arg14 = VR (Proc.devRef .tc Cert.ReferenceIdeal.main_arg14) := rv_of_unwritten VR (by decide)
theorem rv_arg15 (VR : Valuation Cert.ReferenceIdeal.τ Cert.ReferenceIdeal.sig (Elt F)) :
    RV VR Cert.ReferenceIdeal.main_arg15 = VR (Proc.devRef .tc Cert.ReferenceIdeal.main_arg15) := rv_of_unwritten VR (by decide)
theorem rv_arg16 (VR : Valuation Cert.ReferenceIdeal.τ Cert.ReferenceIdeal.sig (Elt F)) :
    RV VR Cert.ReferenceIdeal.main_arg16 = VR (Proc.devRef .tc Cert.ReferenceIdeal.main_arg16) := rv_of_unwritten VR (by decide)

/-! ## The kernel program's transposed tables -/

set_option maxHeartbeats 4000000 in
/-- The kernel program's prelude, run from any contents: element `(l, u, v)` of `main_v0` is element `(u, v, l)` of `main_arg9`. -/
theorem k0_T0 (W : Valuation Cert.KernelIdeal.τ Cert.KernelIdeal.sig (Elt F)) (l : Fin 2) (u v : Fin 2048) :
    after Cert.KernelIdeal.Chunks.K0 W (Proc.devRef .tc Cert.KernelIdeal.main_v0) (ix3 l u v) = W (Proc.devRef .tc Cert.KernelIdeal.main_arg9) (ix3 u v l) := by
  simp only [Cert.KernelIdeal.Chunks.K0]
  after_results_simp
  exact transpose_ix3_201_apply _ _ l u v

/-- Element `(l, u, v)` of the kernel program's transposed table `main_v0` is element `(u, v, l)` of its argument. -/
theorem pk_T0 (VK : Valuation Cert.KernelIdeal.τ Cert.KernelIdeal.sig (Elt F)) : ∀ (l : Fin 2) (u v : Fin 2048),
    KV VK Cert.KernelIdeal.main_v0 (ix3 l u v) = KV VK Cert.KernelIdeal.main_arg9 (ix3 u v l) := by
  intro l u v
  show Cert.KernelIdeal.KRead.St10 VK (Proc.devRef .tc Cert.KernelIdeal.main_v0) (ix3 l u v) = Cert.KernelIdeal.KRead.St10 VK (Proc.devRef .tc Cert.KernelIdeal.main_arg9) (ix3 u v l)
  rw [Cert.KernelIdeal.KRead.out_K0 VK (r := Cert.KernelIdeal.main_v0) (by decide), ← Cert.KernelIdeal.KRead.in_K0 VK (r := Cert.KernelIdeal.main_arg9) (by decide)]
  exact k0_T0 _ l u v

set_option maxHeartbeats 4000000 in
/-- The kernel program's prelude, run from any contents: element `(l, u)` of `main_v1` is element `(u, l)` of `main_arg10`. -/
theorem k0_T1 (W : Valuation Cert.KernelIdeal.τ Cert.KernelIdeal.sig (Elt F)) (l : Fin 1) (u : Fin 2048) :
    after Cert.KernelIdeal.Chunks.K0 W (Proc.devRef .tc Cert.KernelIdeal.main_v1) (ix2 l u) = W (Proc.devRef .tc Cert.KernelIdeal.main_arg10) (ix2 u l) := by
  simp only [Cert.KernelIdeal.Chunks.K0]
  after_results_simp
  exact transpose_ix2_apply _ _ l u

/-- Element `(l, u)` of the kernel program's transposed table `main_v1` is element `(u, l)` of its argument. -/
theorem pk_T1 (VK : Valuation Cert.KernelIdeal.τ Cert.KernelIdeal.sig (Elt F)) : ∀ (l : Fin 1) (u : Fin 2048),
    KV VK Cert.KernelIdeal.main_v1 (ix2 l u) = KV VK Cert.KernelIdeal.main_arg10 (ix2 u l) := by
  intro l u
  show Cert.KernelIdeal.KRead.St10 VK (Proc.devRef .tc Cert.KernelIdeal.main_v1) (ix2 l u) = Cert.KernelIdeal.KRead.St10 VK (Proc.devRef .tc Cert.KernelIdeal.main_arg10) (ix2 u l)
  rw [Cert.KernelIdeal.KRead.out_K0 VK (r := Cert.KernelIdeal.main_v1) (by decide), ← Cert.KernelIdeal.KRead.in_K0 VK (r := Cert.KernelIdeal.main_arg10) (by decide)]
  exact k0_T1 _ l u

set_option maxHeartbeats 4000000 in
/-- The kernel program's prelude, run from any contents: element `(l, u, v)` of `main_v2` is element `(u, v, l)` of `main_arg11`. -/
theorem k0_T2 (W : Valuation Cert.KernelIdeal.τ Cert.KernelIdeal.sig (Elt F)) (l : Fin 3) (u v : Fin 64) :
    after Cert.KernelIdeal.Chunks.K0 W (Proc.devRef .tc Cert.KernelIdeal.main_v2) (ix3 l u v) = W (Proc.devRef .tc Cert.KernelIdeal.main_arg11) (ix3 u v l) := by
  simp only [Cert.KernelIdeal.Chunks.K0]
  after_results_simp
  exact transpose_ix3_201_apply _ _ l u v

/-- Element `(l, u, v)` of the kernel program's transposed table `main_v2` is element `(u, v, l)` of its argument. -/
theorem pk_T2 (VK : Valuation Cert.KernelIdeal.τ Cert.KernelIdeal.sig (Elt F)) : ∀ (l : Fin 3) (u v : Fin 64),
    KV VK Cert.KernelIdeal.main_v2 (ix3 l u v) = KV VK Cert.KernelIdeal.main_arg11 (ix3 u v l) := by
  intro l u v
  show Cert.KernelIdeal.KRead.St10 VK (Proc.devRef .tc Cert.KernelIdeal.main_v2) (ix3 l u v) = Cert.KernelIdeal.KRead.St10 VK (Proc.devRef .tc Cert.KernelIdeal.main_arg11) (ix3 u v l)
  rw [Cert.KernelIdeal.KRead.out_K0 VK (r := Cert.KernelIdeal.main_v2) (by decide), ← Cert.KernelIdeal.KRead.in_K0 VK (r := Cert.KernelIdeal.main_arg11) (by decide)]
  exact k0_T2 _ l u v

set_option maxHeartbeats 4000000 in
/-- The kernel program's prelude, run from any contents: element `(l, u, v)` of `main_v3` is element `(u, v, l)` of `main_arg12`. -/
theorem k0_T3 (W : Valuation Cert.KernelIdeal.τ Cert.KernelIdeal.sig (Elt F)) (l : Fin 3) (u v : Fin 48) :
    after Cert.KernelIdeal.Chunks.K0 W (Proc.devRef .tc Cert.KernelIdeal.main_v3) (ix3 l u v) = W (Proc.devRef .tc Cert.KernelIdeal.main_arg12) (ix3 u v l) := by
  simp only [Cert.KernelIdeal.Chunks.K0]
  after_results_simp
  exact transpose_ix3_201_apply _ _ l u v

/-- Element `(l, u, v)` of the kernel program's transposed table `main_v3` is element `(u, v, l)` of its argument. -/
theorem pk_T3 (VK : Valuation Cert.KernelIdeal.τ Cert.KernelIdeal.sig (Elt F)) : ∀ (l : Fin 3) (u v : Fin 48),
    KV VK Cert.KernelIdeal.main_v3 (ix3 l u v) = KV VK Cert.KernelIdeal.main_arg12 (ix3 u v l) := by
  intro l u v
  show Cert.KernelIdeal.KRead.St10 VK (Proc.devRef .tc Cert.KernelIdeal.main_v3) (ix3 l u v) = Cert.KernelIdeal.KRead.St10 VK (Proc.devRef .tc Cert.KernelIdeal.main_arg12) (ix3 u v l)
  rw [Cert.KernelIdeal.KRead.out_K0 VK (r := Cert.KernelIdeal.main_v3) (by decide), ← Cert.KernelIdeal.KRead.in_K0 VK (r := Cert.KernelIdeal.main_arg12) (by decide)]
  exact k0_T3 _ l u v

set_option maxHeartbeats 4000000 in
/-- The kernel program's prelude, run from any contents: element `(l, u)` of `main_v4` is element `(u, l)` of `main_arg13`. -/
theorem k0_T4 (W : Valuation Cert.KernelIdeal.τ Cert.KernelIdeal.sig (Elt F)) (l : Fin 2) (u : Fin 96) :
    after Cert.KernelIdeal.Chunks.K0 W (Proc.devRef .tc Cert.KernelIdeal.main_v4) (ix2 l u) = W (Proc.devRef .tc Cert.KernelIdeal.main_arg13) (ix2 u l) := by
  simp only [Cert.KernelIdeal.Chunks.K0]
  after_results_simp
  exact transpose_ix2_apply _ _ l u

/-- Element `(l, u)` of the kernel program's transposed table `main_v4` is element `(u, l)` of its argument. -/
theorem pk_T4 (VK : Valuation Cert.KernelIdeal.τ Cert.KernelIdeal.sig (Elt F)) : ∀ (l : Fin 2) (u : Fin 96),
    KV VK Cert.KernelIdeal.main_v4 (ix2 l u) = KV VK Cert.KernelIdeal.main_arg13 (ix2 u l) := by
  intro l u
  show Cert.KernelIdeal.KRead.St10 VK (Proc.devRef .tc Cert.KernelIdeal.main_v4) (ix2 l u) = Cert.KernelIdeal.KRead.St10 VK (Proc.devRef .tc Cert.KernelIdeal.main_arg13) (ix2 u l)
  rw [Cert.KernelIdeal.KRead.out_K0 VK (r := Cert.KernelIdeal.main_v4) (by decide), ← Cert.KernelIdeal.KRead.in_K0 VK (r := Cert.KernelIdeal.main_arg13) (by decide)]
  exact k0_T4 _ l u

set_option maxHeartbeats 4000000 in
/-- The kernel program's prelude, run from any contents: element `(l, u, v)` of `main_v5` is element `(u, v, l)` of `main_arg14`. -/
theorem k0_T5 (W : Valuation Cert.KernelIdeal.τ Cert.KernelIdeal.sig (Elt F)) (l : Fin 1) (u v : Fin 32) :
    after Cert.KernelIdeal.Chunks.K0 W (Proc.devRef .tc Cert.KernelIdeal.main_v5) (ix3 l u v) = W (Proc.devRef .tc Cert.KernelIdeal.main_arg14) (ix3 u v l) := by
  simp only [Cert.KernelIdeal.Chunks.K0]
  after_results_simp
  exact transpose_ix3_201_apply _ _ l u v

/-- Element `(l, u, v)` of the kernel program's transposed table `main_v5` is element `(u, v, l)` of its argument. -/
theorem pk_T5 (VK : Valuation Cert.KernelIdeal.τ Cert.KernelIdeal.sig (Elt F)) : ∀ (l : Fin 1) (u v : Fin 32),
    KV VK Cert.KernelIdeal.main_v5 (ix3 l u v) = KV VK Cert.KernelIdeal.main_arg14 (ix3 u v l) := by
  intro l u v
  show Cert.KernelIdeal.KRead.St10 VK (Proc.devRef .tc Cert.KernelIdeal.main_v5) (ix3 l u v) = Cert.KernelIdeal.KRead.St10 VK (Proc.devRef .tc Cert.KernelIdeal.main_arg14) (ix3 u v l)
  rw [Cert.KernelIdeal.KRead.out_K0 VK (r := Cert.KernelIdeal.main_v5) (by decide), ← Cert.KernelIdeal.KRead.in_K0 VK (r := Cert.KernelIdeal.main_arg14) (by decide)]
  exact k0_T5 _ l u v

set_option maxHeartbeats 4000000 in
/-- The kernel program's prelude, run from any contents: element `(l, u, v)` of `main_v6` is element `(u, v, l)` of `main_arg15`. -/
theorem k0_T6 (W : Valuation Cert.KernelIdeal.τ Cert.KernelIdeal.sig (Elt F)) (l : Fin 4) (u v : Fin 32) :
    after Cert.KernelIdeal.Chunks.K0 W (Proc.devRef .tc Cert.KernelIdeal.main_v6) (ix3 l u v) = W (Proc.devRef .tc Cert.KernelIdeal.main_arg15) (ix3 u v l) := by
  simp only [Cert.KernelIdeal.Chunks.K0]
  after_results_simp
  exact transpose_ix3_201_apply _ _ l u v

/-- Element `(l, u, v)` of the kernel program's transposed table `main_v6` is element `(u, v, l)` of its argument. -/
theorem pk_T6 (VK : Valuation Cert.KernelIdeal.τ Cert.KernelIdeal.sig (Elt F)) : ∀ (l : Fin 4) (u v : Fin 32),
    KV VK Cert.KernelIdeal.main_v6 (ix3 l u v) = KV VK Cert.KernelIdeal.main_arg15 (ix3 u v l) := by
  intro l u v
  show Cert.KernelIdeal.KRead.St10 VK (Proc.devRef .tc Cert.KernelIdeal.main_v6) (ix3 l u v) = Cert.KernelIdeal.KRead.St10 VK (Proc.devRef .tc Cert.KernelIdeal.main_arg15) (ix3 u v l)
  rw [Cert.KernelIdeal.KRead.out_K0 VK (r := Cert.KernelIdeal.main_v6) (by decide), ← Cert.KernelIdeal.KRead.in_K0 VK (r := Cert.KernelIdeal.main_arg15) (by decide)]
  exact k0_T6 _ l u v

set_option maxHeartbeats 4000000 in
/-- The kernel program's prelude, run from any contents: element `(l, u, v)` of `main_v7` is element `(u, v, l)` of `main_arg16`. -/
theorem k0_T7 (W : Valuation Cert.KernelIdeal.τ Cert.KernelIdeal.sig (Elt F)) (l : Fin 4) (u v : Fin 32) :
    after Cert.KernelIdeal.Chunks.K0 W (Proc.devRef .tc Cert.KernelIdeal.main_v7) (ix3 l u v) = W (Proc.devRef .tc Cert.KernelIdeal.main_arg16) (ix3 u v l) := by
  simp only [Cert.KernelIdeal.Chunks.K0]
  after_results_simp
  exact transpose_ix3_201_apply _ _ l u v

/-- Element `(l, u, v)` of the kernel program's transposed table `main_v7` is element `(u, v, l)` of its argument. -/
theorem pk_T7 (VK : Valuation Cert.KernelIdeal.τ Cert.KernelIdeal.sig (Elt F)) : ∀ (l : Fin 4) (u v : Fin 32),
    KV VK Cert.KernelIdeal.main_v7 (ix3 l u v) = KV VK Cert.KernelIdeal.main_arg16 (ix3 u v l) := by
  intro l u v
  show Cert.KernelIdeal.KRead.St10 VK (Proc.devRef .tc Cert.KernelIdeal.main_v7) (ix3 l u v) = Cert.KernelIdeal.KRead.St10 VK (Proc.devRef .tc Cert.KernelIdeal.main_arg16) (ix3 u v l)
  rw [Cert.KernelIdeal.KRead.out_K0 VK (r := Cert.KernelIdeal.main_v7) (by decide), ← Cert.KernelIdeal.KRead.in_K0 VK (r := Cert.KernelIdeal.main_arg16) (by decide)]
  exact k0_T7 _ l u v

/-! ## The first columns -/

set_option maxHeartbeats 4000000 in
/-- The kernel program's prelude, run from any contents: `main_v9` is the first column of `main_arg0`. -/
theorem k0_9 (W : Valuation Cert.KernelIdeal.τ Cert.KernelIdeal.sig (Elt F)) (n : Fin 2097152) :
    after Cert.KernelIdeal.Chunks.K0 W (Proc.devRef .tc Cert.KernelIdeal.main_v9) (ix1 n) = W (Proc.devRef .tc Cert.KernelIdeal.main_arg0) (ix2 n 0) := by
  simp only [Cert.KernelIdeal.Chunks.K0]
  after_results_simp
  exact (shapeCast_a1_a_apply _ _ n).trans (slice2_axis1_apply 0 _ _ n 0 0 rfl)

/-- The kernel program's `main_v9` is the first column of its argument `main_arg0`. -/
theorem pk_9 (VK : Valuation Cert.KernelIdeal.τ Cert.KernelIdeal.sig (Elt F)) : ∀ n : Fin 2097152,
    KV VK Cert.KernelIdeal.main_v9 (ix1 n) = KV VK Cert.KernelIdeal.main_arg0 (ix2 n 0) := by
  intro n
  show Cert.KernelIdeal.KRead.St10 VK (Proc.devRef .tc Cert.KernelIdeal.main_v9) (ix1 n) = Cert.KernelIdeal.KRead.St10 VK (Proc.devRef .tc Cert.KernelIdeal.main_arg0) (ix2 n 0)
  rw [Cert.KernelIdeal.KRead.out_K0 VK (r := Cert.KernelIdeal.main_v9) (by decide), ← Cert.KernelIdeal.KRead.in_K0 VK (r := Cert.KernelIdeal.main_arg0) (by decide)]
  exact k0_9 _ n

set_option maxHeartbeats 4000000 in
/-- The kernel program's prelude, run from any contents: `main_v11` is the first column of `main_arg1`. -/
theorem k0_11 (W : Valuation Cert.KernelIdeal.τ Cert.KernelIdeal.sig (Elt F)) (n : Fin 2097152) :
    after Cert.KernelIdeal.Chunks.K0 W (Proc.devRef .tc Cert.KernelIdeal.main_v11) (ix1 n) = W (Proc.devRef .tc Cert.KernelIdeal.main_arg1) (ix2 n 0) := by
  simp only [Cert.KernelIdeal.Chunks.K0]
  after_results_simp
  exact (shapeCast_a1_a_apply _ _ n).trans (slice2_axis1_apply 0 _ _ n 0 0 rfl)

/-- The kernel program's `main_v11` is the first column of its argument `main_arg1`. -/
theorem pk_11 (VK : Valuation Cert.KernelIdeal.τ Cert.KernelIdeal.sig (Elt F)) : ∀ n : Fin 2097152,
    KV VK Cert.KernelIdeal.main_v11 (ix1 n) = KV VK Cert.KernelIdeal.main_arg1 (ix2 n 0) := by
  intro n
  show Cert.KernelIdeal.KRead.St10 VK (Proc.devRef .tc Cert.KernelIdeal.main_v11) (ix1 n) = Cert.KernelIdeal.KRead.St10 VK (Proc.devRef .tc Cert.KernelIdeal.main_arg1) (ix2 n 0)
  rw [Cert.KernelIdeal.KRead.out_K0 VK (r := Cert.KernelIdeal.main_v11) (by decide), ← Cert.KernelIdeal.KRead.in_K0 VK (r := Cert.KernelIdeal.main_arg1) (by decide)]
  exact k0_11 _ n

set_option maxHeartbeats 4000000 in
/-- The kernel program's prelude, run from any contents: `main_v13` is the first column of `main_arg4`. -/
theorem k0_13 (W : Valuation Cert.KernelIdeal.τ Cert.KernelIdeal.sig (Elt F)) (n : Fin 2097152) :
    after Cert.KernelIdeal.Chunks.K0 W (Proc.devRef .tc Cert.KernelIdeal.main_v13) (ix1 n) = W (Proc.devRef .tc Cert.KernelIdeal.main_arg4) (ix2 n 0) := by
  simp only [Cert.KernelIdeal.Chunks.K0]
  after_results_simp
  exact (shapeCast_a1_a_apply _ _ n).trans (slice2_axis1_apply 0 _ _ n 0 0 rfl)

/-- The kernel program's `main_v13` is the first column of its argument `main_arg4`. -/
theorem pk_13 (VK : Valuation Cert.KernelIdeal.τ Cert.KernelIdeal.sig (Elt F)) : ∀ n : Fin 2097152,
    KV VK Cert.KernelIdeal.main_v13 (ix1 n) = KV VK Cert.KernelIdeal.main_arg4 (ix2 n 0) := by
  intro n
  show Cert.KernelIdeal.KRead.St10 VK (Proc.devRef .tc Cert.KernelIdeal.main_v13) (ix1 n) = Cert.KernelIdeal.KRead.St10 VK (Proc.devRef .tc Cert.KernelIdeal.main_arg4) (ix2 n 0)
  rw [Cert.KernelIdeal.KRead.out_K0 VK (r := Cert.KernelIdeal.main_v13) (by decide), ← Cert.KernelIdeal.KRead.in_K0 VK (r := Cert.KernelIdeal.main_arg4) (by decide)]
  exact k0_13 _ n

set_option maxHeartbeats 4000000 in
/-- The reference program's prelude, run from any contents: column 0 of `main_v6` is the first column of `main_arg0`. -/
theorem r0_6a (W : Valuation Cert.ReferenceIdeal.τ Cert.ReferenceIdeal.sig (Elt F)) (n : Fin 2097152) :
    after Cert.ReferenceIdeal.Chunks.R0 W (Proc.devRef .tc Cert.ReferenceIdeal.main_v6) (ix2 n 0) = W (Proc.devRef .tc Cert.ReferenceIdeal.main_arg0) (ix2 n 0) := by
  simp only [Cert.ReferenceIdeal.Chunks.R0]
  after_results_simp
  refine (concatenate_pair_apply_left (s₁ := ⟨2, ![2097152, 1]⟩) (s₂ := ⟨2, ![2097152, 1]⟩) _ _ _ _ (ix2 n (0 : Fin 2)) rfl (ix2 n (0 : Fin 1)) (fun b => match b with
    | ⟨0, _⟩ => rfl
    | ⟨1, _⟩ => rfl)).trans ?_
  refine (broadcastInDim_a_a1_apply (by decide) _ _ n 0).trans ?_
  exact (shapeCast_a1_a_apply _ _ n).trans (slice2_axis1_apply 0 _ _ n 0 0 rfl)

/-- Column 0 of the reference program's \`main_v6\` is the first column of its argument \`main_arg0\`. -/
theorem pr_6a (VR : Valuation Cert.ReferenceIdeal.τ Cert.ReferenceIdeal.sig (Elt F)) : ∀ n : Fin 2097152,
    RV VR Cert.ReferenceIdeal.main_v6 (ix2 n 0) = RV VR Cert.ReferenceIdeal.main_arg0 (ix2 n 0) := by
  intro n
  show Cert.ReferenceIdeal.RRead.St11 VR (Proc.devRef .tc Cert.ReferenceIdeal.main_v6) (ix2 n 0) = Cert.ReferenceIdeal.RRead.St11 VR (Proc.devRef .tc Cert.ReferenceIdeal.main_arg0) (ix2 n 0)
  rw [Cert.ReferenceIdeal.RRead.out_R0 VR (r := Cert.ReferenceIdeal.main_v6) (by decide), ← Cert.ReferenceIdeal.RRead.in_R0 VR (r := Cert.ReferenceIdeal.main_arg0) (by decide)]
  exact r0_6a _ n

set_option maxHeartbeats 4000000 in
/-- The reference program's prelude, run from any contents: column 1 of `main_v6` is the first column of `main_arg1`. -/
theorem r0_6b (W : Valuation Cert.ReferenceIdeal.τ Cert.ReferenceIdeal.sig (Elt F)) (n : Fin 2097152) :
    after Cert.ReferenceIdeal.Chunks.R0 W (Proc.devRef .tc Cert.ReferenceIdeal.main_v6) (ix2 n 1) = W (Proc.devRef .tc Cert.ReferenceIdeal.main_arg1) (ix2 n 0) := by
  simp only [Cert.ReferenceIdeal.Chunks.R0]
  after_results_simp
  refine (concatenate_pair_apply_right (s₁ := ⟨2, ![2097152, 1]⟩) (s₂ := ⟨2, ![2097152, 1]⟩) _ _ _ _ (ix2 n (1 : Fin 2)) rfl rfl (ix2 n (0 : Fin 1)) (fun b hb => match b, hb with
    | ⟨0, _⟩, _ => rfl
    | ⟨1, _⟩, hb => absurd rfl hb) rfl).trans ?_
  refine (broadcastInDim_a_a1_apply (by decide) _ _ n 0).trans ?_
  exact (shapeCast_a1_a_apply _ _ n).trans (slice2_axis1_apply 0 _ _ n 0 0 rfl)

/-- Column 1 of the reference program's \`main_v6\` is the first column of its argument \`main_arg1\`. -/
theorem pr_6b (VR : Valuation Cert.ReferenceIdeal.τ Cert.ReferenceIdeal.sig (Elt F)) : ∀ n : Fin 2097152,
    RV VR Cert.ReferenceIdeal.main_v6 (ix2 n 1) = RV VR Cert.ReferenceIdeal.main_arg1 (ix2 n 0) := by
  intro n
  show Cert.ReferenceIdeal.RRead.St11 VR (Proc.devRef .tc Cert.ReferenceIdeal.main_v6) (ix2 n 1) = Cert.ReferenceIdeal.RRead.St11 VR (Proc.devRef .tc Cert.ReferenceIdeal.main_arg1) (ix2 n 0)
  rw [Cert.ReferenceIdeal.RRead.out_R0 VR (r := Cert.ReferenceIdeal.main_v6) (by decide), ← Cert.ReferenceIdeal.RRead.in_R0 VR (r := Cert.ReferenceIdeal.main_arg1) (by decide)]
  exact r0_6b _ n

set_option maxHeartbeats 4000000 in
/-- The reference program's prelude, run from any contents: `main_v8` is the first column of `main_arg4`. -/
theorem r0_8 (W : Valuation Cert.ReferenceIdeal.τ Cert.ReferenceIdeal.sig (Elt F)) (n : Fin 2097152) :
    after Cert.ReferenceIdeal.Chunks.R0 W (Proc.devRef .tc Cert.ReferenceIdeal.main_v8) (ix1 n) = W (Proc.devRef .tc Cert.ReferenceIdeal.main_arg4) (ix2 n 0) := by
  simp only [Cert.ReferenceIdeal.Chunks.R0]
  after_results_simp
  exact (shapeCast_a1_a_apply _ _ n).trans (slice2_axis1_apply 0 _ _ n 0 0 rfl)

/-- The reference program's \`main_v8\` is the first column of its argument \`main_arg4\`. -/
theorem pr_8 (VR : Valuation Cert.ReferenceIdeal.τ Cert.ReferenceIdeal.sig (Elt F)) : ∀ n : Fin 2097152,
    RV VR Cert.ReferenceIdeal.main_v8 (ix1 n) = RV VR Cert.ReferenceIdeal.main_arg4 (ix2 n 0) := by
  intro n
  show Cert.ReferenceIdeal.RRead.St11 VR (Proc.devRef .tc Cert.ReferenceIdeal.main_v8) (ix1 n) = Cert.ReferenceIdeal.RRead.St11 VR (Proc.devRef .tc Cert.ReferenceIdeal.main_arg4) (ix2 n 0)
  rw [Cert.ReferenceIdeal.RRead.out_R0 VR (r := Cert.ReferenceIdeal.main_v8) (by decide), ← Cert.ReferenceIdeal.RRead.in_R0 VR (r := Cert.ReferenceIdeal.main_arg4) (by decide)]
  exact r0_8 _ n

end Cert.Bridge

end
-- ==== Proof.Block1.lean ====
/-
  Lookup 1: the nearest-neighbour read of the triangle-wave-normalised table tabRAEnc at the cell two coordinates
  name, in the two layouts.

  Both programs turn each of the two coordinates into a cell index the same way (clip to [0, 0.999999], scale by
  2047, round to nearest even, convert to an integer, wrap a negative index by 2048), put the two indices side by side
  as an [N x 2] array of start indices, and gather from the table 2·|x/2 − ⌊x/2 + ½⌋|. The kernel program holds
  the table channel first ([2, 2048, 2048]) and gets a [2, N] result, whose two rows it then takes apart; the
  reference program holds it channel last ([2048, 2048, 2]) and gets [N, 2]. Element (l, n) of the one is
  element (n, l) of the other: the start indices are the same array, and the table's triangle wave is elementwise.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

noncomputable section

namespace Cert.Bridge

open Idealize.ShloMosaic Idealize.ShloMosaic.TcCoe Idealize.SL.Sem Idealize.ShloMosaic.ValueIdx
open Idealize.ShloMosaic.StableHlo Cert.LibGather2

variable {F : FTy → Type} [FloatOps F]

local notation "S₀" => Cert.KernelIdeal.S_
local notation "SN" => Cert.KernelIdeal.S2097152
local notation "SN1" => Cert.KernelIdeal.S2097152x1
local notation "SN2" => Cert.KernelIdeal.S2097152x2
local notation "bcN" => Cert.KernelIdeal.Facts₀.bcast_S_S2097152
local notation "bcN1" => Cert.KernelIdeal.Facts₀.bcast_S2097152_S2097152x1_0
local notation "catN2" => Cert.KernelIdeal.Facts₀.concatenates_S2097152x1_S2097152x1_S2097152x2_d1

namespace Block1

/-! ## The two programs' shared arithmetic, as functions of arrays -/

/-- The triangle wave 2·|x/2 − ⌊x/2 + ½⌋| of every element of a table, whatever the table's shape. -/
def tri {S : Shape} (bc : (S₀).BroadcastsInDim S (![] : Fin 0 → Fin S.rank)) (x : FVec F S .f32) : FVec F S .f32 :=
  mulf (broadcastInDim S ![] bc (constant S₀ .f32 0x40000000#32))
    (Host.absf (subf (Host.divf x (broadcastInDim S ![] bc (constant S₀ .f32 0x40000000#32)))
      (Host.floor (addf (Host.divf x (broadcastInDim S ![] bc (constant S₀ .f32 0x40000000#32)))
        (broadcastInDim S ![] bc (constant S₀ .f32 0x3F000000#32))))))

/-- A coordinate clipped to [0, 0.999999], scaled by 2047, rounded to nearest even and converted to an integer. -/
def cellR (c : FVec F SN .f32) : IVec SN 32 :=
  fptosi 32 (Host.roundeven (mulf
    (minimumf (broadcastInDim SN ![] bcN (constant S₀ .f32 0x3F7FFFEF#32))
      (maximumf (broadcastInDim SN ![] bcN (constant S₀ .f32 0x00000000#32)) c))
    (broadcastInDim SN ![] bcN (constant S₀ .f32 0x44FFE000#32))))

/-- The cell index of a coordinate: cellR, a negative index wrapped by 2048. -/
def cell (c : FVec F SN .f32) : IVec SN 32 :=
  select (cmpi .slt (cellR c) (broadcastInDim SN ![] bcN (constantI S₀ 32 0#32)))
    (addi (cellR c) (broadcastInDim SN ![] bcN (constantI S₀ 32 2048#32))) (cellR c)

/-- The [N x 2] array of start indices: the two coordinates' cell indices side by side. -/
def raIdx (c9 c11 : FVec F SN .f32) : IVec SN2 32 :=
  concatenate SN2 1 [⟨SN1, broadcastInDim SN1 ![0] bcN1 (cell c9)⟩, ⟨SN1, broadcastInDim SN1 ![0] bcN1 (cell c11)⟩] catN2

/-- Column 0 of an [N x 2] array as a vector: the slice [0:N, 0:1], reshaped. -/
def col0 {α : Type} (X : (SN2).Idx → α) : (SN).Idx → α :=
  shapeCast SN (extractStridedSlice SN1 ![0, 0] X Cert.KernelIdeal.Facts₀.slices_S2097152x2_S2097152x1_0_0)
    Cert.KernelIdeal.Facts₀.shapeCasts_S2097152x1_S2097152

/-- Column 1 of an [N x 2] array as a vector: the slice [0:N, 1:2], reshaped. -/
def col1 {α : Type} (X : (SN2).Idx → α) : (SN).Idx → α :=
  shapeCast SN (extractStridedSlice SN1 ![0, 1] X Cert.KernelIdeal.Facts₀.slices_S2097152x2_S2097152x1_0_1)
    Cert.KernelIdeal.Facts₀.shapeCasts_S2097152x1_S2097152

/-- Row l of a [2 x N] array as a vector: the slice [l:l+1, 0:N], reshaped. -/
def row {α : Type} (l : Nat) (hs : Cert.KernelIdeal.S2x2097152.Slices ![l, 0] Cert.KernelIdeal.S1x2097152)
    (X : Cert.KernelIdeal.S2x2097152.Idx → α) : (SN).Idx → α :=
  shapeCast SN (extractStridedSlice Cert.KernelIdeal.S1x2097152 ![l, 0] X hs)
    Cert.KernelIdeal.Facts₀.shapeCasts_S1x2097152_S2097152

/-! ## The shared arithmetic read at an index -/

/-- The triangle wave of one number. -/
def triS (a : F .f32) : F .f32 :=
  tri (S := S₀) (by decide) (fun _ => a) ix0

/-- The triangle wave of a table is elementwise. -/
theorem tri_apply {S : Shape} (bc : (S₀).BroadcastsInDim S (![] : Fin 0 → Fin S.rank)) (x : FVec F S .f32) (i : S.Idx) :
    tri bc x i = triS (x i) := rfl

/-- Column 0 read at a row. -/
theorem col0_apply {α : Type} (X : (SN2).Idx → α) (n : Fin 2097152) : col0 X (ix1 n) = X (ix2 n 0) := by
  unfold col0
  rw [shapeCast_apply _ _ (ix1 n) (ix2 n (0 : Fin 1))
    (by rw [Shape.rowMajor_val_two, Shape.rowMajor_val_one]; show n.val * 1 + 0 = n.val; omega)]
  exact slice2_axis1_apply 0 X _ n (0 : Fin 1) (0 : Fin 2) rfl

/-- Column 1 read at a row. -/
theorem col1_apply {α : Type} (X : (SN2).Idx → α) (n : Fin 2097152) : col1 X (ix1 n) = X (ix2 n 1) := by
  unfold col1
  rw [shapeCast_apply _ _ (ix1 n) (ix2 n (0 : Fin 1))
    (by rw [Shape.rowMajor_val_two, Shape.rowMajor_val_one]; show n.val * 1 + 0 = n.val; omega)]
  exact slice2_axis1_apply 1 X _ n (0 : Fin 1) (1 : Fin 2) rfl

/-- Row l read at a column. -/
theorem row_apply {α : Type} (l : Fin 2) (hs : Cert.KernelIdeal.S2x2097152.Slices ![l.val, 0] Cert.KernelIdeal.S1x2097152)
    (X : Cert.KernelIdeal.S2x2097152.Idx → α) (n : Fin 2097152) : row l.val hs X (ix1 n) = X (ix2 l n) := by
  unfold row
  rw [shapeCast_1a_a_apply]
  exact slice2_axis0_apply l.val X hs (0 : Fin 1) n l (by simp)

/-! ## The two gathers at the same start indices -/

/-- A vector that agrees, row by row, with column 0 of an [N x 2] array is that column. -/
theorem eq_col0 {α : Type} (c : (SN).Idx → α) (X : (SN2).Idx → α) (h : ∀ n : Fin 2097152, c (ix1 n) = X (ix2 n 0)) :
    c = col0 X := by
  funext i; rw [eq_ix1 i]; exact (h (i 0)).trans (col0_apply X (i 0)).symm

/-- A vector that agrees, row by row, with column 1 of an [N x 2] array is that column. -/
theorem eq_col1 {α : Type} (c : (SN).Idx → α) (X : (SN2).Idx → α) (h : ∀ n : Fin 2097152, c (ix1 n) = X (ix2 n 1)) :
    c = col1 X := by
  funext i; rw [eq_ix1 i]; exact (h (i 0)).trans (col1_apply X (i 0)).symm

/-- Element (l, n) of the gather from a channel-first table's triangle wave is element (n, l) of the gather, at the
    same start indices, from the triangle wave of the channel-last table with the same entries: both read the entry
    at channel l and at the cell row n's two start indices name, each clamped into its axis. -/
theorem gather_tri_corr (T : FVec F Cert.KernelIdeal.S2x2048x2048 .f32) (T' : FVec F Cert.ReferenceIdeal.S2048x2048x2 .f32)
    (hT : ∀ (l : Fin 2) (u v : Fin 2048), T (ix3 l u v) = T' (ix3 u v l)) (I : IVec SN2 32) (l : Fin 2) (n : Fin 2097152) :
    Host.gather Cert.KernelIdeal.gather_S2x2048x2048_S2097152x2_S2x2097152_0_12_n_n_12_1_211
        (tri Cert.KernelIdeal.Facts₀.bcast_S_S2x2048x2048 T) I (ix2 l n)
      = Host.gather Cert.ReferenceIdeal.gather_S2048x2048x2_S2097152x2_S2097152x2_1_01_n_n_01_1_112
        (tri Cert.ReferenceIdeal.Facts₀.bcast_S_S2048x2048x2 T') I (ix2 n l) := by
  rw [gather_last2 Cert.KernelIdeal.gather_S2x2048x2048_S2097152x2_S2x2097152_0_12_n_n_12_1_211 rfl rfl rfl rfl rfl (by decide) (by decide),
    gather_first2 Cert.ReferenceIdeal.gather_S2048x2048x2_S2097152x2_S2097152x2_1_01_n_n_01_1_112 rfl rfl rfl rfl rfl (by decide) (by decide),
    tri_apply, tri_apply]
  exact congrArg triS (hT l _ _)

set_option maxHeartbeats 4000000 in
set_option maxRecDepth 16384 in
/-- Row 0 of the kernel's gather. -/
theorem k_v50 (W : Valuation Cert.KernelIdeal.τ Cert.KernelIdeal.sig (Elt F)) :
    after Cert.KernelIdeal.Chunks.K1 W (Proc.devRef .tc Cert.KernelIdeal.main_v50)
      = row 0 Cert.KernelIdeal.Facts₀.slices_S2x2097152_S1x2097152_0_0
          (Host.gather Cert.KernelIdeal.gather_S2x2048x2048_S2097152x2_S2x2097152_0_12_n_n_12_1_211
            (tri Cert.KernelIdeal.Facts₀.bcast_S_S2x2048x2048 (W (Proc.devRef .tc Cert.KernelIdeal.main_v0)))
            (raIdx (W (Proc.devRef .tc Cert.KernelIdeal.main_v9)) (W (Proc.devRef .tc Cert.KernelIdeal.main_v11)))) := by
  simp only [Cert.KernelIdeal.Chunks.K1]
  after_results_simp
  rfl

set_option maxHeartbeats 4000000 in
set_option maxRecDepth 16384 in
/-- Row 1 of the kernel's gather. -/
theorem k_v52 (W : Valuation Cert.KernelIdeal.τ Cert.KernelIdeal.sig (Elt F)) :
    after Cert.KernelIdeal.Chunks.K1 W (Proc.devRef .tc Cert.KernelIdeal.main_v52)
      = row 1 Cert.KernelIdeal.Facts₀.slices_S2x2097152_S1x2097152_1_0
          (Host.gather Cert.KernelIdeal.gather_S2x2048x2048_S2097152x2_S2x2097152_0_12_n_n_12_1_211
            (tri Cert.KernelIdeal.Facts₀.bcast_S_S2x2048x2048 (W (Proc.devRef .tc Cert.KernelIdeal.main_v0)))
            (raIdx (W (Proc.devRef .tc Cert.KernelIdeal.main_v9)) (W (Proc.devRef .tc Cert.KernelIdeal.main_v11)))) := by
  simp only [Cert.KernelIdeal.Chunks.K1]
  after_results_simp
  rfl

/-! ## What the reference program's chunk computes -/

set_option maxHeartbeats 4000000 in
set_option maxRecDepth 16384 in
/-- The reference's gather: from the triangle wave of its table, at the start indices made from the two columns of its
    stacked coordinates. -/
theorem r_v47 (W : Valuation Cert.ReferenceIdeal.τ Cert.ReferenceIdeal.sig (Elt F)) :
    after Cert.ReferenceIdeal.Chunks.R1 W (Proc.devRef .tc Cert.ReferenceIdeal.main_v47)
      = Host.gather Cert.ReferenceIdeal.gather_S2048x2048x2_S2097152x2_S2097152x2_1_01_n_n_01_1_112
          (tri Cert.ReferenceIdeal.Facts₀.bcast_S_S2048x2048x2 (W (Proc.devRef .tc Cert.ReferenceIdeal.main_arg9)))
          (raIdx (col0 (W (Proc.devRef .tc Cert.ReferenceIdeal.main_v6))) (col1 (W (Proc.devRef .tc Cert.ReferenceIdeal.main_v6)))) := by
  simp only [Cert.ReferenceIdeal.Chunks.R1]
  after_results_simp
  rfl

end Block1

open Block1

/-! ## The correspondence -/

set_option maxHeartbeats 4000000 in
set_option maxRecDepth 16384 in
/-- Lookup 1 in the two layouts: where the kernel's transposed table, and its two coordinate vectors, hold what the
    reference's table and the two columns of its stacked coordinates hold, row l of the kernel's gather is column l of
    the reference's. -/
theorem corr_ra (VK : Valuation Cert.KernelIdeal.τ Cert.KernelIdeal.sig (Elt F)) (VR : Valuation Cert.ReferenceIdeal.τ Cert.ReferenceIdeal.sig (Elt F))
    (hT : ∀ (l : Fin 2) (u v : Fin 2048), KV VK Cert.KernelIdeal.main_v0 (ix3 l u v) = RV VR Cert.ReferenceIdeal.main_arg9 (ix3 u v l))
    (h9 : ∀ n : Fin 2097152, KV VK Cert.KernelIdeal.main_v9 (ix1 n) = RV VR Cert.ReferenceIdeal.main_v6 (ix2 n 0))
    (h11 : ∀ n : Fin 2097152, KV VK Cert.KernelIdeal.main_v11 (ix1 n) = RV VR Cert.ReferenceIdeal.main_v6 (ix2 n 1)) :
    (∀ n : Fin 2097152, KV VK Cert.KernelIdeal.main_v50 (ix1 n) = RV VR Cert.ReferenceIdeal.main_v47 (ix2 n 0))
    ∧ (∀ n : Fin 2097152, KV VK Cert.KernelIdeal.main_v52 (ix1 n) = RV VR Cert.ReferenceIdeal.main_v47 (ix2 n 1)) := by
  -- what either chunk reads from before it is what the whole program holds there
  have e0 : Cert.KernelIdeal.KRead.St1 VK (Proc.devRef .tc Cert.KernelIdeal.main_v0) = KV VK Cert.KernelIdeal.main_v0 :=
    Cert.KernelIdeal.KRead.in_K1 VK (r := Cert.KernelIdeal.main_v0) (by decide)
  have e9 : Cert.KernelIdeal.KRead.St1 VK (Proc.devRef .tc Cert.KernelIdeal.main_v9) = KV VK Cert.KernelIdeal.main_v9 :=
    Cert.KernelIdeal.KRead.in_K1 VK (r := Cert.KernelIdeal.main_v9) (by decide)
  have e11 : Cert.KernelIdeal.KRead.St1 VK (Proc.devRef .tc Cert.KernelIdeal.main_v11) = KV VK Cert.KernelIdeal.main_v11 :=
    Cert.KernelIdeal.KRead.in_K1 VK (r := Cert.KernelIdeal.main_v11) (by decide)
  have f9 : Cert.ReferenceIdeal.RRead.St1 VR (Proc.devRef .tc Cert.ReferenceIdeal.main_arg9) = RV VR Cert.ReferenceIdeal.main_arg9 :=
    Cert.ReferenceIdeal.RRead.in_R1 VR (r := Cert.ReferenceIdeal.main_arg9) (by decide)
  have f6 : Cert.ReferenceIdeal.RRead.St1 VR (Proc.devRef .tc Cert.ReferenceIdeal.main_v6) = RV VR Cert.ReferenceIdeal.main_v6 :=
    Cert.ReferenceIdeal.RRead.in_R1 VR (r := Cert.ReferenceIdeal.main_v6) (by decide)
  -- the two programs' start indices are the same array
  have hI : raIdx (KV VK Cert.KernelIdeal.main_v9) (KV VK Cert.KernelIdeal.main_v11)
      = raIdx (col0 (RV VR Cert.ReferenceIdeal.main_v6)) (col1 (RV VR Cert.ReferenceIdeal.main_v6)) :=
    congrArg₂ raIdx (eq_col0 _ _ h9) (eq_col1 _ _ h11)
  constructor
  · intro n
    show Cert.KernelIdeal.KRead.St10 VK (Proc.devRef .tc Cert.KernelIdeal.main_v50) (ix1 n)
      = Cert.ReferenceIdeal.RRead.St11 VR (Proc.devRef .tc Cert.ReferenceIdeal.main_v47) (ix2 n 0)
    rw [Cert.KernelIdeal.KRead.out_K1 VK (r := Cert.KernelIdeal.main_v50) (by decide),
      Cert.ReferenceIdeal.RRead.out_R1 VR (r := Cert.ReferenceIdeal.main_v47) (by decide),
      k_v50, r_v47, e0, e9, e11, f9, f6, hI]
    exact (row_apply 0 _ _ n).trans (gather_tri_corr _ _ hT _ 0 n)
  · intro n
    show Cert.KernelIdeal.KRead.St10 VK (Proc.devRef .tc Cert.KernelIdeal.main_v52) (ix1 n)
      = Cert.ReferenceIdeal.RRead.St11 VR (Proc.devRef .tc Cert.ReferenceIdeal.main_v47) (ix2 n 1)
    rw [Cert.KernelIdeal.KRead.out_K1 VK (r := Cert.KernelIdeal.main_v52) (by decide),
      Cert.ReferenceIdeal.RRead.out_R1 VR (r := Cert.ReferenceIdeal.main_v47) (by decide),
      k_v52, r_v47, e0, e9, e11, f9, f6, hI]
    exact (row_apply 1 _ _ n).trans (gather_tri_corr _ _ hT _ 1 n)

end Cert.Bridge

end
-- ==== Proof.Block2.lean ====
/-
  Lookup 2 (the nearest-neighbour lookup with one index, in the table of 2048 rows and one channel).

  Both programs normalise the table elementwise (the triangle wave `2·|x/2 − floor(x/2 + 1/2)|`), turn the second column
  of the same coordinate array into one integer start index per row (clip, scale by 2047, round to even, convert, wrap a
  negative index), and gather. The kernel program does it on the transposed table `[1, 2048]` and gets a `[1, N]` row,
  which it reshapes to `[N]`; the reference program does it on the table `[2048, 1]` and gets an `[N, 1]` column. The
  start indices are the same array, the normalisation is elementwise, and a gather reads the table at the clamped start
  index in either layout: so element `n` of the one result is element `(n, 0)` of the other. `core_cg` says it of the two
  chunks run from any contents that agree on what the chunks read; `corr_cg` places it in the whole programs.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Idealize.ShloMosaic.StableHlo

variable {F : FTy → Type} [FloatOps F]

/-! ## Layout operations and gathers at an index written by coordinates -/

/-- An `[a, 1]` column cast to `[a]` reads, at `i`, the operand at `(i, 0)`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The same start indices read a table laid out channel first and the table laid out channel last at the same
    position: if element `(l, u)` of the one is element `(u, l)` of the other, then element `(l, n)` of the one gather
    is element `(n, l)` of the other. -/
private theorem gather1_pair {α : Type} {L U N : ℕ} (hU : 0 < U)
    (dK : GatherDims ⟨2, ![L, U]⟩ ⟨2, ![N, 1]⟩ ⟨2, ![L, N]⟩)
    (hK1 : dK.offsetDims = [0]) (hK2 : dK.collapsedSliceDims = [1]) (hK3 : dK.operandBatchingDims = [])
    (hK4 : dK.startIndexMap = [1]) (hK5 : dK.indexVectorDim = 1)
    (dR : GatherDims ⟨2, ![U, L]⟩ ⟨2, ![N, 1]⟩ ⟨2, ![N, L]⟩)
    (hR1 : dR.offsetDims = [1]) (hR2 : dR.collapsedSliceDims = [0]) (hR3 : dR.operandBatchingDims = [])
    (hR4 : dR.startIndexMap = [0]) (hR5 : dR.indexVectorDim = 1)
    (TK : (⟨2, ![L, U]⟩ : Shape).Idx → α) (TR : (⟨2, ![U, L]⟩ : Shape).Idx → α) (I : IVec ⟨2, ![N, 1]⟩ 32)
    (hT : ∀ (l : Fin L) (u : Fin U), TK (ix2 l u) = TR (ix2 u l)) (l : Fin L) (n : Fin N) :
    Host.gather dK TK I (ix2 l n) = Host.gather dR TR I (ix2 n l) := by
  rw [Cert.LibGather2.gather_last1 dK hK1 hK2 hK3 hK4 hK5 hU, Cert.LibGather2.gather_first1 dR hR1 hR2 hR3 hR4 hR5 hU]
  exact hT _ _

/-! ## Elementwise operations at an index -/

section At
variable {s : Shape} {φ : FTy}
private theorem mulf_at (a b : FVec F s φ) (i : s.Idx) : mulf a b i = FloatOps.mulf (a i) (b i) := rfl
private theorem addf_at (a b : FVec F s φ) (i : s.Idx) : addf a b i = FloatOps.addf (a i) (b i) := rfl
private theorem subf_at (a b : FVec F s φ) (i : s.Idx) : subf a b i = FloatOps.subf (a i) (b i) := rfl
private theorem hostDivf_at (a b : FVec F s φ) (i : s.Idx) : Host.divf a b i = FloatOps.hostDivf (a i) (b i) := rfl
private theorem hostFloor_at (a : FVec F s φ) (i : s.Idx) : Host.floor a i = FloatOps.hostUnary .floor (a i) := rfl
private theorem hostAbsf_at (a : FVec F s φ) (i : s.Idx) : Host.absf a i = FloatOps.hostAbsf (a i) := rfl
end At

/-! ## The two chunks, run from contents that agree on what they read -/

set_option maxHeartbeats 4000000 in
/-- The kernel program's lookup 2 run from `W` and the reference program's run from `W'`: if the two contents hold the
    same coordinate array and tables that are transposes of each other, element `n` of the kernel program's result
    `main_v78` is element `(n, 0)` of the reference program's `main_v72`. -/
theorem core_cg (W : Valuation Cert.KernelIdeal.τ Cert.KernelIdeal.sig (Elt F)) (W' : Valuation Cert.ReferenceIdeal.τ Cert.ReferenceIdeal.sig (Elt F))
    (h5 : W (Proc.devRef .tc Cert.KernelIdeal.main_arg5) = W' (Proc.devRef .tc Cert.ReferenceIdeal.main_arg5))
    (hT : ∀ (l : Fin 1) (u : Fin 2048), W (Proc.devRef .tc Cert.KernelIdeal.main_v1) (ix2 l u) = W' (Proc.devRef .tc Cert.ReferenceIdeal.main_arg10) (ix2 u l))
    (n : Fin 2097152) :
    after Cert.KernelIdeal.Chunks.K2 W (Proc.devRef .tc Cert.KernelIdeal.main_v78) (ix1 n) = after Cert.ReferenceIdeal.Chunks.R2 W' (Proc.devRef .tc Cert.ReferenceIdeal.main_v72) (ix2 n 0) := by
  simp only [Cert.KernelIdeal.Chunks.K2, Cert.ReferenceIdeal.Chunks.R2]
  after_results_simp
  -- the two arrays of start indices are now the same term of the one coordinate array
  rw [h5]
  -- the kernel program's reshape of its one-row result
  refine (shapeCast_1a_a_apply _ _ n).trans ?_
  -- the two gathers read the two normalised tables at the same clamped position
  refine gather1_pair (by decide) _ rfl rfl rfl rfl rfl _ rfl rfl rfl rfl rfl _ _ _ ?_ 0 n
  -- the normalisation is elementwise, and the tables are transposes of each other
  intro l u
  simp only [mulf_at, subf_at, addf_at, hostDivf_at, hostFloor_at, hostAbsf_at]
  rw [hT l u]
  rfl

/-! ## In the whole programs -/

/-- Lookup 2 of the two programs: element `n` of the kernel program's `main_v78` is element `(n, 0)` of the reference
    program's `main_v72`, given that the two hold the same coordinate array `main_arg5` and that the kernel program's
    transposed table `main_v1` is the transpose of the reference program's `main_arg10`. -/
theorem corr_cg (VK : Valuation Cert.KernelIdeal.τ Cert.KernelIdeal.sig (Elt F)) (VR : Valuation Cert.ReferenceIdeal.τ Cert.ReferenceIdeal.sig (Elt F))
    (h5 : KV VK Cert.KernelIdeal.main_arg5 = RV VR Cert.ReferenceIdeal.main_arg5)
    (hT : ∀ (l : Fin 1) (u : Fin 2048), KV VK Cert.KernelIdeal.main_v1 (ix2 l u) = RV VR Cert.ReferenceIdeal.main_arg10 (ix2 u l)) :
    ∀ n : Fin 2097152, KV VK Cert.KernelIdeal.main_v78 (ix1 n) = RV VR Cert.ReferenceIdeal.main_v72 (ix2 n 0) := by
  intro n
  show Cert.KernelIdeal.KRead.St10 VK (Proc.devRef .tc Cert.KernelIdeal.main_v78) (ix1 n) = Cert.ReferenceIdeal.RRead.St11 VR (Proc.devRef .tc Cert.ReferenceIdeal.main_v72) (ix2 n 0)
  rw [Cert.KernelIdeal.KRead.out_K2 VK (r := Cert.KernelIdeal.main_v78) (by decide), Cert.ReferenceIdeal.RRead.out_R2 VR (r := Cert.ReferenceIdeal.main_v72) (by decide)]
  refine core_cg (Cert.KernelIdeal.KRead.St2 VK) (Cert.ReferenceIdeal.RRead.St2 VR) ?_ ?_ n
  · rw [Cert.KernelIdeal.KRead.in_K2 VK (r := Cert.KernelIdeal.main_arg5) (by decide), Cert.ReferenceIdeal.RRead.in_R2 VR (r := Cert.ReferenceIdeal.main_arg5) (by decide)]
    exact h5
  · intro l u
    rw [Cert.KernelIdeal.KRead.in_K2 VK (r := Cert.KernelIdeal.main_v1) (by decide), Cert.ReferenceIdeal.RRead.in_R2 VR (r := Cert.ReferenceIdeal.main_arg10) (by decide)]
    exact hT l u

end Cert.Bridge

end
-- ==== Proof.Block3.lean ====
/-
  Lookup 3 (rsEnc): bilinear interpolation in the 64 × 64 × 3 table `tabRSEnc`, normalised by the triangle wave, in the
  two layouts.

  Both programs clip the two coordinates `u = roughNoh[:, 0]` and `v = subCg[:, 0]` to `[0, 1 − ε]`, scale them by 63,
  take the floors `u₀, v₀` and the fractions `fu, fv`, convert the floors to integers, form `u₁ = min (u₀ + 1) 63` and
  `v₁ = min (v₀ + 1) 63`, gather the normalised table at the four corners `(u₀, v₀), (u₁, v₀), (u₀, v₁), (u₁, v₁)`,
  weight each corner by the two of `fu, 1 − fu, fv, 1 − fv` that belong to it and add the four products. The kernel
  keeps the channel axis FIRST: its table is `[3, 64, 64]`, every gather result is `[3, N]` and a weight is a `[1, N]`
  row broadcast over the three rows. The reference keeps it LAST: table `[64, 64, 3]`, gather results `[N, 3]`, a weight
  an `[N, 1]` column broadcast over the three columns. Everything that has no channel axis — the two clipped and scaled
  coordinates, the fractions, the four `[N, 2]` arrays of start indices — is the same array in both programs once the
  two coordinates agree; the rest is read at one element: element `(l, n)` of the kernel's result and element `(n, l)`
  of the reference's are the same four table entries (the kernel's table at `(l, u, v)` is the reference's at
  `(u, v, l)`, and the triangle wave is applied entry by entry) times the same weights.

  The only place where the two programs differ before the gathers is how a coordinate reaches the clip: the kernel
  holds `u` as a vector and slices `v` off its argument; the reference joins `u` and `v` as the two columns of an
  `[N, 2]` array and slices each column off again (`u_rel`, `v_rel`).
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

noncomputable section

namespace Cert.Bridge.B3

open Idealize.ShloMosaic Idealize.ShloMosaic.TcCoe Idealize.SL.Sem Idealize.ShloMosaic.StableHlo Idealize.ShloMosaic.ValueIdx
open Cert.LibGather2

variable {F : FTy → Type} [FloatOps F]

/-! ## A two-piece concatenation with its pieces as plain arguments -/

/-- A two-piece concatenation with the pieces as plain arguments (the evidence about the shapes does not mention
    them), so that each piece can be rewritten on its own. -/
def concat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem concat2_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ h x₁ x₂ := rfl

-- The value a chunk leaves in a buffer, as a term over the values the chunk starts from: every operation's result at
-- its own buffer is its function applied to its operands' values, and at any other buffer what was there.
open Lean.Parser.Tactic in
local macro "unf" loc:(location)? : tactic => `(tactic| (
  simp only [Cert.KernelIdeal.Chunks.K3, Cert.ReferenceIdeal.Chunks.R3] $[$loc]?
  simp (disch := decide) only [after_cons, after_nil, concat2_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] $[$loc]?))

/-! ## Layout operations of the two programs read at an index -/

/-- Column `c` of an `[N, 2]` array, as an `[N, 1]` array, reads the array's column `c`. -/
theorem slice_col_at {α : Type} {N : Nat} (X : (⟨2, ![N, 2]⟩ : Shape).Idx → α) (c : Fin 2)
    (hs : (⟨2, ![N, 2]⟩ : Shape).Slices ![0, c.val] ⟨2, ![N, 1]⟩) (n : Fin N) (u : Fin 1) :
    extractStridedSlice ⟨2, ![N, 1]⟩ ![0, c.val] X hs (ix2 n u) = X (ix2 n c) :=
  slice2_axis1_apply c.val X hs n u c (by have := u.isLt; omega)

/-- An `[N, 1]` array as a vector reads its one column. -/
theorem cast_col_at {α : Type} {N : Nat} (Y : (⟨2, ![N, 1]⟩ : Shape).Idx → α)
    (hc : (⟨2, ![N, 1]⟩ : Shape).ShapeCasts ⟨1, ![N]⟩) (n : Fin N) :
    shapeCast ⟨1, ![N]⟩ Y hc (ix1 n) = Y (ix2 n 0) :=
  shapeCast_apply Y hc (ix1 n) (ix2 n 0) (by
    rw [Shape.rowMajor_val_two, Shape.rowMajor_val_one]
    show n.val * 1 + 0 = n.val
    omega)

/-- Two columns side by side: column 0 is the first. -/
theorem concat_col0 {α : Type} {N : Nat}
    (h : Shape.Concatenates [(⟨2, ![N, 1]⟩ : Shape), ⟨2, ![N, 1]⟩] ⟨2, ![N, 2]⟩ 1)
    (x₁ x₂ : (⟨2, ![N, 1]⟩ : Shape).Idx → α) (n : Fin N) :
    concat2 ⟨2, ![N, 2]⟩ 1 _ _ h x₁ x₂ (ix2 n 0) = x₁ (ix2 n 0) :=
  concatenate_pair_apply_left 1 x₁ x₂ h (ix2 n 0) rfl (ix2 n 0)
    (fun b => match b with | ⟨0, _⟩ => rfl | ⟨1, _⟩ => rfl)

/-- Two columns side by side: column 1 is the second. -/
theorem concat_col1 {α : Type} {N : Nat}
    (h : Shape.Concatenates [(⟨2, ![N, 1]⟩ : Shape), ⟨2, ![N, 1]⟩] ⟨2, ![N, 2]⟩ 1)
    (x₁ x₂ : (⟨2, ![N, 1]⟩ : Shape).Idx → α) (n : Fin N) :
    concat2 ⟨2, ![N, 2]⟩ 1 _ _ h x₁ x₂ (ix2 n 1) = x₂ (ix2 n 0) :=
  concatenate_pair_apply_right 1 x₁ x₂ h (ix2 n 1) rfl rfl (ix2 n 0)
    (fun b hb => match b, hb with
      | ⟨0, _⟩, _ => rfl
      | ⟨1, _⟩, hb => absurd rfl hb)
    rfl

/-! ## The two coordinates, as the reference routes them -/

set_option maxHeartbeats 4000000 in
set_option maxRecDepth 16384 in
/-- The second coordinate of the lookup, `subCg[:, 0]`: the kernel slices it off its argument; the reference joins it
    to the first coordinate as column 1 of an `[N, 2]` array and slices that column off again. -/
theorem v_rel (WK : Valuation Cert.KernelIdeal.τ Cert.KernelIdeal.sig (Elt F)) (WR : Valuation Cert.ReferenceIdeal.τ Cert.ReferenceIdeal.sig (Elt F))
    (h5 : (WK (Proc.devRef .tc Cert.KernelIdeal.main_arg5) : (⟨Cert.KernelIdeal.S2097152x2, .f32⟩ : BufTy).Contents (Elt F)) = WR (Proc.devRef .tc Cert.ReferenceIdeal.main_arg5)) :
    (after Cert.KernelIdeal.Chunks.K3 WK (Proc.devRef .tc Cert.KernelIdeal.main_v80) : (⟨Cert.KernelIdeal.S2097152, .f32⟩ : BufTy).Contents (Elt F))
      = after Cert.ReferenceIdeal.Chunks.R3 WR (Proc.devRef .tc Cert.ReferenceIdeal.main_v93) := by
  unf
  rw [h5]
  funext j
  obtain ⟨n, rfl⟩ : ∃ n : Fin 2097152, j = ix1 n := ⟨j 0, eq_ix1 j⟩
  refine (cast_col_at _ _ n).trans ?_
  refine Eq.trans ?_ (cast_col_at _ _ n).symm
  refine (slice_col_at _ 0 _ n 0).trans ?_
  refine Eq.trans ?_ (slice_col_at _ 1 _ n 0).symm
  refine Eq.trans ?_ (concat_col1 _ _ _ n).symm
  exact (slice_col_at _ 0 _ n 0).symm

set_option maxHeartbeats 4000000 in
set_option maxRecDepth 16384 in
/-- The first coordinate of the lookup, `roughNoh[:, 0]`: the kernel holds it as a vector; the reference joins it as
    column 0 of an `[N, 2]` array and slices that column off again. -/
theorem u_rel (WK : Valuation Cert.KernelIdeal.τ Cert.KernelIdeal.sig (Elt F)) (WR : Valuation Cert.ReferenceIdeal.τ Cert.ReferenceIdeal.sig (Elt F))
    (h9 : ∀ n : Fin 2097152, (WK (Proc.devRef .tc Cert.KernelIdeal.main_v9) : (⟨Cert.KernelIdeal.S2097152, .f32⟩ : BufTy).Contents (Elt F)) (ix1 n)
      = (WR (Proc.devRef .tc Cert.ReferenceIdeal.main_v6) : (⟨Cert.ReferenceIdeal.S2097152x2, .f32⟩ : BufTy).Contents (Elt F)) (ix2 n 0)) :
    (WK (Proc.devRef .tc Cert.KernelIdeal.main_v9) : (⟨Cert.KernelIdeal.S2097152, .f32⟩ : BufTy).Contents (Elt F))
      = after Cert.ReferenceIdeal.Chunks.R3 WR (Proc.devRef .tc Cert.ReferenceIdeal.main_v88) := by
  unf
  funext j
  obtain ⟨n, rfl⟩ : ∃ n : Fin 2097152, j = ix1 n := ⟨j 0, eq_ix1 j⟩
  refine (h9 n).trans ?_
  refine Eq.trans ?_ (cast_col_at _ _ n).symm
  refine Eq.trans ?_ (slice_col_at _ 0 _ n 0).symm
  refine Eq.trans ?_ (concat_col0 _ _ _ n).symm
  exact (slice_col_at _ 0 _ n 0).symm

/-! ## Elementwise operations read at an index, for every float family -/

section Pointwise
variable {s : Shape} {φ : FTy}

theorem addf_at (a b : FVec F s φ) (i : s.Idx) : addf a b i = FloatOps.addf (a i) (b i) := rfl
theorem mulf_at (a b : FVec F s φ) (i : s.Idx) : mulf a b i = FloatOps.mulf (a i) (b i) := rfl
theorem subf_at (a b : FVec F s φ) (i : s.Idx) : subf a b i = FloatOps.subf (a i) (b i) := rfl
theorem hdivf_at (a b : FVec F s φ) (i : s.Idx) : Host.divf a b i = FloatOps.hostDivf (a i) (b i) := rfl
theorem hfloor_at (a : FVec F s φ) (i : s.Idx) : Host.floor a i = FloatOps.hostUnary .floor (a i) := rfl
theorem habsf_at (a : FVec F s φ) (i : s.Idx) : Host.absf a i = FloatOps.hostAbsf (a i) := rfl
/-- A scalar constant broadcast to any shape reads the constant everywhere. -/
theorem bc0_at (t : Shape) (h : (⟨0, ![]⟩ : Shape).BroadcastsInDim t (![] : Fin 0 → Fin t.rank)) (b : BitVec φ.bits) (j : t.Idx) :
    broadcastInDim t ![] h (constant (F := F) ⟨0, ![]⟩ φ b) j = FloatOps.ofBits φ b := rfl

end Pointwise

/-! ## The interpolation weights' broadcasts along the channel axis -/

/-- The kernel's `[1, N]` row of weights over the three channel rows. -/
theorem kbc_row {α : Type}
    (h : Cert.KernelIdeal.S1x2097152.BroadcastsInDim Cert.KernelIdeal.S3x2097152 (![0, 1] : Fin 2 → Fin Cert.KernelIdeal.S3x2097152.rank))
    (x : Cert.KernelIdeal.S1x2097152.Idx → α) (l : Fin 3) (n : Fin 2097152) :
    broadcastInDim Cert.KernelIdeal.S3x2097152 ![0, 1] h x (ix2 l n) = x (ix2 (0 : Fin 1) n) :=
  broadcastInDim_apply _ h x _ _ (fun a => match a with
    | ⟨0, _⟩ => by show (0 : ℕ) = if (1 : ℕ) = 1 then 0 else l.val; rw [if_pos rfl]
    | ⟨1, _⟩ => by show n.val = if (2097152 : ℕ) = 1 then 0 else n.val; rw [if_neg (by decide)])

/-- The kernel's vector of weights as a `[1, N]` row. -/
theorem kbc_vecrow {α : Type}
    (h : Cert.KernelIdeal.S2097152.BroadcastsInDim Cert.KernelIdeal.S1x2097152 (![1] : Fin 1 → Fin Cert.KernelIdeal.S1x2097152.rank))
    (x : Cert.KernelIdeal.S2097152.Idx → α) (u : Fin 1) (n : Fin 2097152) :
    broadcastInDim Cert.KernelIdeal.S1x2097152 ![1] h x (ix2 u n) = x (ix1 n) :=
  broadcastInDim_apply _ h x _ _ (fun a => match a with
    | ⟨0, _⟩ => by show n.val = if (2097152 : ℕ) = 1 then 0 else n.val; rw [if_neg (by decide)])

/-- The reference's `[N, 1]` column of weights over the three channel columns. -/
theorem rbc_col {α : Type}
    (h : Cert.ReferenceIdeal.S2097152x1.BroadcastsInDim Cert.ReferenceIdeal.S2097152x3 (![0, 1] : Fin 2 → Fin Cert.ReferenceIdeal.S2097152x3.rank))
    (x : Cert.ReferenceIdeal.S2097152x1.Idx → α) (n : Fin 2097152) (l : Fin 3) :
    broadcastInDim Cert.ReferenceIdeal.S2097152x3 ![0, 1] h x (ix2 n l) = x (ix2 n (0 : Fin 1)) :=
  broadcastInDim_apply _ h x _ _ (fun a => match a with
    | ⟨0, _⟩ => by show n.val = if (2097152 : ℕ) = 1 then 0 else n.val; rw [if_neg (by decide)]
    | ⟨1, _⟩ => by show (0 : ℕ) = if (1 : ℕ) = 1 then 0 else l.val; rw [if_pos rfl])

/-- The reference's vector of weights as an `[N, 1]` column. -/
theorem rbc_veccol {α : Type}
    (h : Cert.ReferenceIdeal.S2097152.BroadcastsInDim Cert.ReferenceIdeal.S2097152x1 (![0] : Fin 1 → Fin Cert.ReferenceIdeal.S2097152x1.rank))
    (x : Cert.ReferenceIdeal.S2097152.Idx → α) (n : Fin 2097152) (u : Fin 1) :
    broadcastInDim Cert.ReferenceIdeal.S2097152x1 ![0] h x (ix2 n u) = x (ix1 n) :=
  broadcastInDim_apply _ h x _ _ (fun a => match a with
    | ⟨0, _⟩ => by show n.val = if (2097152 : ℕ) = 1 then 0 else n.val; rw [if_neg (by decide)])

/-! ## The interpolated value at one element -/

set_option maxHeartbeats 16000000 in
set_option maxRecDepth 16384 in
/-- The interpolated value, one element: the kernel's `[3, N]` result at `(l, n)` is the reference's `[N, 3]` result
    at `(n, l)`, when the two coordinates agree and the kernel's table is the reference's with the channel axis first. -/
theorem fin_rel (WK : Valuation Cert.KernelIdeal.τ Cert.KernelIdeal.sig (Elt F)) (WR : Valuation Cert.ReferenceIdeal.τ Cert.ReferenceIdeal.sig (Elt F))
    (hu : (WK (Proc.devRef .tc Cert.KernelIdeal.main_v9) : (⟨Cert.KernelIdeal.S2097152, .f32⟩ : BufTy).Contents (Elt F))
      = after Cert.ReferenceIdeal.Chunks.R3 WR (Proc.devRef .tc Cert.ReferenceIdeal.main_v88))
    (hv : (after Cert.KernelIdeal.Chunks.K3 WK (Proc.devRef .tc Cert.KernelIdeal.main_v80) : (⟨Cert.KernelIdeal.S2097152, .f32⟩ : BufTy).Contents (Elt F))
      = after Cert.ReferenceIdeal.Chunks.R3 WR (Proc.devRef .tc Cert.ReferenceIdeal.main_v93))
    (hT : ∀ (l : Fin 3) (u v : Fin 64),
      (WK (Proc.devRef .tc Cert.KernelIdeal.main_v2) : (⟨Cert.KernelIdeal.S3x64x64, .f32⟩ : BufTy).Contents (Elt F)) (ix3 l u v)
        = (WR (Proc.devRef .tc Cert.ReferenceIdeal.main_arg11) : (⟨Cert.ReferenceIdeal.S64x64x3, .f32⟩ : BufTy).Contents (Elt F)) (ix3 u v l))
    (l : Fin 3) (n : Fin 2097152) :
    (after Cert.KernelIdeal.Chunks.K3 WK (Proc.devRef .tc Cert.KernelIdeal.main_v196) : (⟨Cert.KernelIdeal.S3x2097152, .f32⟩ : BufTy).Contents (Elt F)) (ix2 l n)
      = (after Cert.ReferenceIdeal.Chunks.R3 WR (Proc.devRef .tc Cert.ReferenceIdeal.main_v195) : (⟨Cert.ReferenceIdeal.S2097152x3, .f32⟩ : BufTy).Contents (Elt F)) (ix2 n l) := by
  unf at hu hv ⊢
  rw [hu, hv]
  simp only [addf_at, mulf_at, subf_at, kbc_row, kbc_vecrow, rbc_col, rbc_veccol, bc0_at,
    gather_last2 Cert.KernelIdeal.gather_S3x64x64_S2097152x2_S3x2097152_0_12_n_n_12_1_311 rfl rfl rfl rfl rfl (by decide) (by decide),
    gather_first2 Cert.ReferenceIdeal.gather_S64x64x3_S2097152x2_S2097152x3_1_01_n_n_01_1_113 rfl rfl rfl rfl rfl (by decide) (by decide),
    habsf_at, hdivf_at, hfloor_at]
  simp only [hT]
  rfl

end Cert.Bridge.B3

namespace Cert.Bridge

open Idealize.ShloMosaic Idealize.ShloMosaic.TcCoe Idealize.SL.Sem Idealize.ShloMosaic.StableHlo Idealize.ShloMosaic.ValueIdx

variable {F : FTy → Type} [FloatOps F]

set_option maxHeartbeats 4000000 in
set_option maxRecDepth 16384 in
/-- LOOKUP 3. The kernel's interpolated `rsEnc` (`[3, N]`) at `(l, n)` is the reference's (`[N, 3]`) at `(n, l)`, when
    the two programs hold the same `subCg`, the kernel's transposed table is the reference's table with the channel
    axis first, and the kernel's first coordinate is column 0 of the reference's joined pair of coordinates. -/
theorem corr_rsEnc (VK : Valuation Cert.KernelIdeal.τ Cert.KernelIdeal.sig (Elt F))
    (VR : Valuation Cert.ReferenceIdeal.τ Cert.ReferenceIdeal.sig (Elt F))
    (h5 : KV VK Cert.KernelIdeal.main_arg5 = RV VR Cert.ReferenceIdeal.main_arg5)
    (hT : ∀ (l : Fin 3) (u v : Fin 64),
      KV VK Cert.KernelIdeal.main_v2 (ix3 l u v) = RV VR Cert.ReferenceIdeal.main_arg11 (ix3 u v l))
    (h9 : ∀ n : Fin 2097152, KV VK Cert.KernelIdeal.main_v9 (ix1 n) = RV VR Cert.ReferenceIdeal.main_v6 (ix2 n 0)) :
    ∀ (l : Fin 3) (n : Fin 2097152),
      KV VK Cert.KernelIdeal.main_v196 (ix2 l n) = RV VR Cert.ReferenceIdeal.main_v195 (ix2 n l) := by
  intro l n
  show Cert.KernelIdeal.KRead.St10 VK (Proc.devRef .tc Cert.KernelIdeal.main_v196) (ix2 l n)
    = Cert.ReferenceIdeal.RRead.St11 VR (Proc.devRef .tc Cert.ReferenceIdeal.main_v195) (ix2 n l)
  rw [Cert.KernelIdeal.KRead.out_K3 VK (r := Cert.KernelIdeal.main_v196) (by decide),
    Cert.ReferenceIdeal.RRead.out_R3 VR (r := Cert.ReferenceIdeal.main_v195) (by decide)]
  refine B3.fin_rel _ _ (B3.u_rel _ _ ?_) (B3.v_rel _ _ ?_) ?_ l n
  · intro n'
    rw [Cert.KernelIdeal.KRead.in_K3 VK (r := Cert.KernelIdeal.main_v9) (by decide),
      Cert.ReferenceIdeal.RRead.in_R3 VR (r := Cert.ReferenceIdeal.main_v6) (by decide)]
    exact h9 n'
  · rw [Cert.KernelIdeal.KRead.in_K3 VK (r := Cert.KernelIdeal.main_arg5) (by decide),
      Cert.ReferenceIdeal.RRead.in_R3 VR (r := Cert.ReferenceIdeal.main_arg5) (by decide)]
    exact h5
  · intro l' u v
    rw [Cert.KernelIdeal.KRead.in_K3 VK (r := Cert.KernelIdeal.main_v2) (by decide),
      Cert.ReferenceIdeal.RRead.in_R3 VR (r := Cert.ReferenceIdeal.main_arg11) (by decide)]
    exact hT l' u v

end Cert.Bridge

end
-- ==== Proof.Block4.lean ====
/-
  LOOKUP 4 of the two programs: the bilinear interpolation of the 48 × 48 × 3 table at two coordinates per row, not
  normalised. The kernel program keeps every per-row array channel first (`[3, N]`, its table transposed to
  `[3, 48, 48]`); the reference program keeps them channel last (`[N, 3]`, table `[48, 48, 3]`). Operation for operation
  they do the same arithmetic: the grid positions and the weights are computed from the coordinates as rows of `N`
  values by literally the same operations (`scale`, `frac`, `lo`, `hi`, `wrap`, `pair` below, stated once for both), and
  only the gathers and the broadcasts of the weights along the channel axis differ by layout. Each program's chunk is
  identified with one closed array expression (`k_spec`, `r_spec`), each expression is read at an index
  (`combK_apply`, `combR_apply`) as the same scalar formula `bil` of one channel of the table, and the correspondence
  follows from the correspondence of the tables and of the coordinates.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

noncomputable section

namespace Cert.Bridge.B4

open Idealize.ShloMosaic Idealize.ShloMosaic.ValueIdx Idealize.ShloMosaic.TcCoe Idealize.SL.Sem
open Idealize.ShloMosaic.StableHlo (after)
open Cert.LibGather2
open Idealize.ShloMosaic.StableHlo

variable {F : FTy → Type} [FloatOps F]

/-! ## The shapes and the side conditions, named once

Both programs name the same literal shapes; the side conditions are propositions, so it does not matter which program's
proof of one is cited. -/

/-- A row of `N` values. -/
abbrev SN : Shape := ⟨1, ![2097152]⟩
/-- The scalar shape. -/
abbrev S0 : Shape := ⟨0, ![]⟩
/-- A column of `N` values. -/
abbrev SNx1 : Shape := ⟨2, ![2097152, 1]⟩
/-- `N` pairs. -/
abbrev SNx2 : Shape := ⟨2, ![2097152, 2]⟩
/-- `N` triples, one per row. -/
abbrev SNx3 : Shape := ⟨2, ![2097152, 3]⟩
/-- One row of `N` values, as a matrix. -/
abbrev S1xN : Shape := ⟨2, ![1, 2097152]⟩
/-- Three rows of `N` values. -/
abbrev S3xN : Shape := ⟨2, ![3, 2097152]⟩
/-- The table, channel first. -/
abbrev STK : Shape := ⟨3, ![3, 48, 48]⟩
/-- The table, channel last. -/
abbrev STR : Shape := ⟨3, ![48, 48, 3]⟩

theorem hb0N : S0.BroadcastsInDim SN (![] : Fin 0 → Fin SN.rank) := by decide
theorem hbNc : SN.BroadcastsInDim SNx1 (![0] : Fin 1 → Fin SNx1.rank) := by decide
theorem hcat : Shape.Concatenates [SNx1, SNx1] SNx2 1 := by decide

/-! ## What both programs compute from a coordinate, as whole arrays

The coordinate `c` (a row of `N` values in `[0, 1)`) is clipped to `[0, 1 − ε]` and scaled by `47`; its floor gives the
lower grid position, the difference the interpolation weight, and the upper grid position is the lower plus one, capped
at `47`. A negative position is wrapped by `48` before the gather reads it. -/

/-- A 32-bit integer constant, at every row. -/
def bcI (k : BitVec 32) : IVec SN 32 := broadcastInDim SN ![] hb0N (constantI S0 32 k)

/-- The coordinate clipped to `[0, 1 − ε]` and scaled to the grid. -/
def scale (c : FVec F SN .f32) : FVec F SN .f32 :=
  mulf (minimumf (broadcastInDim SN ![] hb0N (constant S0 .f32 0x3F7FFFEF#32))
      (maximumf (broadcastInDim SN ![] hb0N (constant S0 .f32 0x00000000#32)) c))
    (broadcastInDim SN ![] hb0N (constant S0 .f32 0x423C0000#32))

/-- The interpolation weight: the scaled coordinate less its floor. -/
def frac (c : FVec F SN .f32) : FVec F SN .f32 := subf (scale c) (Host.floor (scale c))

/-- The lower grid position. -/
def lo (c : FVec F SN .f32) : IVec SN 32 := fptosi 32 (Host.floor (scale c))

/-- The upper grid position: one more, capped at the last. -/
def hi (c : FVec F SN .f32) : IVec SN 32 := minsi (addi (lo c) (bcI 1#32)) (bcI 47#32)

/-- A negative position wrapped by the axis length. -/
def wrap (x : IVec SN 32) : IVec SN 32 := select (cmpi .slt x (bcI 0#32)) (addi x (bcI 48#32)) x

/-- Two rows of positions as `N` pairs: the gather's start indices. -/
def pair (a b : IVec SN 32) : IVec SNx2 32 :=
  concatenate SNx2 1 [⟨SNx1, broadcastInDim SNx1 ![0] hbNc a⟩, ⟨SNx1, broadcastInDim SNx1 ![0] hbNc b⟩] hcat

/-- A pair's first component is the first row's value. -/
theorem pair_apply0 (a b : IVec SN 32) (n : Fin 2097152) : pair a b (ix2 n 0) = a (ix1 n) := by
  unfold pair
  rw [concatenate_pair_apply_left (1 : Fin SNx2.rank) _ _ hcat (ix2 n 0) rfl (ix2 n 0)
    (fun b => match b with | ⟨0, _⟩ => rfl | ⟨1, _⟩ => rfl)]
  exact broadcastInDim_apply _ hbNc a (ix2 n 0) (ix1 n) (fun a => match a with | ⟨0, _⟩ => rfl)

/-- A pair's second component is the second row's value. -/
theorem pair_apply1 (a b : IVec SN 32) (n : Fin 2097152) : pair a b (ix2 n 1) = b (ix1 n) := by
  unfold pair
  rw [concatenate_pair_apply_right (1 : Fin SNx2.rank) _ _ hcat (ix2 n 1) rfl rfl (ix2 n 0)
    (fun b => match b with | ⟨0, _⟩ => fun _ => rfl | ⟨1, _⟩ => fun h => absurd rfl h) rfl]
  exact broadcastInDim_apply _ hbNc b (ix2 n 0) (ix1 n) (fun a => match a with | ⟨0, _⟩ => rfl)

/-! ## Values at an index -/

theorem addf_app {s : Shape} {φ : FTy} (a b : FVec F s φ) (i : s.Idx) : addf a b i = FloatOps.addf (a i) (b i) := rfl
theorem mulf_app {s : Shape} {φ : FTy} (a b : FVec F s φ) (i : s.Idx) : mulf a b i = FloatOps.mulf (a i) (b i) := rfl
theorem subf_app {s : Shape} {φ : FTy} (a b : FVec F s φ) (i : s.Idx) : subf a b i = FloatOps.subf (a i) (b i) := rfl

theorem h48 : 0 < 48 := by decide

/-- The constant one. -/
def one : F .f32 := FloatOps.ofBits .f32 0x3F800000#32

/-! ## The kernel's layout: channel first -/

theorem hbN1 : SN.BroadcastsInDim S1xN (![1] : Fin 1 → Fin S1xN.rank) := by decide
theorem hb01N : S0.BroadcastsInDim S1xN (![] : Fin 0 → Fin S1xN.rank) := by decide
theorem hb13 : S1xN.BroadcastsInDim S3xN (![0, 1] : Fin 2 → Fin S3xN.rank) := by decide

/-- The weight `f` at every channel. -/
def wK (f : FVec F SN .f32) : FVec F S3xN .f32 := broadcastInDim S3xN ![0, 1] hb13 (broadcastInDim S1xN ![1] hbN1 f)
/-- The weight `1 − f` at every channel. -/
def wK' (f : FVec F SN .f32) : FVec F S3xN .f32 :=
  broadcastInDim S3xN ![0, 1] hb13
    (subf (broadcastInDim S1xN ![] hb01N (constant S0 .f32 0x3F800000#32)) (broadcastInDim S1xN ![1] hbN1 f))

theorem b3K_apply {α : Type} (x : S1xN.Idx → α) (l : Fin 3) (n : Fin 2097152) :
    broadcastInDim S3xN ![0, 1] hb13 x (ix2 l n) = x (ix2 0 n) :=
  broadcastInDim_apply _ hb13 x (ix2 l n) (ix2 0 n) (fun a => match a with | ⟨0, _⟩ => rfl | ⟨1, _⟩ => rfl)
theorem b1K_apply {α : Type} (y : SN.Idx → α) (n : Fin 2097152) :
    broadcastInDim S1xN ![1] hbN1 y (ix2 0 n) = y (ix1 n) :=
  broadcastInDim_apply _ hbN1 y (ix2 0 n) (ix1 n) (fun a => match a with | ⟨0, _⟩ => rfl)
theorem b0K_apply {α : Type} (z : S0.Idx → α) (n : Fin 2097152) :
    broadcastInDim S1xN ![] hb01N z (ix2 0 n) = z ix0 :=
  broadcastInDim_apply _ hb01N z (ix2 0 n) ix0 (fun a => a.elim0)

theorem wK_apply (f : FVec F SN .f32) (l : Fin 3) (n : Fin 2097152) : wK f (ix2 l n) = f (ix1 n) := by
  unfold wK; rw [b3K_apply, b1K_apply]
theorem wK'_apply (f : FVec F SN .f32) (l : Fin 3) (n : Fin 2097152) :
    wK' f (ix2 l n) = FloatOps.subf one (f (ix1 n)) := by
  unfold wK'; rw [b3K_apply, subf_app, b1K_apply, b0K_apply]; rfl

/-- The table read at `N` pairs of positions, channel first. -/
def gK (T : FVec F STK .f32) (idx : IVec SNx2 32) : FVec F S3xN .f32 :=
  Host.gather Cert.KernelIdeal.gather_S3x48x48_S2097152x2_S3x2097152_0_12_n_n_12_1_311 T idx

theorem gK_apply (T : FVec F STK .f32) (idx : IVec SNx2 32) (l : Fin 3) (n : Fin 2097152) :
    gK T idx (ix2 l n) = T (ix3 l (clampIdx 48 h48 (idx (ix2 n 0))) (clampIdx 48 h48 (idx (ix2 n 1)))) :=
  gather_last2 _ rfl rfl rfl rfl rfl h48 h48 T idx l n

/-- The bilinear interpolation of the channel-first table at the coordinates `cu`, `cv`, as the kernel program builds it. -/
def combK (T : FVec F STK .f32) (cu cv : FVec F SN .f32) : FVec F S3xN .f32 :=
  addf (addf (addf
    (mulf (mulf (gK T (pair (wrap (lo cu)) (wrap (lo cv)))) (wK' (frac cu))) (wK' (frac cv)))
    (mulf (mulf (gK T (pair (wrap (hi cu)) (wrap (lo cv)))) (wK (frac cu))) (wK' (frac cv))))
    (mulf (mulf (gK T (pair (wrap (lo cu)) (wrap (hi cv)))) (wK' (frac cu))) (wK (frac cv))))
    (mulf (mulf (gK T (pair (wrap (hi cu)) (wrap (hi cv)))) (wK (frac cu))) (wK (frac cv)))

/-- One row's bilinear interpolation in one channel `t` of the table (`t u v` the channel's value at grid position
    `(u, v)`): the four corner values, each times its two weights, summed in the programs' order. -/
def bil (t : Fin 48 → Fin 48 → F .f32) (cu cv : FVec F SN .f32) (n : Fin 2097152) : F .f32 :=
  FloatOps.addf (FloatOps.addf (FloatOps.addf
    (FloatOps.mulf (FloatOps.mulf
      (t (clampIdx 48 h48 (wrap (lo cu) (ix1 n))) (clampIdx 48 h48 (wrap (lo cv) (ix1 n))))
      (FloatOps.subf one (frac cu (ix1 n)))) (FloatOps.subf one (frac cv (ix1 n))))
    (FloatOps.mulf (FloatOps.mulf
      (t (clampIdx 48 h48 (wrap (hi cu) (ix1 n))) (clampIdx 48 h48 (wrap (lo cv) (ix1 n))))
      (frac cu (ix1 n))) (FloatOps.subf one (frac cv (ix1 n)))))
    (FloatOps.mulf (FloatOps.mulf
      (t (clampIdx 48 h48 (wrap (lo cu) (ix1 n))) (clampIdx 48 h48 (wrap (hi cv) (ix1 n))))
      (FloatOps.subf one (frac cu (ix1 n)))) (frac cv (ix1 n))))
    (FloatOps.mulf (FloatOps.mulf
      (t (clampIdx 48 h48 (wrap (hi cu) (ix1 n))) (clampIdx 48 h48 (wrap (hi cv) (ix1 n))))
      (frac cu (ix1 n))) (frac cv (ix1 n)))

/-- The interpolation depends only on the channel's values and on the two coordinate rows. -/
theorem bil_congr {t t' : Fin 48 → Fin 48 → F .f32} {cu cu' cv cv' : FVec F SN .f32} (ht : t = t') (hu : cu = cu')
    (hv : cv = cv') (n : Fin 2097152) : bil t cu cv n = bil t' cu' cv' n := by
  subst ht hu hv; rfl

/-- The kernel's array at channel `l`, row `n`. -/
theorem combK_apply (T : FVec F STK .f32) (cu cv : FVec F SN .f32) (l : Fin 3) (n : Fin 2097152) :
    combK T cu cv (ix2 l n) = bil (fun u v => T (ix3 l u v)) cu cv n := by
  unfold combK bil
  simp only [addf_app, mulf_app, gK_apply, wK_apply, wK'_apply, pair_apply0, pair_apply1]

/-! ## The reference's layout: channel last -/

theorem hb0Nc : S0.BroadcastsInDim SNx1 (![] : Fin 0 → Fin SNx1.rank) := by decide
theorem hbc3 : SNx1.BroadcastsInDim SNx3 (![0, 1] : Fin 2 → Fin SNx3.rank) := by decide

/-- The weight `f` at every channel. -/
def wR (f : FVec F SN .f32) : FVec F SNx3 .f32 := broadcastInDim SNx3 ![0, 1] hbc3 (broadcastInDim SNx1 ![0] hbNc f)
/-- The weight `1 − f` at every channel. -/
def wR' (f : FVec F SN .f32) : FVec F SNx3 .f32 :=
  broadcastInDim SNx3 ![0, 1] hbc3
    (subf (broadcastInDim SNx1 ![] hb0Nc (constant S0 .f32 0x3F800000#32)) (broadcastInDim SNx1 ![0] hbNc f))

theorem b3R_apply {α : Type} (x : SNx1.Idx → α) (n : Fin 2097152) (l : Fin 3) :
    broadcastInDim SNx3 ![0, 1] hbc3 x (ix2 n l) = x (ix2 n 0) :=
  broadcastInDim_apply _ hbc3 x (ix2 n l) (ix2 n 0) (fun a => match a with | ⟨0, _⟩ => rfl | ⟨1, _⟩ => rfl)
theorem b1R_apply {α : Type} (y : SN.Idx → α) (n : Fin 2097152) :
    broadcastInDim SNx1 ![0] hbNc y (ix2 n 0) = y (ix1 n) :=
  broadcastInDim_apply _ hbNc y (ix2 n 0) (ix1 n) (fun a => match a with | ⟨0, _⟩ => rfl)
theorem b0R_apply {α : Type} (z : S0.Idx → α) (n : Fin 2097152) :
    broadcastInDim SNx1 ![] hb0Nc z (ix2 n 0) = z ix0 :=
  broadcastInDim_apply _ hb0Nc z (ix2 n 0) ix0 (fun a => a.elim0)

theorem wR_apply (f : FVec F SN .f32) (n : Fin 2097152) (l : Fin 3) : wR f (ix2 n l) = f (ix1 n) := by
  unfold wR; rw [b3R_apply, b1R_apply]
theorem wR'_apply (f : FVec F SN .f32) (n : Fin 2097152) (l : Fin 3) :
    wR' f (ix2 n l) = FloatOps.subf one (f (ix1 n)) := by
  unfold wR'; rw [b3R_apply, subf_app, b1R_apply, b0R_apply]; rfl

/-- The table read at `N` pairs of positions, channel last. -/
def gR (T : FVec F STR .f32) (idx : IVec SNx2 32) : FVec F SNx3 .f32 :=
  Host.gather Cert.ReferenceIdeal.gather_S48x48x3_S2097152x2_S2097152x3_1_01_n_n_01_1_113 T idx

theorem gR_apply (T : FVec F STR .f32) (idx : IVec SNx2 32) (n : Fin 2097152) (l : Fin 3) :
    gR T idx (ix2 n l) = T (ix3 (clampIdx 48 h48 (idx (ix2 n 0))) (clampIdx 48 h48 (idx (ix2 n 1))) l) :=
  gather_first2 _ rfl rfl rfl rfl rfl h48 h48 T idx n l

/-- The bilinear interpolation of the channel-last table at the coordinates `cu`, `cv`, as the reference program builds it. -/
def combR (T : FVec F STR .f32) (cu cv : FVec F SN .f32) : FVec F SNx3 .f32 :=
  addf (addf (addf
    (mulf (mulf (gR T (pair (wrap (lo cu)) (wrap (lo cv)))) (wR' (frac cu))) (wR' (frac cv)))
    (mulf (mulf (gR T (pair (wrap (hi cu)) (wrap (lo cv)))) (wR (frac cu))) (wR' (frac cv))))
    (mulf (mulf (gR T (pair (wrap (lo cu)) (wrap (hi cv)))) (wR' (frac cu))) (wR (frac cv))))
    (mulf (mulf (gR T (pair (wrap (hi cu)) (wrap (hi cv)))) (wR (frac cu))) (wR (frac cv)))

/-- The reference's array at row `n`, channel `l`. -/
theorem combR_apply (T : FVec F STR .f32) (cu cv : FVec F SN .f32) (n : Fin 2097152) (l : Fin 3) :
    combR T cu cv (ix2 n l) = bil (fun u v => T (ix3 u v l)) cu cv n := by
  unfold combR bil
  simp only [addf_app, mulf_app, gR_apply, wR_apply, wR'_apply, pair_apply0, pair_apply1]

theorem hsl0 : SNx2.Slices ![0, 0] SNx1 := by decide
theorem hsl1 : SNx2.Slices ![0, 1] SNx1 := by decide
theorem hsc : SNx1.ShapeCasts SN := by decide

/-- Column 0 of an array of `N` pairs, as a row: the slice and the reshape the reference program applies. -/
def col0 {α : Type} (X : SNx2.Idx → α) : SN.Idx → α := shapeCast SN (extractStridedSlice SNx1 ![0, 0] X hsl0) hsc
/-- Column 1 of an array of `N` pairs, as a row. -/
def col1 {α : Type} (X : SNx2.Idx → α) : SN.Idx → α := shapeCast SN (extractStridedSlice SNx1 ![0, 1] X hsl1) hsc

theorem col0_apply {α : Type} (X : SNx2.Idx → α) (n : Fin 2097152) : col0 X (ix1 n) = X (ix2 n 0) := by
  unfold col0
  rw [shapeCast_apply _ hsc (ix1 n) (ix2 n 0) (by
    rw [Shape.rowMajor_val_two, Shape.rowMajor_val_one]
    show n.val * 1 + 0 = n.val
    rw [Nat.mul_one, Nat.add_zero])]
  exact slice2_axis1_apply 0 X hsl0 n 0 0 rfl
theorem col1_apply {α : Type} (X : SNx2.Idx → α) (n : Fin 2097152) : col1 X (ix1 n) = X (ix2 n 1) := by
  unfold col1
  rw [shapeCast_apply _ hsc (ix1 n) (ix2 n 0) (by
    rw [Shape.rowMajor_val_two, Shape.rowMajor_val_one]
    show n.val * 1 + 0 = n.val
    rw [Nat.mul_one, Nat.add_zero])]
  exact slice2_axis1_apply 1 X hsl1 n 0 1 rfl

/-! ## The two chunks, each as one array

Each chunk is run in three consecutive pieces: the positions and the weights (rows of `N` values), then the first two
corner terms, then the last two. A piece is read from ANY contents it starts from, so the three readings compose. -/

/-- One corner's term: the table at the pairs of positions, times the two weights. -/
def termK (T : FVec F STK .f32) (a b : IVec SN 32) (wu wv : FVec F S3xN .f32) : FVec F S3xN .f32 :=
  mulf (mulf (gK T (pair a b)) wu) wv
/-- A weight row at every channel. -/
def w1K (g : FVec F S1xN .f32) : FVec F S3xN .f32 := broadcastInDim S3xN ![0, 1] hb13 g
/-- One less a weight row, at every channel. -/
def w1K' (g : FVec F S1xN .f32) : FVec F S3xN .f32 :=
  broadcastInDim S3xN ![0, 1] hb13 (subf (broadcastInDim S1xN ![] hb01N (constant S0 .f32 0x3F800000#32)) g)
/-- A row of `N` values as a one-row matrix. -/
def rowK (f : FVec F SN .f32) : FVec F S1xN .f32 := broadcastInDim S1xN ![1] hbN1 f

/-- The kernel chunk's first piece: positions and weights. -/
abbrev KA : List (HloOp Cert.KernelIdeal.τ Cert.KernelIdeal.sig (Elt F)) := List.take 42 Cert.KernelIdeal.Chunks.K4
/-- Its second piece: the first two corner terms and their sum. -/
abbrev KB : List (HloOp Cert.KernelIdeal.τ Cert.KernelIdeal.sig (Elt F)) :=
  List.take 54 (List.drop 42 Cert.KernelIdeal.Chunks.K4)
/-- Its third piece: the last two corner terms and the sums. -/
abbrev KC : List (HloOp Cert.KernelIdeal.τ Cert.KernelIdeal.sig (Elt F)) :=
  List.drop 54 (List.drop 42 Cert.KernelIdeal.Chunks.K4)

/-- The chunk is its three pieces run one after the other. -/
theorem k_pieces (W : Valuation Cert.KernelIdeal.τ Cert.KernelIdeal.sig (Elt F)) :
    after Cert.KernelIdeal.Chunks.K4 W = after KC (after KB (after KA W)) := by
  have h : (Cert.KernelIdeal.Chunks.K4 (F := F)) = KA ++ (KB ++ KC) := by
    exact (List.take_append_drop 42 _).symm.trans
      (congrArg (fun l => List.take 42 Cert.KernelIdeal.Chunks.K4 ++ l) (List.take_append_drop 54 _).symm)
  rw [h, Cert.LibAfter.after_append, Cert.LibAfter.after_append]

set_option maxHeartbeats 4000000 in
set_option maxRecDepth 16384 in
/-- The first piece leaves the two weights (as one-row matrices), the lower and the upper positions, and the table. -/
theorem kA (W : Valuation Cert.KernelIdeal.τ Cert.KernelIdeal.sig (Elt F)) :
    after KA W (Proc.devRef .tc Cert.KernelIdeal.main_v206) = rowK (frac (W (Proc.devRef .tc Cert.KernelIdeal.main_v50)))
    ∧ after KA W (Proc.devRef .tc Cert.KernelIdeal.main_v208) = rowK (frac (W (Proc.devRef .tc Cert.KernelIdeal.main_v52)))
    ∧ after KA W (Proc.devRef .tc Cert.KernelIdeal.main_v209) = lo (W (Proc.devRef .tc Cert.KernelIdeal.main_v50))
    ∧ after KA W (Proc.devRef .tc Cert.KernelIdeal.main_v210) = lo (W (Proc.devRef .tc Cert.KernelIdeal.main_v52))
    ∧ after KA W (Proc.devRef .tc Cert.KernelIdeal.main_v214) = hi (W (Proc.devRef .tc Cert.KernelIdeal.main_v50))
    ∧ after KA W (Proc.devRef .tc Cert.KernelIdeal.main_v218) = hi (W (Proc.devRef .tc Cert.KernelIdeal.main_v52))
    ∧ after KA W (Proc.devRef .tc Cert.KernelIdeal.main_v3) = W (Proc.devRef .tc Cert.KernelIdeal.main_v3) := by
  simp only [KA, Cert.KernelIdeal.Chunks.K4, List.take_succ_cons, List.take_zero]
  after_results_simp
  refine ⟨?_, ?_, ?_, ?_, ?_, ?_, ?_⟩ <;> first | rfl | trivial

set_option maxHeartbeats 4000000 in
set_option maxRecDepth 16384 in
/-- The second piece leaves the sum of the first two corner terms, and what the third piece still reads. -/
theorem kB (W : Valuation Cert.KernelIdeal.τ Cert.KernelIdeal.sig (Elt F)) :
    after KB W (Proc.devRef .tc Cert.KernelIdeal.main_v261)
      = addf
          (termK (W (Proc.devRef .tc Cert.KernelIdeal.main_v3)) (wrap (W (Proc.devRef .tc Cert.KernelIdeal.main_v209)))
            (wrap (W (Proc.devRef .tc Cert.KernelIdeal.main_v210))) (w1K' (W (Proc.devRef .tc Cert.KernelIdeal.main_v206)))
            (w1K' (W (Proc.devRef .tc Cert.KernelIdeal.main_v208))))
          (termK (W (Proc.devRef .tc Cert.KernelIdeal.main_v3)) (wrap (W (Proc.devRef .tc Cert.KernelIdeal.main_v214)))
            (wrap (W (Proc.devRef .tc Cert.KernelIdeal.main_v210))) (w1K (W (Proc.devRef .tc Cert.KernelIdeal.main_v206)))
            (w1K' (W (Proc.devRef .tc Cert.KernelIdeal.main_v208))))
    ∧ after KB W (Proc.devRef .tc Cert.KernelIdeal.main_v3) = W (Proc.devRef .tc Cert.KernelIdeal.main_v3)
    ∧ after KB W (Proc.devRef .tc Cert.KernelIdeal.main_v206) = W (Proc.devRef .tc Cert.KernelIdeal.main_v206)
    ∧ after KB W (Proc.devRef .tc Cert.KernelIdeal.main_v208) = W (Proc.devRef .tc Cert.KernelIdeal.main_v208)
    ∧ after KB W (Proc.devRef .tc Cert.KernelIdeal.main_v209) = W (Proc.devRef .tc Cert.KernelIdeal.main_v209)
    ∧ after KB W (Proc.devRef .tc Cert.KernelIdeal.main_v214) = W (Proc.devRef .tc Cert.KernelIdeal.main_v214)
    ∧ after KB W (Proc.devRef .tc Cert.KernelIdeal.main_v218) = W (Proc.devRef .tc Cert.KernelIdeal.main_v218) := by
  simp only [KB, Cert.KernelIdeal.Chunks.K4, List.drop_succ_cons, List.drop_zero, List.take_succ_cons, List.take_zero]
  after_results_simp
  refine ⟨?_, ?_, ?_, ?_, ?_, ?_, ?_⟩ <;> first | rfl | trivial

set_option maxHeartbeats 4000000 in
set_option maxRecDepth 16384 in
/-- The third piece adds the last two corner terms. -/
theorem kC (W : Valuation Cert.KernelIdeal.τ Cert.KernelIdeal.sig (Elt F)) :
    after KC W (Proc.devRef .tc Cert.KernelIdeal.main_v301)
      = addf (addf (W (Proc.devRef .tc Cert.KernelIdeal.main_v261))
          (termK (W (Proc.devRef .tc Cert.KernelIdeal.main_v3)) (wrap (W (Proc.devRef .tc Cert.KernelIdeal.main_v209)))
            (wrap (W (Proc.devRef .tc Cert.KernelIdeal.main_v218))) (w1K' (W (Proc.devRef .tc Cert.KernelIdeal.main_v206)))
            (w1K (W (Proc.devRef .tc Cert.KernelIdeal.main_v208)))))
          (termK (W (Proc.devRef .tc Cert.KernelIdeal.main_v3)) (wrap (W (Proc.devRef .tc Cert.KernelIdeal.main_v214)))
            (wrap (W (Proc.devRef .tc Cert.KernelIdeal.main_v218))) (w1K (W (Proc.devRef .tc Cert.KernelIdeal.main_v206)))
            (w1K (W (Proc.devRef .tc Cert.KernelIdeal.main_v208)))) := by
  simp only [KC, Cert.KernelIdeal.Chunks.K4, List.drop_succ_cons, List.drop_zero]
  after_results_simp
  rfl

/-- The kernel program's chunk leaves in its result the bilinear interpolation of its (transposed) table at its two
    coordinate rows. -/
theorem k_spec (W : Valuation Cert.KernelIdeal.τ Cert.KernelIdeal.sig (Elt F)) :
    after Cert.KernelIdeal.Chunks.K4 W (Proc.devRef .tc Cert.KernelIdeal.main_v301)
      = combK (W (Proc.devRef .tc Cert.KernelIdeal.main_v3)) (W (Proc.devRef .tc Cert.KernelIdeal.main_v50))
          (W (Proc.devRef .tc Cert.KernelIdeal.main_v52)) := by
  obtain ⟨b261, b3, b206, b208, b209, b214, b218⟩ := kB (after KA W)
  obtain ⟨a206, a208, a209, a210, a214, a218, a3⟩ := kA W
  rw [k_pieces, kC, b261, b3, b206, b208, b209, b214, b218, a206, a208, a209, a210, a214, a218, a3]
  rfl

/-- One corner's term, channel last. -/
def termR (T : FVec F STR .f32) (a b : IVec SN 32) (wu wv : FVec F SNx3 .f32) : FVec F SNx3 .f32 :=
  mulf (mulf (gR T (pair a b)) wu) wv
/-- A weight column at every channel. -/
def w1R (g : FVec F SNx1 .f32) : FVec F SNx3 .f32 := broadcastInDim SNx3 ![0, 1] hbc3 g
/-- One less a weight column, at every channel. -/
def w1R' (g : FVec F SNx1 .f32) : FVec F SNx3 .f32 :=
  broadcastInDim SNx3 ![0, 1] hbc3 (subf (broadcastInDim SNx1 ![] hb0Nc (constant S0 .f32 0x3F800000#32)) g)
/-- A row of `N` values as a column. -/
def colR (f : FVec F SN .f32) : FVec F SNx1 .f32 := broadcastInDim SNx1 ![0] hbNc f

/-- The reference chunk's first piece: the two coordinate columns, positions and weights. -/
abbrev RA : List (HloOp Cert.ReferenceIdeal.τ Cert.ReferenceIdeal.sig (Elt F)) := List.take 46 Cert.ReferenceIdeal.Chunks.R4
/-- Its second piece: the first two corner terms and their sum. -/
abbrev RB : List (HloOp Cert.ReferenceIdeal.τ Cert.ReferenceIdeal.sig (Elt F)) :=
  List.take 54 (List.drop 46 Cert.ReferenceIdeal.Chunks.R4)
/-- Its third piece: the last two corner terms and the sums. -/
abbrev RC : List (HloOp Cert.ReferenceIdeal.τ Cert.ReferenceIdeal.sig (Elt F)) :=
  List.drop 54 (List.drop 46 Cert.ReferenceIdeal.Chunks.R4)

/-- The chunk is its three pieces run one after the other. -/
theorem r_pieces (W : Valuation Cert.ReferenceIdeal.τ Cert.ReferenceIdeal.sig (Elt F)) :
    after Cert.ReferenceIdeal.Chunks.R4 W = after RC (after RB (after RA W)) := by
  have h : (Cert.ReferenceIdeal.Chunks.R4 (F := F)) = RA ++ (RB ++ RC) := by
    exact (List.take_append_drop 46 _).symm.trans
      (congrArg (fun l => List.take 46 Cert.ReferenceIdeal.Chunks.R4 ++ l) (List.take_append_drop 54 _).symm)
  rw [h, Cert.LibAfter.after_append, Cert.LibAfter.after_append]

set_option maxHeartbeats 4000000 in
set_option maxRecDepth 16384 in
/-- The first piece leaves the two weights (as columns), the lower and the upper positions, and the table. -/
theorem rA (W : Valuation Cert.ReferenceIdeal.τ Cert.ReferenceIdeal.sig (Elt F)) :
    after RA W (Proc.devRef .tc Cert.ReferenceIdeal.main_v270) = colR (frac (col0 (W (Proc.devRef .tc Cert.ReferenceIdeal.main_v47))))
    ∧ after RA W (Proc.devRef .tc Cert.ReferenceIdeal.main_v272) = colR (frac (col1 (W (Proc.devRef .tc Cert.ReferenceIdeal.main_v47))))
    ∧ after RA W (Proc.devRef .tc Cert.ReferenceIdeal.main_v273) = lo (col0 (W (Proc.devRef .tc Cert.ReferenceIdeal.main_v47)))
    ∧ after RA W (Proc.devRef .tc Cert.ReferenceIdeal.main_v274) = lo (col1 (W (Proc.devRef .tc Cert.ReferenceIdeal.main_v47)))
    ∧ after RA W (Proc.devRef .tc Cert.ReferenceIdeal.main_v278) = hi (col0 (W (Proc.devRef .tc Cert.ReferenceIdeal.main_v47)))
    ∧ after RA W (Proc.devRef .tc Cert.ReferenceIdeal.main_v282) = hi (col1 (W (Proc.devRef .tc Cert.ReferenceIdeal.main_v47)))
    ∧ after RA W (Proc.devRef .tc Cert.ReferenceIdeal.main_arg12) = W (Proc.devRef .tc Cert.ReferenceIdeal.main_arg12) := by
  simp only [RA, Cert.ReferenceIdeal.Chunks.R4, List.take_succ_cons, List.take_zero]
  after_results_simp
  refine ⟨?_, ?_, ?_, ?_, ?_, ?_, ?_⟩ <;> first | rfl | trivial

set_option maxHeartbeats 4000000 in
set_option maxRecDepth 16384 in
/-- The second piece leaves the sum of the first two corner terms, and what the third piece still reads. -/
theorem rB (W : Valuation Cert.ReferenceIdeal.τ Cert.ReferenceIdeal.sig (Elt F)) :
    after RB W (Proc.devRef .tc Cert.ReferenceIdeal.main_v325)
      = addf
          (termR (W (Proc.devRef .tc Cert.ReferenceIdeal.main_arg12)) (wrap (W (Proc.devRef .tc Cert.ReferenceIdeal.main_v273)))
            (wrap (W (Proc.devRef .tc Cert.ReferenceIdeal.main_v274))) (w1R' (W (Proc.devRef .tc Cert.ReferenceIdeal.main_v270)))
            (w1R' (W (Proc.devRef .tc Cert.ReferenceIdeal.main_v272))))
          (termR (W (Proc.devRef .tc Cert.ReferenceIdeal.main_arg12)) (wrap (W (Proc.devRef .tc Cert.ReferenceIdeal.main_v278)))
            (wrap (W (Proc.devRef .tc Cert.ReferenceIdeal.main_v274))) (w1R (W (Proc.devRef .tc Cert.ReferenceIdeal.main_v270)))
            (w1R' (W (Proc.devRef .tc Cert.ReferenceIdeal.main_v272))))
    ∧ after RB W (Proc.devRef .tc Cert.ReferenceIdeal.main_arg12) = W (Proc.devRef .tc Cert.ReferenceIdeal.main_arg12)
    ∧ after RB W (Proc.devRef .tc Cert.ReferenceIdeal.main_v270) = W (Proc.devRef .tc Cert.ReferenceIdeal.main_v270)
    ∧ after RB W (Proc.devRef .tc Cert.ReferenceIdeal.main_v272) = W (Proc.devRef .tc Cert.ReferenceIdeal.main_v272)
    ∧ after RB W (Proc.devRef .tc Cert.ReferenceIdeal.main_v273) = W (Proc.devRef .tc Cert.ReferenceIdeal.main_v273)
    ∧ after RB W (Proc.devRef .tc Cert.ReferenceIdeal.main_v278) = W (Proc.devRef .tc Cert.ReferenceIdeal.main_v278)
    ∧ after RB W (Proc.devRef .tc Cert.ReferenceIdeal.main_v282) = W (Proc.devRef .tc Cert.ReferenceIdeal.main_v282) := by
  simp only [RB, Cert.ReferenceIdeal.Chunks.R4, List.drop_succ_cons, List.drop_zero, List.take_succ_cons, List.take_zero]
  after_results_simp
  refine ⟨?_, ?_, ?_, ?_, ?_, ?_, ?_⟩ <;> first | rfl | trivial

set_option maxHeartbeats 4000000 in
set_option maxRecDepth 16384 in
/-- The third piece adds the last two corner terms. -/
theorem rC (W : Valuation Cert.ReferenceIdeal.τ Cert.ReferenceIdeal.sig (Elt F)) :
    after RC W (Proc.devRef .tc Cert.ReferenceIdeal.main_v365)
      = addf (addf (W (Proc.devRef .tc Cert.ReferenceIdeal.main_v325))
          (termR (W (Proc.devRef .tc Cert.ReferenceIdeal.main_arg12)) (wrap (W (Proc.devRef .tc Cert.ReferenceIdeal.main_v273)))
            (wrap (W (Proc.devRef .tc Cert.ReferenceIdeal.main_v282))) (w1R' (W (Proc.devRef .tc Cert.ReferenceIdeal.main_v270)))
            (w1R (W (Proc.devRef .tc Cert.ReferenceIdeal.main_v272)))))
          (termR (W (Proc.devRef .tc Cert.ReferenceIdeal.main_arg12)) (wrap (W (Proc.devRef .tc Cert.ReferenceIdeal.main_v278)))
            (wrap (W (Proc.devRef .tc Cert.ReferenceIdeal.main_v282))) (w1R (W (Proc.devRef .tc Cert.ReferenceIdeal.main_v270)))
            (w1R (W (Proc.devRef .tc Cert.ReferenceIdeal.main_v272)))) := by
  simp only [RC, Cert.ReferenceIdeal.Chunks.R4, List.drop_succ_cons, List.drop_zero]
  after_results_simp
  rfl

/-- The reference program's chunk leaves in its result the bilinear interpolation of its table at the two columns of
    its coordinate array. -/
theorem r_spec (W : Valuation Cert.ReferenceIdeal.τ Cert.ReferenceIdeal.sig (Elt F)) :
    after Cert.ReferenceIdeal.Chunks.R4 W (Proc.devRef .tc Cert.ReferenceIdeal.main_v365)
      = combR (W (Proc.devRef .tc Cert.ReferenceIdeal.main_arg12)) (col0 (W (Proc.devRef .tc Cert.ReferenceIdeal.main_v47)))
          (col1 (W (Proc.devRef .tc Cert.ReferenceIdeal.main_v47))) := by
  obtain ⟨b325, b12, b270, b272, b273, b278, b282⟩ := rB (after RA W)
  obtain ⟨a270, a272, a273, a274, a278, a282, a12⟩ := rA W
  rw [r_pieces, rC, b325, b12, b270, b272, b273, b278, b282, a270, a272, a273, a274, a278, a282, a12]
  rfl

end Cert.Bridge.B4

namespace Cert.Bridge

open Idealize.ShloMosaic Idealize.ShloMosaic.ValueIdx Idealize.ShloMosaic.TcCoe Idealize.SL.Sem

variable {F : FTy → Type} [FloatOps F]

/-- The kernel program's interpolated array, over the whole program's values of the buffers its chunk reads. -/
theorem raCoefs_kernel (VK : Valuation Cert.KernelIdeal.τ Cert.KernelIdeal.sig (Elt F)) :
    KV VK Cert.KernelIdeal.main_v301
      = B4.combK (KV VK Cert.KernelIdeal.main_v3) (KV VK Cert.KernelIdeal.main_v50) (KV VK Cert.KernelIdeal.main_v52) := by
  show Cert.KernelIdeal.KRead.St10 VK (Proc.devRef .tc Cert.KernelIdeal.main_v301)
    = B4.combK (Cert.KernelIdeal.KRead.St10 VK (Proc.devRef .tc Cert.KernelIdeal.main_v3))
        (Cert.KernelIdeal.KRead.St10 VK (Proc.devRef .tc Cert.KernelIdeal.main_v50))
        (Cert.KernelIdeal.KRead.St10 VK (Proc.devRef .tc Cert.KernelIdeal.main_v52))
  rw [Cert.KernelIdeal.KRead.out_K4 VK (r := Cert.KernelIdeal.main_v301) (by decide), B4.k_spec,
    Cert.KernelIdeal.KRead.in_K4 VK (r := Cert.KernelIdeal.main_v3) (by decide),
    Cert.KernelIdeal.KRead.in_K4 VK (r := Cert.KernelIdeal.main_v50) (by decide),
    Cert.KernelIdeal.KRead.in_K4 VK (r := Cert.KernelIdeal.main_v52) (by decide)]

/-- The reference program's interpolated array, over the whole program's values of the buffers its chunk reads. -/
theorem raCoefs_reference (VR : Valuation Cert.ReferenceIdeal.τ Cert.ReferenceIdeal.sig (Elt F)) :
    RV VR Cert.ReferenceIdeal.main_v365
      = B4.combR (RV VR Cert.ReferenceIdeal.main_arg12) (B4.col0 (RV VR Cert.ReferenceIdeal.main_v47))
          (B4.col1 (RV VR Cert.ReferenceIdeal.main_v47)) := by
  show Cert.ReferenceIdeal.RRead.St11 VR (Proc.devRef .tc Cert.ReferenceIdeal.main_v365)
    = B4.combR (Cert.ReferenceIdeal.RRead.St11 VR (Proc.devRef .tc Cert.ReferenceIdeal.main_arg12))
        (B4.col0 (Cert.ReferenceIdeal.RRead.St11 VR (Proc.devRef .tc Cert.ReferenceIdeal.main_v47)))
        (B4.col1 (Cert.ReferenceIdeal.RRead.St11 VR (Proc.devRef .tc Cert.ReferenceIdeal.main_v47)))
  rw [Cert.ReferenceIdeal.RRead.out_R4 VR (r := Cert.ReferenceIdeal.main_v365) (by decide), B4.r_spec,
    Cert.ReferenceIdeal.RRead.in_R4 VR (r := Cert.ReferenceIdeal.main_arg12) (by decide),
    Cert.ReferenceIdeal.RRead.in_R4 VR (r := Cert.ReferenceIdeal.main_v47) (by decide)]

/-- LOOKUP 4. The kernel program's interpolated coefficients, channel `l` of row `n`, are the reference program's, row
    `n`, channel `l`: given that the kernel's table is the reference's transposed and that the kernel's two coordinate
    rows are the two columns of the reference's coordinate array. Both sides are the same bilinear interpolation
    (`B4.bil`) of one channel of the table at the same two coordinates. -/
theorem corr_raCoefs (VK : Valuation Cert.KernelIdeal.τ Cert.KernelIdeal.sig (Elt F)) (VR : Valuation Cert.ReferenceIdeal.τ Cert.ReferenceIdeal.sig (Elt F))
    (hT : ∀ (l : Fin 3) (u v : Fin 48), KV VK Cert.KernelIdeal.main_v3 (ix3 l u v) = RV VR Cert.ReferenceIdeal.main_arg12 (ix3 u v l))
    (h50 : ∀ n : Fin 2097152, KV VK Cert.KernelIdeal.main_v50 (ix1 n) = RV VR Cert.ReferenceIdeal.main_v47 (ix2 n 0))
    (h52 : ∀ n : Fin 2097152, KV VK Cert.KernelIdeal.main_v52 (ix1 n) = RV VR Cert.ReferenceIdeal.main_v47 (ix2 n 1)) :
    ∀ (l : Fin 3) (n : Fin 2097152), KV VK Cert.KernelIdeal.main_v301 (ix2 l n) = RV VR Cert.ReferenceIdeal.main_v365 (ix2 n l) := by
  intro l n
  have e50 : (KV VK Cert.KernelIdeal.main_v50 : FVec F B4.SN .f32) = B4.col0 (RV VR Cert.ReferenceIdeal.main_v47) := by
    funext j
    obtain ⟨a, rfl⟩ : ∃ a, j = ix1 a := ⟨j 0, eq_ix1 j⟩
    rw [B4.col0_apply]
    exact h50 a
  have e52 : (KV VK Cert.KernelIdeal.main_v52 : FVec F B4.SN .f32) = B4.col1 (RV VR Cert.ReferenceIdeal.main_v47) := by
    funext j
    obtain ⟨a, rfl⟩ : ∃ a, j = ix1 a := ⟨j 0, eq_ix1 j⟩
    rw [B4.col1_apply]
    exact h52 a
  have eT : (fun u v : Fin 48 => KV VK Cert.KernelIdeal.main_v3 (ix3 l u v))
      = fun u v : Fin 48 => RV VR Cert.ReferenceIdeal.main_arg12 (ix3 u v l) := by
    funext u v
    exact hT l u v
  calc KV VK Cert.KernelIdeal.main_v301 (ix2 l n)
      = B4.combK (KV VK Cert.KernelIdeal.main_v3) (KV VK Cert.KernelIdeal.main_v50) (KV VK Cert.KernelIdeal.main_v52) (ix2 l n) :=
        congrFun (raCoefs_kernel VK) (ix2 l n)
    _ = B4.bil (fun u v => KV VK Cert.KernelIdeal.main_v3 (ix3 l u v)) (KV VK Cert.KernelIdeal.main_v50) (KV VK Cert.KernelIdeal.main_v52) n :=
        B4.combK_apply _ _ _ l n
    _ = B4.bil (fun u v => RV VR Cert.ReferenceIdeal.main_arg12 (ix3 u v l)) (B4.col0 (RV VR Cert.ReferenceIdeal.main_v47))
          (B4.col1 (RV VR Cert.ReferenceIdeal.main_v47)) n := by
        exact B4.bil_congr eT e50 e52 n
    _ = B4.combR (RV VR Cert.ReferenceIdeal.main_arg12) (B4.col0 (RV VR Cert.ReferenceIdeal.main_v47))
          (B4.col1 (RV VR Cert.ReferenceIdeal.main_v47)) (ix2 n l) :=
        (B4.combR_apply _ _ _ n l).symm
    _ = RV VR Cert.ReferenceIdeal.main_v365 (ix2 n l) :=
        (congrFun (raCoefs_reference VR) (ix2 n l)).symm

end Cert.Bridge

end
-- ==== Proof.Block5.lean ====
/-
  Lookup 5 (linear interpolation along one axis in the table of 96 rows and two channels).

  Both programs clip the coordinate, scale it by 95, split it into its floor and its fraction `f`, turn the floor and
  the floor plus one (capped at 95) into two integer start indices per row (a negative index wrapped), gather the table
  at both, and blend: `(1 − f) · first + f · second`. The kernel program does it on the transposed table `[2, 96]` with
  every row vector laid along the last axis (`[1, N]`, `[2, N]`); the reference program on the table `[96, 2]` with
  every row vector laid along the first axis (`[N, 1]`, `[N, 2]`). The coordinate is the result of lookup 2, which the
  kernel program holds as an `[N]` vector and the reference program as an `[N, 1]` column that it reshapes first. Once
  the two coordinates are identified the floor, the fraction and the start indices are the same arrays, the gathers read
  the tables at the same clamped positions, and the broadcasts of the fraction read it at the same row: so element
  `(l, n)` of the one result is element `(n, l)` of the other. `core_cgCoefs` says it of the two chunks run from any
  contents that agree on what the chunks read; `corr_cgCoefs` places it in the whole programs.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Idealize.ShloMosaic.StableHlo

variable {F : FTy → Type} [FloatOps F]

/-! ## Layout operations and gathers at an index written by coordinates -/

/-- An `[a, 1]` column cast to `[a]` reads, at `i`, the operand at `(i, 0)`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The same start indices read a table laid out channel first and the table laid out channel last at the same
    position: if element `(l, u)` of the one is element `(u, l)` of the other, then element `(l, n)` of the one gather
    is element `(n, l)` of the other. -/
private theorem gather1_pair {α : Type} {L U N : ℕ} (hU : 0 < U)
    (dK : GatherDims ⟨2, ![L, U]⟩ ⟨2, ![N, 1]⟩ ⟨2, ![L, N]⟩)
    (hK1 : dK.offsetDims = [0]) (hK2 : dK.collapsedSliceDims = [1]) (hK3 : dK.operandBatchingDims = [])
    (hK4 : dK.startIndexMap = [1]) (hK5 : dK.indexVectorDim = 1)
    (dR : GatherDims ⟨2, ![U, L]⟩ ⟨2, ![N, 1]⟩ ⟨2, ![N, L]⟩)
    (hR1 : dR.offsetDims = [1]) (hR2 : dR.collapsedSliceDims = [0]) (hR3 : dR.operandBatchingDims = [])
    (hR4 : dR.startIndexMap = [0]) (hR5 : dR.indexVectorDim = 1)
    (TK : (⟨2, ![L, U]⟩ : Shape).Idx → α) (TR : (⟨2, ![U, L]⟩ : Shape).Idx → α) (I : IVec ⟨2, ![N, 1]⟩ 32)
    (hT : ∀ (l : Fin L) (u : Fin U), TK (ix2 l u) = TR (ix2 u l)) (l : Fin L) (n : Fin N) :
    Host.gather dK TK I (ix2 l n) = Host.gather dR TR I (ix2 n l) := by
  rw [Cert.LibGather2.gather_last1 dK hK1 hK2 hK3 hK4 hK5 hU, Cert.LibGather2.gather_first1 dR hR1 hR2 hR3 hR4 hR5 hU]
  exact hT _ _

/-! ## Elementwise operations at an index -/

section At
variable {s : Shape} {φ : FTy}
private theorem mulf_at (a b : FVec F s φ) (i : s.Idx) : mulf a b i = FloatOps.mulf (a i) (b i) := rfl
private theorem addf_at (a b : FVec F s φ) (i : s.Idx) : addf a b i = FloatOps.addf (a i) (b i) := rfl
private theorem subf_at (a b : FVec F s φ) (i : s.Idx) : subf a b i = FloatOps.subf (a i) (b i) := rfl
private theorem hostDivf_at (a b : FVec F s φ) (i : s.Idx) : Host.divf a b i = FloatOps.hostDivf (a i) (b i) := rfl
private theorem hostFloor_at (a : FVec F s φ) (i : s.Idx) : Host.floor a i = FloatOps.hostUnary .floor (a i) := rfl
private theorem hostAbsf_at (a : FVec F s φ) (i : s.Idx) : Host.absf a i = FloatOps.hostAbsf (a i) := rfl
end At

/-- A `[1, b]` row broadcast to `[a, b]` (both axes kept in place) reads, at `(p, c)`, the operand at `(0, c)`. -/
private theorem broadcastInDim_1b_ab_apply {α : Type} {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_apply _ h x _ _ fun d => match d with
    | ⟨0, _⟩ => by show (0 : ℕ) = if (1 : ℕ) = 1 then 0 else p.val; rw [if_pos rfl]
    | ⟨1, _⟩ => by
      show c.val = if b = 1 then 0 else c.val
      split
      · have := c.isLt; omega
      · rfl

/-- An `[a, 1]` column broadcast to `[a, b]` (both axes kept in place) reads, at `(p, c)`, the operand at `(p, 0)`. -/
private theorem broadcastInDim_a1_ab_apply {α : Type} {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) :=
  broadcastInDim_apply _ h x _ _ fun d => match d with
    | ⟨0, _⟩ => by
      show p.val = if a = 1 then 0 else p.val
      split
      · have := p.isLt; omega
      · rfl
    | ⟨1, _⟩ => by show (0 : ℕ) = if (1 : ℕ) = 1 then 0 else c.val; rw [if_pos rfl]

/-- A `[b]` vector broadcast to a `[1, b]` row (its axis kept as axis 1) reads, at `(u, c)`, the operand at `c`. -/
private theorem broadcastInDim_b_1b_apply {α : Type} {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply _ h x _ _ fun d => match d with
    | ⟨0, _⟩ => by
      show c.val = if b = 1 then 0 else c.val
      split
      · have := c.isLt; omega
      · rfl

/-- An `[a]` vector broadcast to an `[a, 1]` column (its axis kept as axis 0) reads, at `(i, u)`, the operand at `i`. -/
private theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ fun d => match d with
    | ⟨0, _⟩ => by
      show i.val = if a = 1 then 0 else i.val
      split
      · have := i.isLt; omega
      · rfl

/-! ## The two chunks, run from contents that agree on what they read -/

set_option maxHeartbeats 8000000 in
/-- The kernel program's lookup 5 run from `W` and the reference program's run from `W'`: if the two contents hold the
    same coordinate (the kernel program's vector `main_v78`, the reference program's column `main_v72`) and tables that
    are transposes of each other, element `(l, n)` of the kernel program's result `main_v333` is element `(n, l)` of the
    reference program's `main_v398`. -/
theorem core_cgCoefs (W : Valuation Cert.KernelIdeal.τ Cert.KernelIdeal.sig (Elt F)) (W' : Valuation Cert.ReferenceIdeal.τ Cert.ReferenceIdeal.sig (Elt F))
    (h78 : ∀ n : Fin 2097152, W (Proc.devRef .tc Cert.KernelIdeal.main_v78) (ix1 n) = W' (Proc.devRef .tc Cert.ReferenceIdeal.main_v72) (ix2 n 0))
    (hT : ∀ (l : Fin 2) (u : Fin 96), W (Proc.devRef .tc Cert.KernelIdeal.main_v4) (ix2 l u) = W' (Proc.devRef .tc Cert.ReferenceIdeal.main_arg13) (ix2 u l))
    (l : Fin 2) (n : Fin 2097152) :
    after Cert.KernelIdeal.Chunks.K5 W (Proc.devRef .tc Cert.KernelIdeal.main_v333) (ix2 l n) = after Cert.ReferenceIdeal.Chunks.R5 W' (Proc.devRef .tc Cert.ReferenceIdeal.main_v398) (ix2 n l) := by
  -- the kernel program's coordinate vector is the reshape of the reference program's coordinate column
  have hc : (W (Proc.devRef .tc Cert.KernelIdeal.main_v78) : (⟨⟨1, ![2097152]⟩, .f32⟩ : BufTy).Contents (Elt F))
      = shapeCast ⟨1, ![2097152]⟩ (W' (Proc.devRef .tc Cert.ReferenceIdeal.main_v72)) Cert.ReferenceIdeal.Facts₀.shapeCasts_S2097152x1_S2097152 := by
    funext i
    obtain ⟨a, rfl⟩ : ∃ a, i = ix1 a := ⟨i 0, eq_ix1 i⟩
    exact (h78 a).trans (shapeCast_a1_a_apply _ _ a).symm
  simp only [Cert.KernelIdeal.Chunks.K5, Cert.ReferenceIdeal.Chunks.R5]
  after_results_simp
  -- from here the floor, the fraction and the two arrays of start indices are the same terms on both sides
  rw [hc]
  -- the blend is elementwise: the two gathered values and their two weights, one pair at a time
  simp only [addf_at, mulf_at]
  refine congrArg₂ FloatOps.addf (congrArg₂ FloatOps.mulf ?_ ?_) (congrArg₂ FloatOps.mulf ?_ ?_)
  · -- the table at the floor
    exact gather1_pair (by decide) _ rfl rfl rfl rfl rfl _ rfl rfl rfl rfl rfl _ _ _ hT l n
  · -- its weight, one minus the fraction: a row broadcast over the channels against a column broadcast over them
    refine (broadcastInDim_1b_ab_apply _ _ l n).trans (Eq.trans ?_ (broadcastInDim_a1_ab_apply _ _ n l).symm)
    simp only [subf_at]
    refine congrArg₂ FloatOps.subf rfl ?_
    exact (broadcastInDim_b_1b_apply _ _ 0 n).trans (broadcastInDim_a_a1_apply _ _ n 0).symm
  · -- the table at the floor plus one
    exact gather1_pair (by decide) _ rfl rfl rfl rfl rfl _ rfl rfl rfl rfl rfl _ _ _ hT l n
  · -- its weight, the fraction
    refine (broadcastInDim_1b_ab_apply _ _ l n).trans (Eq.trans ?_ (broadcastInDim_a1_ab_apply _ _ n l).symm)
    exact (broadcastInDim_b_1b_apply _ _ 0 n).trans (broadcastInDim_a_a1_apply _ _ n 0).symm

/-! ## In the whole programs -/

/-- Lookup 5 of the two programs: element `(l, n)` of the kernel program's `main_v333` is element `(n, l)` of the
    reference program's `main_v398`, given that the results of lookup 2 correspond and that the kernel program's
    transposed table `main_v4` is the transpose of the reference program's `main_arg13`. -/
theorem corr_cgCoefs (VK : Valuation Cert.KernelIdeal.τ Cert.KernelIdeal.sig (Elt F)) (VR : Valuation Cert.ReferenceIdeal.τ Cert.ReferenceIdeal.sig (Elt F))
    (h78 : ∀ n : Fin 2097152, KV VK Cert.KernelIdeal.main_v78 (ix1 n) = RV VR Cert.ReferenceIdeal.main_v72 (ix2 n 0))
    (hT : ∀ (l : Fin 2) (u : Fin 96), KV VK Cert.KernelIdeal.main_v4 (ix2 l u) = RV VR Cert.ReferenceIdeal.main_arg13 (ix2 u l)) :
    ∀ (l : Fin 2) (n : Fin 2097152), KV VK Cert.KernelIdeal.main_v333 (ix2 l n) = RV VR Cert.ReferenceIdeal.main_v398 (ix2 n l) := by
  intro l n
  show Cert.KernelIdeal.KRead.St10 VK (Proc.devRef .tc Cert.KernelIdeal.main_v333) (ix2 l n) = Cert.ReferenceIdeal.RRead.St11 VR (Proc.devRef .tc Cert.ReferenceIdeal.main_v398) (ix2 n l)
  rw [Cert.KernelIdeal.KRead.out_K5 VK (r := Cert.KernelIdeal.main_v333) (by decide), Cert.ReferenceIdeal.RRead.out_R5 VR (r := Cert.ReferenceIdeal.main_v398) (by decide)]
  refine core_cgCoefs (Cert.KernelIdeal.KRead.St5 VK) (Cert.ReferenceIdeal.RRead.St6 VR) ?_ ?_ l n
  · intro m
    rw [Cert.KernelIdeal.KRead.in_K5 VK (r := Cert.KernelIdeal.main_v78) (by decide), Cert.ReferenceIdeal.RRead.in_R5 VR (r := Cert.ReferenceIdeal.main_v72) (by decide)]
    exact h78 m
  · intro c u
    rw [Cert.KernelIdeal.KRead.in_K5 VK (r := Cert.KernelIdeal.main_v4) (by decide), Cert.ReferenceIdeal.RRead.in_R5 VR (r := Cert.ReferenceIdeal.main_arg13) (by decide)]
    exact hT c u

end Cert.Bridge

end
-- ==== Proof.Block6.lean ====
/-
  Table lookup 6 of the two programs: one row's value of the bilinear interpolation in the 32 × 32 table, the table first
  folded by the triangle wave, at the two coordinates u = (first column of the third argument) · (its second column) and
  v = the first value of lookup 1. The kernel program keeps the row index last (a one-row matrix), the reference program
  keeps it first (a one-column matrix); both compute, row by row, the same scalar from the same three inputs.

  The file has three parts. (1) How the layout operations met here read at an index: a scalar spread over a shape, a
  vector laid along a row or a column, two columns side by side, one column cut out of two, a column read as a vector.
  (2) The arithmetic of one lookup, written once over a vector of u's and a vector of v's: the clipped and scaled
  coordinate, its floor and the floor's successor capped at 31 as integers, a negative integer wrapped by 32, the
  fractional part; the four-corner sum in the row-last layout and in the row-first layout; and what either reads at a row:
  the same scalar expression `b6_core` of the folded table's entries. (3) Each program's chunk computes the
  corresponding four-corner sum of its inputs (read off the chunk alone), and the two inputs agree row by row.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

noncomputable section

namespace Cert.Bridge

open Idealize.ShloMosaic Idealize.ShloMosaic.TcCoe Idealize.SL.Sem Idealize.ShloMosaic.ValueIdx Cert.LibGather2

variable {F : FTy → Type} [FloatOps F]

/-! ## (1) Layout operations read at an index -/

section Lay
variable {α : Type}

/-- A vector laid along the second axis of a one-row matrix reads, at `(l, n)`, the vector at `n`. -/
theorem b6_row {N : Nat} (h : (⟨1, ![N]⟩ : Shape).BroadcastsInDim ⟨2, ![1, N]⟩ ![1]) (x : (⟨1, ![N]⟩ : Shape).Idx → α)
    (l : Fin 1) (n : Fin N) : broadcastInDim ⟨2, ![1, N]⟩ ![1] h x (ix2 l n) = x (ix1 n) :=
  broadcastInDim_apply _ h x _ _ (fun a => match a with
    | ⟨0, _⟩ => by
      show n.val = if N = 1 then 0 else n.val
      have := n.isLt
      split <;> omega)

/-- A vector laid along the first axis of a one-column matrix reads, at `(n, c)`, the vector at `n`. -/
theorem b6_col {N : Nat} (h : (⟨1, ![N]⟩ : Shape).BroadcastsInDim ⟨2, ![N, 1]⟩ ![0]) (x : (⟨1, ![N]⟩ : Shape).Idx → α)
    (n : Fin N) (c : Fin 1) : broadcastInDim ⟨2, ![N, 1]⟩ ![0] h x (ix2 n c) = x (ix1 n) :=
  broadcastInDim_apply _ h x _ _ (fun a => match a with
    | ⟨0, _⟩ => by
      show n.val = if N = 1 then 0 else n.val
      have := n.isLt
      split <;> omega)

/-- Two columns side by side read, in column 0, the first. -/
theorem b6_cat0 {N : Nat} (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) :=
  concatenate_pair_apply_left 1 a b h (ix2 n (0 : Fin 2)) rfl (ix2 n (0 : Fin 1))
    (fun c => match c with | ⟨0, _⟩ => rfl | ⟨1, _⟩ => rfl)

/-- Two columns side by side read, in column 1, the second. -/
theorem b6_cat1 {N : Nat} (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) :=
  concatenate_pair_apply_right 1 a b h (ix2 n (1 : Fin 2)) rfl rfl (ix2 n (0 : Fin 1))
    (fun c hc => match c, hc with
      | ⟨0, _⟩, _ => rfl
      | ⟨1, _⟩, hc => absurd (Fin.ext rfl) hc)
    rfl

/-- Column 0 cut out of two reads, at `(n, z)`, the matrix at `(n, 0)`. -/
theorem b6_cut0 {N : Nat} (X : (⟨2, ![N, 2]⟩ : Shape).Idx → α)
    (h : (⟨2, ![N, 2]⟩ : Shape).Slices ![0, 0] ⟨2, ![N, 1]⟩) (n : Fin N) (z : Fin 1) :
    extractStridedSlice ⟨2, ![N, 1]⟩ ![0, 0] X h (ix2 n z) = X (ix2 n (0 : Fin 2)) :=
  slice2_axis1_apply 0 X h n z 0 (by have := z.isLt; show (0 : Nat) = 0 + z.val; omega)

/-- Column 1 cut out of two reads, at `(n, z)`, the matrix at `(n, 1)`. -/
theorem b6_cut1 {N : Nat} (X : (⟨2, ![N, 2]⟩ : Shape).Idx → α)
    (h : (⟨2, ![N, 2]⟩ : Shape).Slices ![0, 1] ⟨2, ![N, 1]⟩) (n : Fin N) (z : Fin 1) :
    extractStridedSlice ⟨2, ![N, 1]⟩ ![0, 1] X h (ix2 n z) = X (ix2 n (1 : Fin 2)) :=
  slice2_axis1_apply 1 X h n z 1 (by have := z.isLt; show (1 : Nat) = 1 + z.val; omega)

/-- A one-column matrix read as a vector reads, at `n`, the matrix at `(n, 0)`. -/
theorem b6_vec {N : Nat} (x : (⟨2, ![N, 1]⟩ : Shape).Idx → α) (h : (⟨2, ![N, 1]⟩ : Shape).ShapeCasts ⟨1, ![N]⟩)
    (n : Fin N) : shapeCast ⟨1, ![N]⟩ x h (ix1 n) = x (ix2 n (0 : Fin 1)) :=
  shapeCast_apply x h _ _ (by
    rw [Shape.rowMajor_val_two, Shape.rowMajor_val_one]
    show n.val * 1 + 0 = n.val
    omega)

end Lay

/-! ## (2) The arithmetic of one lookup -/

section Core
variable {N : Nat}

/-- The scalar shape. -/
abbrev b6_S0 : Shape := ⟨0, ![]⟩

/-- A coordinate clipped to `[0, 1 − ε]` and scaled by 31, elementwise. -/
def b6_scale (hb : b6_S0.BroadcastsInDim ⟨1, ![N]⟩ ![]) (x : FVec F ⟨1, ![N]⟩ .f32) : FVec F ⟨1, ![N]⟩ .f32 :=
  mulf (minimumf (broadcastInDim ⟨1, ![N]⟩ ![] hb (id (constant b6_S0 .f32 0x3F7FFFEF#32)))
      (maximumf (broadcastInDim ⟨1, ![N]⟩ ![] hb (id (constant b6_S0 .f32 0x00000000#32))) x))
    (broadcastInDim ⟨1, ![N]⟩ ![] hb (constant b6_S0 .f32 0x41F80000#32))

/-- The fractional part of the scaled coordinate. -/
def b6_frac (hb : b6_S0.BroadcastsInDim ⟨1, ![N]⟩ ![]) (x : FVec F ⟨1, ![N]⟩ .f32) : FVec F ⟨1, ![N]⟩ .f32 :=
  subf (b6_scale hb x) (Host.floor (b6_scale hb x))

/-- The floor of the scaled coordinate, as an integer. -/
def b6_i0 (hb : b6_S0.BroadcastsInDim ⟨1, ![N]⟩ ![]) (x : FVec F ⟨1, ![N]⟩ .f32) : IVec ⟨1, ![N]⟩ 32 :=
  fptosi 32 (Host.floor (b6_scale hb x))

/-- Its successor, capped at 31. -/
def b6_i1 (hb : b6_S0.BroadcastsInDim ⟨1, ![N]⟩ ![]) (x : FVec F ⟨1, ![N]⟩ .f32) : IVec ⟨1, ![N]⟩ 32 :=
  minsi (addi (b6_i0 hb x) (broadcastInDim ⟨1, ![N]⟩ ![] hb (constantI b6_S0 32 1#32)))
    (broadcastInDim ⟨1, ![N]⟩ ![] hb (constantI b6_S0 32 31#32))

/-- A negative index counted from the end: 32 added to it. -/
def b6_wrap (hb : b6_S0.BroadcastsInDim ⟨1, ![N]⟩ ![]) (i : IVec ⟨1, ![N]⟩ 32) : IVec ⟨1, ![N]⟩ 32 :=
  select (cmpi .slt i (broadcastInDim ⟨1, ![N]⟩ ![] hb (constantI b6_S0 32 0#32)))
    (addi i (broadcastInDim ⟨1, ![N]⟩ ![] hb (constantI b6_S0 32 32#32))) i

/-- The two wrapped index vectors as the two columns of an array of start indices. -/
def b6_idx (hb : b6_S0.BroadcastsInDim ⟨1, ![N]⟩ ![]) (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1) (i j : IVec ⟨1, ![N]⟩ 32) :
    IVec ⟨2, ![N, 2]⟩ 32 :=
  concatenate ⟨2, ![N, 2]⟩ 1 [⟨⟨2, ![N, 1]⟩, broadcastInDim ⟨2, ![N, 1]⟩ ![0] hcol (b6_wrap hb i)⟩,
    ⟨⟨2, ![N, 1]⟩, broadcastInDim ⟨2, ![N, 1]⟩ ![0] hcol (b6_wrap hb j)⟩] hcat

/-- Row `n` of the start indices: the two wrapped indices at `n`. -/
theorem b6_idx_0 (hb : b6_S0.BroadcastsInDim ⟨1, ![N]⟩ ![]) (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1) (i j : IVec ⟨1, ![N]⟩ 32) (n : Fin N) :
    b6_idx hb hcol hcat i j (ix2 n (0 : Fin 2)) = b6_wrap hb i (ix1 n) := by
  unfold b6_idx
  rw [b6_cat0, b6_col]

theorem b6_idx_1 (hb : b6_S0.BroadcastsInDim ⟨1, ![N]⟩ ![]) (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1) (i j : IVec ⟨1, ![N]⟩ 32) (n : Fin N) :
    b6_idx hb hcol hcat i j (ix2 n (1 : Fin 2)) = b6_wrap hb j (ix1 n) := by
  unfold b6_idx
  rw [b6_cat1, b6_col]

/-- The triangle wave of period 2 applied to a table, elementwise. -/
def b6_tri {s : Shape} (hb : b6_S0.BroadcastsInDim s ![]) (t : FVec F s .f32) : FVec F s .f32 :=
  mulf (broadcastInDim s ![] hb (constant b6_S0 .f32 0x40000000#32))
    (Host.absf (subf (Host.divf t (broadcastInDim s ![] hb (constant b6_S0 .f32 0x40000000#32)))
      (Host.floor (addf (Host.divf t (broadcastInDim s ![] hb (constant b6_S0 .f32 0x40000000#32)))
        (broadcastInDim s ![] hb (constant b6_S0 .f32 0x3F000000#32))))))

/-- The triangle wave of one number. -/
def b6_triS (x : F .f32) : F .f32 :=
  FloatOps.mulf (FloatOps.ofBits .f32 0x40000000#32)
    (FloatOps.hostAbsf (FloatOps.subf (FloatOps.hostDivf x (FloatOps.ofBits .f32 0x40000000#32))
      (FloatOps.hostUnary .floor (FloatOps.addf (FloatOps.hostDivf x (FloatOps.ofBits .f32 0x40000000#32))
        (FloatOps.ofBits .f32 0x3F000000#32)))))

/-- The folded table at an index is the fold of the table's entry there. -/
theorem b6_tri_apply {s : Shape} (hb : b6_S0.BroadcastsInDim s ![]) (t : FVec F s .f32) (j : s.Idx) :
    b6_tri hb t j = b6_triS (t j) := rfl

/-- One row's interpolated value: the four corners of the cell of the (folded) table `t` that holds the scaled `(u, v)`,
    weighted by the fractional parts. -/
def b6_core (hb : b6_S0.BroadcastsInDim ⟨1, ![N]⟩ ![]) (t : Fin 32 → Fin 32 → F .f32) (u v : FVec F ⟨1, ![N]⟩ .f32)
    (n : Fin N) : F .f32 :=
  FloatOps.addf (FloatOps.addf (FloatOps.addf
    (FloatOps.mulf (FloatOps.mulf
      (t (clampIdx 32 (by decide) (b6_wrap hb (b6_i0 hb u) (ix1 n))) (clampIdx 32 (by decide) (b6_wrap hb (b6_i0 hb v) (ix1 n))))
      (FloatOps.subf (FloatOps.ofBits .f32 0x3F800000#32) (b6_frac hb u (ix1 n))))
      (FloatOps.subf (FloatOps.ofBits .f32 0x3F800000#32) (b6_frac hb v (ix1 n))))
    (FloatOps.mulf (FloatOps.mulf
      (t (clampIdx 32 (by decide) (b6_wrap hb (b6_i1 hb u) (ix1 n))) (clampIdx 32 (by decide) (b6_wrap hb (b6_i0 hb v) (ix1 n))))
      (b6_frac hb u (ix1 n)))
      (FloatOps.subf (FloatOps.ofBits .f32 0x3F800000#32) (b6_frac hb v (ix1 n)))))
    (FloatOps.mulf (FloatOps.mulf
      (t (clampIdx 32 (by decide) (b6_wrap hb (b6_i0 hb u) (ix1 n))) (clampIdx 32 (by decide) (b6_wrap hb (b6_i1 hb v) (ix1 n))))
      (FloatOps.subf (FloatOps.ofBits .f32 0x3F800000#32) (b6_frac hb u (ix1 n))))
      (b6_frac hb v (ix1 n))))
    (FloatOps.mulf (FloatOps.mulf
      (t (clampIdx 32 (by decide) (b6_wrap hb (b6_i1 hb u) (ix1 n))) (clampIdx 32 (by decide) (b6_wrap hb (b6_i1 hb v) (ix1 n))))
      (b6_frac hb u (ix1 n)))
      (b6_frac hb v (ix1 n)))

/-- The four-corner sum with the row index LAST: the table `[1 × 32 × 32]`, the fractions laid along a row. -/
def b6_outK (d : GatherDims ⟨3, ![1, 32, 32]⟩ ⟨2, ![N, 2]⟩ ⟨2, ![1, N]⟩) (hb : b6_S0.BroadcastsInDim ⟨1, ![N]⟩ ![])
    (hb1 : b6_S0.BroadcastsInDim ⟨2, ![1, N]⟩ ![]) (hrow : (⟨1, ![N]⟩ : Shape).BroadcastsInDim ⟨2, ![1, N]⟩ ![1])
    (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (T : FVec F ⟨3, ![1, 32, 32]⟩ .f32) (u v : FVec F ⟨1, ![N]⟩ .f32) : FVec F ⟨2, ![1, N]⟩ .f32 :=
  addf (addf (addf
    (mulf (mulf (Host.gather d T (b6_idx hb hcol hcat (b6_i0 hb u) (b6_i0 hb v)))
      (subf (broadcastInDim ⟨2, ![1, N]⟩ ![] hb1 (constant b6_S0 .f32 0x3F800000#32)) (broadcastInDim ⟨2, ![1, N]⟩ ![1] hrow (b6_frac hb u))))
      (subf (broadcastInDim ⟨2, ![1, N]⟩ ![] hb1 (constant b6_S0 .f32 0x3F800000#32)) (broadcastInDim ⟨2, ![1, N]⟩ ![1] hrow (b6_frac hb v))))
    (mulf (mulf (Host.gather d T (b6_idx hb hcol hcat (b6_i1 hb u) (b6_i0 hb v)))
      (broadcastInDim ⟨2, ![1, N]⟩ ![1] hrow (b6_frac hb u)))
      (subf (broadcastInDim ⟨2, ![1, N]⟩ ![] hb1 (constant b6_S0 .f32 0x3F800000#32)) (broadcastInDim ⟨2, ![1, N]⟩ ![1] hrow (b6_frac hb v)))))
    (mulf (mulf (Host.gather d T (b6_idx hb hcol hcat (b6_i0 hb u) (b6_i1 hb v)))
      (subf (broadcastInDim ⟨2, ![1, N]⟩ ![] hb1 (constant b6_S0 .f32 0x3F800000#32)) (broadcastInDim ⟨2, ![1, N]⟩ ![1] hrow (b6_frac hb u))))
      (broadcastInDim ⟨2, ![1, N]⟩ ![1] hrow (b6_frac hb v))))
    (mulf (mulf (Host.gather d T (b6_idx hb hcol hcat (b6_i1 hb u) (b6_i1 hb v)))
      (broadcastInDim ⟨2, ![1, N]⟩ ![1] hrow (b6_frac hb u)))
      (broadcastInDim ⟨2, ![1, N]⟩ ![1] hrow (b6_frac hb v)))

/-- The four-corner sum with the row index FIRST: the table `[32 × 32 × 1]`, the fractions laid along a column. -/
def b6_outR (d : GatherDims ⟨3, ![32, 32, 1]⟩ ⟨2, ![N, 2]⟩ ⟨2, ![N, 1]⟩) (hb : b6_S0.BroadcastsInDim ⟨1, ![N]⟩ ![])
    (hb1 : b6_S0.BroadcastsInDim ⟨2, ![N, 1]⟩ ![])
    (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (T : FVec F ⟨3, ![32, 32, 1]⟩ .f32) (u v : FVec F ⟨1, ![N]⟩ .f32) : FVec F ⟨2, ![N, 1]⟩ .f32 :=
  addf (addf (addf
    (mulf (mulf (Host.gather d T (b6_idx hb hcol hcat (b6_i0 hb u) (b6_i0 hb v)))
      (subf (broadcastInDim ⟨2, ![N, 1]⟩ ![] hb1 (constant b6_S0 .f32 0x3F800000#32)) (broadcastInDim ⟨2, ![N, 1]⟩ ![0] hcol (b6_frac hb u))))
      (subf (broadcastInDim ⟨2, ![N, 1]⟩ ![] hb1 (constant b6_S0 .f32 0x3F800000#32)) (broadcastInDim ⟨2, ![N, 1]⟩ ![0] hcol (b6_frac hb v))))
    (mulf (mulf (Host.gather d T (b6_idx hb hcol hcat (b6_i1 hb u) (b6_i0 hb v)))
      (broadcastInDim ⟨2, ![N, 1]⟩ ![0] hcol (b6_frac hb u)))
      (subf (broadcastInDim ⟨2, ![N, 1]⟩ ![] hb1 (constant b6_S0 .f32 0x3F800000#32)) (broadcastInDim ⟨2, ![N, 1]⟩ ![0] hcol (b6_frac hb v)))))
    (mulf (mulf (Host.gather d T (b6_idx hb hcol hcat (b6_i0 hb u) (b6_i1 hb v)))
      (subf (broadcastInDim ⟨2, ![N, 1]⟩ ![] hb1 (constant b6_S0 .f32 0x3F800000#32)) (broadcastInDim ⟨2, ![N, 1]⟩ ![0] hcol (b6_frac hb u))))
      (broadcastInDim ⟨2, ![N, 1]⟩ ![0] hcol (b6_frac hb v))))
    (mulf (mulf (Host.gather d T (b6_idx hb hcol hcat (b6_i1 hb u) (b6_i1 hb v)))
      (broadcastInDim ⟨2, ![N, 1]⟩ ![0] hcol (b6_frac hb u)))
      (broadcastInDim ⟨2, ![N, 1]⟩ ![0] hcol (b6_frac hb v)))

/-- One corner in the row-last layout: the table at the two wrapped indices of row `n`, each read signed and clamped. -/
theorem b6_cornerK (d : GatherDims ⟨3, ![1, 32, 32]⟩ ⟨2, ![N, 2]⟩ ⟨2, ![1, N]⟩)
    (hod : d.offsetDims = [0]) (hcoll : d.collapsedSliceDims = [1, 2]) (hob : d.operandBatchingDims = [])
    (hsim : d.startIndexMap = [1, 2]) (hivd : d.indexVectorDim = 1)
    (hb : b6_S0.BroadcastsInDim ⟨1, ![N]⟩ ![]) (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (T : FVec F ⟨3, ![1, 32, 32]⟩ .f32) (i j : IVec ⟨1, ![N]⟩ 32) (l : Fin 1) (n : Fin N) :
    Host.gather d T (b6_idx hb hcol hcat i j) (ix2 l n)
      = T (ix3 l (clampIdx 32 (by decide) (b6_wrap hb i (ix1 n))) (clampIdx 32 (by decide) (b6_wrap hb j (ix1 n)))) := by
  rw [gather_last2 d hod hcoll hob hsim hivd (by decide) (by decide), b6_idx_0, b6_idx_1]

/-- One corner in the row-first layout. -/
theorem b6_cornerR (d : GatherDims ⟨3, ![32, 32, 1]⟩ ⟨2, ![N, 2]⟩ ⟨2, ![N, 1]⟩)
    (hod : d.offsetDims = [1]) (hcoll : d.collapsedSliceDims = [0, 1]) (hob : d.operandBatchingDims = [])
    (hsim : d.startIndexMap = [0, 1]) (hivd : d.indexVectorDim = 1)
    (hb : b6_S0.BroadcastsInDim ⟨1, ![N]⟩ ![]) (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (T : FVec F ⟨3, ![32, 32, 1]⟩ .f32) (i j : IVec ⟨1, ![N]⟩ 32) (n : Fin N) (l : Fin 1) :
    Host.gather d T (b6_idx hb hcol hcat i j) (ix2 n l)
      = T (ix3 (clampIdx 32 (by decide) (b6_wrap hb i (ix1 n))) (clampIdx 32 (by decide) (b6_wrap hb j (ix1 n))) l) := by
  rw [gather_first2 d hod hcoll hob hsim hivd (by decide) (by decide), b6_idx_0, b6_idx_1]

/-- The row-last sum at `(l, n)` is row `n`'s interpolated value in the table's plane `l`. -/
theorem b6_outK_apply (d : GatherDims ⟨3, ![1, 32, 32]⟩ ⟨2, ![N, 2]⟩ ⟨2, ![1, N]⟩)
    (hod : d.offsetDims = [0]) (hcoll : d.collapsedSliceDims = [1, 2]) (hob : d.operandBatchingDims = [])
    (hsim : d.startIndexMap = [1, 2]) (hivd : d.indexVectorDim = 1)
    (hb : b6_S0.BroadcastsInDim ⟨1, ![N]⟩ ![])
    (hb1 : b6_S0.BroadcastsInDim ⟨2, ![1, N]⟩ ![]) (hrow : (⟨1, ![N]⟩ : Shape).BroadcastsInDim ⟨2, ![1, N]⟩ ![1])
    (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (T : FVec F ⟨3, ![1, 32, 32]⟩ .f32) (u v : FVec F ⟨1, ![N]⟩ .f32) (l : Fin 1) (n : Fin N) :
    b6_outK d hb hb1 hrow hcol hcat T u v (ix2 l n) = b6_core hb (fun a b => T (ix3 l a b)) u v n := by
  have hfu : broadcastInDim ⟨2, ![1, N]⟩ ![1] hrow (b6_frac hb u) (ix2 l n) = b6_frac hb u (ix1 n) := b6_row hrow _ l n
  have hfv : broadcastInDim ⟨2, ![1, N]⟩ ![1] hrow (b6_frac hb v) (ix2 l n) = b6_frac hb v (ix1 n) := b6_row hrow _ l n
  show FloatOps.addf (FloatOps.addf (FloatOps.addf
    (FloatOps.mulf (FloatOps.mulf (Host.gather d T (b6_idx hb hcol hcat (b6_i0 hb u) (b6_i0 hb v)) (ix2 l n))
      (FloatOps.subf (FloatOps.ofBits .f32 0x3F800000#32) (broadcastInDim ⟨2, ![1, N]⟩ ![1] hrow (b6_frac hb u) (ix2 l n))))
      (FloatOps.subf (FloatOps.ofBits .f32 0x3F800000#32) (broadcastInDim ⟨2, ![1, N]⟩ ![1] hrow (b6_frac hb v) (ix2 l n))))
    (FloatOps.mulf (FloatOps.mulf (Host.gather d T (b6_idx hb hcol hcat (b6_i1 hb u) (b6_i0 hb v)) (ix2 l n))
      (broadcastInDim ⟨2, ![1, N]⟩ ![1] hrow (b6_frac hb u) (ix2 l n)))
      (FloatOps.subf (FloatOps.ofBits .f32 0x3F800000#32) (broadcastInDim ⟨2, ![1, N]⟩ ![1] hrow (b6_frac hb v) (ix2 l n)))))
    (FloatOps.mulf (FloatOps.mulf (Host.gather d T (b6_idx hb hcol hcat (b6_i0 hb u) (b6_i1 hb v)) (ix2 l n))
      (FloatOps.subf (FloatOps.ofBits .f32 0x3F800000#32) (broadcastInDim ⟨2, ![1, N]⟩ ![1] hrow (b6_frac hb u) (ix2 l n))))
      (broadcastInDim ⟨2, ![1, N]⟩ ![1] hrow (b6_frac hb v) (ix2 l n))))
    (FloatOps.mulf (FloatOps.mulf (Host.gather d T (b6_idx hb hcol hcat (b6_i1 hb u) (b6_i1 hb v)) (ix2 l n))
      (broadcastInDim ⟨2, ![1, N]⟩ ![1] hrow (b6_frac hb u) (ix2 l n)))
      (broadcastInDim ⟨2, ![1, N]⟩ ![1] hrow (b6_frac hb v) (ix2 l n))) = _
  rw [hfu, hfv, b6_cornerK d hod hcoll hob hsim hivd, b6_cornerK d hod hcoll hob hsim hivd,
    b6_cornerK d hod hcoll hob hsim hivd, b6_cornerK d hod hcoll hob hsim hivd]
  rfl

/-- The row-first sum at `(n, l)` is row `n`'s interpolated value in the table's plane `l`. -/
theorem b6_outR_apply (d : GatherDims ⟨3, ![32, 32, 1]⟩ ⟨2, ![N, 2]⟩ ⟨2, ![N, 1]⟩)
    (hod : d.offsetDims = [1]) (hcoll : d.collapsedSliceDims = [0, 1]) (hob : d.operandBatchingDims = [])
    (hsim : d.startIndexMap = [0, 1]) (hivd : d.indexVectorDim = 1)
    (hb : b6_S0.BroadcastsInDim ⟨1, ![N]⟩ ![])
    (hb1 : b6_S0.BroadcastsInDim ⟨2, ![N, 1]⟩ ![])
    (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (T : FVec F ⟨3, ![32, 32, 1]⟩ .f32) (u v : FVec F ⟨1, ![N]⟩ .f32) (n : Fin N) (l : Fin 1) :
    b6_outR d hb hb1 hcol hcat T u v (ix2 n l) = b6_core hb (fun a b => T (ix3 a b l)) u v n := by
  have hfu : broadcastInDim ⟨2, ![N, 1]⟩ ![0] hcol (b6_frac hb u) (ix2 n l) = b6_frac hb u (ix1 n) := b6_col hcol _ n l
  have hfv : broadcastInDim ⟨2, ![N, 1]⟩ ![0] hcol (b6_frac hb v) (ix2 n l) = b6_frac hb v (ix1 n) := b6_col hcol _ n l
  show FloatOps.addf (FloatOps.addf (FloatOps.addf
    (FloatOps.mulf (FloatOps.mulf (Host.gather d T (b6_idx hb hcol hcat (b6_i0 hb u) (b6_i0 hb v)) (ix2 n l))
      (FloatOps.subf (FloatOps.ofBits .f32 0x3F800000#32) (broadcastInDim ⟨2, ![N, 1]⟩ ![0] hcol (b6_frac hb u) (ix2 n l))))
      (FloatOps.subf (FloatOps.ofBits .f32 0x3F800000#32) (broadcastInDim ⟨2, ![N, 1]⟩ ![0] hcol (b6_frac hb v) (ix2 n l))))
    (FloatOps.mulf (FloatOps.mulf (Host.gather d T (b6_idx hb hcol hcat (b6_i1 hb u) (b6_i0 hb v)) (ix2 n l))
      (broadcastInDim ⟨2, ![N, 1]⟩ ![0] hcol (b6_frac hb u) (ix2 n l)))
      (FloatOps.subf (FloatOps.ofBits .f32 0x3F800000#32) (broadcastInDim ⟨2, ![N, 1]⟩ ![0] hcol (b6_frac hb v) (ix2 n l)))))
    (FloatOps.mulf (FloatOps.mulf (Host.gather d T (b6_idx hb hcol hcat (b6_i0 hb u) (b6_i1 hb v)) (ix2 n l))
      (FloatOps.subf (FloatOps.ofBits .f32 0x3F800000#32) (broadcastInDim ⟨2, ![N, 1]⟩ ![0] hcol (b6_frac hb u) (ix2 n l))))
      (broadcastInDim ⟨2, ![N, 1]⟩ ![0] hcol (b6_frac hb v) (ix2 n l))))
    (FloatOps.mulf (FloatOps.mulf (Host.gather d T (b6_idx hb hcol hcat (b6_i1 hb u) (b6_i1 hb v)) (ix2 n l))
      (broadcastInDim ⟨2, ![N, 1]⟩ ![0] hcol (b6_frac hb u) (ix2 n l)))
      (broadcastInDim ⟨2, ![N, 1]⟩ ![0] hcol (b6_frac hb v) (ix2 n l))) = _
  rw [hfu, hfv, b6_cornerR d hod hcoll hob hsim hivd, b6_cornerR d hod hcoll hob hsim hivd,
    b6_cornerR d hod hcoll hob hsim hivd, b6_cornerR d hod hcoll hob hsim hivd]
  rfl

end Core

/-! ## (3) The two programs' inputs and chunks -/

section Inputs
variable {N : Nat}

/-- The kernel program's u: the product of the two columns of the array of pairs, each column read as a vector. -/
def b6_uK (hs0 : (⟨2, ![N, 2]⟩ : Shape).Slices ![0, 0] ⟨2, ![N, 1]⟩) (hs1 : (⟨2, ![N, 2]⟩ : Shape).Slices ![0, 1] ⟨2, ![N, 1]⟩)
    (hc : (⟨2, ![N, 1]⟩ : Shape).ShapeCasts ⟨1, ![N]⟩) (A : FVec F ⟨2, ![N, 2]⟩ .f32) : FVec F ⟨1, ![N]⟩ .f32 :=
  mulf (shapeCast ⟨1, ![N]⟩ (extractStridedSlice ⟨2, ![N, 1]⟩ ![0, 0] A hs0) hc)
    (shapeCast ⟨1, ![N]⟩ (extractStridedSlice ⟨2, ![N, 1]⟩ ![0, 1] A hs1) hc)

theorem b6_uK_apply (hs0 : (⟨2, ![N, 2]⟩ : Shape).Slices ![0, 0] ⟨2, ![N, 1]⟩) (hs1 : (⟨2, ![N, 2]⟩ : Shape).Slices ![0, 1] ⟨2, ![N, 1]⟩)
    (hc : (⟨2, ![N, 1]⟩ : Shape).ShapeCasts ⟨1, ![N]⟩) (A : FVec F ⟨2, ![N, 2]⟩ .f32) (n : Fin N) :
    b6_uK hs0 hs1 hc A (ix1 n) = FloatOps.mulf (A (ix2 n (0 : Fin 2))) (A (ix2 n (1 : Fin 2))) := by
  show FloatOps.mulf (shapeCast ⟨1, ![N]⟩ (extractStridedSlice ⟨2, ![N, 1]⟩ ![0, 0] A hs0) hc (ix1 n))
    (shapeCast ⟨1, ![N]⟩ (extractStridedSlice ⟨2, ![N, 1]⟩ ![0, 1] A hs1) hc (ix1 n)) = _
  rw [b6_vec, b6_vec, b6_cut0, b6_cut1]

/-- The reference program's pair of coordinates: the product of the two columns of the array of pairs beside the first
    column of lookup 1's result. -/
def b6_pairR (hs0 : (⟨2, ![N, 2]⟩ : Shape).Slices ![0, 0] ⟨2, ![N, 1]⟩) (hs1 : (⟨2, ![N, 2]⟩ : Shape).Slices ![0, 1] ⟨2, ![N, 1]⟩)
    (hcat : Shape.Concatenates [(⟨2, ![N, 1]⟩ : Shape), ⟨2, ![N, 1]⟩] ⟨2, ![N, 2]⟩ 1)
    (A B : FVec F ⟨2, ![N, 2]⟩ .f32) : FVec F ⟨2, ![N, 2]⟩ .f32 :=
  concatenate ⟨2, ![N, 2]⟩ 1 [⟨⟨2, ![N, 1]⟩, mulf (extractStridedSlice ⟨2, ![N, 1]⟩ ![0, 0] A hs0) (extractStridedSlice ⟨2, ![N, 1]⟩ ![0, 1] A hs1)⟩,
    ⟨⟨2, ![N, 1]⟩, extractStridedSlice ⟨2, ![N, 1]⟩ ![0, 0] B hs0⟩] hcat

/-- The reference program's u: column 0 of the pair, as a vector. -/
def b6_uR (hs0 : (⟨2, ![N, 2]⟩ : Shape).Slices ![0, 0] ⟨2, ![N, 1]⟩) (hs1 : (⟨2, ![N, 2]⟩ : Shape).Slices ![0, 1] ⟨2, ![N, 1]⟩)
    (hc : (⟨2, ![N, 1]⟩ : Shape).ShapeCasts ⟨1, ![N]⟩)
    (hcat : Shape.Concatenates [(⟨2, ![N, 1]⟩ : Shape), ⟨2, ![N, 1]⟩] ⟨2, ![N, 2]⟩ 1)
    (A B : FVec F ⟨2, ![N, 2]⟩ .f32) : FVec F ⟨1, ![N]⟩ .f32 :=
  shapeCast ⟨1, ![N]⟩ (extractStridedSlice ⟨2, ![N, 1]⟩ ![0, 0] (b6_pairR hs0 hs1 hcat A B) hs0) hc

/-- The reference program's v: column 1 of the pair, as a vector. -/
def b6_vR (hs0 : (⟨2, ![N, 2]⟩ : Shape).Slices ![0, 0] ⟨2, ![N, 1]⟩) (hs1 : (⟨2, ![N, 2]⟩ : Shape).Slices ![0, 1] ⟨2, ![N, 1]⟩)
    (hc : (⟨2, ![N, 1]⟩ : Shape).ShapeCasts ⟨1, ![N]⟩)
    (hcat : Shape.Concatenates [(⟨2, ![N, 1]⟩ : Shape), ⟨2, ![N, 1]⟩] ⟨2, ![N, 2]⟩ 1)
    (A B : FVec F ⟨2, ![N, 2]⟩ .f32) : FVec F ⟨1, ![N]⟩ .f32 :=
  shapeCast ⟨1, ![N]⟩ (extractStridedSlice ⟨2, ![N, 1]⟩ ![0, 1] (b6_pairR hs0 hs1 hcat A B) hs1) hc

theorem b6_uR_apply (hs0 : (⟨2, ![N, 2]⟩ : Shape).Slices ![0, 0] ⟨2, ![N, 1]⟩) (hs1 : (⟨2, ![N, 2]⟩ : Shape).Slices ![0, 1] ⟨2, ![N, 1]⟩)
    (hc : (⟨2, ![N, 1]⟩ : Shape).ShapeCasts ⟨1, ![N]⟩)
    (hcat : Shape.Concatenates [(⟨2, ![N, 1]⟩ : Shape), ⟨2, ![N, 1]⟩] ⟨2, ![N, 2]⟩ 1)
    (A B : FVec F ⟨2, ![N, 2]⟩ .f32) (n : Fin N) :
    b6_uR hs0 hs1 hc hcat A B (ix1 n) = FloatOps.mulf (A (ix2 n (0 : Fin 2))) (A (ix2 n (1 : Fin 2))) := by
  unfold b6_uR b6_pairR
  rw [b6_vec, b6_cut0, b6_cat0]
  show FloatOps.mulf (extractStridedSlice ⟨2, ![N, 1]⟩ ![0, 0] A hs0 (ix2 n (0 : Fin 1)))
    (extractStridedSlice ⟨2, ![N, 1]⟩ ![0, 1] A hs1 (ix2 n (0 : Fin 1))) = _
  rw [b6_cut0, b6_cut1]

theorem b6_vR_apply (hs0 : (⟨2, ![N, 2]⟩ : Shape).Slices ![0, 0] ⟨2, ![N, 1]⟩) (hs1 : (⟨2, ![N, 2]⟩ : Shape).Slices ![0, 1] ⟨2, ![N, 1]⟩)
    (hc : (⟨2, ![N, 1]⟩ : Shape).ShapeCasts ⟨1, ![N]⟩)
    (hcat : Shape.Concatenates [(⟨2, ![N, 1]⟩ : Shape), ⟨2, ![N, 1]⟩] ⟨2, ![N, 2]⟩ 1)
    (A B : FVec F ⟨2, ![N, 2]⟩ .f32) (n : Fin N) :
    b6_vR hs0 hs1 hc hcat A B (ix1 n) = B (ix2 n (0 : Fin 2)) := by
  unfold b6_vR b6_pairR
  rw [b6_vec, b6_cut1, b6_cat1, b6_cut0]

end Inputs

/-! ## A chunk run in three pieces -/

section Pieces
variable {N : Nat}

/-- A line of operations run in three consecutive pieces: the first `a`, the next `b`, the rest. -/
theorem b6_after3 {τ : Topo} {sig : RefSig} {Val : EltTy → Type} (a b : Nat) (ops : List (HloOp τ sig Val))
    (V : Valuation τ sig Val) :
    StableHlo.after ops V
      = StableHlo.after ((ops.drop a).drop b) (StableHlo.after ((ops.drop a).take b) (StableHlo.after (ops.take a) V)) := by
  rw [← Cert.LibAfter.after_append, ← Cert.LibAfter.after_append, List.take_append_drop, List.take_append_drop]

/-- The first two corners added, in either layout: table `T`, fractions `fu`, `fv` already laid out like the result. -/
def b6_half1 {s t : Shape} (d : GatherDims s ⟨2, ![N, 2]⟩ t) (hb : b6_S0.BroadcastsInDim ⟨1, ![N]⟩ ![])
    (hb1 : b6_S0.BroadcastsInDim t ![]) (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (T : FVec F s .f32) (fu fv : FVec F t .f32) (iu0 iv0 iu1 : IVec ⟨1, ![N]⟩ 32) : FVec F t .f32 :=
  addf
    (mulf (mulf (Host.gather d T (b6_idx hb hcol hcat iu0 iv0))
      (subf (broadcastInDim t ![] hb1 (constant b6_S0 .f32 0x3F800000#32)) fu))
      (subf (broadcastInDim t ![] hb1 (constant b6_S0 .f32 0x3F800000#32)) fv))
    (mulf (mulf (Host.gather d T (b6_idx hb hcol hcat iu1 iv0)) fu)
      (subf (broadcastInDim t ![] hb1 (constant b6_S0 .f32 0x3F800000#32)) fv))

/-- The last two corners added to the first two. -/
def b6_half2 {s t : Shape} (d : GatherDims s ⟨2, ![N, 2]⟩ t) (hb : b6_S0.BroadcastsInDim ⟨1, ![N]⟩ ![])
    (hb1 : b6_S0.BroadcastsInDim t ![]) (hcol : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (acc : FVec F t .f32) (T : FVec F s .f32) (fu fv : FVec F t .f32) (iu0 iu1 iv1 : IVec ⟨1, ![N]⟩ 32) : FVec F t .f32 :=
  addf (addf acc
    (mulf (mulf (Host.gather d T (b6_idx hb hcol hcat iu0 iv1))
      (subf (broadcastInDim t ![] hb1 (constant b6_S0 .f32 0x3F800000#32)) fu)) fv))
    (mulf (mulf (Host.gather d T (b6_idx hb hcol hcat iu1 iv1)) fu) fv)

end Pieces

open Idealize.ShloMosaic.StableHlo in
set_option maxHeartbeats 4000000 in
set_option maxRecDepth 16384 in
/-- The kernel chunk's first piece (the folded table, the two fractions laid along a row, the four index vectors). -/
theorem b6_kA (W : Valuation Cert.KernelIdeal.τ Cert.KernelIdeal.sig (Elt F)) :
    StableHlo.after (Cert.KernelIdeal.Chunks.K6.take 62) W (Proc.devRef .tc Cert.KernelIdeal.main_v349)
        = b6_tri (s := ⟨3, ![1, 32, 32]⟩) Cert.KernelIdeal.Facts₀.bcast_S_S1x32x32 (W (Proc.devRef .tc Cert.KernelIdeal.main_v5))
    ∧ StableHlo.after (Cert.KernelIdeal.Chunks.K6.take 62) W (Proc.devRef .tc Cert.KernelIdeal.main_v359)
        = broadcastInDim ⟨2, ![1, 2097152]⟩ ![1] Cert.KernelIdeal.Facts₀.bcast_S2097152_S1x2097152_1 (b6_frac Cert.KernelIdeal.Facts₀.bcast_S_S2097152 (b6_uK Cert.KernelIdeal.Facts₀.slices_S2097152x2_S2097152x1_0_0 Cert.KernelIdeal.Facts₀.slices_S2097152x2_S2097152x1_0_1 Cert.KernelIdeal.Facts₀.shapeCasts_S2097152x1_S2097152 (W (Proc.devRef .tc Cert.KernelIdeal.main_arg2))))
    ∧ StableHlo.after (Cert.KernelIdeal.Chunks.K6.take 62) W (Proc.devRef .tc Cert.KernelIdeal.main_v361)
        = broadcastInDim ⟨2, ![1, 2097152]⟩ ![1] Cert.KernelIdeal.Facts₀.bcast_S2097152_S1x2097152_1 (b6_frac Cert.KernelIdeal.Facts₀.bcast_S_S2097152 (W (Proc.devRef .tc Cert.KernelIdeal.main_v50)))
    ∧ StableHlo.after (Cert.KernelIdeal.Chunks.K6.take 62) W (Proc.devRef .tc Cert.KernelIdeal.main_v362) = b6_i0 Cert.KernelIdeal.Facts₀.bcast_S_S2097152 (b6_uK Cert.KernelIdeal.Facts₀.slices_S2097152x2_S2097152x1_0_0 Cert.KernelIdeal.Facts₀.slices_S2097152x2_S2097152x1_0_1 Cert.KernelIdeal.Facts₀.shapeCasts_S2097152x1_S2097152 (W (Proc.devRef .tc Cert.KernelIdeal.main_arg2)))
    ∧ StableHlo.after (Cert.KernelIdeal.Chunks.K6.take 62) W (Proc.devRef .tc Cert.KernelIdeal.main_v363) = b6_i0 Cert.KernelIdeal.Facts₀.bcast_S_S2097152 (W (Proc.devRef .tc Cert.KernelIdeal.main_v50))
    ∧ StableHlo.after (Cert.KernelIdeal.Chunks.K6.take 62) W (Proc.devRef .tc Cert.KernelIdeal.main_v367) = b6_i1 Cert.KernelIdeal.Facts₀.bcast_S_S2097152 (b6_uK Cert.KernelIdeal.Facts₀.slices_S2097152x2_S2097152x1_0_0 Cert.KernelIdeal.Facts₀.slices_S2097152x2_S2097152x1_0_1 Cert.KernelIdeal.Facts₀.shapeCasts_S2097152x1_S2097152 (W (Proc.devRef .tc Cert.KernelIdeal.main_arg2)))
    ∧ StableHlo.after (Cert.KernelIdeal.Chunks.K6.take 62) W (Proc.devRef .tc Cert.KernelIdeal.main_v371) = b6_i1 Cert.KernelIdeal.Facts₀.bcast_S_S2097152 (W (Proc.devRef .tc Cert.KernelIdeal.main_v50)) := by
  simp only [Cert.KernelIdeal.Chunks.K6, List.take_succ_cons, List.take_zero, List.drop_succ_cons, List.drop_zero]
  after_results_simp
  exact ⟨rfl, rfl, rfl, rfl, rfl, rfl, rfl⟩

open Idealize.ShloMosaic.StableHlo in
set_option maxHeartbeats 4000000 in
set_option maxRecDepth 16384 in
/-- The kernel chunk's second piece: the first two corners, and what it leaves alone. -/
theorem b6_kB (W : Valuation Cert.KernelIdeal.τ Cert.KernelIdeal.sig (Elt F)) :
    StableHlo.after ((Cert.KernelIdeal.Chunks.K6.drop 62).take 50) W (Proc.devRef .tc Cert.KernelIdeal.main_v410)
        = b6_half1 (N := 2097152) Cert.KernelIdeal.gather_S1x32x32_S2097152x2_S1x2097152_0_12_n_n_12_1_111 Cert.KernelIdeal.Facts₀.bcast_S_S2097152 Cert.KernelIdeal.Facts₀.bcast_S_S1x2097152 Cert.KernelIdeal.Facts₀.bcast_S2097152_S2097152x1_0 Cert.KernelIdeal.Facts₀.concatenates_S2097152x1_S2097152x1_S2097152x2_d1 (W (Proc.devRef .tc Cert.KernelIdeal.main_v349)) (W (Proc.devRef .tc Cert.KernelIdeal.main_v359)) (W (Proc.devRef .tc Cert.KernelIdeal.main_v361))
            (W (Proc.devRef .tc Cert.KernelIdeal.main_v362)) (W (Proc.devRef .tc Cert.KernelIdeal.main_v363)) (W (Proc.devRef .tc Cert.KernelIdeal.main_v367))
    ∧ StableHlo.after ((Cert.KernelIdeal.Chunks.K6.drop 62).take 50) W (Proc.devRef .tc Cert.KernelIdeal.main_v349) = W (Proc.devRef .tc Cert.KernelIdeal.main_v349)
    ∧ StableHlo.after ((Cert.KernelIdeal.Chunks.K6.drop 62).take 50) W (Proc.devRef .tc Cert.KernelIdeal.main_v359) = W (Proc.devRef .tc Cert.KernelIdeal.main_v359)
    ∧ StableHlo.after ((Cert.KernelIdeal.Chunks.K6.drop 62).take 50) W (Proc.devRef .tc Cert.KernelIdeal.main_v361) = W (Proc.devRef .tc Cert.KernelIdeal.main_v361)
    ∧ StableHlo.after ((Cert.KernelIdeal.Chunks.K6.drop 62).take 50) W (Proc.devRef .tc Cert.KernelIdeal.main_v362) = W (Proc.devRef .tc Cert.KernelIdeal.main_v362)
    ∧ StableHlo.after ((Cert.KernelIdeal.Chunks.K6.drop 62).take 50) W (Proc.devRef .tc Cert.KernelIdeal.main_v367) = W (Proc.devRef .tc Cert.KernelIdeal.main_v367)
    ∧ StableHlo.after ((Cert.KernelIdeal.Chunks.K6.drop 62).take 50) W (Proc.devRef .tc Cert.KernelIdeal.main_v371) = W (Proc.devRef .tc Cert.KernelIdeal.main_v371) := by
  simp only [Cert.KernelIdeal.Chunks.K6, List.take_succ_cons, List.take_zero, List.drop_succ_cons, List.drop_zero]
  after_results_simp
  exact ⟨rfl, trivial, trivial, trivial, trivial, trivial, trivial⟩

open Idealize.ShloMosaic.StableHlo in
set_option maxHeartbeats 4000000 in
set_option maxRecDepth 16384 in
/-- The kernel chunk's third piece: the last two corners added to the first two. -/
theorem b6_kC (W : Valuation Cert.KernelIdeal.τ Cert.KernelIdeal.sig (Elt F)) :
    StableHlo.after ((Cert.KernelIdeal.Chunks.K6.drop 62).drop 50) W (Proc.devRef .tc Cert.KernelIdeal.main_v446)
      = b6_half2 (N := 2097152) Cert.KernelIdeal.gather_S1x32x32_S2097152x2_S1x2097152_0_12_n_n_12_1_111 Cert.KernelIdeal.Facts₀.bcast_S_S2097152 Cert.KernelIdeal.Facts₀.bcast_S_S1x2097152 Cert.KernelIdeal.Facts₀.bcast_S2097152_S2097152x1_0 Cert.KernelIdeal.Facts₀.concatenates_S2097152x1_S2097152x1_S2097152x2_d1 (W (Proc.devRef .tc Cert.KernelIdeal.main_v410)) (W (Proc.devRef .tc Cert.KernelIdeal.main_v349)) (W (Proc.devRef .tc Cert.KernelIdeal.main_v359)) (W (Proc.devRef .tc Cert.KernelIdeal.main_v361))
          (W (Proc.devRef .tc Cert.KernelIdeal.main_v362)) (W (Proc.devRef .tc Cert.KernelIdeal.main_v367)) (W (Proc.devRef .tc Cert.KernelIdeal.main_v371)) := by
  simp only [Cert.KernelIdeal.Chunks.K6, List.take_succ_cons, List.take_zero, List.drop_succ_cons, List.drop_zero]
  after_results_simp
  rfl

/-- The kernel program's chunk 6 leaves in its last buffer the row-last four-corner sum of the folded transposed table, the
    product of the pair's columns and lookup 1's first value, whatever the contents it starts from. -/
theorem b6_k446 (W : Valuation Cert.KernelIdeal.τ Cert.KernelIdeal.sig (Elt F)) :
    StableHlo.after Cert.KernelIdeal.Chunks.K6 W (Proc.devRef .tc Cert.KernelIdeal.main_v446)
      = b6_outK (N := 2097152) Cert.KernelIdeal.gather_S1x32x32_S2097152x2_S1x2097152_0_12_n_n_12_1_111
          Cert.KernelIdeal.Facts₀.bcast_S_S2097152 Cert.KernelIdeal.Facts₀.bcast_S_S1x2097152
          Cert.KernelIdeal.Facts₀.bcast_S2097152_S1x2097152_1 Cert.KernelIdeal.Facts₀.bcast_S2097152_S2097152x1_0
          Cert.KernelIdeal.Facts₀.concatenates_S2097152x1_S2097152x1_S2097152x2_d1
          (b6_tri (s := ⟨3, ![1, 32, 32]⟩) Cert.KernelIdeal.Facts₀.bcast_S_S1x32x32 (W (Proc.devRef .tc Cert.KernelIdeal.main_v5)))
          (b6_uK Cert.KernelIdeal.Facts₀.slices_S2097152x2_S2097152x1_0_0 Cert.KernelIdeal.Facts₀.slices_S2097152x2_S2097152x1_0_1 Cert.KernelIdeal.Facts₀.shapeCasts_S2097152x1_S2097152 (W (Proc.devRef .tc Cert.KernelIdeal.main_arg2)))
          (W (Proc.devRef .tc Cert.KernelIdeal.main_v50)) := by
  rw [b6_after3 62 50]
  obtain ⟨a1, a2, a3, a4, a5, a6, a7⟩ := b6_kA W
  generalize StableHlo.after (Cert.KernelIdeal.Chunks.K6.take 62) W = W1 at a1 a2 a3 a4 a5 a6 a7 ⊢
  obtain ⟨b1, b2, b3, b4, b5, b6, b7⟩ := b6_kB W1
  generalize StableHlo.after ((Cert.KernelIdeal.Chunks.K6.drop 62).take 50) W1 = W2 at b1 b2 b3 b4 b5 b6 b7 ⊢
  rw [b6_kC W2, b1, b2, b3, b4, b5, b6, b7, a1, a2, a3, a4, a5, a6, a7]
  rfl

open Idealize.ShloMosaic.StableHlo in
set_option maxHeartbeats 4000000 in
set_option maxRecDepth 16384 in
/-- The reference chunk's first piece (the folded table, the two fractions laid along a column, the four index vectors). -/
theorem b6_rA (W : Valuation Cert.ReferenceIdeal.τ Cert.ReferenceIdeal.sig (Elt F)) :
    StableHlo.after (Cert.ReferenceIdeal.Chunks.R6.take 66) W (Proc.devRef .tc Cert.ReferenceIdeal.main_v414)
        = b6_tri (s := ⟨3, ![32, 32, 1]⟩) Cert.ReferenceIdeal.Facts₀.bcast_S_S32x32x1 (W (Proc.devRef .tc Cert.ReferenceIdeal.main_arg14))
    ∧ StableHlo.after (Cert.ReferenceIdeal.Chunks.R6.take 66) W (Proc.devRef .tc Cert.ReferenceIdeal.main_v428)
        = broadcastInDim ⟨2, ![2097152, 1]⟩ ![0] Cert.ReferenceIdeal.Facts₀.bcast_S2097152_S2097152x1_0 (b6_frac Cert.ReferenceIdeal.Facts₀.bcast_S_S2097152 (b6_uR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47))))
    ∧ StableHlo.after (Cert.ReferenceIdeal.Chunks.R6.take 66) W (Proc.devRef .tc Cert.ReferenceIdeal.main_v430)
        = broadcastInDim ⟨2, ![2097152, 1]⟩ ![0] Cert.ReferenceIdeal.Facts₀.bcast_S2097152_S2097152x1_0 (b6_frac Cert.ReferenceIdeal.Facts₀.bcast_S_S2097152 (b6_vR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47))))
    ∧ StableHlo.after (Cert.ReferenceIdeal.Chunks.R6.take 66) W (Proc.devRef .tc Cert.ReferenceIdeal.main_v431) = b6_i0 Cert.ReferenceIdeal.Facts₀.bcast_S_S2097152 (b6_uR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47)))
    ∧ StableHlo.after (Cert.ReferenceIdeal.Chunks.R6.take 66) W (Proc.devRef .tc Cert.ReferenceIdeal.main_v432) = b6_i0 Cert.ReferenceIdeal.Facts₀.bcast_S_S2097152 (b6_vR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47)))
    ∧ StableHlo.after (Cert.ReferenceIdeal.Chunks.R6.take 66) W (Proc.devRef .tc Cert.ReferenceIdeal.main_v436) = b6_i1 Cert.ReferenceIdeal.Facts₀.bcast_S_S2097152 (b6_uR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47)))
    ∧ StableHlo.after (Cert.ReferenceIdeal.Chunks.R6.take 66) W (Proc.devRef .tc Cert.ReferenceIdeal.main_v440) = b6_i1 Cert.ReferenceIdeal.Facts₀.bcast_S_S2097152 (b6_vR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47))) := by
  simp only [Cert.ReferenceIdeal.Chunks.R6, List.take_succ_cons, List.take_zero, List.drop_succ_cons, List.drop_zero]
  after_results_simp
  exact ⟨rfl, rfl, rfl, rfl, rfl, rfl, rfl⟩

open Idealize.ShloMosaic.StableHlo in
set_option maxHeartbeats 4000000 in
set_option maxRecDepth 16384 in
/-- The reference chunk's second piece: the first two corners, and what it leaves alone. -/
theorem b6_rB (W : Valuation Cert.ReferenceIdeal.τ Cert.ReferenceIdeal.sig (Elt F)) :
    StableHlo.after ((Cert.ReferenceIdeal.Chunks.R6.drop 66).take 50) W (Proc.devRef .tc Cert.ReferenceIdeal.main_v479)
        = b6_half1 (N := 2097152) Cert.ReferenceIdeal.gather_S32x32x1_S2097152x2_S2097152x1_1_01_n_n_01_1_111 Cert.ReferenceIdeal.Facts₀.bcast_S_S2097152 Cert.ReferenceIdeal.Facts₀.bcast_S_S2097152x1 Cert.ReferenceIdeal.Facts₀.bcast_S2097152_S2097152x1_0 Cert.ReferenceIdeal.Facts₀.concatenates_S2097152x1_S2097152x1_S2097152x2_d1 (W (Proc.devRef .tc Cert.ReferenceIdeal.main_v414)) (W (Proc.devRef .tc Cert.ReferenceIdeal.main_v428)) (W (Proc.devRef .tc Cert.ReferenceIdeal.main_v430))
            (W (Proc.devRef .tc Cert.ReferenceIdeal.main_v431)) (W (Proc.devRef .tc Cert.ReferenceIdeal.main_v432)) (W (Proc.devRef .tc Cert.ReferenceIdeal.main_v436))
    ∧ StableHlo.after ((Cert.ReferenceIdeal.Chunks.R6.drop 66).take 50) W (Proc.devRef .tc Cert.ReferenceIdeal.main_v414) = W (Proc.devRef .tc Cert.ReferenceIdeal.main_v414)
    ∧ StableHlo.after ((Cert.ReferenceIdeal.Chunks.R6.drop 66).take 50) W (Proc.devRef .tc Cert.ReferenceIdeal.main_v428) = W (Proc.devRef .tc Cert.ReferenceIdeal.main_v428)
    ∧ StableHlo.after ((Cert.ReferenceIdeal.Chunks.R6.drop 66).take 50) W (Proc.devRef .tc Cert.ReferenceIdeal.main_v430) = W (Proc.devRef .tc Cert.ReferenceIdeal.main_v430)
    ∧ StableHlo.after ((Cert.ReferenceIdeal.Chunks.R6.drop 66).take 50) W (Proc.devRef .tc Cert.ReferenceIdeal.main_v431) = W (Proc.devRef .tc Cert.ReferenceIdeal.main_v431)
    ∧ StableHlo.after ((Cert.ReferenceIdeal.Chunks.R6.drop 66).take 50) W (Proc.devRef .tc Cert.ReferenceIdeal.main_v436) = W (Proc.devRef .tc Cert.ReferenceIdeal.main_v436)
    ∧ StableHlo.after ((Cert.ReferenceIdeal.Chunks.R6.drop 66).take 50) W (Proc.devRef .tc Cert.ReferenceIdeal.main_v440) = W (Proc.devRef .tc Cert.ReferenceIdeal.main_v440) := by
  simp only [Cert.ReferenceIdeal.Chunks.R6, List.take_succ_cons, List.take_zero, List.drop_succ_cons, List.drop_zero]
  after_results_simp
  exact ⟨rfl, trivial, trivial, trivial, trivial, trivial, trivial⟩

open Idealize.ShloMosaic.StableHlo in
set_option maxHeartbeats 4000000 in
set_option maxRecDepth 16384 in
/-- The reference chunk's third piece: the last two corners added to the first two. -/
theorem b6_rC (W : Valuation Cert.ReferenceIdeal.τ Cert.ReferenceIdeal.sig (Elt F)) :
    StableHlo.after ((Cert.ReferenceIdeal.Chunks.R6.drop 66).drop 50) W (Proc.devRef .tc Cert.ReferenceIdeal.main_v515)
      = b6_half2 (N := 2097152) Cert.ReferenceIdeal.gather_S32x32x1_S2097152x2_S2097152x1_1_01_n_n_01_1_111 Cert.ReferenceIdeal.Facts₀.bcast_S_S2097152 Cert.ReferenceIdeal.Facts₀.bcast_S_S2097152x1 Cert.ReferenceIdeal.Facts₀.bcast_S2097152_S2097152x1_0 Cert.ReferenceIdeal.Facts₀.concatenates_S2097152x1_S2097152x1_S2097152x2_d1 (W (Proc.devRef .tc Cert.ReferenceIdeal.main_v479)) (W (Proc.devRef .tc Cert.ReferenceIdeal.main_v414)) (W (Proc.devRef .tc Cert.ReferenceIdeal.main_v428)) (W (Proc.devRef .tc Cert.ReferenceIdeal.main_v430))
          (W (Proc.devRef .tc Cert.ReferenceIdeal.main_v431)) (W (Proc.devRef .tc Cert.ReferenceIdeal.main_v436)) (W (Proc.devRef .tc Cert.ReferenceIdeal.main_v440)) := by
  simp only [Cert.ReferenceIdeal.Chunks.R6, List.take_succ_cons, List.take_zero, List.drop_succ_cons, List.drop_zero]
  after_results_simp
  rfl

/-- The reference program's chunk 6 leaves in its last buffer the row-first four-corner sum of the folded table and the two
    columns of its pair of coordinates, whatever the contents it starts from. -/
theorem b6_r515 (W : Valuation Cert.ReferenceIdeal.τ Cert.ReferenceIdeal.sig (Elt F)) :
    StableHlo.after Cert.ReferenceIdeal.Chunks.R6 W (Proc.devRef .tc Cert.ReferenceIdeal.main_v515)
      = b6_outR (N := 2097152) Cert.ReferenceIdeal.gather_S32x32x1_S2097152x2_S2097152x1_1_01_n_n_01_1_111
          Cert.ReferenceIdeal.Facts₀.bcast_S_S2097152 Cert.ReferenceIdeal.Facts₀.bcast_S_S2097152x1
          Cert.ReferenceIdeal.Facts₀.bcast_S2097152_S2097152x1_0
          Cert.ReferenceIdeal.Facts₀.concatenates_S2097152x1_S2097152x1_S2097152x2_d1
          (b6_tri (s := ⟨3, ![32, 32, 1]⟩) Cert.ReferenceIdeal.Facts₀.bcast_S_S32x32x1 (W (Proc.devRef .tc Cert.ReferenceIdeal.main_arg14)))
          (b6_uR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47)))
          (b6_vR Cert.ReferenceIdeal.Facts₀.slices_S2097152x2_S2097152x1_0_0 Cert.ReferenceIdeal.Facts₀.slices_S2097152x2_S2097152x1_0_1 Cert.ReferenceIdeal.Facts₀.shapeCasts_S2097152x1_S2097152 Cert.ReferenceIdeal.Facts₀.concatenates_S2097152x1_S2097152x1_S2097152x2_d1 (W (Proc.devRef .tc Cert.ReferenceIdeal.main_arg2)) (W (Proc.devRef .tc Cert.ReferenceIdeal.main_v47))) := by
  rw [b6_after3 66 50]
  obtain ⟨a1, a2, a3, a4, a5, a6, a7⟩ := b6_rA W
  generalize StableHlo.after (Cert.ReferenceIdeal.Chunks.R6.take 66) W = W1 at a1 a2 a3 a4 a5 a6 a7 ⊢
  obtain ⟨b1, b2, b3, b4, b5, b6, b7⟩ := b6_rB W1
  generalize StableHlo.after ((Cert.ReferenceIdeal.Chunks.R6.drop 66).take 50) W1 = W2 at b1 b2 b3 b4 b5 b6 b7 ⊢
  rw [b6_rC W2, b1, b2, b3, b4, b5, b6, b7, a1, a2, a3, a4, a5, a6, a7]
  rfl

/-! ## The correspondence -/

set_option maxHeartbeats 1000000 in
/-- Lookup 6, row by row: the kernel program's row-last result at `(l, n)` is the reference program's row-first result at
    `(n, l)`, given that the two programs hold the same array of pairs, the kernel's transposed table is the reference's
    table, and the kernel's first value of lookup 1 is the reference's column 0 of lookup 1. -/
theorem corr_vTerm (VK : Valuation Cert.KernelIdeal.τ Cert.KernelIdeal.sig (Elt F)) (VR : Valuation Cert.ReferenceIdeal.τ Cert.ReferenceIdeal.sig (Elt F)) (h2 : KV VK Cert.KernelIdeal.main_arg2 = RV VR Cert.ReferenceIdeal.main_arg2)
    (hT : ∀ (l : Fin 1) (u v : Fin 32), KV VK Cert.KernelIdeal.main_v5 (ix3 l u v) = RV VR Cert.ReferenceIdeal.main_arg14 (ix3 u v l))
    (h50 : ∀ n : Fin 2097152, KV VK Cert.KernelIdeal.main_v50 (ix1 n) = RV VR Cert.ReferenceIdeal.main_v47 (ix2 n 0)) :
    ∀ (l : Fin 1) (n : Fin 2097152), KV VK Cert.KernelIdeal.main_v446 (ix2 l n) = RV VR Cert.ReferenceIdeal.main_v515 (ix2 n l) := by
  intro l n
  -- each side's buffer is what its own chunk left, and the chunk's inputs are the whole program's values there
  have hK : KV VK Cert.KernelIdeal.main_v446
      = b6_outK (N := 2097152) Cert.KernelIdeal.gather_S1x32x32_S2097152x2_S1x2097152_0_12_n_n_12_1_111
          Cert.KernelIdeal.Facts₀.bcast_S_S2097152 Cert.KernelIdeal.Facts₀.bcast_S_S1x2097152
          Cert.KernelIdeal.Facts₀.bcast_S2097152_S1x2097152_1 Cert.KernelIdeal.Facts₀.bcast_S2097152_S2097152x1_0
          Cert.KernelIdeal.Facts₀.concatenates_S2097152x1_S2097152x1_S2097152x2_d1
          (b6_tri (s := ⟨3, ![1, 32, 32]⟩) Cert.KernelIdeal.Facts₀.bcast_S_S1x32x32 (KV VK Cert.KernelIdeal.main_v5))
          (b6_uK Cert.KernelIdeal.Facts₀.slices_S2097152x2_S2097152x1_0_0 Cert.KernelIdeal.Facts₀.slices_S2097152x2_S2097152x1_0_1
            Cert.KernelIdeal.Facts₀.shapeCasts_S2097152x1_S2097152 (KV VK Cert.KernelIdeal.main_arg2))
          (KV VK Cert.KernelIdeal.main_v50) := by
    show Cert.KernelIdeal.KRead.St10 VK (Proc.devRef .tc Cert.KernelIdeal.main_v446) = _
    rw [Cert.KernelIdeal.KRead.out_K6 VK (r := Cert.KernelIdeal.main_v446) (by decide), b6_k446,
      Cert.KernelIdeal.KRead.in_K6 VK (r := Cert.KernelIdeal.main_v5) (by decide),
      Cert.KernelIdeal.KRead.in_K6 VK (r := Cert.KernelIdeal.main_arg2) (by decide),
      Cert.KernelIdeal.KRead.in_K6 VK (r := Cert.KernelIdeal.main_v50) (by decide)]
  have hR : RV VR Cert.ReferenceIdeal.main_v515
      = b6_outR (N := 2097152) Cert.ReferenceIdeal.gather_S32x32x1_S2097152x2_S2097152x1_1_01_n_n_01_1_111
          Cert.ReferenceIdeal.Facts₀.bcast_S_S2097152 Cert.ReferenceIdeal.Facts₀.bcast_S_S2097152x1
          Cert.ReferenceIdeal.Facts₀.bcast_S2097152_S2097152x1_0
          Cert.ReferenceIdeal.Facts₀.concatenates_S2097152x1_S2097152x1_S2097152x2_d1
          (b6_tri (s := ⟨3, ![32, 32, 1]⟩) Cert.ReferenceIdeal.Facts₀.bcast_S_S32x32x1 (RV VR Cert.ReferenceIdeal.main_arg14))
          (b6_uR Cert.ReferenceIdeal.Facts₀.slices_S2097152x2_S2097152x1_0_0 Cert.ReferenceIdeal.Facts₀.slices_S2097152x2_S2097152x1_0_1
            Cert.ReferenceIdeal.Facts₀.shapeCasts_S2097152x1_S2097152
            Cert.ReferenceIdeal.Facts₀.concatenates_S2097152x1_S2097152x1_S2097152x2_d1
            (RV VR Cert.ReferenceIdeal.main_arg2) (RV VR Cert.ReferenceIdeal.main_v47))
          (b6_vR Cert.ReferenceIdeal.Facts₀.slices_S2097152x2_S2097152x1_0_0 Cert.ReferenceIdeal.Facts₀.slices_S2097152x2_S2097152x1_0_1
            Cert.ReferenceIdeal.Facts₀.shapeCasts_S2097152x1_S2097152
            Cert.ReferenceIdeal.Facts₀.concatenates_S2097152x1_S2097152x1_S2097152x2_d1
            (RV VR Cert.ReferenceIdeal.main_arg2) (RV VR Cert.ReferenceIdeal.main_v47)) := by
    show Cert.ReferenceIdeal.RRead.St11 VR (Proc.devRef .tc Cert.ReferenceIdeal.main_v515) = _
    rw [Cert.ReferenceIdeal.RRead.out_R6 VR (r := Cert.ReferenceIdeal.main_v515) (by decide), b6_r515,
      Cert.ReferenceIdeal.RRead.in_R6 VR (r := Cert.ReferenceIdeal.main_arg14) (by decide),
      Cert.ReferenceIdeal.RRead.in_R6 VR (r := Cert.ReferenceIdeal.main_arg2) (by decide),
      Cert.ReferenceIdeal.RRead.in_R6 VR (r := Cert.ReferenceIdeal.main_v47) (by decide)]
  rw [hK, hR, b6_outK_apply _ rfl rfl rfl rfl rfl, b6_outR_apply _ rfl rfl rfl rfl rfl]
  -- the folded tables agree entry by entry
  have et : (fun a b : Fin 32 => b6_tri (s := ⟨3, ![1, 32, 32]⟩) Cert.KernelIdeal.Facts₀.bcast_S_S1x32x32 (KV VK Cert.KernelIdeal.main_v5) (ix3 l a b))
      = fun a b : Fin 32 => b6_tri (s := ⟨3, ![32, 32, 1]⟩) Cert.ReferenceIdeal.Facts₀.bcast_S_S32x32x1 (RV VR Cert.ReferenceIdeal.main_arg14) (ix3 a b l) := by
    funext a b
    rw [b6_tri_apply, b6_tri_apply, hT l a b]
  -- the two u's agree row by row: both are the product of the pair's two entries
  have eu : b6_uK Cert.KernelIdeal.Facts₀.slices_S2097152x2_S2097152x1_0_0 Cert.KernelIdeal.Facts₀.slices_S2097152x2_S2097152x1_0_1
        Cert.KernelIdeal.Facts₀.shapeCasts_S2097152x1_S2097152 (KV VK Cert.KernelIdeal.main_arg2)
      = b6_uR Cert.ReferenceIdeal.Facts₀.slices_S2097152x2_S2097152x1_0_0 Cert.ReferenceIdeal.Facts₀.slices_S2097152x2_S2097152x1_0_1
        Cert.ReferenceIdeal.Facts₀.shapeCasts_S2097152x1_S2097152
        Cert.ReferenceIdeal.Facts₀.concatenates_S2097152x1_S2097152x1_S2097152x2_d1
        (RV VR Cert.ReferenceIdeal.main_arg2) (RV VR Cert.ReferenceIdeal.main_v47) := by
    refine funext fun (j : (⟨1, ![2097152]⟩ : Shape).Idx) => ?_
    obtain ⟨m, rfl⟩ : ∃ m : Fin 2097152, j = ix1 m := ⟨j 0, eq_ix1 j⟩
    rw [b6_uK_apply, b6_uR_apply, h2]
  -- the two v's agree row by row
  have ev : (KV VK Cert.KernelIdeal.main_v50 : FVec F ⟨1, ![2097152]⟩ .f32)
      = b6_vR Cert.ReferenceIdeal.Facts₀.slices_S2097152x2_S2097152x1_0_0 Cert.ReferenceIdeal.Facts₀.slices_S2097152x2_S2097152x1_0_1
        Cert.ReferenceIdeal.Facts₀.shapeCasts_S2097152x1_S2097152
        Cert.ReferenceIdeal.Facts₀.concatenates_S2097152x1_S2097152x1_S2097152x2_d1
        (RV VR Cert.ReferenceIdeal.main_arg2) (RV VR Cert.ReferenceIdeal.main_v47) := by
    refine funext fun (j : (⟨1, ![2097152]⟩ : Shape).Idx) => ?_
    obtain ⟨m, rfl⟩ : ∃ m : Fin 2097152, j = ix1 m := ⟨j 0, eq_ix1 j⟩
    rw [b6_vR_apply]
    exact h50 m
  rw [et, eu, ev]

end Cert.Bridge

end
-- ==== Proof.Block7.lean ====
/-
  Lookup 7 of the two programs, side by side: the bilinear interpolation of the triangle-wave-normalised table
  tabLV (32 × 32 × 4) at the two columns of nDotLV.

  The kernel program keeps every per-row array channel first: its table is the transposed [4 × 32 × 32] one, its two
  interpolation fractions are rows [1 × N], and each of its four gathers yields [4 × N]. The reference keeps them
  channel last: table [32 × 32 × 4], fractions as columns [N × 1], gathers [N × 4]. Operation for operation the two
  chunks compute the same scalars. Read at an index, each gather is one table entry at the row's two clamped start
  indices (the same two integers on both sides, because the index arithmetic is the same term over the same argument),
  each weight is a fraction or one minus it at the row, and the result is the sum of the four entries times their
  weights. The table entries agree because the kernel's table is the reference's transposed and the normalisation is
  entry by entry.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.TcCoe Idealize.SL.Sem Idealize.ShloMosaic.StableHlo
open Idealize.ShloMosaic.ValueIdx Cert.LibGather2

variable {F : FTy → Type} [FloatOps F]

/-! ## Small reading lemmas

Elementwise float operations read at an index, for every float family; a row [1 × N] or a column [N × 1] broadcast
over L rows or columns; a vector [N] laid as a row or as a column; and the two columns of an [N × 2] array made by
joining two [N × 1] columns. -/

private theorem subf_app {s : Shape} {φ : FTy} (a b : FVec F s φ) (i : s.Idx) : subf a b i = FloatOps.subf (a i) (b i) := rfl
private theorem mulf_app {s : Shape} {φ : FTy} (a b : FVec F s φ) (i : s.Idx) : mulf a b i = FloatOps.mulf (a i) (b i) := rfl
private theorem addf_app {s : Shape} {φ : FTy} (a b : FVec F s φ) (i : s.Idx) : addf a b i = FloatOps.addf (a i) (b i) := rfl

/-- A row [1 × N] broadcast to [L × N] reads, at (l, n), the row at n. -/
private theorem bc_row {α : Type} {L N : Nat} (hN : N ≠ 1) (h : (⟨2, ![1, N]⟩ : Shape).BroadcastsInDim ⟨2, ![L, N]⟩ ![0, 1])
    (x : (⟨2, ![1, N]⟩ : Shape).Idx → α) (l : Fin L) (n : Fin N) :
    broadcastInDim ⟨2, ![L, N]⟩ ![0, 1] h x (ix2 l n) = x (ix2 0 n) :=
  broadcastInDim_apply _ h x (ix2 l n) (ix2 0 n) (fun a => match a with
    | ⟨0, _⟩ => by show (0 : Nat) = if (1 : Nat) = 1 then 0 else _; rw [if_pos rfl]
    | ⟨1, _⟩ => by show n.val = if N = 1 then 0 else n.val; rw [if_neg hN])

/-- A column [N × 1] broadcast to [N × L] reads, at (n, l), the column at n. -/
private theorem bc_col {α : Type} {L N : Nat} (hN : N ≠ 1) (h : (⟨2, ![N, 1]⟩ : Shape).BroadcastsInDim ⟨2, ![N, L]⟩ ![0, 1])
    (x : (⟨2, ![N, 1]⟩ : Shape).Idx → α) (n : Fin N) (l : Fin L) :
    broadcastInDim ⟨2, ![N, L]⟩ ![0, 1] h x (ix2 n l) = x (ix2 n 0) :=
  broadcastInDim_apply _ h x (ix2 n l) (ix2 n 0) (fun a => match a with
    | ⟨0, _⟩ => by show n.val = if N = 1 then 0 else n.val; rw [if_neg hN]
    | ⟨1, _⟩ => by show (0 : Nat) = if (1 : Nat) = 1 then 0 else _; rw [if_pos rfl])

/-- A vector [N] laid as the row [1 × N] reads, at (0, n), the vector at n. -/
private theorem bc_vec_row {α : Type} {N : Nat} (hN : N ≠ 1) (h : (⟨1, ![N]⟩ : Shape).BroadcastsInDim ⟨2, ![1, N]⟩ ![1])
    (x : (⟨1, ![N]⟩ : Shape).Idx → α) (n : Fin N) :
    broadcastInDim ⟨2, ![1, N]⟩ ![1] h x (ix2 0 n) = x (ix1 n) :=
  broadcastInDim_apply _ h x (ix2 0 n) (ix1 n) (fun a => match a with
    | ⟨0, _⟩ => by show n.val = if N = 1 then 0 else n.val; rw [if_neg hN])

/-- A vector [N] laid as the column [N × 1] reads, at (n, 0), the vector at n. -/
private theorem bc_vec_col {α : Type} {N : Nat} (hN : N ≠ 1) (h : (⟨1, ![N]⟩ : Shape).BroadcastsInDim ⟨2, ![N, 1]⟩ ![0])
    (x : (⟨1, ![N]⟩ : Shape).Idx → α) (n : Fin N) :
    broadcastInDim ⟨2, ![N, 1]⟩ ![0] h x (ix2 n 0) = x (ix1 n) :=
  broadcastInDim_apply _ h x (ix2 n 0) (ix1 n) (fun a => match a with
    | ⟨0, _⟩ => by show n.val = if N = 1 then 0 else n.val; rw [if_neg hN])

/-- Two columns [N × 1] joined into [N × 2]: column 0 is the first. -/
private theorem cat2_col0 {α : Type} {N : Nat} (h : Shape.Concatenates [(⟨2, ![N, 1]⟩ : Shape), ⟨2, ![N, 1]⟩] ⟨2, ![N, 2]⟩ 1)
    (x₁ x₂ : (⟨2, ![N, 1]⟩ : Shape).Idx → α) (n : Fin N) :
    concatenate ⟨2, ![N, 2]⟩ 1 [⟨⟨2, ![N, 1]⟩, x₁⟩, ⟨⟨2, ![N, 1]⟩, x₂⟩] h (ix2 n 0) = x₁ (ix2 n 0) :=
  concatenate_pair_apply_left 1 x₁ x₂ h (ix2 n 0) rfl (ix2 n 0) (fun b => match b with
    | ⟨0, _⟩ => rfl
    | ⟨1, _⟩ => rfl)

/-- Two columns [N × 1] joined into [N × 2]: column 1 is the second. -/
private theorem cat2_col1 {α : Type} {N : Nat} (h : Shape.Concatenates [(⟨2, ![N, 1]⟩ : Shape), ⟨2, ![N, 1]⟩] ⟨2, ![N, 2]⟩ 1)
    (x₁ x₂ : (⟨2, ![N, 1]⟩ : Shape).Idx → α) (n : Fin N) :
    concatenate ⟨2, ![N, 2]⟩ 1 [⟨⟨2, ![N, 1]⟩, x₁⟩, ⟨⟨2, ![N, 1]⟩, x₂⟩] h (ix2 n 1) = x₂ (ix2 n 0) :=
  concatenate_pair_apply_right 1 x₁ x₂ h (ix2 n 1) rfl rfl (ix2 n 0) (fun b => match b with
    | ⟨0, _⟩ => fun _ => rfl
    | ⟨1, _⟩ => fun hb => absurd rfl hb) rfl

/-- The triangle wave of period 2 on one table entry, as the two programs compute it on the host:
    2 · |x / 2 − ⌊x / 2 + 1/2⌋|. -/
private def triS (x : F .f32) : F .f32 :=
  FloatOps.mulf (FloatOps.ofBits .f32 0x40000000#32)
    (FloatOps.hostAbsf (FloatOps.subf (FloatOps.hostDivf x (FloatOps.ofBits .f32 0x40000000#32))
      (FloatOps.hostUnary .floor (FloatOps.addf (FloatOps.hostDivf x (FloatOps.ofBits .f32 0x40000000#32))
        (FloatOps.ofBits .f32 0x3F000000#32)))))

/-! ## A chunk run in three pieces

The first piece holds the coordinate columns, the normalised table, the two fractions and the four index vectors; the
second adds the first two corners of the interpolation; the third adds the last two. The later pieces are read from
arbitrary contents: what they compute depends on the earlier pieces only through the values they read. -/

/-- A line of operations run in three consecutive pieces: the first a, the next b, the rest. -/
private theorem after3 {τ : Topo} {sig : RefSig} {Val : EltTy → Type} (a b : Nat) (ops : List (HloOp τ sig Val))
    (V : Valuation τ sig Val) :
    after ops V = after ((ops.drop a).drop b) (after ((ops.drop a).take b) (after (ops.take a) V)) := by
  rw [← Cert.LibAfter.after_append, ← Cert.LibAfter.after_append, List.take_append_drop, List.take_append_drop]

/-! ## The first piece: table, fractions, index vectors -/

set_option maxHeartbeats 4000000 in
/-- The normalised table: the kernel's entry (l, u, v) is the reference's entry (u, v, l). -/
theorem nlv_a_tab (WK : Valuation Cert.KernelIdeal.τ Cert.KernelIdeal.sig (Elt F)) (WR : Valuation Cert.ReferenceIdeal.τ Cert.ReferenceIdeal.sig (Elt F)) (hT : ∀ (l : Fin 4) (u v : Fin 32), WK (Proc.devRef .tc Cert.KernelIdeal.main_v6) (ix3 l u v) = WR (Proc.devRef .tc Cert.ReferenceIdeal.main_arg15) (ix3 u v l)) (l : Fin 4) (u v : Fin 32) :
    after (Cert.KernelIdeal.Chunks.K7.take 61) WK (Proc.devRef .tc Cert.KernelIdeal.main_v461) (ix3 l u v) = after (Cert.ReferenceIdeal.Chunks.R7.take 61) WR (Proc.devRef .tc Cert.ReferenceIdeal.main_v526) (ix3 u v l) := by
  simp only [Cert.KernelIdeal.Chunks.K7, Cert.ReferenceIdeal.Chunks.R7, List.take_succ_cons, List.take_zero, List.drop_succ_cons, List.drop_zero]
  after_results_simp
  show triS (WK (Proc.devRef .tc Cert.KernelIdeal.main_v6) (ix3 l u v)) = triS (WR (Proc.devRef .tc Cert.ReferenceIdeal.main_arg15) (ix3 u v l))
  rw [hT]

set_option maxHeartbeats 4000000 in
/-- The fraction along the first table axis: the kernel's row [1 × N] at n is the reference's column [N × 1] at n. -/
theorem nlv_a_fu (WK : Valuation Cert.KernelIdeal.τ Cert.KernelIdeal.sig (Elt F)) (WR : Valuation Cert.ReferenceIdeal.τ Cert.ReferenceIdeal.sig (Elt F)) (h0 : WK (Proc.devRef .tc Cert.KernelIdeal.main_arg2) = WR (Proc.devRef .tc Cert.ReferenceIdeal.main_arg2)) (n : Fin 2097152) :
    after (Cert.KernelIdeal.Chunks.K7.take 61) WK (Proc.devRef .tc Cert.KernelIdeal.main_v471) (ix2 0 n) = after (Cert.ReferenceIdeal.Chunks.R7.take 61) WR (Proc.devRef .tc Cert.ReferenceIdeal.main_v540) (ix2 n 0) := by
  simp only [Cert.KernelIdeal.Chunks.K7, Cert.ReferenceIdeal.Chunks.R7, List.take_succ_cons, List.take_zero, List.drop_succ_cons, List.drop_zero]
  after_results_simp
  rw [bc_vec_row (by decide), bc_vec_col (by decide), h0]
  first | done | rfl

set_option maxHeartbeats 4000000 in
/-- The fraction along the second table axis, likewise. -/
theorem nlv_a_fv (WK : Valuation Cert.KernelIdeal.τ Cert.KernelIdeal.sig (Elt F)) (WR : Valuation Cert.ReferenceIdeal.τ Cert.ReferenceIdeal.sig (Elt F)) (h0 : WK (Proc.devRef .tc Cert.KernelIdeal.main_arg2) = WR (Proc.devRef .tc Cert.ReferenceIdeal.main_arg2)) (n : Fin 2097152) :
    after (Cert.KernelIdeal.Chunks.K7.take 61) WK (Proc.devRef .tc Cert.KernelIdeal.main_v473) (ix2 0 n) = after (Cert.ReferenceIdeal.Chunks.R7.take 61) WR (Proc.devRef .tc Cert.ReferenceIdeal.main_v542) (ix2 n 0) := by
  simp only [Cert.KernelIdeal.Chunks.K7, Cert.ReferenceIdeal.Chunks.R7, List.take_succ_cons, List.take_zero, List.drop_succ_cons, List.drop_zero]
  after_results_simp
  rw [bc_vec_row (by decide), bc_vec_col (by decide), h0]
  first | done | rfl

set_option maxHeartbeats 4000000 in
/-- The lower index along the first axis: the same integer vector on both sides. -/
theorem nlv_a_u0 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg2) = WR (Proc.devRef .tc Cert.ReferenceIdeal.main_arg2)) :
    after (Cert.KernelIdeal.Chunks.K7.take 61) WK (Proc.devRef .tc Cert.KernelIdeal.main_v474) = after (Cert.ReferenceIdeal.Chunks.R7.take 61) WR (Proc.devRef .tc Cert.ReferenceIdeal.main_v543) := by
  simp only [Cert.KernelIdeal.Chunks.K7, Cert.ReferenceIdeal.Chunks.R7, List.take_succ_cons, List.take_zero, List.drop_succ_cons, List.drop_zero]
  after_results_simp
  rw [h0]
  first | done | rfl

set_option maxHeartbeats 4000000 in
/-- The lower index along the second axis. -/
theorem nlv_a_v0 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg2) = WR (Proc.devRef .tc Cert.ReferenceIdeal.main_arg2)) :
    after (Cert.KernelIdeal.Chunks.K7.take 61) WK (Proc.devRef .tc Cert.KernelIdeal.main_v475) = after (Cert.ReferenceIdeal.Chunks.R7.take 61) WR (Proc.devRef .tc Cert.ReferenceIdeal.main_v544) := by
  simp only [Cert.KernelIdeal.Chunks.K7, Cert.ReferenceIdeal.Chunks.R7, List.take_succ_cons, List.take_zero, List.drop_succ_cons, List.drop_zero]
  after_results_simp
  rw [h0]
  first | done | rfl

set_option maxHeartbeats 4000000 in
/-- The upper index along the first axis. -/
theorem nlv_a_u1 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg2) = WR (Proc.devRef .tc Cert.ReferenceIdeal.main_arg2)) :
    after (Cert.KernelIdeal.Chunks.K7.take 61) WK (Proc.devRef .tc Cert.KernelIdeal.main_v479) = after (Cert.ReferenceIdeal.Chunks.R7.take 61) WR (Proc.devRef .tc Cert.ReferenceIdeal.main_v548) := by
  simp only [Cert.KernelIdeal.Chunks.K7, Cert.ReferenceIdeal.Chunks.R7, List.take_succ_cons, List.take_zero, List.drop_succ_cons, List.drop_zero]
  after_results_simp
  rw [h0]
  first | done | rfl

set_option maxHeartbeats 4000000 in
/-- The upper index along the second axis. -/
theorem nlv_a_v1 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg2) = WR (Proc.devRef .tc Cert.ReferenceIdeal.main_arg2)) :
    after (Cert.KernelIdeal.Chunks.K7.take 61) WK (Proc.devRef .tc Cert.KernelIdeal.main_v483) = after (Cert.ReferenceIdeal.Chunks.R7.take 61) WR (Proc.devRef .tc Cert.ReferenceIdeal.main_v552) := by
  simp only [Cert.KernelIdeal.Chunks.K7, Cert.ReferenceIdeal.Chunks.R7, List.take_succ_cons, List.take_zero, List.drop_succ_cons, List.drop_zero]
  after_results_simp
  rw [h0]
  first | done | rfl

/-! ## The second piece leaves the first piece's values alone -/

set_option maxHeartbeats 4000000 in
theorem nlv_keepK (W : Valuation Cert.KernelIdeal.τ Cert.KernelIdeal.sig (Elt F)) :
    after ((Cert.KernelIdeal.Chunks.K7.drop 61).take 54) W (Proc.devRef .tc Cert.KernelIdeal.main_v461) = W (Proc.devRef .tc Cert.KernelIdeal.main_v461)
    ∧ after ((Cert.KernelIdeal.Chunks.K7.drop 61).take 54) W (Proc.devRef .tc Cert.KernelIdeal.main_v471) = W (Proc.devRef .tc Cert.KernelIdeal.main_v471)
    ∧ after ((Cert.KernelIdeal.Chunks.K7.drop 61).take 54) W (Proc.devRef .tc Cert.KernelIdeal.main_v473) = W (Proc.devRef .tc Cert.KernelIdeal.main_v473)
    ∧ after ((Cert.KernelIdeal.Chunks.K7.drop 61).take 54) W (Proc.devRef .tc Cert.KernelIdeal.main_v474) = W (Proc.devRef .tc Cert.KernelIdeal.main_v474)
    ∧ after ((Cert.KernelIdeal.Chunks.K7.drop 61).take 54) W (Proc.devRef .tc Cert.KernelIdeal.main_v479) = W (Proc.devRef .tc Cert.KernelIdeal.main_v479)
    ∧ after ((Cert.KernelIdeal.Chunks.K7.drop 61).take 54) W (Proc.devRef .tc Cert.KernelIdeal.main_v483) = W (Proc.devRef .tc Cert.KernelIdeal.main_v483) := by
  refine ⟨?_, ?_, ?_, ?_, ?_, ?_⟩ <;> (simp only [Cert.KernelIdeal.Chunks.K7, List.take_succ_cons, List.take_zero, List.drop_succ_cons, List.drop_zero]; after_results_simp)

set_option maxHeartbeats 4000000 in
theorem nlv_keepR (W : Valuation Cert.ReferenceIdeal.τ Cert.ReferenceIdeal.sig (Elt F)) :
    after ((Cert.ReferenceIdeal.Chunks.R7.drop 61).take 54) W (Proc.devRef .tc Cert.ReferenceIdeal.main_v526) = W (Proc.devRef .tc Cert.ReferenceIdeal.main_v526)
    ∧ after ((Cert.ReferenceIdeal.Chunks.R7.drop 61).take 54) W (Proc.devRef .tc Cert.ReferenceIdeal.main_v540) = W (Proc.devRef .tc Cert.ReferenceIdeal.main_v540)
    ∧ after ((Cert.ReferenceIdeal.Chunks.R7.drop 61).take 54) W (Proc.devRef .tc Cert.ReferenceIdeal.main_v542) = W (Proc.devRef .tc Cert.ReferenceIdeal.main_v542)
    ∧ after ((Cert.ReferenceIdeal.Chunks.R7.drop 61).take 54) W (Proc.devRef .tc Cert.ReferenceIdeal.main_v543) = W (Proc.devRef .tc Cert.ReferenceIdeal.main_v543)
    ∧ after ((Cert.ReferenceIdeal.Chunks.R7.drop 61).take 54) W (Proc.devRef .tc Cert.ReferenceIdeal.main_v548) = W (Proc.devRef .tc Cert.ReferenceIdeal.main_v548)
    ∧ after ((Cert.ReferenceIdeal.Chunks.R7.drop 61).take 54) W (Proc.devRef .tc Cert.ReferenceIdeal.main_v552) = W (Proc.devRef .tc Cert.ReferenceIdeal.main_v552) := by
  refine ⟨?_, ?_, ?_, ?_, ?_, ?_⟩ <;> (simp only [Cert.ReferenceIdeal.Chunks.R7, List.take_succ_cons, List.take_zero, List.drop_succ_cons, List.drop_zero]; after_results_simp)

/-! ## The second piece: the first two corners -/

set_option maxHeartbeats 4000000 in
theorem nlv_b (WK : Valuation Cert.KernelIdeal.τ Cert.KernelIdeal.sig (Elt F)) (WR : Valuation Cert.ReferenceIdeal.τ Cert.ReferenceIdeal.sig (Elt F))
    (htab : ∀ (l : Fin 4) (u v : Fin 32), WK (Proc.devRef .tc Cert.KernelIdeal.main_v461) (ix3 l u v) = WR (Proc.devRef .tc Cert.ReferenceIdeal.main_v526) (ix3 u v l))
    (hfu : ∀ n : Fin 2097152, WK (Proc.devRef .tc Cert.KernelIdeal.main_v471) (ix2 0 n) = WR (Proc.devRef .tc Cert.ReferenceIdeal.main_v540) (ix2 n 0))
    (hfv : ∀ n : Fin 2097152, WK (Proc.devRef .tc Cert.KernelIdeal.main_v473) (ix2 0 n) = WR (Proc.devRef .tc Cert.ReferenceIdeal.main_v542) (ix2 n 0))
    (hu0 : WK (Proc.devRef .tc Cert.KernelIdeal.main_v474) = WR (Proc.devRef .tc Cert.ReferenceIdeal.main_v543)) (hv0 : WK (Proc.devRef .tc Cert.KernelIdeal.main_v475) = WR (Proc.devRef .tc Cert.ReferenceIdeal.main_v544))
    (hu1 : WK (Proc.devRef .tc Cert.KernelIdeal.main_v479) = WR (Proc.devRef .tc Cert.ReferenceIdeal.main_v548)) (l : Fin 4) (n : Fin 2097152) :
    after ((Cert.KernelIdeal.Chunks.K7.drop 61).take 54) WK (Proc.devRef .tc Cert.KernelIdeal.main_v526) (ix2 l n) = after ((Cert.ReferenceIdeal.Chunks.R7.drop 61).take 54) WR (Proc.devRef .tc Cert.ReferenceIdeal.main_v595) (ix2 n l) := by
  simp only [Cert.KernelIdeal.Chunks.K7, Cert.ReferenceIdeal.Chunks.R7, List.take_succ_cons, List.take_zero, List.drop_succ_cons, List.drop_zero]
  after_results_simp
  simp only [addf_app, mulf_app]
  rw [gather_last2 Cert.KernelIdeal.gather_S4x32x32_S2097152x2_S4x2097152_0_12_n_n_12_1_411 rfl rfl rfl rfl rfl (by decide) (by decide), gather_last2 Cert.KernelIdeal.gather_S4x32x32_S2097152x2_S4x2097152_0_12_n_n_12_1_411 rfl rfl rfl rfl rfl (by decide) (by decide), gather_first2 Cert.ReferenceIdeal.gather_S32x32x4_S2097152x2_S2097152x4_1_01_n_n_01_1_114 rfl rfl rfl rfl rfl (by decide) (by decide), gather_first2 Cert.ReferenceIdeal.gather_S32x32x4_S2097152x2_S2097152x4_1_01_n_n_01_1_114 rfl rfl rfl rfl rfl (by decide) (by decide)]
  rw [cat2_col0, cat2_col1, cat2_col0, cat2_col1, cat2_col0, cat2_col1, cat2_col0, cat2_col1]
  after_results_simp
  repeat rw [bc_vec_col (by decide)]
  repeat rw [bc_row (by decide)]
  repeat rw [bc_col (by decide)]
  simp only [subf_app, htab, hfu, hfv, hu0, hv0, hu1]
  first | done | rfl

/-! ## The third piece: the last two corners, added to the first two -/

set_option maxHeartbeats 4000000 in
theorem nlv_c (WK : Valuation Cert.KernelIdeal.τ Cert.KernelIdeal.sig (Elt F)) (WR : Valuation Cert.ReferenceIdeal.τ Cert.ReferenceIdeal.sig (Elt F))
    (hacc : ∀ (l : Fin 4) (n : Fin 2097152), WK (Proc.devRef .tc Cert.KernelIdeal.main_v526) (ix2 l n) = WR (Proc.devRef .tc Cert.ReferenceIdeal.main_v595) (ix2 n l))
    (htab : ∀ (l : Fin 4) (u v : Fin 32), WK (Proc.devRef .tc Cert.KernelIdeal.main_v461) (ix3 l u v) = WR (Proc.devRef .tc Cert.ReferenceIdeal.main_v526) (ix3 u v l))
    (hfu : ∀ n : Fin 2097152, WK (Proc.devRef .tc Cert.KernelIdeal.main_v471) (ix2 0 n) = WR (Proc.devRef .tc Cert.ReferenceIdeal.main_v540) (ix2 n 0))
    (hfv : ∀ n : Fin 2097152, WK (Proc.devRef .tc Cert.KernelIdeal.main_v473) (ix2 0 n) = WR (Proc.devRef .tc Cert.ReferenceIdeal.main_v542) (ix2 n 0))
    (hu0 : WK (Proc.devRef .tc Cert.KernelIdeal.main_v474) = WR (Proc.devRef .tc Cert.ReferenceIdeal.main_v543)) (hu1 : WK (Proc.devRef .tc Cert.KernelIdeal.main_v479) = WR (Proc.devRef .tc Cert.ReferenceIdeal.main_v548))
    (hv1 : WK (Proc.devRef .tc Cert.KernelIdeal.main_v483) = WR (Proc.devRef .tc Cert.ReferenceIdeal.main_v552)) (l : Fin 4) (n : Fin 2097152) :
    after ((Cert.KernelIdeal.Chunks.K7.drop 61).drop 54) WK (Proc.devRef .tc Cert.KernelIdeal.main_v566) (ix2 l n) = after ((Cert.ReferenceIdeal.Chunks.R7.drop 61).drop 54) WR (Proc.devRef .tc Cert.ReferenceIdeal.main_v635) (ix2 n l) := by
  simp only [Cert.KernelIdeal.Chunks.K7, Cert.ReferenceIdeal.Chunks.R7, List.take_succ_cons, List.take_zero, List.drop_succ_cons, List.drop_zero]
  after_results_simp
  simp only [addf_app, mulf_app]
  rw [gather_last2 Cert.KernelIdeal.gather_S4x32x32_S2097152x2_S4x2097152_0_12_n_n_12_1_411 rfl rfl rfl rfl rfl (by decide) (by decide), gather_last2 Cert.KernelIdeal.gather_S4x32x32_S2097152x2_S4x2097152_0_12_n_n_12_1_411 rfl rfl rfl rfl rfl (by decide) (by decide), gather_first2 Cert.ReferenceIdeal.gather_S32x32x4_S2097152x2_S2097152x4_1_01_n_n_01_1_114 rfl rfl rfl rfl rfl (by decide) (by decide), gather_first2 Cert.ReferenceIdeal.gather_S32x32x4_S2097152x2_S2097152x4_1_01_n_n_01_1_114 rfl rfl rfl rfl rfl (by decide) (by decide)]
  rw [cat2_col0, cat2_col1, cat2_col0, cat2_col1, cat2_col0, cat2_col1, cat2_col0, cat2_col1]
  after_results_simp
  repeat rw [bc_vec_col (by decide)]
  repeat rw [bc_row (by decide)]
  repeat rw [bc_col (by decide)]
  simp only [subf_app, hacc, htab, hfu, hfv, hu0, hu1, hv1]
  first | done | rfl

/-- The chunk's result, read at an index, from any contents that agree on what the chunk reads. -/
theorem nlv_chunk (WK : Valuation Cert.KernelIdeal.τ Cert.KernelIdeal.sig (Elt F)) (WR : Valuation Cert.ReferenceIdeal.τ Cert.ReferenceIdeal.sig (Elt F)) (h0 : WK (Proc.devRef .tc Cert.KernelIdeal.main_arg2) = WR (Proc.devRef .tc Cert.ReferenceIdeal.main_arg2)) (hT : ∀ (l : Fin 4) (u v : Fin 32), WK (Proc.devRef .tc Cert.KernelIdeal.main_v6) (ix3 l u v) = WR (Proc.devRef .tc Cert.ReferenceIdeal.main_arg15) (ix3 u v l)) (l : Fin 4) (n : Fin 2097152) :
    after Cert.KernelIdeal.Chunks.K7 WK (Proc.devRef .tc Cert.KernelIdeal.main_v566) (ix2 l n) = after Cert.ReferenceIdeal.Chunks.R7 WR (Proc.devRef .tc Cert.ReferenceIdeal.main_v635) (ix2 n l) := by
  rw [after3 61 54 Cert.KernelIdeal.Chunks.K7 WK, after3 61 54 Cert.ReferenceIdeal.Chunks.R7 WR]
  obtain ⟨k1, k2, k3, k4, k5, k6⟩ := nlv_keepK (after (Cert.KernelIdeal.Chunks.K7.take 61) WK)
  obtain ⟨r1, r2, r3, r4, r5, r6⟩ := nlv_keepR (after (Cert.ReferenceIdeal.Chunks.R7.take 61) WR)
  refine nlv_c (after ((Cert.KernelIdeal.Chunks.K7.drop 61).take 54) (after (Cert.KernelIdeal.Chunks.K7.take 61) WK)) (after ((Cert.ReferenceIdeal.Chunks.R7.drop 61).take 54) (after (Cert.ReferenceIdeal.Chunks.R7.take 61) WR)) ?_ ?_ ?_ ?_ ?_ ?_ ?_ l n
  · intro l n
    exact nlv_b (after (Cert.KernelIdeal.Chunks.K7.take 61) WK) (after (Cert.ReferenceIdeal.Chunks.R7.take 61) WR) (nlv_a_tab WK WR hT) (nlv_a_fu WK WR h0) (nlv_a_fv WK WR h0)
      (nlv_a_u0 WK WR h0) (nlv_a_v0 WK WR h0) (nlv_a_u1 WK WR h0) l n
  · intro l u v
    rw [k1, r1]
    exact nlv_a_tab WK WR hT l u v
  · intro n
    rw [k2, r2]
    exact nlv_a_fu WK WR h0 n
  · intro n
    rw [k3, r3]
    exact nlv_a_fv WK WR h0 n
  · rw [k4, r4]
    exact nlv_a_u0 WK WR h0
  · rw [k5, r5]
    exact nlv_a_u1 WK WR h0
  · rw [k6, r6]
    exact nlv_a_v1 WK WR h0

/-- Lookup 7 (the bilinear read of the normalised 32 × 32 × 4 table at the two columns of the third argument): the kernel's channel-first result at (l, n) is the reference's channel-last result at (n, l). -/
theorem corr_nlv (VK : Valuation Cert.KernelIdeal.τ Cert.KernelIdeal.sig (Elt F)) (VR : Valuation Cert.ReferenceIdeal.τ Cert.ReferenceIdeal.sig (Elt F))
    (h2 : KV VK Cert.KernelIdeal.main_arg2 = RV VR Cert.ReferenceIdeal.main_arg2)
    (hT : ∀ (l : Fin 4) (u v : Fin 32), KV VK Cert.KernelIdeal.main_v6 (ix3 l u v) = RV VR Cert.ReferenceIdeal.main_arg15 (ix3 u v l)) :
    ∀ (l : Fin 4) (n : Fin 2097152), KV VK Cert.KernelIdeal.main_v566 (ix2 l n) = RV VR Cert.ReferenceIdeal.main_v635 (ix2 n l) := by
  intro l n
  show Cert.KernelIdeal.KRead.St10 VK (Proc.devRef .tc Cert.KernelIdeal.main_v566) (ix2 l n)
    = Cert.ReferenceIdeal.RRead.St11 VR (Proc.devRef .tc Cert.ReferenceIdeal.main_v635) (ix2 n l)
  rw [Cert.KernelIdeal.KRead.out_K7 VK (r := Cert.KernelIdeal.main_v566) (by decide), Cert.ReferenceIdeal.RRead.out_R7 VR (r := Cert.ReferenceIdeal.main_v635) (by decide)]
  refine nlv_chunk (Cert.KernelIdeal.KRead.St7 VK) (Cert.ReferenceIdeal.RRead.St8 VR) ?_ ?_ l n
  · rw [Cert.KernelIdeal.KRead.in_K7 VK (r := Cert.KernelIdeal.main_arg2) (by decide), Cert.ReferenceIdeal.RRead.in_R7 VR (r := Cert.ReferenceIdeal.main_arg2) (by decide)]
    exact h2
  · intro l u v
    rw [Cert.KernelIdeal.KRead.in_K7 VK (r := Cert.KernelIdeal.main_v6) (by decide), Cert.ReferenceIdeal.RRead.in_R7 VR (r := Cert.ReferenceIdeal.main_arg15) (by decide)]
    exact hT l u v

end Cert.Bridge

end
-- ==== Proof.Block8.lean ====
/-
  Lookup 8 of the two programs, side by side: the bilinear interpolation of the triangle-wave-normalised table
  tabNHL (32 × 32 × 4) at metalLoh's column 1 and nDotLV's column 0.

  As in lookup 7 the kernel program keeps every per-row array channel first (table [4 × 32 × 32], fractions as rows
  [1 × N], gathers [4 × N]) and the reference channel last (table [32 × 32 × 4], fractions as columns [N × 1], gathers
  [N × 4]). One more difference: the kernel slices its two coordinate columns straight from the arguments, while the
  reference first stacks the two columns into an [N × 2] array and slices each back out of the stack. The two column
  lemmas say that the round trip through the stack returns the column; after them the index arithmetic is the same
  term on both sides, each gather is one table entry at the row's two clamped start indices, each weight is a
  fraction or one minus it at the row, and the result is the sum of the four entries times their weights.
-/
import proofs.«151772_j21234318312201_1_alg».proof.Proof.BridgeDefs
import proofs.«151772_j21234318312201_1_alg».proof.Proof.LibGather2
import Idealize.ShloMosaic.Lib.ValueIdx
import Idealize.ShloMosaic.Lib.ValueLayout
import Idealize.ShloMosaic.Lib.Pipeline.Value

set_option maxRecDepth 16384

noncomputable section

namespace Cert.Bridge

open Idealize.ShloMosaic Idealize.ShloMosaic.TcCoe Idealize.SL.Sem Idealize.ShloMosaic.StableHlo
open Idealize.ShloMosaic.ValueIdx Cert.LibGather2

variable {F : FTy → Type} [FloatOps F]

/-! ## Small reading lemmas

Elementwise float operations read at an index, for every float family; a row [1 × N] or a column [N × 1] broadcast
over L rows or columns; a vector [N] laid as a row or as a column; and the two columns of an [N × 2] array made by
joining two [N × 1] columns. -/

private theorem subf_app {s : Shape} {φ : FTy} (a b : FVec F s φ) (i : s.Idx) : subf a b i = FloatOps.subf (a i) (b i) := rfl
private theorem mulf_app {s : Shape} {φ : FTy} (a b : FVec F s φ) (i : s.Idx) : mulf a b i = FloatOps.mulf (a i) (b i) := rfl
private theorem addf_app {s : Shape} {φ : FTy} (a b : FVec F s φ) (i : s.Idx) : addf a b i = FloatOps.addf (a i) (b i) := rfl

/-- A row [1 × N] broadcast to [L × N] reads, at (l, n), the row at n. -/
private theorem bc_row {α : Type} {L N : Nat} (hN : N ≠ 1) (h : (⟨2, ![1, N]⟩ : Shape).BroadcastsInDim ⟨2, ![L, N]⟩ ![0, 1])
    (x : (⟨2, ![1, N]⟩ : Shape).Idx → α) (l : Fin L) (n : Fin N) :
    broadcastInDim ⟨2, ![L, N]⟩ ![0, 1] h x (ix2 l n) = x (ix2 0 n) :=
  broadcastInDim_apply _ h x (ix2 l n) (ix2 0 n) (fun a => match a with
    | ⟨0, _⟩ => by show (0 : Nat) = if (1 : Nat) = 1 then 0 else _; rw [if_pos rfl]
    | ⟨1, _⟩ => by show n.val = if N = 1 then 0 else n.val; rw [if_neg hN])

/-- A column [N × 1] broadcast to [N × L] reads, at (n, l), the column at n. -/
private theorem bc_col {α : Type} {L N : Nat} (hN : N ≠ 1) (h : (⟨2, ![N, 1]⟩ : Shape).BroadcastsInDim ⟨2, ![N, L]⟩ ![0, 1])
    (x : (⟨2, ![N, 1]⟩ : Shape).Idx → α) (n : Fin N) (l : Fin L) :
    broadcastInDim ⟨2, ![N, L]⟩ ![0, 1] h x (ix2 n l) = x (ix2 n 0) :=
  broadcastInDim_apply _ h x (ix2 n l) (ix2 n 0) (fun a => match a with
    | ⟨0, _⟩ => by show n.val = if N = 1 then 0 else n.val; rw [if_neg hN]
    | ⟨1, _⟩ => by show (0 : Nat) = if (1 : Nat) = 1 then 0 else _; rw [if_pos rfl])

/-- A vector [N] laid as the row [1 × N] reads, at (0, n), the vector at n. -/
private theorem bc_vec_row {α : Type} {N : Nat} (hN : N ≠ 1) (h : (⟨1, ![N]⟩ : Shape).BroadcastsInDim ⟨2, ![1, N]⟩ ![1])
    (x : (⟨1, ![N]⟩ : Shape).Idx → α) (n : Fin N) :
    broadcastInDim ⟨2, ![1, N]⟩ ![1] h x (ix2 0 n) = x (ix1 n) :=
  broadcastInDim_apply _ h x (ix2 0 n) (ix1 n) (fun a => match a with
    | ⟨0, _⟩ => by show n.val = if N = 1 then 0 else n.val; rw [if_neg hN])

/-- A vector [N] laid as the column [N × 1] reads, at (n, 0), the vector at n. -/
private theorem bc_vec_col {α : Type} {N : Nat} (hN : N ≠ 1) (h : (⟨1, ![N]⟩ : Shape).BroadcastsInDim ⟨2, ![N, 1]⟩ ![0])
    (x : (⟨1, ![N]⟩ : Shape).Idx → α) (n : Fin N) :
    broadcastInDim ⟨2, ![N, 1]⟩ ![0] h x (ix2 n 0) = x (ix1 n) :=
  broadcastInDim_apply _ h x (ix2 n 0) (ix1 n) (fun a => match a with
    | ⟨0, _⟩ => by show n.val = if N = 1 then 0 else n.val; rw [if_neg hN])

/-- Two columns [N × 1] joined into [N × 2]: column 0 is the first. -/
private theorem cat2_col0 {α : Type} {N : Nat} (h : Shape.Concatenates [(⟨2, ![N, 1]⟩ : Shape), ⟨2, ![N, 1]⟩] ⟨2, ![N, 2]⟩ 1)
    (x₁ x₂ : (⟨2, ![N, 1]⟩ : Shape).Idx → α) (n : Fin N) :
    concatenate ⟨2, ![N, 2]⟩ 1 [⟨⟨2, ![N, 1]⟩, x₁⟩, ⟨⟨2, ![N, 1]⟩, x₂⟩] h (ix2 n 0) = x₁ (ix2 n 0) :=
  concatenate_pair_apply_left 1 x₁ x₂ h (ix2 n 0) rfl (ix2 n 0) (fun b => match b with
    | ⟨0, _⟩ => rfl
    | ⟨1, _⟩ => rfl)

/-- Two columns [N × 1] joined into [N × 2]: column 1 is the second. -/
private theorem cat2_col1 {α : Type} {N : Nat} (h : Shape.Concatenates [(⟨2, ![N, 1]⟩ : Shape), ⟨2, ![N, 1]⟩] ⟨2, ![N, 2]⟩ 1)
    (x₁ x₂ : (⟨2, ![N, 1]⟩ : Shape).Idx → α) (n : Fin N) :
    concatenate ⟨2, ![N, 2]⟩ 1 [⟨⟨2, ![N, 1]⟩, x₁⟩, ⟨⟨2, ![N, 1]⟩, x₂⟩] h (ix2 n 1) = x₂ (ix2 n 0) :=
  concatenate_pair_apply_right 1 x₁ x₂ h (ix2 n 1) rfl rfl (ix2 n 0) (fun b => match b with
    | ⟨0, _⟩ => fun _ => rfl
    | ⟨1, _⟩ => fun hb => absurd rfl hb) rfl

/-- The triangle wave of period 2 on one table entry, as the two programs compute it on the host:
    2 · |x / 2 − ⌊x / 2 + 1/2⌋|. -/
private def triS (x : F .f32) : F .f32 :=
  FloatOps.mulf (FloatOps.ofBits .f32 0x40000000#32)
    (FloatOps.hostAbsf (FloatOps.subf (FloatOps.hostDivf x (FloatOps.ofBits .f32 0x40000000#32))
      (FloatOps.hostUnary .floor (FloatOps.addf (FloatOps.hostDivf x (FloatOps.ofBits .f32 0x40000000#32))
        (FloatOps.ofBits .f32 0x3F000000#32)))))

/-- A column [N × 1] flattened to a vector [N] reads, at n, the column at (n, 0). -/
private theorem reshape_col {α : Type} {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n 0) :=
  shapeCast_apply x h (ix1 n) (ix2 n 0) (by
    rw [Shape.rowMajor_val_two, Shape.rowMajor_val_one]
    show n.val * 1 + 0 = n.val
    omega)

/-! ## A chunk run in three pieces

The first piece holds the coordinate columns, the normalised table, the two fractions and the four index vectors; the
second adds the first two corners of the interpolation; the third adds the last two. The later pieces are read from
arbitrary contents: what they compute depends on the earlier pieces only through the values they read. -/

/-- A line of operations run in three consecutive pieces: the first a, the next b, the rest. -/
private theorem after3 {τ : Topo} {sig : RefSig} {Val : EltTy → Type} (a b : Nat) (ops : List (HloOp τ sig Val))
    (V : Valuation τ sig Val) :
    after ops V = after ((ops.drop a).drop b) (after ((ops.drop a).take b) (after (ops.take a) V)) := by
  rw [← Cert.LibAfter.after_append, ← Cert.LibAfter.after_append, List.take_append_drop, List.take_append_drop]

/-! ## The two coordinate columns

The kernel slices each coordinate column straight from its argument. The reference first stacks the two columns into an
[N × 2] array and then slices each column back out of the stack: the same vector. -/

set_option maxHeartbeats 4000000 in
/-- The first coordinate, column 1 of the fifth argument. -/
theorem nhl_colU (WK : Valuation Cert.KernelIdeal.τ Cert.KernelIdeal.sig (Elt F)) (WR : Valuation Cert.ReferenceIdeal.τ Cert.ReferenceIdeal.sig (Elt F)) (h : WK (Proc.devRef .tc Cert.KernelIdeal.main_arg4) = WR (Proc.devRef .tc Cert.ReferenceIdeal.main_arg4)) :
    after (Cert.KernelIdeal.Chunks.K8.take 61) WK (Proc.devRef .tc Cert.KernelIdeal.main_v568) = after (Cert.ReferenceIdeal.Chunks.R8.take 68) WR (Proc.devRef .tc Cert.ReferenceIdeal.main_v655) := by
  funext i
  obtain ⟨n, rfl⟩ : ∃ n : Fin 2097152, i = ix1 n := ⟨i 0, eq_ix1 i⟩
  simp only [Cert.KernelIdeal.Chunks.K8, Cert.ReferenceIdeal.Chunks.R8, List.take_succ_cons, List.take_zero, List.drop_succ_cons, List.drop_zero]
  after_results_simp
  show shapeCast Cert.KernelIdeal.S2097152 (extractStridedSlice Cert.KernelIdeal.S2097152x1 ![0, 1] (WK (Proc.devRef .tc Cert.KernelIdeal.main_arg4)) _) _ (ix1 n)
    = shapeCast Cert.ReferenceIdeal.S2097152 (extractStridedSlice Cert.ReferenceIdeal.S2097152x1 ![0, 0] (concatenate Cert.ReferenceIdeal.S2097152x2 1 _ _) _) _ (ix1 n)
  rw [reshape_col, reshape_col, slice2_axis1_apply (n0 := 2097152) (n1 := 2) (m := 1) 1 _ _ n 0 1 rfl, slice2_axis1_apply (n0 := 2097152) (n1 := 2) (m := 1) 0 _ _ n 0 0 rfl, cat2_col0]
  after_results_simp
  rw [bc_vec_col (by decide)]
  show WK (Proc.devRef .tc Cert.KernelIdeal.main_arg4) (ix2 n 1)
    = shapeCast Cert.ReferenceIdeal.S2097152 (extractStridedSlice Cert.ReferenceIdeal.S2097152x1 ![0, 1] (WR (Proc.devRef .tc Cert.ReferenceIdeal.main_arg4)) _) _ (ix1 n)
  rw [reshape_col, slice2_axis1_apply (n0 := 2097152) (n1 := 2) (m := 1) 1 _ _ n 0 1 rfl, h]

set_option maxHeartbeats 4000000 in
/-- The second coordinate, column 0 of the third argument. -/
theorem nhl_colV (WK : Valuation Cert.KernelIdeal.τ Cert.KernelIdeal.sig (Elt F)) (WR : Valuation Cert.ReferenceIdeal.τ Cert.ReferenceIdeal.sig (Elt F)) (h : WK (Proc.devRef .tc Cert.KernelIdeal.main_arg2) = WR (Proc.devRef .tc Cert.ReferenceIdeal.main_arg2)) :
    after (Cert.KernelIdeal.Chunks.K8.take 61) WK (Proc.devRef .tc Cert.KernelIdeal.main_v570) = after (Cert.ReferenceIdeal.Chunks.R8.take 68) WR (Proc.devRef .tc Cert.ReferenceIdeal.main_v660) := by
  funext i
  obtain ⟨n, rfl⟩ : ∃ n : Fin 2097152, i = ix1 n := ⟨i 0, eq_ix1 i⟩
  simp only [Cert.KernelIdeal.Chunks.K8, Cert.ReferenceIdeal.Chunks.R8, List.take_succ_cons, List.take_zero, List.drop_succ_cons, List.drop_zero]
  after_results_simp
  show shapeCast Cert.KernelIdeal.S2097152 (extractStridedSlice Cert.KernelIdeal.S2097152x1 ![0, 0] (WK (Proc.devRef .tc Cert.KernelIdeal.main_arg2)) _) _ (ix1 n)
    = shapeCast Cert.ReferenceIdeal.S2097152 (extractStridedSlice Cert.ReferenceIdeal.S2097152x1 ![0, 1] (concatenate Cert.ReferenceIdeal.S2097152x2 1 _ _) _) _ (ix1 n)
  rw [reshape_col, reshape_col, slice2_axis1_apply (n0 := 2097152) (n1 := 2) (m := 1) 0 _ _ n 0 0 rfl, slice2_axis1_apply (n0 := 2097152) (n1 := 2) (m := 1) 1 _ _ n 0 1 rfl, cat2_col1]
  after_results_simp
  rw [bc_vec_col (by decide)]
  show WK (Proc.devRef .tc Cert.KernelIdeal.main_arg2) (ix2 n 0)
    = shapeCast Cert.ReferenceIdeal.S2097152 (extractStridedSlice Cert.ReferenceIdeal.S2097152x1 ![0, 0] (WR (Proc.devRef .tc Cert.ReferenceIdeal.main_arg2)) _) _ (ix1 n)
  rw [reshape_col, slice2_axis1_apply (n0 := 2097152) (n1 := 2) (m := 1) 0 _ _ n 0 0 rfl, h]

/-! ## The first piece: table, fractions, index vectors -/

set_option maxHeartbeats 4000000 in
/-- The normalised table: the kernel's entry (l, u, v) is the reference's entry (u, v, l). -/
theorem nhl_a_tab (WK : Valuation Cert.KernelIdeal.τ Cert.KernelIdeal.sig (Elt F)) (WR : Valuation Cert.ReferenceIdeal.τ Cert.ReferenceIdeal.sig (Elt F)) (hT : ∀ (l : Fin 4) (u v : Fin 32), WK (Proc.devRef .tc Cert.KernelIdeal.main_v7) (ix3 l u v) = WR (Proc.devRef .tc Cert.ReferenceIdeal.main_arg16) (ix3 u v l)) (l : Fin 4) (u v : Fin 32) :
    after (Cert.KernelIdeal.Chunks.K8.take 61) WK (Proc.devRef .tc Cert.KernelIdeal.main_v581) (ix3 l u v) = after (Cert.ReferenceIdeal.Chunks.R8.take 68) WR (Proc.devRef .tc Cert.ReferenceIdeal.main_v653) (ix3 u v l) := by
  simp only [Cert.KernelIdeal.Chunks.K8, Cert.ReferenceIdeal.Chunks.R8, List.take_succ_cons, List.take_zero, List.drop_succ_cons, List.drop_zero]
  after_results_simp
  show triS (WK (Proc.devRef .tc Cert.KernelIdeal.main_v7) (ix3 l u v)) = triS (WR (Proc.devRef .tc Cert.ReferenceIdeal.main_arg16) (ix3 u v l))
  rw [hT]

set_option maxHeartbeats 4000000 in
/-- The fraction along the first table axis: the kernel's row [1 × N] at n is the reference's column [N × 1] at n. -/
theorem nhl_a_fu (WK : Valuation Cert.KernelIdeal.τ Cert.KernelIdeal.sig (Elt F)) (WR : Valuation Cert.ReferenceIdeal.τ Cert.ReferenceIdeal.sig (Elt F)) (h0 : WK (Proc.devRef .tc Cert.KernelIdeal.main_arg4) = WR (Proc.devRef .tc Cert.ReferenceIdeal.main_arg4)) (h1 : WK (Proc.devRef .tc Cert.KernelIdeal.main_arg2) = WR (Proc.devRef .tc Cert.ReferenceIdeal.main_arg2)) (n : Fin 2097152) :
    after (Cert.KernelIdeal.Chunks.K8.take 61) WK (Proc.devRef .tc Cert.KernelIdeal.main_v591) (ix2 0 n) = after (Cert.ReferenceIdeal.Chunks.R8.take 68) WR (Proc.devRef .tc Cert.ReferenceIdeal.main_v667) (ix2 n 0) := by
  have eU := nhl_colU WK WR h0
  simp only [Cert.KernelIdeal.Chunks.K8, Cert.ReferenceIdeal.Chunks.R8, List.take_succ_cons, List.take_zero, List.drop_succ_cons, List.drop_zero] at eU ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at eU ⊢
  rw [bc_vec_row (by decide), bc_vec_col (by decide), eU]
  first | done | rfl

set_option maxHeartbeats 4000000 in
/-- The fraction along the second table axis, likewise. -/
theorem nhl_a_fv (WK : Valuation Cert.KernelIdeal.τ Cert.KernelIdeal.sig (Elt F)) (WR : Valuation Cert.ReferenceIdeal.τ Cert.ReferenceIdeal.sig (Elt F)) (h0 : WK (Proc.devRef .tc Cert.KernelIdeal.main_arg4) = WR (Proc.devRef .tc Cert.ReferenceIdeal.main_arg4)) (h1 : WK (Proc.devRef .tc Cert.KernelIdeal.main_arg2) = WR (Proc.devRef .tc Cert.ReferenceIdeal.main_arg2)) (n : Fin 2097152) :
    after (Cert.KernelIdeal.Chunks.K8.take 61) WK (Proc.devRef .tc Cert.KernelIdeal.main_v593) (ix2 0 n) = after (Cert.ReferenceIdeal.Chunks.R8.take 68) WR (Proc.devRef .tc Cert.ReferenceIdeal.main_v669) (ix2 n 0) := by
  have eV := nhl_colV WK WR h1
  simp only [Cert.KernelIdeal.Chunks.K8, Cert.ReferenceIdeal.Chunks.R8, List.take_succ_cons, List.take_zero, List.drop_succ_cons, List.drop_zero] at eV ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at eV ⊢
  rw [bc_vec_row (by decide), bc_vec_col (by decide), eV]
  first | done | rfl

set_option maxHeartbeats 4000000 in
/-- The lower index along the first axis: the same integer vector on both sides. -/
theorem nhl_a_u0 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg4) = WR (Proc.devRef .tc Cert.ReferenceIdeal.main_arg4)) (h1 : WK (Proc.devRef .tc Cert.KernelIdeal.main_arg2) = WR (Proc.devRef .tc Cert.ReferenceIdeal.main_arg2)) :
    after (Cert.KernelIdeal.Chunks.K8.take 61) WK (Proc.devRef .tc Cert.KernelIdeal.main_v594) = after (Cert.ReferenceIdeal.Chunks.R8.take 68) WR (Proc.devRef .tc Cert.ReferenceIdeal.main_v670) := by
  have eU := nhl_colU WK WR h0
  simp only [Cert.KernelIdeal.Chunks.K8, Cert.ReferenceIdeal.Chunks.R8, List.take_succ_cons, List.take_zero, List.drop_succ_cons, List.drop_zero] at eU ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at eU ⊢
  rw [eU]
  first | done | rfl

set_option maxHeartbeats 4000000 in
/-- The lower index along the second axis. -/
theorem nhl_a_v0 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg4) = WR (Proc.devRef .tc Cert.ReferenceIdeal.main_arg4)) (h1 : WK (Proc.devRef .tc Cert.KernelIdeal.main_arg2) = WR (Proc.devRef .tc Cert.ReferenceIdeal.main_arg2)) :
    after (Cert.KernelIdeal.Chunks.K8.take 61) WK (Proc.devRef .tc Cert.KernelIdeal.main_v595) = after (Cert.ReferenceIdeal.Chunks.R8.take 68) WR (Proc.devRef .tc Cert.ReferenceIdeal.main_v671) := by
  have eV := nhl_colV WK WR h1
  simp only [Cert.KernelIdeal.Chunks.K8, Cert.ReferenceIdeal.Chunks.R8, List.take_succ_cons, List.take_zero, List.drop_succ_cons, List.drop_zero] at eV ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at eV ⊢
  rw [eV]
  first | done | rfl

set_option maxHeartbeats 4000000 in
/-- The upper index along the first axis. -/
theorem nhl_a_u1 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg4) = WR (Proc.devRef .tc Cert.ReferenceIdeal.main_arg4)) (h1 : WK (Proc.devRef .tc Cert.KernelIdeal.main_arg2) = WR (Proc.devRef .tc Cert.ReferenceIdeal.main_arg2)) :
    after (Cert.KernelIdeal.Chunks.K8.take 61) WK (Proc.devRef .tc Cert.KernelIdeal.main_v599) = after (Cert.ReferenceIdeal.Chunks.R8.take 68) WR (Proc.devRef .tc Cert.ReferenceIdeal.main_v675) := by
  have eU := nhl_colU WK WR h0
  simp only [Cert.KernelIdeal.Chunks.K8, Cert.ReferenceIdeal.Chunks.R8, List.take_succ_cons, List.take_zero, List.drop_succ_cons, List.drop_zero] at eU ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at eU ⊢
  rw [eU]
  first | done | rfl

set_option maxHeartbeats 4000000 in
/-- The upper index along the second axis. -/
theorem nhl_a_v1 (WK : Valuation Cert.KernelIdeal.τ Cert.KernelIdeal.sig (Elt F)) (WR : Valuation Cert.ReferenceIdeal.τ Cert.ReferenceIdeal.sig (Elt F)) (h0 : WK (Proc.devRef .tc Cert.KernelIdeal.main_arg4) = WR (Proc.devRef .tc Cert.ReferenceIdeal.main_arg4)) (h1 : WK (Proc.devRef .tc Cert.KernelIdeal.main_arg2) = WR (Proc.devRef .tc Cert.ReferenceIdeal.main_arg2)) :
    after (Cert.KernelIdeal.Chunks.K8.take 61) WK (Proc.devRef .tc Cert.KernelIdeal.main_v603) = after (Cert.ReferenceIdeal.Chunks.R8.take 68) WR (Proc.devRef .tc Cert.ReferenceIdeal.main_v679) := by
  have eV := nhl_colV WK WR h1
  simp only [Cert.KernelIdeal.Chunks.K8, Cert.ReferenceIdeal.Chunks.R8, List.take_succ_cons, List.take_zero, List.drop_succ_cons, List.drop_zero] at eV ⊢
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'] at eV ⊢
  rw [eV]
  first | done | rfl

/-! ## The second piece leaves the first piece's values alone -/

set_option maxHeartbeats 4000000 in
theorem nhl_keepK (W : Valuation Cert.KernelIdeal.τ Cert.KernelIdeal.sig (Elt F)) :
    after ((Cert.KernelIdeal.Chunks.K8.drop 61).take 54) W (Proc.devRef .tc Cert.KernelIdeal.main_v581) = W (Proc.devRef .tc Cert.KernelIdeal.main_v581)
    ∧ after ((Cert.KernelIdeal.Chunks.K8.drop 61).take 54) W (Proc.devRef .tc Cert.KernelIdeal.main_v591) = W (Proc.devRef .tc Cert.KernelIdeal.main_v591)
    ∧ after ((Cert.KernelIdeal.Chunks.K8.drop 61).take 54) W (Proc.devRef .tc Cert.KernelIdeal.main_v593) = W (Proc.devRef .tc Cert.KernelIdeal.main_v593)
    ∧ after ((Cert.KernelIdeal.Chunks.K8.drop 61).take 54) W (Proc.devRef .tc Cert.KernelIdeal.main_v594) = W (Proc.devRef .tc Cert.KernelIdeal.main_v594)
    ∧ after ((Cert.KernelIdeal.Chunks.K8.drop 61).take 54) W (Proc.devRef .tc Cert.KernelIdeal.main_v599) = W (Proc.devRef .tc Cert.KernelIdeal.main_v599)
    ∧ after ((Cert.KernelIdeal.Chunks.K8.drop 61).take 54) W (Proc.devRef .tc Cert.KernelIdeal.main_v603) = W (Proc.devRef .tc Cert.KernelIdeal.main_v603) := by
  refine ⟨?_, ?_, ?_, ?_, ?_, ?_⟩ <;> (simp only [Cert.KernelIdeal.Chunks.K8, List.take_succ_cons, List.take_zero, List.drop_succ_cons, List.drop_zero]; after_results_simp)

set_option maxHeartbeats 4000000 in
theorem nhl_keepR (W : Valuation Cert.ReferenceIdeal.τ Cert.ReferenceIdeal.sig (Elt F)) :
    after ((Cert.ReferenceIdeal.Chunks.R8.drop 68).take 54) W (Proc.devRef .tc Cert.ReferenceIdeal.main_v653) = W (Proc.devRef .tc Cert.ReferenceIdeal.main_v653)
    ∧ after ((Cert.ReferenceIdeal.Chunks.R8.drop 68).take 54) W (Proc.devRef .tc Cert.ReferenceIdeal.main_v667) = W (Proc.devRef .tc Cert.ReferenceIdeal.main_v667)
    ∧ after ((Cert.ReferenceIdeal.Chunks.R8.drop 68).take 54) W (Proc.devRef .tc Cert.ReferenceIdeal.main_v669) = W (Proc.devRef .tc Cert.ReferenceIdeal.main_v669)
    ∧ after ((Cert.ReferenceIdeal.Chunks.R8.drop 68).take 54) W (Proc.devRef .tc Cert.ReferenceIdeal.main_v670) = W (Proc.devRef .tc Cert.ReferenceIdeal.main_v670)
    ∧ after ((Cert.ReferenceIdeal.Chunks.R8.drop 68).take 54) W (Proc.devRef .tc Cert.ReferenceIdeal.main_v675) = W (Proc.devRef .tc Cert.ReferenceIdeal.main_v675)
    ∧ after ((Cert.ReferenceIdeal.Chunks.R8.drop 68).take 54) W (Proc.devRef .tc Cert.ReferenceIdeal.main_v679) = W (Proc.devRef .tc Cert.ReferenceIdeal.main_v679) := by
  refine ⟨?_, ?_, ?_, ?_, ?_, ?_⟩ <;> (simp only [Cert.ReferenceIdeal.Chunks.R8, List.take_succ_cons, List.take_zero, List.drop_succ_cons, List.drop_zero]; after_results_simp)

/-! ## The second piece: the first two corners -/

set_option maxHeartbeats 4000000 in
theorem nhl_b (WK : Valuation Cert.KernelIdeal.τ Cert.KernelIdeal.sig (Elt F)) (WR : Valuation Cert.ReferenceIdeal.τ Cert.ReferenceIdeal.sig (Elt F))
    (htab : ∀ (l : Fin 4) (u v : Fin 32), WK (Proc.devRef .tc Cert.KernelIdeal.main_v581) (ix3 l u v) = WR (Proc.devRef .tc Cert.ReferenceIdeal.main_v653) (ix3 u v l))
    (hfu : ∀ n : Fin 2097152, WK (Proc.devRef .tc Cert.KernelIdeal.main_v591) (ix2 0 n) = WR (Proc.devRef .tc Cert.ReferenceIdeal.main_v667) (ix2 n 0))
    (hfv : ∀ n : Fin 2097152, WK (Proc.devRef .tc Cert.KernelIdeal.main_v593) (ix2 0 n) = WR (Proc.devRef .tc Cert.ReferenceIdeal.main_v669) (ix2 n 0))
    (hu0 : WK (Proc.devRef .tc Cert.KernelIdeal.main_v594) = WR (Proc.devRef .tc Cert.ReferenceIdeal.main_v670)) (hv0 : WK (Proc.devRef .tc Cert.KernelIdeal.main_v595) = WR (Proc.devRef .tc Cert.ReferenceIdeal.main_v671))
    (hu1 : WK (Proc.devRef .tc Cert.KernelIdeal.main_v599) = WR (Proc.devRef .tc Cert.ReferenceIdeal.main_v675)) (l : Fin 4) (n : Fin 2097152) :
    after ((Cert.KernelIdeal.Chunks.K8.drop 61).take 54) WK (Proc.devRef .tc Cert.KernelIdeal.main_v646) (ix2 l n) = after ((Cert.ReferenceIdeal.Chunks.R8.drop 68).take 54) WR (Proc.devRef .tc Cert.ReferenceIdeal.main_v722) (ix2 n l) := by
  simp only [Cert.KernelIdeal.Chunks.K8, Cert.ReferenceIdeal.Chunks.R8, List.take_succ_cons, List.take_zero, List.drop_succ_cons, List.drop_zero]
  after_results_simp
  simp only [addf_app, mulf_app]
  rw [gather_last2 Cert.KernelIdeal.gather_S4x32x32_S2097152x2_S4x2097152_0_12_n_n_12_1_411 rfl rfl rfl rfl rfl (by decide) (by decide), gather_last2 Cert.KernelIdeal.gather_S4x32x32_S2097152x2_S4x2097152_0_12_n_n_12_1_411 rfl rfl rfl rfl rfl (by decide) (by decide), gather_first2 Cert.ReferenceIdeal.gather_S32x32x4_S2097152x2_S2097152x4_1_01_n_n_01_1_114 rfl rfl rfl rfl rfl (by decide) (by decide), gather_first2 Cert.ReferenceIdeal.gather_S32x32x4_S2097152x2_S2097152x4_1_01_n_n_01_1_114 rfl rfl rfl rfl rfl (by decide) (by decide)]
  rw [cat2_col0, cat2_col1, cat2_col0, cat2_col1, cat2_col0, cat2_col1, cat2_col0, cat2_col1]
  after_results_simp
  repeat rw [bc_vec_col (by decide)]
  repeat rw [bc_row (by decide)]
  repeat rw [bc_col (by decide)]
  simp only [subf_app, htab, hfu, hfv, hu0, hv0, hu1]
  first | done | rfl

/-! ## The third piece: the last two corners, added to the first two -/

set_option maxHeartbeats 4000000 in
theorem nhl_c (WK : Valuation Cert.KernelIdeal.τ Cert.KernelIdeal.sig (Elt F)) (WR : Valuation Cert.ReferenceIdeal.τ Cert.ReferenceIdeal.sig (Elt F))
    (hacc : ∀ (l : Fin 4) (n : Fin 2097152), WK (Proc.devRef .tc Cert.KernelIdeal.main_v646) (ix2 l n) = WR (Proc.devRef .tc Cert.ReferenceIdeal.main_v722) (ix2 n l))
    (htab : ∀ (l : Fin 4) (u v : Fin 32), WK (Proc.devRef .tc Cert.KernelIdeal.main_v581) (ix3 l u v) = WR (Proc.devRef .tc Cert.ReferenceIdeal.main_v653) (ix3 u v l))
    (hfu : ∀ n : Fin 2097152, WK (Proc.devRef .tc Cert.KernelIdeal.main_v591) (ix2 0 n) = WR (Proc.devRef .tc Cert.ReferenceIdeal.main_v667) (ix2 n 0))
    (hfv : ∀ n : Fin 2097152, WK (Proc.devRef .tc Cert.KernelIdeal.main_v593) (ix2 0 n) = WR (Proc.devRef .tc Cert.ReferenceIdeal.main_v669) (ix2 n 0))
    (hu0 : WK (Proc.devRef .tc Cert.KernelIdeal.main_v594) = WR (Proc.devRef .tc Cert.ReferenceIdeal.main_v670)) (hu1 : WK (Proc.devRef .tc Cert.KernelIdeal.main_v599) = WR (Proc.devRef .tc Cert.ReferenceIdeal.main_v675))
    (hv1 : WK (Proc.devRef .tc Cert.KernelIdeal.main_v603) = WR (Proc.devRef .tc Cert.ReferenceIdeal.main_v679)) (l : Fin 4) (n : Fin 2097152) :
    after ((Cert.KernelIdeal.Chunks.K8.drop 61).drop 54) WK (Proc.devRef .tc Cert.KernelIdeal.main_v686) (ix2 l n) = after ((Cert.ReferenceIdeal.Chunks.R8.drop 68).drop 54) WR (Proc.devRef .tc Cert.ReferenceIdeal.main_v762) (ix2 n l) := by
  simp only [Cert.KernelIdeal.Chunks.K8, Cert.ReferenceIdeal.Chunks.R8, List.take_succ_cons, List.take_zero, List.drop_succ_cons, List.drop_zero]
  after_results_simp
  simp only [addf_app, mulf_app]
  rw [gather_last2 Cert.KernelIdeal.gather_S4x32x32_S2097152x2_S4x2097152_0_12_n_n_12_1_411 rfl rfl rfl rfl rfl (by decide) (by decide), gather_last2 Cert.KernelIdeal.gather_S4x32x32_S2097152x2_S4x2097152_0_12_n_n_12_1_411 rfl rfl rfl rfl rfl (by decide) (by decide), gather_first2 Cert.ReferenceIdeal.gather_S32x32x4_S2097152x2_S2097152x4_1_01_n_n_01_1_114 rfl rfl rfl rfl rfl (by decide) (by decide), gather_first2 Cert.ReferenceIdeal.gather_S32x32x4_S2097152x2_S2097152x4_1_01_n_n_01_1_114 rfl rfl rfl rfl rfl (by decide) (by decide)]
  rw [cat2_col0, cat2_col1, cat2_col0, cat2_col1, cat2_col0, cat2_col1, cat2_col0, cat2_col1]
  after_results_simp
  repeat rw [bc_vec_col (by decide)]
  repeat rw [bc_row (by decide)]
  repeat rw [bc_col (by decide)]
  simp only [subf_app, hacc, htab, hfu, hfv, hu0, hu1, hv1]
  first | done | rfl

/-- The chunk's result, read at an index, from any contents that agree on what the chunk reads. -/
theorem nhl_chunk (WK : Valuation Cert.KernelIdeal.τ Cert.KernelIdeal.sig (Elt F)) (WR : Valuation Cert.ReferenceIdeal.τ Cert.ReferenceIdeal.sig (Elt F)) (h0 : WK (Proc.devRef .tc Cert.KernelIdeal.main_arg4) = WR (Proc.devRef .tc Cert.ReferenceIdeal.main_arg4)) (h1 : WK (Proc.devRef .tc Cert.KernelIdeal.main_arg2) = WR (Proc.devRef .tc Cert.ReferenceIdeal.main_arg2)) (hT : ∀ (l : Fin 4) (u v : Fin 32), WK (Proc.devRef .tc Cert.KernelIdeal.main_v7) (ix3 l u v) = WR (Proc.devRef .tc Cert.ReferenceIdeal.main_arg16) (ix3 u v l)) (l : Fin 4) (n : Fin 2097152) :
    after Cert.KernelIdeal.Chunks.K8 WK (Proc.devRef .tc Cert.KernelIdeal.main_v686) (ix2 l n) = after Cert.ReferenceIdeal.Chunks.R8 WR (Proc.devRef .tc Cert.ReferenceIdeal.main_v762) (ix2 n l) := by
  rw [after3 61 54 Cert.KernelIdeal.Chunks.K8 WK, after3 68 54 Cert.ReferenceIdeal.Chunks.R8 WR]
  obtain ⟨k1, k2, k3, k4, k5, k6⟩ := nhl_keepK (after (Cert.KernelIdeal.Chunks.K8.take 61) WK)
  obtain ⟨r1, r2, r3, r4, r5, r6⟩ := nhl_keepR (after (Cert.ReferenceIdeal.Chunks.R8.take 68) WR)
  refine nhl_c (after ((Cert.KernelIdeal.Chunks.K8.drop 61).take 54) (after (Cert.KernelIdeal.Chunks.K8.take 61) WK)) (after ((Cert.ReferenceIdeal.Chunks.R8.drop 68).take 54) (after (Cert.ReferenceIdeal.Chunks.R8.take 68) WR)) ?_ ?_ ?_ ?_ ?_ ?_ ?_ l n
  · intro l n
    exact nhl_b (after (Cert.KernelIdeal.Chunks.K8.take 61) WK) (after (Cert.ReferenceIdeal.Chunks.R8.take 68) WR) (nhl_a_tab WK WR hT) (nhl_a_fu WK WR h0 h1) (nhl_a_fv WK WR h0 h1)
      (nhl_a_u0 WK WR h0 h1) (nhl_a_v0 WK WR h0 h1) (nhl_a_u1 WK WR h0 h1) l n
  · intro l u v
    rw [k1, r1]
    exact nhl_a_tab WK WR hT l u v
  · intro n
    rw [k2, r2]
    exact nhl_a_fu WK WR h0 h1 n
  · intro n
    rw [k3, r3]
    exact nhl_a_fv WK WR h0 h1 n
  · rw [k4, r4]
    exact nhl_a_u0 WK WR h0 h1
  · rw [k5, r5]
    exact nhl_a_u1 WK WR h0 h1
  · rw [k6, r6]
    exact nhl_a_v1 WK WR h0 h1

/-- Lookup 8 (the bilinear read of the normalised 32 × 32 × 4 table at column 1 of the fifth argument and column 0 of the third): the kernel's channel-first result at (l, n) is the reference's channel-last result at (n, l). -/
theorem corr_nhl (VK : Valuation Cert.KernelIdeal.τ Cert.KernelIdeal.sig (Elt F)) (VR : Valuation Cert.ReferenceIdeal.τ Cert.ReferenceIdeal.sig (Elt F))
    (h2 : KV VK Cert.KernelIdeal.main_arg2 = RV VR Cert.ReferenceIdeal.main_arg2) (h4 : KV VK Cert.KernelIdeal.main_arg4 = RV VR Cert.ReferenceIdeal.main_arg4)
    (hT : ∀ (l : Fin 4) (u v : Fin 32), KV VK Cert.KernelIdeal.main_v7 (ix3 l u v) = RV VR Cert.ReferenceIdeal.main_arg16 (ix3 u v l)) :
    ∀ (l : Fin 4) (n : Fin 2097152), KV VK Cert.KernelIdeal.main_v686 (ix2 l n) = RV VR Cert.ReferenceIdeal.main_v762 (ix2 n l) := by
  intro l n
  show Cert.KernelIdeal.KRead.St10 VK (Proc.devRef .tc Cert.KernelIdeal.main_v686) (ix2 l n)
    = Cert.ReferenceIdeal.RRead.St11 VR (Proc.devRef .tc Cert.ReferenceIdeal.main_v762) (ix2 n l)
  rw [Cert.KernelIdeal.KRead.out_K8 VK (r := Cert.KernelIdeal.main_v686) (by decide), Cert.ReferenceIdeal.RRead.out_R8 VR (r := Cert.ReferenceIdeal.main_v762) (by decide)]
  refine nhl_chunk (Cert.KernelIdeal.KRead.St8 VK) (Cert.ReferenceIdeal.RRead.St9 VR) ?_ ?_ ?_ l n
  · rw [Cert.KernelIdeal.KRead.in_K8 VK (r := Cert.KernelIdeal.main_arg4) (by decide), Cert.ReferenceIdeal.RRead.in_R8 VR (r := Cert.ReferenceIdeal.main_arg4) (by decide)]
    exact h4
  · rw [Cert.KernelIdeal.KRead.in_K8 VK (r := Cert.KernelIdeal.main_arg2) (by decide), Cert.ReferenceIdeal.RRead.in_R8 VR (r := Cert.ReferenceIdeal.main_arg2) (by decide)]
    exact h2
  · intro l u v
    rw [Cert.KernelIdeal.KRead.in_K8 VK (r := Cert.KernelIdeal.main_v7) (by decide), Cert.ReferenceIdeal.RRead.in_R8 VR (r := Cert.ReferenceIdeal.main_arg16) (by decide)]
    exact hT l u v

end Cert.Bridge

end
-- ==== Proof.Spec.lean ====
/-
  The shading composition of one row, as a function of its 29 features, over the extended reals.

  Both programs end by combining, row by row, twelve scalar inputs and seventeen looked-up table values into two
  numbers `x` and `y`. The features of a row, by position: 0 roughNoh₁, 1 anisoToh₁, 2 nDotLV₀ (not read by the composition),
  3 nDotLV₁, 4 metallicity, 5 metalLoh₁, 6 lumCs₀, 7 lumCs₁, 8 spst₀, 9 spst₁, 10 shst₀, 11 shst₁, 12–14 rsEnc,
  15–17 raCoefs, 18–19 cgCoefs, 20 vTerm, 21–24 nlvCoefs, 25–28 nhlCoefs. The definitions below follow the
  operations in the order and grouping in which the kernel's body applies them (each product and sum binary, left to
  right), with the float constants as their binary values: the reference applies the same operations in the same order.
-/
import Idealize.ShloMosaic.PureOps.Ideal

noncomputable section

namespace Cert.Spec

open Idealize.ShloMosaic

/-- The constants 1, 0.25, 0.1 (as its nearest binary32), 0.0625. -/
abbrev c1 : EReal := Ideal.ofBits .f32 0x3F800000#32
abbrev c025 : EReal := Ideal.ofBits .f32 0x3E800000#32
abbrev c01 : EReal := Ideal.ofBits .f32 0x3DCCCCCD#32
abbrev c00625 : EReal := Ideal.ofBits .f32 0x3D800000#32

variable (f : Fin 29 → EReal)

/-- roughNoh₁ squared. -/
def noh2 : EReal := f 0 * f 0
/-- The anisotropic denominator raCoefs₀·anisoToh₁² + raCoefs₁·noh2 + raCoefs₂. -/
def den : EReal := f 15 * (f 1 * f 1) + f 16 * noh2 f + f 17
/-- 0.25 / (nDotLV₁ · den²). -/
def dTerm : EReal := Ideal.div c025 (f 3 * (den f * den f))
/-- 1 − metallicity. -/
def omm : EReal := c1 - f 4
/-- (1 − metallicity) · lumCs₀. -/
def cd : EReal := omm f * f 6
/-- spst₀·0.1·(1 − metallicity)·spst₁ + metallicity·lumCs₀. -/
def cm0 : EReal := f 8 * c01 * omm f * f 9 + f 4 * f 6
/-- spst₀·0.1·(1 − metallicity)·(1 − spst₁). -/
def cm1 : EReal := f 8 * c01 * omm f * (c1 - f 9)
/-- shst₀·(1 − metallicity)·shst₁. -/
def cs0 : EReal := f 10 * omm f * f 11
/-- shst₀·(1 − metallicity)·(1 − shst₁). -/
def cs1 : EReal := f 10 * omm f * (c1 - f 11)
/-- 0.0625·lumCs₁. -/
def cc : EReal := c00625 * f 7

/-- The first result of a row. -/
def xOf : EReal :=
  f 12 * cd f * f 5 * f 22 + f 13 * cd f * f 23 + f 14 * cd f * f 24 + cm0 f * f 20 * f 27 * dTerm f + cs0 f * f 25

/-- The second result of a row. -/
def yOf : EReal :=
  ((c1 - cm1 f) * f 28 + cm1 f) * f 20 * dTerm f + cs1 f * f 25
    + Ideal.div (cc f * f 26 * f 21) (f 3 * (f 18 * noh2 f + f 19))

end Cert.Spec

end
-- ==== Proof.BlockRefComp.lean ====
/-
  The reference program's shading combination, against the shared specification.

  The reference ends with two chunks of elementwise arithmetic: after its third lookup it computes, per row, the
  mixing coefficients (diffuse, two metal, two sheen, one coat) and scales the encoder lookup by the diffuse one; after
  its eighth lookup it combines the row's inputs, the six lookups' values and those coefficients into the row's two
  results. Every array there has 2097152 rows, and every operation acts row by row: a column is cut out of a
  two-, three- or four-column array, flattened to a vector, multiplied, added, subtracted or divided elementwise, set
  up again as a column, and the two result columns are laid side by side. Reading each operation at row `n` turns
  the two chunks into scalar arithmetic on extended reals, which is the specification's `xOf` and `yOf` at the row's
  29 features, operation for operation in the same order and grouping.
-/
import proofs.«151772_j21234318312201_1_alg».proof.Proof.BridgeDefs
import proofs.«151772_j21234318312201_1_alg».proof.Proof.Spec
import Idealize.ShloMosaic.Lib.ValueIdx
import Idealize.ShloMosaic.Lib.ValueLayout
import Idealize.ShloMosaic.Lib.IdealHost
import Idealize.ShloMosaic.Lib.Pipeline.Value

noncomputable section

namespace Cert.Bridge.RefComp

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.Chunks

/-! ## The layout operations of the two chunks, read at an index

Every array of the composition has 2097152 rows; a row's scalar is held either as an element of a vector or as the one
column of a one-column matrix, and the operations below move between the two forms and pick or copy columns. Each
lemma names the one operand element a result element is. -/

section Layout
variable {α : Type}

/-! Column `c` of an array of two, three or four columns, cut out as a one-column matrix, reads at `(n, 0)` the
array's element `(n, c)`. -/

theorem col_2_0 (X : S2097152x2.Idx → α) (h : S2097152x2.Slices ![0, 0] S2097152x1) (n : Fin 2097152) :
    extractStridedSlice S2097152x1 ![0, 0] X h (ix2 n (0 : Fin 1)) = X (ix2 n (0 : Fin 2)) :=
  slice2_axis1_apply 0 X h n 0 0 rfl
theorem col_2_1 (X : S2097152x2.Idx → α) (h : S2097152x2.Slices ![0, 1] S2097152x1) (n : Fin 2097152) :
    extractStridedSlice S2097152x1 ![0, 1] X h (ix2 n (0 : Fin 1)) = X (ix2 n (1 : Fin 2)) :=
  slice2_axis1_apply 1 X h n 0 1 rfl
theorem col_3_0 (X : S2097152x3.Idx → α) (h : S2097152x3.Slices ![0, 0] S2097152x1) (n : Fin 2097152) :
    extractStridedSlice S2097152x1 ![0, 0] X h (ix2 n (0 : Fin 1)) = X (ix2 n (0 : Fin 3)) :=
  slice2_axis1_apply 0 X h n 0 0 rfl
theorem col_3_1 (X : S2097152x3.Idx → α) (h : S2097152x3.Slices ![0, 1] S2097152x1) (n : Fin 2097152) :
    extractStridedSlice S2097152x1 ![0, 1] X h (ix2 n (0 : Fin 1)) = X (ix2 n (1 : Fin 3)) :=
  slice2_axis1_apply 1 X h n 0 1 rfl
theorem col_3_2 (X : S2097152x3.Idx → α) (h : S2097152x3.Slices ![0, 2] S2097152x1) (n : Fin 2097152) :
    extractStridedSlice S2097152x1 ![0, 2] X h (ix2 n (0 : Fin 1)) = X (ix2 n (2 : Fin 3)) :=
  slice2_axis1_apply 2 X h n 0 2 rfl
theorem col_4_0 (X : S2097152x4.Idx → α) (h : S2097152x4.Slices ![0, 0] S2097152x1) (n : Fin 2097152) :
    extractStridedSlice S2097152x1 ![0, 0] X h (ix2 n (0 : Fin 1)) = X (ix2 n (0 : Fin 4)) :=
  slice2_axis1_apply 0 X h n 0 0 rfl
theorem col_4_1 (X : S2097152x4.Idx → α) (h : S2097152x4.Slices ![0, 1] S2097152x1) (n : Fin 2097152) :
    extractStridedSlice S2097152x1 ![0, 1] X h (ix2 n (0 : Fin 1)) = X (ix2 n (1 : Fin 4)) :=
  slice2_axis1_apply 1 X h n 0 1 rfl
theorem col_4_2 (X : S2097152x4.Idx → α) (h : S2097152x4.Slices ![0, 2] S2097152x1) (n : Fin 2097152) :
    extractStridedSlice S2097152x1 ![0, 2] X h (ix2 n (0 : Fin 1)) = X (ix2 n (2 : Fin 4)) :=
  slice2_axis1_apply 2 X h n 0 2 rfl
theorem col_4_3 (X : S2097152x4.Idx → α) (h : S2097152x4.Slices ![0, 3] S2097152x1) (n : Fin 2097152) :
    extractStridedSlice S2097152x1 ![0, 3] X h (ix2 n (0 : Fin 1)) = X (ix2 n (3 : Fin 4)) :=
  slice2_axis1_apply 3 X h n 0 3 rfl

/-- A one-column matrix flattened to a vector reads, at `n`, its element `(n, 0)`. -/
theorem flat_read (X : S2097152x1.Idx → α) (h : S2097152x1.ShapeCasts S2097152) (n : Fin 2097152) :
    shapeCast S2097152 X h (ix1 n) = X (ix2 n (0 : Fin 1)) :=
  shapeCast_apply X h _ _ (by
    rw [Shape.rowMajor_val_two, Shape.rowMajor_val_one]
    show n.val * 1 + 0 = n.val
    omega)

/-- A vector set up as a one-column matrix reads, at `(n, 0)`, its element `n`: the vector's axis can only be the
    matrix's first, the second having one element. -/
theorem colvec_read (dims : Fin S2097152.rank → Fin S2097152x1.rank) (X : S2097152.Idx → α)
    (h : S2097152.BroadcastsInDim S2097152x1 dims) (n : Fin 2097152) :
    broadcastInDim S2097152x1 dims h X (ix2 n (0 : Fin 1)) = X (ix1 n) := by
  have hd : dims 0 = 0 := by
    rcases h.2 0 with h1 | h1
    · exact absurd h1 (by decide)
    · match hd : dims 0 with
      | ⟨0, _⟩ => rfl
      | ⟨1, _⟩ => rw [hd] at h1; exact absurd (show (2097152 : ℕ) = 1 from h1) (by decide)
  exact broadcastInDim_apply _ h X _ _ (fun a => match a with
    | ⟨0, _⟩ => by
      show n.val = if (2097152 : ℕ) = 1 then 0 else ((ix2 n (0 : Fin 1)) (dims 0)).val
      rw [if_neg (by decide), hd])

/-- A one-column matrix copied into three columns reads, at `(n, k)`, its element `(n, 0)`: its long axis can only be
    the result's first. -/
theorem widen3_read (dims : Fin S2097152x1.rank → Fin S2097152x3.rank) (X : S2097152x1.Idx → α)
    (h : S2097152x1.BroadcastsInDim S2097152x3 dims) (n : Fin 2097152) (k : Fin 3) :
    broadcastInDim S2097152x3 dims h X (ix2 n k) = X (ix2 n (0 : Fin 1)) := by
  have hd : dims 0 = 0 := by
    rcases h.2 0 with h1 | h1
    · exact absurd h1 (by decide)
    · match hd : dims 0 with
      | ⟨0, _⟩ => rfl
      | ⟨1, _⟩ => rw [hd] at h1; exact absurd (show (2097152 : ℕ) = 3 from h1) (by decide)
  exact broadcastInDim_apply _ h X _ _ (fun a => match a with
    | ⟨0, _⟩ => by
      show n.val = if (2097152 : ℕ) = 1 then 0 else ((ix2 n k) (dims 0)).val
      rw [if_neg (by decide), hd]
    | ⟨1, _⟩ => by
      show (0 : ℕ) = if (1 : ℕ) = 1 then 0 else ((ix2 n k) (dims 1)).val
      rw [if_pos rfl])

/-- A scalar constant copied to every element of an array reads the constant's value everywhere. -/
theorem splat_const {t : Shape} (dims : Fin S_.rank → Fin t.rank) (h : S_.BroadcastsInDim t dims) (φ : FTy) (b : BitVec φ.bits)
    (j : t.Idx) : broadcastInDim t dims h (constant (F := Ideal) S_ φ b) j = Ideal.ofBits φ b := rfl

/-- Two one-column matrices can be joined into a two-column one only along the second axis. -/
theorem axis_one : ∀ a : Fin S2097152x2.rank, Shape.Concatenates [S2097152x1, S2097152x1] S2097152x2 a → a = 1 := by decide

/-- Two one-column matrices side by side: column 0 is the first. -/
theorem pair_left (a : Fin S2097152x2.rank) (A B : S2097152x1.Idx → α)
    (h : Shape.Concatenates [S2097152x1, S2097152x1] S2097152x2 a) (n : Fin 2097152) :
    concatenate S2097152x2 a [⟨S2097152x1, A⟩, ⟨S2097152x1, B⟩] h (ix2 n (0 : Fin 2)) = A (ix2 n (0 : Fin 1)) := by
  obtain rfl : a = 1 := axis_one a h
  exact concatenate_pair_apply_left 1 A B h _ rfl _ (fun b => match b with
    | ⟨0, _⟩ => rfl
    | ⟨1, _⟩ => rfl)

/-- Two one-column matrices side by side: column 1 is the second. -/
theorem pair_right (a : Fin S2097152x2.rank) (A B : S2097152x1.Idx → α)
    (h : Shape.Concatenates [S2097152x1, S2097152x1] S2097152x2 a) (n : Fin 2097152) :
    concatenate S2097152x2 a [⟨S2097152x1, A⟩, ⟨S2097152x1, B⟩] h (ix2 n (1 : Fin 2)) = B (ix2 n (0 : Fin 1)) := by
  obtain rfl : a = 1 := axis_one a h
  exact concatenate_pair_apply_right 1 A B h _ rfl rfl _ (fun b hb => match b with
    | ⟨0, _⟩ => rfl
    | ⟨1, _⟩ => absurd rfl hb) rfl

end Layout

/-! A flattening operation is printed at the shapes of the two buffers it joins; these are the shapes above. -/

theorem sc_v199 {α : Type} (X : main_v198.ty.shape.Idx → α) (h : main_v198.ty.shape.ShapeCasts main_v199.ty.shape) (i : main_v199.ty.shape.Idx) :
    shapeCast main_v199.ty.shape X h i = (shapeCast S2097152 (X : S2097152x1.Idx → α) h : S2097152.Idx → α) i := rfl
theorem sc_v202 {α : Type} (X : main_v201.ty.shape.Idx → α) (h : main_v201.ty.shape.ShapeCasts main_v202.ty.shape) (i : main_v202.ty.shape.Idx) :
    shapeCast main_v202.ty.shape X h i = (shapeCast S2097152 (X : S2097152x1.Idx → α) h : S2097152.Idx → α) i := rfl
theorem sc_v209 {α : Type} (X : main_v208.ty.shape.Idx → α) (h : main_v208.ty.shape.ShapeCasts main_v209.ty.shape) (i : main_v209.ty.shape.Idx) :
    shapeCast main_v209.ty.shape X h i = (shapeCast S2097152 (X : S2097152x1.Idx → α) h : S2097152.Idx → α) i := rfl
theorem sc_v212 {α : Type} (X : main_v211.ty.shape.Idx → α) (h : main_v211.ty.shape.ShapeCasts main_v212.ty.shape) (i : main_v212.ty.shape.Idx) :
    shapeCast main_v212.ty.shape X h i = (shapeCast S2097152 (X : S2097152x1.Idx → α) h : S2097152.Idx → α) i := rfl
theorem sc_v217 {α : Type} (X : main_v216.ty.shape.Idx → α) (h : main_v216.ty.shape.ShapeCasts main_v217.ty.shape) (i : main_v217.ty.shape.Idx) :
    shapeCast main_v217.ty.shape X h i = (shapeCast S2097152 (X : S2097152x1.Idx → α) h : S2097152.Idx → α) i := rfl
theorem sc_v224 {α : Type} (X : main_v223.ty.shape.Idx → α) (h : main_v223.ty.shape.ShapeCasts main_v224.ty.shape) (i : main_v224.ty.shape.Idx) :
    shapeCast main_v224.ty.shape X h i = (shapeCast S2097152 (X : S2097152x1.Idx → α) h : S2097152.Idx → α) i := rfl
theorem sc_v230 {α : Type} (X : main_v229.ty.shape.Idx → α) (h : main_v229.ty.shape.ShapeCasts main_v230.ty.shape) (i : main_v230.ty.shape.Idx) :
    shapeCast main_v230.ty.shape X h i = (shapeCast S2097152 (X : S2097152x1.Idx → α) h : S2097152.Idx → α) i := rfl
theorem sc_v235 {α : Type} (X : main_v234.ty.shape.Idx → α) (h : main_v234.ty.shape.ShapeCasts main_v235.ty.shape) (i : main_v235.ty.shape.Idx) :
    shapeCast main_v235.ty.shape X h i = (shapeCast S2097152 (X : S2097152x1.Idx → α) h : S2097152.Idx → α) i := rfl
theorem sc_v239 {α : Type} (X : main_v238.ty.shape.Idx → α) (h : main_v238.ty.shape.ShapeCasts main_v239.ty.shape) (i : main_v239.ty.shape.Idx) :
    shapeCast main_v239.ty.shape X h i = (shapeCast S2097152 (X : S2097152x1.Idx → α) h : S2097152.Idx → α) i := rfl
theorem sc_v244 {α : Type} (X : main_v243.ty.shape.Idx → α) (h : main_v243.ty.shape.ShapeCasts main_v244.ty.shape) (i : main_v244.ty.shape.Idx) :
    shapeCast main_v244.ty.shape X h i = (shapeCast S2097152 (X : S2097152x1.Idx → α) h : S2097152.Idx → α) i := rfl
theorem sc_v250 {α : Type} (X : main_v249.ty.shape.Idx → α) (h : main_v249.ty.shape.ShapeCasts main_v250.ty.shape) (i : main_v250.ty.shape.Idx) :
    shapeCast main_v250.ty.shape X h i = (shapeCast S2097152 (X : S2097152x1.Idx → α) h : S2097152.Idx → α) i := rfl
theorem sc_v764 {α : Type} (X : main_v763.ty.shape.Idx → α) (h : main_v763.ty.shape.ShapeCasts main_v764.ty.shape) (i : main_v764.ty.shape.Idx) :
    shapeCast main_v764.ty.shape X h i = (shapeCast S2097152 (X : S2097152x1.Idx → α) h : S2097152.Idx → α) i := rfl
theorem sc_v767 {α : Type} (X : main_v766.ty.shape.Idx → α) (h : main_v766.ty.shape.ShapeCasts main_v767.ty.shape) (i : main_v767.ty.shape.Idx) :
    shapeCast main_v767.ty.shape X h i = (shapeCast S2097152 (X : S2097152x1.Idx → α) h : S2097152.Idx → α) i := rfl
theorem sc_v769 {α : Type} (X : main_v768.ty.shape.Idx → α) (h : main_v768.ty.shape.ShapeCasts main_v769.ty.shape) (i : main_v769.ty.shape.Idx) :
    shapeCast main_v769.ty.shape X h i = (shapeCast S2097152 (X : S2097152x1.Idx → α) h : S2097152.Idx → α) i := rfl
theorem sc_v773 {α : Type} (X : main_v772.ty.shape.Idx → α) (h : main_v772.ty.shape.ShapeCasts main_v773.ty.shape) (i : main_v773.ty.shape.Idx) :
    shapeCast main_v773.ty.shape X h i = (shapeCast S2097152 (X : S2097152x1.Idx → α) h : S2097152.Idx → α) i := rfl
theorem sc_v777 {α : Type} (X : main_v776.ty.shape.Idx → α) (h : main_v776.ty.shape.ShapeCasts main_v777.ty.shape) (i : main_v777.ty.shape.Idx) :
    shapeCast main_v777.ty.shape X h i = (shapeCast S2097152 (X : S2097152x1.Idx → α) h : S2097152.Idx → α) i := rfl
theorem sc_v780 {α : Type} (X : main_v779.ty.shape.Idx → α) (h : main_v779.ty.shape.ShapeCasts main_v780.ty.shape) (i : main_v780.ty.shape.Idx) :
    shapeCast main_v780.ty.shape X h i = (shapeCast S2097152 (X : S2097152x1.Idx → α) h : S2097152.Idx → α) i := rfl
theorem sc_v822 {α : Type} (X : main_v821.ty.shape.Idx → α) (h : main_v821.ty.shape.ShapeCasts main_v822.ty.shape) (i : main_v822.ty.shape.Idx) :
    shapeCast main_v822.ty.shape X h i = (shapeCast S2097152 (X : S2097152x1.Idx → α) h : S2097152.Idx → α) i := rfl
theorem sc_v824 {α : Type} (X : main_v823.ty.shape.Idx → α) (h : main_v823.ty.shape.ShapeCasts main_v824.ty.shape) (i : main_v824.ty.shape.Idx) :
    shapeCast main_v824.ty.shape X h i = (shapeCast S2097152 (X : S2097152x1.Idx → α) h : S2097152.Idx → α) i := rfl
theorem sc_v827 {α : Type} (X : main_v826.ty.shape.Idx → α) (h : main_v826.ty.shape.ShapeCasts main_v827.ty.shape) (i : main_v827.ty.shape.Idx) :
    shapeCast main_v827.ty.shape X h i = (shapeCast S2097152 (X : S2097152x1.Idx → α) h : S2097152.Idx → α) i := rfl

/-! ## The mixing coefficients (the chunk after the third lookup)

Run from any contents `W`, the chunk leaves, in row `n` of five one-column arrays and of the three-column array
of scaled encoder values, the coefficients of that row computed from `W`'s metallicity vector, its three
two-column inputs and its encoder lookup. -/

/-- Element `(n, c)` of a matrix with 2097152 rows. -/
abbrev el2 {m : ℕ} (X : (⟨2, ![2097152, m]⟩ : Shape).Idx → EReal) (n : Fin 2097152) (c : Fin m) : EReal := X (ix2 n c)
/-- Element `n` of a vector of 2097152 elements. -/
abbrev el1 (X : (⟨1, ![2097152]⟩ : Shape).Idx → EReal) (n : Fin 2097152) : EReal := X (ix1 n)

set_option maxHeartbeats 4000000 in
set_option maxRecDepth 16384 in
/-- The first metal coefficient of row `n`. -/
theorem r3b_cm0 (W : Valuation τ sig (Elt Ideal)) (n : Fin 2097152) :
    el2 (StableHlo.after R3b W (Proc.devRef .tc main_v215)) n (0 : Fin 1)
      = el2 (W (Proc.devRef .tc main_arg6)) n (0 : Fin 2) * Cert.Spec.c01 * (Cert.Spec.c1 - el1 (W (Proc.devRef .tc main_v8)) n) * el2 (W (Proc.devRef .tc main_arg6)) n (1 : Fin 2) + el1 (W (Proc.devRef .tc main_v8)) n * el2 (W (Proc.devRef .tc main_arg8)) n (0 : Fin 2) := by
  show StableHlo.after R3b W (Proc.devRef .tc main_v215) (ix2 n (0 : Fin 1)) = _
  simp only [R3b]
  after_results_simp
  simp only [sc_v199, sc_v202, sc_v209, sc_v212, sc_v217, sc_v224, sc_v230, sc_v235, sc_v239, sc_v244, sc_v250, mulf_apply, subf_apply, addf_apply, flat_read, colvec_read, widen3_read, splat_const, col_2_0, col_2_1, col_3_0, col_3_1, col_3_2, col_4_0, col_4_1, col_4_2, col_4_3] <;> rfl

set_option maxHeartbeats 4000000 in
set_option maxRecDepth 16384 in
/-- The second metal coefficient of row `n`. -/
theorem r3b_cm1 (W : Valuation τ sig (Elt Ideal)) (n : Fin 2097152) :
    el2 (StableHlo.after R3b W (Proc.devRef .tc main_v228)) n (0 : Fin 1)
      = el2 (W (Proc.devRef .tc main_arg6)) n (0 : Fin 2) * Cert.Spec.c01 * (Cert.Spec.c1 - el1 (W (Proc.devRef .tc main_v8)) n) * (Cert.Spec.c1 - el2 (W (Proc.devRef .tc main_arg6)) n (1 : Fin 2)) := by
  show StableHlo.after R3b W (Proc.devRef .tc main_v228) (ix2 n (0 : Fin 1)) = _
  simp only [R3b]
  after_results_simp
  simp only [sc_v199, sc_v202, sc_v209, sc_v212, sc_v217, sc_v224, sc_v230, sc_v235, sc_v239, sc_v244, sc_v250, mulf_apply, subf_apply, addf_apply, flat_read, colvec_read, widen3_read, splat_const, col_2_0, col_2_1, col_3_0, col_3_1, col_3_2, col_4_0, col_4_1, col_4_2, col_4_3] <;> rfl

set_option maxHeartbeats 4000000 in
set_option maxRecDepth 16384 in
/-- The first sheen coefficient of row `n`. -/
theorem r3b_cs0 (W : Valuation τ sig (Elt Ideal)) (n : Fin 2097152) :
    el2 (StableHlo.after R3b W (Proc.devRef .tc main_v237)) n (0 : Fin 1)
      = el2 (W (Proc.devRef .tc main_arg7)) n (0 : Fin 2) * (Cert.Spec.c1 - el1 (W (Proc.devRef .tc main_v8)) n) * el2 (W (Proc.devRef .tc main_arg7)) n (1 : Fin 2) := by
  show StableHlo.after R3b W (Proc.devRef .tc main_v237) (ix2 n (0 : Fin 1)) = _
  simp only [R3b]
  after_results_simp
  simp only [sc_v199, sc_v202, sc_v209, sc_v212, sc_v217, sc_v224, sc_v230, sc_v235, sc_v239, sc_v244, sc_v250, mulf_apply, subf_apply, addf_apply, flat_read, colvec_read, widen3_read, splat_const, col_2_0, col_2_1, col_3_0, col_3_1, col_3_2, col_4_0, col_4_1, col_4_2, col_4_3] <;> rfl

set_option maxHeartbeats 4000000 in
set_option maxRecDepth 16384 in
/-- The second sheen coefficient of row `n`. -/
theorem r3b_cs1 (W : Valuation τ sig (Elt Ideal)) (n : Fin 2097152) :
    el2 (StableHlo.after R3b W (Proc.devRef .tc main_v248)) n (0 : Fin 1)
      = el2 (W (Proc.devRef .tc main_arg7)) n (0 : Fin 2) * (Cert.Spec.c1 - el1 (W (Proc.devRef .tc main_v8)) n) * (Cert.Spec.c1 - el2 (W (Proc.devRef .tc main_arg7)) n (1 : Fin 2)) := by
  show StableHlo.after R3b W (Proc.devRef .tc main_v248) (ix2 n (0 : Fin 1)) = _
  simp only [R3b]
  after_results_simp
  simp only [sc_v199, sc_v202, sc_v209, sc_v212, sc_v217, sc_v224, sc_v230, sc_v235, sc_v239, sc_v244, sc_v250, mulf_apply, subf_apply, addf_apply, flat_read, colvec_read, widen3_read, splat_const, col_2_0, col_2_1, col_3_0, col_3_1, col_3_2, col_4_0, col_4_1, col_4_2, col_4_3] <;> rfl

set_option maxHeartbeats 4000000 in
set_option maxRecDepth 16384 in
/-- The coat coefficient of row `n`. -/
theorem r3b_cc (W : Valuation τ sig (Elt Ideal)) (n : Fin 2097152) :
    el2 (StableHlo.after R3b W (Proc.devRef .tc main_v253)) n (0 : Fin 1)
      = Cert.Spec.c00625 * el2 (W (Proc.devRef .tc main_arg8)) n (1 : Fin 2) := by
  show StableHlo.after R3b W (Proc.devRef .tc main_v253) (ix2 n (0 : Fin 1)) = _
  simp only [R3b]
  after_results_simp
  simp only [sc_v199, sc_v202, sc_v209, sc_v212, sc_v217, sc_v224, sc_v230, sc_v235, sc_v239, sc_v244, sc_v250, mulf_apply, subf_apply, addf_apply, flat_read, colvec_read, widen3_read, splat_const, col_2_0, col_2_1, col_3_0, col_3_1, col_3_2, col_4_0, col_4_1, col_4_2, col_4_3] <;> rfl

set_option maxHeartbeats 4000000 in
set_option maxRecDepth 16384 in
/-- Component `k` of row `n`'s encoder lookup, scaled by the row's diffuse coefficient. -/
theorem r3b_rs (W : Valuation τ sig (Elt Ideal)) (n : Fin 2097152) (k : Fin 3) :
    el2 (StableHlo.after R3b W (Proc.devRef .tc main_v256)) n k
      = el2 (W (Proc.devRef .tc main_v195)) n k * ((Cert.Spec.c1 - el1 (W (Proc.devRef .tc main_v8)) n) * el2 (W (Proc.devRef .tc main_arg8)) n (0 : Fin 2)) := by
  show StableHlo.after R3b W (Proc.devRef .tc main_v256) (ix2 n k) = _
  simp only [R3b]
  after_results_simp
  simp only [sc_v199, sc_v202, sc_v209, sc_v212, sc_v217, sc_v224, sc_v230, sc_v235, sc_v239, sc_v244, sc_v250, mulf_apply, subf_apply, addf_apply, flat_read, colvec_read, widen3_read, splat_const, col_2_0, col_2_1, col_3_0, col_3_1, col_3_2, col_4_0, col_4_1, col_4_2, col_4_3] <;> rfl

/-! ## The shading combination (the last chunk)

Run from any contents `W`, the last chunk leaves in row `n` of the two-column result the two combinations of that
row's inputs, lookups and mixing coefficients as `W` holds them. -/

set_option maxHeartbeats 4000000 in
set_option maxRecDepth 16384 in
/-- The first result of row `n`. -/
theorem r9_x (W : Valuation τ sig (Elt Ideal)) (n : Fin 2097152) :
    el2 (StableHlo.after R9 W (Proc.devRef .tc main_v833)) n (0 : Fin 2)
      = el2 (W (Proc.devRef .tc main_v256)) n (0 : Fin 3) * el2 (W (Proc.devRef .tc main_arg4)) n (1 : Fin 2) * el2 (W (Proc.devRef .tc main_v635)) n (1 : Fin 4) + el2 (W (Proc.devRef .tc main_v256)) n (1 : Fin 3) * el2 (W (Proc.devRef .tc main_v635)) n (2 : Fin 4) + el2 (W (Proc.devRef .tc main_v256)) n (2 : Fin 3) * el2 (W (Proc.devRef .tc main_v635)) n (3 : Fin 4) + el2 (W (Proc.devRef .tc main_v215)) n (0 : Fin 1) * el2 (W (Proc.devRef .tc main_v515)) n (0 : Fin 1) * el2 (W (Proc.devRef .tc main_v762)) n (2 : Fin 4) * Ideal.div Cert.Spec.c025 (el2 (W (Proc.devRef .tc main_arg2)) n (1 : Fin 2) * ((el2 (W (Proc.devRef .tc main_v365)) n (0 : Fin 3) * (el2 (W (Proc.devRef .tc main_arg1)) n (1 : Fin 2) * el2 (W (Proc.devRef .tc main_arg1)) n (1 : Fin 2)) + el2 (W (Proc.devRef .tc main_v365)) n (1 : Fin 3) * (el2 (W (Proc.devRef .tc main_arg0)) n (1 : Fin 2) * el2 (W (Proc.devRef .tc main_arg0)) n (1 : Fin 2)) + el2 (W (Proc.devRef .tc main_v365)) n (2 : Fin 3)) * (el2 (W (Proc.devRef .tc main_v365)) n (0 : Fin 3) * (el2 (W (Proc.devRef .tc main_arg1)) n (1 : Fin 2) * el2 (W (Proc.devRef .tc main_arg1)) n (1 : Fin 2)) + el2 (W (Proc.devRef .tc main_v365)) n (1 : Fin 3) * (el2 (W (Proc.devRef .tc main_arg0)) n (1 : Fin 2) * el2 (W (Proc.devRef .tc main_arg0)) n (1 : Fin 2)) + el2 (W (Proc.devRef .tc main_v365)) n (2 : Fin 3)))) + el2 (W (Proc.devRef .tc main_v237)) n (0 : Fin 1) * el2 (W (Proc.devRef .tc main_v762)) n (0 : Fin 4) := by
  show StableHlo.after R9 W (Proc.devRef .tc main_v833) (ix2 n (0 : Fin 2)) = _
  simp only [R9]
  after_results_simp
  simp only [sc_v764, sc_v767, sc_v769, sc_v773, sc_v777, sc_v780, sc_v822, sc_v824, sc_v827, mulf_apply, subf_apply, addf_apply, hostDivf_apply, flat_read, colvec_read, splat_const, pair_left, pair_right, col_2_0, col_2_1, col_3_0, col_3_1, col_3_2, col_4_0, col_4_1, col_4_2, col_4_3] <;> rfl

set_option maxHeartbeats 4000000 in
set_option maxRecDepth 16384 in
/-- The second result of row `n`. -/
theorem r9_y (W : Valuation τ sig (Elt Ideal)) (n : Fin 2097152) :
    el2 (StableHlo.after R9 W (Proc.devRef .tc main_v833)) n (1 : Fin 2)
      = ((Cert.Spec.c1 - el2 (W (Proc.devRef .tc main_v228)) n (0 : Fin 1)) * el2 (W (Proc.devRef .tc main_v762)) n (3 : Fin 4) + el2 (W (Proc.devRef .tc main_v228)) n (0 : Fin 1)) * el2 (W (Proc.devRef .tc main_v515)) n (0 : Fin 1) * Ideal.div Cert.Spec.c025 (el2 (W (Proc.devRef .tc main_arg2)) n (1 : Fin 2) * ((el2 (W (Proc.devRef .tc main_v365)) n (0 : Fin 3) * (el2 (W (Proc.devRef .tc main_arg1)) n (1 : Fin 2) * el2 (W (Proc.devRef .tc main_arg1)) n (1 : Fin 2)) + el2 (W (Proc.devRef .tc main_v365)) n (1 : Fin 3) * (el2 (W (Proc.devRef .tc main_arg0)) n (1 : Fin 2) * el2 (W (Proc.devRef .tc main_arg0)) n (1 : Fin 2)) + el2 (W (Proc.devRef .tc main_v365)) n (2 : Fin 3)) * (el2 (W (Proc.devRef .tc main_v365)) n (0 : Fin 3) * (el2 (W (Proc.devRef .tc main_arg1)) n (1 : Fin 2) * el2 (W (Proc.devRef .tc main_arg1)) n (1 : Fin 2)) + el2 (W (Proc.devRef .tc main_v365)) n (1 : Fin 3) * (el2 (W (Proc.devRef .tc main_arg0)) n (1 : Fin 2) * el2 (W (Proc.devRef .tc main_arg0)) n (1 : Fin 2)) + el2 (W (Proc.devRef .tc main_v365)) n (2 : Fin 3)))) + el2 (W (Proc.devRef .tc main_v248)) n (0 : Fin 1) * el2 (W (Proc.devRef .tc main_v762)) n (0 : Fin 4) + Ideal.div (el2 (W (Proc.devRef .tc main_v253)) n (0 : Fin 1) * el2 (W (Proc.devRef .tc main_v762)) n (1 : Fin 4) * el2 (W (Proc.devRef .tc main_v635)) n (0 : Fin 4)) (el2 (W (Proc.devRef .tc main_arg2)) n (1 : Fin 2) * (el2 (W (Proc.devRef .tc main_v398)) n (0 : Fin 2) * (el2 (W (Proc.devRef .tc main_arg0)) n (1 : Fin 2) * el2 (W (Proc.devRef .tc main_arg0)) n (1 : Fin 2)) + el2 (W (Proc.devRef .tc main_v398)) n (1 : Fin 2))) := by
  show StableHlo.after R9 W (Proc.devRef .tc main_v833) (ix2 n (1 : Fin 2)) = _
  simp only [R9]
  after_results_simp
  simp only [sc_v764, sc_v767, sc_v769, sc_v773, sc_v777, sc_v780, sc_v822, sc_v824, sc_v827, mulf_apply, subf_apply, addf_apply, hostDivf_apply, flat_read, colvec_read, splat_const, pair_left, pair_right, col_2_0, col_2_1, col_3_0, col_3_1, col_3_2, col_4_0, col_4_1, col_4_2, col_4_3] <;> rfl

end Cert.Bridge.RefComp

namespace Cert.Bridge

open Idealize.ShloMosaic Idealize.ShloMosaic.TcCoe Idealize.SL.Sem Idealize.ShloMosaic.ValueIdx
open Cert.Bridge.RefComp

/-- The 29 features of row `n`, read off the reference program's buffers at its end: its twelve scalar inputs and its
    seventeen looked-up table values, in the order the shared specification numbers them. -/
def featR (VR : Valuation Cert.ReferenceIdeal.τ Cert.ReferenceIdeal.sig (Elt Ideal)) (n : Fin 2097152) : Fin 29 → EReal :=
  ![ (RV VR Cert.ReferenceIdeal.main_arg0 : (⟨Cert.ReferenceIdeal.S2097152x2, .f32⟩ : BufTy).Contents (Elt Ideal)) (ix2 n (1 : Fin 2)),
     (RV VR Cert.ReferenceIdeal.main_arg1 : (⟨Cert.ReferenceIdeal.S2097152x2, .f32⟩ : BufTy).Contents (Elt Ideal)) (ix2 n (1 : Fin 2)),
     (RV VR Cert.ReferenceIdeal.main_arg2 : (⟨Cert.ReferenceIdeal.S2097152x2, .f32⟩ : BufTy).Contents (Elt Ideal)) (ix2 n (0 : Fin 2)),
     (RV VR Cert.ReferenceIdeal.main_arg2 : (⟨Cert.ReferenceIdeal.S2097152x2, .f32⟩ : BufTy).Contents (Elt Ideal)) (ix2 n (1 : Fin 2)),
     (RV VR Cert.ReferenceIdeal.main_arg4 : (⟨Cert.ReferenceIdeal.S2097152x2, .f32⟩ : BufTy).Contents (Elt Ideal)) (ix2 n (0 : Fin 2)),
     (RV VR Cert.ReferenceIdeal.main_arg4 : (⟨Cert.ReferenceIdeal.S2097152x2, .f32⟩ : BufTy).Contents (Elt Ideal)) (ix2 n (1 : Fin 2)),
     (RV VR Cert.ReferenceIdeal.main_arg8 : (⟨Cert.ReferenceIdeal.S2097152x2, .f32⟩ : BufTy).Contents (Elt Ideal)) (ix2 n (0 : Fin 2)),
     (RV VR Cert.ReferenceIdeal.main_arg8 : (⟨Cert.ReferenceIdeal.S2097152x2, .f32⟩ : BufTy).Contents (Elt Ideal)) (ix2 n (1 : Fin 2)),
     (RV VR Cert.ReferenceIdeal.main_arg6 : (⟨Cert.ReferenceIdeal.S2097152x2, .f32⟩ : BufTy).Contents (Elt Ideal)) (ix2 n (0 : Fin 2)),
     (RV VR Cert.ReferenceIdeal.main_arg6 : (⟨Cert.ReferenceIdeal.S2097152x2, .f32⟩ : BufTy).Contents (Elt Ideal)) (ix2 n (1 : Fin 2)),
     (RV VR Cert.ReferenceIdeal.main_arg7 : (⟨Cert.ReferenceIdeal.S2097152x2, .f32⟩ : BufTy).Contents (Elt Ideal)) (ix2 n (0 : Fin 2)),
     (RV VR Cert.ReferenceIdeal.main_arg7 : (⟨Cert.ReferenceIdeal.S2097152x2, .f32⟩ : BufTy).Contents (Elt Ideal)) (ix2 n (1 : Fin 2)),
     (RV VR Cert.ReferenceIdeal.main_v195 : (⟨Cert.ReferenceIdeal.S2097152x3, .f32⟩ : BufTy).Contents (Elt Ideal)) (ix2 n (0 : Fin 3)),
     (RV VR Cert.ReferenceIdeal.main_v195 : (⟨Cert.ReferenceIdeal.S2097152x3, .f32⟩ : BufTy).Contents (Elt Ideal)) (ix2 n (1 : Fin 3)),
     (RV VR Cert.ReferenceIdeal.main_v195 : (⟨Cert.ReferenceIdeal.S2097152x3, .f32⟩ : BufTy).Contents (Elt Ideal)) (ix2 n (2 : Fin 3)),
     (RV VR Cert.ReferenceIdeal.main_v365 : (⟨Cert.ReferenceIdeal.S2097152x3, .f32⟩ : BufTy).Contents (Elt Ideal)) (ix2 n (0 : Fin 3)),
     (RV VR Cert.ReferenceIdeal.main_v365 : (⟨Cert.ReferenceIdeal.S2097152x3, .f32⟩ : BufTy).Contents (Elt Ideal)) (ix2 n (1 : Fin 3)),
     (RV VR Cert.ReferenceIdeal.main_v365 : (⟨Cert.ReferenceIdeal.S2097152x3, .f32⟩ : BufTy).Contents (Elt Ideal)) (ix2 n (2 : Fin 3)),
     (RV VR Cert.ReferenceIdeal.main_v398 : (⟨Cert.ReferenceIdeal.S2097152x2, .f32⟩ : BufTy).Contents (Elt Ideal)) (ix2 n (0 : Fin 2)),
     (RV VR Cert.ReferenceIdeal.main_v398 : (⟨Cert.ReferenceIdeal.S2097152x2, .f32⟩ : BufTy).Contents (Elt Ideal)) (ix2 n (1 : Fin 2)),
     (RV VR Cert.ReferenceIdeal.main_v515 : (⟨Cert.ReferenceIdeal.S2097152x1, .f32⟩ : BufTy).Contents (Elt Ideal)) (ix2 n (0 : Fin 1)),
     (RV VR Cert.ReferenceIdeal.main_v635 : (⟨Cert.ReferenceIdeal.S2097152x4, .f32⟩ : BufTy).Contents (Elt Ideal)) (ix2 n (0 : Fin 4)),
     (RV VR Cert.ReferenceIdeal.main_v635 : (⟨Cert.ReferenceIdeal.S2097152x4, .f32⟩ : BufTy).Contents (Elt Ideal)) (ix2 n (1 : Fin 4)),
     (RV VR Cert.ReferenceIdeal.main_v635 : (⟨Cert.ReferenceIdeal.S2097152x4, .f32⟩ : BufTy).Contents (Elt Ideal)) (ix2 n (2 : Fin 4)),
     (RV VR Cert.ReferenceIdeal.main_v635 : (⟨Cert.ReferenceIdeal.S2097152x4, .f32⟩ : BufTy).Contents (Elt Ideal)) (ix2 n (3 : Fin 4)),
     (RV VR Cert.ReferenceIdeal.main_v762 : (⟨Cert.ReferenceIdeal.S2097152x4, .f32⟩ : BufTy).Contents (Elt Ideal)) (ix2 n (0 : Fin 4)),
     (RV VR Cert.ReferenceIdeal.main_v762 : (⟨Cert.ReferenceIdeal.S2097152x4, .f32⟩ : BufTy).Contents (Elt Ideal)) (ix2 n (1 : Fin 4)),
     (RV VR Cert.ReferenceIdeal.main_v762 : (⟨Cert.ReferenceIdeal.S2097152x4, .f32⟩ : BufTy).Contents (Elt Ideal)) (ix2 n (2 : Fin 4)),
     (RV VR Cert.ReferenceIdeal.main_v762 : (⟨Cert.ReferenceIdeal.S2097152x4, .f32⟩ : BufTy).Contents (Elt Ideal)) (ix2 n (3 : Fin 4)) ]

set_option maxHeartbeats 4000000 in
set_option maxRecDepth 16384 in
/-- The reference's two results of a row are the specification's two combinations of the row's features, given that
    its metallicity vector is the first column of its fifth input. -/
theorem ref_comp (VR : Valuation Cert.ReferenceIdeal.τ Cert.ReferenceIdeal.sig (Elt Ideal)) (h8 : ∀ n : Fin 2097152, RV VR Cert.ReferenceIdeal.main_v8 (ix1 n) = RV VR Cert.ReferenceIdeal.main_arg4 (ix2 n 0)) :
    ∀ n : Fin 2097152, RV VR Cert.ReferenceIdeal.main_v833 (ix2 n 0) = Cert.Spec.xOf (featR VR n) ∧ RV VR Cert.ReferenceIdeal.main_v833 (ix2 n 1) = Cert.Spec.yOf (featR VR n) := by
  intro n
  have h8' : el1 (Cert.ReferenceIdeal.RRead.St11 VR (Proc.devRef .tc Cert.ReferenceIdeal.main_v8)) n = el2 (Cert.ReferenceIdeal.RRead.St11 VR (Proc.devRef .tc Cert.ReferenceIdeal.main_arg4)) n (0 : Fin 2) := h8 n
  -- the mixing coefficients the last chunk reads, over the whole program's values
  have e215 : el2 (Cert.ReferenceIdeal.RRead.St10 VR (Proc.devRef .tc Cert.ReferenceIdeal.main_v215)) n (0 : Fin 1)
      = el2 (Cert.ReferenceIdeal.RRead.St11 VR (Proc.devRef .tc Cert.ReferenceIdeal.main_arg6)) n (0 : Fin 2) * Cert.Spec.c01 * (Cert.Spec.c1 - el2 (Cert.ReferenceIdeal.RRead.St11 VR (Proc.devRef .tc Cert.ReferenceIdeal.main_arg4)) n (0 : Fin 2)) * el2 (Cert.ReferenceIdeal.RRead.St11 VR (Proc.devRef .tc Cert.ReferenceIdeal.main_arg6)) n (1 : Fin 2) + el2 (Cert.ReferenceIdeal.RRead.St11 VR (Proc.devRef .tc Cert.ReferenceIdeal.main_arg4)) n (0 : Fin 2) * el2 (Cert.ReferenceIdeal.RRead.St11 VR (Proc.devRef .tc Cert.ReferenceIdeal.main_arg8)) n (0 : Fin 2) := by
    rw [Cert.ReferenceIdeal.RRead.in_R9 VR (r := Cert.ReferenceIdeal.main_v215) (by decide), Cert.ReferenceIdeal.RRead.out_R3b VR (r := Cert.ReferenceIdeal.main_v215) (by decide), r3b_cm0,
      Cert.ReferenceIdeal.RRead.in_R3b VR (r := Cert.ReferenceIdeal.main_arg6) (by decide),
      Cert.ReferenceIdeal.RRead.in_R3b VR (r := Cert.ReferenceIdeal.main_arg8) (by decide),
      Cert.ReferenceIdeal.RRead.in_R3b VR (r := Cert.ReferenceIdeal.main_v8) (by decide), h8']
  have e228 : el2 (Cert.ReferenceIdeal.RRead.St10 VR (Proc.devRef .tc Cert.ReferenceIdeal.main_v228)) n (0 : Fin 1)
      = el2 (Cert.ReferenceIdeal.RRead.St11 VR (Proc.devRef .tc Cert.ReferenceIdeal.main_arg6)) n (0 : Fin 2) * Cert.Spec.c01 * (Cert.Spec.c1 - el2 (Cert.ReferenceIdeal.RRead.St11 VR (Proc.devRef .tc Cert.ReferenceIdeal.main_arg4)) n (0 : Fin 2)) * (Cert.Spec.c1 - el2 (Cert.ReferenceIdeal.RRead.St11 VR (Proc.devRef .tc Cert.ReferenceIdeal.main_arg6)) n (1 : Fin 2)) := by
    rw [Cert.ReferenceIdeal.RRead.in_R9 VR (r := Cert.ReferenceIdeal.main_v228) (by decide), Cert.ReferenceIdeal.RRead.out_R3b VR (r := Cert.ReferenceIdeal.main_v228) (by decide), r3b_cm1,
      Cert.ReferenceIdeal.RRead.in_R3b VR (r := Cert.ReferenceIdeal.main_arg6) (by decide),
      Cert.ReferenceIdeal.RRead.in_R3b VR (r := Cert.ReferenceIdeal.main_v8) (by decide), h8']
  have e237 : el2 (Cert.ReferenceIdeal.RRead.St10 VR (Proc.devRef .tc Cert.ReferenceIdeal.main_v237)) n (0 : Fin 1)
      = el2 (Cert.ReferenceIdeal.RRead.St11 VR (Proc.devRef .tc Cert.ReferenceIdeal.main_arg7)) n (0 : Fin 2) * (Cert.Spec.c1 - el2 (Cert.ReferenceIdeal.RRead.St11 VR (Proc.devRef .tc Cert.ReferenceIdeal.main_arg4)) n (0 : Fin 2)) * el2 (Cert.ReferenceIdeal.RRead.St11 VR (Proc.devRef .tc Cert.ReferenceIdeal.main_arg7)) n (1 : Fin 2) := by
    rw [Cert.ReferenceIdeal.RRead.in_R9 VR (r := Cert.ReferenceIdeal.main_v237) (by decide), Cert.ReferenceIdeal.RRead.out_R3b VR (r := Cert.ReferenceIdeal.main_v237) (by decide), r3b_cs0,
      Cert.ReferenceIdeal.RRead.in_R3b VR (r := Cert.ReferenceIdeal.main_arg7) (by decide),
      Cert.ReferenceIdeal.RRead.in_R3b VR (r := Cert.ReferenceIdeal.main_v8) (by decide), h8']
  have e248 : el2 (Cert.ReferenceIdeal.RRead.St10 VR (Proc.devRef .tc Cert.ReferenceIdeal.main_v248)) n (0 : Fin 1)
      = el2 (Cert.ReferenceIdeal.RRead.St11 VR (Proc.devRef .tc Cert.ReferenceIdeal.main_arg7)) n (0 : Fin 2) * (Cert.Spec.c1 - el2 (Cert.ReferenceIdeal.RRead.St11 VR (Proc.devRef .tc Cert.ReferenceIdeal.main_arg4)) n (0 : Fin 2)) * (Cert.Spec.c1 - el2 (Cert.ReferenceIdeal.RRead.St11 VR (Proc.devRef .tc Cert.ReferenceIdeal.main_arg7)) n (1 : Fin 2)) := by
    rw [Cert.ReferenceIdeal.RRead.in_R9 VR (r := Cert.ReferenceIdeal.main_v248) (by decide), Cert.ReferenceIdeal.RRead.out_R3b VR (r := Cert.ReferenceIdeal.main_v248) (by decide), r3b_cs1,
      Cert.ReferenceIdeal.RRead.in_R3b VR (r := Cert.ReferenceIdeal.main_arg7) (by decide),
      Cert.ReferenceIdeal.RRead.in_R3b VR (r := Cert.ReferenceIdeal.main_v8) (by decide), h8']
  have e253 : el2 (Cert.ReferenceIdeal.RRead.St10 VR (Proc.devRef .tc Cert.ReferenceIdeal.main_v253)) n (0 : Fin 1)
      = Cert.Spec.c00625 * el2 (Cert.ReferenceIdeal.RRead.St11 VR (Proc.devRef .tc Cert.ReferenceIdeal.main_arg8)) n (1 : Fin 2) := by
    rw [Cert.ReferenceIdeal.RRead.in_R9 VR (r := Cert.ReferenceIdeal.main_v253) (by decide), Cert.ReferenceIdeal.RRead.out_R3b VR (r := Cert.ReferenceIdeal.main_v253) (by decide), r3b_cc,
      Cert.ReferenceIdeal.RRead.in_R3b VR (r := Cert.ReferenceIdeal.main_arg8) (by decide)]
  have e256 : ∀ k : Fin 3, el2 (Cert.ReferenceIdeal.RRead.St10 VR (Proc.devRef .tc Cert.ReferenceIdeal.main_v256)) n k
      = el2 (Cert.ReferenceIdeal.RRead.St11 VR (Proc.devRef .tc Cert.ReferenceIdeal.main_v195)) n k * ((Cert.Spec.c1 - el2 (Cert.ReferenceIdeal.RRead.St11 VR (Proc.devRef .tc Cert.ReferenceIdeal.main_arg4)) n (0 : Fin 2)) * el2 (Cert.ReferenceIdeal.RRead.St11 VR (Proc.devRef .tc Cert.ReferenceIdeal.main_arg8)) n (0 : Fin 2)) := by
    intro k
    rw [Cert.ReferenceIdeal.RRead.in_R9 VR (r := Cert.ReferenceIdeal.main_v256) (by decide), Cert.ReferenceIdeal.RRead.out_R3b VR (r := Cert.ReferenceIdeal.main_v256) (by decide), r3b_rs,
      Cert.ReferenceIdeal.RRead.in_R3b VR (r := Cert.ReferenceIdeal.main_v195) (by decide),
      Cert.ReferenceIdeal.RRead.in_R3b VR (r := Cert.ReferenceIdeal.main_arg8) (by decide),
      Cert.ReferenceIdeal.RRead.in_R3b VR (r := Cert.ReferenceIdeal.main_v8) (by decide), h8']
  constructor
  · show el2 (Cert.ReferenceIdeal.RRead.St11 VR (Proc.devRef .tc Cert.ReferenceIdeal.main_v833)) n (0 : Fin 2) = _
    rw [Cert.ReferenceIdeal.RRead.out_R9 VR (r := Cert.ReferenceIdeal.main_v833), r9_x, e256 0, e256 1, e256 2, e215, e237,
      Cert.ReferenceIdeal.RRead.in_R9 VR (r := Cert.ReferenceIdeal.main_arg0) (by decide),
      Cert.ReferenceIdeal.RRead.in_R9 VR (r := Cert.ReferenceIdeal.main_arg1) (by decide),
      Cert.ReferenceIdeal.RRead.in_R9 VR (r := Cert.ReferenceIdeal.main_arg2) (by decide),
      Cert.ReferenceIdeal.RRead.in_R9 VR (r := Cert.ReferenceIdeal.main_arg4) (by decide),
      Cert.ReferenceIdeal.RRead.in_R9 VR (r := Cert.ReferenceIdeal.main_v365) (by decide),
      Cert.ReferenceIdeal.RRead.in_R9 VR (r := Cert.ReferenceIdeal.main_v515) (by decide),
      Cert.ReferenceIdeal.RRead.in_R9 VR (r := Cert.ReferenceIdeal.main_v635) (by decide),
      Cert.ReferenceIdeal.RRead.in_R9 VR (r := Cert.ReferenceIdeal.main_v762) (by decide)]
    rfl
  · show el2 (Cert.ReferenceIdeal.RRead.St11 VR (Proc.devRef .tc Cert.ReferenceIdeal.main_v833)) n (1 : Fin 2) = _
    rw [Cert.ReferenceIdeal.RRead.out_R9 VR (r := Cert.ReferenceIdeal.main_v833), r9_y, e228, e248, e253,
      Cert.ReferenceIdeal.RRead.in_R9 VR (r := Cert.ReferenceIdeal.main_arg0) (by decide),
      Cert.ReferenceIdeal.RRead.in_R9 VR (r := Cert.ReferenceIdeal.main_arg1) (by decide),
      Cert.ReferenceIdeal.RRead.in_R9 VR (r := Cert.ReferenceIdeal.main_arg2) (by decide),
      Cert.ReferenceIdeal.RRead.in_R9 VR (r := Cert.ReferenceIdeal.main_v365) (by decide),
      Cert.ReferenceIdeal.RRead.in_R9 VR (r := Cert.ReferenceIdeal.main_v398) (by decide),
      Cert.ReferenceIdeal.RRead.in_R9 VR (r := Cert.ReferenceIdeal.main_v515) (by decide),
      Cert.ReferenceIdeal.RRead.in_R9 VR (r := Cert.ReferenceIdeal.main_v635) (by decide),
      Cert.ReferenceIdeal.RRead.in_R9 VR (r := Cert.ReferenceIdeal.main_v762) (by decide)]
    rfl

end Cert.Bridge

end
-- ==== Proof.BlockFeat.lean ====
import proofs.«151772_j21234318312201_1_alg».proof.Proof.BridgeDefs
import Idealize.ShloMosaic.Lib.ValueIdx
import Idealize.ShloMosaic.Lib.ValueLayout
import Idealize.ShloMosaic.Lib.Pipeline.Value

/-!
# The kernel's feature array, row by row

The last chunk of the kernel program's host operations builds the array `main_v722` of shape [29, N] the region reads:
row `k` of it, at column `n`, is feature `k` of row `n` of the inputs — a column of one of the two-column arguments,
the vector `main_v13`, or a row of one of the six looked-up arrays. This module reads the chunk's operations at an index
(slices, reshapes, broadcasts to one row, and the two stacks along axis 0) and states the result over the whole program's
values (`KV`).
-/

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Chunks

/-- The results of a literal line of host operations, in one pass: every operation's result at its own reference is its
    function of the contents before it, at any other reference what was there; an operation of several operands reads
    operand `k` at the `k`-th reference of its literal family. -/
macro "after_results_lit" : tactic =>
  `(tactic| (simp (disch := decide) only [after_cons, after_nil,
      nullary_result', unary_result', binary_result', ternary_result', quaternary_result', reshape_result', nary_result', Matrix.cons_val,
      nullary_result_ne', unary_result_ne', binary_result_ne', ternary_result_ne', quaternary_result_ne', reshape_result_ne',
      nary_result_ne']))

/-! ## Layout operations of the chunk, read at an index -/

section Layout
variable {α : Type}

/-- Column `c` of a two-column array `[N, 2]`, sliced out, flattened to `[N]` and laid as the one row `[1, N]`,
    reads at `(0, n)` the array at `(n, c)`. -/
theorem colRow_apply (c : Nat) (X : S2097152x2.Idx → α) (hs : S2097152x2.Slices ![0, c] S2097152x1)
    (n : Fin 2097152) (k : Fin 2) (hk : k.val = c) :
    broadcastInDim S1x2097152 ![1] bcast_S2097152_S1x2097152_1
        (shapeCast S2097152 (extractStridedSlice S2097152x1 ![0, c] X hs) shapeCasts_S2097152x1_S2097152) (ix2 0 n)
      = X (ix2 n k) := by
  refine (broadcastInDim_apply _ bcast_S2097152_S1x2097152_1 _ (ix2 (0 : Fin 1) n) (ix1 n) (fun a => match a with
    | ⟨0, _⟩ => by show n.val = if (2097152 : Nat) = 1 then 0 else n.val; rw [if_neg (by decide)])).trans ?_
  refine (shapeCast_apply _ shapeCasts_S2097152x1_S2097152 (ix1 n) (ix2 n (0 : Fin 1)) (by
    rewrite [Shape.rowMajor_val_two, Shape.rowMajor_val_one]; show n.val * 1 + 0 = n.val; omega)).trans ?_
  exact slice2_axis1_apply c X hs n 0 k (by rw [hk]; rfl)

/-- A vector `[N]` laid as the one row `[1, N]` reads at `(0, n)` the vector at `n`. -/
theorem vecRow_apply (X : S2097152.Idx → α) (n : Fin 2097152) :
    broadcastInDim S1x2097152 ![1] bcast_S2097152_S1x2097152_1 X (ix2 0 n) = X (ix1 n) :=
  broadcastInDim_apply _ bcast_S2097152_S1x2097152_1 _ (ix2 (0 : Fin 1) n) (ix1 n) (fun a => match a with
    | ⟨0, _⟩ => by show n.val = if (2097152 : Nat) = 1 then 0 else n.val; rw [if_neg (by decide)])

end Layout

/-! ## The two stacks along axis 0, read at an index -/

section Cat
variable {α : Type}

/-- The stack of the seven groups of rows, read in group 0 (rows 0 to 11). -/
theorem cat7_0 (x0 : S12x2097152.Idx → α) (x1 : S3x2097152.Idx → α) (x2 : S3x2097152.Idx → α) (x3 : S2x2097152.Idx → α) (x4 : S1x2097152.Idx → α) (x5 : S4x2097152.Idx → α) (x6 : S4x2097152.Idx → α)
    (h : Shape.Concatenates [S12x2097152, S3x2097152, S3x2097152, S2x2097152, S1x2097152, S4x2097152, S4x2097152] S29x2097152 0)
    (r : Fin 12) (n : Fin 2097152) (k : Fin 29) (hk : k.val = 0 + r.val) :
    concatenate S29x2097152 0 [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) = x0 (ix2 r n) :=
  concatenate_apply_piece (t := S29x2097152) (0 : Fin 2) [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) 0 (by show (0 : Nat) < 7; omega) S12x2097152 x0 rfl rfl 0 rfl (ix2 r n)
    (fun b hb => by
      match b with
      | ⟨0, _⟩ => exact absurd rfl hb
      | ⟨1, _⟩ => rfl)
    (by show 0 + r.val = k.val; omega)

/-- The stack of the seven groups of rows, read in group 1 (rows 12 to 14). -/
theorem cat7_1 (x0 : S12x2097152.Idx → α) (x1 : S3x2097152.Idx → α) (x2 : S3x2097152.Idx → α) (x3 : S2x2097152.Idx → α) (x4 : S1x2097152.Idx → α) (x5 : S4x2097152.Idx → α) (x6 : S4x2097152.Idx → α)
    (h : Shape.Concatenates [S12x2097152, S3x2097152, S3x2097152, S2x2097152, S1x2097152, S4x2097152, S4x2097152] S29x2097152 0)
    (r : Fin 3) (n : Fin 2097152) (k : Fin 29) (hk : k.val = 12 + r.val) :
    concatenate S29x2097152 0 [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) = x1 (ix2 r n) :=
  concatenate_apply_piece (t := S29x2097152) (0 : Fin 2) [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) 1 (by show (1 : Nat) < 7; omega) S3x2097152 x1 rfl rfl 12 rfl (ix2 r n)
    (fun b hb => by
      match b with
      | ⟨0, _⟩ => exact absurd rfl hb
      | ⟨1, _⟩ => rfl)
    (by show 12 + r.val = k.val; omega)

/-- The stack of the seven groups of rows, read in group 2 (rows 15 to 17). -/
theorem cat7_2 (x0 : S12x2097152.Idx → α) (x1 : S3x2097152.Idx → α) (x2 : S3x2097152.Idx → α) (x3 : S2x2097152.Idx → α) (x4 : S1x2097152.Idx → α) (x5 : S4x2097152.Idx → α) (x6 : S4x2097152.Idx → α)
    (h : Shape.Concatenates [S12x2097152, S3x2097152, S3x2097152, S2x2097152, S1x2097152, S4x2097152, S4x2097152] S29x2097152 0)
    (r : Fin 3) (n : Fin 2097152) (k : Fin 29) (hk : k.val = 15 + r.val) :
    concatenate S29x2097152 0 [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) = x2 (ix2 r n) :=
  concatenate_apply_piece (t := S29x2097152) (0 : Fin 2) [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) 2 (by show (2 : Nat) < 7; omega) S3x2097152 x2 rfl rfl 15 rfl (ix2 r n)
    (fun b hb => by
      match b with
      | ⟨0, _⟩ => exact absurd rfl hb
      | ⟨1, _⟩ => rfl)
    (by show 15 + r.val = k.val; omega)

/-- The stack of the seven groups of rows, read in group 3 (rows 18 to 19). -/
theorem cat7_3 (x0 : S12x2097152.Idx → α) (x1 : S3x2097152.Idx → α) (x2 : S3x2097152.Idx → α) (x3 : S2x2097152.Idx → α) (x4 : S1x2097152.Idx → α) (x5 : S4x2097152.Idx → α) (x6 : S4x2097152.Idx → α)
    (h : Shape.Concatenates [S12x2097152, S3x2097152, S3x2097152, S2x2097152, S1x2097152, S4x2097152, S4x2097152] S29x2097152 0)
    (r : Fin 2) (n : Fin 2097152) (k : Fin 29) (hk : k.val = 18 + r.val) :
    concatenate S29x2097152 0 [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) = x3 (ix2 r n) :=
  concatenate_apply_piece (t := S29x2097152) (0 : Fin 2) [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) 3 (by show (3 : Nat) < 7; omega) S2x2097152 x3 rfl rfl 18 rfl (ix2 r n)
    (fun b hb => by
      match b with
      | ⟨0, _⟩ => exact absurd rfl hb
      | ⟨1, _⟩ => rfl)
    (by show 18 + r.val = k.val; omega)

/-- The stack of the seven groups of rows, read in group 4 (rows 20 to 20). -/
theorem cat7_4 (x0 : S12x2097152.Idx → α) (x1 : S3x2097152.Idx → α) (x2 : S3x2097152.Idx → α) (x3 : S2x2097152.Idx → α) (x4 : S1x2097152.Idx → α) (x5 : S4x2097152.Idx → α) (x6 : S4x2097152.Idx → α)
    (h : Shape.Concatenates [S12x2097152, S3x2097152, S3x2097152, S2x2097152, S1x2097152, S4x2097152, S4x2097152] S29x2097152 0)
    (r : Fin 1) (n : Fin 2097152) (k : Fin 29) (hk : k.val = 20 + r.val) :
    concatenate S29x2097152 0 [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) = x4 (ix2 r n) :=
  concatenate_apply_piece (t := S29x2097152) (0 : Fin 2) [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) 4 (by show (4 : Nat) < 7; omega) S1x2097152 x4 rfl rfl 20 rfl (ix2 r n)
    (fun b hb => by
      match b with
      | ⟨0, _⟩ => exact absurd rfl hb
      | ⟨1, _⟩ => rfl)
    (by show 20 + r.val = k.val; omega)

/-- The stack of the seven groups of rows, read in group 5 (rows 21 to 24). -/
theorem cat7_5 (x0 : S12x2097152.Idx → α) (x1 : S3x2097152.Idx → α) (x2 : S3x2097152.Idx → α) (x3 : S2x2097152.Idx → α) (x4 : S1x2097152.Idx → α) (x5 : S4x2097152.Idx → α) (x6 : S4x2097152.Idx → α)
    (h : Shape.Concatenates [S12x2097152, S3x2097152, S3x2097152, S2x2097152, S1x2097152, S4x2097152, S4x2097152] S29x2097152 0)
    (r : Fin 4) (n : Fin 2097152) (k : Fin 29) (hk : k.val = 21 + r.val) :
    concatenate S29x2097152 0 [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) = x5 (ix2 r n) :=
  concatenate_apply_piece (t := S29x2097152) (0 : Fin 2) [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) 5 (by show (5 : Nat) < 7; omega) S4x2097152 x5 rfl rfl 21 rfl (ix2 r n)
    (fun b hb => by
      match b with
      | ⟨0, _⟩ => exact absurd rfl hb
      | ⟨1, _⟩ => rfl)
    (by show 21 + r.val = k.val; omega)

/-- The stack of the seven groups of rows, read in group 6 (rows 25 to 28). -/
theorem cat7_6 (x0 : S12x2097152.Idx → α) (x1 : S3x2097152.Idx → α) (x2 : S3x2097152.Idx → α) (x3 : S2x2097152.Idx → α) (x4 : S1x2097152.Idx → α) (x5 : S4x2097152.Idx → α) (x6 : S4x2097152.Idx → α)
    (h : Shape.Concatenates [S12x2097152, S3x2097152, S3x2097152, S2x2097152, S1x2097152, S4x2097152, S4x2097152] S29x2097152 0)
    (r : Fin 4) (n : Fin 2097152) (k : Fin 29) (hk : k.val = 25 + r.val) :
    concatenate S29x2097152 0 [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) = x6 (ix2 r n) :=
  concatenate_apply_piece (t := S29x2097152) (0 : Fin 2) [⟨S12x2097152, x0⟩, ⟨S3x2097152, x1⟩, ⟨S3x2097152, x2⟩, ⟨S2x2097152, x3⟩, ⟨S1x2097152, x4⟩, ⟨S4x2097152, x5⟩, ⟨S4x2097152, x6⟩] h (ix2 k n) 6 (by show (6 : Nat) < 7; omega) S4x2097152 x6 rfl rfl 25 rfl (ix2 r n)
    (fun b hb => by
      match b with
      | ⟨0, _⟩ => exact absurd rfl hb
      | ⟨1, _⟩ => rfl)
    (by show 25 + r.val = k.val; omega)

/-- The stack of the twelve one-row arrays, read in row 0. -/
theorem cat12_0 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 0 n) = x0 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (0 : Fin 12) n) 0 (by show (0 : Nat) < 12; omega) S1x2097152 x0 rfl rfl 0 rfl (ix2 (0 : Fin 1) n)
    (fun b hb => by
      match b with
      | ⟨0, _⟩ => exact absurd rfl hb
      | ⟨1, _⟩ => rfl)
    rfl

/-- The stack of the twelve one-row arrays, read in row 1. -/
theorem cat12_1 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 1 n) = x1 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (1 : Fin 12) n) 1 (by show (1 : Nat) < 12; omega) S1x2097152 x1 rfl rfl 1 rfl (ix2 (0 : Fin 1) n)
    (fun b hb => by
      match b with
      | ⟨0, _⟩ => exact absurd rfl hb
      | ⟨1, _⟩ => rfl)
    rfl

/-- The stack of the twelve one-row arrays, read in row 2. -/
theorem cat12_2 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 2 n) = x2 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (2 : Fin 12) n) 2 (by show (2 : Nat) < 12; omega) S1x2097152 x2 rfl rfl 2 rfl (ix2 (0 : Fin 1) n)
    (fun b hb => by
      match b with
      | ⟨0, _⟩ => exact absurd rfl hb
      | ⟨1, _⟩ => rfl)
    rfl

/-- The stack of the twelve one-row arrays, read in row 3. -/
theorem cat12_3 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 3 n) = x3 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (3 : Fin 12) n) 3 (by show (3 : Nat) < 12; omega) S1x2097152 x3 rfl rfl 3 rfl (ix2 (0 : Fin 1) n)
    (fun b hb => by
      match b with
      | ⟨0, _⟩ => exact absurd rfl hb
      | ⟨1, _⟩ => rfl)
    rfl

/-- The stack of the twelve one-row arrays, read in row 4. -/
theorem cat12_4 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 4 n) = x4 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (4 : Fin 12) n) 4 (by show (4 : Nat) < 12; omega) S1x2097152 x4 rfl rfl 4 rfl (ix2 (0 : Fin 1) n)
    (fun b hb => by
      match b with
      | ⟨0, _⟩ => exact absurd rfl hb
      | ⟨1, _⟩ => rfl)
    rfl

/-- The stack of the twelve one-row arrays, read in row 5. -/
theorem cat12_5 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 5 n) = x5 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (5 : Fin 12) n) 5 (by show (5 : Nat) < 12; omega) S1x2097152 x5 rfl rfl 5 rfl (ix2 (0 : Fin 1) n)
    (fun b hb => by
      match b with
      | ⟨0, _⟩ => exact absurd rfl hb
      | ⟨1, _⟩ => rfl)
    rfl

/-- The stack of the twelve one-row arrays, read in row 6. -/
theorem cat12_6 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 6 n) = x6 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (6 : Fin 12) n) 6 (by show (6 : Nat) < 12; omega) S1x2097152 x6 rfl rfl 6 rfl (ix2 (0 : Fin 1) n)
    (fun b hb => by
      match b with
      | ⟨0, _⟩ => exact absurd rfl hb
      | ⟨1, _⟩ => rfl)
    rfl

/-- The stack of the twelve one-row arrays, read in row 7. -/
theorem cat12_7 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 7 n) = x7 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (7 : Fin 12) n) 7 (by show (7 : Nat) < 12; omega) S1x2097152 x7 rfl rfl 7 rfl (ix2 (0 : Fin 1) n)
    (fun b hb => by
      match b with
      | ⟨0, _⟩ => exact absurd rfl hb
      | ⟨1, _⟩ => rfl)
    rfl

/-- The stack of the twelve one-row arrays, read in row 8. -/
theorem cat12_8 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 8 n) = x8 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (8 : Fin 12) n) 8 (by show (8 : Nat) < 12; omega) S1x2097152 x8 rfl rfl 8 rfl (ix2 (0 : Fin 1) n)
    (fun b hb => by
      match b with
      | ⟨0, _⟩ => exact absurd rfl hb
      | ⟨1, _⟩ => rfl)
    rfl

/-- The stack of the twelve one-row arrays, read in row 9. -/
theorem cat12_9 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 9 n) = x9 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (9 : Fin 12) n) 9 (by show (9 : Nat) < 12; omega) S1x2097152 x9 rfl rfl 9 rfl (ix2 (0 : Fin 1) n)
    (fun b hb => by
      match b with
      | ⟨0, _⟩ => exact absurd rfl hb
      | ⟨1, _⟩ => rfl)
    rfl

/-- The stack of the twelve one-row arrays, read in row 10. -/
theorem cat12_10 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 10 n) = x10 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (10 : Fin 12) n) 10 (by show (10 : Nat) < 12; omega) S1x2097152 x10 rfl rfl 10 rfl (ix2 (0 : Fin 1) n)
    (fun b hb => by
      match b with
      | ⟨0, _⟩ => exact absurd rfl hb
      | ⟨1, _⟩ => rfl)
    rfl

/-- The stack of the twelve one-row arrays, read in row 11. -/
theorem cat12_11 (x0 x1 x2 x3 x4 x5 x6 x7 x8 x9 x10 x11 : S1x2097152.Idx → α)
    (h : Shape.Concatenates [S1x2097152, S1x2097152, S1x2097152, S1x2097152, S1x2097152, S1x2097152, S1x2097152, S1x2097152, S1x2097152, S1x2097152, S1x2097152, S1x2097152] S12x2097152 0)
    (n : Fin 2097152) :
    concatenate S12x2097152 0 [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 11 n) = x11 (ix2 0 n) :=
  concatenate_apply_piece (t := S12x2097152) (0 : Fin 2) [⟨S1x2097152, x0⟩, ⟨S1x2097152, x1⟩, ⟨S1x2097152, x2⟩, ⟨S1x2097152, x3⟩, ⟨S1x2097152, x4⟩, ⟨S1x2097152, x5⟩, ⟨S1x2097152, x6⟩, ⟨S1x2097152, x7⟩, ⟨S1x2097152, x8⟩, ⟨S1x2097152, x9⟩, ⟨S1x2097152, x10⟩, ⟨S1x2097152, x11⟩] h (ix2 (11 : Fin 12) n) 11 (by show (11 : Nat) < 12; omega) S1x2097152 x11 rfl rfl 11 rfl (ix2 (0 : Fin 1) n)
    (fun b hb => by
      match b with
      | ⟨0, _⟩ => exact absurd rfl hb
      | ⟨1, _⟩ => rfl)
    rfl

end Cat

variable {F : FTy → Type} [FloatOps F]

/-! ## The last chunk of the host operations, run from any contents `W`

The chunk slices eleven columns out of six two-column arguments, flattens each, lays each (and the vector `main_v13`) as
a one-row array, stacks the twelve rows (`main_v721`) and stacks that with the six looked-up arrays (`main_v722`). Each
fact below reads one buffer the chunk writes, at one index, as a buffer it reads. -/

section K9
variable (W : Valuation τ sig (Elt F))

set_option maxHeartbeats 4000000 in
set_option maxRecDepth 16384 in
/-- Row 0 of the twelve: column 1 of `main_arg0`. -/
theorem k9_row0 (n : Fin 2097152) :
    (after K9 W (Proc.devRef .tc main_v709) : (⟨S1x2097152, .f32⟩ : BufTy).Contents (Elt F)) (ix2 0 n)
      = (W (Proc.devRef .tc main_arg0) : (⟨S2097152x2, .f32⟩ : BufTy).Contents (Elt F)) (ix2 n 1) := by
  simp only [K9]
  after_results_lit
  exact colRow_apply 1 _ slices_S2097152x2_S2097152x1_0_1 n 1 rfl

set_option maxHeartbeats 4000000 in
set_option maxRecDepth 16384 in
/-- Row 1 of the twelve: column 1 of `main_arg1`. -/
theorem k9_row1 (n : Fin 2097152) :
    (after K9 W (Proc.devRef .tc main_v710) : (⟨S1x2097152, .f32⟩ : BufTy).Contents (Elt F)) (ix2 0 n)
      = (W (Proc.devRef .tc main_arg1) : (⟨S2097152x2, .f32⟩ : BufTy).Contents (Elt F)) (ix2 n 1) := by
  simp only [K9]
  after_results_lit
  exact colRow_apply 1 _ slices_S2097152x2_S2097152x1_0_1 n 1 rfl

set_option maxHeartbeats 4000000 in
set_option maxRecDepth 16384 in
/-- Row 2 of the twelve: column 0 of `main_arg2`. -/
theorem k9_row2 (n : Fin 2097152) :
    (after K9 W (Proc.devRef .tc main_v711) : (⟨S1x2097152, .f32⟩ : BufTy).Contents (Elt F)) (ix2 0 n)
      = (W (Proc.devRef .tc main_arg2) : (⟨S2097152x2, .f32⟩ : BufTy).Contents (Elt F)) (ix2 n 0) := by
  simp only [K9]
  after_results_lit
  exact colRow_apply 0 _ slices_S2097152x2_S2097152x1_0_0 n 0 rfl

set_option maxHeartbeats 4000000 in
set_option maxRecDepth 16384 in
/-- Row 3 of the twelve: column 1 of `main_arg2`. -/
theorem k9_row3 (n : Fin 2097152) :
    (after K9 W (Proc.devRef .tc main_v712) : (⟨S1x2097152, .f32⟩ : BufTy).Contents (Elt F)) (ix2 0 n)
      = (W (Proc.devRef .tc main_arg2) : (⟨S2097152x2, .f32⟩ : BufTy).Contents (Elt F)) (ix2 n 1) := by
  simp only [K9]
  after_results_lit
  exact colRow_apply 1 _ slices_S2097152x2_S2097152x1_0_1 n 1 rfl

set_option maxHeartbeats 4000000 in
set_option maxRecDepth 16384 in
/-- Row 4 of the twelve: the vector `main_v13`. -/
theorem k9_row4 (n : Fin 2097152) :
    (after K9 W (Proc.devRef .tc main_v713) : (⟨S1x2097152, .f32⟩ : BufTy).Contents (Elt F)) (ix2 0 n)
      = (W (Proc.devRef .tc main_v13) : (⟨S2097152, .f32⟩ : BufTy).Contents (Elt F)) (ix1 n) := by
  simp only [K9]
  after_results_lit
  exact vecRow_apply _ n

set_option maxHeartbeats 4000000 in
set_option maxRecDepth 16384 in
/-- Row 5 of the twelve: column 1 of `main_arg4`. -/
theorem k9_row5 (n : Fin 2097152) :
    (after K9 W (Proc.devRef .tc main_v714) : (⟨S1x2097152, .f32⟩ : BufTy).Contents (Elt F)) (ix2 0 n)
      = (W (Proc.devRef .tc main_arg4) : (⟨S2097152x2, .f32⟩ : BufTy).Contents (Elt F)) (ix2 n 1) := by
  simp only [K9]
  after_results_lit
  exact colRow_apply 1 _ slices_S2097152x2_S2097152x1_0_1 n 1 rfl

set_option maxHeartbeats 4000000 in
set_option maxRecDepth 16384 in
/-- Row 6 of the twelve: column 0 of `main_arg8`. -/
theorem k9_row6 (n : Fin 2097152) :
    (after K9 W (Proc.devRef .tc main_v715) : (⟨S1x2097152, .f32⟩ : BufTy).Contents (Elt F)) (ix2 0 n)
      = (W (Proc.devRef .tc main_arg8) : (⟨S2097152x2, .f32⟩ : BufTy).Contents (Elt F)) (ix2 n 0) := by
  simp only [K9]
  after_results_lit
  exact colRow_apply 0 _ slices_S2097152x2_S2097152x1_0_0 n 0 rfl

set_option maxHeartbeats 4000000 in
set_option maxRecDepth 16384 in
/-- Row 7 of the twelve: column 1 of `main_arg8`. -/
theorem k9_row7 (n : Fin 2097152) :
    (after K9 W (Proc.devRef .tc main_v716) : (⟨S1x2097152, .f32⟩ : BufTy).Contents (Elt F)) (ix2 0 n)
      = (W (Proc.devRef .tc main_arg8) : (⟨S2097152x2, .f32⟩ : BufTy).Contents (Elt F)) (ix2 n 1) := by
  simp only [K9]
  after_results_lit
  exact colRow_apply 1 _ slices_S2097152x2_S2097152x1_0_1 n 1 rfl

set_option maxHeartbeats 4000000 in
set_option maxRecDepth 16384 in
/-- Row 8 of the twelve: column 0 of `main_arg6`. -/
theorem k9_row8 (n : Fin 2097152) :
    (after K9 W (Proc.devRef .tc main_v717) : (⟨S1x2097152, .f32⟩ : BufTy).Contents (Elt F)) (ix2 0 n)
      = (W (Proc.devRef .tc main_arg6) : (⟨S2097152x2, .f32⟩ : BufTy).Contents (Elt F)) (ix2 n 0) := by
  simp only [K9]
  after_results_lit
  exact colRow_apply 0 _ slices_S2097152x2_S2097152x1_0_0 n 0 rfl

set_option maxHeartbeats 4000000 in
set_option maxRecDepth 16384 in
/-- Row 9 of the twelve: column 1 of `main_arg6`. -/
theorem k9_row9 (n : Fin 2097152) :
    (after K9 W (Proc.devRef .tc main_v718) : (⟨S1x2097152, .f32⟩ : BufTy).Contents (Elt F)) (ix2 0 n)
      = (W (Proc.devRef .tc main_arg6) : (⟨S2097152x2, .f32⟩ : BufTy).Contents (Elt F)) (ix2 n 1) := by
  simp only [K9]
  after_results_lit
  exact colRow_apply 1 _ slices_S2097152x2_S2097152x1_0_1 n 1 rfl

set_option maxHeartbeats 4000000 in
set_option maxRecDepth 16384 in
/-- Row 10 of the twelve: column 0 of `main_arg7`. -/
theorem k9_row10 (n : Fin 2097152) :
    (after K9 W (Proc.devRef .tc main_v719) : (⟨S1x2097152, .f32⟩ : BufTy).Contents (Elt F)) (ix2 0 n)
      = (W (Proc.devRef .tc main_arg7) : (⟨S2097152x2, .f32⟩ : BufTy).Contents (Elt F)) (ix2 n 0) := by
  simp only [K9]
  after_results_lit
  exact colRow_apply 0 _ slices_S2097152x2_S2097152x1_0_0 n 0 rfl

set_option maxHeartbeats 4000000 in
set_option maxRecDepth 16384 in
/-- Row 11 of the twelve: column 1 of `main_arg7`. -/
theorem k9_row11 (n : Fin 2097152) :
    (after K9 W (Proc.devRef .tc main_v720) : (⟨S1x2097152, .f32⟩ : BufTy).Contents (Elt F)) (ix2 0 n)
      = (W (Proc.devRef .tc main_arg7) : (⟨S2097152x2, .f32⟩ : BufTy).Contents (Elt F)) (ix2 n 1) := by
  simp only [K9]
  after_results_lit
  exact colRow_apply 1 _ slices_S2097152x2_S2097152x1_0_1 n 1 rfl

set_option maxHeartbeats 4000000 in
set_option maxRecDepth 16384 in
/-- Row 0 of the stack of twelve is the 0-th one-row array. -/
theorem k9_v721_0 (n : Fin 2097152) :
    (after K9 W (Proc.devRef .tc main_v721) : (⟨S12x2097152, .f32⟩ : BufTy).Contents (Elt F)) (ix2 0 n)
      = (after K9 W (Proc.devRef .tc main_v709) : (⟨S1x2097152, .f32⟩ : BufTy).Contents (Elt F)) (ix2 0 n) := by
  simp only [K9]
  after_results_lit
  refine (cat12_0 _ _ _ _ _ _ _ _ _ _ _ _ _ n).trans ?_
  after_results_lit

set_option maxHeartbeats 4000000 in
set_option maxRecDepth 16384 in
/-- Row 1 of the stack of twelve is the 1-th one-row array. -/
theorem k9_v721_1 (n : Fin 2097152) :
    (after K9 W (Proc.devRef .tc main_v721) : (⟨S12x2097152, .f32⟩ : BufTy).Contents (Elt F)) (ix2 1 n)
      = (after K9 W (Proc.devRef .tc main_v710) : (⟨S1x2097152, .f32⟩ : BufTy).Contents (Elt F)) (ix2 0 n) := by
  simp only [K9]
  after_results_lit
  refine (cat12_1 _ _ _ _ _ _ _ _ _ _ _ _ _ n).trans ?_
  after_results_lit

set_option maxHeartbeats 4000000 in
set_option maxRecDepth 16384 in
/-- Row 2 of the stack of twelve is the 2-th one-row array. -/
theorem k9_v721_2 (n : Fin 2097152) :
    (after K9 W (Proc.devRef .tc main_v721) : (⟨S12x2097152, .f32⟩ : BufTy).Contents (Elt F)) (ix2 2 n)
      = (after K9 W (Proc.devRef .tc main_v711) : (⟨S1x2097152, .f32⟩ : BufTy).Contents (Elt F)) (ix2 0 n) := by
  simp only [K9]
  after_results_lit
  refine (cat12_2 _ _ _ _ _ _ _ _ _ _ _ _ _ n).trans ?_
  after_results_lit

set_option maxHeartbeats 4000000 in
set_option maxRecDepth 16384 in
/-- Row 3 of the stack of twelve is the 3-th one-row array. -/
theorem k9_v721_3 (n : Fin 2097152) :
    (after K9 W (Proc.devRef .tc main_v721) : (⟨S12x2097152, .f32⟩ : BufTy).Contents (Elt F)) (ix2 3 n)
      = (after K9 W (Proc.devRef .tc main_v712) : (⟨S1x2097152, .f32⟩ : BufTy).Contents (Elt F)) (ix2 0 n) := by
  simp only [K9]
  after_results_lit
  refine (cat12_3 _ _ _ _ _ _ _ _ _ _ _ _ _ n).trans ?_
  after_results_lit

set_option maxHeartbeats 4000000 in
set_option maxRecDepth 16384 in
/-- Row 4 of the stack of twelve is the 4-th one-row array. -/
theorem k9_v721_4 (n : Fin 2097152) :
    (after K9 W (Proc.devRef .tc main_v721) : (⟨S12x2097152, .f32⟩ : BufTy).Contents (Elt F)) (ix2 4 n)
      = (after K9 W (Proc.devRef .tc main_v713) : (⟨S1x2097152, .f32⟩ : BufTy).Contents (Elt F)) (ix2 0 n) := by
  simp only [K9]
  after_results_lit
  refine (cat12_4 _ _ _ _ _ _ _ _ _ _ _ _ _ n).trans ?_
  after_results_lit

set_option maxHeartbeats 4000000 in
set_option maxRecDepth 16384 in
/-- Row 5 of the stack of twelve is the 5-th one-row array. -/
theorem k9_v721_5 (n : Fin 2097152) :
    (after K9 W (Proc.devRef .tc main_v721) : (⟨S12x2097152, .f32⟩ : BufTy).Contents (Elt F)) (ix2 5 n)
      = (after K9 W (Proc.devRef .tc main_v714) : (⟨S1x2097152, .f32⟩ : BufTy).Contents (Elt F)) (ix2 0 n) := by
  simp only [K9]
  after_results_lit
  refine (cat12_5 _ _ _ _ _ _ _ _ _ _ _ _ _ n).trans ?_
  after_results_lit

set_option maxHeartbeats 4000000 in
set_option maxRecDepth 16384 in
/-- Row 6 of the stack of twelve is the 6-th one-row array. -/
theorem k9_v721_6 (n : Fin 2097152) :
    (after K9 W (Proc.devRef .tc main_v721) : (⟨S12x2097152, .f32⟩ : BufTy).Contents (Elt F)) (ix2 6 n)
      = (after K9 W (Proc.devRef .tc main_v715) : (⟨S1x2097152, .f32⟩ : BufTy).Contents (Elt F)) (ix2 0 n) := by
  simp only [K9]
  after_results_lit
  refine (cat12_6 _ _ _ _ _ _ _ _ _ _ _ _ _ n).trans ?_
  after_results_lit

set_option maxHeartbeats 4000000 in
set_option maxRecDepth 16384 in
/-- Row 7 of the stack of twelve is the 7-th one-row array. -/
theorem k9_v721_7 (n : Fin 2097152) :
    (after K9 W (Proc.devRef .tc main_v721) : (⟨S12x2097152, .f32⟩ : BufTy).Contents (Elt F)) (ix2 7 n)
      = (after K9 W (Proc.devRef .tc main_v716) : (⟨S1x2097152, .f32⟩ : BufTy).Contents (Elt F)) (ix2 0 n) := by
  simp only [K9]
  after_results_lit
  refine (cat12_7 _ _ _ _ _ _ _ _ _ _ _ _ _ n).trans ?_
  after_results_lit

set_option maxHeartbeats 4000000 in
set_option maxRecDepth 16384 in
/-- Row 8 of the stack of twelve is the 8-th one-row array. -/
theorem k9_v721_8 (n : Fin 2097152) :
    (after K9 W (Proc.devRef .tc main_v721) : (⟨S12x2097152, .f32⟩ : BufTy).Contents (Elt F)) (ix2 8 n)
      = (after K9 W (Proc.devRef .tc main_v717) : (⟨S1x2097152, .f32⟩ : BufTy).Contents (Elt F)) (ix2 0 n) := by
  simp only [K9]
  after_results_lit
  refine (cat12_8 _ _ _ _ _ _ _ _ _ _ _ _ _ n).trans ?_
  after_results_lit

set_option maxHeartbeats 4000000 in
set_option maxRecDepth 16384 in
/-- Row 9 of the stack of twelve is the 9-th one-row array. -/
theorem k9_v721_9 (n : Fin 2097152) :
    (after K9 W (Proc.devRef .tc main_v721) : (⟨S12x2097152, .f32⟩ : BufTy).Contents (Elt F)) (ix2 9 n)
      = (after K9 W (Proc.devRef .tc main_v718) : (⟨S1x2097152, .f32⟩ : BufTy).Contents (Elt F)) (ix2 0 n) := by
  simp only [K9]
  after_results_lit
  refine (cat12_9 _ _ _ _ _ _ _ _ _ _ _ _ _ n).trans ?_
  after_results_lit

set_option maxHeartbeats 4000000 in
set_option maxRecDepth 16384 in
/-- Row 10 of the stack of twelve is the 10-th one-row array. -/
theorem k9_v721_10 (n : Fin 2097152) :
    (after K9 W (Proc.devRef .tc main_v721) : (⟨S12x2097152, .f32⟩ : BufTy).Contents (Elt F)) (ix2 10 n)
      = (after K9 W (Proc.devRef .tc main_v719) : (⟨S1x2097152, .f32⟩ : BufTy).Contents (Elt F)) (ix2 0 n) := by
  simp only [K9]
  after_results_lit
  refine (cat12_10 _ _ _ _ _ _ _ _ _ _ _ _ _ n).trans ?_
  after_results_lit

set_option maxHeartbeats 4000000 in
set_option maxRecDepth 16384 in
/-- Row 11 of the stack of twelve is the 11-th one-row array. -/
theorem k9_v721_11 (n : Fin 2097152) :
    (after K9 W (Proc.devRef .tc main_v721) : (⟨S12x2097152, .f32⟩ : BufTy).Contents (Elt F)) (ix2 11 n)
      = (after K9 W (Proc.devRef .tc main_v720) : (⟨S1x2097152, .f32⟩ : BufTy).Contents (Elt F)) (ix2 0 n) := by
  simp only [K9]
  after_results_lit
  refine (cat12_11 _ _ _ _ _ _ _ _ _ _ _ _ _ n).trans ?_
  after_results_lit

set_option maxHeartbeats 4000000 in
set_option maxRecDepth 16384 in
/-- Rows 0 to 11 of the feature array are the stack of twelve. -/
theorem k9_v722_g0 (r : Fin 12) (n : Fin 2097152) (k : Fin 29) (hk : k.val = 0 + r.val) :
    (after K9 W (Proc.devRef .tc main_v722) : (⟨S29x2097152, .f32⟩ : BufTy).Contents (Elt F)) (ix2 k n)
      = (after K9 W (Proc.devRef .tc main_v721) : (⟨S12x2097152, .f32⟩ : BufTy).Contents (Elt F)) (ix2 r n) := by
  simp only [K9]
  after_results_lit
  refine (cat7_0 _ _ _ _ _ _ _ _ r n k hk).trans ?_
  after_results_lit

set_option maxHeartbeats 4000000 in
set_option maxRecDepth 16384 in
/-- Rows 12 to 14 of the feature array are the looked-up array `main_v196`, which the chunk does not write. -/
theorem k9_v722_g1 (r : Fin 3) (n : Fin 2097152) (k : Fin 29) (hk : k.val = 12 + r.val) :
    (after K9 W (Proc.devRef .tc main_v722) : (⟨S29x2097152, .f32⟩ : BufTy).Contents (Elt F)) (ix2 k n)
      = (W (Proc.devRef .tc main_v196) : (⟨S3x2097152, .f32⟩ : BufTy).Contents (Elt F)) (ix2 r n) := by
  simp only [K9]
  after_results_lit
  refine (cat7_1 _ _ _ _ _ _ _ _ r n k hk).trans ?_
  after_results_lit

set_option maxHeartbeats 4000000 in
set_option maxRecDepth 16384 in
/-- Rows 15 to 17 of the feature array are the looked-up array `main_v301`, which the chunk does not write. -/
theorem k9_v722_g2 (r : Fin 3) (n : Fin 2097152) (k : Fin 29) (hk : k.val = 15 + r.val) :
    (after K9 W (Proc.devRef .tc main_v722) : (⟨S29x2097152, .f32⟩ : BufTy).Contents (Elt F)) (ix2 k n)
      = (W (Proc.devRef .tc main_v301) : (⟨S3x2097152, .f32⟩ : BufTy).Contents (Elt F)) (ix2 r n) := by
  simp only [K9]
  after_results_lit
  refine (cat7_2 _ _ _ _ _ _ _ _ r n k hk).trans ?_
  after_results_lit

set_option maxHeartbeats 4000000 in
set_option maxRecDepth 16384 in
/-- Rows 18 to 19 of the feature array are the looked-up array `main_v333`, which the chunk does not write. -/
theorem k9_v722_g3 (r : Fin 2) (n : Fin 2097152) (k : Fin 29) (hk : k.val = 18 + r.val) :
    (after K9 W (Proc.devRef .tc main_v722) : (⟨S29x2097152, .f32⟩ : BufTy).Contents (Elt F)) (ix2 k n)
      = (W (Proc.devRef .tc main_v333) : (⟨S2x2097152, .f32⟩ : BufTy).Contents (Elt F)) (ix2 r n) := by
  simp only [K9]
  after_results_lit
  refine (cat7_3 _ _ _ _ _ _ _ _ r n k hk).trans ?_
  after_results_lit

set_option maxHeartbeats 4000000 in
set_option maxRecDepth 16384 in
/-- Rows 20 to 20 of the feature array are the looked-up array `main_v446`, which the chunk does not write. -/
theorem k9_v722_g4 (r : Fin 1) (n : Fin 2097152) (k : Fin 29) (hk : k.val = 20 + r.val) :
    (after K9 W (Proc.devRef .tc main_v722) : (⟨S29x2097152, .f32⟩ : BufTy).Contents (Elt F)) (ix2 k n)
      = (W (Proc.devRef .tc main_v446) : (⟨S1x2097152, .f32⟩ : BufTy).Contents (Elt F)) (ix2 r n) := by
  simp only [K9]
  after_results_lit
  refine (cat7_4 _ _ _ _ _ _ _ _ r n k hk).trans ?_
  after_results_lit

set_option maxHeartbeats 4000000 in
set_option maxRecDepth 16384 in
/-- Rows 21 to 24 of the feature array are the looked-up array `main_v566`, which the chunk does not write. -/
theorem k9_v722_g5 (r : Fin 4) (n : Fin 2097152) (k : Fin 29) (hk : k.val = 21 + r.val) :
    (after K9 W (Proc.devRef .tc main_v722) : (⟨S29x2097152, .f32⟩ : BufTy).Contents (Elt F)) (ix2 k n)
      = (W (Proc.devRef .tc main_v566) : (⟨S4x2097152, .f32⟩ : BufTy).Contents (Elt F)) (ix2 r n) := by
  simp only [K9]
  after_results_lit
  refine (cat7_5 _ _ _ _ _ _ _ _ r n k hk).trans ?_
  after_results_lit

set_option maxHeartbeats 4000000 in
set_option maxRecDepth 16384 in
/-- Rows 25 to 28 of the feature array are the looked-up array `main_v686`, which the chunk does not write. -/
theorem k9_v722_g6 (r : Fin 4) (n : Fin 2097152) (k : Fin 29) (hk : k.val = 25 + r.val) :
    (after K9 W (Proc.devRef .tc main_v722) : (⟨S29x2097152, .f32⟩ : BufTy).Contents (Elt F)) (ix2 k n)
      = (W (Proc.devRef .tc main_v686) : (⟨S4x2097152, .f32⟩ : BufTy).Contents (Elt F)) (ix2 r n) := by
  simp only [K9]
  after_results_lit
  refine (cat7_6 _ _ _ _ _ _ _ _ r n k hk).trans ?_
  after_results_lit

end K9

/-! ## The feature array of the whole program, row by row -/

section Feat
variable (VK : Valuation Cert.KernelIdeal.τ Cert.KernelIdeal.sig (Elt Ideal))

/-- The 29 features of row `n`, each as an element of an argument or of a looked-up array of the kernel program: the
    twelve scalar inputs in the order the kernel stacks them, then rsEnc (3), raCoefs (3), cgCoefs (2), vTerm (1),
    nlvCoefs (4), nhlCoefs (4). -/
def featK (VK : Valuation Cert.KernelIdeal.τ Cert.KernelIdeal.sig (Elt Ideal)) (n : Fin 2097152) : Fin 29 → EReal :=
  ![(KV VK Cert.KernelIdeal.main_arg0 : (⟨Cert.KernelIdeal.S2097152x2, .f32⟩ : BufTy).Contents (Elt Ideal)) (ix2 n (1 : Fin 2)),
    (KV VK Cert.KernelIdeal.main_arg1 : (⟨Cert.KernelIdeal.S2097152x2, .f32⟩ : BufTy).Contents (Elt Ideal)) (ix2 n (1 : Fin 2)),
    (KV VK Cert.KernelIdeal.main_arg2 : (⟨Cert.KernelIdeal.S2097152x2, .f32⟩ : BufTy).Contents (Elt Ideal)) (ix2 n (0 : Fin 2)),
    (KV VK Cert.KernelIdeal.main_arg2 : (⟨Cert.KernelIdeal.S2097152x2, .f32⟩ : BufTy).Contents (Elt Ideal)) (ix2 n (1 : Fin 2)),
    (KV VK Cert.KernelIdeal.main_v13 : (⟨Cert.KernelIdeal.S2097152, .f32⟩ : BufTy).Contents (Elt Ideal)) (ix1 n),
    (KV VK Cert.KernelIdeal.main_arg4 : (⟨Cert.KernelIdeal.S2097152x2, .f32⟩ : BufTy).Contents (Elt Ideal)) (ix2 n (1 : Fin 2)),
    (KV VK Cert.KernelIdeal.main_arg8 : (⟨Cert.KernelIdeal.S2097152x2, .f32⟩ : BufTy).Contents (Elt Ideal)) (ix2 n (0 : Fin 2)),
    (KV VK Cert.KernelIdeal.main_arg8 : (⟨Cert.KernelIdeal.S2097152x2, .f32⟩ : BufTy).Contents (Elt Ideal)) (ix2 n (1 : Fin 2)),
    (KV VK Cert.KernelIdeal.main_arg6 : (⟨Cert.KernelIdeal.S2097152x2, .f32⟩ : BufTy).Contents (Elt Ideal)) (ix2 n (0 : Fin 2)),
    (KV VK Cert.KernelIdeal.main_arg6 : (⟨Cert.KernelIdeal.S2097152x2, .f32⟩ : BufTy).Contents (Elt Ideal)) (ix2 n (1 : Fin 2)),
    (KV VK Cert.KernelIdeal.main_arg7 : (⟨Cert.KernelIdeal.S2097152x2, .f32⟩ : BufTy).Contents (Elt Ideal)) (ix2 n (0 : Fin 2)),
    (KV VK Cert.KernelIdeal.main_arg7 : (⟨Cert.KernelIdeal.S2097152x2, .f32⟩ : BufTy).Contents (Elt Ideal)) (ix2 n (1 : Fin 2)),
    (KV VK Cert.KernelIdeal.main_v196 : (⟨Cert.KernelIdeal.S3x2097152, .f32⟩ : BufTy).Contents (Elt Ideal)) (ix2 (0 : Fin 3) n),
    (KV VK Cert.KernelIdeal.main_v196 : (⟨Cert.KernelIdeal.S3x2097152, .f32⟩ : BufTy).Contents (Elt Ideal)) (ix2 (1 : Fin 3) n),
    (KV VK Cert.KernelIdeal.main_v196 : (⟨Cert.KernelIdeal.S3x2097152, .f32⟩ : BufTy).Contents (Elt Ideal)) (ix2 (2 : Fin 3) n),
    (KV VK Cert.KernelIdeal.main_v301 : (⟨Cert.KernelIdeal.S3x2097152, .f32⟩ : BufTy).Contents (Elt Ideal)) (ix2 (0 : Fin 3) n),
    (KV VK Cert.KernelIdeal.main_v301 : (⟨Cert.KernelIdeal.S3x2097152, .f32⟩ : BufTy).Contents (Elt Ideal)) (ix2 (1 : Fin 3) n),
    (KV VK Cert.KernelIdeal.main_v301 : (⟨Cert.KernelIdeal.S3x2097152, .f32⟩ : BufTy).Contents (Elt Ideal)) (ix2 (2 : Fin 3) n),
    (KV VK Cert.KernelIdeal.main_v333 : (⟨Cert.KernelIdeal.S2x2097152, .f32⟩ : BufTy).Contents (Elt Ideal)) (ix2 (0 : Fin 2) n),
    (KV VK Cert.KernelIdeal.main_v333 : (⟨Cert.KernelIdeal.S2x2097152, .f32⟩ : BufTy).Contents (Elt Ideal)) (ix2 (1 : Fin 2) n),
    (KV VK Cert.KernelIdeal.main_v446 : (⟨Cert.KernelIdeal.S1x2097152, .f32⟩ : BufTy).Contents (Elt Ideal)) (ix2 (0 : Fin 1) n),
    (KV VK Cert.KernelIdeal.main_v566 : (⟨Cert.KernelIdeal.S4x2097152, .f32⟩ : BufTy).Contents (Elt Ideal)) (ix2 (0 : Fin 4) n),
    (KV VK Cert.KernelIdeal.main_v566 : (⟨Cert.KernelIdeal.S4x2097152, .f32⟩ : BufTy).Contents (Elt Ideal)) (ix2 (1 : Fin 4) n),
    (KV VK Cert.KernelIdeal.main_v566 : (⟨Cert.KernelIdeal.S4x2097152, .f32⟩ : BufTy).Contents (Elt Ideal)) (ix2 (2 : Fin 4) n),
    (KV VK Cert.KernelIdeal.main_v566 : (⟨Cert.KernelIdeal.S4x2097152, .f32⟩ : BufTy).Contents (Elt Ideal)) (ix2 (3 : Fin 4) n),
    (KV VK Cert.KernelIdeal.main_v686 : (⟨Cert.KernelIdeal.S4x2097152, .f32⟩ : BufTy).Contents (Elt Ideal)) (ix2 (0 : Fin 4) n),
    (KV VK Cert.KernelIdeal.main_v686 : (⟨Cert.KernelIdeal.S4x2097152, .f32⟩ : BufTy).Contents (Elt Ideal)) (ix2 (1 : Fin 4) n),
    (KV VK Cert.KernelIdeal.main_v686 : (⟨Cert.KernelIdeal.S4x2097152, .f32⟩ : BufTy).Contents (Elt Ideal)) (ix2 (2 : Fin 4) n),
    (KV VK Cert.KernelIdeal.main_v686 : (⟨Cert.KernelIdeal.S4x2097152, .f32⟩ : BufTy).Contents (Elt Ideal)) (ix2 (3 : Fin 4) n)]

theorem feat_row0 (n : Fin 2097152) :
    (KV VK Cert.KernelIdeal.main_v722 : (⟨Cert.KernelIdeal.S29x2097152, .f32⟩ : BufTy).Contents (Elt Ideal)) (ix2 (0 : Fin 29) n) = (KV VK Cert.KernelIdeal.main_arg0 : (⟨Cert.KernelIdeal.S2097152x2, .f32⟩ : BufTy).Contents (Elt Ideal)) (ix2 n (1 : Fin 2)) := by
  have h1 := congrFun (Cert.KernelIdeal.KRead.out_K9 VK (r := Cert.KernelIdeal.main_v722)) (ix2 (0 : Fin 29) n)
  have h2 := congrFun (Cert.KernelIdeal.KRead.in_K9 VK (r := Cert.KernelIdeal.main_arg0) (by decide)) (ix2 n (1 : Fin 2))
  exact h1.trans ((((k9_v722_g0 _ (0 : Fin 12) n (0 : Fin 29) rfl).trans (k9_v721_0 _ n)).trans (k9_row0 _ n)).trans h2)

theorem feat_row1 (n : Fin 2097152) :
    (KV VK Cert.KernelIdeal.main_v722 : (⟨Cert.KernelIdeal.S29x2097152, .f32⟩ : BufTy).Contents (Elt Ideal)) (ix2 (1 : Fin 29) n) = (KV VK Cert.KernelIdeal.main_arg1 : (⟨Cert.KernelIdeal.S2097152x2, .f32⟩ : BufTy).Contents (Elt Ideal)) (ix2 n (1 : Fin 2)) := by
  have h1 := congrFun (Cert.KernelIdeal.KRead.out_K9 VK (r := Cert.KernelIdeal.main_v722)) (ix2 (1 : Fin 29) n)
  have h2 := congrFun (Cert.KernelIdeal.KRead.in_K9 VK (r := Cert.KernelIdeal.main_arg1) (by decide)) (ix2 n (1 : Fin 2))
  exact h1.trans ((((k9_v722_g0 _ (1 : Fin 12) n (1 : Fin 29) rfl).trans (k9_v721_1 _ n)).trans (k9_row1 _ n)).trans h2)

theorem feat_row2 (n : Fin 2097152) :
    (KV VK Cert.KernelIdeal.main_v722 : (⟨Cert.KernelIdeal.S29x2097152, .f32⟩ : BufTy).Contents (Elt Ideal)) (ix2 (2 : Fin 29) n) = (KV VK Cert.KernelIdeal.main_arg2 : (⟨Cert.KernelIdeal.S2097152x2, .f32⟩ : BufTy).Contents (Elt Ideal)) (ix2 n (0 : Fin 2)) := by
  have h1 := congrFun (Cert.KernelIdeal.KRead.out_K9 VK (r := Cert.KernelIdeal.main_v722)) (ix2 (2 : Fin 29) n)
  have h2 := congrFun (Cert.KernelIdeal.KRead.in_K9 VK (r := Cert.KernelIdeal.main_arg2) (by decide)) (ix2 n (0 : Fin 2))
  exact h1.trans ((((k9_v722_g0 _ (2 : Fin 12) n (2 : Fin 29) rfl).trans (k9_v721_2 _ n)).trans (k9_row2 _ n)).trans h2)

theorem feat_row3 (n : Fin 2097152) :
    (KV VK Cert.KernelIdeal.main_v722 : (⟨Cert.KernelIdeal.S29x2097152, .f32⟩ : BufTy).Contents (Elt Ideal)) (ix2 (3 : Fin 29) n) = (KV VK Cert.KernelIdeal.main_arg2 : (⟨Cert.KernelIdeal.S2097152x2, .f32⟩ : BufTy).Contents (Elt Ideal)) (ix2 n (1 : Fin 2)) := by
  have h1 := congrFun (Cert.KernelIdeal.KRead.out_K9 VK (r := Cert.KernelIdeal.main_v722)) (ix2 (3 : Fin 29) n)
  have h2 := congrFun (Cert.KernelIdeal.KRead.in_K9 VK (r := Cert.KernelIdeal.main_arg2) (by decide)) (ix2 n (1 : Fin 2))
  exact h1.trans ((((k9_v722_g0 _ (3 : Fin 12) n (3 : Fin 29) rfl).trans (k9_v721_3 _ n)).trans (k9_row3 _ n)).trans h2)

theorem feat_row4 (n : Fin 2097152) :
    (KV VK Cert.KernelIdeal.main_v722 : (⟨Cert.KernelIdeal.S29x2097152, .f32⟩ : BufTy).Contents (Elt Ideal)) (ix2 (4 : Fin 29) n) = (KV VK Cert.KernelIdeal.main_v13 : (⟨Cert.KernelIdeal.S2097152, .f32⟩ : BufTy).Contents (Elt Ideal)) (ix1 n) := by
  have h1 := congrFun (Cert.KernelIdeal.KRead.out_K9 VK (r := Cert.KernelIdeal.main_v722)) (ix2 (4 : Fin 29) n)
  have h2 := congrFun (Cert.KernelIdeal.KRead.in_K9 VK (r := Cert.KernelIdeal.main_v13) (by decide)) (ix1 n)
  exact h1.trans ((((k9_v722_g0 _ (4 : Fin 12) n (4 : Fin 29) rfl).trans (k9_v721_4 _ n)).trans (k9_row4 _ n)).trans h2)

theorem feat_row5 (n : Fin 2097152) :
    (KV VK Cert.KernelIdeal.main_v722 : (⟨Cert.KernelIdeal.S29x2097152, .f32⟩ : BufTy).Contents (Elt Ideal)) (ix2 (5 : Fin 29) n) = (KV VK Cert.KernelIdeal.main_arg4 : (⟨Cert.KernelIdeal.S2097152x2, .f32⟩ : BufTy).Contents (Elt Ideal)) (ix2 n (1 : Fin 2)) := by
  have h1 := congrFun (Cert.KernelIdeal.KRead.out_K9 VK (r := Cert.KernelIdeal.main_v722)) (ix2 (5 : Fin 29) n)
  have h2 := congrFun (Cert.KernelIdeal.KRead.in_K9 VK (r := Cert.KernelIdeal.main_arg4) (by decide)) (ix2 n (1 : Fin 2))
  exact h1.trans ((((k9_v722_g0 _ (5 : Fin 12) n (5 : Fin 29) rfl).trans (k9_v721_5 _ n)).trans (k9_row5 _ n)).trans h2)

theorem feat_row6 (n : Fin 2097152) :
    (KV VK Cert.KernelIdeal.main_v722 : (⟨Cert.KernelIdeal.S29x2097152, .f32⟩ : BufTy).Contents (Elt Ideal)) (ix2 (6 : Fin 29) n) = (KV VK Cert.KernelIdeal.main_arg8 : (⟨Cert.KernelIdeal.S2097152x2, .f32⟩ : BufTy).Contents (Elt Ideal)) (ix2 n (0 : Fin 2)) := by
  have h1 := congrFun (Cert.KernelIdeal.KRead.out_K9 VK (r := Cert.KernelIdeal.main_v722)) (ix2 (6 : Fin 29) n)
  have h2 := congrFun (Cert.KernelIdeal.KRead.in_K9 VK (r := Cert.KernelIdeal.main_arg8) (by decide)) (ix2 n (0 : Fin 2))
  exact h1.trans ((((k9_v722_g0 _ (6 : Fin 12) n (6 : Fin 29) rfl).trans (k9_v721_6 _ n)).trans (k9_row6 _ n)).trans h2)

theorem feat_row7 (n : Fin 2097152) :
    (KV VK Cert.KernelIdeal.main_v722 : (⟨Cert.KernelIdeal.S29x2097152, .f32⟩ : BufTy).Contents (Elt Ideal)) (ix2 (7 : Fin 29) n) = (KV VK Cert.KernelIdeal.main_arg8 : (⟨Cert.KernelIdeal.S2097152x2, .f32⟩ : BufTy).Contents (Elt Ideal)) (ix2 n (1 : Fin 2)) := by
  have h1 := congrFun (Cert.KernelIdeal.KRead.out_K9 VK (r := Cert.KernelIdeal.main_v722)) (ix2 (7 : Fin 29) n)
  have h2 := congrFun (Cert.KernelIdeal.KRead.in_K9 VK (r := Cert.KernelIdeal.main_arg8) (by decide)) (ix2 n (1 : Fin 2))
  exact h1.trans ((((k9_v722_g0 _ (7 : Fin 12) n (7 : Fin 29) rfl).trans (k9_v721_7 _ n)).trans (k9_row7 _ n)).trans h2)

theorem feat_row8 (n : Fin 2097152) :
    (KV VK Cert.KernelIdeal.main_v722 : (⟨Cert.KernelIdeal.S29x2097152, .f32⟩ : BufTy).Contents (Elt Ideal)) (ix2 (8 : Fin 29) n) = (KV VK Cert.KernelIdeal.main_arg6 : (⟨Cert.KernelIdeal.S2097152x2, .f32⟩ : BufTy).Contents (Elt Ideal)) (ix2 n (0 : Fin 2)) := by
  have h1 := congrFun (Cert.KernelIdeal.KRead.out_K9 VK (r := Cert.KernelIdeal.main_v722)) (ix2 (8 : Fin 29) n)
  have h2 := congrFun (Cert.KernelIdeal.KRead.in_K9 VK (r := Cert.KernelIdeal.main_arg6) (by decide)) (ix2 n (0 : Fin 2))
  exact h1.trans ((((k9_v722_g0 _ (8 : Fin 12) n (8 : Fin 29) rfl).trans (k9_v721_8 _ n)).trans (k9_row8 _ n)).trans h2)

theorem feat_row9 (n : Fin 2097152) :
    (KV VK Cert.KernelIdeal.main_v722 : (⟨Cert.KernelIdeal.S29x2097152, .f32⟩ : BufTy).Contents (Elt Ideal)) (ix2 (9 : Fin 29) n) = (KV VK Cert.KernelIdeal.main_arg6 : (⟨Cert.KernelIdeal.S2097152x2, .f32⟩ : BufTy).Contents (Elt Ideal)) (ix2 n (1 : Fin 2)) := by
  have h1 := congrFun (Cert.KernelIdeal.KRead.out_K9 VK (r := Cert.KernelIdeal.main_v722)) (ix2 (9 : Fin 29) n)
  have h2 := congrFun (Cert.KernelIdeal.KRead.in_K9 VK (r := Cert.KernelIdeal.main_arg6) (by decide)) (ix2 n (1 : Fin 2))
  exact h1.trans ((((k9_v722_g0 _ (9 : Fin 12) n (9 : Fin 29) rfl).trans (k9_v721_9 _ n)).trans (k9_row9 _ n)).trans h2)

theorem feat_row10 (n : Fin 2097152) :
    (KV VK Cert.KernelIdeal.main_v722 : (⟨Cert.KernelIdeal.S29x2097152, .f32⟩ : BufTy).Contents (Elt Ideal)) (ix2 (10 : Fin 29) n) = (KV VK Cert.KernelIdeal.main_arg7 : (⟨Cert.KernelIdeal.S2097152x2, .f32⟩ : BufTy).Contents (Elt Ideal)) (ix2 n (0 : Fin 2)) := by
  have h1 := congrFun (Cert.KernelIdeal.KRead.out_K9 VK (r := Cert.KernelIdeal.main_v722)) (ix2 (10 : Fin 29) n)
  have h2 := congrFun (Cert.KernelIdeal.KRead.in_K9 VK (r := Cert.KernelIdeal.main_arg7) (by decide)) (ix2 n (0 : Fin 2))
  exact h1.trans ((((k9_v722_g0 _ (10 : Fin 12) n (10 : Fin 29) rfl).trans (k9_v721_10 _ n)).trans (k9_row10 _ n)).trans h2)

theorem feat_row11 (n : Fin 2097152) :
    (KV VK Cert.KernelIdeal.main_v722 : (⟨Cert.KernelIdeal.S29x2097152, .f32⟩ : BufTy).Contents (Elt Ideal)) (ix2 (11 : Fin 29) n) = (KV VK Cert.KernelIdeal.main_arg7 : (⟨Cert.KernelIdeal.S2097152x2, .f32⟩ : BufTy).Contents (Elt Ideal)) (ix2 n (1 : Fin 2)) := by
  have h1 := congrFun (Cert.KernelIdeal.KRead.out_K9 VK (r := Cert.KernelIdeal.main_v722)) (ix2 (11 : Fin 29) n)
  have h2 := congrFun (Cert.KernelIdeal.KRead.in_K9 VK (r := Cert.KernelIdeal.main_arg7) (by decide)) (ix2 n (1 : Fin 2))
  exact h1.trans ((((k9_v722_g0 _ (11 : Fin 12) n (11 : Fin 29) rfl).trans (k9_v721_11 _ n)).trans (k9_row11 _ n)).trans h2)

theorem feat_row12 (n : Fin 2097152) :
    (KV VK Cert.KernelIdeal.main_v722 : (⟨Cert.KernelIdeal.S29x2097152, .f32⟩ : BufTy).Contents (Elt Ideal)) (ix2 (12 : Fin 29) n) = (KV VK Cert.KernelIdeal.main_v196 : (⟨Cert.KernelIdeal.S3x2097152, .f32⟩ : BufTy).Contents (Elt Ideal)) (ix2 (0 : Fin 3) n) := by
  have h1 := congrFun (Cert.KernelIdeal.KRead.out_K9 VK (r := Cert.KernelIdeal.main_v722)) (ix2 (12 : Fin 29) n)
  have h2 := congrFun (Cert.KernelIdeal.KRead.in_K9 VK (r := Cert.KernelIdeal.main_v196) (by decide)) (ix2 (0 : Fin 3) n)
  exact h1.trans ((k9_v722_g1 _ (0 : Fin 3) n (12 : Fin 29) rfl).trans h2)

theorem feat_row13 (n : Fin 2097152) :
    (KV VK Cert.KernelIdeal.main_v722 : (⟨Cert.KernelIdeal.S29x2097152, .f32⟩ : BufTy).Contents (Elt Ideal)) (ix2 (13 : Fin 29) n) = (KV VK Cert.KernelIdeal.main_v196 : (⟨Cert.KernelIdeal.S3x2097152, .f32⟩ : BufTy).Contents (Elt Ideal)) (ix2 (1 : Fin 3) n) := by
  have h1 := congrFun (Cert.KernelIdeal.KRead.out_K9 VK (r := Cert.KernelIdeal.main_v722)) (ix2 (13 : Fin 29) n)
  have h2 := congrFun (Cert.KernelIdeal.KRead.in_K9 VK (r := Cert.KernelIdeal.main_v196) (by decide)) (ix2 (1 : Fin 3) n)
  exact h1.trans ((k9_v722_g1 _ (1 : Fin 3) n (13 : Fin 29) rfl).trans h2)

theorem feat_row14 (n : Fin 2097152) :
    (KV VK Cert.KernelIdeal.main_v722 : (⟨Cert.KernelIdeal.S29x2097152, .f32⟩ : BufTy).Contents (Elt Ideal)) (ix2 (14 : Fin 29) n) = (KV VK Cert.KernelIdeal.main_v196 : (⟨Cert.KernelIdeal.S3x2097152, .f32⟩ : BufTy).Contents (Elt Ideal)) (ix2 (2 : Fin 3) n) := by
  have h1 := congrFun (Cert.KernelIdeal.KRead.out_K9 VK (r := Cert.KernelIdeal.main_v722)) (ix2 (14 : Fin 29) n)
  have h2 := congrFun (Cert.KernelIdeal.KRead.in_K9 VK (r := Cert.KernelIdeal.main_v196) (by decide)) (ix2 (2 : Fin 3) n)
  exact h1.trans ((k9_v722_g1 _ (2 : Fin 3) n (14 : Fin 29) rfl).trans h2)

theorem feat_row15 (n : Fin 2097152) :
    (KV VK Cert.KernelIdeal.main_v722 : (⟨Cert.KernelIdeal.S29x2097152, .f32⟩ : BufTy).Contents (Elt Ideal)) (ix2 (15 : Fin 29) n) = (KV VK Cert.KernelIdeal.main_v301 : (⟨Cert.KernelIdeal.S3x2097152, .f32⟩ : BufTy).Contents (Elt Ideal)) (ix2 (0 : Fin 3) n) := by
  have h1 := congrFun (Cert.KernelIdeal.KRead.out_K9 VK (r := Cert.KernelIdeal.main_v722)) (ix2 (15 : Fin 29) n)
  have h2 := congrFun (Cert.KernelIdeal.KRead.in_K9 VK (r := Cert.KernelIdeal.main_v301) (by decide)) (ix2 (0 : Fin 3) n)
  exact h1.trans ((k9_v722_g2 _ (0 : Fin 3) n (15 : Fin 29) rfl).trans h2)

theorem feat_row16 (n : Fin 2097152) :
    (KV VK Cert.KernelIdeal.main_v722 : (⟨Cert.KernelIdeal.S29x2097152, .f32⟩ : BufTy).Contents (Elt Ideal)) (ix2 (16 : Fin 29) n) = (KV VK Cert.KernelIdeal.main_v301 : (⟨Cert.KernelIdeal.S3x2097152, .f32⟩ : BufTy).Contents (Elt Ideal)) (ix2 (1 : Fin 3) n) := by
  have h1 := congrFun (Cert.KernelIdeal.KRead.out_K9 VK (r := Cert.KernelIdeal.main_v722)) (ix2 (16 : Fin 29) n)
  have h2 := congrFun (Cert.KernelIdeal.KRead.in_K9 VK (r := Cert.KernelIdeal.main_v301) (by decide)) (ix2 (1 : Fin 3) n)
  exact h1.trans ((k9_v722_g2 _ (1 : Fin 3) n (16 : Fin 29) rfl).trans h2)

theorem feat_row17 (n : Fin 2097152) :
    (KV VK Cert.KernelIdeal.main_v722 : (⟨Cert.KernelIdeal.S29x2097152, .f32⟩ : BufTy).Contents (Elt Ideal)) (ix2 (17 : Fin 29) n) = (KV VK Cert.KernelIdeal.main_v301 : (⟨Cert.KernelIdeal.S3x2097152, .f32⟩ : BufTy).Contents (Elt Ideal)) (ix2 (2 : Fin 3) n) := by
  have h1 := congrFun (Cert.KernelIdeal.KRead.out_K9 VK (r := Cert.KernelIdeal.main_v722)) (ix2 (17 : Fin 29) n)
  have h2 := congrFun (Cert.KernelIdeal.KRead.in_K9 VK (r := Cert.KernelIdeal.main_v301) (by decide)) (ix2 (2 : Fin 3) n)
  exact h1.trans ((k9_v722_g2 _ (2 : Fin 3) n (17 : Fin 29) rfl).trans h2)

theorem feat_row18 (n : Fin 2097152) :
    (KV VK Cert.KernelIdeal.main_v722 : (⟨Cert.KernelIdeal.S29x2097152, .f32⟩ : BufTy).Contents (Elt Ideal)) (ix2 (18 : Fin 29) n) = (KV VK Cert.KernelIdeal.main_v333 : (⟨Cert.KernelIdeal.S2x2097152, .f32⟩ : BufTy).Contents (Elt Ideal)) (ix2 (0 : Fin 2) n) := by
  have h1 := congrFun (Cert.KernelIdeal.KRead.out_K9 VK (r := Cert.KernelIdeal.main_v722)) (ix2 (18 : Fin 29) n)
  have h2 := congrFun (Cert.KernelIdeal.KRead.in_K9 VK (r := Cert.KernelIdeal.main_v333) (by decide)) (ix2 (0 : Fin 2) n)
  exact h1.trans ((k9_v722_g3 _ (0 : Fin 2) n (18 : Fin 29) rfl).trans h2)

theorem feat_row19 (n : Fin 2097152) :
    (KV VK Cert.KernelIdeal.main_v722 : (⟨Cert.KernelIdeal.S29x2097152, .f32⟩ : BufTy).Contents (Elt Ideal)) (ix2 (19 : Fin 29) n) = (KV VK Cert.KernelIdeal.main_v333 : (⟨Cert.KernelIdeal.S2x2097152, .f32⟩ : BufTy).Contents (Elt Ideal)) (ix2 (1 : Fin 2) n) := by
  have h1 := congrFun (Cert.KernelIdeal.KRead.out_K9 VK (r := Cert.KernelIdeal.main_v722)) (ix2 (19 : Fin 29) n)
  have h2 := congrFun (Cert.KernelIdeal.KRead.in_K9 VK (r := Cert.KernelIdeal.main_v333) (by decide)) (ix2 (1 : Fin 2) n)
  exact h1.trans ((k9_v722_g3 _ (1 : Fin 2) n (19 : Fin 29) rfl).trans h2)

theorem feat_row20 (n : Fin 2097152) :
    (KV VK Cert.KernelIdeal.main_v722 : (⟨Cert.KernelIdeal.S29x2097152, .f32⟩ : BufTy).Contents (Elt Ideal)) (ix2 (20 : Fin 29) n) = (KV VK Cert.KernelIdeal.main_v446 : (⟨Cert.KernelIdeal.S1x2097152, .f32⟩ : BufTy).Contents (Elt Ideal)) (ix2 (0 : Fin 1) n) := by
  have h1 := congrFun (Cert.KernelIdeal.KRead.out_K9 VK (r := Cert.KernelIdeal.main_v722)) (ix2 (20 : Fin 29) n)
  have h2 := congrFun (Cert.KernelIdeal.KRead.in_K9 VK (r := Cert.KernelIdeal.main_v446) (by decide)) (ix2 (0 : Fin 1) n)
  exact h1.trans ((k9_v722_g4 _ (0 : Fin 1) n (20 : Fin 29) rfl).trans h2)

theorem feat_row21 (n : Fin 2097152) :
    (KV VK Cert.KernelIdeal.main_v722 : (⟨Cert.KernelIdeal.S29x2097152, .f32⟩ : BufTy).Contents (Elt Ideal)) (ix2 (21 : Fin 29) n) = (KV VK Cert.KernelIdeal.main_v566 : (⟨Cert.KernelIdeal.S4x2097152, .f32⟩ : BufTy).Contents (Elt Ideal)) (ix2 (0 : Fin 4) n) := by
  have h1 := congrFun (Cert.KernelIdeal.KRead.out_K9 VK (r := Cert.KernelIdeal.main_v722)) (ix2 (21 : Fin 29) n)
  have h2 := congrFun (Cert.KernelIdeal.KRead.in_K9 VK (r := Cert.KernelIdeal.main_v566) (by decide)) (ix2 (0 : Fin 4) n)
  exact h1.trans ((k9_v722_g5 _ (0 : Fin 4) n (21 : Fin 29) rfl).trans h2)

theorem feat_row22 (n : Fin 2097152) :
    (KV VK Cert.KernelIdeal.main_v722 : (⟨Cert.KernelIdeal.S29x2097152, .f32⟩ : BufTy).Contents (Elt Ideal)) (ix2 (22 : Fin 29) n) = (KV VK Cert.KernelIdeal.main_v566 : (⟨Cert.KernelIdeal.S4x2097152, .f32⟩ : BufTy).Contents (Elt Ideal)) (ix2 (1 : Fin 4) n) := by
  have h1 := congrFun (Cert.KernelIdeal.KRead.out_K9 VK (r := Cert.KernelIdeal.main_v722)) (ix2 (22 : Fin 29) n)
  have h2 := congrFun (Cert.KernelIdeal.KRead.in_K9 VK (r := Cert.KernelIdeal.main_v566) (by decide)) (ix2 (1 : Fin 4) n)
  exact h1.trans ((k9_v722_g5 _ (1 : Fin 4) n (22 : Fin 29) rfl).trans h2)

theorem feat_row23 (n : Fin 2097152) :
    (KV VK Cert.KernelIdeal.main_v722 : (⟨Cert.KernelIdeal.S29x2097152, .f32⟩ : BufTy).Contents (Elt Ideal)) (ix2 (23 : Fin 29) n) = (KV VK Cert.KernelIdeal.main_v566 : (⟨Cert.KernelIdeal.S4x2097152, .f32⟩ : BufTy).Contents (Elt Ideal)) (ix2 (2 : Fin 4) n) := by
  have h1 := congrFun (Cert.KernelIdeal.KRead.out_K9 VK (r := Cert.KernelIdeal.main_v722)) (ix2 (23 : Fin 29) n)
  have h2 := congrFun (Cert.KernelIdeal.KRead.in_K9 VK (r := Cert.KernelIdeal.main_v566) (by decide)) (ix2 (2 : Fin 4) n)
  exact h1.trans ((k9_v722_g5 _ (2 : Fin 4) n (23 : Fin 29) rfl).trans h2)

theorem feat_row24 (n : Fin 2097152) :
    (KV VK Cert.KernelIdeal.main_v722 : (⟨Cert.KernelIdeal.S29x2097152, .f32⟩ : BufTy).Contents (Elt Ideal)) (ix2 (24 : Fin 29) n) = (KV VK Cert.KernelIdeal.main_v566 : (⟨Cert.KernelIdeal.S4x2097152, .f32⟩ : BufTy).Contents (Elt Ideal)) (ix2 (3 : Fin 4) n) := by
  have h1 := congrFun (Cert.KernelIdeal.KRead.out_K9 VK (r := Cert.KernelIdeal.main_v722)) (ix2 (24 : Fin 29) n)
  have h2 := congrFun (Cert.KernelIdeal.KRead.in_K9 VK (r := Cert.KernelIdeal.main_v566) (by decide)) (ix2 (3 : Fin 4) n)
  exact h1.trans ((k9_v722_g5 _ (3 : Fin 4) n (24 : Fin 29) rfl).trans h2)

theorem feat_row25 (n : Fin 2097152) :
    (KV VK Cert.KernelIdeal.main_v722 : (⟨Cert.KernelIdeal.S29x2097152, .f32⟩ : BufTy).Contents (Elt Ideal)) (ix2 (25 : Fin 29) n) = (KV VK Cert.KernelIdeal.main_v686 : (⟨Cert.KernelIdeal.S4x2097152, .f32⟩ : BufTy).Contents (Elt Ideal)) (ix2 (0 : Fin 4) n) := by
  have h1 := congrFun (Cert.KernelIdeal.KRead.out_K9 VK (r := Cert.KernelIdeal.main_v722)) (ix2 (25 : Fin 29) n)
  have h2 := congrFun (Cert.KernelIdeal.KRead.in_K9 VK (r := Cert.KernelIdeal.main_v686) (by decide)) (ix2 (0 : Fin 4) n)
  exact h1.trans ((k9_v722_g6 _ (0 : Fin 4) n (25 : Fin 29) rfl).trans h2)

theorem feat_row26 (n : Fin 2097152) :
    (KV VK Cert.KernelIdeal.main_v722 : (⟨Cert.KernelIdeal.S29x2097152, .f32⟩ : BufTy).Contents (Elt Ideal)) (ix2 (26 : Fin 29) n) = (KV VK Cert.KernelIdeal.main_v686 : (⟨Cert.KernelIdeal.S4x2097152, .f32⟩ : BufTy).Contents (Elt Ideal)) (ix2 (1 : Fin 4) n) := by
  have h1 := congrFun (Cert.KernelIdeal.KRead.out_K9 VK (r := Cert.KernelIdeal.main_v722)) (ix2 (26 : Fin 29) n)
  have h2 := congrFun (Cert.KernelIdeal.KRead.in_K9 VK (r := Cert.KernelIdeal.main_v686) (by decide)) (ix2 (1 : Fin 4) n)
  exact h1.trans ((k9_v722_g6 _ (1 : Fin 4) n (26 : Fin 29) rfl).trans h2)

theorem feat_row27 (n : Fin 2097152) :
    (KV VK Cert.KernelIdeal.main_v722 : (⟨Cert.KernelIdeal.S29x2097152, .f32⟩ : BufTy).Contents (Elt Ideal)) (ix2 (27 : Fin 29) n) = (KV VK Cert.KernelIdeal.main_v686 : (⟨Cert.KernelIdeal.S4x2097152, .f32⟩ : BufTy).Contents (Elt Ideal)) (ix2 (2 : Fin 4) n) := by
  have h1 := congrFun (Cert.KernelIdeal.KRead.out_K9 VK (r := Cert.KernelIdeal.main_v722)) (ix2 (27 : Fin 29) n)
  have h2 := congrFun (Cert.KernelIdeal.KRead.in_K9 VK (r := Cert.KernelIdeal.main_v686) (by decide)) (ix2 (2 : Fin 4) n)
  exact h1.trans ((k9_v722_g6 _ (2 : Fin 4) n (27 : Fin 29) rfl).trans h2)

theorem feat_row28 (n : Fin 2097152) :
    (KV VK Cert.KernelIdeal.main_v722 : (⟨Cert.KernelIdeal.S29x2097152, .f32⟩ : BufTy).Contents (Elt Ideal)) (ix2 (28 : Fin 29) n) = (KV VK Cert.KernelIdeal.main_v686 : (⟨Cert.KernelIdeal.S4x2097152, .f32⟩ : BufTy).Contents (Elt Ideal)) (ix2 (3 : Fin 4) n) := by
  have h1 := congrFun (Cert.KernelIdeal.KRead.out_K9 VK (r := Cert.KernelIdeal.main_v722)) (ix2 (28 : Fin 29) n)
  have h2 := congrFun (Cert.KernelIdeal.KRead.in_K9 VK (r := Cert.KernelIdeal.main_v686) (by decide)) (ix2 (3 : Fin 4) n)
  exact h1.trans ((k9_v722_g6 _ (3 : Fin 4) n (28 : Fin 29) rfl).trans h2)

/-! Feature `k` of `featK`, entry by entry (the literal list read at a literal position). -/
theorem featK_at0 (n : Fin 2097152) : featK VK n (0 : Fin 29) = (KV VK Cert.KernelIdeal.main_arg0 : (⟨Cert.KernelIdeal.S2097152x2, .f32⟩ : BufTy).Contents (Elt Ideal)) (ix2 n (1 : Fin 2)) := by
  unfold featK
  simp only [Matrix.cons_val]
theorem featK_at1 (n : Fin 2097152) : featK VK n (1 : Fin 29) = (KV VK Cert.KernelIdeal.main_arg1 : (⟨Cert.KernelIdeal.S2097152x2, .f32⟩ : BufTy).Contents (Elt Ideal)) (ix2 n (1 : Fin 2)) := by
  unfold featK
  simp only [Matrix.cons_val]
theorem featK_at2 (n : Fin 2097152) : featK VK n (2 : Fin 29) = (KV VK Cert.KernelIdeal.main_arg2 : (⟨Cert.KernelIdeal.S2097152x2, .f32⟩ : BufTy).Contents (Elt Ideal)) (ix2 n (0 : Fin 2)) := by
  unfold featK
  simp only [Matrix.cons_val]
theorem featK_at3 (n : Fin 2097152) : featK VK n (3 : Fin 29) = (KV VK Cert.KernelIdeal.main_arg2 : (⟨Cert.KernelIdeal.S2097152x2, .f32⟩ : BufTy).Contents (Elt Ideal)) (ix2 n (1 : Fin 2)) := by
  unfold featK
  simp only [Matrix.cons_val]
theorem featK_at4 (n : Fin 2097152) : featK VK n (4 : Fin 29) = (KV VK Cert.KernelIdeal.main_v13 : (⟨Cert.KernelIdeal.S2097152, .f32⟩ : BufTy).Contents (Elt Ideal)) (ix1 n) := by
  unfold featK
  simp only [Matrix.cons_val]
theorem featK_at5 (n : Fin 2097152) : featK VK n (5 : Fin 29) = (KV VK Cert.KernelIdeal.main_arg4 : (⟨Cert.KernelIdeal.S2097152x2, .f32⟩ : BufTy).Contents (Elt Ideal)) (ix2 n (1 : Fin 2)) := by
  unfold featK
  simp only [Matrix.cons_val]
theorem featK_at6 (n : Fin 2097152) : featK VK n (6 : Fin 29) = (KV VK Cert.KernelIdeal.main_arg8 : (⟨Cert.KernelIdeal.S2097152x2, .f32⟩ : BufTy).Contents (Elt Ideal)) (ix2 n (0 : Fin 2)) := by
  unfold featK
  simp only [Matrix.cons_val]
theorem featK_at7 (n : Fin 2097152) : featK VK n (7 : Fin 29) = (KV VK Cert.KernelIdeal.main_arg8 : (⟨Cert.KernelIdeal.S2097152x2, .f32⟩ : BufTy).Contents (Elt Ideal)) (ix2 n (1 : Fin 2)) := by
  unfold featK
  simp only [Matrix.cons_val]
theorem featK_at8 (n : Fin 2097152) : featK VK n (8 : Fin 29) = (KV VK Cert.KernelIdeal.main_arg6 : (⟨Cert.KernelIdeal.S2097152x2, .f32⟩ : BufTy).Contents (Elt Ideal)) (ix2 n (0 : Fin 2)) := by
  unfold featK
  simp only [Matrix.cons_val]
theorem featK_at9 (n : Fin 2097152) : featK VK n (9 : Fin 29) = (KV VK Cert.KernelIdeal.main_arg6 : (⟨Cert.KernelIdeal.S2097152x2, .f32⟩ : BufTy).Contents (Elt Ideal)) (ix2 n (1 : Fin 2)) := by
  unfold featK
  simp only [Matrix.cons_val]
theorem featK_at10 (n : Fin 2097152) : featK VK n (10 : Fin 29) = (KV VK Cert.KernelIdeal.main_arg7 : (⟨Cert.KernelIdeal.S2097152x2, .f32⟩ : BufTy).Contents (Elt Ideal)) (ix2 n (0 : Fin 2)) := by
  unfold featK
  simp only [Matrix.cons_val]
theorem featK_at11 (n : Fin 2097152) : featK VK n (11 : Fin 29) = (KV VK Cert.KernelIdeal.main_arg7 : (⟨Cert.KernelIdeal.S2097152x2, .f32⟩ : BufTy).Contents (Elt Ideal)) (ix2 n (1 : Fin 2)) := by
  unfold featK
  simp only [Matrix.cons_val]
theorem featK_at12 (n : Fin 2097152) : featK VK n (12 : Fin 29) = (KV VK Cert.KernelIdeal.main_v196 : (⟨Cert.KernelIdeal.S3x2097152, .f32⟩ : BufTy).Contents (Elt Ideal)) (ix2 (0 : Fin 3) n) := by
  unfold featK
  simp only [Matrix.cons_val]
theorem featK_at13 (n : Fin 2097152) : featK VK n (13 : Fin 29) = (KV VK Cert.KernelIdeal.main_v196 : (⟨Cert.KernelIdeal.S3x2097152, .f32⟩ : BufTy).Contents (Elt Ideal)) (ix2 (1 : Fin 3) n) := by
  unfold featK
  simp only [Matrix.cons_val]
theorem featK_at14 (n : Fin 2097152) : featK VK n (14 : Fin 29) = (KV VK Cert.KernelIdeal.main_v196 : (⟨Cert.KernelIdeal.S3x2097152, .f32⟩ : BufTy).Contents (Elt Ideal)) (ix2 (2 : Fin 3) n) := by
  unfold featK
  simp only [Matrix.cons_val]
theorem featK_at15 (n : Fin 2097152) : featK VK n (15 : Fin 29) = (KV VK Cert.KernelIdeal.main_v301 : (⟨Cert.KernelIdeal.S3x2097152, .f32⟩ : BufTy).Contents (Elt Ideal)) (ix2 (0 : Fin 3) n) := by
  unfold featK
  simp only [Matrix.cons_val]
theorem featK_at16 (n : Fin 2097152) : featK VK n (16 : Fin 29) = (KV VK Cert.KernelIdeal.main_v301 : (⟨Cert.KernelIdeal.S3x2097152, .f32⟩ : BufTy).Contents (Elt Ideal)) (ix2 (1 : Fin 3) n) := by
  unfold featK
  simp only [Matrix.cons_val]
theorem featK_at17 (n : Fin 2097152) : featK VK n (17 : Fin 29) = (KV VK Cert.KernelIdeal.main_v301 : (⟨Cert.KernelIdeal.S3x2097152, .f32⟩ : BufTy).Contents (Elt Ideal)) (ix2 (2 : Fin 3) n) := by
  unfold featK
  simp only [Matrix.cons_val]
theorem featK_at18 (n : Fin 2097152) : featK VK n (18 : Fin 29) = (KV VK Cert.KernelIdeal.main_v333 : (⟨Cert.KernelIdeal.S2x2097152, .f32⟩ : BufTy).Contents (Elt Ideal)) (ix2 (0 : Fin 2) n) := by
  unfold featK
  simp only [Matrix.cons_val]
theorem featK_at19 (n : Fin 2097152) : featK VK n (19 : Fin 29) = (KV VK Cert.KernelIdeal.main_v333 : (⟨Cert.KernelIdeal.S2x2097152, .f32⟩ : BufTy).Contents (Elt Ideal)) (ix2 (1 : Fin 2) n) := by
  unfold featK
  simp only [Matrix.cons_val]
theorem featK_at20 (n : Fin 2097152) : featK VK n (20 : Fin 29) = (KV VK Cert.KernelIdeal.main_v446 : (⟨Cert.KernelIdeal.S1x2097152, .f32⟩ : BufTy).Contents (Elt Ideal)) (ix2 (0 : Fin 1) n) := by
  unfold featK
  simp only [Matrix.cons_val]
theorem featK_at21 (n : Fin 2097152) : featK VK n (21 : Fin 29) = (KV VK Cert.KernelIdeal.main_v566 : (⟨Cert.KernelIdeal.S4x2097152, .f32⟩ : BufTy).Contents (Elt Ideal)) (ix2 (0 : Fin 4) n) := by
  unfold featK
  simp only [Matrix.cons_val]
theorem featK_at22 (n : Fin 2097152) : featK VK n (22 : Fin 29) = (KV VK Cert.KernelIdeal.main_v566 : (⟨Cert.KernelIdeal.S4x2097152, .f32⟩ : BufTy).Contents (Elt Ideal)) (ix2 (1 : Fin 4) n) := by
  unfold featK
  simp only [Matrix.cons_val]
theorem featK_at23 (n : Fin 2097152) : featK VK n (23 : Fin 29) = (KV VK Cert.KernelIdeal.main_v566 : (⟨Cert.KernelIdeal.S4x2097152, .f32⟩ : BufTy).Contents (Elt Ideal)) (ix2 (2 : Fin 4) n) := by
  unfold featK
  simp only [Matrix.cons_val]
theorem featK_at24 (n : Fin 2097152) : featK VK n (24 : Fin 29) = (KV VK Cert.KernelIdeal.main_v566 : (⟨Cert.KernelIdeal.S4x2097152, .f32⟩ : BufTy).Contents (Elt Ideal)) (ix2 (3 : Fin 4) n) := by
  unfold featK
  simp only [Matrix.cons_val]
theorem featK_at25 (n : Fin 2097152) : featK VK n (25 : Fin 29) = (KV VK Cert.KernelIdeal.main_v686 : (⟨Cert.KernelIdeal.S4x2097152, .f32⟩ : BufTy).Contents (Elt Ideal)) (ix2 (0 : Fin 4) n) := by
  unfold featK
  simp only [Matrix.cons_val]
theorem featK_at26 (n : Fin 2097152) : featK VK n (26 : Fin 29) = (KV VK Cert.KernelIdeal.main_v686 : (⟨Cert.KernelIdeal.S4x2097152, .f32⟩ : BufTy).Contents (Elt Ideal)) (ix2 (1 : Fin 4) n) := by
  unfold featK
  simp only [Matrix.cons_val]
theorem featK_at27 (n : Fin 2097152) : featK VK n (27 : Fin 29) = (KV VK Cert.KernelIdeal.main_v686 : (⟨Cert.KernelIdeal.S4x2097152, .f32⟩ : BufTy).Contents (Elt Ideal)) (ix2 (2 : Fin 4) n) := by
  unfold featK
  simp only [Matrix.cons_val]
theorem featK_at28 (n : Fin 2097152) : featK VK n (28 : Fin 29) = (KV VK Cert.KernelIdeal.main_v686 : (⟨Cert.KernelIdeal.S4x2097152, .f32⟩ : BufTy).Contents (Elt Ideal)) (ix2 (3 : Fin 4) n) := by
  unfold featK
  simp only [Matrix.cons_val]

/-- Row `k` of the kernel's feature array at column `n` is feature `k` of row `n`. -/
theorem feat_rows (VK : Valuation Cert.KernelIdeal.τ Cert.KernelIdeal.sig (Elt Ideal)) :
    ∀ (k : Fin 29) (n : Fin 2097152), (KV VK Cert.KernelIdeal.main_v722 : (⟨Cert.KernelIdeal.S29x2097152, .f32⟩ : BufTy).Contents (Elt Ideal)) (ix2 k n) = featK VK n k := by
  intro k n
  match k with
  | ⟨0, _⟩ => exact (feat_row0 VK n).trans (featK_at0 VK n).symm
  | ⟨1, _⟩ => exact (feat_row1 VK n).trans (featK_at1 VK n).symm
  | ⟨2, _⟩ => exact (feat_row2 VK n).trans (featK_at2 VK n).symm
  | ⟨3, _⟩ => exact (feat_row3 VK n).trans (featK_at3 VK n).symm
  | ⟨4, _⟩ => exact (feat_row4 VK n).trans (featK_at4 VK n).symm
  | ⟨5, _⟩ => exact (feat_row5 VK n).trans (featK_at5 VK n).symm
  | ⟨6, _⟩ => exact (feat_row6 VK n).trans (featK_at6 VK n).symm
  | ⟨7, _⟩ => exact (feat_row7 VK n).trans (featK_at7 VK n).symm
  | ⟨8, _⟩ => exact (feat_row8 VK n).trans (featK_at8 VK n).symm
  | ⟨9, _⟩ => exact (feat_row9 VK n).trans (featK_at9 VK n).symm
  | ⟨10, _⟩ => exact (feat_row10 VK n).trans (featK_at10 VK n).symm
  | ⟨11, _⟩ => exact (feat_row11 VK n).trans (featK_at11 VK n).symm
  | ⟨12, _⟩ => exact (feat_row12 VK n).trans (featK_at12 VK n).symm
  | ⟨13, _⟩ => exact (feat_row13 VK n).trans (featK_at13 VK n).symm
  | ⟨14, _⟩ => exact (feat_row14 VK n).trans (featK_at14 VK n).symm
  | ⟨15, _⟩ => exact (feat_row15 VK n).trans (featK_at15 VK n).symm
  | ⟨16, _⟩ => exact (feat_row16 VK n).trans (featK_at16 VK n).symm
  | ⟨17, _⟩ => exact (feat_row17 VK n).trans (featK_at17 VK n).symm
  | ⟨18, _⟩ => exact (feat_row18 VK n).trans (featK_at18 VK n).symm
  | ⟨19, _⟩ => exact (feat_row19 VK n).trans (featK_at19 VK n).symm
  | ⟨20, _⟩ => exact (feat_row20 VK n).trans (featK_at20 VK n).symm
  | ⟨21, _⟩ => exact (feat_row21 VK n).trans (featK_at21 VK n).symm
  | ⟨22, _⟩ => exact (feat_row22 VK n).trans (featK_at22 VK n).symm
  | ⟨23, _⟩ => exact (feat_row23 VK n).trans (featK_at23 VK n).symm
  | ⟨24, _⟩ => exact (feat_row24 VK n).trans (featK_at24 VK n).symm
  | ⟨25, _⟩ => exact (feat_row25 VK n).trans (featK_at25 VK n).symm
  | ⟨26, _⟩ => exact (feat_row26 VK n).trans (featK_at26 VK n).symm
  | ⟨27, _⟩ => exact (feat_row27 VK n).trans (featK_at27 VK n).symm
  | ⟨28, _⟩ => exact (feat_row28 VK n).trans (featK_at28 VK n).symm
  | ⟨k + 29, h⟩ => exact absurd h (by omega)

end Feat

end Cert.Bridge

end
-- ==== Proof.FinalA.lean ====
/-
  The two programs hold the same 29 features per row: the eight lookups' correspondences chained in program order, each
  later lookup taking earlier results as its coordinates, from agreeing arguments.
-/
import proofs.«151772_j21234318312201_1_alg».proof.Proof.BlockPre
import proofs.«151772_j21234318312201_1_alg».proof.Proof.Block1
import proofs.«151772_j21234318312201_1_alg».proof.Proof.Block2
import proofs.«151772_j21234318312201_1_alg».proof.Proof.Block3
import proofs.«151772_j21234318312201_1_alg».proof.Proof.Block4
import proofs.«151772_j21234318312201_1_alg».proof.Proof.Block5
import proofs.«151772_j21234318312201_1_alg».proof.Proof.Block6
import proofs.«151772_j21234318312201_1_alg».proof.Proof.Block7
import proofs.«151772_j21234318312201_1_alg».proof.Proof.Block8
import proofs.«151772_j21234318312201_1_alg».proof.Proof.BlockRefComp
import proofs.«151772_j21234318312201_1_alg».proof.Proof.BlockFeat

set_option maxRecDepth 16384

noncomputable section

namespace Cert.Proof.Assembly

open Idealize.ShloMosaic Idealize.ShloMosaic.TcCoe Idealize.SL.Sem Idealize.ShloMosaic.ValueIdx Cert.Bridge

/-! ## The two programs hold the same 29 features per row -/

/-- From agreeing arguments: every row's features, as the kernel program's feature array is stacked from them and as the
    reference holds them, are the same 29 numbers (the eight lookups' correspondences, in the order the programs compute
    them: each later lookup takes earlier ones' results as coordinates). -/
theorem feats_agree (VK : Valuation Cert.KernelIdeal.τ Cert.KernelIdeal.sig (Elt Ideal)) (VR : Valuation Cert.ReferenceIdeal.τ Cert.ReferenceIdeal.sig (Elt Ideal))
    (hA0 : KV VK Cert.KernelIdeal.main_arg0 = RV VR Cert.ReferenceIdeal.main_arg0)
    (hA1 : KV VK Cert.KernelIdeal.main_arg1 = RV VR Cert.ReferenceIdeal.main_arg1)
    (hA2 : KV VK Cert.KernelIdeal.main_arg2 = RV VR Cert.ReferenceIdeal.main_arg2)
    (hA4 : KV VK Cert.KernelIdeal.main_arg4 = RV VR Cert.ReferenceIdeal.main_arg4)
    (hA5 : KV VK Cert.KernelIdeal.main_arg5 = RV VR Cert.ReferenceIdeal.main_arg5)
    (hA6 : KV VK Cert.KernelIdeal.main_arg6 = RV VR Cert.ReferenceIdeal.main_arg6)
    (hA7 : KV VK Cert.KernelIdeal.main_arg7 = RV VR Cert.ReferenceIdeal.main_arg7)
    (hA8 : KV VK Cert.KernelIdeal.main_arg8 = RV VR Cert.ReferenceIdeal.main_arg8)
    (hA9 : KV VK Cert.KernelIdeal.main_arg9 = RV VR Cert.ReferenceIdeal.main_arg9)
    (hA10 : KV VK Cert.KernelIdeal.main_arg10 = RV VR Cert.ReferenceIdeal.main_arg10)
    (hA11 : KV VK Cert.KernelIdeal.main_arg11 = RV VR Cert.ReferenceIdeal.main_arg11)
    (hA12 : KV VK Cert.KernelIdeal.main_arg12 = RV VR Cert.ReferenceIdeal.main_arg12)
    (hA13 : KV VK Cert.KernelIdeal.main_arg13 = RV VR Cert.ReferenceIdeal.main_arg13)
    (hA14 : KV VK Cert.KernelIdeal.main_arg14 = RV VR Cert.ReferenceIdeal.main_arg14)
    (hA15 : KV VK Cert.KernelIdeal.main_arg15 = RV VR Cert.ReferenceIdeal.main_arg15)
    (hA16 : KV VK Cert.KernelIdeal.main_arg16 = RV VR Cert.ReferenceIdeal.main_arg16) :
    ∀ n : Fin 2097152, featK VK n = featR VR n := by
  have hT0 : ∀ (l : Fin 2) (u v : Fin 2048), KV VK Cert.KernelIdeal.main_v0 (ix3 l u v) = RV VR Cert.ReferenceIdeal.main_arg9 (ix3 u v l) :=
    fun l u v => (pk_T0 VK l u v).trans (congrFun hA9 _)
  have hT1 : ∀ (l : Fin 1) (u : Fin 2048), KV VK Cert.KernelIdeal.main_v1 (ix2 l u) = RV VR Cert.ReferenceIdeal.main_arg10 (ix2 u l) :=
    fun l u => (pk_T1 VK l u).trans (congrFun hA10 _)
  have hT2 : ∀ (l : Fin 3) (u v : Fin 64), KV VK Cert.KernelIdeal.main_v2 (ix3 l u v) = RV VR Cert.ReferenceIdeal.main_arg11 (ix3 u v l) :=
    fun l u v => (pk_T2 VK l u v).trans (congrFun hA11 _)
  have hT3 : ∀ (l : Fin 3) (u v : Fin 48), KV VK Cert.KernelIdeal.main_v3 (ix3 l u v) = RV VR Cert.ReferenceIdeal.main_arg12 (ix3 u v l) :=
    fun l u v => (pk_T3 VK l u v).trans (congrFun hA12 _)
  have hT4 : ∀ (l : Fin 2) (u : Fin 96), KV VK Cert.KernelIdeal.main_v4 (ix2 l u) = RV VR Cert.ReferenceIdeal.main_arg13 (ix2 u l) :=
    fun l u => (pk_T4 VK l u).trans (congrFun hA13 _)
  have hT5 : ∀ (l : Fin 1) (u v : Fin 32), KV VK Cert.KernelIdeal.main_v5 (ix3 l u v) = RV VR Cert.ReferenceIdeal.main_arg14 (ix3 u v l) :=
    fun l u v => (pk_T5 VK l u v).trans (congrFun hA14 _)
  have hT6 : ∀ (l : Fin 4) (u v : Fin 32), KV VK Cert.KernelIdeal.main_v6 (ix3 l u v) = RV VR Cert.ReferenceIdeal.main_arg15 (ix3 u v l) :=
    fun l u v => (pk_T6 VK l u v).trans (congrFun hA15 _)
  have hT7 : ∀ (l : Fin 4) (u v : Fin 32), KV VK Cert.KernelIdeal.main_v7 (ix3 l u v) = RV VR Cert.ReferenceIdeal.main_arg16 (ix3 u v l) :=
    fun l u v => (pk_T7 VK l u v).trans (congrFun hA16 _)
  have h9 : ∀ n : Fin 2097152, KV VK Cert.KernelIdeal.main_v9 (ix1 n) = RV VR Cert.ReferenceIdeal.main_v6 (ix2 n 0) :=
    fun n => (pk_9 VK n).trans ((congrFun hA0 _).trans (pr_6a VR n).symm)
  have h11 : ∀ n : Fin 2097152, KV VK Cert.KernelIdeal.main_v11 (ix1 n) = RV VR Cert.ReferenceIdeal.main_v6 (ix2 n 1) :=
    fun n => (pk_11 VK n).trans ((congrFun hA1 _).trans (pr_6b VR n).symm)
  obtain ⟨h50, h52⟩ := corr_ra VK VR hT0 h9 h11
  have h78 := corr_cg VK VR hA5 hT1
  have hC3 := corr_rsEnc VK VR hA5 hT2 h9
  have hC4 := corr_raCoefs VK VR hT3 h50 h52
  have hC5 := corr_cgCoefs VK VR h78 hT4
  have hC6 := corr_vTerm VK VR hA2 hT5 h50
  have hC7 := corr_nlv VK VR hA2 hT6
  have hC8 := corr_nhl VK VR hA2 hA4 hT7
  intro n
  unfold featK featR
  rw [congrFun hA0 (ix2 n 1),
    congrFun hA1 (ix2 n 1),
    congrFun hA2 (ix2 n 0),
    congrFun hA2 (ix2 n 1),
    (pk_13 VK n).trans (congrFun hA4 (ix2 n 0)),
    congrFun hA4 (ix2 n 1),
    congrFun hA8 (ix2 n 0),
    congrFun hA8 (ix2 n 1),
    congrFun hA6 (ix2 n 0),
    congrFun hA6 (ix2 n 1),
    congrFun hA7 (ix2 n 0),
    congrFun hA7 (ix2 n 1),
    hC3 0 n,
    hC3 1 n,
    hC3 2 n,
    hC4 0 n,
    hC4 1 n,
    hC4 2 n,
    hC5 0 n,
    hC5 1 n,
    hC6 0 n,
    hC7 0 n,
    hC7 1 n,
    hC7 2 n,
    hC7 3 n,
    hC8 0 n,
    hC8 1 n,
    hC8 2 n,
    hC8 3 n]

end Cert.Proof.Assembly

end
-- ==== Proof.FrameI.lean ====
import proofs.«151772_j21234318312201_1_alg».proof.Proof.Gen.KernelIdeal.Launch
import proofs.«151772_j21234318312201_1_alg».proof.Proof.Gen.KernelIdeal.Skeleton
import proofs.«151772_j21234318312201_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of `KernelIdeal`

`@main` is thirty-five stretches of host operations, one pipelined region of 128 grid points, and one last host
stretch (a transpose of the region's result). This module proves that every weakly fair execution of `@main`
terminates without fault, that the region's two arrays end at what the pipeline computes from the body's
per-point effect, and that every other unscoped buffer ends as the last stretch leaves it; read at the seventeen
argument arrays, which no operation of `@main` writes, that is the frame claim.

The body at a grid point loads its whole input block `x0` (29 × 16384), loads its output block once (a value it
never uses) and stores the whole output block (2 × 16384) with `outBlk x0`; so after the body the output window's
buffer holds `out0_1 x0`, whatever it held before.
-/

-- membership in a rectangle of these extents and the long literal lists of host operations recurse once per
-- coordinate, respectively once per operation
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `@main` around the region -/

/-- The host stretches of `@main` before the region, in program order. -/
abbrev preLists : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20, hostOps0_21, hostOps0_22, hostOps0_23, hostOps0_24, hostOps0_25, hostOps0_26, hostOps0_27,
   hostOps0_28, hostOps0_29, hostOps0_30, hostOps0_31, hostOps0_32, hostOps0_33, hostOps0_34]

/-- Core `c`'s TensorCore buffer contents when the region is entered, as a valuation: the launch contents `m`
    rewritten by every host operation before the region, in order. -/
abbrev V0 (c : Dev nD) : Valuation τ sig (Elt F) := StableHlo.after (List.flatten preLists) (fun b => m (c, b))
/-- The same read at a TensorCore reference. -/
abbrev V (c : Dev nD) (b : Ref sig .tc) : Buf (Elt F) ((c : Thread nD τ).loc b) := V0 m c (Proc.devRef .tc b)

/-! ## The host stretches allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- `@main` around the region, at any variants `𝒱₀`: the host stretches before it, the region, the host stretch after
    it. `@main` is the chain of exactly these items (`main_chain`), each earlier stretch touches TensorCore references
    only and allocates nothing; so `@main` reduces to the region entered at contents `V` and continued by the last
    stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preLists [hostOps1]
    ⟨hostOps0_sub, hostOps0_1_sub, hostOps0_2_sub, hostOps0_3_sub, hostOps0_4_sub, hostOps0_5_sub, hostOps0_6_sub,
     hostOps0_7_sub, hostOps0_8_sub, hostOps0_9_sub, hostOps0_10_sub, hostOps0_11_sub, hostOps0_12_sub, hostOps0_13_sub,
     hostOps0_14_sub, hostOps0_15_sub, hostOps0_16_sub, hostOps0_17_sub, hostOps0_18_sub, hostOps0_19_sub, hostOps0_20_sub,
     hostOps0_21_sub, hostOps0_22_sub, hostOps0_23_sub, hostOps0_24_sub, hostOps0_25_sub, hostOps0_26_sub, hostOps0_27_sub,
     hostOps0_28_sub, hostOps0_29_sub, hostOps0_30_sub, hostOps0_31_sub, hostOps0_32_sub, hostOps0_33_sub, hostOps0_34_sub⟩
    ⟨hostOps0_fresh, hostOps0_1_fresh, hostOps0_2_fresh, hostOps0_3_fresh, hostOps0_4_fresh, hostOps0_5_fresh, hostOps0_6_fresh,
     hostOps0_7_fresh, hostOps0_8_fresh, hostOps0_9_fresh, hostOps0_10_fresh, hostOps0_11_fresh, hostOps0_12_fresh, hostOps0_13_fresh,
     hostOps0_14_fresh, hostOps0_15_fresh, hostOps0_16_fresh, hostOps0_17_fresh, hostOps0_18_fresh, hostOps0_19_fresh, hostOps0_20_fresh,
     hostOps0_21_fresh, hostOps0_22_fresh, hostOps0_23_fresh, hostOps0_24_fresh, hostOps0_25_fresh, hostOps0_26_fresh, hostOps0_27_fresh,
     hostOps0_28_fresh, hostOps0_29_fresh, hostOps0_30_fresh, hostOps0_31_fresh, hostOps0_32_fresh, hostOps0_33_fresh, hostOps0_34_fresh⟩
    main_chain

/-! ## No host operation writes an argument array -/

/-- The argument arrays of `@main`. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- A write set of one buffer misses every argument array when that buffer is none of them (distinct references
    are distinct device buffers). -/
theorem args_not_mem_single {y : Ref sig .tc} (hy : y ∉ argRefs) :
    ∀ r ∈ argRefs, Proc.devRef (τ := τ) .tc r ∉ ({Proc.devRef .tc y} : Finset (DevRef τ sig)) := by
  intro r hr h
  rw [Finset.mem_singleton] at h
  exact hy (Proc.devRef_injective _ h ▸ hr)

/-- No operation of the stretch writes an argument array. -/
abbrev KeepsArgs (ops : List (HloOp τ sig (Elt F))) : Prop :=
  ops.Forall fun op => ∀ r ∈ argRefs, Proc.devRef (τ := τ) .tc r ∉ op.writes

/- Stretch by stretch: every operation writes exactly its result buffer, a value buffer of `@main` or of a called
   function, and that reference is none of the seventeen (decided on the references). -/
set_option maxHeartbeats 1000000 in
theorem keepsArgs0 : KeepsArgs (F := F) hostOps0 := by
  simp only [KeepsArgs, hostOps0, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs1 : KeepsArgs (F := F) hostOps0_1 := by
  simp only [KeepsArgs, hostOps0_1, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs2 : KeepsArgs (F := F) hostOps0_2 := by
  simp only [KeepsArgs, hostOps0_2, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs3 : KeepsArgs (F := F) hostOps0_3 := by
  simp only [KeepsArgs, hostOps0_3, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs4 : KeepsArgs (F := F) hostOps0_4 := by
  simp only [KeepsArgs, hostOps0_4, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs5 : KeepsArgs (F := F) hostOps0_5 := by
  simp only [KeepsArgs, hostOps0_5, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs6 : KeepsArgs (F := F) hostOps0_6 := by
  simp only [KeepsArgs, hostOps0_6, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs7 : KeepsArgs (F := F) hostOps0_7 := by
  simp only [KeepsArgs, hostOps0_7, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs8 : KeepsArgs (F := F) hostOps0_8 := by
  simp only [KeepsArgs, hostOps0_8, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs9 : KeepsArgs (F := F) hostOps0_9 := by
  simp only [KeepsArgs, hostOps0_9, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs10 : KeepsArgs (F := F) hostOps0_10 := by
  simp only [KeepsArgs, hostOps0_10, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs11 : KeepsArgs (F := F) hostOps0_11 := by
  simp only [KeepsArgs, hostOps0_11, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs12 : KeepsArgs (F := F) hostOps0_12 := by
  simp only [KeepsArgs, hostOps0_12, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs13 : KeepsArgs (F := F) hostOps0_13 := by
  simp only [KeepsArgs, hostOps0_13, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs14 : KeepsArgs (F := F) hostOps0_14 := by
  simp only [KeepsArgs, hostOps0_14, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs15 : KeepsArgs (F := F) hostOps0_15 := by
  simp only [KeepsArgs, hostOps0_15, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs16 : KeepsArgs (F := F) hostOps0_16 := by
  simp only [KeepsArgs, hostOps0_16, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs17 : KeepsArgs (F := F) hostOps0_17 := by
  simp only [KeepsArgs, hostOps0_17, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs18 : KeepsArgs (F := F) hostOps0_18 := by
  simp only [KeepsArgs, hostOps0_18, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs19 : KeepsArgs (F := F) hostOps0_19 := by
  simp only [KeepsArgs, hostOps0_19, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs20 : KeepsArgs (F := F) hostOps0_20 := by
  simp only [KeepsArgs, hostOps0_20, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs21 : KeepsArgs (F := F) hostOps0_21 := by
  simp only [KeepsArgs, hostOps0_21, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs22 : KeepsArgs (F := F) hostOps0_22 := by
  simp only [KeepsArgs, hostOps0_22, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs23 : KeepsArgs (F := F) hostOps0_23 := by
  simp only [KeepsArgs, hostOps0_23, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs24 : KeepsArgs (F := F) hostOps0_24 := by
  simp only [KeepsArgs, hostOps0_24, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs25 : KeepsArgs (F := F) hostOps0_25 := by
  simp only [KeepsArgs, hostOps0_25, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs26 : KeepsArgs (F := F) hostOps0_26 := by
  simp only [KeepsArgs, hostOps0_26, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs27 : KeepsArgs (F := F) hostOps0_27 := by
  simp only [KeepsArgs, hostOps0_27, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs28 : KeepsArgs (F := F) hostOps0_28 := by
  simp only [KeepsArgs, hostOps0_28, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs29 : KeepsArgs (F := F) hostOps0_29 := by
  simp only [KeepsArgs, hostOps0_29, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs30 : KeepsArgs (F := F) hostOps0_30 := by
  simp only [KeepsArgs, hostOps0_30, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs31 : KeepsArgs (F := F) hostOps0_31 := by
  simp only [KeepsArgs, hostOps0_31, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs32 : KeepsArgs (F := F) hostOps0_32 := by
  simp only [KeepsArgs, hostOps0_32, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs33 : KeepsArgs (F := F) hostOps0_33 := by
  simp only [KeepsArgs, hostOps0_33, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgs34 : KeepsArgs (F := F) hostOps0_34 := by
  simp only [KeepsArgs, hostOps0_34, List.Forall, StableHlo.nullary_writes, StableHlo.unary_writes, StableHlo.binary_writes,
    StableHlo.ternary_writes, StableHlo.reshape_writes, StableHlo.nary_writes]
  repeat' apply And.intro
  all_goals exact args_not_mem_single (by decide)
set_option maxHeartbeats 1000000 in
theorem keepsArgsPost : KeepsArgs (F := F) hostOps1 := by
  simp only [KeepsArgs, hostOps1, List.Forall, StableHlo.nullary_writes, StableHlo.unary_writes, StableHlo.binary_writes,
    StableHlo.ternary_writes, StableHlo.reshape_writes, StableHlo.nary_writes]
  repeat' apply And.intro
  all_goals exact args_not_mem_single (by decide)

/-- No operation before the region writes an argument array: an operation of the flattened prefix lies in one of the
    thirty-five stretches. -/
theorem keepsArgs_pre : ∀ op ∈ List.flatten (preLists (F := F)), ∀ r ∈ argRefs, Proc.devRef (τ := τ) .tc r ∉ op.writes := by
  intro op hop
  obtain ⟨l, hl, hopl⟩ := List.mem_flatten.mp hop
  have hall : (preLists (F := F)).Forall fun ops => KeepsArgs ops :=
    ⟨keepsArgs0, keepsArgs1, keepsArgs2, keepsArgs3, keepsArgs4, keepsArgs5, keepsArgs6, keepsArgs7, keepsArgs8, keepsArgs9,
     keepsArgs10, keepsArgs11, keepsArgs12, keepsArgs13, keepsArgs14, keepsArgs15, keepsArgs16, keepsArgs17, keepsArgs18,
     keepsArgs19, keepsArgs20, keepsArgs21, keepsArgs22, keepsArgs23, keepsArgs24, keepsArgs25, keepsArgs26, keepsArgs27,
     keepsArgs28, keepsArgs29, keepsArgs30, keepsArgs31, keepsArgs32, keepsArgs33, keepsArgs34⟩
  exact List.forall_iff_forall_mem.mp (List.forall_iff_forall_mem.mp hall l hl) op hopl

/-- Nor does the stretch after it. -/
theorem keepsArgs_post : ∀ op ∈ List.flatten [(hostOps1 : List (HloOp τ sig (Elt F)))], ∀ r ∈ argRefs,
    Proc.devRef (τ := τ) .tc r ∉ op.writes := by
  intro op hop
  obtain ⟨l, hl, hopl⟩ := List.mem_flatten.mp hop
  obtain rfl := List.mem_singleton.mp hl
  exact List.forall_iff_forall_mem.mp keepsArgsPost op hopl

/-- The region's two arrays are value buffers of `@main`, not arguments. -/
theorem arr_not_arg : ∀ w, Pipeline.arrRef spec0 w ∉ argRefs := by decide

/-- So the region finds every argument array as launched, -/
theorem V_of_arg (c : Dev nD) {r : Ref sig .tc} (hr : r ∈ argRefs) : V m c r = m ((c : Thread nD τ).loc r) :=
  StableHlo.after_of_forall_not_mem (b := Proc.devRef .tc r) _ _ fun op hop => keepsArgs_pre op hop r hr

/-- and `@main` ends with it as launched: the last stretch does not write it, and the region's exit contents differ
    from its entry contents at the two arrays only. -/
theorem W_of_arg (dats : (p : Fin 1) → (c : Dev nD) → Dat τ (Elt F) Unit ℕ (UR sig nD τ) ℕ (cfgs p) c) (c : Dev nD)
    {r : Ref sig .tc} (hr : r ∈ argRefs) :
    Pipeline.afterTail₀ cfgs dats 0 (V0 m) [hostOps1] c r = m ((c : Thread nD τ).loc r) := by
  unfold Pipeline.afterTail₀
  rw [StableHlo.after_of_forall_not_mem (b := Proc.devRef .tc r) _ _ (fun op hop => keepsArgs_post op hop r hr),
    Pipeline.withArrays_of_ne _ c (V0 m c) _ r (fun w h => arr_not_arg w (h ▸ hr))]
  exact V_of_arg m c hr

theorem V_main_arg0 (c : Dev nD) : V m c main_arg0 = m ((c : Thread nD τ).loc main_arg0) := V_of_arg m c (by decide)
theorem V_main_arg1 (c : Dev nD) : V m c main_arg1 = m ((c : Thread nD τ).loc main_arg1) := V_of_arg m c (by decide)
theorem V_main_arg2 (c : Dev nD) : V m c main_arg2 = m ((c : Thread nD τ).loc main_arg2) := V_of_arg m c (by decide)
theorem V_main_arg3 (c : Dev nD) : V m c main_arg3 = m ((c : Thread nD τ).loc main_arg3) := V_of_arg m c (by decide)
theorem V_main_arg4 (c : Dev nD) : V m c main_arg4 = m ((c : Thread nD τ).loc main_arg4) := V_of_arg m c (by decide)
theorem V_main_arg5 (c : Dev nD) : V m c main_arg5 = m ((c : Thread nD τ).loc main_arg5) := V_of_arg m c (by decide)
theorem V_main_arg6 (c : Dev nD) : V m c main_arg6 = m ((c : Thread nD τ).loc main_arg6) := V_of_arg m c (by decide)
theorem V_main_arg7 (c : Dev nD) : V m c main_arg7 = m ((c : Thread nD τ).loc main_arg7) := V_of_arg m c (by decide)
theorem V_main_arg8 (c : Dev nD) : V m c main_arg8 = m ((c : Thread nD τ).loc main_arg8) := V_of_arg m c (by decide)
theorem V_main_arg9 (c : Dev nD) : V m c main_arg9 = m ((c : Thread nD τ).loc main_arg9) := V_of_arg m c (by decide)
theorem V_main_arg10 (c : Dev nD) : V m c main_arg10 = m ((c : Thread nD τ).loc main_arg10) := V_of_arg m c (by decide)
theorem V_main_arg11 (c : Dev nD) : V m c main_arg11 = m ((c : Thread nD τ).loc main_arg11) := V_of_arg m c (by decide)
theorem V_main_arg12 (c : Dev nD) : V m c main_arg12 = m ((c : Thread nD τ).loc main_arg12) := V_of_arg m c (by decide)
theorem V_main_arg13 (c : Dev nD) : V m c main_arg13 = m ((c : Thread nD τ).loc main_arg13) := V_of_arg m c (by decide)
theorem V_main_arg14 (c : Dev nD) : V m c main_arg14 = m ((c : Thread nD τ).loc main_arg14) := V_of_arg m c (by decide)
theorem V_main_arg15 (c : Dev nD) : V m c main_arg15 = m ((c : Thread nD τ).loc main_arg15) := V_of_arg m c (by decide)
theorem V_main_arg16 (c : Dev nD) : V m c main_arg16 = m ((c : Thread nD τ).loc main_arg16) := V_of_arg m c (by decide)

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_of_arg m dats c (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_of_arg m dats c (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_of_arg m dats c (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_of_arg m dats c (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_of_arg m dats c (by decide)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := W_of_arg m dats c (by decide)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := W_of_arg m dats c (by decide)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := W_of_arg m dats c (by decide)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := W_of_arg m dats c (by decide)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := W_of_arg m dats c (by decide)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := W_of_arg m dats c (by decide)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := W_of_arg m dats c (by decide)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := W_of_arg m dats c (by decide)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := W_of_arg m dats c (by decide)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := W_of_arg m dats c (by decide)
theorem W_main_arg15 (dats : (p : Fin 1) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := W_of_arg m dats c (by decide)
theorem W_main_arg16 (dats : (p : Fin 1) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := W_of_arg m dats c (by decide)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof
    data whose array is `V`'s (`hA`) and whose body leaves the block in place (`hafter`): where the window was not
    fetched its block index has not moved, so the buffer still holds this point's block; the window is uncut and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The rectangle of the body's one store: the whole output block. -/
abbrev r0_1 : Rect S2x16384 := Rect.unit (s := S2x16384) ![0, 0] S2x16384.size inb_S2x16384_S2x16384_0_0

/-- The value the body stores, as one term over the input block `x0`: the two output rows, each an arithmetic
    expression (sums, products, two quotients) in rows of `x0`, concatenated along axis 0. -/
def outBlk (x0 : Vec F S29x16384 .f32) : Vec F S2x16384 .f32 :=
  k0_pay3 (k0_pay5 x0) (k0_pay9 x0) (k0_pay12 x0) (k0_pay13 x0) (k0_pay17 x0) (k0_pay18 x0) (k0_pay20 x0) (k0_pay24 x0)
    (k0_pay25 x0) (k0_pay28 x0) (k0_pay30 x0)
    (k0_pay1 (k0_pay7 x0) (k0_pay14 x0) (k0_pay15 x0) (k0_pay16 x0) (k0_pay19 x0) (k0_pay21 x0) (k0_pay22 x0) (k0_pay23 x0)
      (k0_pay26 x0) (k0_pay29 x0) (k0_pay31 x0) (k0_pay32 x0))
    (k0_pay2 (k0_pay11 x0) (k0_pay12 x0) (k0_pay13 x0) (k0_pay19 x0) (k0_pay24 x0) (k0_pay27 x0) (k0_pay29 x0) (k0_pay30 x0)
      (k0_pay33 x0) (Scalar.ofBits .f32 0x3F800000#32))

/-- The output window's staging buffer after the body, from the input block: its one store as a one-piece list. -/
def out0_1 (x0 : Vec F S29x16384 .f32) : Vec F S2x16384 .f32 :=
  View.canon [⟨r0_1, outBlk x0⟩]

/-- The one store tiles the output block (a single tile of the block's own extents), so it covers it. -/
theorem cover0_1 (p0 : Vec F S2x16384 .f32) (y : S2x16384.Idx) :
    ∃ pc ∈ ([⟨r0_1, p0⟩] : List (View.Piece (Elt F) S2x16384 .f32)), y ∈ pc.1.set :=
  View.cover_of_tiled [⟨r0_1, p0⟩] S2x16384.size (by rfl) y

/-- The rectangle of the body's one load of its input block: the whole block. -/
abbrev r0_0 : Rect S29x16384 := Rect.unit (s := S29x16384) ![0, 0] S29x16384.size inb_S29x16384_S29x16384_0_0

/-- A load through it reads the block's contents as they are: it places index `x` at `0 + 1 * x` on each axis. -/
theorem in0_ld (X : Vec F S29x16384 .f32) : View.ld X r0_0 = X := by
  funext x
  show X (r0_0.idx x) = X x
  congr 1
  funext a
  apply Fin.ext
  have h0 : ∀ b : Fin 2, (![0, 0] : Fin 2 → Nat) b = 0 := by decide
  show (![0, 0] : Fin 2 → Nat) a + 1 * (x a : Nat) = x a
  rw [h0 a]; omega

/-! ## The body's triple -/

set_option maxHeartbeats 1000000 in
/-- The kernel body on whole staging memrefs, the input's at read contents `x0` and the output's at anything, runs to
    the continuation holding the input's as it was and the output's at `out0_1 x0`. The printed body is its skeleton:
    the part that loads the input block and returns its rows' combinations, one load of the output memref whose
    value nothing reads, and one store of the whole output block; what the store leaves reads as the one-piece canon
    because the piece covers the block, and its payload is `outBlk` of the block as loaded, which is the block. -/
theorem sound_kernel (c : Dev nD) (E : Set ℕ) (i : grid0.Coords) (arg1 : Memref sig .tc .vmem S29x16384 .f32) (harg1 : arg1.IsWhole)
    (arg2 : Memref sig .tc .vmem S2x16384 .f32) (harg2 : arg2.IsWhole)
    (x0 : Vec F S29x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__compose_kernel i arg1 harg1 arg2 harg2) K := by
  simp only [cc0__compose_kernel_eq_skeleton]; unfold cc0__compose_kernel_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _)).trans ?_
  rw [← in0_ld (View.read (Elt F) arg1.view f0)]
  rfl

/-! ## The pipeline's proof data -/

/-- The proof data of the pipeline on core `c`: the arrays as the region finds them (`V`); after the body at point
    `t` the input's buffer at its block and the output's at `out0_1` of the input block; the invariant that of a body
    touching nothing but its windows (the scoped rest and the generator register, untouched); nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents: the definition projected, so that `V` (a fold over a
    thousand host operations) is never unfolded to see it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block (`before0_0`) and the output's holds something, so
    `sound_kernel` applies; the invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The stretch after the region -/

/-- It touches the pipeline's arrays and the bypassing buffers only: its buffers are unscoped TensorCore references,
    and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

/-- And it writes no array of the pipeline: its one operation transposes the output array into a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  fin_cases w <;> simp only [StableHlo.unary_writes, Finset.mem_singleton] <;> exact StableHlo.devRef_ne_of_ne (by decide)

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of `@main`
    on the TensorCores terminates, and every final state has the pipeline's two arrays at what the pipeline computes
    from the proof data and every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- The frame from a frame run: for any proof data, a run to the pipeline's frame post read at the argument arrays —
    none of them an array of the pipeline, so each is among the bypassing buffers and ends as the last stretch leaves
    it, which is as launched (`W_main_arg…`) — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c),
     ((h c).2 main_arg6 (Pipeline.mem_restRefs_of main_arg6 (by decide) (by decide))).trans (W_main_arg6 m dats c),
     ((h c).2 main_arg7 (Pipeline.mem_restRefs_of main_arg7 (by decide) (by decide))).trans (W_main_arg7 m dats c),
     ((h c).2 main_arg8 (Pipeline.mem_restRefs_of main_arg8 (by decide) (by decide))).trans (W_main_arg8 m dats c),
     ((h c).2 main_arg9 (Pipeline.mem_restRefs_of main_arg9 (by decide) (by decide))).trans (W_main_arg9 m dats c),
     ((h c).2 main_arg10 (Pipeline.mem_restRefs_of main_arg10 (by decide) (by decide))).trans (W_main_arg10 m dats c),
     ((h c).2 main_arg11 (Pipeline.mem_restRefs_of main_arg11 (by decide) (by decide))).trans (W_main_arg11 m dats c),
     ((h c).2 main_arg12 (Pipeline.mem_restRefs_of main_arg12 (by decide) (by decide))).trans (W_main_arg12 m dats c),
     ((h c).2 main_arg13 (Pipeline.mem_restRefs_of main_arg13 (by decide) (by decide))).trans (W_main_arg13 m dats c),
     ((h c).2 main_arg14 (Pipeline.mem_restRefs_of main_arg14 (by decide) (by decide))).trans (W_main_arg14 m dats c),
     ((h c).2 main_arg15 (Pipeline.mem_restRefs_of main_arg15 (by decide) (by decide))).trans (W_main_arg15 m dats c),
     ((h c).2 main_arg16 (Pipeline.mem_restRefs_of main_arg16 (by decide) (by decide))).trans (W_main_arg16 m dats c)⟩) h

/-- THE FRAME: the frame claim's statement at any float family `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (run_main m ρ)

end Cert.KernelIdeal.Fr

end
-- ==== Proof.BodyVal.lean ====
import proofs.«151772_j21234318312201_1_alg».proof.Proof.FrameI
import proofs.«151772_j21234318312201_1_alg».proof.Proof.Spec
import Idealize.ShloMosaic.Lib.ValueIdx
import Idealize.ShloMosaic.Lib.ValueLayout
import Idealize.ShloMosaic.Lib.Pipeline.Value

/-!
# The kernel body's stored block, element by element

The body loads a block `x0` of 29 feature rows by 16384 columns and stores a block of two rows. This module reads the
stored block at a column `j`: its first row is `Cert.Spec.xOf` and its second `Cert.Spec.yOf` of the 29 features
`k ↦ x0 (k, j)` of that column. Every operation of the body is elementwise but three kinds: the reshape of the block
to its own shape (the identity), the twenty-eight one-row slices (row `r` of the block), and the final stack of the two
result rows; these are read at an index first, and what is left is the arithmetic of `Cert.Spec`, operation for
operation.
-/

noncomputable section

namespace Cert.Bridge

open Idealize.ShloMosaic Idealize.ShloMosaic.ValueIdx
open Cert.KernelIdeal Cert.KernelIdeal.Gen

/-! ## One row of the block -/

/-- Row `o` of the reshaped block, as a one-row array, reads at column `j` the block at `(o, j)`: the reshape to the
    same shape is the identity and the slice shifts the row coordinate by its offset. -/
theorem sliceRow_apply (o : Nat) (hs : S29x16384.Slices ![o, 0] S1x16384) (hc : S29x16384.ShapeCasts S29x16384)
    (x0 : Vec Ideal S29x16384 .f32) (j : Fin 16384) (k : Fin 29) (hk : k.val = o) :
    extractStridedSlice S1x16384 ![o, 0] (shapeCast S29x16384 x0 hc) hs (ix2 0 j) = x0 (ix2 k j) := by
  rw [shapeCast_self]
  exact slice2_axis0_apply o x0 hs 0 j k (by rw [hk]; rfl)

section Rows
variable (x0 : Vec Ideal S29x16384 .f32) (j : Fin 16384)

/-- The features of column `j`. -/
abbrev colOf : Fin 29 → EReal := fun k => x0 (ix2 k j)

theorem pay5_at : k0_pay5 x0 (ix2 0 j) = colOf x0 j 3 := sliceRow_apply 3 slices_S29x16384_o3_0_S1x16384 shapeCasts_S29x16384_S29x16384 x0 j 3 rfl
theorem pay6_at : k0_pay6 x0 (ix2 0 j) = colOf x0 j 4 := sliceRow_apply 4 slices_S29x16384_o4_0_S1x16384 shapeCasts_S29x16384_S29x16384 x0 j 4 rfl
theorem pay7_at : k0_pay7 x0 (ix2 0 j) = colOf x0 j 5 := sliceRow_apply 5 slices_S29x16384_o5_0_S1x16384 shapeCasts_S29x16384_S29x16384 x0 j 5 rfl
theorem pay8_at : k0_pay8 x0 (ix2 0 j) = colOf x0 j 6 := sliceRow_apply 6 slices_S29x16384_o6_0_S1x16384 shapeCasts_S29x16384_S29x16384 x0 j 6 rfl
theorem pay9_at : k0_pay9 x0 (ix2 0 j) = colOf x0 j 7 := sliceRow_apply 7 slices_S29x16384_o7_0_S1x16384 shapeCasts_S29x16384_S29x16384 x0 j 7 rfl
theorem pay10_at : k0_pay10 x0 (ix2 0 j) = colOf x0 j 8 := sliceRow_apply 8 slices_S29x16384_o8_0_S1x16384 shapeCasts_S29x16384_S29x16384 x0 j 8 rfl
theorem pay11_at : k0_pay11 x0 (ix2 0 j) = colOf x0 j 9 := sliceRow_apply 9 slices_S29x16384_o9_0_S1x16384 shapeCasts_S29x16384_S29x16384 x0 j 9 rfl
theorem pay12_at : k0_pay12 x0 (ix2 0 j) = colOf x0 j 10 := sliceRow_apply 10 slices_S29x16384_o10_0_S1x16384 shapeCasts_S29x16384_S29x16384 x0 j 10 rfl
theorem pay13_at : k0_pay13 x0 (ix2 0 j) = colOf x0 j 11 := sliceRow_apply 11 slices_S29x16384_o11_0_S1x16384 shapeCasts_S29x16384_S29x16384 x0 j 11 rfl
theorem pay14_at : k0_pay14 x0 (ix2 0 j) = colOf x0 j 12 := sliceRow_apply 12 slices_S29x16384_o12_0_S1x16384 shapeCasts_S29x16384_S29x16384 x0 j 12 rfl
theorem pay15_at : k0_pay15 x0 (ix2 0 j) = colOf x0 j 13 := sliceRow_apply 13 slices_S29x16384_o13_0_S1x16384 shapeCasts_S29x16384_S29x16384 x0 j 13 rfl
theorem pay16_at : k0_pay16 x0 (ix2 0 j) = colOf x0 j 14 := sliceRow_apply 14 slices_S29x16384_o14_0_S1x16384 shapeCasts_S29x16384_S29x16384 x0 j 14 rfl
theorem pay17_at : k0_pay17 x0 (ix2 0 j) = colOf x0 j 18 := sliceRow_apply 18 slices_S29x16384_o18_0_S1x16384 shapeCasts_S29x16384_S29x16384 x0 j 18 rfl
theorem pay18_at : k0_pay18 x0 (ix2 0 j) = colOf x0 j 19 := sliceRow_apply 19 slices_S29x16384_o19_0_S1x16384 shapeCasts_S29x16384_S29x16384 x0 j 19 rfl
theorem pay19_at : k0_pay19 x0 (ix2 0 j) = colOf x0 j 20 := sliceRow_apply 20 slices_S29x16384_o20_0_S1x16384 shapeCasts_S29x16384_S29x16384 x0 j 20 rfl
theorem pay20_at : k0_pay20 x0 (ix2 0 j) = colOf x0 j 21 := sliceRow_apply 21 slices_S29x16384_o21_0_S1x16384 shapeCasts_S29x16384_S29x16384 x0 j 21 rfl
theorem pay21_at : k0_pay21 x0 (ix2 0 j) = colOf x0 j 22 := sliceRow_apply 22 slices_S29x16384_o22_0_S1x16384 shapeCasts_S29x16384_S29x16384 x0 j 22 rfl
theorem pay22_at : k0_pay22 x0 (ix2 0 j) = colOf x0 j 23 := sliceRow_apply 23 slices_S29x16384_o23_0_S1x16384 shapeCasts_S29x16384_S29x16384 x0 j 23 rfl
theorem pay23_at : k0_pay23 x0 (ix2 0 j) = colOf x0 j 24 := sliceRow_apply 24 slices_S29x16384_o24_0_S1x16384 shapeCasts_S29x16384_S29x16384 x0 j 24 rfl
theorem pay24_at : k0_pay24 x0 (ix2 0 j) = colOf x0 j 25 := sliceRow_apply 25 slices_S29x16384_o25_0_S1x16384 shapeCasts_S29x16384_S29x16384 x0 j 25 rfl
theorem pay25_at : k0_pay25 x0 (ix2 0 j) = colOf x0 j 26 := sliceRow_apply 26 slices_S29x16384_o26_0_S1x16384 shapeCasts_S29x16384_S29x16384 x0 j 26 rfl
theorem pay26_at : k0_pay26 x0 (ix2 0 j) = colOf x0 j 27 := sliceRow_apply 27 slices_S29x16384_o27_0_S1x16384 shapeCasts_S29x16384_S29x16384 x0 j 27 rfl
theorem pay27_at : k0_pay27 x0 (ix2 0 j) = colOf x0 j 28 := sliceRow_apply 28 slices_S29x16384_o28_0_S1x16384 shapeCasts_S29x16384_S29x16384 x0 j 28 rfl

/-! ## The intermediate values the body shares between its two results -/

/-- roughNoh₁ squared. -/
theorem pay28_at : k0_pay28 x0 (ix2 0 j) = Cert.Spec.noh2 (colOf x0 j) := by
  have h0 := sliceRow_apply 0 slices_S29x16384_o0_0_S1x16384 shapeCasts_S29x16384_S29x16384 x0 j 0 rfl
  show extractStridedSlice S1x16384 ![0, 0] (shapeCast S29x16384 x0 _) _ (ix2 0 j)
      * extractStridedSlice S1x16384 ![0, 0] (shapeCast S29x16384 x0 _) _ (ix2 0 j) = colOf x0 j 0 * colOf x0 j 0
  rw [h0]

/-- 1 − metallicity. -/
theorem pay30_at : k0_pay30 x0 (ix2 0 j) = Cert.Spec.omm (colOf x0 j) := by
  show Cert.Spec.c1 - k0_pay6 x0 (ix2 0 j) = Cert.Spec.c1 - colOf x0 j 4
  rw [pay6_at]

/-- (1 − metallicity) · lumCs₀. -/
theorem pay31_at : k0_pay31 x0 (ix2 0 j) = Cert.Spec.cd (colOf x0 j) := by
  show k0_pay30 x0 (ix2 0 j) * k0_pay8 x0 (ix2 0 j) = Cert.Spec.omm (colOf x0 j) * colOf x0 j 6
  rw [pay30_at, pay8_at]

/-- The metallic specular coefficient. -/
theorem pay32_at : k0_pay32 x0 (ix2 0 j) = Cert.Spec.cm0 (colOf x0 j) := by
  show k0_pay10 x0 (ix2 0 j) * Cert.Spec.c01 * k0_pay30 x0 (ix2 0 j) * k0_pay11 x0 (ix2 0 j)
      + k0_pay6 x0 (ix2 0 j) * k0_pay8 x0 (ix2 0 j)
    = colOf x0 j 8 * Cert.Spec.c01 * Cert.Spec.omm (colOf x0 j) * colOf x0 j 9 + colOf x0 j 4 * colOf x0 j 6
  rw [pay10_at, pay30_at, pay11_at, pay6_at, pay8_at]

/-- spst₀ · 0.1 · (1 − metallicity). -/
theorem pay33_at : k0_pay33 x0 (ix2 0 j) = colOf x0 j 8 * Cert.Spec.c01 * Cert.Spec.omm (colOf x0 j) := by
  show k0_pay10 x0 (ix2 0 j) * Cert.Spec.c01 * k0_pay30 x0 (ix2 0 j) = _
  rw [pay10_at, pay30_at]

/-- 0.25 / (nDotLV₁ · den²). -/
theorem pay29_at : k0_pay29 x0 (ix2 0 j) = Cert.Spec.dTerm (colOf x0 j) := by
  have h1 := sliceRow_apply 1 slices_S29x16384_o1_0_S1x16384 shapeCasts_S29x16384_S29x16384 x0 j 1 rfl
  have h15 := sliceRow_apply 15 slices_S29x16384_o15_0_S1x16384 shapeCasts_S29x16384_S29x16384 x0 j 15 rfl
  have h16 := sliceRow_apply 16 slices_S29x16384_o16_0_S1x16384 shapeCasts_S29x16384_S29x16384 x0 j 16 rfl
  have h17 := sliceRow_apply 17 slices_S29x16384_o17_0_S1x16384 shapeCasts_S29x16384_S29x16384 x0 j 17 rfl
  show Ideal.div Cert.Spec.c025
      (k0_pay5 x0 (ix2 0 j) *
        ((extractStridedSlice S1x16384 ![15, 0] (shapeCast S29x16384 x0 _) _ (ix2 0 j)
              * (extractStridedSlice S1x16384 ![1, 0] (shapeCast S29x16384 x0 _) _ (ix2 0 j)
                  * extractStridedSlice S1x16384 ![1, 0] (shapeCast S29x16384 x0 _) _ (ix2 0 j))
            + extractStridedSlice S1x16384 ![16, 0] (shapeCast S29x16384 x0 _) _ (ix2 0 j) * k0_pay28 x0 (ix2 0 j)
            + extractStridedSlice S1x16384 ![17, 0] (shapeCast S29x16384 x0 _) _ (ix2 0 j))
          * (extractStridedSlice S1x16384 ![15, 0] (shapeCast S29x16384 x0 _) _ (ix2 0 j)
              * (extractStridedSlice S1x16384 ![1, 0] (shapeCast S29x16384 x0 _) _ (ix2 0 j)
                  * extractStridedSlice S1x16384 ![1, 0] (shapeCast S29x16384 x0 _) _ (ix2 0 j))
            + extractStridedSlice S1x16384 ![16, 0] (shapeCast S29x16384 x0 _) _ (ix2 0 j) * k0_pay28 x0 (ix2 0 j)
            + extractStridedSlice S1x16384 ![17, 0] (shapeCast S29x16384 x0 _) _ (ix2 0 j))))
    = Ideal.div Cert.Spec.c025 (colOf x0 j 3 * (Cert.Spec.den (colOf x0 j) * Cert.Spec.den (colOf x0 j)))
  rw [h1, h15, h16, h17, pay5_at, pay28_at]
  rfl

end Rows

/-! ## The two result rows -/

/-- The first stored row at column `j` is the first result of the column's features. -/
theorem outBlk_x (x0 : Vec Ideal Cert.KernelIdeal.S29x16384 .f32) (j : Fin 16384) :
    Cert.KernelIdeal.Fr.outBlk x0 (ix2 0 j) = Cert.Spec.xOf (fun k => x0 (ix2 k j)) := by
  unfold Cert.KernelIdeal.Fr.outBlk k0_pay3
  refine (concatenate_pair_apply_left (t := S2x16384) (s₁ := S1x16384) (s₂ := S1x16384) (0 : Fin 2) _ _ _
    (ix2 (0 : Fin 2) j) rfl (ix2 (0 : Fin 1) j)
    (fun b => by
      match b with
      | ⟨0, _⟩ => rfl
      | ⟨1, _⟩ => rfl)).trans ?_
  show k0_pay14 x0 (ix2 0 j) * k0_pay31 x0 (ix2 0 j) * k0_pay7 x0 (ix2 0 j) * k0_pay21 x0 (ix2 0 j)
        + k0_pay15 x0 (ix2 0 j) * k0_pay31 x0 (ix2 0 j) * k0_pay22 x0 (ix2 0 j)
        + k0_pay16 x0 (ix2 0 j) * k0_pay31 x0 (ix2 0 j) * k0_pay23 x0 (ix2 0 j)
        + k0_pay32 x0 (ix2 0 j) * k0_pay19 x0 (ix2 0 j) * k0_pay26 x0 (ix2 0 j) * k0_pay29 x0 (ix2 0 j)
        + k0_pay12 x0 (ix2 0 j) * k0_pay30 x0 (ix2 0 j) * k0_pay13 x0 (ix2 0 j) * k0_pay24 x0 (ix2 0 j)
      = Cert.Spec.xOf (colOf x0 j)
  rw [pay14_at, pay31_at, pay7_at, pay21_at, pay15_at, pay22_at, pay16_at, pay23_at, pay32_at, pay19_at, pay26_at,
    pay29_at, pay12_at, pay30_at, pay13_at, pay24_at]
  rfl

/-- The second stored row at column `j` is the second result of the column's features. -/
theorem outBlk_y (x0 : Vec Ideal Cert.KernelIdeal.S29x16384 .f32) (j : Fin 16384) :
    Cert.KernelIdeal.Fr.outBlk x0 (ix2 1 j) = Cert.Spec.yOf (fun k => x0 (ix2 k j)) := by
  unfold Cert.KernelIdeal.Fr.outBlk k0_pay3
  refine (concatenate_pair_apply_right (t := S2x16384) (s₁ := S1x16384) (s₂ := S1x16384) (0 : Fin 2) _ _ _
    (ix2 (1 : Fin 2) j) rfl rfl (ix2 (0 : Fin 1) j)
    (fun b hb => by
      match b with
      | ⟨0, _⟩ => exact absurd rfl hb
      | ⟨1, _⟩ => rfl) rfl).trans ?_
  show ((Cert.Spec.c1 - k0_pay33 x0 (ix2 0 j) * (Cert.Spec.c1 - k0_pay11 x0 (ix2 0 j))) * k0_pay27 x0 (ix2 0 j)
            + k0_pay33 x0 (ix2 0 j) * (Cert.Spec.c1 - k0_pay11 x0 (ix2 0 j)))
          * k0_pay19 x0 (ix2 0 j) * k0_pay29 x0 (ix2 0 j)
        + k0_pay12 x0 (ix2 0 j) * k0_pay30 x0 (ix2 0 j) * (Cert.Spec.c1 - k0_pay13 x0 (ix2 0 j)) * k0_pay24 x0 (ix2 0 j)
        + Ideal.div (Cert.Spec.c00625 * k0_pay9 x0 (ix2 0 j) * k0_pay25 x0 (ix2 0 j) * k0_pay20 x0 (ix2 0 j))
            (k0_pay5 x0 (ix2 0 j) * (k0_pay17 x0 (ix2 0 j) * k0_pay28 x0 (ix2 0 j) + k0_pay18 x0 (ix2 0 j)))
      = Cert.Spec.yOf (colOf x0 j)
  rw [pay33_at, pay11_at, pay27_at, pay19_at, pay29_at, pay12_at, pay30_at, pay13_at, pay24_at, pay9_at, pay25_at,
    pay20_at, pay5_at, pay17_at, pay28_at, pay18_at]
  rfl

end Cert.Bridge

end
-- ==== Proof.KVal.lean ====
import proofs.«151772_j21234318312201_1_alg».proof.Proof.FrameI
import proofs.«151772_j21234318312201_1_alg».proof.Proof.Spec
import proofs.«151772_j21234318312201_1_alg».proof.Proof.BodyVal
import Idealize.ShloMosaic.Lib.Pipeline.Value
import Idealize.ShloMosaic.Lib.ValueIdx
import Idealize.ShloMosaic.Lib.ValueLayout
import Idealize.ShloMosaic.Lib.StableHlo.Run

/-!
# The value of the kernel program's result

The region has 128 grid points. Point `t` reads columns `16384·t … 16384·t + 16383` of the 29-row feature array and
writes the same columns of the 2-row result array: row 0 of a column is the shading composition's first number of the
column's 29 features, row 1 its second. The 128 column blocks tile the result array, so after the region the array is
that function of the feature array at every index; the host operation after the region transposes it.
-/

noncomputable section

namespace Cert.KernelIdeal.KVal

open Cert.KernelIdeal Cert.KernelIdeal.Gen
open Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The result array as one function of the feature array -/

/-- The result array, column by column: row 0 holds the composition's first number of the column's 29 features,
    row 1 its second. -/
def G (feat : Vec Ideal S29x2097152 .f32) : Vec Ideal S2x2097152 .f32 := fun i =>
  if (i 0).val = 0 then Cert.Spec.xOf (fun k => feat (ix2 k (i 1))) else Cert.Spec.yOf (fun k => feat (ix2 k (i 1)))

theorem hz : (![0, 0] : Fin 2 → Nat) = fun _ => 0 := funext fun a => by fin_cases a <;> rfl

/-- The two index maps over the grid: both windows stay on row block 0, and point `t` is on column block `t`. -/
theorem idx_facts : ∀ t : Fin cfg0.N, win0_1.index t (0 : Fin 2) = 0 ∧ win0_1.index t (1 : Fin 2) = t.val
    ∧ win0_0.index t (0 : Fin 2) = 0 ∧ win0_0.index t (1 : Fin 2) = t.val :=
  (by decide +kernel : ∀ t : Fin grid0.N, _)

/-! ## One grid point -/

/-- What the body stores, read at an element of its block: the element at row `y 0`, column `y 1` of the block is
    the result array's function at row `y 0`, column `16384·n + y 1`, when the input block is columns
    `16384·n …` of the feature array. -/
theorem outBlk_apply (x0 : Vec Ideal S29x16384 .f32) (feat : Vec Ideal S29x2097152 .f32) (n : Nat)
    (hx : ∀ (k : Fin 29) (j : Fin 16384) (q : Fin 2097152), q.val = 16384 * n + j.val → x0 (ix2 k j) = feat (ix2 k q))
    (y : S2x16384.Idx) (i : S2x2097152.Idx) (hi0 : (i 0).val = (y 0).val) (hi1 : (i 1).val = 16384 * n + (y 1).val) :
    Fr.outBlk x0 y = G feat i := by
  obtain ⟨r, j, rfl⟩ : ∃ (r : Fin 2) (j : Fin 16384), y = ix2 r j := ⟨y 0, y 1, eq_ix2 y⟩
  have h0 : (i 0).val = r.val := hi0
  have h1 : (i 1).val = 16384 * n + j.val := hi1
  have hcol : (fun k : Fin 29 => x0 (ix2 k j)) = fun k : Fin 29 => feat (ix2 k (i 1)) :=
    funext fun k => hx k j (i 1) h1
  unfold G
  match r with
  | ⟨0, _⟩ =>
    rw [if_pos h0]
    exact (Cert.Bridge.outBlk_x x0 j).trans (congrArg Cert.Spec.xOf hcol)
  | ⟨1, _⟩ =>
    rw [if_neg (by rw [h0]; exact Nat.one_ne_zero)]
    exact (Cert.Bridge.outBlk_y x0 j).trans (congrArg Cert.Spec.yOf hcol)

/-- The input window's block at point `t` is columns `16384·t … 16384·t + 16383` of the feature array. -/
theorem iblk_apply (c : Dev nD) (t : Fin cfg0.N) (k : Fin 29) (j : Fin 16384) (q : Fin 2097152)
    (hq : q.val = 16384 * t.val + j.val) :
    (Fr.iblk m c 0 t : Vec Ideal S29x16384 .f32) (ix2 k j) = (Fr.V m c main_v722 : Vec Ideal S29x2097152 .f32) (ix2 k q) := by
  obtain ⟨-, -, e0, e1⟩ := idx_facts t
  unfold Fr.iblk
  rw [View.read_apply]
  show Fr.V m c main_v722 _ = Fr.V m c main_v722 _
  congr 1
  funext a
  apply Fin.ext
  match a with
  | ⟨0, _⟩ => show win0_0.index t (0 : Fin 2) * 29 + 1 * k.val = k.val; rw [e0]; omega
  | ⟨1, _⟩ => show win0_0.index t (1 : Fin 2) * 16384 + 1 * j.val = q.val; rw [e1, hq]; omega

/-- What point `t` writes back is block `t` of `G` of the feature array as the region finds it. -/
theorem flushed_eq (c : Dev nD) (t : Fin cfg0.N) :
    (Fr.dats m 0 c).flushed 1 t = ((cfg0.win 1).blk t).view.read (Elt Ideal) (G (Fr.V m c main_v722)) := by
  show (cfg0.win 1).cut (grid0.coords t) ((Fr.dats m 0 c).after 1 t) = _
  rw [Fr.after0_1]
  unfold Fr.out0_1
  rw [View.canon_unit_zero hz]
  obtain ⟨e0, e1, -, -⟩ := idx_facts t
  funext y
  show Fr.outBlk (Fr.iblk m c 0 t) y = G (Fr.V m c main_v722) (((cfg0.win 1).blk t).view.emb y)
  refine outBlk_apply (Fr.iblk m c 0 t) (Fr.V m c main_v722) t.val (fun k j q hq => iblk_apply m c t k j q hq) y _ ?_ ?_
  · show win0_1.index t (0 : Fin 2) * 2 + 1 * (y 0).val = (y 0).val
    rw [e0]; omega
  · show win0_1.index t (1 : Fin 2) * 16384 + 1 * (y 1).val = 16384 * t.val + (y 1).val
    rw [e1]; omega

/-! ## The blocks cover the array -/

/-- An index of the result array is in point `t`'s block iff each coordinate is in the block's range on its axis. -/
theorem mem_blk (t : Fin cfg0.N) (i : S2x2097152.Idx) :
    i ∈ ((cfg0.win 1).blk t).view.set ↔ ∀ a : Fin 2, win0_1.index t a * S2x16384.size a ≤ (i a).val ∧ (i a).val < win0_1.index t a * S2x16384.size a + S2x16384.size a := by
  show i ∈ ((View.whole main_v723).slice (win0_1.rect t)).set ↔ _
  rw [View.set_slice_whole, Rect.mem_set_unit]
  exact Iff.rfl

/-- Every index of the result array is in the block of the point its column falls in, `column / 16384`. -/
theorem cover (i : S2x2097152.Idx) :
    ∃ t : Fin cfg0.N, (cfg0.win 1).flush t = true ∧ i ∈ ((cfg0.win 1).blk t).view.set := by
  have hi0 : (i 0).val < 2 := (i 0).isLt
  have hi1 : (i 1).val < 2097152 := (i 1).isLt
  have hN : cfg0.N = 128 := N_0
  have hlt : (i 1).val / 16384 < cfg0.N := by rw [hN]; omega
  obtain ⟨e0, e1, -, -⟩ := idx_facts ⟨(i 1).val / 16384, hlt⟩
  have e1' : win0_1.index ⟨(i 1).val / 16384, hlt⟩ (1 : Fin 2) = (i 1).val / 16384 := e1
  refine ⟨⟨(i 1).val / 16384, hlt⟩, flush0_1 _, ?_⟩
  rw [mem_blk]
  intro a
  match a with
  | ⟨0, _⟩ =>
    show win0_1.index ⟨(i 1).val / 16384, hlt⟩ (0 : Fin 2) * 2 ≤ (i 0).val ∧ (i 0).val < win0_1.index ⟨(i 1).val / 16384, hlt⟩ (0 : Fin 2) * 2 + 2
    rw [e0]; omega
  | ⟨1, _⟩ =>
    show win0_1.index ⟨(i 1).val / 16384, hlt⟩ (1 : Fin 2) * 16384 ≤ (i 1).val ∧ (i 1).val < win0_1.index ⟨(i 1).val / 16384, hlt⟩ (1 : Fin 2) * 16384 + 16384
    rw [e1']; omega

/-- The result array after the region: every block is what its grid point wrote, and the 128 blocks cover it. -/
theorem final1 (c : Dev nD) : (Fr.dats m 0 c).arrAt 1 cfg0.N = G (Fr.V m c main_v722) :=
  (Fr.dats m 0 c).arrAt_eq_of_cover 1 (G (Fr.V m c main_v722)) (fun t _ => flushed_eq m c t) cover

/-! ## The transpose after the region -/

/-- The program's result: the region's array transposed. -/
theorem tail_val (c : Dev nD) :
    Pipeline.afterTail₀ cfgs (Fr.dats m) 0 (Fr.V0 m) [hostOps1] c main_v724 = fun i => G (Fr.V m c main_v722) (ix2 (i 1) (i 0)) := by
  have hW : Pipeline.withArrays spec0 c (Fr.V0 m c) (fun w => (Fr.dats m 0 c).arrAt w cfg0.N) (Proc.devRef .tc main_v723)
      = G (Fr.V m c main_v722) :=
    (Pipeline.withArrays_arr spec0 launch0.win.arr_inj c _ _ 1).trans (final1 m c)
  unfold Pipeline.afterTail₀
  show StableHlo.after hostOps1 _ (Proc.devRef .tc main_v724) = _
  after_results
  funext i
  obtain ⟨a, b, rfl⟩ : ∃ (a : Fin 2097152) (b : Fin 2), i = ix2 a b := ⟨i 0, i 1, eq_ix2 i⟩
  refine (transpose_ix2_apply _ _ a b).trans ?_
  exact congrFun hW (ix2 b a)

/-! ## The run, read -/

/-- The kernel program's run: the result at the transposed function of the feature array, the arguments unchanged. -/
theorem run : θ_run defs (onTc (τ := τ) (main (F := Ideal))) ⟨m, fun _ => 0, ρ⟩ (fun r => ∀ c : Dev nD,
      r.2.mem ((c.tc : Thread nD τ).loc main_v724) = (fun i => G (Fr.V m c main_v722) (ix2 (i 1) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).2 main_v724 (Pipeline.mem_restRefs_of main_v724 (by decide) (by decide))).trans (tail_val m c),
      ((h c).2 main_arg0 (Pipeline.mem_restRefs_of main_arg0 (by decide) (by decide))).trans (Fr.W_main_arg0 m (Fr.dats m) c),
      ((h c).2 main_arg1 (Pipeline.mem_restRefs_of main_arg1 (by decide) (by decide))).trans (Fr.W_main_arg1 m (Fr.dats m) c),
      ((h c).2 main_arg2 (Pipeline.mem_restRefs_of main_arg2 (by decide) (by decide))).trans (Fr.W_main_arg2 m (Fr.dats m) c),
      ((h c).2 main_arg3 (Pipeline.mem_restRefs_of main_arg3 (by decide) (by decide))).trans (Fr.W_main_arg3 m (Fr.dats m) c),
      ((h c).2 main_arg4 (Pipeline.mem_restRefs_of main_arg4 (by decide) (by decide))).trans (Fr.W_main_arg4 m (Fr.dats m) c),
      ((h c).2 main_arg5 (Pipeline.mem_restRefs_of main_arg5 (by decide) (by decide))).trans (Fr.W_main_arg5 m (Fr.dats m) c),
      ((h c).2 main_arg6 (Pipeline.mem_restRefs_of main_arg6 (by decide) (by decide))).trans (Fr.W_main_arg6 m (Fr.dats m) c),
      ((h c).2 main_arg7 (Pipeline.mem_restRefs_of main_arg7 (by decide) (by decide))).trans (Fr.W_main_arg7 m (Fr.dats m) c),
      ((h c).2 main_arg8 (Pipeline.mem_restRefs_of main_arg8 (by decide) (by decide))).trans (Fr.W_main_arg8 m (Fr.dats m) c),
      ((h c).2 main_arg9 (Pipeline.mem_restRefs_of main_arg9 (by decide) (by decide))).trans (Fr.W_main_arg9 m (Fr.dats m) c),
      ((h c).2 main_arg10 (Pipeline.mem_restRefs_of main_arg10 (by decide) (by decide))).trans (Fr.W_main_arg10 m (Fr.dats m) c),
      ((h c).2 main_arg11 (Pipeline.mem_restRefs_of main_arg11 (by decide) (by decide))).trans (Fr.W_main_arg11 m (Fr.dats m) c),
      ((h c).2 main_arg12 (Pipeline.mem_restRefs_of main_arg12 (by decide) (by decide))).trans (Fr.W_main_arg12 m (Fr.dats m) c),
      ((h c).2 main_arg13 (Pipeline.mem_restRefs_of main_arg13 (by decide) (by decide))).trans (Fr.W_main_arg13 m (Fr.dats m) c),
      ((h c).2 main_arg14 (Pipeline.mem_restRefs_of main_arg14 (by decide) (by decide))).trans (Fr.W_main_arg14 m (Fr.dats m) c),
      ((h c).2 main_arg15 (Pipeline.mem_restRefs_of main_arg15 (by decide) (by decide))).trans (Fr.W_main_arg15 m (Fr.dats m) c),
      ((h c).2 main_arg16 (Pipeline.mem_restRefs_of main_arg16 (by decide) (by decide))).trans (Fr.W_main_arg16 m (Fr.dats m) c)⟩)
    (Fr.run_main m ρ)

end Cert.KernelIdeal.KVal

end
-- ==== Proof.FinalB.lean ====
/-
  The bridge: from memories agreeing on the arguments, what the reference leaves in its result buffer is the kernel
  program's result (the composition of each column's 29 features, transposed).
-/
import proofs.«151772_j21234318312201_1_alg».proof.Proof.FinalA
import proofs.«151772_j21234318312201_1_alg».proof.Proof.KVal

set_option maxRecDepth 16384

noncomputable section

namespace Cert.Proof.Assembly

open Idealize.ShloMosaic Idealize.ShloMosaic.TcCoe Idealize.SL.Sem Idealize.ShloMosaic.ValueIdx Cert.Bridge

/-! ## The two results -/

/-- The kernel program's host prefix, run as printed stretch by stretch, is the ten chunks run in order. -/
theorem V_eq_KV (m : (ℓ : Loc Cert.KernelIdeal.nD Cert.KernelIdeal.τ Cert.KernelIdeal.sig) → Buf (Elt Ideal) ℓ) (c : Dev Cert.KernelIdeal.nD) (r : Ref Cert.KernelIdeal.sig .tc) :
    Cert.KernelIdeal.Fr.V m c r = KV (StableHlo.launchContents m c) r := by
  show StableHlo.after (List.flatten Cert.KernelIdeal.Fr.preLists) (fun b => m (c, b)) (Proc.devRef .tc r) = _
  rw [show List.flatten (Cert.KernelIdeal.Fr.preLists (F := Ideal)) = Cert.KernelIdeal.KRead.All from Cert.KernelIdeal.KRead.flat_eq, Cert.KernelIdeal.KRead.after_all]

/-- THE BRIDGE: from memories agreeing on the arguments, what the reference leaves in its result buffer is the kernel
    program's result. -/
theorem bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hg0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hg1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hg2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (hg4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hg5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hg6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hg7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hg8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hg9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hg10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (hg11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hg12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (hg13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (hg14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (hg15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hg16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RRead.St11 (StableHlo.launchContents m' c) (Proc.devRef .tc Cert.ReferenceIdeal.main_v833)
      = fun i => Cert.KernelIdeal.KVal.G (Cert.KernelIdeal.Fr.V m c Cert.KernelIdeal.main_v722) (ix2 (i 1) (i 0)) := by
  have hfe := feats_agree (StableHlo.launchContents m c) (StableHlo.launchContents m' c)
    ((kv_arg0 (StableHlo.launchContents m c)).trans (hg0.symm.trans (rv_arg0 (StableHlo.launchContents m' c)).symm))
    ((kv_arg1 (StableHlo.launchContents m c)).trans (hg1.symm.trans (rv_arg1 (StableHlo.launchContents m' c)).symm))
    ((kv_arg2 (StableHlo.launchContents m c)).trans (hg2.symm.trans (rv_arg2 (StableHlo.launchContents m' c)).symm))
    ((kv_arg4 (StableHlo.launchContents m c)).trans (hg4.symm.trans (rv_arg4 (StableHlo.launchContents m' c)).symm))
    ((kv_arg5 (StableHlo.launchContents m c)).trans (hg5.symm.trans (rv_arg5 (StableHlo.launchContents m' c)).symm))
    ((kv_arg6 (StableHlo.launchContents m c)).trans (hg6.symm.trans (rv_arg6 (StableHlo.launchContents m' c)).symm))
    ((kv_arg7 (StableHlo.launchContents m c)).trans (hg7.symm.trans (rv_arg7 (StableHlo.launchContents m' c)).symm))
    ((kv_arg8 (StableHlo.launchContents m c)).trans (hg8.symm.trans (rv_arg8 (StableHlo.launchContents m' c)).symm))
    ((kv_arg9 (StableHlo.launchContents m c)).trans (hg9.symm.trans (rv_arg9 (StableHlo.launchContents m' c)).symm))
    ((kv_arg10 (StableHlo.launchContents m c)).trans (hg10.symm.trans (rv_arg10 (StableHlo.launchContents m' c)).symm))
    ((kv_arg11 (StableHlo.launchContents m c)).trans (hg11.symm.trans (rv_arg11 (StableHlo.launchContents m' c)).symm))
    ((kv_arg12 (StableHlo.launchContents m c)).trans (hg12.symm.trans (rv_arg12 (StableHlo.launchContents m' c)).symm))
    ((kv_arg13 (StableHlo.launchContents m c)).trans (hg13.symm.trans (rv_arg13 (StableHlo.launchContents m' c)).symm))
    ((kv_arg14 (StableHlo.launchContents m c)).trans (hg14.symm.trans (rv_arg14 (StableHlo.launchContents m' c)).symm))
    ((kv_arg15 (StableHlo.launchContents m c)).trans (hg15.symm.trans (rv_arg15 (StableHlo.launchContents m' c)).symm))
    ((kv_arg16 (StableHlo.launchContents m c)).trans (hg16.symm.trans (rv_arg16 (StableHlo.launchContents m' c)).symm))
  have hrc := ref_comp (StableHlo.launchContents m' c) (pr_8 (StableHlo.launchContents m' c))
  have hrow : ∀ n : Fin 2097152,
      (fun k => Cert.KernelIdeal.Fr.V m c Cert.KernelIdeal.main_v722 (ix2 k n)) = featR (StableHlo.launchContents m' c) n := by
    intro n; rw [← hfe n]; funext k; rw [V_eq_KV]; exact feat_rows (StableHlo.launchContents m c) k n
  -- from here on the two arrays and the feature vectors are opaque: nothing below looks inside them
  change RV (StableHlo.launchContents m' c) Cert.ReferenceIdeal.main_v833 = _
  revert hrc hrow
  generalize featR (StableHlo.launchContents m' c) = fr
  generalize RV (StableHlo.launchContents m' c) Cert.ReferenceIdeal.main_v833 = res
  generalize Cert.KernelIdeal.Fr.V m c Cert.KernelIdeal.main_v722 = feat
  intro hrc hrow
  funext i
  obtain ⟨n, r, rfl⟩ : ∃ (n : Fin 2097152) (r : Fin 2), i = ix2 n r := ⟨i 0, i 1, eq_ix2 i⟩
  match r with
  | ⟨0, _⟩ =>
    show res (ix2 n 0) = Cert.KernelIdeal.KVal.G feat (ix2 0 n)
    have hc : ((ix2 (0 : Fin 2) n : (⟨2, ![2, 2097152]⟩ : Shape).Idx) 0).val = 0 := rfl
    rw [(hrc n).1, ← hrow n]; unfold Cert.KernelIdeal.KVal.G; rw [if_pos hc]
  | ⟨1, _⟩ =>
    show res (ix2 n 1) = Cert.KernelIdeal.KVal.G feat (ix2 1 n)
    have hc : ¬ ((ix2 (1 : Fin 2) n : (⟨2, ![2, 2097152]⟩ : Shape).Idx) 0).val = 0 :=
      (by decide : ¬ ((1 : Fin 2).val = 0))
    rw [(hrc n).2, ← hrow n]; unfold Cert.KernelIdeal.KVal.G; rw [if_neg hc]

end Cert.Proof.Assembly

end
-- ==== Proof.Final.lean ====
/-
  The five claims, assembled.

  The kernel program's result is `G` of its feature array, transposed (the frame run read through the 128 blocks of the
  output window and the transpose after the region); the feature array's 29 rows are twelve argument columns and the
  eight looked-up tables' values, channel first; the reference holds the same 29 numbers per row, channel last (the
  eight correspondences, one per lookup, each from the agreement of the arguments and of the earlier lookups); and the
  reference's last operations combine them by the same function of a row's 29 features. So the two results are equal,
  element by element.
-/
import proofs.«151772_j21234318312201_1_alg».proof.Defs
import proofs.«151772_j21234318312201_1_alg».proof.Proof.Gen.Kernel
import proofs.«151772_j21234318312201_1_alg».proof.Proof.Gen.KernelIdeal
import proofs.«151772_j21234318312201_1_alg».proof.Proof.Gen.ReferenceIdeal
import proofs.«151772_j21234318312201_1_alg».proof.Proof.Gen.Pre_finite_inputs
import proofs.«151772_j21234318312201_1_alg».proof.Proof.FrameB
import proofs.«151772_j21234318312201_1_alg».proof.Proof.FinalB

set_option maxRecDepth 16384

noncomputable section

namespace Cert.Proof.Assembly

open Idealize.ShloMosaic Idealize.ShloMosaic.TcCoe Idealize.SL.Sem Idealize.ShloMosaic.ValueIdx Cert.Bridge

/-! ## The claims -/

/-- An argument of the reference is written by none of its operations. -/
theorem ref_arg (V : Valuation Cert.ReferenceIdeal.τ Cert.ReferenceIdeal.sig (Elt Ideal)) {r : Ref Cert.ReferenceIdeal.sig .tc}
    (h : r ∉ Cert.ReferenceIdeal.Chunks.R0w ++ (Cert.ReferenceIdeal.Chunks.R1w ++ (Cert.ReferenceIdeal.Chunks.R2w ++ (Cert.ReferenceIdeal.Chunks.R3w ++ (Cert.ReferenceIdeal.Chunks.R3bw ++ (Cert.ReferenceIdeal.Chunks.R4w ++ (Cert.ReferenceIdeal.Chunks.R5w ++ (Cert.ReferenceIdeal.Chunks.R6w ++ (Cert.ReferenceIdeal.Chunks.R7w ++ (Cert.ReferenceIdeal.Chunks.R8w ++ (Cert.ReferenceIdeal.Chunks.R9w))))))))))) :
    Cert.ReferenceIdeal.RRead.St11 V (Proc.devRef .tc r) = V (Proc.devRef .tc r) :=
  (Cert.ReferenceIdeal.RRead.in_R0 V h).symm

theorem frame_k : Cert.frame_Kernel := fun m ρ _ => Cert.Kernel.Fr.frame m ρ
theorem frame_ki : Cert.frame_KernelIdeal := fun m ρ _ => Cert.KernelIdeal.Fr.frame m ρ

theorem frame_ri : Cert.frame_ReferenceIdeal := fun m ρ _ =>
  (θ_run Cert.ReferenceIdeal.defs _ _).mono (fun r h c =>
    ⟨(h c Cert.ReferenceIdeal.main_arg0).trans (ref_arg _ (by decide)),
     (h c Cert.ReferenceIdeal.main_arg1).trans (ref_arg _ (by decide)),
     (h c Cert.ReferenceIdeal.main_arg2).trans (ref_arg _ (by decide)),
     (h c Cert.ReferenceIdeal.main_arg3).trans (ref_arg _ (by decide)),
     (h c Cert.ReferenceIdeal.main_arg4).trans (ref_arg _ (by decide)),
     (h c Cert.ReferenceIdeal.main_arg5).trans (ref_arg _ (by decide)),
     (h c Cert.ReferenceIdeal.main_arg6).trans (ref_arg _ (by decide)),
     (h c Cert.ReferenceIdeal.main_arg7).trans (ref_arg _ (by decide)),
     (h c Cert.ReferenceIdeal.main_arg8).trans (ref_arg _ (by decide)),
     (h c Cert.ReferenceIdeal.main_arg9).trans (ref_arg _ (by decide)),
     (h c Cert.ReferenceIdeal.main_arg10).trans (ref_arg _ (by decide)),
     (h c Cert.ReferenceIdeal.main_arg11).trans (ref_arg _ (by decide)),
     (h c Cert.ReferenceIdeal.main_arg12).trans (ref_arg _ (by decide)),
     (h c Cert.ReferenceIdeal.main_arg13).trans (ref_arg _ (by decide)),
     (h c Cert.ReferenceIdeal.main_arg14).trans (ref_arg _ (by decide)),
     (h c Cert.ReferenceIdeal.main_arg15).trans (ref_arg _ (by decide)),
     (h c Cert.ReferenceIdeal.main_arg16).trans (ref_arg _ (by decide))⟩)
    (Cert.ReferenceIdeal.RRead.run (F := Ideal) m ρ)

theorem algebraic : Cert.algebraic_KernelIdeal_ReferenceIdeal := by
  intro m ρ m' ρ' _ hagree
  refine ⟨_, Cert.KernelIdeal.KVal.run m ρ, ?_⟩
  refine (θ_run Cert.ReferenceIdeal.defs _ _).mono (fun r h c => ?_) (Cert.ReferenceIdeal.RRead.run (F := Ideal) m' ρ')
  obtain ⟨g0, g1, g2, g3, g4, g5, g6, g7, g8, g9, g10, g11, g12, g13, g14, g15, g16⟩ := hagree c
  exact ⟨(h c Cert.ReferenceIdeal.main_v833).trans (bridge m m' c g0 g1 g2 g4 g5 g6 g7 g8 g9 g10 g11 g12 g13 g14 g15 g16),
     (h c Cert.ReferenceIdeal.main_arg0).trans (ref_arg _ (by decide)),
     (h c Cert.ReferenceIdeal.main_arg1).trans (ref_arg _ (by decide)),
     (h c Cert.ReferenceIdeal.main_arg2).trans (ref_arg _ (by decide)),
     (h c Cert.ReferenceIdeal.main_arg3).trans (ref_arg _ (by decide)),
     (h c Cert.ReferenceIdeal.main_arg4).trans (ref_arg _ (by decide)),
     (h c Cert.ReferenceIdeal.main_arg5).trans (ref_arg _ (by decide)),
     (h c Cert.ReferenceIdeal.main_arg6).trans (ref_arg _ (by decide)),
     (h c Cert.ReferenceIdeal.main_arg7).trans (ref_arg _ (by decide)),
     (h c Cert.ReferenceIdeal.main_arg8).trans (ref_arg _ (by decide)),
     (h c Cert.ReferenceIdeal.main_arg9).trans (ref_arg _ (by decide)),
     (h c Cert.ReferenceIdeal.main_arg10).trans (ref_arg _ (by decide)),
     (h c Cert.ReferenceIdeal.main_arg11).trans (ref_arg _ (by decide)),
     (h c Cert.ReferenceIdeal.main_arg12).trans (ref_arg _ (by decide)),
     (h c Cert.ReferenceIdeal.main_arg13).trans (ref_arg _ (by decide)),
     (h c Cert.ReferenceIdeal.main_arg14).trans (ref_arg _ (by decide)),
     (h c Cert.ReferenceIdeal.main_arg15).trans (ref_arg _ (by decide)),
     (h c Cert.ReferenceIdeal.main_arg16).trans (ref_arg _ (by decide))⟩

end Cert.Proof.Assembly

end
-- ==== Proof.lean ====
/-
  A fused shading kernel against its plain reference: equal results over the extended reals.

  Both programs take nine per-row inputs of shape [2097152, 2] and eight lookup tables, and compute per row two numbers.
  Per row they look eight values up in the tables — two by nearest neighbour, six by linear or bilinear interpolation, five
  of the tables first folded by the triangle wave 2·|x/2 − floor(x/2 + 1/2)| — the later lookups taking earlier results as
  their coordinates, and then combine twelve input columns and the seventeen looked-up numbers by one rational expression.
  The kernel program keeps every per-row array channel FIRST ([L, N]: the tables transposed once, each gather reading
  table[l, u, v]), stacks the 29 features of a row into one array and evaluates the final expression inside one Pallas
  region, 16384 columns per grid point, transposing the [2, N] result at the end; the reference keeps everything channel
  LAST ([N, L]) and evaluates the same expression with host operations. Operation for operation the arithmetic is the
  same on both sides; no algebraic law is used, and the precondition (finite inputs) is never opened.

  The frames of the two kernel programs are launch-theorem runs of the one region between host operations (FrameB,
  FrameI); the reference's run is the library's run of a straight line of host operations, cut into chunks (RRead). The
  value: the region's 128 column blocks tile the result array, whose element (r, n) is the composition's r-th number of
  the feature array's column n (KVal, BodyVal); the feature array's rows are the argument columns and the lookups'
  results (BlockFeat); lookup by lookup the kernel's [L, N] array is the reference's [N, L] array transposed (Block1 …
  Block8, over the gather read at an index in both layouts, LibGather2); and the reference's last operations are the
  same composition of the same 29 numbers (BlockRefComp). Final joins them.
-/
import proofs.«151772_j21234318312201_1_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assembly.frame_k, Assembly.frame_ki, Assembly.frame_ri, trivial, Assembly.algebraic⟩

end Cert.Proof

end
